-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v105)) (v2 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_v108) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x2048 : Shape := ⟨3, ![1, 1024, 2048]⟩
abbrev S1x1x1024x1024 : Shape := ⟨4, ![1, 1, 1024, 1024]⟩
abbrev S1x1024 : Shape := ⟨2, ![1, 1024]⟩
abbrev S1024x64 : Shape := ⟨2, ![1024, 64]⟩
abbrev S2x2048 : Shape := ⟨2, ![2, 2048]⟩
abbrev S2x2048x2048 : Shape := ⟨3, ![2, 2048, 2048]⟩
abbrev S2x512x2048 : Shape := ⟨3, ![2, 512, 2048]⟩
abbrev S2x8192x2048 : Shape := ⟨3, ![2, 8192, 2048]⟩
abbrev S2x2048x8192 : Shape := ⟨3, ![2, 2048, 8192]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_
  bcast_S_S1024x64 : S_.BroadcastsInDim S1024x64 (![] : Fin 0 → Fin S1024x64.rank)
  reducesTo_S1024x64_S_d0_1 : S1024x64.ReducesTo [0, 1] S_
  bcast_S_S2x2048 : S_.BroadcastsInDim S2x2048 (![] : Fin 0 → Fin S2x2048.rank)
  reducesTo_S2x2048_S_d0_1 : S2x2048.ReducesTo [0, 1] S_
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S2x512x2048 : S_.BroadcastsInDim S2x512x2048 (![] : Fin 0 → Fin S2x512x2048.rank)
  reducesTo_S2x512x2048_S_d0_1_2 : S2x512x2048.ReducesTo [0, 1, 2] S_
  bcast_S_S2x8192x2048 : S_.BroadcastsInDim S2x8192x2048 (![] : Fin 0 → Fin S2x8192x2048.rank)
  reducesTo_S2x8192x2048_S_d0_1_2 : S2x8192x2048.ReducesTo [0, 1, 2] S_
  bcast_S_S2x2048x8192 : S_.BroadcastsInDim S2x2048x8192 (![] : Fin 0 → Fin S2x2048x8192.rank)
  reducesTo_S2x2048x8192_S_d0_1_2 : S2x2048x8192.ReducesTo [0, 1, 2] S_

variable [Facts]

def fn_part3 {F : FTy → Type} [FloatOps F] (main_arg12 : FVec F S2x8192x2048 .f32) (main_arg13 : FVec F S2x2048x8192 .f32) (main_v48 : IVec S_ 1) (main_v49 : FVec F S2x8192x2048 .f32) (main_v50 : FVec F S2x8192x2048 .f32) : IVec S_ 1 :=
  let main_v51 : IVec S2x8192x2048 1 := cmpf .olt main_v49 main_v50
  let main_c_19 : IVec S_ 1 := constantI S_ 1 1#1
  let main_v52 : IVec S_ 1 := (fun x v => Host.reduce IntOp.andi x v reducesTo_S2x8192x2048_S_d0_1_2 h_S_) main_v51 main_c_19
  let main_v53 : IVec S_ 1 := andi main_v48 main_v52
  let main_v54 : FVec F S2x8192x2048 .f32 := Host.absf main_arg12
  let main_cst_20 : FVec F S_ .f32 := constant S_ .f32 0x7F800000#32
  let main_v55 : FVec F S2x8192x2048 .f32 := broadcastInDim S2x8192x2048 ![] bcast_S_S2x8192x2048 main_cst_20
  let main_v56 : IVec S2x8192x2048 1 := cmpf .olt main_v54 main_v55
  let main_c_21 : IVec S_ 1 := constantI S_ 1 1#1
  let main_v57 : IVec S_ 1 := (fun x v => Host.reduce IntOp.andi x v reducesTo_S2x8192x2048_S_d0_1_2 h_S_) main_v56 main_c_21
  let main_v58 : IVec S_ 1 := andi main_v53 main_v57
  let main_v59 : FVec F S2x2048x8192 .f32 := Host.absf main_arg13
  let main_cst_22 : FVec F S_ .f32 := constant S_ .f32 0x7F800000#32
  let main_v60 : FVec F S2x2048x8192 .f32 := broadcastInDim S2x2048x8192 ![] bcast_S_S2x2048x8192 main_cst_22
  let main_v61 : IVec S2x2048x8192 1 := cmpf .olt main_v59 main_v60
  let main_c_23 : IVec S_ 1 := constantI S_ 1 1#1
  let main_v62 : IVec S_ 1 := (fun x v => Host.reduce IntOp.andi x v reducesTo_S2x2048x8192_S_d0_1_2 h_S_) main_v61 main_c_23
  let main_v63 : IVec S_ 1 := andi main_v58 main_v62
  main_v63

def fn_part2 {F : FTy → Type} [FloatOps F] (main_arg8 : FVec F S2x512x2048 .f32) (main_arg9 : FVec F S2x512x2048 .f32) (main_arg10 : FVec F S2x2048x2048 .f32) (main_arg11 : FVec F S2x8192x2048 .f32) (main_arg12 : FVec F S2x8192x2048 .f32) (main_arg13 : FVec F S2x2048x8192 .f32) (main_v33 : IVec S_ 1) : IVec S_ 1 :=
  let main_v34 : FVec F S2x512x2048 .f32 := Host.absf main_arg8
  let main_cst_12 : FVec F S_ .f32 := constant S_ .f32 0x7F800000#32
  let main_v35 : FVec F S2x512x2048 .f32 := broadcastInDim S2x512x2048 ![] bcast_S_S2x512x2048 main_cst_12
  let main_v36 : IVec S2x512x2048 1 := cmpf .olt main_v34 main_v35
  let main_c_13 : IVec S_ 1 := constantI S_ 1 1#1
  let main_v37 : IVec S_ 1 := (fun x v => Host.reduce IntOp.andi x v reducesTo_S2x512x2048_S_d0_1_2 h_S_) main_v36 main_c_13
  let main_v38 : IVec S_ 1 := andi main_v33 main_v37
  let main_v39 : FVec F S2x512x2048 .f32 := Host.absf main_arg9
  let main_cst_14 : FVec F S_ .f32 := constant S_ .f32 0x7F800000#32
  let main_v40 : FVec F S2x512x2048 .f32 := broadcastInDim S2x512x2048 ![] bcast_S_S2x512x2048 main_cst_14
  let main_v41 : IVec S2x512x2048 1 := cmpf .olt main_v39 main_v40
  let main_c_15 : IVec S_ 1 := constantI S_ 1 1#1
  let main_v42 : IVec S_ 1 := (fun x v => Host.reduce IntOp.andi x v reducesTo_S2x512x2048_S_d0_1_2 h_S_) main_v41 main_c_15
  let main_v43 : IVec S_ 1 := andi main_v38 main_v42
  let main_v44 : FVec F S2x2048x2048 .f32 := Host.absf main_arg10
  let main_cst_16 : FVec F S_ .f32 := constant S_ .f32 0x7F800000#32
  let main_v45 : FVec F S2x2048x2048 .f32 := broadcastInDim S2x2048x2048 ![] bcast_S_S2x2048x2048 main_cst_16
  let main_v46 : IVec S2x2048x2048 1 := cmpf .olt main_v44 main_v45
  let main_c_17 : IVec S_ 1 := constantI S_ 1 1#1
  let main_v47 : IVec S_ 1 := (fun x v => Host.reduce IntOp.andi x v reducesTo_S2x2048x2048_S_d0_1_2 h_S_) main_v46 main_c_17
  let main_v48 : IVec S_ 1 := andi main_v43 main_v47
  let main_v49 : FVec F S2x8192x2048 .f32 := Host.absf main_arg11
  let main_cst_18 : FVec F S_ .f32 := constant S_ .f32 0x7F800000#32
  let main_v50 : FVec F S2x8192x2048 .f32 := broadcastInDim S2x8192x2048 ![] bcast_S_S2x8192x2048 main_cst_18
  fn_part3 (F := F) main_arg12 main_arg13 main_v48 main_v49 main_v50

def fn_part1 {F : FTy → Type} [FloatOps F] (main_arg5 : FVec F S2x2048 .f32) (main_arg6 : FVec F S2x2048 .f32) (main_arg7 : FVec F S2x2048x2048 .f32) (main_arg8 : FVec F S2x512x2048 .f32) (main_arg9 : FVec F S2x512x2048 .f32) (main_arg10 : FVec F S2x2048x2048 .f32) (main_arg11 : FVec F S2x8192x2048 .f32) (main_arg12 : FVec F S2x8192x2048 .f32) (main_arg13 : FVec F S2x2048x8192 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S2x2048 .f32 := Host.absf main_arg5
  let main_cst_6 : FVec F S_ .f32 := constant S_ .f32 0x7F800000#32
  let main_v20 : FVec F S2x2048 .f32 := broadcastInDim S2x2048 ![] bcast_S_S2x2048 main_cst_6
  let main_v21 : IVec S2x2048 1 := cmpf .olt main_v19 main_v20
  let main_c_7 : IVec S_ 1 := constantI S_ 1 1#1
  let main_v22 : IVec S_ 1 := (fun x v => Host.reduce IntOp.andi x v reducesTo_S2x2048_S_d0_1 h_S_) main_v21 main_c_7
  let main_v23 : IVec S_ 1 := andi main_v18 main_v22
  let main_v24 : FVec F S2x2048 .f32 := Host.absf main_arg6
  let main_cst_8 : FVec F S_ .f32 := constant S_ .f32 0x7F800000#32
  let main_v25 : FVec F S2x2048 .f32 := broadcastInDim S2x2048 ![] bcast_S_S2x2048 main_cst_8
  let main_v26 : IVec S2x2048 1 := cmpf .olt main_v24 main_v25
  let main_c_9 : IVec S_ 1 := constantI S_ 1 1#1
  let main_v27 : IVec S_ 1 := (fun x v => Host.reduce IntOp.andi x v reducesTo_S2x2048_S_d0_1 h_S_) main_v26 main_c_9
  let main_v28 : IVec S_ 1 := andi main_v23 main_v27
  let main_v29 : FVec F S2x2048x2048 .f32 := Host.absf main_arg7
  let main_cst_10 : FVec F S_ .f32 := constant S_ .f32 0x7F800000#32
  let main_v30 : FVec F S2x2048x2048 .f32 := broadcastInDim S2x2048x2048 ![] bcast_S_S2x2048x2048 main_cst_10
  let main_v31 : IVec S2x2048x2048 1 := cmpf .olt main_v29 main_v30
  let main_c_11 : IVec S_ 1 := constantI S_ 1 1#1
  let main_v32 : IVec S_ 1 := (fun x v => Host.reduce IntOp.andi x v reducesTo_S2x2048x2048_S_d0_1_2 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S1x1024x2048 .f32) (main_arg1 : FVec F S1x1x1024x1024 .f32) (main_arg2 : IVec S1x1024 32) (main_arg3 : FVec F S1024x64 .f32) (main_arg4 : FVec F S1024x64 .f32) (main_arg5 : FVec F S2x2048 .f32) (main_arg6 : FVec F S2x2048 .f32) (main_arg7 : FVec F S2x2048x2048 .f32) (main_arg8 : FVec F S2x512x2048 .f32) (main_arg9 : FVec F S2x512x2048 .f32) (main_arg10 : FVec F S2x2048x2048 .f32) (main_arg11 : FVec F S2x8192x2048 .f32) (main_arg12 : FVec F S2x8192x2048 .f32) (main_arg13 : FVec F S2x2048x8192 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  let main_v4 : FVec F S1x1x1024x1024 .f32 := Host.absf main_arg1
  let main_cst_0 : FVec F S_ .f32 := constant S_ .f32 0x7F800000#32
  let main_v5 : FVec F S1x1x1024x1024 .f32 := broadcastInDim S1x1x1024x1024 ![] bcast_S_S1x1x1024x1024 main_cst_0
  let main_v6 : IVec S1x1x1024x1024 1 := cmpf .olt main_v4 main_v5
  let main_c_1 : IVec S_ 1 := constantI S_ 1 1#1
  let main_v7 : IVec S_ 1 := (fun x v => Host.reduce IntOp.andi x v reducesTo_S1x1x1024x1024_S_d0_1_2_3 h_S_) main_v6 main_c_1
  let main_v8 : IVec S_ 1 := andi main_v3 main_v7
  let main_v9 : FVec F S1024x64 .f32 := Host.absf main_arg3
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg4
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg5 main_arg6 main_arg7 main_arg8 main_arg9 main_arg10 main_arg11 main_arg12 main_arg13 main_v13 main_v16
-- ==== Kernel.lean ====
abbrev S1x1024x2048 : Shape := ⟨3, ![1, 1024, 2048]⟩
abbrev S1x1x1024x1024 : Shape := ⟨4, ![1, 1, 1024, 1024]⟩
abbrev S1x1024 : Shape := ⟨2, ![1, 1024]⟩
abbrev S1024x64 : Shape := ⟨2, ![1024, 64]⟩
abbrev S2x2048 : Shape := ⟨2, ![2, 2048]⟩
abbrev S2x2048x2048 : Shape := ⟨3, ![2, 2048, 2048]⟩
abbrev S2x512x2048 : Shape := ⟨3, ![2, 512, 2048]⟩
abbrev S2x8192x2048 : Shape := ⟨3, ![2, 8192, 2048]⟩
abbrev S2x2048x8192 : Shape := ⟨3, ![2, 2048, 8192]⟩
abbrev S1024 : Shape := ⟨1, ![1024]⟩
abbrev S_ : Shape := ⟨0, ![]⟩
abbrev S1024x1 : Shape := ⟨2, ![1024, 1]⟩
abbrev S1024x1024 : Shape := ⟨2, ![1024, 1024]⟩
abbrev S1024x2048 : Shape := ⟨2, ![1024, 2048]⟩
abbrev S1x2048x2048 : Shape := ⟨3, ![1, 2048, 2048]⟩
abbrev S2048x2048 : Shape := ⟨2, ![2048, 2048]⟩
abbrev S1x512x2048 : Shape := ⟨3, ![1, 512, 2048]⟩
abbrev S512x2048 : Shape := ⟨2, ![512, 2048]⟩
abbrev S3072x2048 : Shape := ⟨2, ![3072, 2048]⟩
abbrev S1x2048 : Shape := ⟨2, ![1, 2048]⟩
abbrev S2048 : Shape := ⟨1, ![2048]⟩
abbrev S1x8192x2048 : Shape := ⟨3, ![1, 8192, 2048]⟩
abbrev S8192x2048 : Shape := ⟨2, ![8192, 2048]⟩
abbrev S1x2048x8192 : Shape := ⟨3, ![1, 2048, 8192]⟩
abbrev S2048x8192 : Shape := ⟨2, ![2048, 8192]⟩
abbrev S1024x3072 : Shape := ⟨2, ![1024, 3072]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩
abbrev S1024x512 : Shape := ⟨2, ![1024, 512]⟩
abbrev S1024x32x64 : Shape := ⟨3, ![1024, 32, 64]⟩
abbrev S32x1024x64 : Shape := ⟨3, ![32, 1024, 64]⟩
abbrev S1024x8x64 : Shape := ⟨3, ![1024, 8, 64]⟩
abbrev S8x1024x64 : Shape := ⟨3, ![8, 1024, 64]⟩
abbrev S1x1024x64 : Shape := ⟨3, ![1, 1024, 64]⟩
abbrev S1024x32 : Shape := ⟨2, ![1024, 32]⟩
abbrev S64x1024 : Shape := ⟨2, ![64, 1024]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1x8x1024x64 : Shape := ⟨4, ![1, 8, 1024, 64]⟩
abbrev S1x1x8x1024x64 : Shape := ⟨5, ![1, 1, 8, 1024, 64]⟩
abbrev S2x1x8x1024x64 : Shape := ⟨5, ![2, 1, 8, 1024, 64]⟩

abbrev nBuf : Space → Nat
  | .hbm => 127
  | .vmem => 94
  | .smem => 0
  | _ => 0

abbrev bufTy : (tb : Table) → Fin (tcTables nBuf tb) → BufTy
  | .hbm, ⟨0, _⟩ => ⟨S1x1024x2048, .f32⟩
  | .hbm, ⟨1, _⟩ => ⟨S1x1x1024x1024, .f32⟩
  | .hbm, ⟨2, _⟩ => ⟨S1x1024, .i32⟩
  | .hbm, ⟨3, _⟩ => ⟨S1024x64, .f32⟩
  | .hbm, ⟨4, _⟩ => ⟨S1024x64, .f32⟩
  | .hbm, ⟨5, _⟩ => ⟨S2x2048, .f32⟩
  | .hbm, ⟨6, _⟩ => ⟨S2x2048, .f32⟩
  | .hbm, ⟨7, _⟩ => ⟨S2x2048x2048, .f32⟩
  | .hbm, ⟨8, _⟩ => ⟨S2x512x2048, .f32⟩
  | .hbm, ⟨9, _⟩ => ⟨S2x512x2048, .f32⟩
  | .hbm, ⟨10, _⟩ => ⟨S2x2048x2048, .f32⟩
  | .hbm, ⟨11, _⟩ => ⟨S2x8192x2048, .f32⟩
  | .hbm, ⟨12, _⟩ => ⟨S2x8192x2048, .f32⟩
  | .hbm, ⟨13, _⟩ => ⟨S2x2048x8192, .f32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024x64, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x64, .f32⟩
  | .hbm, ⟨33, _⟩ => ⟨S1024x1024, .f32⟩
  | .hbm, ⟨34, _⟩ => ⟨S2x2048x2048, .bf16⟩
  | .hbm, ⟨35, _⟩ => ⟨S2x512x2048, .bf16⟩
  | .hbm, ⟨36, _⟩ => ⟨S2x512x2048, .bf16⟩
  | .hbm, ⟨37, _⟩ => ⟨S2x2048x2048, .bf16⟩
  | .hbm, ⟨38, _⟩ => ⟨S2x8192x2048, .bf16⟩
  | .hbm, ⟨39, _⟩ => ⟨S2x8192x2048, .bf16⟩
  | .hbm, ⟨40, _⟩ => ⟨S2x2048x8192, .bf16⟩
  | .hbm, ⟨41, _⟩ => ⟨S1024x2048, .f32⟩
  | .hbm, ⟨42, _⟩ => ⟨S1x2048x2048, .bf16⟩
  | .hbm, ⟨43, _⟩ => ⟨S2048x2048, .bf16⟩
  | .hbm, ⟨44, _⟩ => ⟨S1x512x2048, .bf16⟩
  | .hbm, ⟨45, _⟩ => ⟨S512x2048, .bf16⟩
  | .hbm, ⟨46, _⟩ => ⟨S1x512x2048, .bf16⟩
  | .hbm, ⟨47, _⟩ => ⟨S512x2048, .bf16⟩
  | .hbm, ⟨48, _⟩ => ⟨S3072x2048, .bf16⟩
  | .hbm, ⟨49, _⟩ => ⟨S1x2048, .f32⟩
  | .hbm, ⟨50, _⟩ => ⟨S2048, .f32⟩
  | .hbm, ⟨51, _⟩ => ⟨S1x2048, .f32⟩
  | .hbm, ⟨52, _⟩ => ⟨S2048, .f32⟩
  | .hbm, ⟨53, _⟩ => ⟨S1x2048x2048, .bf16⟩
  | .hbm, ⟨54, _⟩ => ⟨S2048x2048, .bf16⟩
  | .hbm, ⟨55, _⟩ => ⟨S1x8192x2048, .bf16⟩
  | .hbm, ⟨56, _⟩ => ⟨S8192x2048, .bf16⟩
  | .hbm, ⟨57, _⟩ => ⟨S1x8192x2048, .bf16⟩
  | .hbm, ⟨58, _⟩ => ⟨S8192x2048, .bf16⟩
  | .hbm, ⟨59, _⟩ => ⟨S1x2048x8192, .bf16⟩
  | .hbm, ⟨60, _⟩ => ⟨S2048x8192, .bf16⟩
  | .hbm, ⟨61, _⟩ => ⟨S1x2048, .f32⟩
  | .hbm, ⟨62, _⟩ => ⟨S1024x3072, .f32⟩
  | .hbm, ⟨63, _⟩ => ⟨S1024x2048, .f32⟩
  | .hbm, ⟨64, _⟩ => ⟨S1024x512, .f32⟩
  | .hbm, ⟨65, _⟩ => ⟨S1024x512, .f32⟩
  | .hbm, ⟨66, _⟩ => ⟨S1024x32x64, .f32⟩
  | .hbm, ⟨67, _⟩ => ⟨S32x1024x64, .f32⟩
  | .hbm, ⟨68, _⟩ => ⟨S1024x8x64, .f32⟩
  | .hbm, ⟨69, _⟩ => ⟨S8x1024x64, .f32⟩
  | .hbm, ⟨70, _⟩ => ⟨S1024x8x64, .f32⟩
  | .hbm, ⟨71, _⟩ => ⟨S8x1024x64, .f32⟩
  | .hbm, ⟨72, _⟩ => ⟨S8x1024x64, .f32⟩
  | .hbm, ⟨73, _⟩ => ⟨S32x1024x64, .f32⟩
  | .hbm, ⟨74, _⟩ => ⟨S1024x32x64, .f32⟩
  | .hbm, ⟨75, _⟩ => ⟨S1024x2048, .f32⟩
  | .hbm, ⟨76, _⟩ => ⟨S1024x2048, .f32⟩
  | .hbm, ⟨77, _⟩ => ⟨S1x2048, .f32⟩
  | .hbm, ⟨78, _⟩ => ⟨S1024x2048, .f32⟩
  | .hbm, ⟨79, _⟩ => ⟨S1x8x1024x64, .f32⟩
  | .hbm, ⟨80, _⟩ => ⟨S1x8x1024x64, .f32⟩
  | .hbm, ⟨81, _⟩ => ⟨S1x2048x2048, .bf16⟩
  | .hbm, ⟨82, _⟩ => ⟨S2048x2048, .bf16⟩
  | .hbm, ⟨83, _⟩ => ⟨S1x512x2048, .bf16⟩
  | .hbm, ⟨84, _⟩ => ⟨S512x2048, .bf16⟩
  | .hbm, ⟨85, _⟩ => ⟨S1x512x2048, .bf16⟩
  | .hbm, ⟨86, _⟩ => ⟨S512x2048, .bf16⟩
  | .hbm, ⟨87, _⟩ => ⟨S3072x2048, .bf16⟩
  | .hbm, ⟨88, _⟩ => ⟨S1x2048, .f32⟩
  | .hbm, ⟨89, _⟩ => ⟨S2048, .f32⟩
  | .hbm, ⟨90, _⟩ => ⟨S1x2048, .f32⟩
  | .hbm, ⟨91, _⟩ => ⟨S2048, .f32⟩
  | .hbm, ⟨92, _⟩ => ⟨S1x2048x2048, .bf16⟩
  | .hbm, ⟨93, _⟩ => ⟨S2048x2048, .bf16⟩
  | .hbm, ⟨94, _⟩ => ⟨S1x8192x2048, .bf16⟩
  | .hbm, ⟨95, _⟩ => ⟨S8192x2048, .bf16⟩
  | .hbm, ⟨96, _⟩ => ⟨S1x8192x2048, .bf16⟩
  | .hbm, ⟨97, _⟩ => ⟨S8192x2048, .bf16⟩
  | .hbm, ⟨98, _⟩ => ⟨S1x2048x8192, .bf16⟩
  | .hbm, ⟨99, _⟩ => ⟨S2048x8192, .bf16⟩
  | .hbm, ⟨100, _⟩ => ⟨S1x2048, .f32⟩
  | .hbm, ⟨101, _⟩ => ⟨S1024x3072, .f32⟩
  | .hbm, ⟨102, _⟩ => ⟨S1024x2048, .f32⟩
  | .hbm, ⟨103, _⟩ => ⟨S1024x512, .f32⟩
  | .hbm, ⟨104, _⟩ => ⟨S1024x512, .f32⟩
  | .hbm, ⟨105, _⟩ => ⟨S1024x32x64, .f32⟩
  | .hbm, ⟨106, _⟩ => ⟨S32x1024x64, .f32⟩
  | .hbm, ⟨107, _⟩ => ⟨S1024x8x64, .f32⟩
  | .hbm, ⟨108, _⟩ => ⟨S8x1024x64, .f32⟩
  | .hbm, ⟨109, _⟩ => ⟨S1024x8x64, .f32⟩
  | .hbm, ⟨110, _⟩ => ⟨S8x1024x64, .f32⟩
  | .hbm, ⟨111, _⟩ => ⟨S8x1024x64, .f32⟩
  | .hbm, ⟨112, _⟩ => ⟨S32x1024x64, .f32⟩
  | .hbm, ⟨113, _⟩ => ⟨S1024x32x64, .f32⟩
  | .hbm, ⟨114, _⟩ => ⟨S1024x2048, .f32⟩
  | .hbm, ⟨115, _⟩ => ⟨S1024x2048, .f32⟩
  | .hbm, ⟨116, _⟩ => ⟨S1x2048, .f32⟩
  | .hbm, ⟨117, _⟩ => ⟨S1024x2048, .f32⟩
  | .hbm, ⟨118, _⟩ => ⟨S1x8x1024x64, .f32⟩
  | .hbm, ⟨119, _⟩ => ⟨S1x8x1024x64, .f32⟩
  | .hbm, ⟨120, _⟩ => ⟨S1x1024x2048, .f32⟩
  | .hbm, ⟨121, _⟩ => ⟨S1x1x8x1024x64, .f32⟩
  | .hbm, ⟨122, _⟩ => ⟨S1x1x8x1024x64, .f32⟩
  | .hbm, ⟨123, _⟩ => ⟨S2x1x8x1024x64, .f32⟩
  | .hbm, ⟨124, _⟩ => ⟨S1x1x8x1024x64, .f32⟩
  | .hbm, ⟨125, _⟩ => ⟨S1x1x8x1024x64, .f32⟩
  | .hbm, ⟨126, _⟩ => ⟨S2x1x8x1024x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x512, .f32⟩
  | .local _ .vmem, ⟨6, _⟩ => ⟨S512x512, .f32⟩
  | .local _ .vmem, ⟨7, _⟩ => ⟨S1x1024x64, .f32⟩
  | .local _ .vmem, ⟨8, _⟩ => ⟨S1x1024x64, .f32⟩
  | .local _ .vmem, ⟨9, _⟩ => ⟨S1024x64, .f32⟩
  | .local _ .vmem, ⟨10, _⟩ => ⟨S1024x64, .f32⟩
  | .local _ .vmem, ⟨11, _⟩ => ⟨S1x1024x64, .f32⟩
  | .local _ .vmem, ⟨12, _⟩ => ⟨S1x1024x64, .f32⟩
  | .local _ .vmem, ⟨13, _⟩ => ⟨S1x1024x64, .f32⟩
  | .local _ .vmem, ⟨14, _⟩ => ⟨S1x1024x64, .f32⟩
  | .local _ .vmem, ⟨15, _⟩ => ⟨S1x1024x64, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x64, .f32⟩
  | .local _ .vmem, ⟨19, _⟩ => ⟨S1024x64, .f32⟩
  | .local _ .vmem, ⟨20, _⟩ => ⟨S1024x64, .f32⟩
  | .local _ .vmem, ⟨21, _⟩ => ⟨S1024x1024, .f32⟩
  | .local _ .vmem, ⟨22, _⟩ => ⟨S1x1024x64, .f32⟩
  | .local _ .vmem, ⟨23, _⟩ => ⟨S1x1024x64, .f32⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | .local _ .vmem, ⟨27, _⟩ => ⟨S512x2048, .bf16⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S256x2048, .f32⟩
  | .local _ .vmem, ⟨33, _⟩ => ⟨S256x2048, .f32⟩
  | .local _ .vmem, ⟨34, _⟩ => ⟨S1x2048, .f32⟩
  | .local _ .vmem, ⟨35, _⟩ => ⟨S512x2048, .bf16⟩
  | .local _ .vmem, ⟨36, _⟩ => ⟨S512x2048, .bf16⟩
  | .local _ .vmem, ⟨37, _⟩ => ⟨S512x2048, .bf16⟩
  | .local _ .vmem, ⟨38, _⟩ => ⟨S512x2048, .bf16⟩
  | .local _ .vmem, ⟨39, _⟩ => ⟨S2048x512, .bf16⟩
  | .local _ .vmem, ⟨40, _⟩ => ⟨S2048x512, .bf16⟩
  | .local _ .vmem, ⟨41, _⟩ => ⟨S256x2048, .f32⟩
  | .local _ .vmem, ⟨42, _⟩ => ⟨S256x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S256x2048, .bf16⟩
  | .local _ .vmem, ⟨47, _⟩ => ⟨S512x2048, .f32⟩
  | .local _ .vmem, ⟨48, _⟩ => ⟨S512x2048, .f32⟩
  | .local _ .vmem, ⟨49, _⟩ => ⟨S1x2048, .f32⟩
  | .local _ .vmem, ⟨50, _⟩ => ⟨S512x2048, .bf16⟩
  | .local _ .vmem, ⟨51, _⟩ => ⟨S512x2048, .bf16⟩
  | .local _ .vmem, ⟨52, _⟩ => ⟨S512x512, .f32⟩
  | .local _ .vmem, ⟨53, _⟩ => ⟨S512x512, .f32⟩
  | .local _ .vmem, ⟨54, _⟩ => ⟨S1x1024x64, .f32⟩
  | .local _ .vmem, ⟨55, _⟩ => ⟨S1x1024x64, .f32⟩
  | .local _ .vmem, ⟨56, _⟩ => ⟨S1024x64, .f32⟩
  | .local _ .vmem, ⟨57, _⟩ => ⟨S1024x64, .f32⟩
  | .local _ .vmem, ⟨58, _⟩ => ⟨S1x1024x64, .f32⟩
  | .local _ .vmem, ⟨59, _⟩ => ⟨S1x1024x64, .f32⟩
  | .local _ .vmem, ⟨60, _⟩ => ⟨S1x1024x64, .f32⟩
  | .local _ .vmem, ⟨61, _⟩ => ⟨S1x1024x64, .f32⟩
  | .local _ .vmem, ⟨62, _⟩ => ⟨S1x1024x64, .f32⟩
  | .local _ .vmem, ⟨63, _⟩ => ⟨S1x1024x64, .f32⟩
  | .local _ .vmem, ⟨64, _⟩ => ⟨S1x1024x64, .f32⟩
  | .local _ .vmem, ⟨65, _⟩ => ⟨S1x1024x64, .f32⟩
  | .local _ .vmem, ⟨66, _⟩ => ⟨S1024x64, .f32⟩
  | .local _ .vmem, ⟨67, _⟩ => ⟨S1024x64, .f32⟩
  | .local _ .vmem, ⟨68, _⟩ => ⟨S1024x1024, .f32⟩
  | .local _ .vmem, ⟨69, _⟩ => ⟨S1x1024x64, .f32⟩
  | .local _ .vmem, ⟨70, _⟩ => ⟨S1x1024x64, .f32⟩
  | .local _ .vmem, ⟨71, _⟩ => ⟨S512x2048, .f32⟩
  | .local _ .vmem, ⟨72, _⟩ => ⟨S512x2048, .f32⟩
  | .local _ .vmem, ⟨73, _⟩ => ⟨S512x2048, .bf16⟩
  | .local _ .vmem, ⟨74, _⟩ => ⟨S512x2048, .bf16⟩
  | .local _ .vmem, ⟨75, _⟩ => ⟨S512x512, .f32⟩
  | .local _ .vmem, ⟨76, _⟩ => ⟨S512x512, .f32⟩
  | .local _ .vmem, ⟨77, _⟩ => ⟨S512x512, .f32⟩
  | .local _ .vmem, ⟨78, _⟩ => ⟨S512x512, .f32⟩
  | .local _ .vmem, ⟨79, _⟩ => ⟨S256x2048, .f32⟩
  | .local _ .vmem, ⟨80, _⟩ => ⟨S256x2048, .f32⟩
  | .local _ .vmem, ⟨81, _⟩ => ⟨S1x2048, .f32⟩
  | .local _ .vmem, ⟨82, _⟩ => ⟨S512x2048, .bf16⟩
  | .local _ .vmem, ⟨83, _⟩ => ⟨S512x2048, .bf16⟩
  | .local _ .vmem, ⟨84, _⟩ => ⟨S512x2048, .bf16⟩
  | .local _ .vmem, ⟨85, _⟩ => ⟨S512x2048, .bf16⟩
  | .local _ .vmem, ⟨86, _⟩ => ⟨S2048x512, .bf16⟩
  | .local _ .vmem, ⟨87, _⟩ => ⟨S2048x512, .bf16⟩
  | .local _ .vmem, ⟨88, _⟩ => ⟨S256x2048, .f32⟩
  | .local _ .vmem, ⟨89, _⟩ => ⟨S256x2048, .f32⟩
  | .local _ .vmem, ⟨90, _⟩ => ⟨S256x2048, .f32⟩
  | .local _ .vmem, ⟨91, _⟩ => ⟨S256x2048, .f32⟩
  | .local _ .vmem, ⟨92, _⟩ => ⟨S256x2048, .f32⟩
  | .local _ .vmem, ⟨93, _⟩ => ⟨S256x2048, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg5_1 : Ref sig .tc := ⟨.vmem, 42, rfl⟩
abbrev cc4_stg6_0 : Ref sig .tc := ⟨.vmem, 43, rfl⟩
abbrev cc4_stg6_1 : Ref sig .tc := ⟨.vmem, 44, rfl⟩
abbrev cc4_scratch0 : Ref sig .tc := ⟨.vmem, 45, rfl⟩
abbrev cc4_scratch1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg6_0 : Ref sig .tc := ⟨.vmem, 69, rfl⟩
abbrev cc7_stg6_1 : Ref sig .tc := ⟨.vmem, 70, rfl⟩
abbrev cc8_stg0_0 : Ref sig .tc := ⟨.vmem, 71, rfl⟩
abbrev cc8_stg0_1 : Ref sig .tc := ⟨.vmem, 72, rfl⟩
abbrev cc8_stg1_0 : Ref sig .tc := ⟨.vmem, 73, rfl⟩
abbrev cc8_stg1_1 : Ref sig .tc := ⟨.vmem, 74, rfl⟩
abbrev cc8_stg2_0 : Ref sig .tc := ⟨.vmem, 75, rfl⟩
abbrev cc8_stg2_1 : Ref sig .tc := ⟨.vmem, 76, rfl⟩
abbrev cc8_stg3_0 : Ref sig .tc := ⟨.vmem, 77, rfl⟩
abbrev cc8_stg3_1 : Ref sig .tc := ⟨.vmem, 78, rfl⟩
abbrev cc9_stg0_0 : Ref sig .tc := ⟨.vmem, 79, rfl⟩
abbrev cc9_stg0_1 : Ref sig .tc := ⟨.vmem, 80, rfl⟩
abbrev cc9_stg1_0 : Ref sig .tc := ⟨.vmem, 81, rfl⟩
abbrev cc9_stg2_0 : Ref sig .tc := ⟨.vmem, 82, rfl⟩
abbrev cc9_stg2_1 : Ref sig .tc := ⟨.vmem, 83, rfl⟩
abbrev cc9_stg3_0 : Ref sig .tc := ⟨.vmem, 84, rfl⟩
abbrev cc9_stg3_1 : Ref sig .tc := ⟨.vmem, 85, rfl⟩
abbrev cc9_stg4_0 : Ref sig .tc := ⟨.vmem, 86, rfl⟩
abbrev cc9_stg4_1 : Ref sig .tc := ⟨.vmem, 87, rfl⟩
abbrev cc9_stg5_0 : Ref sig .tc := ⟨.vmem, 88, rfl⟩
abbrev cc9_stg5_1 : Ref sig .tc := ⟨.vmem, 89, rfl⟩
abbrev cc9_stg6_0 : Ref sig .tc := ⟨.vmem, 90, rfl⟩
abbrev cc9_stg6_1 : Ref sig .tc := ⟨.vmem, 91, rfl⟩
abbrev cc9_scratch0 : Ref sig .tc := ⟨.vmem, 92, rfl⟩
abbrev cc9_scratch1 : Ref sig .tc := ⟨.vmem, 93, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc4_sem4_0 : DmaSem sig := 39
abbrev cc4_sem4_1 : DmaSem sig := 40
abbrev cc4_sem5_0 : DmaSem sig := 41
abbrev cc4_sem5_1 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49
abbrev cc5_sem3_0 : DmaSem sig := 50
abbrev cc5_sem3_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc7_sem3_0 : DmaSem sig := 64
abbrev cc7_sem4_0 : DmaSem sig := 65
abbrev cc7_sem5_0 : DmaSem sig := 66
abbrev cc7_sem6_0 : DmaSem sig := 67
abbrev cc7_sem6_1 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem2_1 : DmaSem sig := 74
abbrev cc8_sem3_0 : DmaSem sig := 75
abbrev cc8_sem3_1 : DmaSem sig := 76
abbrev cc9_sem0_0 : DmaSem sig := 77
abbrev cc9_sem0_1 : DmaSem sig := 78
abbrev cc9_sem1_0 : DmaSem sig := 79
abbrev cc9_sem2_0 : DmaSem sig := 80
abbrev cc9_sem2_1 : DmaSem sig := 81
abbrev cc9_sem3_0 : DmaSem sig := 82
abbrev cc9_sem3_1 : DmaSem sig := 83
abbrev cc9_sem4_0 : DmaSem sig := 84
abbrev cc9_sem4_1 : DmaSem sig := 85
abbrev cc9_sem5_0 : DmaSem sig := 86
abbrev cc9_sem5_1 : DmaSem sig := 87
abbrev cc9_sem6_0 : DmaSem sig := 88
abbrev cc9_sem6_1 : DmaSem sig := 89

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_2 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x1024x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![4, 16], ![false, false]⟩

def k4_cond2 (i : grid4.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_14 : BitVec 32 := 0#32
  let v27 : BitVec 1 := Scalar.cmpi .ne v26 c0_i32_14
  v27

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S2048x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S256x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev grid5 : Pipeline.Grid := ⟨2, ![2, 6], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S512x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1024x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x1024x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![32], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc7_transform_2 (i : grid7.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1024x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1024x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1024x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1024x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1024x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1024x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1x1024x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨2, ![2, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S512x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S512x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 2 → Memref sig .tc .vmem S512x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨2, ![4, 16], ![false, false]⟩

def k9_cond2 (i : grid9.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_14 : BitVec 32 := 0#32
  let v27 : BitVec 1 := Scalar.cmpi .ne v26 c0_i32_14
  v27

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S256x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S1x2048 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 2 → Memref sig .tc .vmem S512x2048 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S512x2048 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true]

abbrev stage9_4 : Fin 2 → Memref sig .tc .vmem S2048x512 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![false, true]

abbrev stage9_5 : Fin 2 → Memref sig .tc .vmem S256x2048 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, false]

abbrev stage9_6 : Fin 2 → Memref sig .tc .vmem S256x2048 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true, false]

class Facts₀ : Prop where
  shapeCasts_S1x1024_S1024 : S1x1024.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  shapeCasts_S1x1x1024x1024_S1024x1024 : S1x1x1024x1024.ShapeCasts S1024x1024
  bitsLt_bf16_f32 : FTy.bits .bf16 < FTy.bits .f32
  shapeCasts_S1x1024x2048_S1024x2048 : S1x1024x2048.ShapeCasts S1024x2048
  slices_S2x2048x2048_S1x2048x2048_0_0_0 : S2x2048x2048.Slices ![0, 0, 0] S1x2048x2048
  shapeCasts_S1x2048x2048_S2048x2048 : S1x2048x2048.ShapeCasts S2048x2048
  slices_S2x512x2048_S1x512x2048_0_0_0 : S2x512x2048.Slices ![0, 0, 0] S1x512x2048
  shapeCasts_S1x512x2048_S512x2048 : S1x512x2048.ShapeCasts S512x2048
  concatenates_S2048x2048_S512x2048_S512x2048_S3072x2048_d0 : Shape.Concatenates [S2048x2048, S512x2048, S512x2048] S3072x2048 0
  slices_S2x2048_S1x2048_0_0 : S2x2048.Slices ![0, 0] S1x2048
  shapeCasts_S1x2048_S2048 : S1x2048.ShapeCasts S2048
  slices_S2x8192x2048_S1x8192x2048_0_0_0 : S2x8192x2048.Slices ![0, 0, 0] S1x8192x2048
  shapeCasts_S1x8192x2048_S8192x2048 : S1x8192x2048.ShapeCasts S8192x2048
  slices_S2x2048x8192_S1x2048x8192_0_0_0 : S2x2048x8192.Slices ![0, 0, 0] S1x2048x8192
  shapeCasts_S1x2048x8192_S2048x8192 : S1x2048x8192.ShapeCasts S2048x8192
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  transposes_S512x2048_p1_0_S2048x512 : S512x2048.Transposes [1, 0] S2048x512
  inb_S512x512_S512x512_0_0 : ∀ a, (![0, 0] : Fin 2 → Nat) a + S512x512.size a ≤ S512x512.size a
  h_S512x512 : 0 < S512x512.numel
  slices_S1024x3072_S1024x2048_0_0 : S1024x3072.Slices ![0, 0] S1024x2048
  slices_S1024x3072_S1024x512_0_2048 : S1024x3072.Slices ![0, 2048] S1024x512
  slices_S1024x3072_S1024x512_0_2560 : S1024x3072.Slices ![0, 2560] S1024x512
  shapeCasts_S1024x2048_S1024x32x64 : S1024x2048.ShapeCasts S1024x32x64
  transposes_S1024x32x64_S32x1024x64_1_0_2 : S1024x32x64.Transposes [1, 0, 2] S32x1024x64
  shapeCasts_S1024x512_S1024x8x64 : S1024x512.ShapeCasts S1024x8x64
  transposes_S1024x8x64_S8x1024x64_1_0_2 : S1024x8x64.Transposes [1, 0, 2] S8x1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  slices_S1024x64_o0_32_S1024x32 : S1024x64.Slices ![0, 32] S1024x32
  slices_S1024x64_o0_0_S1024x32 : S1024x64.Slices ![0, 0] S1024x32
  concatenates_S1024x32_S1024x32_S1024x64_d1 : Shape.Concatenates [S1024x32, S1024x32] S1024x64 1
  shapeCasts_S1024x64_S1x1024x64 : S1024x64.ShapeCasts S1x1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  transposes_S32x1024x64_S1024x32x64_1_0_2 : S32x1024x64.Transposes [1, 0, 2] S1024x32x64
  shapeCasts_S1024x32x64_S1024x2048 : S1024x32x64.ShapeCasts S1024x2048
  shapeCasts_S512x512_S512x512 : S512x512.ShapeCasts S512x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  bcast_S8x1024x64_S1x8x1024x64_1_2_3 : S8x1024x64.BroadcastsInDim S1x8x1024x64 (![1, 2, 3] : Fin 3 → Fin S1x8x1024x64.rank)
  slices_S2x2048x2048_S1x2048x2048_1_0_0 : S2x2048x2048.Slices ![1, 0, 0] S1x2048x2048
  slices_S2x512x2048_S1x512x2048_1_0_0 : S2x512x2048.Slices ![1, 0, 0] S1x512x2048
  slices_S2x2048_S1x2048_1_0 : S2x2048.Slices ![1, 0] S1x2048
  slices_S2x8192x2048_S1x8192x2048_1_0_0 : S2x8192x2048.Slices ![1, 0, 0] S1x8192x2048
  slices_S2x2048x8192_S1x2048x8192_1_0_0 : S2x2048x8192.Slices ![1, 0, 0] S1x2048x8192
  bcast_S1024x2048_S1x1024x2048_1_2 : S1024x2048.BroadcastsInDim S1x1024x2048 (![1, 2] : Fin 2 → Fin S1x1024x2048.rank)
  bcast_S1x8x1024x64_S1x1x8x1024x64_1_2_3_4 : S1x8x1024x64.BroadcastsInDim S1x1x8x1024x64 (![1, 2, 3, 4] : Fin 4 → Fin S1x1x8x1024x64.rank)
  concatenates_S1x1x8x1024x64_S1x1x8x1024x64_S2x1x8x1024x64_d0 : Shape.Concatenates [S1x1x8x1024x64, S1x1x8x1024x64] S2x1x8x1024x64 0
  gather_S1024x64_S1024x1_S1024x64_1_0_n_n_0_1_164_wf : GatherDims.WF S1024x64 S1024x1 S1024x64 [1] [0] [] [0] [] 1 ![1, 64]
  dot_S512x2048_S2048x512_S512x512_1_0_0_1_n_n_wf : DotDims.WF S512x2048 S2048x512 S512x512 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x2048.size a
  hwx0_0 : ∀ i : grid0.Coords, EltTy.bits .f32 = 32 ∨ (Rect.block (s := S1024x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S3072x2048.size a
  hwx0_2 : ∀ i : grid0.Coords, EltTy.bits .bf16 = 32 ∨ (Rect.block (s := S3072x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S1024x3072.size a
  hwx0_3 : ∀ i : grid0.Coords, EltTy.bits .f32 = 32 ∨ (Rect.block (s := S1024x3072) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S8x1024x64.size a
  hwx1_0 : ∀ i : grid1.Coords, EltTy.bits .f32 = 32 ∨ (Rect.block (s := S8x1024x64) S1x1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1024x64.size a
  hwx1_2 : ∀ i : grid1.Coords, EltTy.bits .f32 = 32 ∨ (Rect.block (s := S1024x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S8x1024x64.size a
  hwx1_3 : ∀ i : grid1.Coords, EltTy.bits .f32 = 32 ∨ (Rect.block (s := S8x1024x64) S1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x64.size a ≤ S32x1024x64.size a
  hwx2_0 : ∀ i : grid2.Coords, EltTy.bits .f32 = 32 ∨ (Rect.block (s := S32x1024x64) S1x1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S8x1024x64.size a
  hwx2_1 : ∀ i : grid2.Coords, EltTy.bits .f32 = 32 ∨ (Rect.block (s := S8x1024x64) S1x1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x64.size a ≤ S8x1024x64.size a
  hwx2_2 : ∀ i : grid2.Coords, EltTy.bits .f32 = 32 ∨ (Rect.block (s := S8x1024x64) S1x1024x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S1024x64.size a
  hwx2_3 : ∀ i : grid2.Coords, EltTy.bits .f32 = 32 ∨ (Rect.block (s := S1024x64) S1024x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x64.size a ≤ S1024x64.size a
  hwx2_4 : ∀ i : grid2.Coords, EltTy.bits .f32 = 32 ∨ (Rect.block (s := S1024x64) S1024x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .f32 = 32 ∨ (Rect.block (s := S1024x1024) S1024x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x64.size a ≤ S32x1024x64.size a
  hwx2_6 : ∀ i : grid2.Coords, EltTy.bits .f32 = 32 ∨ (Rect.block (s := S32x1024x64) S1x1024x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S1024x2048.size a
  hwx3_0 : ∀ i : grid3.Coords, EltTy.bits .f32 = 32 ∨ (Rect.block (s := S1024x2048) S512x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S2048x2048.size a
  hwx3_1 : ∀ i : grid3.Coords, EltTy.bits .bf16 = 32 ∨ (Rect.block (s := S2048x2048) S512x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S1024x2048.size a
  hwx3_2 : ∀ i : grid3.Coords, EltTy.bits .f32 = 32 ∨ (Rect.block (s := S1024x2048) S512x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S1024x2048.size a
  hwx3_3 : ∀ i : grid3.Coords, EltTy.bits .f32 = 32 ∨ (Rect.block (s := S1024x2048) S512x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S1024x2048.size a
  hwx4_0 : ∀ i : grid4.Coords, EltTy.bits .f32 = 32 ∨ (Rect.block (s := S1024x2048) S256x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x2048.size a
  hwx4_1 : ∀ i : grid4.Coords, EltTy.bits .f32 = 32 ∨ (Rect.block (s := S1x2048) S1x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x2048.size a ≤ S8192x2048.size a
  hwx4_2 : ∀ i : grid4.Coords, EltTy.bits .bf16 = 32 ∨ (Rect.block (s := S8192x2048) S512x2048.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S8192x2048.size a
  hwx4_3 : ∀ i : grid4.Coords, EltTy.bits .bf16 = 32 ∨ (Rect.block (s := S8192x2048) S512x2048.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x512.size a ≤ S2048x8192.size a
  hwx4_4 : ∀ i : grid4.Coords, EltTy.bits .bf16 = 32 ∨ (Rect.block (s := S2048x8192) S2048x512.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S256x2048.size a ≤ S1024x2048.size a
  hwx4_5 : ∀ i : grid4.Coords, EltTy.bits .f32 = 32 ∨ (Rect.block (s := S1024x2048) S256x2048.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S256x2048.size a ≤ S1024x2048.size a
  hwx4_6 : ∀ i : grid4.Coords, EltTy.bits .f32 = 32 ∨ (Rect.block (s := S1024x2048) S256x2048.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2048.size a ≤ S1024x2048.size a
  hwx5_0 : ∀ i : grid5.Coords, EltTy.bits .f32 = 32 ∨ (Rect.block (s := S1024x2048) S512x2048.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x2048.size a
  hwx5_1 : ∀ i : grid5.Coords, EltTy.bits .f32 = 32 ∨ (Rect.block (s := S1x2048) S1x2048.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x2048.size a ≤ S3072x2048.size a
  hwx5_2 : ∀ i : grid5.Coords, EltTy.bits .bf16 = 32 ∨ (Rect.block (s := S3072x2048) S512x2048.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S1024x3072.size a
  hwx5_3 : ∀ i : grid5.Coords, EltTy.bits .f32 = 32 ∨ (Rect.block (s := S1024x3072) S512x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x1024x64.size a ≤ S8x1024x64.size a
  hwx6_0 : ∀ i : grid6.Coords, EltTy.bits .f32 = 32 ∨ (Rect.block (s := S8x1024x64) S1x1024x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x64.size a ≤ S1024x64.size a
  hwx6_1 : ∀ i : grid6.Coords, EltTy.bits .f32 = 32 ∨ (Rect.block (s := S1024x64) S1024x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x64.size a ≤ S1024x64.size a
  hwx6_2 : ∀ i : grid6.Coords, EltTy.bits .f32 = 32 ∨ (Rect.block (s := S1024x64) S1024x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x1024x64.size a ≤ S8x1024x64.size a
  hwx6_3 : ∀ i : grid6.Coords, EltTy.bits .f32 = 32 ∨ (Rect.block (s := S8x1024x64) S1x1024x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x1024x64.size a ≤ S32x1024x64.size a
  hwx7_0 : ∀ i : grid7.Coords, EltTy.bits .f32 = 32 ∨ (Rect.block (s := S32x1024x64) S1x1024x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1024x64.size a ≤ S8x1024x64.size a
  hwx7_1 : ∀ i : grid7.Coords, EltTy.bits .f32 = 32 ∨ (Rect.block (s := S8x1024x64) S1x1024x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1024x64.size a ≤ S8x1024x64.size a
  hwx7_2 : ∀ i : grid7.Coords, EltTy.bits .f32 = 32 ∨ (Rect.block (s := S8x1024x64) S1x1024x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1024x64.size a ≤ S1024x64.size a
  hwx7_3 : ∀ i : grid7.Coords, EltTy.bits .f32 = 32 ∨ (Rect.block (s := S1024x64) S1024x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1024x64.size a ≤ S1024x64.size a
  hwx7_4 : ∀ i : grid7.Coords, EltTy.bits .f32 = 32 ∨ (Rect.block (s := S1024x64) S1024x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1024x1024.size a ≤ S1024x1024.size a
  hwx7_5 : ∀ i : grid7.Coords, EltTy.bits .f32 = 32 ∨ (Rect.block (s := S1024x1024) S1024x1024.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1x1024x64.size a ≤ S32x1024x64.size a
  hwx7_6 : ∀ i : grid7.Coords, EltTy.bits .f32 = 32 ∨ (Rect.block (s := S32x1024x64) S1x1024x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x2048.size a ≤ S1024x2048.size a
  hwx8_0 : ∀ i : grid8.Coords, EltTy.bits .f32 = 32 ∨ (Rect.block (s := S1024x2048) S512x2048.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x2048.size a ≤ S2048x2048.size a
  hwx8_1 : ∀ i : grid8.Coords, EltTy.bits .bf16 = 32 ∨ (Rect.block (s := S2048x2048) S512x2048.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x512.size a ≤ S1024x2048.size a
  hwx8_2 : ∀ i : grid8.Coords, EltTy.bits .f32 = 32 ∨ (Rect.block (s := S1024x2048) S512x512.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x512.size a ≤ S1024x2048.size a
  hwx8_3 : ∀ i : grid8.Coords, EltTy.bits .f32 = 32 ∨ (Rect.block (s := S1024x2048) S512x512.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S256x2048.size a ≤ S1024x2048.size a
  hwx9_0 : ∀ i : grid9.Coords, EltTy.bits .f32 = 32 ∨ (Rect.block (s := S1024x2048) S256x2048.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x2048.size a ≤ S1x2048.size a
  hwx9_1 : ∀ i : grid9.Coords, EltTy.bits .f32 = 32 ∨ (Rect.block (s := S1x2048) S1x2048.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S512x2048.size a ≤ S8192x2048.size a
  hwx9_2 : ∀ i : grid9.Coords, EltTy.bits .bf16 = 32 ∨ (Rect.block (s := S8192x2048) S512x2048.size (cc9_transform_2 i) (hinb9_2 i)).WholeWords (EltTy.packing .bf16)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S512x2048.size a ≤ S8192x2048.size a
  hwx9_3 : ∀ i : grid9.Coords, EltTy.bits .bf16 = 32 ∨ (Rect.block (s := S8192x2048) S512x2048.size (cc9_transform_3 i) (hinb9_3 i)).WholeWords (EltTy.packing .bf16)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2048x512.size a ≤ S2048x8192.size a
  hwx9_4 : ∀ i : grid9.Coords, EltTy.bits .bf16 = 32 ∨ (Rect.block (s := S2048x8192) S2048x512.size (cc9_transform_4 i) (hinb9_4 i)).WholeWords (EltTy.packing .bf16)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S256x2048.size a ≤ S1024x2048.size a
  hwx9_5 : ∀ i : grid9.Coords, EltTy.bits .f32 = 32 ∨ (Rect.block (s := S1024x2048) S256x2048.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S256x2048.size a ≤ S1024x2048.size a
  hwx9_6 : ∀ i : grid9.Coords, EltTy.bits .f32 = 32 ∨ (Rect.block (s := S1024x2048) S256x2048.size (cc9_transform_6 i) (hinb9_6 i)).WholeWords (EltTy.packing .f32)

variable [Facts₀]

def gather_S1024x64_S1024x1_S1024x64_1_0_n_n_0_1_164 : GatherDims S1024x64 S1024x1 S1024x64 where
  offsetDims := [1]
  collapsedSliceDims := [0]
  operandBatchingDims := []
  startIndicesBatchingDims := []
  startIndexMap := [0]
  indexVectorDim := 1
  sliceSizes := ![1, 64]
  wf := gather_S1024x64_S1024x1_S1024x64_1_0_n_n_0_1_164_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v23) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1024x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S1x1024x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v57) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S512x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S512x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v58) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S1x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S512x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v40) S512x2048.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v42) S2048x512.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v58) S256x2048.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v60) S256x2048.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v60) S512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S512x2048.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S512x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v90) S1x1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S1024x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v14) S1024x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S1x1024x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v88) S1x1024x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S1x1024x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v92) S1x1024x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v7) S1024x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v14) S1024x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v15) S1024x1024.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v94) S1x1024x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v96) S512x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v75) S512x2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v60) S512x512.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v97) S512x512.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v97) S256x2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v98) S1x2048.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v77) S512x2048.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v79) S512x2048.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v81) S2048x512.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v97) S256x2048.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v99) S256x2048.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev idle9 : Fin 7 → grid9.Coords → Bool := fun | 0 => fun _ => false | 1 => fun _ => false | 2 => fun _ => false | 3 => fun _ => false | 4 => fun _ => false | 5 => fun _ => false | 6 => fun i => !(k9_cond2 i == 1#1) | ⟨_ + 7, h⟩ => absurd h (Nat.not_lt.2 (Nat.le_add_left _ _))

class Facts : Prop extends Facts₀ where

variable [Facts]
-- ==== ReferenceIdeal.lean ====
abbrev S1x1024x2048 : Shape := ⟨3, ![1, 1024, 2048]⟩
abbrev S1x1x1024x1024 : Shape := ⟨4, ![1, 1, 1024, 1024]⟩
abbrev S1x1024 : Shape := ⟨2, ![1, 1024]⟩
abbrev S1024x64 : Shape := ⟨2, ![1024, 64]⟩
abbrev S2x2048 : Shape := ⟨2, ![2, 2048]⟩
abbrev S2x2048x2048 : Shape := ⟨3, ![2, 2048, 2048]⟩
abbrev S2x512x2048 : Shape := ⟨3, ![2, 512, 2048]⟩
abbrev S2x8192x2048 : Shape := ⟨3, ![2, 8192, 2048]⟩
abbrev S2x2048x8192 : Shape := ⟨3, ![2, 2048, 8192]⟩
abbrev S_ : Shape := ⟨0, ![]⟩
abbrev S1x1024x1 : Shape := ⟨3, ![1, 1024, 1]⟩
abbrev S1x1024x64 : Shape := ⟨3, ![1, 1024, 64]⟩
abbrev S1x1x1024x64 : Shape := ⟨4, ![1, 1, 1024, 64]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S1x512x2048 : Shape := ⟨3, ![1, 512, 2048]⟩
abbrev S512x2048 : Shape := ⟨2, ![512, 2048]⟩
abbrev S1x8192x2048 : Shape := ⟨3, ![1, 8192, 2048]⟩
abbrev S8192x2048 : Shape := ⟨2, ![8192, 2048]⟩
abbrev S1x2048x8192 : Shape := ⟨3, ![1, 2048, 8192]⟩
abbrev S2048x8192 : Shape := ⟨2, ![2048, 8192]⟩
abbrev S1x1x2048 : Shape := ⟨3, ![1, 1, 2048]⟩
abbrev S1x1024x32x64 : Shape := ⟨4, ![1, 1024, 32, 64]⟩
abbrev S1x32x1024x64 : Shape := ⟨4, ![1, 32, 1024, 64]⟩
abbrev S1x1024x512 : Shape := ⟨3, ![1, 1024, 512]⟩
abbrev S1x1024x8x64 : Shape := ⟨4, ![1, 1024, 8, 64]⟩
abbrev S1x8x1024x64 : Shape := ⟨4, ![1, 8, 1024, 64]⟩
abbrev S1x32x1024x32 : Shape := ⟨4, ![1, 32, 1024, 32]⟩
abbrev S1x8x1024x32 : Shape := ⟨4, ![1, 8, 1024, 32]⟩
abbrev S1x8x4x1024x64 : Shape := ⟨5, ![1, 8, 4, 1024, 64]⟩
abbrev S1x32x1024x1024 : Shape := ⟨4, ![1, 32, 1024, 1024]⟩
abbrev S1x32x1024 : Shape := ⟨3, ![1, 32, 1024]⟩
abbrev S1x32x1024x1 : Shape := ⟨4, ![1, 32, 1024, 1]⟩
abbrev S1x1024x8192 : Shape := ⟨3, ![1, 1024, 8192]⟩
abbrev S1x1x8x1024x64 : Shape := ⟨5, ![1, 1, 8, 1024, 64]⟩
abbrev S2x1x8x1024x64 : Shape := ⟨5, ![2, 1, 8, 1024, 64]⟩

abbrev nBuf : Space → Nat
  | .hbm => 280
  | .vmem => 0
  | .smem => 0
  | _ => 0

abbrev hbmTy0_0 (i : Nat) : BufTy := match i % 128 with
  | 0 => ⟨S1x1024x2048, .f32⟩
  | 1 => ⟨S1x1x1024x1024, .f32⟩
  | 2 => ⟨S1x1024, .i32⟩
  | 3 => ⟨S1024x64, .f32⟩
  | 4 => ⟨S1024x64, .f32⟩
  | 5 => ⟨S2x2048, .f32⟩
  | 6 => ⟨S2x2048, .f32⟩
  | 7 => ⟨S2x2048x2048, .f32⟩
  | 8 => ⟨S2x512x2048, .f32⟩
  | 9 => ⟨S2x512x2048, .f32⟩
  | 10 => ⟨S2x2048x2048, .f32⟩
  | 11 => ⟨S2x8192x2048, .f32⟩
  | 12 => ⟨S2x8192x2048, .f32⟩
  | 13 => ⟨S2x2048x8192, .f32⟩
  | 14 => ⟨S_, .i32⟩
  | 15 => ⟨S1x1024, .i32⟩
  | 16 => ⟨S1x1024, .i1⟩
  | 17 => ⟨S_, .i32⟩
  | 18 => ⟨S1x1024, .i32⟩
  | 19 => ⟨S1x1024, .i32⟩
  | 20 => ⟨S1x1024, .i32⟩
  | 21 => ⟨S1x1024x1, .i32⟩
  | 22 => ⟨S1x1024x64, .f32⟩
  | 23 => ⟨S1x1x1024x64, .f32⟩
  | 24 => ⟨S_, .i32⟩
  | 25 => ⟨S1x1024, .i32⟩
  | 26 => ⟨S1x1024, .i1⟩
  | 27 => ⟨S_, .i32⟩
  | 28 => ⟨S1x1024, .i32⟩
  | 29 => ⟨S1x1024, .i32⟩
  | 30 => ⟨S1x1024, .i32⟩
  | 31 => ⟨S1x1024x1, .i32⟩
  | 32 => ⟨S1x1024x64, .f32⟩
  | 33 => ⟨S1x1x1024x64, .f32⟩
  | 34 => ⟨S1x2048, .f32⟩
  | 35 => ⟨S2048, .f32⟩
  | 36 => ⟨S1x2048, .f32⟩
  | 37 => ⟨S2048, .f32⟩
  | 38 => ⟨S1x2048x2048, .f32⟩
  | 39 => ⟨S2048x2048, .f32⟩
  | 40 => ⟨S1x512x2048, .f32⟩
  | 41 => ⟨S512x2048, .f32⟩
  | 42 => ⟨S1x512x2048, .f32⟩
  | 43 => ⟨S512x2048, .f32⟩
  | 44 => ⟨S1x2048x2048, .f32⟩
  | 45 => ⟨S2048x2048, .f32⟩
  | 46 => ⟨S1x8192x2048, .f32⟩
  | 47 => ⟨S8192x2048, .f32⟩
  | 48 => ⟨S1x8192x2048, .f32⟩
  | 49 => ⟨S8192x2048, .f32⟩
  | 50 => ⟨S1x2048x8192, .f32⟩
  | 51 => ⟨S2048x8192, .f32⟩
  | 52 => ⟨S1x1024x2048, .f32⟩
  | 53 => ⟨S_, .f32⟩
  | 54 => ⟨S1x1024, .f32⟩
  | 55 => ⟨S1x1024x1, .f32⟩
  | 56 => ⟨S_, .f32⟩
  | 57 => ⟨S1x1024x1, .f32⟩
  | 58 => ⟨S1x1024x1, .f32⟩
  | 59 => ⟨S_, .f32⟩
  | 60 => ⟨S1x1024x1, .f32⟩
  | 61 => ⟨S1x1024x1, .f32⟩
  | 62 => ⟨S1x1024x1, .f32⟩
  | 63 => ⟨S1x1024x2048, .f32⟩
  | 64 => ⟨S1x1024x2048, .f32⟩
  | 65 => ⟨S1x1x2048, .f32⟩
  | 66 => ⟨S1x1024x2048, .f32⟩
  | 67 => ⟨S1x1024x2048, .f32⟩
  | 68 => ⟨S1x1024x2048, .f32⟩
  | 69 => ⟨S1x1024x32x64, .f32⟩
  | 70 => ⟨S1x32x1024x64, .f32⟩
  | 71 => ⟨S1x1024x512, .f32⟩
  | 72 => ⟨S1x1024x8x64, .f32⟩
  | 73 => ⟨S1x8x1024x64, .f32⟩
  | 74 => ⟨S1x1024x512, .f32⟩
  | 75 => ⟨S1x1024x8x64, .f32⟩
  | 76 => ⟨S1x8x1024x64, .f32⟩
  | 77 => ⟨S1x32x1024x64, .f32⟩
  | 78 => ⟨S1x32x1024x64, .f32⟩
  | 79 => ⟨S1x32x1024x32, .f32⟩
  | 80 => ⟨S1x32x1024x32, .f32⟩
  | 81 => ⟨S1x32x1024x32, .f32⟩
  | 82 => ⟨S1x32x1024x64, .f32⟩
  | 83 => ⟨S1x32x1024x64, .f32⟩
  | 84 => ⟨S1x32x1024x64, .f32⟩
  | 85 => ⟨S1x32x1024x64, .f32⟩
  | 86 => ⟨S1x8x1024x64, .f32⟩
  | 87 => ⟨S1x8x1024x64, .f32⟩
  | 88 => ⟨S1x8x1024x32, .f32⟩
  | 89 => ⟨S1x8x1024x32, .f32⟩
  | 90 => ⟨S1x8x1024x32, .f32⟩
  | 91 => ⟨S1x8x1024x64, .f32⟩
  | 92 => ⟨S1x8x1024x64, .f32⟩
  | 93 => ⟨S1x8x1024x64, .f32⟩
  | 94 => ⟨S1x8x1024x64, .f32⟩
  | 95 => ⟨S1x8x4x1024x64, .f32⟩
  | 96 => ⟨S1x32x1024x64, .f32⟩
  | 97 => ⟨S1x8x4x1024x64, .f32⟩
  | 98 => ⟨S1x32x1024x64, .f32⟩
  | 99 => ⟨S1x32x1024x1024, .f32⟩
  | 100 => ⟨S_, .f32⟩
  | 101 => ⟨S1x32x1024x1024, .f32⟩
  | 102 => ⟨S1x32x1024x1024, .f32⟩
  | 103 => ⟨S1x32x1024x1024, .f32⟩
  | 104 => ⟨S1x32x1024x1024, .f32⟩
  | 105 => ⟨S_, .f32⟩
  | 106 => ⟨S1x32x1024, .f32⟩
  | 107 => ⟨S_, .f32⟩
  | 108 => ⟨S1x32x1024, .f32⟩
  | 109 => ⟨S1x32x1024, .f32⟩
  | 110 => ⟨S1x32x1024x1, .f32⟩
  | 111 => ⟨S1x32x1024x1024, .f32⟩
  | 112 => ⟨S1x32x1024x1024, .f32⟩
  | 113 => ⟨S1x32x1024x1024, .f32⟩
  | 114 => ⟨S_, .f32⟩
  | 115 => ⟨S1x32x1024, .f32⟩
  | 116 => ⟨S1x32x1024x1, .f32⟩
  | 117 => ⟨S1x32x1024x1024, .f32⟩
  | 118 => ⟨S1x32x1024x1024, .f32⟩
  | 119 => ⟨S1x32x1024x64, .f32⟩
  | 120 => ⟨S1x1024x32x64, .f32⟩
  | 121 => ⟨S1x1024x2048, .f32⟩
  | 122 => ⟨S1x1024x2048, .f32⟩
  | 123 => ⟨S1x1024x2048, .f32⟩
  | 124 => ⟨S1x1024x2048, .f32⟩
  | 125 => ⟨S_, .f32⟩
  | 126 => ⟨S1x1024, .f32⟩
  | 127 => ⟨S1x1024x1, .f32⟩
  | _ => ⟨S1x1024x2048, .f32⟩

abbrev hbmTy0_1 (i : Nat) : BufTy := match i % 128 with
  | 0 => ⟨S_, .f32⟩
  | 1 => ⟨S1x1024x1, .f32⟩
  | 2 => ⟨S1x1024x1, .f32⟩
  | 3 => ⟨S_, .f32⟩
  | 4 => ⟨S1x1024x1, .f32⟩
  | 5 => ⟨S1x1024x1, .f32⟩
  | 6 => ⟨S1x1024x1, .f32⟩
  | 7 => ⟨S1x1024x2048, .f32⟩
  | 8 => ⟨S1x1024x2048, .f32⟩
  | 9 => ⟨S1x1x2048, .f32⟩
  | 10 => ⟨S1x1024x2048, .f32⟩
  | 11 => ⟨S1x1024x2048, .f32⟩
  | 12 => ⟨S1x1024x8192, .f32⟩
  | 13 => ⟨S1x1024x8192, .f32⟩
  | 14 => ⟨S1x1024x8192, .f32⟩
  | 15 => ⟨S1x1024x8192, .f32⟩
  | 16 => ⟨S_, .f32⟩
  | 17 => ⟨S1x1024x8192, .f32⟩
  | 18 => ⟨S1x1024x8192, .f32⟩
  | 19 => ⟨S_, .f32⟩
  | 20 => ⟨S1x1024x8192, .f32⟩
  | 21 => ⟨S1x1024x8192, .f32⟩
  | 22 => ⟨S1x1024x8192, .f32⟩
  | 23 => ⟨S1x1024x8192, .f32⟩
  | 24 => ⟨S1x1024x2048, .f32⟩
  | 25 => ⟨S1x1024x2048, .f32⟩
  | 26 => ⟨S1x2048, .f32⟩
  | 27 => ⟨S2048, .f32⟩
  | 28 => ⟨S1x2048, .f32⟩
  | 29 => ⟨S2048, .f32⟩
  | 30 => ⟨S1x2048x2048, .f32⟩
  | 31 => ⟨S2048x2048, .f32⟩
  | 32 => ⟨S1x512x2048, .f32⟩
  | 33 => ⟨S512x2048, .f32⟩
  | 34 => ⟨S1x512x2048, .f32⟩
  | 35 => ⟨S512x2048, .f32⟩
  | 36 => ⟨S1x2048x2048, .f32⟩
  | 37 => ⟨S2048x2048, .f32⟩
  | 38 => ⟨S1x8192x2048, .f32⟩
  | 39 => ⟨S8192x2048, .f32⟩
  | 40 => ⟨S1x8192x2048, .f32⟩
  | 41 => ⟨S8192x2048, .f32⟩
  | 42 => ⟨S1x2048x8192, .f32⟩
  | 43 => ⟨S2048x8192, .f32⟩
  | 44 => ⟨S1x1024x2048, .f32⟩
  | 45 => ⟨S_, .f32⟩
  | 46 => ⟨S1x1024, .f32⟩
  | 47 => ⟨S1x1024x1, .f32⟩
  | 48 => ⟨S_, .f32⟩
  | 49 => ⟨S1x1024x1, .f32⟩
  | 50 => ⟨S1x1024x1, .f32⟩
  | 51 => ⟨S_, .f32⟩
  | 52 => ⟨S1x1024x1, .f32⟩
  | 53 => ⟨S1x1024x1, .f32⟩
  | 54 => ⟨S1x1024x1, .f32⟩
  | 55 => ⟨S1x1024x2048, .f32⟩
  | 56 => ⟨S1x1024x2048, .f32⟩
  | 57 => ⟨S1x1x2048, .f32⟩
  | 58 => ⟨S1x1024x2048, .f32⟩
  | 59 => ⟨S1x1024x2048, .f32⟩
  | 60 => ⟨S1x1024x2048, .f32⟩
  | 61 => ⟨S1x1024x32x64, .f32⟩
  | 62 => ⟨S1x32x1024x64, .f32⟩
  | 63 => ⟨S1x1024x512, .f32⟩
  | 64 => ⟨S1x1024x8x64, .f32⟩
  | 65 => ⟨S1x8x1024x64, .f32⟩
  | 66 => ⟨S1x1024x512, .f32⟩
  | 67 => ⟨S1x1024x8x64, .f32⟩
  | 68 => ⟨S1x8x1024x64, .f32⟩
  | 69 => ⟨S1x32x1024x64, .f32⟩
  | 70 => ⟨S1x32x1024x64, .f32⟩
  | 71 => ⟨S1x32x1024x32, .f32⟩
  | 72 => ⟨S1x32x1024x32, .f32⟩
  | 73 => ⟨S1x32x1024x32, .f32⟩
  | 74 => ⟨S1x32x1024x64, .f32⟩
  | 75 => ⟨S1x32x1024x64, .f32⟩
  | 76 => ⟨S1x32x1024x64, .f32⟩
  | 77 => ⟨S1x32x1024x64, .f32⟩
  | 78 => ⟨S1x8x1024x64, .f32⟩
  | 79 => ⟨S1x8x1024x64, .f32⟩
  | 80 => ⟨S1x8x1024x32, .f32⟩
  | 81 => ⟨S1x8x1024x32, .f32⟩
  | 82 => ⟨S1x8x1024x32, .f32⟩
  | 83 => ⟨S1x8x1024x64, .f32⟩
  | 84 => ⟨S1x8x1024x64, .f32⟩
  | 85 => ⟨S1x8x1024x64, .f32⟩
  | 86 => ⟨S1x8x1024x64, .f32⟩
  | 87 => ⟨S1x8x4x1024x64, .f32⟩
  | 88 => ⟨S1x32x1024x64, .f32⟩
  | 89 => ⟨S1x8x4x1024x64, .f32⟩
  | 90 => ⟨S1x32x1024x64, .f32⟩
  | 91 => ⟨S1x32x1024x1024, .f32⟩
  | 92 => ⟨S_, .f32⟩
  | 93 => ⟨S1x32x1024x1024, .f32⟩
  | 94 => ⟨S1x32x1024x1024, .f32⟩
  | 95 => ⟨S1x32x1024x1024, .f32⟩
  | 96 => ⟨S1x32x1024x1024, .f32⟩
  | 97 => ⟨S_, .f32⟩
  | 98 => ⟨S1x32x1024, .f32⟩
  | 99 => ⟨S_, .f32⟩
  | 100 => ⟨S1x32x1024, .f32⟩
  | 101 => ⟨S1x32x1024, .f32⟩
  | 102 => ⟨S1x32x1024x1, .f32⟩
  | 103 => ⟨S1x32x1024x1024, .f32⟩
  | 104 => ⟨S1x32x1024x1024, .f32⟩
  | 105 => ⟨S1x32x1024x1024, .f32⟩
  | 106 => ⟨S_, .f32⟩
  | 107 => ⟨S1x32x1024, .f32⟩
  | 108 => ⟨S1x32x1024x1, .f32⟩
  | 109 => ⟨S1x32x1024x1024, .f32⟩
  | 110 => ⟨S1x32x1024x1024, .f32⟩
  | 111 => ⟨S1x32x1024x64, .f32⟩
  | 112 => ⟨S1x1024x32x64, .f32⟩
  | 113 => ⟨S1x1024x2048, .f32⟩
  | 114 => ⟨S1x1024x2048, .f32⟩
  | 115 => ⟨S1x1024x2048, .f32⟩
  | 116 => ⟨S1x1024x2048, .f32⟩
  | 117 => ⟨S_, .f32⟩
  | 118 => ⟨S1x1024, .f32⟩
  | 119 => ⟨S1x1024x1, .f32⟩
  | 120 => ⟨S_, .f32⟩
  | 121 => ⟨S1x1024x1, .f32⟩
  | 122 => ⟨S1x1024x1, .f32⟩
  | 123 => ⟨S_, .f32⟩
  | 124 => ⟨S1x1024x1, .f32⟩
  | 125 => ⟨S1x1024x1, .f32⟩
  | 126 => ⟨S1x1024x1, .f32⟩
  | 127 => ⟨S1x1024x2048, .f32⟩
  | _ => ⟨S1x1024x2048, .f32⟩

abbrev hbmTy0_2 (i : Nat) : BufTy := match i % 128 with
  | 0 => ⟨S1x1024x2048, .f32⟩
  | 1 => ⟨S1x1x2048, .f32⟩
  | 2 => ⟨S1x1024x2048, .f32⟩
  | 3 => ⟨S1x1024x2048, .f32⟩
  | 4 => ⟨S1x1024x8192, .f32⟩
  | 5 => ⟨S1x1024x8192, .f32⟩
  | 6 => ⟨S1x1024x8192, .f32⟩
  | 7 => ⟨S1x1024x8192, .f32⟩
  | 8 => ⟨S_, .f32⟩
  | 9 => ⟨S1x1024x8192, .f32⟩
  | 10 => ⟨S1x1024x8192, .f32⟩
  | 11 => ⟨S_, .f32⟩
  | 12 => ⟨S1x1024x8192, .f32⟩
  | 13 => ⟨S1x1024x8192, .f32⟩
  | 14 => ⟨S1x1024x8192, .f32⟩
  | 15 => ⟨S1x1024x8192, .f32⟩
  | 16 => ⟨S1x1024x2048, .f32⟩
  | 17 => ⟨S1x1024x2048, .f32⟩
  | 18 => ⟨S1x1x8x1024x64, .f32⟩
  | 19 => ⟨S1x1x8x1024x64, .f32⟩
  | 20 => ⟨S2x1x8x1024x64, .f32⟩
  | 21 => ⟨S1x1x8x1024x64, .f32⟩
  | 22 => ⟨S1x1x8x1024x64, .f32⟩
  | 23 => ⟨S2x1x8x1024x64, .f32⟩
  | _ => ⟨S1x1024x2048, .f32⟩

abbrev hbmTy (i : Nat) : BufTy := match i / 128 with
  | 0 => hbmTy0_0 i
  | 1 => hbmTy0_1 i
  | 2 => hbmTy0_2 i
  | _ => ⟨S1x1024x2048, .f32⟩

abbrev bufTy : (tb : Table) → Fin (tcTables nBuf tb) → BufTy
  | .hbm, ⟨i, _⟩ => hbmTy i
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_5 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_6 : Ref sig .tc := ⟨.hbm, 105, rfl⟩
abbrev main_v83 : Ref sig .tc := ⟨.hbm, 106, rfl⟩
abbrev main_cst_7 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_8 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_9 : Ref sig .tc := ⟨.hbm, 125, rfl⟩
abbrev main_v100 : Ref sig .tc := ⟨.hbm, 126, rfl⟩
abbrev main_v101 : Ref sig .tc := ⟨.hbm, 127, rfl⟩
abbrev main_cst_10 : Ref sig .tc := ⟨.hbm, 128, rfl⟩
abbrev main_v102 : Ref sig .tc := ⟨.hbm, 129, rfl⟩
abbrev main_v103 : Ref sig .tc := ⟨.hbm, 130, rfl⟩
abbrev main_cst_11 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_call0_v0 : Ref sig .tc := ⟨.hbm, 142, rfl⟩
abbrev main_call0_v1 : Ref sig .tc := ⟨.hbm, 143, rfl⟩
abbrev main_call0_cst : Ref sig .tc := ⟨.hbm, 144, rfl⟩
abbrev main_call0_v2 : Ref sig .tc := ⟨.hbm, 145, rfl⟩
abbrev main_call0_v3 : Ref sig .tc := ⟨.hbm, 146, rfl⟩
abbrev main_call0_cst_0 : Ref sig .tc := ⟨.hbm, 147, rfl⟩
abbrev main_call0_v4 : Ref sig .tc := ⟨.hbm, 148, rfl⟩
abbrev main_call0_v5 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_12 : Ref sig .tc := ⟨.hbm, 173, rfl⟩
abbrev main_v137 : Ref sig .tc := ⟨.hbm, 174, rfl⟩
abbrev main_v138 : Ref sig .tc := ⟨.hbm, 175, rfl⟩
abbrev main_cst_13 : Ref sig .tc := ⟨.hbm, 176, rfl⟩
abbrev main_v139 : Ref sig .tc := ⟨.hbm, 177, rfl⟩
abbrev main_v140 : Ref sig .tc := ⟨.hbm, 178, rfl⟩
abbrev main_cst_14 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_15 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_cst_16 : Ref sig .tc := ⟨.hbm, 225, rfl⟩
abbrev main_v185 : Ref sig .tc := ⟨.hbm, 226, rfl⟩
abbrev main_cst_17 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_cst_18 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_cst_19 : Ref sig .tc := ⟨.hbm, 245, rfl⟩
abbrev main_v202 : Ref sig .tc := ⟨.hbm, 246, rfl⟩
abbrev main_v203 : Ref sig .tc := ⟨.hbm, 247, rfl⟩
abbrev main_cst_20 : Ref sig .tc := ⟨.hbm, 248, rfl⟩
abbrev main_v204 : Ref sig .tc := ⟨.hbm, 249, rfl⟩
abbrev main_v205 : Ref sig .tc := ⟨.hbm, 250, rfl⟩
abbrev main_cst_21 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_call1_v0 : Ref sig .tc := ⟨.hbm, 262, rfl⟩
abbrev main_call1_v1 : Ref sig .tc := ⟨.hbm, 263, rfl⟩
abbrev main_call1_cst : Ref sig .tc := ⟨.hbm, 264, rfl⟩
abbrev main_call1_v2 : Ref sig .tc := ⟨.hbm, 265, rfl⟩
abbrev main_call1_v3 : Ref sig .tc := ⟨.hbm, 266, rfl⟩
abbrev main_call1_cst_0 : Ref sig .tc := ⟨.hbm, 267, rfl⟩
abbrev main_call1_v4 : Ref sig .tc := ⟨.hbm, 268, rfl⟩
abbrev main_call1_v5 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩

abbrev nD : Nat := 1
abbrev τ : Topo := Topo.v7x

variable {F : FTy → Type} [FloatOps F]

class Facts₀ : Prop where
  bcast_S_S1x1024 : S_.BroadcastsInDim S1x1024 (![] : Fin 0 → Fin S1x1024.rank)
  bcast_S1x1024_S1x1024x1_0_1 : S1x1024.BroadcastsInDim S1x1024x1 (![0, 1] : Fin 2 → Fin S1x1024x1.rank)
  bcast_S1x1024x64_S1x1x1024x64_0_2_3 : S1x1024x64.BroadcastsInDim S1x1x1024x64 (![0, 2, 3] : Fin 3 → Fin S1x1x1024x64.rank)
  slices_S2x2048_S1x2048_0_0 : S2x2048.Slices ![0, 0] S1x2048
  shapeCasts_S1x2048_S2048 : S1x2048.ShapeCasts S2048
  slices_S2x2048x2048_S1x2048x2048_0_0_0 : S2x2048x2048.Slices ![0, 0, 0] S1x2048x2048
  shapeCasts_S1x2048x2048_S2048x2048 : S1x2048x2048.ShapeCasts S2048x2048
  slices_S2x512x2048_S1x512x2048_0_0_0 : S2x512x2048.Slices ![0, 0, 0] S1x512x2048
  shapeCasts_S1x512x2048_S512x2048 : S1x512x2048.ShapeCasts S512x2048
  slices_S2x8192x2048_S1x8192x2048_0_0_0 : S2x8192x2048.Slices ![0, 0, 0] S1x8192x2048
  shapeCasts_S1x8192x2048_S8192x2048 : S1x8192x2048.ShapeCasts S8192x2048
  slices_S2x2048x8192_S1x2048x8192_0_0_0 : S2x2048x8192.Slices ![0, 0, 0] S1x2048x8192
  shapeCasts_S1x2048x8192_S2048x8192 : S1x2048x8192.ShapeCasts S2048x8192
  reducesTo_S1x1024x2048_S1x1024_d2 : S1x1024x2048.ReducesTo [2] S1x1024
  h_S_ : 0 < S_.numel
  bcast_S_S1x1024x1 : S_.BroadcastsInDim S1x1024x1 (![] : Fin 0 → Fin S1x1024x1.rank)
  bcast_S1x1024x1_S1x1024x2048_0_1_2 : S1x1024x1.BroadcastsInDim S1x1024x2048 (![0, 1, 2] : Fin 3 → Fin S1x1024x2048.rank)
  bcast_S2048_S1x1x2048_2 : S2048.BroadcastsInDim S1x1x2048 (![2] : Fin 1 → Fin S1x1x2048.rank)
  bcast_S1x1x2048_S1x1024x2048_0_1_2 : S1x1x2048.BroadcastsInDim S1x1024x2048 (![0, 1, 2] : Fin 3 → Fin S1x1024x2048.rank)
  shapeCasts_S1x1024x2048_S1x1024x32x64 : S1x1024x2048.ShapeCasts S1x1024x32x64
  transposes_S1x1024x32x64_S1x32x1024x64_0_2_1_3 : S1x1024x32x64.Transposes [0, 2, 1, 3] S1x32x1024x64
  shapeCasts_S1x1024x512_S1x1024x8x64 : S1x1024x512.ShapeCasts S1x1024x8x64
  transposes_S1x1024x8x64_S1x8x1024x64_0_2_1_3 : S1x1024x8x64.Transposes [0, 2, 1, 3] S1x8x1024x64
  bcast_S1x1x1024x64_S1x32x1024x64_0_1_2_3 : S1x1x1024x64.BroadcastsInDim S1x32x1024x64 (![0, 1, 2, 3] : Fin 4 → Fin S1x32x1024x64.rank)
  slices_S1x32x1024x64_S1x32x1024x32_0_0_0_32 : S1x32x1024x64.Slices ![0, 0, 0, 32] S1x32x1024x32
  slices_S1x32x1024x64_S1x32x1024x32_0_0_0_0 : S1x32x1024x64.Slices ![0, 0, 0, 0] S1x32x1024x32
  concatenates_S1x32x1024x32_S1x32x1024x32_S1x32x1024x64_d3 : Shape.Concatenates [S1x32x1024x32, S1x32x1024x32] S1x32x1024x64 3
  bcast_S1x1x1024x64_S1x8x1024x64_0_1_2_3 : S1x1x1024x64.BroadcastsInDim S1x8x1024x64 (![0, 1, 2, 3] : Fin 4 → Fin S1x8x1024x64.rank)
  slices_S1x8x1024x64_S1x8x1024x32_0_0_0_32 : S1x8x1024x64.Slices ![0, 0, 0, 32] S1x8x1024x32
  slices_S1x8x1024x64_S1x8x1024x32_0_0_0_0 : S1x8x1024x64.Slices ![0, 0, 0, 0] S1x8x1024x32
  concatenates_S1x8x1024x32_S1x8x1024x32_S1x8x1024x64_d3 : Shape.Concatenates [S1x8x1024x32, S1x8x1024x32] S1x8x1024x64 3
  bcast_S1x8x1024x64_S1x8x4x1024x64_0_1_3_4 : S1x8x1024x64.BroadcastsInDim S1x8x4x1024x64 (![0, 1, 3, 4] : Fin 4 → Fin S1x8x4x1024x64.rank)
  shapeCasts_S1x8x4x1024x64_S1x32x1024x64 : S1x8x4x1024x64.ShapeCasts S1x32x1024x64
  bcast_S_S1x32x1024x1024 : S_.BroadcastsInDim S1x32x1024x1024 (![] : Fin 0 → Fin S1x32x1024x1024.rank)
  bcast_S1x1x1024x1024_S1x32x1024x1024_0_1_2_3 : S1x1x1024x1024.BroadcastsInDim S1x32x1024x1024 (![0, 1, 2, 3] : Fin 4 → Fin S1x32x1024x1024.rank)
  reducesTo_S1x32x1024x1024_S1x32x1024_d3 : S1x32x1024x1024.ReducesTo [3] S1x32x1024
  bcast_S_S1x32x1024 : S_.BroadcastsInDim S1x32x1024 (![] : Fin 0 → Fin S1x32x1024.rank)
  bcast_S1x32x1024_S1x32x1024x1_0_1_2 : S1x32x1024.BroadcastsInDim S1x32x1024x1 (![0, 1, 2] : Fin 3 → Fin S1x32x1024x1.rank)
  bcast_S1x32x1024x1_S1x32x1024x1024_0_1_2_3 : S1x32x1024x1.BroadcastsInDim S1x32x1024x1024 (![0, 1, 2, 3] : Fin 4 → Fin S1x32x1024x1024.rank)
  transposes_S1x32x1024x64_S1x1024x32x64_0_2_1_3 : S1x32x1024x64.Transposes [0, 2, 1, 3] S1x1024x32x64
  shapeCasts_S1x1024x32x64_S1x1024x2048 : S1x1024x32x64.ShapeCasts S1x1024x2048
  bcast_S_S1x1024x8192 : S_.BroadcastsInDim S1x1024x8192 (![] : Fin 0 → Fin S1x1024x8192.rank)
  slices_S2x2048_S1x2048_1_0 : S2x2048.Slices ![1, 0] S1x2048
  slices_S2x2048x2048_S1x2048x2048_1_0_0 : S2x2048x2048.Slices ![1, 0, 0] S1x2048x2048
  slices_S2x512x2048_S1x512x2048_1_0_0 : S2x512x2048.Slices ![1, 0, 0] S1x512x2048
  slices_S2x8192x2048_S1x8192x2048_1_0_0 : S2x8192x2048.Slices ![1, 0, 0] S1x8192x2048
  slices_S2x2048x8192_S1x2048x8192_1_0_0 : S2x2048x8192.Slices ![1, 0, 0] S1x2048x8192
  bcast_S1x8x1024x64_S1x1x8x1024x64_1_2_3_4 : S1x8x1024x64.BroadcastsInDim S1x1x8x1024x64 (![1, 2, 3, 4] : Fin 4 → Fin S1x1x8x1024x64.rank)
  concatenates_S1x1x8x1024x64_S1x1x8x1024x64_S2x1x8x1024x64_d0 : Shape.Concatenates [S1x1x8x1024x64, S1x1x8x1024x64] S2x1x8x1024x64 0
  gather_S1024x64_S1x1024x1_S1x1024x64_2_0_n_n_0_2_164_wf : GatherDims.WF S1024x64 S1x1024x1 S1x1024x64 [2] [0] [] [0] [] 2 ![1, 64]
  dot_S1x1024x2048_S2048x2048_S1x1024x2048_2_1_01_0_n_n_wf : DotDims.WF S1x1024x2048 S2048x2048 S1x1024x2048 [2] [1] [0, 1] [0] [] []
  dot_S1x1024x2048_S512x2048_S1x1024x512_2_1_01_0_n_n_wf : DotDims.WF S1x1024x2048 S512x2048 S1x1024x512 [2] [1] [0, 1] [0] [] []
  dot_S1x32x1024x64_S1x32x1024x64_S1x32x1024x1024_3_3_2_2_01_01_wf : DotDims.WF S1x32x1024x64 S1x32x1024x64 S1x32x1024x1024 [3] [3] [2] [2] [0, 1] [0, 1]
  dot_S1x32x1024x1024_S1x32x1024x64_S1x32x1024x64_3_2_2_3_01_01_wf : DotDims.WF S1x32x1024x1024 S1x32x1024x64 S1x32x1024x64 [3] [2] [2] [3] [0, 1] [0, 1]
  dot_S1x1024x2048_S8192x2048_S1x1024x8192_2_1_01_0_n_n_wf : DotDims.WF S1x1024x2048 S8192x2048 S1x1024x8192 [2] [1] [0, 1] [0] [] []
  dot_S1x1024x8192_S2048x8192_S1x1024x2048_2_1_01_0_n_n_wf : DotDims.WF S1x1024x8192 S2048x8192 S1x1024x2048 [2] [1] [0, 1] [0] [] []

variable [Facts₀]

def gather_S1024x64_S1x1024x1_S1x1024x64_2_0_n_n_0_2_164 : GatherDims S1024x64 S1x1024x1 S1x1024x64 where
  offsetDims := [2]
  collapsedSliceDims := [0]
  operandBatchingDims := []
  startIndicesBatchingDims := []
  startIndexMap := [0]
  indexVectorDim := 2
  sliceSizes := ![1, 64]
  wf := gather_S1024x64_S1x1024x1_S1x1024x64_2_0_n_n_0_2_164_wf
def dot_S1x1024x2048_S2048x2048_S1x1024x2048_2_1_01_0_n_n : DotDims S1x1024x2048 S2048x2048 S1x1024x2048 where
  lhsContracting := [2]
  rhsContracting := [1]
  lhsNonContracting := [0, 1]
  rhsNonContracting := [0]
  lhsBatch := []
  rhsBatch := []
  wf := dot_S1x1024x2048_S2048x2048_S1x1024x2048_2_1_01_0_n_n_wf
def dot_S1x1024x2048_S512x2048_S1x1024x512_2_1_01_0_n_n : DotDims S1x1024x2048 S512x2048 S1x1024x512 where
  lhsContracting := [2]
  rhsContracting := [1]
  lhsNonContracting := [0, 1]
  rhsNonContracting := [0]
  lhsBatch := []
  rhsBatch := []
  wf := dot_S1x1024x2048_S512x2048_S1x1024x512_2_1_01_0_n_n_wf
def dot_S1x32x1024x64_S1x32x1024x64_S1x32x1024x1024_3_3_2_2_01_01 : DotDims S1x32x1024x64 S1x32x1024x64 S1x32x1024x1024 where
  lhsContracting := [3]
  rhsContracting := [3]
  lhsNonContracting := [2]
  rhsNonContracting := [2]
  lhsBatch := [0, 1]
  rhsBatch := [0, 1]
  wf := dot_S1x32x1024x64_S1x32x1024x64_S1x32x1024x1024_3_3_2_2_01_01_wf
def dot_S1x32x1024x1024_S1x32x1024x64_S1x32x1024x64_3_2_2_3_01_01 : DotDims S1x32x1024x1024 S1x32x1024x64 S1x32x1024x64 where
  lhsContracting := [3]
  rhsContracting := [2]
  lhsNonContracting := [2]
  rhsNonContracting := [3]
  lhsBatch := [0, 1]
  rhsBatch := [0, 1]
  wf := dot_S1x32x1024x1024_S1x32x1024x64_S1x32x1024x64_3_2_2_3_01_01_wf
def dot_S1x1024x2048_S8192x2048_S1x1024x8192_2_1_01_0_n_n : DotDims S1x1024x2048 S8192x2048 S1x1024x8192 where
  lhsContracting := [2]
  rhsContracting := [1]
  lhsNonContracting := [0, 1]
  rhsNonContracting := [0]
  lhsBatch := []
  rhsBatch := []
  wf := dot_S1x1024x2048_S8192x2048_S1x1024x8192_2_1_01_0_n_n_wf
def dot_S1x1024x8192_S2048x8192_S1x1024x2048_2_1_01_0_n_n : DotDims S1x1024x8192 S2048x8192 S1x1024x2048 where
  lhsContracting := [2]
  rhsContracting := [1]
  lhsNonContracting := [0, 1]
  rhsNonContracting := [0]
  lhsBatch := []
  rhsBatch := []
  wf := dot_S1x1024x8192_S2048x8192_S1x1024x2048_2_1_01_0_n_n_wf

class Facts : Prop extends Facts₀ where

variable [Facts]
-- ==== Proof.KB.RunCond.lean ====
/- The program's run, given one record per kernel region: from any memory with zero counters, every weakly fair
  execution of the whole program terminates, nothing faulting, and every final memory holds EVERY unscoped buffer at
  the last boundary's contents: the launch contents pushed through each host stretch, each region's output array at
  what that region leaves.  The frame claim (the arguments as launched) and the results' values are both read off
  this one statement.
-/
import proofs.«167047_j26895085207995_2_alg».proof.Proof.Gen.Kernel.Regions

set_option maxRecDepth 1396

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- The run over the regions' records: every unscoped buffer ends at the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 10) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 11 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE10 : ∀ c : Dev nD, E 10 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V13 m outs c) ∗ E 7 c) ⊢ R7.pre c)
    (hpost7 : ∀ c : Dev nD, R7.post c ⊢ iprop(StableHlo.held (c : Thread nD τ) (Pipeline.ucRefs τ sig) (V14 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V17 m outs c) ∗ E 9 c) ⊢ R9.pre c)
    (hpost9 : ∀ c : Dev nD, R9.post c ⊢ iprop(StableHlo.held (c : Thread nD τ) (Pipeline.ucRefs τ sig) (V18 m outs c) ∗ E 10 c)) :
    θ_run defs (onTc (τ := τ) (main (F := F))) ⟨m, fun _ => 0, ρ⟩ (fun r => ∀ c : Dev nD,
      ∀ b ∈ Pipeline.ucRefs τ sig, r.2.mem (((c : Thread nD τ)).1, b) = V19 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9)
    (fun c Q => by
      rewrite [main_chain c, Seg.run_eq_chain,
        show (segs m outs 𝒱₀ L lv E ι pdats R0 R1 R2 R3 R4 R5 R6 R7 R8 R9 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, hpost0 c, hpre1 c, (hpost1 c).trans (hpre2 c), hpost2 c, hpre3 c, hpost3 c, hpre4 c, hpost4 c, hpre5 c, hpost5 c, hpre6 c, (hpost6 c).trans (hpre7 c), hpost7 c, hpre8 c, hpost8 c, hpre9 c, hpost9 c, sep_mono .rfl (hE10 c)⟩)
    (hinit := ?_) (QY := fun c s => ∀ b ∈ Pipeline.ucRefs τ sig, s.mem (((c : Thread nD τ)).1, b) = V19 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact h
    · iexact HSI

end Cert.Kernel.Gen

end
-- ==== Proof.KB.Reg0.lean ====
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # A layer's normalise-and-project call: its windows' blocks, what its body leaves, its proof data

The call walks a 2 x 6 grid. At point `(i, j)` its body is handed three input blocks — rows `512 i .. 512 i + 511` of
the `1024 x 2048` activations, the whole `1 x 2048` gain row, and rows `512 j .. 512 j + 511` of the `3072 x 2048`
stacked projection weights (half-width elements) — and one output block, the `512 x 512` tile `(i, j)` of the
`1024 x 3072` result. The body reads the three inputs whole, reads the output tile (the value read is not used), and
stores over the WHOLE output tile one value: the payload of the three blocks read (each row scaled by the reciprocal
root of its mean square plus a constant, scaled columnwise by the gain, rounded to half width, and multiplied with the
transposed weight block). So after the body every input buffer holds what it held and the output buffer holds that
payload, whatever it held before.

Everything here is stated at a PARAMETER `V`, the contents of the core's buffers when the call is entered, and for
any float instance. -/

-- that a coordinate lies in a rectangle of extent 512 x 2048 is checked coordinate by coordinate: one level of
-- recursion per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered: the parameter everything below is stated at
variable (V : (c : Dev nD) → (b : Ref sig .tc) → Buf (Elt F) ((c : Thread nD τ).loc b))

/-! ## The windows' blocks -/

/-- Window `w`'s block at point `t`: the entries of its array, as the call finds it (`V`), that lie in the
    rectangle the window's index map picks at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (window 0) is fetched only where the row index `i` moves (every sixth point). At the other
    points its block index is the previous point's, and the body left the block in place there, so by induction
    along the grid the buffer holds the block of THIS point at every point: for ANY proof data whose array is
    `V`'s (`hA`) and whose body leaves the block in place (`hafter`). The window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The gain row's window (window 1) has one block, fetched at the first point only; the same argument gives that
    block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The weights' window (window 2) moves with the column index `j` and is fetched at every point; the same statement
    holds of it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a `512 x 2048` block (the activations' and the weights'). -/
abbrev r0_0 : Rect S512x2048 := Rect.unit (s := S512x2048) ![0, 0] S512x2048.size inb_S512x2048_S512x2048_0_0
/-- The whole of the `1 x 2048` gain row. -/
abbrev r0_1 : Rect S1x2048 := Rect.unit (s := S1x2048) ![0, 0] S1x2048.size inb_S1x2048_S1x2048_0_0
/-- The whole of the `512 x 512` output tile. -/
abbrev r0_2 : Rect S512x512 := Rect.unit (s := S512x512) ![0, 0] S512x512.size inb_S512x512_S512x512_0_0

/-! ## What the body leaves in the output window's buffer -/

/-- Window 3's buffer after the body, from the three input blocks: its one store as a piece — the whole tile, at the
    payload of the three blocks read whole. -/
def out0_3 (x0 : Vec F S512x2048 .f32) (x1 : Vec F S1x2048 .f32) (x2 : Vec F S512x2048 .bf16) : Vec F S512x512 .f32 :=
  View.canon [⟨r0_2, k0_pay1 (View.ld x0 r0_0) (View.ld x1 r0_1) (View.ld x2 r0_0)⟩]

/-- The store's rectangle is the whole tile, so it covers it: every coordinate lies in the one piece. -/
theorem cover0_3 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The body on whole staging memrefs, the inputs' at contents `x0`, `x1`, `x2` and the output's at anything, runs to
    the continuation holding the inputs' as they were and the output's at `out0_3` of the inputs': the three loads
    return the blocks, the load of the output tile returns a value nothing uses, and the store overwrites the whole
    tile, so what the tile held before is gone. The grid point `i` plays no part. -/
theorem sound_kernel0 (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x512 .f32) (harg5 : arg5.IsWhole)
    (x0 : Vec F S512x2048 .f32) (x1 : Vec F S1x2048 .f32) (x2 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__rmsnorm_matmul_kernel i arg2 harg2 arg3 harg3 arg4 harg4 arg5 harg5) K := by
  simp only [cc0__rmsnorm_matmul_kernel_eq_skeleton]; unfold cc0__rmsnorm_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this call's pipeline on core `c`: the arrays as the call finds them (`V`); after the body at
    point `t` each input's buffer at its block and the output's at `out0_3` of the three input blocks; the invariant
    "the scoped rest and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents at entry: the definition projected, `V` never opened. -/
theorem A_eq0 (c : Dev nD) (w : Fin cfg0.W) : (dat0 V c).A w = V c (Pipeline.arrRef spec0 w) := by
  dsimp only [dat0]

/-- What the body leaves, window by window (the definition's case split reduced at each window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and the four current staging buffers,
    each at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_0`, `before0_1`, `before0_2`), so
    `sound_kernel0` applies; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point: its two conjunctions over the windows written out, it is
    `sound_body0`. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.Reg1.lean ====
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of the rotary-embedding call on the keys (the kernel function `cc1__rope_kernel`), at any float
    instance and at a PARAMETER `V`: the TensorCore's buffer contents when the call is entered.

    The call walks the eight heads of the key array. At head `t` it is handed the head's block `[1,1024,64]` of the
    `[8,1024,64]` key array (window 0), the whole cosine and sine tables `[1024,64]` (windows 1 and 2: their block
    index never moves, so they are fetched at the first head only and found in place afterwards), and the head's block
    of the result (window 3). The body reads the three input blocks whole, and stores ONE value over the whole of the
    output block: the payload `k1_pay1` of the three blocks (the rotation `x · cos + rotate_half x · sin`). So after the
    body each input buffer holds the block it held, and the output buffer holds that payload: `out1_3`. This module
    states that as the pipeline's proof data `dat1` and proves the pipeline's body obligation for it. -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it (`V`): for windows 0 and 3 head
    `t`'s `[1,1024,64]` slab of the `[8,1024,64]` array, for windows 1 and 2 the whole `[1024,64]` table. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is
    `V`'s (`hA`) and whose body leaves the block in place (`hafter`): the window is fetched at every point, uncut
    and never idle. -/
theorem beforeOf1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the cosine table) likewise, fetched or not: it is fetched at the first point only, and where it is
    not fetched its block index has not moved, so the buffer still holds the block the body left in place. -/
theorem beforeOf1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the sine table) likewise. -/
theorem beforeOf1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a `[1,1024,64]` buffer (the key block's and the result block's loads, the result's store), -/
abbrev r1_0 : Rect S1x1024x64 := Rect.unit (s := S1x1024x64) ![0, 0, 0] S1x1024x64.size inb_S1x1024x64_S1x1024x64_0_0_0
/-- and the whole of a `[1024,64]` buffer (the tables' loads). -/
abbrev r1_1 : Rect S1024x64 := Rect.unit (s := S1024x64) ![0, 0] S1024x64.size inb_S1024x64_S1024x64_0_0

/-! ## What the body leaves in the output window's buffer -/

/-- Window 3's staging buffer after the body, from the input windows' blocks (`x0` the key block, `x1` the cosine
    table, `x2` the sine table): its one store as a piece — the rotation's payload over the whole buffer. -/
def out1_3 (x0 : Vec F S1x1024x64 .f32) (x1 : Vec F S1024x64 .f32) (x2 : Vec F S1024x64 .f32) : Vec F S1x1024x64 .f32 :=
  View.canon [⟨r1_0, k1_pay1 (View.ld x0 r1_0) (View.ld x1 r1_1) (View.ld x2 r1_1)⟩]

/-- The store is of the whole buffer, so it covers it. -/
theorem cover1_3 (p0 : Vec F S1x1024x64 .f32) (y : S1x1024x64.Idx) :
    ∃ pc ∈ ([⟨r1_0, p0⟩] : List (View.Piece (Elt F) S1x1024x64 .f32)), y ∈ pc.1.set :=
  View.cover_of_tiled [⟨r1_0, p0⟩] S1x1024x64.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs':
    the printed function is its skeleton of three input loads, one (unused) load of the output and one store. -/
theorem sound_kernel1 (c : Dev nD) (E : Set ℕ) (i : grid1.Coords) (arg1 : Memref sig .tc .vmem S1x1024x64 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1x1024x64 .f32) (harg4 : arg4.IsWhole)
    (x0 : Vec F S1x1024x64 .f32) (x1 : Vec F S1024x64 .f32) (x2 : Vec F S1024x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__rope_kernel i arg1 harg1 arg2 harg2 arg3 harg3 arg4 harg4) K := by
  simp only [cc1__rope_kernel_eq_skeleton]; unfold cc1__rope_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the call finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  beforeOf1_0 V (dat1 V c) (A_eq1 V c 0) (after1_0 V c) t d
theorem before1_1 (c : Dev nD) (t : Fin cfg1.N) (d) : (dat1 V c).before 1 t d = iblk1 V c 1 t :=
  beforeOf1_1 V (dat1 V c) (A_eq1 V c 1) (after1_1 V c) t d
theorem before1_2 (c : Dev nD) (t : Fin cfg1.N) (d) : (dat1 V c).before 2 t d = iblk1 V c 2 t :=
  beforeOf1_2 V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.Reg2.lean ====
/-
  One attention call of the decoder as a pipeline region: what each of its seven windows holds at a grid point, and
  what the kernel body leaves there.  The six input windows (queries, keys, values, the two rotary tables and the
  additive mask) hold their blocks of the arrays the region finds on entry; the body reads all six blocks whole,
  rotates the queries, forms the scaled scores against the keys, adds the mask, takes the row softmax and multiplies
  by the values; its one store overwrites the output window's whole staging buffer with that product.  Everything is
  stated for an arbitrary float instance and at arbitrary entry contents `V`, so the same text serves every run
  that enters this call.
-/
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place: where the window is not
    fetched its block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place: where the window is not
    fetched its block index has not moved, so the block of the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place: where the window is not
    fetched its block index has not moved, so the block of the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place: where the window is not
    fetched its block index has not moved, so the block of the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents and whose body leaves the block in place: where the window is not
    fetched its block index has not moved, so the block of the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is the entry contents and whose body leaves the block in place: where the window is not
    fetched its block index has not moved, so the block of the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a per-head block, of a rotary table and of the mask: the three rectangles the body reads and writes. -/
abbrev r2_0 : Rect S1x1024x64 := Rect.unit (s := S1x1024x64) ![0, 0, 0] S1x1024x64.size inb_S1x1024x64_S1x1024x64_0_0_0
abbrev r2_1 : Rect S1024x64 := Rect.unit (s := S1024x64) ![0, 0] S1024x64.size inb_S1024x64_S1024x64_0_0
abbrev r2_2 : Rect S1024x1024 := Rect.unit (s := S1024x1024) ![0, 0] S1024x1024.size inb_S1024x1024_S1024x1024_0_0

/-! ## What the body leaves in the output window's buffer -/

/-- The output window's staging buffer after the body, from the six input blocks: one store of the whole block,
    whose payload is the softmax weights (from queries, keys, the tables and the mask) times the values, summed
    from zero. -/
def out2_6 (x0 x1 x2 : Vec F S1x1024x64 .f32) (x3 x4 : Vec F S1024x64 .f32) (x5 : Vec F S1024x1024 .f32) : Vec F S1x1024x64 .f32 :=
  View.canon [⟨r2_0, k2_pay1 (k2_pay2 (View.ld x2 r2_0))
    (k2_pay3 (View.ld x0 r2_0) (View.ld x1 r2_0) (View.ld x3 r2_1) (View.ld x4 r2_1) (View.ld x5 r2_2))
    (constant S1024x64 .f32 0x00000000#32)⟩]

/-- The one store is of the whole buffer, so it covers it. -/
theorem cover2_6 (p0 : Vec F S1x1024x64 .f32) (y : S1x1024x64.Idx) :
    ∃ pc ∈ ([⟨r2_0, p0⟩] : List (View.Piece (Elt F) S1x1024x64 .f32)), y ∈ pc.1.set :=
  View.cover_of_tiled [⟨r2_0, p0⟩] S1x1024x64.size (by rfl) y

/-! ## The body's triple -/

set_option maxHeartbeats 1000000 in
/-- The kernel body on whole staging memrefs, the inputs' at read contents and the output's at anything, runs to the
    continuation holding the inputs' as they were and the output's at `out2_6` of the inputs'. -/
theorem sound_kernel2 (c : Dev nD) (E : Set ℕ) (i : grid2.Coords)
    (arg1 : Memref sig .tc .vmem S1x1024x64 .f32) (harg1 : arg1.IsWhole) (arg2 : Memref sig .tc .vmem S1x1024x64 .f32) (harg2 : arg2.IsWhole)
    (arg3 : Memref sig .tc .vmem S1x1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1x1024x64 .f32) (harg7 : arg7.IsWhole)
    (x0 x1 x2 : Vec F S1x1024x64 .f32) (x3 x4 : Vec F S1024x64 .f32) (x5 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__attn_kernel i arg1 harg1 arg2 harg2 arg3 harg3 arg4 harg4 arg5 harg5 arg6 harg6 arg7 harg7) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of this pipeline on core `c`: the arrays as the region finds them; after the body at point `t`
    each input's buffer at its block and the output's at `out2_6` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen
-- ==== Proof.KB.Reg3.lean ====
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The output projection with its residual, as one pipelined region: the body's half of the frame

The region multiplies a 512×2048 block of activations (rounded to bf16) by the transpose of a 512×2048 block of
bf16 weights and adds a 512×512 block of the residual stream; the sum is stored over the whole 512×512 output
block. Everything here is stated at a PARAMETER V, the TensorCore's buffer contents when the region is entered,
and for any float instance. What is proved: at every grid point each input window's staging buffer holds that
window's block of its array (whether the block was moved in at this point or at an earlier one), the body leaves
the three inputs as they were and the output buffer at the one stored payload, and so the body meets the
pipeline's obligation for the proof data "each input at its block, the output at the payload of the input
blocks". -/

-- membership of an index in a rectangle of these extents is found by a structural recursion with one level per
-- coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, as the region finds it, that the window's index map
    selects at t. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' window (its block index depends on the row coordinate only, so it is moved in at every
    fourth point): its current staging buffer holds its block at EVERY point, for any proof data whose array is
    V's and whose body leaves the block in place. Where the block was not moved in, the block index is the
    previous point's, and so is the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weights' window (bf16 elements; moved in at every point): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The residual's window (an input; moved in at every point): the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 512×2048 buffer (the activations' and the weights' loads). -/
abbrev r3_0 : Rect S512x2048 := Rect.unit (s := S512x2048) ![0, 0] S512x2048.size inb_S512x2048_S512x2048_0_0
/-- The whole 512×512 buffer (the residual's load and the one store). -/
abbrev r3_1 : Rect S512x512 := Rect.unit (s := S512x512) ![0, 0] S512x512.size inb_S512x512_S512x512_0_0

/-! ## What the body leaves in the output window's buffer -/

/-- The output window's staging buffer after the body, from the three input blocks: its one store, whose payload
    is the residual block plus the product of the activations' block (rounded to bf16) with the transposed
    weights' block, laid over the whole buffer. -/
def out3_3 (x0 : Vec F S512x2048 .f32) (x1 : Vec F S512x2048 .bf16) (x2 : Vec F S512x512 .f32) : Vec F S512x512 .f32 :=
  View.canon [⟨r3_1, k3_pay1 (View.ld x0 r3_0) (View.ld x1 r3_0) (View.ld x2 r3_1)⟩]

/-- The store's rectangle is the whole buffer, so it covers every index. -/
theorem cover3_3 (p0 : Vec F S512x512 .f32) (y : S512x512.Idx) :
    ∃ pc ∈ ([⟨r3_1, p0⟩] : List (View.Piece (Elt F) S512x512 .f32)), y ∈ pc.1.set :=
  View.cover_of_tiled [⟨r3_1, p0⟩] S512x512.size (by rfl) y

/-! ## The body's triple -/

set_option maxHeartbeats 1000000 in
/-- The kernel body on whole staging memrefs, the inputs' at read contents x0, x1, x2 and the output's at
    anything, runs to a state holding the inputs' as they were and the output's at out3_3 of the inputs': three
    whole-buffer loads, a load of the output buffer that nothing reads, and one whole-buffer store. -/
theorem sound_kernel3 (c : Dev nD) (E : Set ℕ) (i : grid3.Coords) (mem0 : Memref sig .tc .vmem S512x2048 .f32) (hmem0 : mem0.IsWhole) (mem1 : Memref sig .tc .vmem S512x2048 .bf16) (hmem1 : mem1.IsWhole) (mem2 : Memref sig .tc .vmem S512x512 .f32) (hmem2 : mem2.IsWhole) (memOut : Memref sig .tc .vmem S512x512 .f32) (hmemOut : memOut.IsWhole)
    (x0 : Vec F S512x2048 .f32) (x1 : Vec F S512x2048 .bf16) (x2 : Vec F S512x512 .f32) (K : PUnit → sProp 𝕄) :
    iprop(owns (c : Thread nD τ) mem0 fullShare x0 ∗ owns (c : Thread nD τ) mem1 fullShare x1 ∗ owns (c : Thread nD τ) mem2 fullShare x2 ∗ (∃ d, owns (c : Thread nD τ) memOut fullShare d)
        ∗ (iprop(owns (c : Thread nD τ) mem0 fullShare x0 ∗ owns (c : Thread nD τ) mem1 fullShare x1 ∗ owns (c : Thread nD τ) mem2 fullShare x2 ∗ owns (c : Thread nD τ) memOut fullShare (out3_3 x0 x1 x2)) -∗ K ⟨⟩))
      ⊢ wp frame (wpE (defs₀ (F := F)) Variants.none c none) E (cc3__matmul_residual_kernel i mem0 hmem0 mem1 hmem1 mem2 hmem2 memOut hmemOut) K := by
  simp only [cc3__matmul_residual_kernel_eq_skeleton]; unfold cc3__matmul_residual_kernel_skel
  unfold owns
  iintro ⟨⟨%f0, %hf0, H0⟩, ⟨%f1, %hf1, H1⟩, ⟨%f2, %hf2, H2⟩, ⟨%dOut, %fOut, -, HOut⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HOut
  ipureintro
  exact View.read_writes_eq_canon _ _ _ (cover3_3 _)

/-! ## The pipeline's proof data -/

/-- The proof data of this pipeline on core c: the arrays as the region finds them (V); after the body at point
    t each input's buffer at its block and the output's at out3_3 of the three input blocks; the invariant that
    leaves the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, moved in there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%dOut, HOut⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [HOut]; · iexists _; iexact HOut
  iintro ⟨H0, H1, H2, HOut⟩
  isplitl [HΦ]; · iexact HΦ
  isplitl [Ho]; · iexact Ho
  isplitl [H0]; · iexact H0
  isplitl [H1]; · iexact H1
  isplitl [H2]; · iexact H2
  iexact HOut

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KB.Reg4.lean ====
/- The frame half of the fused feed-forward call, at any float instance and at a parameter `V`:
   the TensorCore's buffer contents when the region is entered.

   The grid is four row blocks by sixteen steps of a reduction over the hidden dimension, the step the fast axis. At the first step of
   a row block the body divides each row of the block by its root mean square, weights it, truncates it and keeps the
   result in one scratch, and zeroes an accumulator kept in a second scratch. At every step it multiplies the kept rows
   by a block of the gate and of the up projection, combines the two products (x ↦ x · logistic x on the gate side,
   times the up side), truncates, multiplies by the matching block of the down projection and adds the product to the
   accumulator. At the last step it adds the residual block to the accumulator and stores the sum into the output's buffer,
   the only step at which that buffer is stored and the only one after which it is written back.

   So a point is in one of three cases by its step (first, middle, last), the two scratches are carried from point to point,
   and the output window is idle except at a last step. Per case the body's run gives the pieces written into each
   buffer; `outsAt4` threads them along the points; the region's invariant carries the two scratches at
   `outsAt4`'s components; `dat4` is the pipeline's proof data and `body_obligation4` its obligation; `hin4` and
   `hout4` tie the invariant to what the region is entered with and leaves. Windows 0 and 5 read one array: the proof
   data gives each a complementary half share of it. -/
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the row block to normalise): its current staging buffer holds its block at every point, fetched there or not (an
    unfetched point has the block index of the point before), for any proof data whose array is the entry contents and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the norm's weight row): its current staging buffer holds its block at every point, fetched there or not (an
    unfetched point has the block index of the point before), for any proof data whose array is the entry contents and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the gate projection's block of rows): its current staging buffer holds its block at every point, fetched there or not (an
    unfetched point has the block index of the point before), for any proof data whose array is the entry contents and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the up projection's block of rows): its current staging buffer holds its block at every point, fetched there or not (an
    unfetched point has the block index of the point before), for any proof data whose array is the entry contents and
    whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the down projection's block of columns): its current staging buffer holds its block at every point, fetched there or not (an
    unfetched point has the block index of the point before), for any proof data whose array is the entry contents and
    whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5 (the residual row block, the same array as window 0): its current staging buffer holds its block at every point, fetched there or not (an
    unfetched point has the block index of the point before), for any proof data whose array is the entry contents and
    whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions on the reduction coordinate -/

/-- The first conditional's condition: the reduction coordinate is 0. -/
abbrev cond4_0 (i : grid4.Coords) : Prop := (Scalar.cmpi .ne (Scalar.extui (Scalar.cmpi .eq (BitVec.ofNat 32 (i 1).val) 0#32)) 0#32) = 1#1
/-- It holds at the points ≡ 0 (mod 16): the reduction coordinate is the fast one, 16 long. -/
theorem hcond4_0 : ∀ t : Fin cfg4.N, cond4_0 (grid4.coords t) ↔ t.val % 16 = 0 :=
  (by decide +kernel : ∀ t : Fin grid4.N, cond4_0 (grid4.coords t) ↔ t.val % 16 = 0)

/-- The second conditional's condition: the reduction coordinate is 15. -/
abbrev cond4_1 (i : grid4.Coords) : Prop := k4_cond2 i = 1#1
/-- It holds at the points ≡ 15 (mod 16). -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

/-- Input window 0 is never idle. -/
theorem liveAt4_0 : ∀ t : Fin cfg4.N, cfg4.idle 0 (grid4.coords t) = false := by decide +kernel
/-- Input window 1 is never idle. -/
theorem liveAt4_1 : ∀ t : Fin cfg4.N, cfg4.idle 1 (grid4.coords t) = false := by decide +kernel
/-- Input window 2 is never idle. -/
theorem liveAt4_2 : ∀ t : Fin cfg4.N, cfg4.idle 2 (grid4.coords t) = false := by decide +kernel
/-- Input window 3 is never idle. -/
theorem liveAt4_3 : ∀ t : Fin cfg4.N, cfg4.idle 3 (grid4.coords t) = false := by decide +kernel
/-- Input window 4 is never idle. -/
theorem liveAt4_4 : ∀ t : Fin cfg4.N, cfg4.idle 4 (grid4.coords t) = false := by decide +kernel
/-- Input window 5 is never idle. -/
theorem liveAt4_5 : ∀ t : Fin cfg4.N, cfg4.idle 5 (grid4.coords t) = false := by decide +kernel
/-- At a first step the output window is idle (nothing is stored into it) -/
theorem idleAt4_6_A : ∀ t : Fin cfg4.N, cond4_0 (grid4.coords t) → ¬cond4_1 (grid4.coords t) → cfg4.idle 6 (grid4.coords t) = true := by decide +kernel
/-- and its block is not written back. -/
theorem noFlush4_6_A : ∀ t : Fin cfg4.N, cond4_0 (grid4.coords t) → ¬cond4_1 (grid4.coords t) → (cfg4.win 6).flush t = false := by decide +kernel
/-- At a middle step likewise: idle, -/
theorem idleAt4_6_B : ∀ t : Fin cfg4.N, ¬cond4_0 (grid4.coords t) → ¬cond4_1 (grid4.coords t) → cfg4.idle 6 (grid4.coords t) = true := by decide +kernel
/-- not written back. -/
theorem noFlush4_6_B : ∀ t : Fin cfg4.N, ¬cond4_0 (grid4.coords t) → ¬cond4_1 (grid4.coords t) → (cfg4.win 6).flush t = false := by decide +kernel
/-- At a last step the output window is live: the body stores into it. -/
theorem liveAt4_6_C : ∀ t : Fin cfg4.N, ¬cond4_0 (grid4.coords t) → cond4_1 (grid4.coords t) → cfg4.idle 6 (grid4.coords t) = false := by decide +kernel

/-! ## The buffers the body is called on -/

/-- One staging buffer of the output window, through which its contents are stated (the choice does not matter). -/
abbrev VO4_6 : View sig .tc .vmem S256x2048 .f32 := (Memref.whole cc4_stg6_0 : Memref sig .tc .vmem S256x2048 .f32).view
/-- Window 0's current staging buffer at point `t`, and that it is a whole buffer. -/
abbrev ms4_0 (t : Fin cfg4.N) : Memref sig .tc .vmem S256x2048 .f32 := win4_0.stage (cfg4.slots t 0)
abbrev hs4_0 (t : Fin cfg4.N) : (ms4_0 t).IsWhole := hstage4_0 ((cfg4.slots t 0).cast nbuf4_0)
/-- Window 1's current staging buffer at point `t`, and that it is a whole buffer. -/
abbrev ms4_1 (t : Fin cfg4.N) : Memref sig .tc .vmem S1x2048 .f32 := win4_1.stage (cfg4.slots t 1)
abbrev hs4_1 (t : Fin cfg4.N) : (ms4_1 t).IsWhole := hstage4_1 ((cfg4.slots t 1).cast nbuf4_1)
/-- Window 2's current staging buffer at point `t`, and that it is a whole buffer. -/
abbrev ms4_2 (t : Fin cfg4.N) : Memref sig .tc .vmem S512x2048 .bf16 := win4_2.stage (cfg4.slots t 2)
abbrev hs4_2 (t : Fin cfg4.N) : (ms4_2 t).IsWhole := hstage4_2 ((cfg4.slots t 2).cast nbuf4_2)
/-- Window 3's current staging buffer at point `t`, and that it is a whole buffer. -/
abbrev ms4_3 (t : Fin cfg4.N) : Memref sig .tc .vmem S512x2048 .bf16 := win4_3.stage (cfg4.slots t 3)
abbrev hs4_3 (t : Fin cfg4.N) : (ms4_3 t).IsWhole := hstage4_3 ((cfg4.slots t 3).cast nbuf4_3)
/-- Window 4's current staging buffer at point `t`, and that it is a whole buffer. -/
abbrev ms4_4 (t : Fin cfg4.N) : Memref sig .tc .vmem S2048x512 .bf16 := win4_4.stage (cfg4.slots t 4)
abbrev hs4_4 (t : Fin cfg4.N) : (ms4_4 t).IsWhole := hstage4_4 ((cfg4.slots t 4).cast nbuf4_4)
/-- Window 5's current staging buffer at point `t`, and that it is a whole buffer. -/
abbrev ms4_5 (t : Fin cfg4.N) : Memref sig .tc .vmem S256x2048 .f32 := win4_5.stage (cfg4.slots t 5)
abbrev hs4_5 (t : Fin cfg4.N) : (ms4_5 t).IsWhole := hstage4_5 ((cfg4.slots t 5).cast nbuf4_5)
/-- Window 6's current staging buffer at point `t`, and that it is a whole buffer. -/
abbrev ms4_6 (t : Fin cfg4.N) : Memref sig .tc .vmem S256x2048 .f32 := win4_6.stage (cfg4.slots t 6)
abbrev hs4_6 (t : Fin cfg4.N) : (ms4_6 t).IsWhole := hstage4_6 ((cfg4.slots t 6).cast nbuf4_6)
/-- The accumulator scratch and the scratch of normalised rows: whole scoped buffers of the kernel's own. -/
abbrev scM4_0 : Memref sig .tc .vmem S256x2048 .f32 := Memref.whole cc4_scratch0
abbrev scM4_1 : Memref sig .tc .vmem S256x2048 .bf16 := Memref.whole cc4_scratch1
/-- The same as views: what the scratches hold is stated through them. -/
abbrev VS4_0 : View sig .tc .vmem S256x2048 .f32 := scM4_0.view
abbrev VS4_1 : View sig .tc .vmem S256x2048 .bf16 := scM4_1.view

/-- The scoped buffers no window stages, apart from the two scratches: each at some contents. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The scoped buffers no window stages, with the generator register: the two scratches each owned at some contents,
    the others unopened, the register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ restBut4 c) ∗ (∃ r, prngReg c r)) := by
  unfold Pipeline.ΦA; rw [scopedRest4_split]; simp only [scM4_0, scM4_1, owns_whole]; try rfl

/-! ## The body's run, case by case -/

set_option maxHeartbeats 1000000 in
/-- THE FIRST STEP of a row block (reduction coordinate 0; the first conditional taken, the second not). With the six
    inputs' buffers at their contents, the output's buffer at `vo` and the two scratches at anything, the body runs to
    the continuation holding the inputs and the output's buffer as they were and each scratch with the listed pieces
    written: the normalised rows stored whole; the accumulator reset, then overwritten by the reset plus the first
    partial product. The piece lists are the witnesses the run finds. -/
noncomputable def kernelRun4_A (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) :
    Σ' (LO : List (View.Piece (Elt F) S256x2048 .f32)), Σ' (LACC : List (View.Piece (Elt F) S256x2048 .f32)), { LXN : List (View.Piece (Elt F) S256x2048 .bf16) //
      ∀ (vo : Vec F S256x2048 .f32) (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ d, owns (c : Thread nD τ) macc fullShare d) ∗ (∃ d, owns (c : Thread nD τ) mxn fullShare d)
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ f, macc.view.loc (c : Thread nD τ) ↦[macc.view.set]{fullShare} macc.view.writes (Elt F) f LACC) ∗ (∃ f, mxn.view.loc (c : Thread nD τ) ↦[mxn.view.set]{fullShare} mxn.view.writes (Elt F) f LXN)) -∗ K ⟨⟩))
          ⊢ wp frame (wpE (defs₀ (F := F)) Variants.none c none) E (cc4__mlp_kernel i mx hmx mw hmw mg hmg mu hmu md hmd mr hmr mo hmo macc hmacc mxn hmxn) K } := by
  refine ⟨[], ?_, ?_, fun vo E K => ?run⟩
  case run =>
    simp only [cc4__mlp_kernel_eq_skeleton]; unfold cc4__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%fo, %hfo, Ho⟩, ⟨%eacc, %facc, -, Hacc⟩, ⟨%exn, %fxn, -, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmo.eq_unread hfo
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]
    · iexists _; isplitr; · ipureintro; exact hmo.read_unread _
      iexact Ho
    isplitl [Hacc]; · iexists _; iexact Hacc
    iexists _; iexact Hxn

set_option maxHeartbeats 1000000 in
/-- A MIDDLE STEP (reduction coordinate strictly between the ends; neither conditional taken). With the inputs'
    buffers at their contents, the output's buffer at `vo`, the accumulator at `vacc` and the normalised rows at
    `vxn`, the body runs to the continuation holding everything as it was but the accumulator, which has the listed
    piece written: what it held plus this step's partial product. -/
noncomputable def kernelRun4_B (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) :
    Σ' (LO : List (View.Piece (Elt F) S256x2048 .f32)), { LACC : List (View.Piece (Elt F) S256x2048 .f32) //
      ∀ (vo : Vec F S256x2048 .f32) (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ owns (c : Thread nD τ) macc fullShare vacc ∗ owns (c : Thread nD τ) mxn fullShare vxn
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ f, macc.view.loc (c : Thread nD τ) ↦[macc.view.set]{fullShare} macc.view.writes (Elt F) f LACC) ∗ owns (c : Thread nD τ) mxn fullShare vxn) -∗ K ⟨⟩))
          ⊢ wp frame (wpE (defs₀ (F := F)) Variants.none c none) E (cc4__mlp_kernel i mx hmx mw hmw mg hmg mu hmu md hmd mr hmr mo hmo macc hmacc mxn hmxn) K } := by
  refine ⟨[], ?_, fun vo E K => ?run⟩
  case run =>
    simp only [cc4__mlp_kernel_eq_skeleton]; unfold cc4__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%fo, %hfo, Ho⟩, ⟨%facc, %hfacc, Hacc⟩, ⟨%fxn, %hfxn, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmo.eq_unread hfo; obtain rfl := hmacc.eq_unread hfacc; obtain rfl := hmxn.eq_unread hfxn
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]
    · iexists _; isplitr; · ipureintro; exact hmo.read_unread _
      iexact Ho
    isplitl [Hacc]; · iexists _; iexact Hacc
    iexists _; isplitr; · ipureintro; exact hmxn.read_unread _
    iexact Hxn

set_option maxHeartbeats 1000000 in
/-- THE LAST STEP of a row block (reduction coordinate at its end; the second conditional taken, the first not). With
    the inputs' buffers at their contents, the output's buffer at anything, the accumulator at `vacc` and the normalised
    rows at `vxn`, the body runs to the continuation holding the inputs and the normalised rows as they were, the
    accumulator with this step's partial product added, and the output's buffer with the finished accumulator plus the
    residual block written. -/
noncomputable def kernelRun4_C (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) :
    Σ' (LO : List (View.Piece (Elt F) S256x2048 .f32)), { LACC : List (View.Piece (Elt F) S256x2048 .f32) //
      ∀ (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ (∃ d, owns (c : Thread nD τ) mo fullShare d) ∗ owns (c : Thread nD τ) macc fullShare vacc ∗ owns (c : Thread nD τ) mxn fullShare vxn
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ (∃ f, mo.view.loc (c : Thread nD τ) ↦[mo.view.set]{fullShare} mo.view.writes (Elt F) f LO) ∗ (∃ f, macc.view.loc (c : Thread nD τ) ↦[macc.view.set]{fullShare} macc.view.writes (Elt F) f LACC) ∗ owns (c : Thread nD τ) mxn fullShare vxn) -∗ K ⟨⟩))
          ⊢ wp frame (wpE (defs₀ (F := F)) Variants.none c none) E (cc4__mlp_kernel i mx hmx mw hmw mg hmg mu hmu md hmd mr hmr mo hmo macc hmacc mxn hmxn) K } := by
  refine ⟨?_, ?_, fun E K => ?run⟩
  case run =>
    simp only [cc4__mlp_kernel_eq_skeleton]; unfold cc4__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%eo, %fo, -, Ho⟩, ⟨%facc, %hfacc, Hacc⟩, ⟨%fxn, %hfxn, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmacc.eq_unread hfacc; obtain rfl := hmxn.eq_unread hfxn
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]; · iexists _; iexact Ho
    isplitl [Hacc]; · iexists _; iexact Hacc
    iexists _; isplitr; · ipureintro; exact hmxn.read_unread _
    iexact Hxn

/-! ## What each case leaves in the output's buffer and in the two scratches -/

/-- A first step stores nothing into the output's buffer: a placeholder nothing consults (the window is idle there and its block is not written back). -/
def out4_A_6 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .f32 :=
  VO4_6.read (Elt F) (VO4_6.writes (Elt F) VO4_6.junk (kernelRun4_A c i mx hmx mw hmw mg hmg mu hmu md hmd mr hmr mo hmo macc hmacc mxn hmxn hc0 hc1 vx vw vg vu vd vr).1)

/-- A first step's stores into the accumulator scratch cover it. -/
theorem scover4_A_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (y : S256x2048.Idx) :
    ∃ pc ∈ (kernelRun4_A c i mx hmx mw hmw mg hmg mu hmu md hmd mr hmr mo hmo macc hmacc mxn hmxn hc0 hc1 vx vw vg vu vd vr).2.1, y ∈ pc.1.set :=
  View.cover_of_tiledL (kernelRun4_A c i mx hmx mw hmw mg hmg mu hmu md hmd mr hmr mo hmo macc hmacc mxn hmxn hc0 hc1 vx vw vg vu vd vr).2.1 S256x2048.size (by sl_kernel_rfl) y

/-- What a first step leaves in the accumulator scratch: the reset, then the first partial product added to it. -/
def sout4_A_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .f32 :=
  VS4_0.read (Elt F) (VS4_0.writes (Elt F) VS4_0.junk (kernelRun4_A c i mx hmx mw hmw mg hmg mu hmu md hmd mr hmr mo hmo macc hmacc mxn hmxn hc0 hc1 vx vw vg vu vd vr).2.1)

/-- A first step's store into the scratch of normalised rows covers it. -/
theorem scover4_A_1 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (y : S256x2048.Idx) :
    ∃ pc ∈ (kernelRun4_A c i mx hmx mw hmw mg hmg mu hmu md hmd mr hmr mo hmo macc hmacc mxn hmxn hc0 hc1 vx vw vg vu vd vr).2.2.1, y ∈ pc.1.set :=
  View.cover_of_tiledL (kernelRun4_A c i mx hmx mw hmw mg hmg mu hmu md hmd mr hmr mo hmo macc hmacc mxn hmxn hc0 hc1 vx vw vg vu vd vr).2.2.1 S256x2048.size (by sl_kernel_rfl) y

/-- What a first step leaves in the scratch of normalised rows: each row of the block divided by its root mean square, weighted, truncated. -/
def sout4_A_1 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .bf16 :=
  VS4_1.read (Elt F) (VS4_1.writes (Elt F) VS4_1.junk (kernelRun4_A c i mx hmx mw hmw mg hmg mu hmu md hmd mr hmr mo hmo macc hmacc mxn hmxn hc0 hc1 vx vw vg vu vd vr).2.2.1)

/-- A middle step stores nothing into the output's buffer: a placeholder nothing consults. -/
def out4_B_6 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VO4_6.read (Elt F) (VO4_6.writes (Elt F) VO4_6.junk (kernelRun4_B c i mx hmx mw hmw mg hmg mu hmu md hmd mr hmr mo hmo macc hmacc mxn hmxn hc0 hc1 vx vw vg vu vd vr vacc vxn).1)

/-- A middle step's store into the accumulator scratch covers it. -/
theorem scover4_B_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun4_B c i mx hmx mw hmw mg hmg mu hmu md hmd mr hmr mo hmo macc hmacc mxn hmxn hc0 hc1 vx vw vg vu vd vr vacc vxn).2.1, y ∈ pc.1.set :=
  View.cover_of_tiledL (kernelRun4_B c i mx hmx mw hmw mg hmg mu hmu md hmd mr hmr mo hmo macc hmacc mxn hmxn hc0 hc1 vx vw vg vu vd vr vacc vxn).2.1 S256x2048.size (by sl_kernel_rfl) y

/-- What a middle step leaves in the accumulator scratch: the step's partial product added to what it held. -/
def sout4_B_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VS4_0.read (Elt F) (VS4_0.writes (Elt F) VS4_0.junk (kernelRun4_B c i mx hmx mw hmw mg hmg mu hmu md hmd mr hmr mo hmo macc hmacc mxn hmxn hc0 hc1 vx vw vg vu vd vr vacc vxn).2.1)

/-- The last step's store into the output's buffer covers it. -/
theorem cover4_C_6 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun4_C c i mx hmx mw hmw mg hmg mu hmu md hmd mr hmr mo hmo macc hmacc mxn hmxn hc0 hc1 vx vw vg vu vd vr vacc vxn).1, y ∈ pc.1.set :=
  View.cover_of_tiledL (kernelRun4_C c i mx hmx mw hmw mg hmg mu hmu md hmd mr hmr mo hmo macc hmacc mxn hmxn hc0 hc1 vx vw vg vu vd vr vacc vxn).1 S256x2048.size (by sl_kernel_rfl) y

/-- What the last step leaves in the output's buffer: the finished accumulator plus the residual block. -/
def out4_C_6 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VO4_6.read (Elt F) (VO4_6.writes (Elt F) VO4_6.junk (kernelRun4_C c i mx hmx mw hmw mg hmg mu hmu md hmd mr hmr mo hmo macc hmacc mxn hmxn hc0 hc1 vx vw vg vu vd vr vacc vxn).1)

/-- The last step's store into the accumulator scratch covers it. -/
theorem scover4_C_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun4_C c i mx hmx mw hmw mg hmg mu hmu md hmd mr hmr mo hmo macc hmacc mxn hmxn hc0 hc1 vx vw vg vu vd vr vacc vxn).2.1, y ∈ pc.1.set :=
  View.cover_of_tiledL (kernelRun4_C c i mx hmx mw hmw mg hmg mu hmu md hmd mr hmr mo hmo macc hmacc mxn hmxn hc0 hc1 vx vw vg vu vd vr vacc vxn).2.1 S256x2048.size (by sl_kernel_rfl) y

/-- What the last step leaves in the accumulator scratch: the step's partial product added to what it held. -/
def sout4_C_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VS4_0.read (Elt F) (VS4_0.writes (Elt F) VS4_0.junk (kernelRun4_C c i mx hmx mw hmw mg hmg mu hmu md hmd mr hmr mo hmo macc hmacc mxn hmxn hc0 hc1 vx vw vg vu vd vr vacc vxn).2.1)

/-! ## What the output's buffer and the two scratches hold after each point -/

/-- THE ACCUMULATION ALONG THE REDUCTION AXIS. After the body at position `n`: the output's staging buffer, the
    accumulator scratch and the scratch of normalised rows (in this order). The first step of a row block resets both
    scratches from the row block alone; every later step adds its partial product to the accumulator the step before
    left and keeps the normalised rows; the last step also stores the output. No point is both first and last. -/
def outsAt4 (c : Dev nD) : (n : ℕ) → n < cfg4.N → Vec F S256x2048 .f32 × Vec F S256x2048 .f32 × Vec F S256x2048 .bf16
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 16 = 0 then
      if h1 : (n + 1) % 16 = 15 then
        False.elim (by omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : (n + 1) % 16 = 15 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, (outsAt4 c n (Nat.lt_of_succ_lt hn)).2.2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, (outsAt4 c n (Nat.lt_of_succ_lt hn)).2.2)

/-- At a first step: that case's contents. -/
theorem outsAt4_A (c : Dev nD) (t : Fin cfg4.N) (h0 : t.val % 16 = 0) (h1 : ¬t.val % 16 = 15) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

/-- At a middle step: that case's contents, over what the point before left. -/
theorem outsAt4_B (c : Dev nD) (t : Fin cfg4.N) (h0 : ¬t.val % 16 = 0) (h1 : ¬t.val % 16 = 15) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt4_C (c : Dev nD) (t : Fin cfg4.N) (h0 : ¬t.val % 16 = 0) (h1 : t.val % 16 = 15) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- The invariant before position `n`. Before the first point: the scoped buffers no window stages at anything and
    the generator register at some state. Afterwards: the accumulator scratch and the scratch of normalised rows at what
    the point before left in them, the other such scoped buffers at anything, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2)) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2)) ∗ restBut4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2)) ∗ restBut4 c) ∗ (∃ r, prngReg c r)) := by
  cases n with
  | zero => exact absurd rfl hz
  | succ n => rfl

/-- The proof data of this pipeline on core `c`: the arrays as the region finds them; after the body each input's
    buffer at its block and the output's at `outsAt4`'s first component; the invariant `PhiS4`; nothing owed. The two
    input windows that read one array hold complementary halves of it; every other input its array whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q := fun w => if w = 0 then fullShare.left else if w = 5 then fullShare.right else fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point. The inputs' buffers hold their blocks; the position along the reduction axis says which
    of the three cases the point is in; the invariant hands the body the two scratches at what the point before left
    (at anything before the first point) and takes them back at this point's contents; the output's buffer is handed
    back untouched except at a last step, where it is left at the stored sum. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  rw [show (dat4 V c).leavesExact 3 t = owns (c : Thread nD τ) (ms4_3 t) fullShare ((dat4 V c).after 3 t) from by
        unfold Dat.leavesExact; rw [liveAt4_3 t], after4_3]
  rw [show (dat4 V c).leavesExact 4 t = owns (c : Thread nD τ) (ms4_4 t) fullShare ((dat4 V c).after 4 t) from by
        unfold Dat.leavesExact; rw [liveAt4_4 t], after4_4]
  rw [show (dat4 V c).leavesExact 5 t = owns (c : Thread nD τ) (ms4_5 t) fullShare ((dat4 V c).after 5 t) from by
        unfold Dat.leavesExact; rw [liveAt4_5 t], after4_5]
  by_cases h0 : t.val % 16 = 0
  · by_cases h1 : t.val % 16 = 15
    · exfalso; omega
    · rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
        iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 _ Set.univ _)
        isplitl [Hx]; · iexact Hx
        isplitl [Hw]; · iexact Hw
        isplitl [Hg]; · iexact Hg
        isplitl [Hu]; · iexact Hu
        isplitl [Hd]; · iexact Hd
        isplitl [Hr]; · iexact Hr
        isplitl [Ho]; · iexact Ho
        isplitl [Hacc]; · iexact Hacc
        isplitl [Hxn]; · iexact Hxn
        iintro ⟨Hx, Hw, Hg, Hu, Hd, Hr, Ho, ⟨%gacc, Hacc⟩, ⟨%gxn, Hxn⟩⟩
        isplitl [Hacc Hxn Hrest Hgen]
        · isplitl [Hacc Hxn Hrest]
          · isplitl [Hacc Hxn]
            · isplitl [Hacc]
              · unfold owns; iexists _; isplitr
                swap; · iexact Hacc
                ipureintro; exact View.read_writes_of_cover _ _ _ _ _ (scover4_A_0 c _ _ _ _ _ _ _ _ _ _ _ _ _ _ _ _ _ _ _ _ _ _ _ _ _ _ _)
              · unfold owns; iexists _; isplitr
                swap; · iexact Hxn
                ipureintro; exact View.read_writes_of_cover _ _ _ _ _ (scover4_A_1 c _ _ _ _ _ _ _ _ _ _ _ _ _ _ _ _ _ _ _ _ _ _ _ _ _ _ _)
            iexact Hrest
          iexact Hgen
        isplitl [Howe]; · iexact Howe
        isplitl [Hx]; · iexact Hx
        isplitl [Hw]; · iexact Hw
        isplitl [Hg]; · iexact Hg
        isplitl [Hu]; · iexact Hu
        isplitl [Hd]; · iexact Hd
        isplitl [Hr]; · iexact Hr
        iexists _; iexact Ho
      · rw [PhiS4_castSucc V c t, PhiS4_pos V c _ _ hz]
        iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
        iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 _ Set.univ _)
        isplitl [Hx]; · iexact Hx
        isplitl [Hw]; · iexact Hw
        isplitl [Hg]; · iexact Hg
        isplitl [Hu]; · iexact Hu
        isplitl [Hd]; · iexact Hd
        isplitl [Hr]; · iexact Hr
        isplitl [Ho]; · iexact Ho
        isplitl [Hacc]; · iexists _; iexact Hacc
        isplitl [Hxn]; · iexists _; iexact Hxn
        iintro ⟨Hx, Hw, Hg, Hu, Hd, Hr, Ho, ⟨%gacc, Hacc⟩, ⟨%gxn, Hxn⟩⟩
        isplitl [Hacc Hxn Hrest Hgen]
        · isplitl [Hacc Hxn Hrest]
          · isplitl [Hacc Hxn]
            · isplitl [Hacc]
              · unfold owns; iexists _; isplitr
                swap; · iexact Hacc
                ipureintro; exact View.read_writes_of_cover _ _ _ _ _ (scover4_A_0 c _ _ _ _ _ _ _ _ _ _ _ _ _ _ _ _ _ _ _ _ _ _ _ _ _ _ _)
              · unfold owns; iexists _; isplitr
                swap; · iexact Hxn
                ipureintro; exact View.read_writes_of_cover _ _ _ _ _ (scover4_A_1 c _ _ _ _ _ _ _ _ _ _ _ _ _ _ _ _ _ _ _ _ _ _ _ _ _ _ _)
            iexact Hrest
          iexact Hgen
        isplitl [Howe]; · iexact Howe
        isplitl [Hx]; · iexact Hx
        isplitl [Hw]; · iexact Hw
        isplitl [Hg]; · iexact Hg
        isplitl [Hu]; · iexact Hu
        isplitl [Hd]; · iexact Hd
        isplitl [Hr]; · iexact Hr
        iexists _; iexact Ho
  · by_cases h1 : t.val % 16 = 15
    · rw [show (dat4 V c).leavesExact 6 t = owns (c : Thread nD τ) (ms4_6 t) fullShare ((dat4 V c).after 6 t) from by
        unfold Dat.leavesExact; rw [liveAt4_6_C t (fun h => h0 ((hcond4_0 t).mp h)) ((hcond4_1 t).mpr h1)], after4_6]
      rw [outsAt4_C V c t h0 h1]
      unfold out4_C_6 sout4_C_0; (try dsimp only)
      have hz : t.val ≠ 0 := by omega
      rw [PhiS4_castSucc V c t, PhiS4_pos V c _ _ hz]
      iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2 Set.univ _)
      isplitl [Hx]; · iexact Hx
      isplitl [Hw]; · iexact Hw
      isplitl [Hg]; · iexact Hg
      isplitl [Hu]; · iexact Hu
      isplitl [Hd]; · iexact Hd
      isplitl [Hr]; · iexact Hr
      isplitl [Ho]; · iexists _; iexact Ho
      isplitl [Hacc]; · iexact Hacc
      isplitl [Hxn]; · iexact Hxn
      iintro ⟨Hx, Hw, Hg, Hu, Hd, Hr, ⟨%go, Ho⟩, ⟨%gacc, Hacc⟩, Hxn⟩
      isplitl [Hacc Hxn Hrest Hgen]
      · isplitl [Hacc Hxn Hrest]
        · isplitl [Hacc Hxn]
          · isplitl [Hacc]
            · unfold owns; iexists _; isplitr
              swap; · iexact Hacc
              ipureintro; exact View.read_writes_of_cover _ _ _ _ _ (scover4_C_0 c _ _ _ _ _ _ _ _ _ _ _ _ _ _ _ _ _ _ _ _ _ _ _ _ _ _ _ _ _)
            iexact Hxn
          iexact Hrest
        iexact Hgen
      isplitl [Howe]; · iexact Howe
      isplitl [Hx]; · iexact Hx
      isplitl [Hw]; · iexact Hw
      isplitl [Hg]; · iexact Hg
      isplitl [Hu]; · iexact Hu
      isplitl [Hd]; · iexact Hd
      isplitl [Hr]; · iexact Hr
      unfold owns; iexists _; isplitr
      swap; · iexact Ho
      ipureintro; exact View.read_writes_of_cover _ _ _ _ _ (cover4_C_6 c _ _ _ _ _ _ _ _ _ _ _ _ _ _ _ _ _ _ _ _ _ _ _ _ _ _ _ _ _)
    · rw [Dat.leavesExact_idle (dat4 V c) 6 t (idleAt4_6_B t (fun h => h0 ((hcond4_0 t).mp h)) (fun h => h1 ((hcond4_1 t).mp h))) (noFlush4_6_B t (fun h => h0 ((hcond4_0 t).mp h)) (fun h => h1 ((hcond4_1 t).mp h)))]
      rw [outsAt4_B V c t h0 h1]
      unfold sout4_B_0; (try dsimp only)
      have hz : t.val ≠ 0 := by omega
      rw [PhiS4_castSucc V c t, PhiS4_pos V c _ _ hz]
      iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2 _ Set.univ _)
      isplitl [Hx]; · iexact Hx
      isplitl [Hw]; · iexact Hw
      isplitl [Hg]; · iexact Hg
      isplitl [Hu]; · iexact Hu
      isplitl [Hd]; · iexact Hd
      isplitl [Hr]; · iexact Hr
      isplitl [Ho]; · iexact Ho
      isplitl [Hacc]; · iexact Hacc
      isplitl [Hxn]; · iexact Hxn
      iintro ⟨Hx, Hw, Hg, Hu, Hd, Hr, Ho, ⟨%gacc, Hacc⟩, Hxn⟩
      isplitl [Hacc Hxn Hrest Hgen]
      · isplitl [Hacc Hxn Hrest]
        · isplitl [Hacc Hxn]
          · isplitl [Hacc]
            · unfold owns; iexists _; isplitr
              swap; · iexact Hacc
              ipureintro; exact View.read_writes_of_cover _ _ _ _ _ (scover4_B_0 c _ _ _ _ _ _ _ _ _ _ _ _ _ _ _ _ _ _ _ _ _ _ _ _ _ _ _ _ _)
            iexact Hxn
          iexact Hrest
        iexact Hgen
      isplitl [Howe]; · iexact Howe
      isplitl [Hx]; · iexact Hx
      isplitl [Hw]; · iexact Hw
      isplitl [Hg]; · iexact Hg
      isplitl [Hu]; · iexact Hu
      isplitl [Hd]; · iexact Hd
      isplitl [Hr]; · iexact Hr
      iexists _; iexact Ho

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- The generator register and the scoped buffers no window stages make the invariant before the first point. -/
theorem hin4 (c : Dev nD) :
    (iprop((∃ r, prngReg c r) ∗ Pipeline.scopedRest (Ix := Unit) (Name := ℕ) (U := UR sig nD τ) (Lvl := ℕ) (Val := Elt F) spec4 c) : sProp 𝕄) ⊢ (dat4 V c).Φ 0 := by
  rw [show (dat4 V c).Φ 0 = PhiS4 V c 0 (Nat.zero_le _) from rfl, PhiS4_zero V c 0 _ rfl]; unfold Pipeline.ΦA
  iintro ⟨Hp, Hr⟩
  isplitl [Hr]; · iexact Hr
  iexact Hp

/-- After any point the invariant gives them back: what the scratches were left at is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨Hacc, Hxn⟩, Hrest⟩, Hgen⟩
  isplitl [Hacc Hxn Hrest]
  · isplitl [Hacc Hxn]
    · isplitl [Hacc]
      · iexists _; iexact Hacc
      iexists _; iexact Hxn
    iexact Hrest
  iexact Hgen

/-- The same after the last point. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  refine (Phi_out4 V c _ (by rw [Fin.val_last]; have : cfg4.N = 64 := N_4; omega)).trans ?_
  unfold Pipeline.ΦA
  iintro ⟨Hr, Hp⟩
  isplitl [Hp]; · iexact Hp
  iexact Hr

end Cert.Kernel.Gen

end
-- ==== Proof.KB.Reg5.lean ====
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # A layer's normalise-and-project call: its windows' blocks, what its body leaves, its proof data

The call walks a 2 x 6 grid. At point `(i, j)` its body is handed three input blocks — rows `512 i .. 512 i + 511` of
the `1024 x 2048` activations, the whole `1 x 2048` gain row, and rows `512 j .. 512 j + 511` of the `3072 x 2048`
stacked projection weights (half-width elements) — and one output block, the `512 x 512` tile `(i, j)` of the
`1024 x 3072` result. The body reads the three inputs whole, reads the output tile (the value read is not used), and
stores over the WHOLE output tile one value: the payload of the three blocks read (each row scaled by the reciprocal
root of its mean square plus a constant, scaled columnwise by the gain, rounded to half width, and multiplied with the
transposed weight block). So after the body every input buffer holds what it held and the output buffer holds that
payload, whatever it held before.

Everything here is stated at a PARAMETER `V`, the contents of the core's buffers when the call is entered, and for
any float instance. -/

-- that a coordinate lies in a rectangle of extent 512 x 2048 is checked coordinate by coordinate: one level of
-- recursion per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered: the parameter everything below is stated at
variable (V : (c : Dev nD) → (b : Ref sig .tc) → Buf (Elt F) ((c : Thread nD τ).loc b))

/-! ## The windows' blocks -/

/-- Window `w`'s block at point `t`: the entries of its array, as the call finds it (`V`), that lie in the
    rectangle the window's index map picks at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations' window (window 0) is fetched only where the row index `i` moves (every sixth point). At the other
    points its block index is the previous point's, and the body left the block in place there, so by induction
    along the grid the buffer holds the block of THIS point at every point: for ANY proof data whose array is
    `V`'s (`hA`) and whose body leaves the block in place (`hafter`). The window is never cut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The gain row's window (window 1) has one block, fetched at the first point only; the same argument gives that
    block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The weights' window (window 2) moves with the column index `j` and is fetched at every point; the same statement
    holds of it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole of a `512 x 2048` block (the activations' and the weights'). -/
abbrev r5_0 : Rect S512x2048 := Rect.unit (s := S512x2048) ![0, 0] S512x2048.size inb_S512x2048_S512x2048_0_0
/-- The whole of the `1 x 2048` gain row. -/
abbrev r5_1 : Rect S1x2048 := Rect.unit (s := S1x2048) ![0, 0] S1x2048.size inb_S1x2048_S1x2048_0_0
/-- The whole of the `512 x 512` output tile. -/
abbrev r5_2 : Rect S512x512 := Rect.unit (s := S512x512) ![0, 0] S512x512.size inb_S512x512_S512x512_0_0

/-! ## What the body leaves in the output window's buffer -/

/-- Window 3's buffer after the body, from the three input blocks: its one store as a piece — the whole tile, at the
    payload of the three blocks read whole. -/
def out5_3 (x0 : Vec F S512x2048 .f32) (x1 : Vec F S1x2048 .f32) (x2 : Vec F S512x2048 .bf16) : Vec F S512x512 .f32 :=
  View.canon [⟨r5_2, k5_pay1 (View.ld x0 r5_0) (View.ld x1 r5_1) (View.ld x2 r5_0)⟩]

/-- The store's rectangle is the whole tile, so it covers it: every coordinate lies in the one piece. -/
theorem cover5_3 (p0 : Vec F S512x512 .f32) (y : S512x512.Idx) :
    ∃ pc ∈ ([⟨r5_2, p0⟩] : List (View.Piece (Elt F) S512x512 .f32)), y ∈ pc.1.set :=
  View.cover_of_tiled [⟨r5_2, p0⟩] S512x512.size (by rfl) y

/-! ## The body's triple -/

set_option maxHeartbeats 1000000 in
/-- The body on whole staging memrefs, the inputs' at contents `x0`, `x1`, `x2` and the output's at anything, runs to
    the continuation holding the inputs' as they were and the output's at `out5_3` of the inputs': the three loads
    return the blocks, the load of the output tile returns a value nothing uses, and the store overwrites the whole
    tile, so what the tile held before is gone. The grid point `i` plays no part. -/
theorem sound_kernel5 (c : Dev nD) (E : Set ℕ) (i : grid5.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x512 .f32) (harg5 : arg5.IsWhole)
    (x0 : Vec F S512x2048 .f32) (x1 : Vec F S1x2048 .f32) (x2 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out5_3 x0 x1 x2)) -∗ K ⟨⟩))
      ⊢ wp frame (wpE (defs₀ (F := F)) Variants.none c none) E (cc5__rmsnorm_matmul_kernel i arg2 harg2 arg3 harg3 arg4 harg4 arg5 harg5) K := by
  simp only [cc5__rmsnorm_matmul_kernel_eq_skeleton]; unfold cc5__rmsnorm_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of this call's pipeline on core `c`: the arrays as the call finds them (`V`); after the body at
    point `t` each input's buffer at its block and the output's at `out5_3` of the three input blocks; the invariant
    "the scoped rest and the generator register, untouched"; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the contents at entry: the definition projected, `V` never opened. -/
theorem A_eq5 (c : Dev nD) (w : Fin cfg5.W) : (dat5 V c).A w = V c (Pipeline.arrRef spec5 w) := by
  dsimp only [dat5]

/-- What the body leaves, window by window (the definition's case split reduced at each window). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`: the invariant, what is owed, and the four current staging buffers,
    each at what the pipeline has put there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns: the same, the buffers at what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_0`, `before5_1`, `before5_2`), so
    `sound_kernel5` applies; the invariant and what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point: its two conjunctions over the windows written out, it is
    `sound_body5`. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.KB.Reg6.lean ====
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of the rotary-embedding call on the keys (the kernel function `cc6__rope_kernel`), at any float
    instance and at a PARAMETER `V`: the TensorCore's buffer contents when the call is entered.

    The call walks the eight heads of the key array. At head `t` it is handed the head's block `[1,1024,64]` of the
    `[8,1024,64]` key array (window 0), the whole cosine and sine tables `[1024,64]` (windows 1 and 2: their block
    index never moves, so they are fetched at the first head only and found in place afterwards), and the head's block
    of the result (window 3). The body reads the three input blocks whole, and stores ONE value over the whole of the
    output block: the payload `k6_pay1` of the three blocks (the rotation `x · cos + rotate_half x · sin`). So after the
    body each input buffer holds the block it held, and the output buffer holds that payload: `out6_3`. This module
    states that as the pipeline's proof data `dat6` and proves the pipeline's body obligation for it. -/

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it (`V`): for windows 0 and 3 head
    `t`'s `[1,1024,64]` slab of the `[8,1024,64]` array, for windows 1 and 2 the whole `[1024,64]` table. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for ANY proof data whose array is
    `V`'s (`hA`) and whose body leaves the block in place (`hafter`): the window is fetched at every point, uncut
    and never idle. -/
theorem beforeOf6_0 {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 (the cosine table) likewise, fetched or not: it is fetched at the first point only, and where it is
    not fetched its block index has not moved, so the buffer still holds the block the body left in place. -/
theorem beforeOf6_1 {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2 (the sine table) likewise. -/
theorem beforeOf6_2 {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole of a `[1,1024,64]` buffer (the key block's and the result block's loads, the result's store), -/
abbrev r6_0 : Rect S1x1024x64 := Rect.unit (s := S1x1024x64) ![0, 0, 0] S1x1024x64.size inb_S1x1024x64_S1x1024x64_0_0_0
/-- and the whole of a `[1024,64]` buffer (the tables' loads). -/
abbrev r6_1 : Rect S1024x64 := Rect.unit (s := S1024x64) ![0, 0] S1024x64.size inb_S1024x64_S1024x64_0_0

/-! ## What the body leaves in the output window's buffer -/

/-- Window 3's staging buffer after the body, from the input windows' blocks (`x0` the key block, `x1` the cosine
    table, `x2` the sine table): its one store as a piece — the rotation's payload over the whole buffer. -/
def out6_3 (x0 : Vec F S1x1024x64 .f32) (x1 : Vec F S1024x64 .f32) (x2 : Vec F S1024x64 .f32) : Vec F S1x1024x64 .f32 :=
  View.canon [⟨r6_0, k6_pay1 (View.ld x0 r6_0) (View.ld x1 r6_1) (View.ld x2 r6_1)⟩]

/-- The store is of the whole buffer, so it covers it. -/
theorem cover6_3 (p0 : Vec F S1x1024x64 .f32) (y : S1x1024x64.Idx) :
    ∃ pc ∈ ([⟨r6_0, p0⟩] : List (View.Piece (Elt F) S1x1024x64 .f32)), y ∈ pc.1.set :=
  View.cover_of_tiled [⟨r6_0, p0⟩] S1x1024x64.size (by rfl) y

/-! ## The body's triple -/

set_option maxHeartbeats 1000000 in
/-- The kernel body on whole staging memrefs, the inputs' at read contents `x0`, `x1`, `x2` and the output's at
    anything, runs to the continuation holding the inputs' as they were and the output's at `out6_3` of the inputs':
    the printed function is its skeleton of three input loads, one (unused) load of the output and one store. -/
theorem sound_kernel6 (c : Dev nD) (E : Set ℕ) (i : grid6.Coords) (arg1 : Memref sig .tc .vmem S1x1024x64 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1x1024x64 .f32) (harg4 : arg4.IsWhole)
    (x0 : Vec F S1x1024x64 .f32) (x1 : Vec F S1024x64 .f32) (x2 : Vec F S1024x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__rope_kernel i arg1 harg1 arg2 harg2 arg3 harg3 arg4 harg4) K := by
  simp only [cc6__rope_kernel_eq_skeleton]; unfold cc6__rope_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of this pipeline on core `c`: the arrays as the call finds them (`V`); after the body at point `t`
    each input's buffer at its block and the output's at `out6_3` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the entry contents (the proof data's definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  beforeOf6_0 V (dat6 V c) (A_eq6 V c 0) (after6_0 V c) t d
theorem before6_1 (c : Dev nD) (t : Fin cfg6.N) (d) : (dat6 V c).before 1 t d = iblk6 V c 1 t :=
  beforeOf6_1 V (dat6 V c) (A_eq6 V c 1) (after6_1 V c) t d
theorem before6_2 (c : Dev nD) (t : Fin cfg6.N) (d) : (dat6 V c).before 2 t d = iblk6 V c 2 t :=
  beforeOf6_2 V (dat6 V c) (A_eq6 V c 2) (after6_2 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.KB.Reg7.lean ====
/-
  One attention call of the decoder as a pipeline region: what each of its seven windows holds at a grid point, and
  what the kernel body leaves there.  The six input windows (queries, keys, values, the two rotary tables and the
  additive mask) hold their blocks of the arrays the region finds on entry; the body reads all six blocks whole,
  rotates the queries, forms the scaled scores against the keys, adds the mask, takes the row softmax and multiplies
  by the values; its one store overwrites the output window's whole staging buffer with that product.  Everything is
  stated for an arbitrary float instance and at arbitrary entry contents `V`, so the same text serves every run
  that enters this call.
-/
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is the entry contents and whose body leaves the block in place: where the window is not
    fetched its block index has not moved, so the block of the point before is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is the entry contents and whose body leaves the block in place: where the window is not
    fetched its block index has not moved, so the block of the point before is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is the entry contents and whose body leaves the block in place: where the window is not
    fetched its block index has not moved, so the block of the point before is this point's. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is the entry contents and whose body leaves the block in place: where the window is not
    fetched its block index has not moved, so the block of the point before is this point's. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is the entry contents and whose body leaves the block in place: where the window is not
    fetched its block index has not moved, so the block of the point before is this point's. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof
    data whose array is the entry contents and whose body leaves the block in place: where the window is not
    fetched its block index has not moved, so the block of the point before is this point's. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole of a per-head block, of a rotary table and of the mask: the three rectangles the body reads and writes. -/
abbrev r7_0 : Rect S1x1024x64 := Rect.unit (s := S1x1024x64) ![0, 0, 0] S1x1024x64.size inb_S1x1024x64_S1x1024x64_0_0_0
abbrev r7_1 : Rect S1024x64 := Rect.unit (s := S1024x64) ![0, 0] S1024x64.size inb_S1024x64_S1024x64_0_0
abbrev r7_2 : Rect S1024x1024 := Rect.unit (s := S1024x1024) ![0, 0] S1024x1024.size inb_S1024x1024_S1024x1024_0_0

/-! ## What the body leaves in the output window's buffer -/

/-- The output window's staging buffer after the body, from the six input blocks: one store of the whole block,
    whose payload is the softmax weights (from queries, keys, the tables and the mask) times the values, summed
    from zero. -/
def out7_6 (x0 x1 x2 : Vec F S1x1024x64 .f32) (x3 x4 : Vec F S1024x64 .f32) (x5 : Vec F S1024x1024 .f32) : Vec F S1x1024x64 .f32 :=
  View.canon [⟨r7_0, k7_pay1 (k7_pay2 (View.ld x2 r7_0))
    (k7_pay3 (View.ld x0 r7_0) (View.ld x1 r7_0) (View.ld x3 r7_1) (View.ld x4 r7_1) (View.ld x5 r7_2))
    (constant S1024x64 .f32 0x00000000#32)⟩]

/-- The one store is of the whole buffer, so it covers it. -/
theorem cover7_6 (p0 : Vec F S1x1024x64 .f32) (y : S1x1024x64.Idx) :
    ∃ pc ∈ ([⟨r7_0, p0⟩] : List (View.Piece (Elt F) S1x1024x64 .f32)), y ∈ pc.1.set :=
  View.cover_of_tiled [⟨r7_0, p0⟩] S1x1024x64.size (by rfl) y

/-! ## The body's triple -/

set_option maxHeartbeats 1000000 in
/-- The kernel body on whole staging memrefs, the inputs' at read contents and the output's at anything, runs to the
    continuation holding the inputs' as they were and the output's at `out7_6` of the inputs'. -/
theorem sound_kernel7 (c : Dev nD) (E : Set ℕ) (i : grid7.Coords)
    (arg1 : Memref sig .tc .vmem S1x1024x64 .f32) (harg1 : arg1.IsWhole) (arg2 : Memref sig .tc .vmem S1x1024x64 .f32) (harg2 : arg2.IsWhole)
    (arg3 : Memref sig .tc .vmem S1x1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1x1024x64 .f32) (harg7 : arg7.IsWhole)
    (x0 x1 x2 : Vec F S1x1024x64 .f32) (x3 x4 : Vec F S1024x64 .f32) (x5 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E (cc7__attn_kernel i arg1 harg1 arg2 harg2 arg3 harg3 arg4 harg4 arg5 harg5 arg6 harg6 arg7 harg7) K := by
  simp only [cc7__attn_kernel_eq_skeleton]; unfold cc7__attn_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The proof data of this pipeline on core `c`: the arrays as the region finds them; after the body at point `t`
    each input's buffer at its block and the output's at `out7_6` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

set_option maxHeartbeats 1000000 in
/-- The body at any point: the inputs' memrefs hold their blocks, so the body's triple applies; the invariant and the
    core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Gen
-- ==== Proof.KB.Reg8.lean ====
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The output projection with its residual, as one pipelined region: the body's half of the frame

The region multiplies a 512×2048 block of activations (rounded to bf16) by the transpose of a 512×2048 block of
bf16 weights and adds a 512×512 block of the residual stream; the sum is stored over the whole 512×512 output
block. Everything here is stated at a PARAMETER V, the TensorCore's buffer contents when the region is entered,
and for any float instance. What is proved: at every grid point each input window's staging buffer holds that
window's block of its array (whether the block was moved in at this point or at an earlier one), the body leaves
the three inputs as they were and the output buffer at the one stored payload, and so the body meets the
pipeline's obligation for the proof data "each input at its block, the output at the payload of the input
blocks". -/

-- membership of an index in a rectangle of these extents is found by a structural recursion with one level per
-- coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, as the region finds it, that the window's index map
    selects at t. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The activations' window (its block index depends on the row coordinate only, so it is moved in at every
    fourth point): its current staging buffer holds its block at EVERY point, for any proof data whose array is
    V's and whose body leaves the block in place. Where the block was not moved in, the block index is the
    previous point's, and so is the block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The weights' window (bf16 elements; moved in at every point): the same. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The residual's window (an input; moved in at every point): the same. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 512×2048 buffer (the activations' and the weights' loads). -/
abbrev r8_0 : Rect S512x2048 := Rect.unit (s := S512x2048) ![0, 0] S512x2048.size inb_S512x2048_S512x2048_0_0
/-- The whole 512×512 buffer (the residual's load and the one store). -/
abbrev r8_1 : Rect S512x512 := Rect.unit (s := S512x512) ![0, 0] S512x512.size inb_S512x512_S512x512_0_0

/-! ## What the body leaves in the output window's buffer -/

/-- The output window's staging buffer after the body, from the three input blocks: its one store, whose payload
    is the residual block plus the product of the activations' block (rounded to bf16) with the transposed
    weights' block, laid over the whole buffer. -/
def out8_3 (x0 : Vec F S512x2048 .f32) (x1 : Vec F S512x2048 .bf16) (x2 : Vec F S512x512 .f32) : Vec F S512x512 .f32 :=
  View.canon [⟨r8_1, k8_pay1 (View.ld x0 r8_0) (View.ld x1 r8_0) (View.ld x2 r8_1)⟩]

/-- The store's rectangle is the whole buffer, so it covers every index. -/
theorem cover8_3 (p0 : Vec F S512x512 .f32) (y : S512x512.Idx) :
    ∃ pc ∈ ([⟨r8_1, p0⟩] : List (View.Piece (Elt F) S512x512 .f32)), y ∈ pc.1.set :=
  View.cover_of_tiled [⟨r8_1, p0⟩] S512x512.size (by rfl) y

/-! ## The body's triple -/

set_option maxHeartbeats 1000000 in
/-- The kernel body on whole staging memrefs, the inputs' at read contents x0, x1, x2 and the output's at
    anything, runs to a state holding the inputs' as they were and the output's at out8_3 of the inputs': three
    whole-buffer loads, a load of the output buffer that nothing reads, and one whole-buffer store. -/
theorem sound_kernel8 (c : Dev nD) (E : Set ℕ) (i : grid8.Coords) (mem0 : Memref sig .tc .vmem S512x2048 .f32) (hmem0 : mem0.IsWhole) (mem1 : Memref sig .tc .vmem S512x2048 .bf16) (hmem1 : mem1.IsWhole) (mem2 : Memref sig .tc .vmem S512x512 .f32) (hmem2 : mem2.IsWhole) (memOut : Memref sig .tc .vmem S512x512 .f32) (hmemOut : memOut.IsWhole)
    (x0 : Vec F S512x2048 .f32) (x1 : Vec F S512x2048 .bf16) (x2 : Vec F S512x512 .f32) (K : PUnit → sProp 𝕄) :
    iprop(owns (c : Thread nD τ) mem0 fullShare x0 ∗ owns (c : Thread nD τ) mem1 fullShare x1 ∗ owns (c : Thread nD τ) mem2 fullShare x2 ∗ (∃ d, owns (c : Thread nD τ) memOut fullShare d)
        ∗ (iprop(owns (c : Thread nD τ) mem0 fullShare x0 ∗ owns (c : Thread nD τ) mem1 fullShare x1 ∗ owns (c : Thread nD τ) mem2 fullShare x2 ∗ owns (c : Thread nD τ) memOut fullShare (out8_3 x0 x1 x2)) -∗ K ⟨⟩))
      ⊢ wp frame (wpE (defs₀ (F := F)) Variants.none c none) E (cc8__matmul_residual_kernel i mem0 hmem0 mem1 hmem1 mem2 hmem2 memOut hmemOut) K := by
  simp only [cc8__matmul_residual_kernel_eq_skeleton]; unfold cc8__matmul_residual_kernel_skel
  unfold owns
  iintro ⟨⟨%f0, %hf0, H0⟩, ⟨%f1, %hf1, H1⟩, ⟨%f2, %hf2, H2⟩, ⟨%dOut, %fOut, -, HOut⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HOut
  ipureintro
  exact View.read_writes_eq_canon _ _ _ (cover8_3 _)

/-! ## The pipeline's proof data -/

/-- The proof data of this pipeline on core c: the arrays as the region finds them (V); after the body at point
    t each input's buffer at its block and the output's at out8_3 of the three input blocks; the invariant that
    leaves the scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, moved in there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point t (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%dOut, HOut⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [HOut]; · iexists _; iexact HOut
  iintro ⟨H0, H1, H2, HOut⟩
  isplitl [HΦ]; · iexact HΦ
  isplitl [Ho]; · iexact Ho
  isplitl [H0]; · iexact H0
  isplitl [H1]; · iexact H1
  isplitl [H2]; · iexact H2
  iexact HOut

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Gen

end
-- ==== Proof.KB.Reg9.lean ====
/- The frame half of the fused feed-forward call, at any float instance and at a parameter `V`:
   the TensorCore's buffer contents when the region is entered.

   The grid is four row blocks by sixteen steps of a reduction over the hidden dimension, the step the fast axis. At the first step of
   a row block the body divides each row of the block by its root mean square, weights it, truncates it and keeps the
   result in one scratch, and zeroes an accumulator kept in a second scratch. At every step it multiplies the kept rows
   by a block of the gate and of the up projection, combines the two products (x ↦ x · logistic x on the gate side,
   times the up side), truncates, multiplies by the matching block of the down projection and adds the product to the
   accumulator. At the last step it adds the residual block to the accumulator and stores the sum into the output's buffer,
   the only step at which that buffer is stored and the only one after which it is written back.

   So a point is in one of three cases by its step (first, middle, last), the two scratches are carried from point to point,
   and the output window is idle except at a last step. Per case the body's run gives the pieces written into each
   buffer; `outsAt9` threads them along the points; the region's invariant carries the two scratches at
   `outsAt9`'s components; `dat9` is the pipeline's proof data and `body_obligation9` its obligation; `hin9` and
   `hout9` tie the invariant to what the region is entered with and leaves. Windows 0 and 5 read one array: the proof
   data gives each a complementary half share of it. -/
import proofs.«167047_j26895085207995_2_alg».proof.Proof.Gen.Kernel.Launch
import proofs.«167047_j26895085207995_2_alg».proof.Proof.Gen.Kernel.Skeleton
import proofs.«167047_j26895085207995_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the row block to normalise): its current staging buffer holds its block at every point, fetched there or not (an
    unfetched point has the block index of the point before), for any proof data whose array is the entry contents and
    whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the norm's weight row): its current staging buffer holds its block at every point, fetched there or not (an
    unfetched point has the block index of the point before), for any proof data whose array is the entry contents and
    whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2 (the gate projection's block of rows): its current staging buffer holds its block at every point, fetched there or not (an
    unfetched point has the block index of the point before), for any proof data whose array is the entry contents and
    whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3 (the up projection's block of rows): its current staging buffer holds its block at every point, fetched there or not (an
    unfetched point has the block index of the point before), for any proof data whose array is the entry contents and
    whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4 (the down projection's block of columns): its current staging buffer holds its block at every point, fetched there or not (an
    unfetched point has the block index of the point before), for any proof data whose array is the entry contents and
    whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5 (the residual row block, the same array as window 0): its current staging buffer holds its block at every point, fetched there or not (an
    unfetched point has the block index of the point before), for any proof data whose array is the entry contents and
    whose body leaves the block in place. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's two conditions on the reduction coordinate -/

/-- The first conditional's condition: the reduction coordinate is 0. -/
abbrev cond9_0 (i : grid9.Coords) : Prop := (Scalar.cmpi .ne (Scalar.extui (Scalar.cmpi .eq (BitVec.ofNat 32 (i 1).val) 0#32)) 0#32) = 1#1
/-- It holds at the points ≡ 0 (mod 16): the reduction coordinate is the fast one, 16 long. -/
theorem hcond9_0 : ∀ t : Fin cfg9.N, cond9_0 (grid9.coords t) ↔ t.val % 16 = 0 :=
  (by decide +kernel : ∀ t : Fin grid9.N, cond9_0 (grid9.coords t) ↔ t.val % 16 = 0)

/-- The second conditional's condition: the reduction coordinate is 15. -/
abbrev cond9_1 (i : grid9.Coords) : Prop := k9_cond2 i = 1#1
/-- It holds at the points ≡ 15 (mod 16). -/
theorem hcond9_1 : ∀ t : Fin cfg9.N, cond9_1 (grid9.coords t) ↔ t.val % 16 = 15 :=
  (by decide +kernel : ∀ t : Fin grid9.N, cond9_1 (grid9.coords t) ↔ t.val % 16 = 15)

/-! ## Where the windows are idle -/

/-- Input window 0 is never idle. -/
theorem liveAt9_0 : ∀ t : Fin cfg9.N, cfg9.idle 0 (grid9.coords t) = false := by decide +kernel
/-- Input window 1 is never idle. -/
theorem liveAt9_1 : ∀ t : Fin cfg9.N, cfg9.idle 1 (grid9.coords t) = false := by decide +kernel
/-- Input window 2 is never idle. -/
theorem liveAt9_2 : ∀ t : Fin cfg9.N, cfg9.idle 2 (grid9.coords t) = false := by decide +kernel
/-- Input window 3 is never idle. -/
theorem liveAt9_3 : ∀ t : Fin cfg9.N, cfg9.idle 3 (grid9.coords t) = false := by decide +kernel
/-- Input window 4 is never idle. -/
theorem liveAt9_4 : ∀ t : Fin cfg9.N, cfg9.idle 4 (grid9.coords t) = false := by decide +kernel
/-- Input window 5 is never idle. -/
theorem liveAt9_5 : ∀ t : Fin cfg9.N, cfg9.idle 5 (grid9.coords t) = false := by decide +kernel
/-- At a first step the output window is idle (nothing is stored into it) -/
theorem idleAt9_6_A : ∀ t : Fin cfg9.N, cond9_0 (grid9.coords t) → ¬cond9_1 (grid9.coords t) → cfg9.idle 6 (grid9.coords t) = true := by decide +kernel
/-- and its block is not written back. -/
theorem noFlush9_6_A : ∀ t : Fin cfg9.N, cond9_0 (grid9.coords t) → ¬cond9_1 (grid9.coords t) → (cfg9.win 6).flush t = false := by decide +kernel
/-- At a middle step likewise: idle, -/
theorem idleAt9_6_B : ∀ t : Fin cfg9.N, ¬cond9_0 (grid9.coords t) → ¬cond9_1 (grid9.coords t) → cfg9.idle 6 (grid9.coords t) = true := by decide +kernel
/-- not written back. -/
theorem noFlush9_6_B : ∀ t : Fin cfg9.N, ¬cond9_0 (grid9.coords t) → ¬cond9_1 (grid9.coords t) → (cfg9.win 6).flush t = false := by decide +kernel
/-- At a last step the output window is live: the body stores into it. -/
theorem liveAt9_6_C : ∀ t : Fin cfg9.N, ¬cond9_0 (grid9.coords t) → cond9_1 (grid9.coords t) → cfg9.idle 6 (grid9.coords t) = false := by decide +kernel

/-! ## The buffers the body is called on -/

/-- One staging buffer of the output window, through which its contents are stated (the choice does not matter). -/
abbrev VO9_6 : View sig .tc .vmem S256x2048 .f32 := (Memref.whole cc9_stg6_0 : Memref sig .tc .vmem S256x2048 .f32).view
/-- Window 0's current staging buffer at point `t`, and that it is a whole buffer. -/
abbrev ms9_0 (t : Fin cfg9.N) : Memref sig .tc .vmem S256x2048 .f32 := win9_0.stage (cfg9.slots t 0)
abbrev hs9_0 (t : Fin cfg9.N) : (ms9_0 t).IsWhole := hstage9_0 ((cfg9.slots t 0).cast nbuf9_0)
/-- Window 1's current staging buffer at point `t`, and that it is a whole buffer. -/
abbrev ms9_1 (t : Fin cfg9.N) : Memref sig .tc .vmem S1x2048 .f32 := win9_1.stage (cfg9.slots t 1)
abbrev hs9_1 (t : Fin cfg9.N) : (ms9_1 t).IsWhole := hstage9_1 ((cfg9.slots t 1).cast nbuf9_1)
/-- Window 2's current staging buffer at point `t`, and that it is a whole buffer. -/
abbrev ms9_2 (t : Fin cfg9.N) : Memref sig .tc .vmem S512x2048 .bf16 := win9_2.stage (cfg9.slots t 2)
abbrev hs9_2 (t : Fin cfg9.N) : (ms9_2 t).IsWhole := hstage9_2 ((cfg9.slots t 2).cast nbuf9_2)
/-- Window 3's current staging buffer at point `t`, and that it is a whole buffer. -/
abbrev ms9_3 (t : Fin cfg9.N) : Memref sig .tc .vmem S512x2048 .bf16 := win9_3.stage (cfg9.slots t 3)
abbrev hs9_3 (t : Fin cfg9.N) : (ms9_3 t).IsWhole := hstage9_3 ((cfg9.slots t 3).cast nbuf9_3)
/-- Window 4's current staging buffer at point `t`, and that it is a whole buffer. -/
abbrev ms9_4 (t : Fin cfg9.N) : Memref sig .tc .vmem S2048x512 .bf16 := win9_4.stage (cfg9.slots t 4)
abbrev hs9_4 (t : Fin cfg9.N) : (ms9_4 t).IsWhole := hstage9_4 ((cfg9.slots t 4).cast nbuf9_4)
/-- Window 5's current staging buffer at point `t`, and that it is a whole buffer. -/
abbrev ms9_5 (t : Fin cfg9.N) : Memref sig .tc .vmem S256x2048 .f32 := win9_5.stage (cfg9.slots t 5)
abbrev hs9_5 (t : Fin cfg9.N) : (ms9_5 t).IsWhole := hstage9_5 ((cfg9.slots t 5).cast nbuf9_5)
/-- Window 6's current staging buffer at point `t`, and that it is a whole buffer. -/
abbrev ms9_6 (t : Fin cfg9.N) : Memref sig .tc .vmem S256x2048 .f32 := win9_6.stage (cfg9.slots t 6)
abbrev hs9_6 (t : Fin cfg9.N) : (ms9_6 t).IsWhole := hstage9_6 ((cfg9.slots t 6).cast nbuf9_6)
/-- The accumulator scratch and the scratch of normalised rows: whole scoped buffers of the kernel's own. -/
abbrev scM9_0 : Memref sig .tc .vmem S256x2048 .f32 := Memref.whole cc9_scratch0
abbrev scM9_1 : Memref sig .tc .vmem S256x2048 .bf16 := Memref.whole cc9_scratch1
/-- The same as views: what the scratches hold is stated through them. -/
abbrev VS9_0 : View sig .tc .vmem S256x2048 .f32 := scM9_0.view
abbrev VS9_1 : View sig .tc .vmem S256x2048 .bf16 := scM9_1.view

/-- The scoped buffers no window stages, apart from the two scratches: each at some contents. -/
abbrev restBut9 (c : Dev nD) : sProp 𝕄 :=
  Pipeline.scopedRestBut (Ix := Unit) (Name := ℕ) (U := UR sig nD τ) (Lvl := ℕ) (Val := Elt F) spec9 c [cc9_scratch0, cc9_scratch1]

/-- The scoped buffers no window stages, with the generator register: the two scratches each owned at some contents,
    the others unopened, the register at some state. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d)) ∗ restBut9 c) ∗ (∃ r, prngReg c r)) := by
  unfold Pipeline.ΦA; rw [scopedRest9_split]; simp only [scM9_0, scM9_1, owns_whole]; try rfl

/-! ## The body's run, case by case -/

set_option maxHeartbeats 1000000 in
/-- THE FIRST STEP of a row block (reduction coordinate 0; the first conditional taken, the second not). With the six
    inputs' buffers at their contents, the output's buffer at `vo` and the two scratches at anything, the body runs to
    the continuation holding the inputs and the output's buffer as they were and each scratch with the listed pieces
    written: the normalised rows stored whole; the accumulator reset, then overwritten by the reset plus the first
    partial product. The piece lists are the witnesses the run finds. -/
noncomputable def kernelRun9_A (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) :
    Σ' (LO : List (View.Piece (Elt F) S256x2048 .f32)), Σ' (LACC : List (View.Piece (Elt F) S256x2048 .f32)), { LXN : List (View.Piece (Elt F) S256x2048 .bf16) //
      ∀ (vo : Vec F S256x2048 .f32) (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ d, owns (c : Thread nD τ) macc fullShare d) ∗ (∃ d, owns (c : Thread nD τ) mxn fullShare d)
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ f, macc.view.loc (c : Thread nD τ) ↦[macc.view.set]{fullShare} macc.view.writes (Elt F) f LACC) ∗ (∃ f, mxn.view.loc (c : Thread nD τ) ↦[mxn.view.set]{fullShare} mxn.view.writes (Elt F) f LXN)) -∗ K ⟨⟩))
          ⊢ wp frame (wpE (defs₀ (F := F)) Variants.none c none) E (cc9__mlp_kernel i mx hmx mw hmw mg hmg mu hmu md hmd mr hmr mo hmo macc hmacc mxn hmxn) K } := by
  refine ⟨[], ?_, ?_, fun vo E K => ?run⟩
  case run =>
    simp only [cc9__mlp_kernel_eq_skeleton]; unfold cc9__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%fo, %hfo, Ho⟩, ⟨%eacc, %facc, -, Hacc⟩, ⟨%exn, %fxn, -, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmo.eq_unread hfo
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]
    · iexists _; isplitr; · ipureintro; exact hmo.read_unread _
      iexact Ho
    isplitl [Hacc]; · iexists _; iexact Hacc
    iexists _; iexact Hxn

set_option maxHeartbeats 1000000 in
/-- A MIDDLE STEP (reduction coordinate strictly between the ends; neither conditional taken). With the inputs'
    buffers at their contents, the output's buffer at `vo`, the accumulator at `vacc` and the normalised rows at
    `vxn`, the body runs to the continuation holding everything as it was but the accumulator, which has the listed
    piece written: what it held plus this step's partial product. -/
noncomputable def kernelRun9_B (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) :
    Σ' (LO : List (View.Piece (Elt F) S256x2048 .f32)), { LACC : List (View.Piece (Elt F) S256x2048 .f32) //
      ∀ (vo : Vec F S256x2048 .f32) (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ owns (c : Thread nD τ) macc fullShare vacc ∗ owns (c : Thread nD τ) mxn fullShare vxn
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ f, macc.view.loc (c : Thread nD τ) ↦[macc.view.set]{fullShare} macc.view.writes (Elt F) f LACC) ∗ owns (c : Thread nD τ) mxn fullShare vxn) -∗ K ⟨⟩))
          ⊢ wp frame (wpE (defs₀ (F := F)) Variants.none c none) E (cc9__mlp_kernel i mx hmx mw hmw mg hmg mu hmu md hmd mr hmr mo hmo macc hmacc mxn hmxn) K } := by
  refine ⟨[], ?_, fun vo E K => ?run⟩
  case run =>
    simp only [cc9__mlp_kernel_eq_skeleton]; unfold cc9__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%fo, %hfo, Ho⟩, ⟨%facc, %hfacc, Hacc⟩, ⟨%fxn, %hfxn, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmo.eq_unread hfo; obtain rfl := hmacc.eq_unread hfacc; obtain rfl := hmxn.eq_unread hfxn
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]
    · iexists _; isplitr; · ipureintro; exact hmo.read_unread _
      iexact Ho
    isplitl [Hacc]; · iexists _; iexact Hacc
    iexists _; isplitr; · ipureintro; exact hmxn.read_unread _
    iexact Hxn

set_option maxHeartbeats 1000000 in
/-- THE LAST STEP of a row block (reduction coordinate at its end; the second conditional taken, the first not). With
    the inputs' buffers at their contents, the output's buffer at anything, the accumulator at `vacc` and the normalised
    rows at `vxn`, the body runs to the continuation holding the inputs and the normalised rows as they were, the
    accumulator with this step's partial product added, and the output's buffer with the finished accumulator plus the
    residual block written. -/
noncomputable def kernelRun9_C (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) :
    Σ' (LO : List (View.Piece (Elt F) S256x2048 .f32)), { LACC : List (View.Piece (Elt F) S256x2048 .f32) //
      ∀ (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ (∃ d, owns (c : Thread nD τ) mo fullShare d) ∗ owns (c : Thread nD τ) macc fullShare vacc ∗ owns (c : Thread nD τ) mxn fullShare vxn
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ (∃ f, mo.view.loc (c : Thread nD τ) ↦[mo.view.set]{fullShare} mo.view.writes (Elt F) f LO) ∗ (∃ f, macc.view.loc (c : Thread nD τ) ↦[macc.view.set]{fullShare} macc.view.writes (Elt F) f LACC) ∗ owns (c : Thread nD τ) mxn fullShare vxn) -∗ K ⟨⟩))
          ⊢ wp frame (wpE (defs₀ (F := F)) Variants.none c none) E (cc9__mlp_kernel i mx hmx mw hmw mg hmg mu hmu md hmd mr hmr mo hmo macc hmacc mxn hmxn) K } := by
  refine ⟨?_, ?_, fun E K => ?run⟩
  case run =>
    simp only [cc9__mlp_kernel_eq_skeleton]; unfold cc9__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%eo, %fo, -, Ho⟩, ⟨%facc, %hfacc, Hacc⟩, ⟨%fxn, %hfxn, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmacc.eq_unread hfacc; obtain rfl := hmxn.eq_unread hfxn
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]; · iexists _; iexact Ho
    isplitl [Hacc]; · iexists _; iexact Hacc
    iexists _; isplitr; · ipureintro; exact hmxn.read_unread _
    iexact Hxn

/-! ## What each case leaves in the output's buffer and in the two scratches -/

/-- A first step stores nothing into the output's buffer: a placeholder nothing consults (the window is idle there and its block is not written back). -/
def out9_A_6 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .f32 :=
  VO9_6.read (Elt F) (VO9_6.writes (Elt F) VO9_6.junk (kernelRun9_A c i mx hmx mw hmw mg hmg mu hmu md hmd mr hmr mo hmo macc hmacc mxn hmxn hc0 hc1 vx vw vg vu vd vr).1)

/-- A first step's stores into the accumulator scratch cover it. -/
theorem scover9_A_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (y : S256x2048.Idx) :
    ∃ pc ∈ (kernelRun9_A c i mx hmx mw hmw mg hmg mu hmu md hmd mr hmr mo hmo macc hmacc mxn hmxn hc0 hc1 vx vw vg vu vd vr).2.1, y ∈ pc.1.set :=
  View.cover_of_tiledL (kernelRun9_A c i mx hmx mw hmw mg hmg mu hmu md hmd mr hmr mo hmo macc hmacc mxn hmxn hc0 hc1 vx vw vg vu vd vr).2.1 S256x2048.size (by sl_kernel_rfl) y

/-- What a first step leaves in the accumulator scratch: the reset, then the first partial product added to it. -/
def sout9_A_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .f32 :=
  VS9_0.read (Elt F) (VS9_0.writes (Elt F) VS9_0.junk (kernelRun9_A c i mx hmx mw hmw mg hmg mu hmu md hmd mr hmr mo hmo macc hmacc mxn hmxn hc0 hc1 vx vw vg vu vd vr).2.1)

/-- A first step's store into the scratch of normalised rows covers it. -/
theorem scover9_A_1 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (y : S256x2048.Idx) :
    ∃ pc ∈ (kernelRun9_A c i mx hmx mw hmw mg hmg mu hmu md hmd mr hmr mo hmo macc hmacc mxn hmxn hc0 hc1 vx vw vg vu vd vr).2.2.1, y ∈ pc.1.set :=
  View.cover_of_tiledL (kernelRun9_A c i mx hmx mw hmw mg hmg mu hmu md hmd mr hmr mo hmo macc hmacc mxn hmxn hc0 hc1 vx vw vg vu vd vr).2.2.1 S256x2048.size (by sl_kernel_rfl) y

/-- What a first step leaves in the scratch of normalised rows: each row of the block divided by its root mean square, weighted, truncated. -/
def sout9_A_1 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .bf16 :=
  VS9_1.read (Elt F) (VS9_1.writes (Elt F) VS9_1.junk (kernelRun9_A c i mx hmx mw hmw mg hmg mu hmu md hmd mr hmr mo hmo macc hmacc mxn hmxn hc0 hc1 vx vw vg vu vd vr).2.2.1)

/-- A middle step stores nothing into the output's buffer: a placeholder nothing consults. -/
def out9_B_6 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VO9_6.read (Elt F) (VO9_6.writes (Elt F) VO9_6.junk (kernelRun9_B c i mx hmx mw hmw mg hmg mu hmu md hmd mr hmr mo hmo macc hmacc mxn hmxn hc0 hc1 vx vw vg vu vd vr vacc vxn).1)

/-- A middle step's store into the accumulator scratch covers it. -/
theorem scover9_B_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun9_B c i mx hmx mw hmw mg hmg mu hmu md hmd mr hmr mo hmo macc hmacc mxn hmxn hc0 hc1 vx vw vg vu vd vr vacc vxn).2.1, y ∈ pc.1.set :=
  View.cover_of_tiledL (kernelRun9_B c i mx hmx mw hmw mg hmg mu hmu md hmd mr hmr mo hmo macc hmacc mxn hmxn hc0 hc1 vx vw vg vu vd vr vacc vxn).2.1 S256x2048.size (by sl_kernel_rfl) y

/-- What a middle step leaves in the accumulator scratch: the step's partial product added to what it held. -/
def sout9_B_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VS9_0.read (Elt F) (VS9_0.writes (Elt F) VS9_0.junk (kernelRun9_B c i mx hmx mw hmw mg hmg mu hmu md hmd mr hmr mo hmo macc hmacc mxn hmxn hc0 hc1 vx vw vg vu vd vr vacc vxn).2.1)

/-- The last step's store into the output's buffer covers it. -/
theorem cover9_C_6 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun9_C c i mx hmx mw hmw mg hmg mu hmu md hmd mr hmr mo hmo macc hmacc mxn hmxn hc0 hc1 vx vw vg vu vd vr vacc vxn).1, y ∈ pc.1.set :=
  View.cover_of_tiledL (kernelRun9_C c i mx hmx mw hmw mg hmg mu hmu md hmd mr hmr mo hmo macc hmacc mxn hmxn hc0 hc1 vx vw vg vu vd vr vacc vxn).1 S256x2048.size (by sl_kernel_rfl) y

/-- What the last step leaves in the output's buffer: the finished accumulator plus the residual block. -/
def out9_C_6 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VO9_6.read (Elt F) (VO9_6.writes (Elt F) VO9_6.junk (kernelRun9_C c i mx hmx mw hmw mg hmg mu hmu md hmd mr hmr mo hmo macc hmacc mxn hmxn hc0 hc1 vx vw vg vu vd vr vacc vxn).1)

/-- The last step's store into the accumulator scratch covers it. -/
theorem scover9_C_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun9_C c i mx hmx mw hmw mg hmg mu hmu md hmd mr hmr mo hmo macc hmacc mxn hmxn hc0 hc1 vx vw vg vu vd vr vacc vxn).2.1, y ∈ pc.1.set :=
  View.cover_of_tiledL (kernelRun9_C c i mx hmx mw hmw mg hmg mu hmu md hmd mr hmr mo hmo macc hmacc mxn hmxn hc0 hc1 vx vw vg vu vd vr vacc vxn).2.1 S256x2048.size (by sl_kernel_rfl) y

/-- What the last step leaves in the accumulator scratch: the step's partial product added to what it held. -/
def sout9_C_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VS9_0.read (Elt F) (VS9_0.writes (Elt F) VS9_0.junk (kernelRun9_C c i mx hmx mw hmw mg hmg mu hmu md hmd mr hmr mo hmo macc hmacc mxn hmxn hc0 hc1 vx vw vg vu vd vr vacc vxn).2.1)

/-! ## What the output's buffer and the two scratches hold after each point -/

/-- THE ACCUMULATION ALONG THE REDUCTION AXIS. After the body at position `n`: the output's staging buffer, the
    accumulator scratch and the scratch of normalised rows (in this order). The first step of a row block resets both
    scratches from the row block alone; every later step adds its partial product to the accumulator the step before
    left and keeps the normalised rows; the last step also stores the output. No point is both first and last. -/
def outsAt9 (c : Dev nD) : (n : ℕ) → n < cfg9.N → Vec F S256x2048 .f32 × Vec F S256x2048 .f32 × Vec F S256x2048 .bf16
  | 0, hn => (out9_A_6 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) scM9_1 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) scM9_1 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩), sout9_A_1 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) scM9_1 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩))
  | n + 1, hn =>
    if h0 : (n + 1) % 16 = 0 then
      if h1 : (n + 1) % 16 = 15 then
        False.elim (by omega)
      else
        (out9_A_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩), sout9_A_1 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩))
    else
      if h1 : (n + 1) % 16 = 15 then
        (out9_C_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2.1 (outsAt9 c n (Nat.lt_of_succ_lt hn)).2.2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2.1 (outsAt9 c n (Nat.lt_of_succ_lt hn)).2.2, (outsAt9 c n (Nat.lt_of_succ_lt hn)).2.2)
      else
        (out9_B_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2.1 (outsAt9 c n (Nat.lt_of_succ_lt hn)).2.2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2.1 (outsAt9 c n (Nat.lt_of_succ_lt hn)).2.2, (outsAt9 c n (Nat.lt_of_succ_lt hn)).2.2)

/-- At a first step: that case's contents. -/
theorem outsAt9_A (c : Dev nD) (t : Fin cfg9.N) (h0 : t.val % 16 = 0) (h1 : ¬t.val % 16 = 15) :
    outsAt9 V c t.val t.isLt = (out9_A_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t), sout9_A_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t), sout9_A_1 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t)) := by
  obtain ⟨n, hn⟩ := t
  cases n with
  | zero => exact rfl
  | succ n => exact (dif_pos h0).trans ((dif_neg h1).trans rfl)

/-- At a middle step: that case's contents, over what the point before left. -/
theorem outsAt9_B (c : Dev nD) (t : Fin cfg9.N) (h0 : ¬t.val % 16 = 0) (h1 : ¬t.val % 16 = 15) :
    outsAt9 V c t.val t.isLt = (out9_B_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1 (outsAt9 V c (t.val - 1) (Nat.lt_of_le_of_lt (Nat.sub_le _ _) t.isLt)).2.2, sout9_B_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1 (outsAt9 V c (t.val - 1) (Nat.lt_of_le_of_lt (Nat.sub_le _ _) t.isLt)).2.2, (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt9_C (c : Dev nD) (t : Fin cfg9.N) (h0 : ¬t.val % 16 = 0) (h1 : t.val % 16 = 15) :
    outsAt9 V c t.val t.isLt = (out9_C_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1 (outsAt9 V c (t.val - 1) (Nat.lt_of_le_of_lt (Nat.sub_le _ _) t.isLt)).2.2, sout9_C_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1 (outsAt9 V c (t.val - 1) (Nat.lt_of_le_of_lt (Nat.sub_le _ _) t.isLt)).2.2, (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- The invariant before position `n`. Before the first point: the scoped buffers no window stages at anything and
    the generator register at some state. Afterwards: the accumulator scratch and the scratch of normalised rows at what
    the point before left in them, the other such scoped buffers at anything, the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.1) ∗ owns (c : Thread nD τ) scM9_1 fullShare ((outsAt9 V c n hn).2.2)) ∗ restBut9 c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((outsAt9 V c n hn).2.1) ∗ owns (c : Thread nD τ) scM9_1 fullShare ((outsAt9 V c n hn).2.2)) ∗ restBut9 c) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.1) ∗ owns (c : Thread nD τ) scM9_1 fullShare ((outsAt9 V c (n - 1) (by omega)).2.2)) ∗ restBut9 c) ∗ (∃ r, prngReg c r)) := by
  cases n with
  | zero => exact absurd rfl hz
  | succ n => rfl

/-- The proof data of this pipeline on core `c`: the arrays as the region finds them; after the body each input's
    buffer at its block and the output's at `outsAt9`'s first component; the invariant `PhiS9`; nothing owed. The two
    input windows that read one array hold complementary halves of it; every other input its array whole. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => (outsAt9 V c t.val t.isLt).1
  Φ t := PhiS9 V c t.val (Nat.le_of_lt_succ t.isLt)
  q := fun w => if w = 0 then fullShare.left else if w = 5 then fullShare.right else fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation -/

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t)

set_option maxHeartbeats 4800000 in
/-- The body at any point. The inputs' buffers hold their blocks; the position along the reduction axis says which
    of the three cases the point is in; the invariant hands the body the two scratches at what the point before left
    (at anything before the first point) and takes them back at this point's contents; the output's buffer is handed
    back untouched except at a last step, where it is left at the stored sum. The core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_4)
  rw [show (dat9 V c).leavesExact 0 t = owns (c : Thread nD τ) (ms9_0 t) fullShare ((dat9 V c).after 0 t) from by
        unfold Dat.leavesExact; rw [liveAt9_0 t], after9_0]
  rw [show (dat9 V c).leavesExact 1 t = owns (c : Thread nD τ) (ms9_1 t) fullShare ((dat9 V c).after 1 t) from by
        unfold Dat.leavesExact; rw [liveAt9_1 t], after9_1]
  rw [show (dat9 V c).leavesExact 2 t = owns (c : Thread nD τ) (ms9_2 t) fullShare ((dat9 V c).after 2 t) from by
        unfold Dat.leavesExact; rw [liveAt9_2 t], after9_2]
  rw [show (dat9 V c).leavesExact 3 t = owns (c : Thread nD τ) (ms9_3 t) fullShare ((dat9 V c).after 3 t) from by
        unfold Dat.leavesExact; rw [liveAt9_3 t], after9_3]
  rw [show (dat9 V c).leavesExact 4 t = owns (c : Thread nD τ) (ms9_4 t) fullShare ((dat9 V c).after 4 t) from by
        unfold Dat.leavesExact; rw [liveAt9_4 t], after9_4]
  rw [show (dat9 V c).leavesExact 5 t = owns (c : Thread nD τ) (ms9_5 t) fullShare ((dat9 V c).after 5 t) from by
        unfold Dat.leavesExact; rw [liveAt9_5 t], after9_5]
  by_cases h0 : t.val % 16 = 0
  · by_cases h1 : t.val % 16 = 15
    · exfalso; omega
    · rw [Dat.leavesExact_idle (dat9 V c) 6 t (idleAt9_6_A t ((hcond9_0 t).mpr h0) (fun h => h1 ((hcond9_1 t).mp h))) (noFlush9_6_A t ((hcond9_0 t).mpr h0) (fun h => h1 ((hcond9_1 t).mp h)))]
      rw [outsAt9_A V c t h0 h1]
      unfold sout9_A_0 sout9_A_1; (try dsimp only)
      by_cases hz : t.val = 0
      · rw [PhiS9_castSucc V c t, PhiS9_zero V c _ _ hz, PhiA9_eq]
        iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
        iapply ((kernelRun9_A c (grid9.coords t) _ _ _ _ _ _ _ _ _ _ _ _ _ _ _ _ _ _ ((hcond9_0 t).mpr h0) (fun h => h1 ((hcond9_1 t).mp h)) (iblk9 V c 0 t) (iblk9 V c 1 t) (iblk9 V c 2 t) (iblk9 V c 3 t) (iblk9 V c 4 t) (iblk9 V c 5 t)).2.2.2 _ Set.univ _)
        isplitl [Hx]; · iexact Hx
        isplitl [Hw]; · iexact Hw
        isplitl [Hg]; · iexact Hg
        isplitl [Hu]; · iexact Hu
        isplitl [Hd]; · iexact Hd
        isplitl [Hr]; · iexact Hr
        isplitl [Ho]; · iexact Ho
        isplitl [Hacc]; · iexact Hacc
        isplitl [Hxn]; · iexact Hxn
        iintro ⟨Hx, Hw, Hg, Hu, Hd, Hr, Ho, ⟨%gacc, Hacc⟩, ⟨%gxn, Hxn⟩⟩
        isplitl [Hacc Hxn Hrest Hgen]
        · isplitl [Hacc Hxn Hrest]
          · isplitl [Hacc Hxn]
            · isplitl [Hacc]
              · unfold owns; iexists _; isplitr
                swap; · iexact Hacc
                ipureintro; exact View.read_writes_of_cover _ _ _ _ _ (scover9_A_0 c _ _ _ _ _ _ _ _ _ _ _ _ _ _ _ _ _ _ _ _ _ _ _ _ _ _ _)
              · unfold owns; iexists _; isplitr
                swap; · iexact Hxn
                ipureintro; exact View.read_writes_of_cover _ _ _ _ _ (scover9_A_1 c _ _ _ _ _ _ _ _ _ _ _ _ _ _ _ _ _ _ _ _ _ _ _ _ _ _ _)
            iexact Hrest
          iexact Hgen
        isplitl [Howe]; · iexact Howe
        isplitl [Hx]; · iexact Hx
        isplitl [Hw]; · iexact Hw
        isplitl [Hg]; · iexact Hg
        isplitl [Hu]; · iexact Hu
        isplitl [Hd]; · iexact Hd
        isplitl [Hr]; · iexact Hr
        iexists _; iexact Ho
      · rw [PhiS9_castSucc V c t, PhiS9_pos V c _ _ hz]
        iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
        iapply ((kernelRun9_A c (grid9.coords t) _ _ _ _ _ _ _ _ _ _ _ _ _ _ _ _ _ _ ((hcond9_0 t).mpr h0) (fun h => h1 ((hcond9_1 t).mp h)) (iblk9 V c 0 t) (iblk9 V c 1 t) (iblk9 V c 2 t) (iblk9 V c 3 t) (iblk9 V c 4 t) (iblk9 V c 5 t)).2.2.2 _ Set.univ _)
        isplitl [Hx]; · iexact Hx
        isplitl [Hw]; · iexact Hw
        isplitl [Hg]; · iexact Hg
        isplitl [Hu]; · iexact Hu
        isplitl [Hd]; · iexact Hd
        isplitl [Hr]; · iexact Hr
        isplitl [Ho]; · iexact Ho
        isplitl [Hacc]; · iexists _; iexact Hacc
        isplitl [Hxn]; · iexists _; iexact Hxn
        iintro ⟨Hx, Hw, Hg, Hu, Hd, Hr, Ho, ⟨%gacc, Hacc⟩, ⟨%gxn, Hxn⟩⟩
        isplitl [Hacc Hxn Hrest Hgen]
        · isplitl [Hacc Hxn Hrest]
          · isplitl [Hacc Hxn]
            · isplitl [Hacc]
              · unfold owns; iexists _; isplitr
                swap; · iexact Hacc
                ipureintro; exact View.read_writes_of_cover _ _ _ _ _ (scover9_A_0 c _ _ _ _ _ _ _ _ _ _ _ _ _ _ _ _ _ _ _ _ _ _ _ _ _ _ _)
              · unfold owns; iexists _; isplitr
                swap; · iexact Hxn
                ipureintro; exact View.read_writes_of_cover _ _ _ _ _ (scover9_A_1 c _ _ _ _ _ _ _ _ _ _ _ _ _ _ _ _ _ _ _ _ _ _ _ _ _ _ _)
            iexact Hrest
          iexact Hgen
        isplitl [Howe]; · iexact Howe
        isplitl [Hx]; · iexact Hx
        isplitl [Hw]; · iexact Hw
        isplitl [Hg]; · iexact Hg
        isplitl [Hu]; · iexact Hu
        isplitl [Hd]; · iexact Hd
        isplitl [Hr]; · iexact Hr
        iexists _; iexact Ho
  · by_cases h1 : t.val % 16 = 15
    · rw [show (dat9 V c).leavesExact 6 t = owns (c : Thread nD τ) (ms9_6 t) fullShare ((dat9 V c).after 6 t) from by
        unfold Dat.leavesExact; rw [liveAt9_6_C t (fun h => h0 ((hcond9_0 t).mp h)) ((hcond9_1 t).mpr h1)], after9_6]
      rw [outsAt9_C V c t h0 h1]
      unfold out9_C_6 sout9_C_0; (try dsimp only)
      have hz : t.val ≠ 0 := by omega
      rw [PhiS9_castSucc V c t, PhiS9_pos V c _ _ hz]
      iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
      iapply ((kernelRun9_C c (grid9.coords t) _ _ _ _ _ _ _ _ _ _ _ _ _ _ _ _ _ _ (fun h => h0 ((hcond9_0 t).mp h)) ((hcond9_1 t).mpr h1) (iblk9 V c 0 t) (iblk9 V c 1 t) (iblk9 V c 2 t) (iblk9 V c 3 t) (iblk9 V c 4 t) (iblk9 V c 5 t) _ _).2.2 Set.univ _)
      isplitl [Hx]; · iexact Hx
      isplitl [Hw]; · iexact Hw
      isplitl [Hg]; · iexact Hg
      isplitl [Hu]; · iexact Hu
      isplitl [Hd]; · iexact Hd
      isplitl [Hr]; · iexact Hr
      isplitl [Ho]; · iexists _; iexact Ho
      isplitl [Hacc]; · iexact Hacc
      isplitl [Hxn]; · iexact Hxn
      iintro ⟨Hx, Hw, Hg, Hu, Hd, Hr, ⟨%go, Ho⟩, ⟨%gacc, Hacc⟩, Hxn⟩
      isplitl [Hacc Hxn Hrest Hgen]
      · isplitl [Hacc Hxn Hrest]
        · isplitl [Hacc Hxn]
          · isplitl [Hacc]
            · unfold owns; iexists _; isplitr
              swap; · iexact Hacc
              ipureintro; exact View.read_writes_of_cover _ _ _ _ _ (scover9_C_0 c _ _ _ _ _ _ _ _ _ _ _ _ _ _ _ _ _ _ _ _ _ _ _ _ _ _ _ _ _)
            iexact Hxn
          iexact Hrest
        iexact Hgen
      isplitl [Howe]; · iexact Howe
      isplitl [Hx]; · iexact Hx
      isplitl [Hw]; · iexact Hw
      isplitl [Hg]; · iexact Hg
      isplitl [Hu]; · iexact Hu
      isplitl [Hd]; · iexact Hd
      isplitl [Hr]; · iexact Hr
      unfold owns; iexists _; isplitr
      swap; · iexact Ho
      ipureintro; exact View.read_writes_of_cover _ _ _ _ _ (cover9_C_6 c _ _ _ _ _ _ _ _ _ _ _ _ _ _ _ _ _ _ _ _ _ _ _ _ _ _ _ _ _)
    · rw [Dat.leavesExact_idle (dat9 V c) 6 t (idleAt9_6_B t (fun h => h0 ((hcond9_0 t).mp h)) (fun h => h1 ((hcond9_1 t).mp h))) (noFlush9_6_B t (fun h => h0 ((hcond9_0 t).mp h)) (fun h => h1 ((hcond9_1 t).mp h)))]
      rw [outsAt9_B V c t h0 h1]
      unfold sout9_B_0; (try dsimp only)
      have hz : t.val ≠ 0 := by omega
      rw [PhiS9_castSucc V c t, PhiS9_pos V c _ _ hz]
      iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
      iapply ((kernelRun9_B c (grid9.coords t) _ _ _ _ _ _ _ _ _ _ _ _ _ _ _ _ _ _ (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) _ _).2.2 _ Set.univ _)
      isplitl [Hx]; · iexact Hx
      isplitl [Hw]; · iexact Hw
      isplitl [Hg]; · iexact Hg
      isplitl [Hu]; · iexact Hu
      isplitl [Hd]; · iexact Hd
      isplitl [Hr]; · iexact Hr
      isplitl [Ho]; · iexact Ho
      isplitl [Hacc]; · iexact Hacc
      isplitl [Hxn]; · iexact Hxn
      iintro ⟨Hx, Hw, Hg, Hu, Hd, Hr, Ho, ⟨%gacc, Hacc⟩, Hxn⟩
      isplitl [Hacc Hxn Hrest Hgen]
      · isplitl [Hacc Hxn Hrest]
        · isplitl [Hacc Hxn]
          · isplitl [Hacc]
            · unfold owns; iexists _; isplitr
              swap; · iexact Hacc
              ipureintro; exact View.read_writes_of_cover _ _ _ _ _ (scover9_B_0 c _ _ _ _ _ _ _ _ _ _ _ _ _ _ _ _ _ _ _ _ _ _ _ _ _ _ _ _ _)
            iexact Hxn
          iexact Hrest
        iexact Hgen
      isplitl [Howe]; · iexact Howe
      isplitl [Hx]; · iexact Hx
      isplitl [Hw]; · iexact Hw
      isplitl [Hg]; · iexact Hg
      isplitl [Hu]; · iexact Hu
      isplitl [Hd]; · iexact Hd
      isplitl [Hr]; · iexact Hr
      iexists _; iexact Ho

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's ends -/

/-- The generator register and the scoped buffers no window stages make the invariant before the first point. -/
theorem hin9 (c : Dev nD) :
    (iprop((∃ r, prngReg c r) ∗ Pipeline.scopedRest (Ix := Unit) (Name := ℕ) (U := UR sig nD τ) (Lvl := ℕ) (Val := Elt F) spec9 c) : sProp 𝕄) ⊢ (dat9 V c).Φ 0 := by
  rw [show (dat9 V c).Φ 0 = PhiS9 V c 0 (Nat.zero_le _) from rfl, PhiS9_zero V c 0 _ rfl]; unfold Pipeline.ΦA
  iintro ⟨Hp, Hr⟩
  isplitl [Hr]; · iexact Hr
  iexact Hp

/-- After any point the invariant gives them back: what the scratches were left at is forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨Hacc, Hxn⟩, Hrest⟩, Hgen⟩
  isplitl [Hacc Hxn Hrest]
  · isplitl [Hacc Hxn]
    · isplitl [Hacc]
      · iexists _; iexact Hacc
      iexists _; iexact Hxn
    iexact Hrest
  iexact Hgen

/-- The same after the last point. -/
theorem hout9 (c : Dev nD) :
    (dat9 V c).Φ (Fin.last cfg9.N) ⊢ (iprop((∃ r, prngReg c r) ∗ Pipeline.scopedRest (Ix := Unit) (Name := ℕ) (U := UR sig nD τ) (Lvl := ℕ) (Val := Elt F) spec9 c) : sProp 𝕄) := by
  refine (Phi_out9 V c _ (by rw [Fin.val_last]; have : cfg9.N = 64 := N_4; omega)).trans ?_
  unfold Pipeline.ΦA
  iintro ⟨Hr, Hp⟩
  isplitl [Hp]; · iexact Hp
  iexact Hr

end Cert.Kernel.Gen

end
-- ==== Proof.KB.Fold.lean ====
/- The contents of the TensorCore's unscoped buffers at each boundary of the program: the launch memory pushed through
  each host stretch, and after each kernel region the same contents with the region's output array at what the
  region's write-backs leave (the proof data's array after the last grid point).  Each region's proof data is taken
  at the boundary it is entered from; beside the buffers every boundary carries the generator register at some
  state and nothing owed.
-/
import proofs.«167047_j26895085207995_2_alg».proof.Proof.KB.RunCond
import proofs.«167047_j26895085207995_2_alg».proof.Proof.KB.Reg0
import proofs.«167047_j26895085207995_2_alg».proof.Proof.KB.Reg1
import proofs.«167047_j26895085207995_2_alg».proof.Proof.KB.Reg2
import proofs.«167047_j26895085207995_2_alg».proof.Proof.KB.Reg3
import proofs.«167047_j26895085207995_2_alg».proof.Proof.KB.Reg4
import proofs.«167047_j26895085207995_2_alg».proof.Proof.KB.Reg5
import proofs.«167047_j26895085207995_2_alg».proof.Proof.KB.Reg6
import proofs.«167047_j26895085207995_2_alg».proof.Proof.KB.Reg7
import proofs.«167047_j26895085207995_2_alg».proof.Proof.KB.Reg8
import proofs.«167047_j26895085207995_2_alg».proof.Proof.KB.Reg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A boundary's contents read at the TensorCore's references: what a region's proof data take. -/
abbrev atTc (W : Dev nD → Valuation τ sig (Elt F)) : (c : Dev nD) → (b : Ref sig .tc) → Buf (Elt F) ((c : Thread nD τ).loc b) :=
  fun c b => W c b

/-- After the first host stretch: region 0's entry. -/
abbrev B1 (c : Dev nD) : Valuation τ sig (Elt F) := StableHlo.after hostOps0 (V0 m c)
/-- What region 0 leaves in its output array. -/
def o2 (c : Dev nD) : Buf (Elt F) ((c : Thread nD τ).loc main_v44) := (dat0 (atTc (B1 m)) c).arrAt 3 cfg0.N
/-- After region 0: its output array at what it leaves, every other buffer as entered. -/
def B2 (c : Dev nD) : Valuation τ sig (Elt F) := Function.update (B1 m c) main_v44 (o2 m c)
/-- After the host stretch `hostOps1`. -/
abbrev B3 (c : Dev nD) : Valuation τ sig (Elt F) := StableHlo.after hostOps1 (B2 m c)
/-- What region 1 leaves in its output array. -/
def o4 (c : Dev nD) : Buf (Elt F) ((c : Thread nD τ).loc main_v54) := (dat1 (atTc (B3 m)) c).arrAt 3 cfg1.N
/-- After region 1: its output array at what it leaves, every other buffer as entered. -/
def B4 (c : Dev nD) : Valuation τ sig (Elt F) := Function.update (B3 m c) main_v54 (o4 m c)
/-- What region 2 leaves in its output array. -/
def o5 (c : Dev nD) : Buf (Elt F) ((c : Thread nD τ).loc main_v55) := (dat2 (atTc (B4 m)) c).arrAt 6 cfg2.N
/-- After region 2: its output array at what it leaves, every other buffer as entered. -/
def B5 (c : Dev nD) : Valuation τ sig (Elt F) := Function.update (B4 m c) main_v55 (o5 m c)
/-- After the host stretch `hostOps3`. -/
abbrev B6 (c : Dev nD) : Valuation τ sig (Elt F) := StableHlo.after hostOps3 (B5 m c)
/-- What region 3 leaves in its output array. -/
def o7 (c : Dev nD) : Buf (Elt F) ((c : Thread nD τ).loc main_v58) := (dat3 (atTc (B6 m)) c).arrAt 3 cfg3.N
/-- After region 3: its output array at what it leaves, every other buffer as entered. -/
def B7 (c : Dev nD) : Valuation τ sig (Elt F) := Function.update (B6 m c) main_v58 (o7 m c)
/-- After the host stretch `hostOps4`. -/
abbrev B8 (c : Dev nD) : Valuation τ sig (Elt F) := StableHlo.after hostOps4 (B7 m c)
/-- What region 4 leaves in its output array. -/
def o9 (c : Dev nD) : Buf (Elt F) ((c : Thread nD τ).loc main_v60) := (dat4 (atTc (B8 m)) c).arrAt 6 cfg4.N
/-- After region 4: its output array at what it leaves, every other buffer as entered. -/
def B9 (c : Dev nD) : Valuation τ sig (Elt F) := Function.update (B8 m c) main_v60 (o9 m c)
/-- After the host stretch `hostOps5`. -/
abbrev B10 (c : Dev nD) : Valuation τ sig (Elt F) := StableHlo.after hostOps5 (B9 m c)
/-- What region 5 leaves in its output array. -/
def o11 (c : Dev nD) : Buf (Elt F) ((c : Thread nD τ).loc main_v83) := (dat5 (atTc (B10 m)) c).arrAt 3 cfg5.N
/-- After region 5: its output array at what it leaves, every other buffer as entered. -/
def B11 (c : Dev nD) : Valuation τ sig (Elt F) := Function.update (B10 m c) main_v83 (o11 m c)
/-- After the host stretch `hostOps6`. -/
abbrev B12 (c : Dev nD) : Valuation τ sig (Elt F) := StableHlo.after hostOps6 (B11 m c)
/-- What region 6 leaves in its output array. -/
def o13 (c : Dev nD) : Buf (Elt F) ((c : Thread nD τ).loc main_v93) := (dat6 (atTc (B12 m)) c).arrAt 3 cfg6.N
/-- After region 6: its output array at what it leaves, every other buffer as entered. -/
def B13 (c : Dev nD) : Valuation τ sig (Elt F) := Function.update (B12 m c) main_v93 (o13 m c)
/-- What region 7 leaves in its output array. -/
def o14 (c : Dev nD) : Buf (Elt F) ((c : Thread nD τ).loc main_v94) := (dat7 (atTc (B13 m)) c).arrAt 6 cfg7.N
/-- After region 7: its output array at what it leaves, every other buffer as entered. -/
def B14 (c : Dev nD) : Valuation τ sig (Elt F) := Function.update (B13 m c) main_v94 (o14 m c)
/-- After the host stretch `hostOps8`. -/
abbrev B15 (c : Dev nD) : Valuation τ sig (Elt F) := StableHlo.after hostOps8 (B14 m c)
/-- What region 8 leaves in its output array. -/
def o16 (c : Dev nD) : Buf (Elt F) ((c : Thread nD τ).loc main_v97) := (dat8 (atTc (B15 m)) c).arrAt 3 cfg8.N
/-- After region 8: its output array at what it leaves, every other buffer as entered. -/
def B16 (c : Dev nD) : Valuation τ sig (Elt F) := Function.update (B15 m c) main_v97 (o16 m c)
/-- After the host stretch `hostOps9`. -/
abbrev B17 (c : Dev nD) : Valuation τ sig (Elt F) := StableHlo.after hostOps9 (B16 m c)
/-- What region 9 leaves in its output array. -/
def o18 (c : Dev nD) : Buf (Elt F) ((c : Thread nD τ).loc main_v99) := (dat9 (atTc (B17 m)) c).arrAt 6 cfg9.N
/-- After region 9: its output array at what it leaves, every other buffer as entered. -/
def B18 (c : Dev nD) : Valuation τ sig (Elt F) := Function.update (B17 m c) main_v99 (o18 m c)
/-- After the host stretch `hostOps10`. -/
abbrev B19 (c : Dev nD) : Valuation τ sig (Elt F) := StableHlo.after hostOps10 (B18 m c)

/-- What the regions leave, as the conditional frame's unknowns: the boundary contents themselves. -/
def outsR : Outs (F := F) := fun J r c =>
  if J = 2 then B2 m c r else if J = 4 then B4 m c r else if J = 5 then B5 m c r else if J = 7 then B7 m c r
  else if J = 9 then B9 m c r else if J = 11 then B11 m c r else if J = 13 then B13 m c r else if J = 14 then B14 m c r
  else if J = 16 then B16 m c r else B18 m c r

/-- The unknown read at region 0's output array is what the region leaves. -/
theorem outsR_2 (c : Dev nD) : outsR m 2 main_v44 c = o2 m c := by
  unfold outsR B2
  rw [if_pos rfl]
  exact Function.update_self _ _ _
/-- The unknown read at region 1's output array is what the region leaves. -/
theorem outsR_4 (c : Dev nD) : outsR m 4 main_v54 c = o4 m c := by
  unfold outsR B4
  rw [if_neg (by decide), if_pos rfl]
  exact Function.update_self _ _ _
/-- The unknown read at region 2's output array is what the region leaves. -/
theorem outsR_5 (c : Dev nD) : outsR m 5 main_v55 c = o5 m c := by
  unfold outsR B5
  rw [if_neg (by decide), if_neg (by decide), if_pos rfl]
  exact Function.update_self _ _ _
/-- The unknown read at region 3's output array is what the region leaves. -/
theorem outsR_7 (c : Dev nD) : outsR m 7 main_v58 c = o7 m c := by
  unfold outsR B7
  rw [if_neg (by decide), if_neg (by decide), if_neg (by decide), if_pos rfl]
  exact Function.update_self _ _ _
/-- The unknown read at region 4's output array is what the region leaves. -/
theorem outsR_9 (c : Dev nD) : outsR m 9 main_v60 c = o9 m c := by
  unfold outsR B9
  rw [if_neg (by decide), if_neg (by decide), if_neg (by decide), if_neg (by decide), if_pos rfl]
  exact Function.update_self _ _ _
/-- The unknown read at region 5's output array is what the region leaves. -/
theorem outsR_11 (c : Dev nD) : outsR m 11 main_v83 c = o11 m c := by
  unfold outsR B11
  rw [if_neg (by decide), if_neg (by decide), if_neg (by decide), if_neg (by decide), if_neg (by decide), if_pos rfl]
  exact Function.update_self _ _ _
/-- The unknown read at region 6's output array is what the region leaves. -/
theorem outsR_13 (c : Dev nD) : outsR m 13 main_v93 c = o13 m c := by
  unfold outsR B13
  rw [if_neg (by decide), if_neg (by decide), if_neg (by decide), if_neg (by decide), if_neg (by decide), if_neg (by decide), if_pos rfl]
  exact Function.update_self _ _ _
/-- The unknown read at region 7's output array is what the region leaves. -/
theorem outsR_14 (c : Dev nD) : outsR m 14 main_v94 c = o14 m c := by
  unfold outsR B14
  rw [if_neg (by decide), if_neg (by decide), if_neg (by decide), if_neg (by decide), if_neg (by decide), if_neg (by decide), if_neg (by decide), if_pos rfl]
  exact Function.update_self _ _ _
/-- The unknown read at region 8's output array is what the region leaves. -/
theorem outsR_16 (c : Dev nD) : outsR m 16 main_v97 c = o16 m c := by
  unfold outsR B16
  rw [if_neg (by decide), if_neg (by decide), if_neg (by decide), if_neg (by decide), if_neg (by decide), if_neg (by decide), if_neg (by decide), if_neg (by decide), if_pos rfl]
  exact Function.update_self _ _ _
/-- The unknown read at region 9's output array is what the region leaves. -/
theorem outsR_18 (c : Dev nD) : outsR m 18 main_v99 c = o18 m c := by
  unfold outsR B18
  rw [if_neg (by decide), if_neg (by decide), if_neg (by decide), if_neg (by decide), if_neg (by decide), if_neg (by decide), if_neg (by decide), if_neg (by decide), if_neg (by decide)]
  exact Function.update_self _ _ _

/-- The conditional frame's boundary contents at these unknowns are the boundaries above. -/
theorem V1_eq (c : Dev nD) : V1 m c = B1 m c := rfl
theorem V2_eq (c : Dev nD) : V2 m (outsR m) c = B2 m c := by
  show Function.update (V1 m c) main_v44 (outsR m 2 main_v44 c) = Function.update (B1 m c) main_v44 (o2 m c)
  rw [V1_eq, outsR_2]
theorem V3_eq (c : Dev nD) : V3 m (outsR m) c = B3 m c := by
  show StableHlo.after hostOps1 (V2 m (outsR m) c) = StableHlo.after hostOps1 (B2 m c)
  rw [V2_eq]
theorem V4_eq (c : Dev nD) : V4 m (outsR m) c = B4 m c := by
  show Function.update (V3 m (outsR m) c) main_v54 (outsR m 4 main_v54 c) = Function.update (B3 m c) main_v54 (o4 m c)
  rw [V3_eq, outsR_4]
theorem V5_eq (c : Dev nD) : V5 m (outsR m) c = B5 m c := by
  show Function.update (V4 m (outsR m) c) main_v55 (outsR m 5 main_v55 c) = Function.update (B4 m c) main_v55 (o5 m c)
  rw [V4_eq, outsR_5]
theorem V6_eq (c : Dev nD) : V6 m (outsR m) c = B6 m c := by
  show StableHlo.after hostOps3 (V5 m (outsR m) c) = StableHlo.after hostOps3 (B5 m c)
  rw [V5_eq]
theorem V7_eq (c : Dev nD) : V7 m (outsR m) c = B7 m c := by
  show Function.update (V6 m (outsR m) c) main_v58 (outsR m 7 main_v58 c) = Function.update (B6 m c) main_v58 (o7 m c)
  rw [V6_eq, outsR_7]
theorem V8_eq (c : Dev nD) : V8 m (outsR m) c = B8 m c := by
  show StableHlo.after hostOps4 (V7 m (outsR m) c) = StableHlo.after hostOps4 (B7 m c)
  rw [V7_eq]
theorem V9_eq (c : Dev nD) : V9 m (outsR m) c = B9 m c := by
  show Function.update (V8 m (outsR m) c) main_v60 (outsR m 9 main_v60 c) = Function.update (B8 m c) main_v60 (o9 m c)
  rw [V8_eq, outsR_9]
theorem V10_eq (c : Dev nD) : V10 m (outsR m) c = B10 m c := by
  show StableHlo.after hostOps5 (V9 m (outsR m) c) = StableHlo.after hostOps5 (B9 m c)
  rw [V9_eq]
theorem V11_eq (c : Dev nD) : V11 m (outsR m) c = B11 m c := by
  show Function.update (V10 m (outsR m) c) main_v83 (outsR m 11 main_v83 c) = Function.update (B10 m c) main_v83 (o11 m c)
  rw [V10_eq, outsR_11]
theorem V12_eq (c : Dev nD) : V12 m (outsR m) c = B12 m c := by
  show StableHlo.after hostOps6 (V11 m (outsR m) c) = StableHlo.after hostOps6 (B11 m c)
  rw [V11_eq]
theorem V13_eq (c : Dev nD) : V13 m (outsR m) c = B13 m c := by
  show Function.update (V12 m (outsR m) c) main_v93 (outsR m 13 main_v93 c) = Function.update (B12 m c) main_v93 (o13 m c)
  rw [V12_eq, outsR_13]
theorem V14_eq (c : Dev nD) : V14 m (outsR m) c = B14 m c := by
  show Function.update (V13 m (outsR m) c) main_v94 (outsR m 14 main_v94 c) = Function.update (B13 m c) main_v94 (o14 m c)
  rw [V13_eq, outsR_14]
theorem V15_eq (c : Dev nD) : V15 m (outsR m) c = B15 m c := by
  show StableHlo.after hostOps8 (V14 m (outsR m) c) = StableHlo.after hostOps8 (B14 m c)
  rw [V14_eq]
theorem V16_eq (c : Dev nD) : V16 m (outsR m) c = B16 m c := by
  show Function.update (V15 m (outsR m) c) main_v97 (outsR m 16 main_v97 c) = Function.update (B15 m c) main_v97 (o16 m c)
  rw [V15_eq, outsR_16]
theorem V17_eq (c : Dev nD) : V17 m (outsR m) c = B17 m c := by
  show StableHlo.after hostOps9 (V16 m (outsR m) c) = StableHlo.after hostOps9 (B16 m c)
  rw [V16_eq]
theorem V18_eq (c : Dev nD) : V18 m (outsR m) c = B18 m c := by
  show Function.update (V17 m (outsR m) c) main_v99 (outsR m 18 main_v99 c) = Function.update (B17 m c) main_v99 (o18 m c)
  rw [V17_eq, outsR_18]
theorem V19_eq (c : Dev nD) : V19 m (outsR m) c = B19 m c := by
  show StableHlo.after hostOps10 (V18 m (outsR m) c) = StableHlo.after hostOps10 (B18 m c)
  rw [V18_eq]

/-! ## The proof data family and the state beside the buffers -/

/-- Every region's proof data, each at the boundary it is entered from: a literal match on the region's number. -/
def pdats : (p : Fin 10) → (c : Dev nD) → Dat τ (Elt F) Unit ℕ (UR sig nD τ) ℕ (cfgs p) c
  | ⟨0, _⟩ => fun c => dat0 (atTc (B1 m)) c
  | ⟨1, _⟩ => fun c => dat1 (atTc (B3 m)) c
  | ⟨2, _⟩ => fun c => dat2 (atTc (B4 m)) c
  | ⟨3, _⟩ => fun c => dat3 (atTc (B6 m)) c
  | ⟨4, _⟩ => fun c => dat4 (atTc (B8 m)) c
  | ⟨5, _⟩ => fun c => dat5 (atTc (B10 m)) c
  | ⟨6, _⟩ => fun c => dat6 (atTc (B12 m)) c
  | ⟨7, _⟩ => fun c => dat7 (atTc (B13 m)) c
  | ⟨8, _⟩ => fun c => dat8 (atTc (B15 m)) c
  | ⟨9, _⟩ => fun c => dat9 (atTc (B17 m)) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every boundary: the core's generator register at some state, and nothing owed. -/
abbrev R (c : Dev nD) : sProp 𝕄 := iprop((∃ r, prngReg c r) ∗ ∃ W, owes (c : Thread nD τ) (0 : CellTallies nD τ sig Unit) W)
/-- An unscoped TensorCore reference is among those a boundary holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Gen

end
-- ==== Proof.KB.Seg0.lean ====
import proofs.«167047_j26895085207995_2_alg».proof.Proof.KB.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF0`, `hrest0`) are what putting the arrays back
    needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix0 : Fin 10 := 0
/-- The boundary contents the region is entered from, -/
abbrev Ein0 : Dev nD → Valuation τ sig (Elt F) := B1 m
/-- and those it is left at. -/
abbrev Eout0 : Dev nD → Valuation τ sig (Elt F) := B2 m
/-- The output window, -/
abbrev owin0 : Fin cfg0.W := 3
/-- and its array. -/
abbrev oref0 : Ref sig .tc := main_v44

/-- The exit contents are the entry contents updated at the output array, with what the pipeline's write-backs leave
    there after the last grid point. -/
theorem Eout0_eq (c : Dev nD) :
    Eout0 m c = Function.update (Ein0 m c) (Proc.devRef .tc oref0) ((dat0 (atTc (Ein0 m)) c).arrAt owin0 cfg0.N) := rfl

/-! ## The exit contents at the region's arrays and off them -/

/-- At exit each of the region's arrays holds what the pipeline leaves in it: the output's array by the update; an
    input's array is never written, so it holds its entry contents, which the update (at another reference) keeps. -/
theorem hF0 (c : Dev nD) (w : Fin cfg0.W) :
    (dat0 (atTc (Ein0 m)) c).arrAt w cfg0.N = atTc (Eout0 m) c (Pipeline.arrRef spec0 w) := by
  by_cases hw : w = owin0
  · subst hw
    show _ = Eout0 m c (Proc.devRef .tc oref0)
    rw [Eout0_eq, Function.update_self]
  · have hin : (cfg0.win w).isOut = false :=
      (by decide : ∀ w : Fin cfg0.W, w ≠ owin0 → (cfg0.win w).isOut = false) w hw
    have hne : Pipeline.arrRef spec0 w ≠ oref0 :=
      (by decide : ∀ w : Fin cfg0.W, w ≠ owin0 → Pipeline.arrRef spec0 w ≠ oref0) w hw
    refine (((dat0 (atTc (Ein0 m)) c).arrAt_in w hin _).trans (A_eq0 (atTc (Ein0 m)) c w)).trans ?_
    show Ein0 m c (Proc.devRef .tc (Pipeline.arrRef spec0 w)) = Eout0 m c (Proc.devRef .tc (Pipeline.arrRef spec0 w))
    rw [Eout0_eq]
    exact (Function.update_of_ne (StableHlo.devRef_ne_of_ne hne) _ _).symm

/-- Off the region's arrays the exit contents are the entry contents: the update is at one of the arrays. -/
theorem hrest0 (c : Dev nD) : ∀ b, b ∉ Finset.univ.image (Pipeline.arrRef spec0) → atTc (Eout0 m) c b = atTc (Ein0 m) c b := by
  intro b hb
  have hne : b ≠ oref0 := fun e => hb (Finset.mem_image.mpr ⟨owin0, Finset.mem_univ _, e.symm⟩)
  show Eout0 m c (Proc.devRef .tc b) = Ein0 m c (Proc.devRef .tc b)
  rw [Eout0_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg0 : Pipeline.RegionSeg (pcfgs (F := F)) adm (pdats m) () defs₀ 𝒱₀ L lv pix0 where
  win := launch0.win.to₀
  block_pos := launch0.block_pos
  stage_whole := launch0.stage_whole
  K := PEmpty
  osem k := k.elim
  ho := Pipeline.OwnSemFacts.none _
  hbody c := (body_obligation0 (atTc (Ein0 m)) c).loose
  hwaits := Pipeline.hwaits_of_owed_zero _ _ _ _ L lv pix0 fun _ _ => rfl
  pre c := iprop(StableHlo.held (c : Thread nD τ) (Pipeline.ucRefs τ sig) (Ein0 m c) ∗ R c)
  post c := iprop(StableHlo.held (c : Thread nD τ) (Pipeline.ucRefs τ sig) (Eout0 m c) ∗ R c)
  X c := iprop(∃ r, prngReg c r)
  Y c := iprop(∃ r, prngReg c r)
  Z c := Pipeline.unscopedRest (Ix := Unit) (Name := ℕ) (U := UR sig nD τ) (Lvl := ℕ) spec0 c (atTc (Ein0 m) c)
  hentry c := by
    rw [Pipeline.ownSems0_none]
    have hsplit := Pipeline.arrays_of_unscopedBufs (p := pix0) (pcfgs (F := F)) adm (pdats m) launch0.win launch0.arr_whole c
      ((pdats m pix0 c).share_full fun _ => rfl) (atTc (Ein0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m pix0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := pix0) (pcfgs (F := F)) adm (Ix := Unit) (Name := ℕ) (U := UR sig nD τ) (Lvl := ℕ)
      launch0.win launch0.arr_whole c (pdats m) ((pdats m pix0 c).share_full fun _ => rfl)
      (atTc (Ein0 m) c) (atTc (Eout0 m) c) ((pdats m pix0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg1.lean ====
import proofs.«167047_j26895085207995_2_alg».proof.Proof.KB.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF1`, `hrest1`) are what putting the arrays back
    needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix1 : Fin 10 := 1
/-- The boundary contents the region is entered from, -/
abbrev Ein1 : Dev nD → Valuation τ sig (Elt F) := B3 m
/-- and those it is left at. -/
abbrev Eout1 : Dev nD → Valuation τ sig (Elt F) := B4 m
/-- The output window, -/
abbrev owin1 : Fin cfg1.W := 3
/-- and its array. -/
abbrev oref1 : Ref sig .tc := main_v54

/-- The exit contents are the entry contents updated at the output array, with what the pipeline's write-backs leave
    there after the last grid point. -/
theorem Eout1_eq (c : Dev nD) :
    Eout1 m c = Function.update (Ein1 m c) (Proc.devRef .tc oref1) ((dat1 (atTc (Ein1 m)) c).arrAt owin1 cfg1.N) := rfl

/-! ## The exit contents at the region's arrays and off them -/

/-- At exit each of the region's arrays holds what the pipeline leaves in it: the output's array by the update; an
    input's array is never written, so it holds its entry contents, which the update (at another reference) keeps. -/
theorem hF1 (c : Dev nD) (w : Fin cfg1.W) :
    (dat1 (atTc (Ein1 m)) c).arrAt w cfg1.N = atTc (Eout1 m) c (Pipeline.arrRef spec1 w) := by
  by_cases hw : w = owin1
  · subst hw
    show _ = Eout1 m c (Proc.devRef .tc oref1)
    rw [Eout1_eq, Function.update_self]
  · have hin : (cfg1.win w).isOut = false :=
      (by decide : ∀ w : Fin cfg1.W, w ≠ owin1 → (cfg1.win w).isOut = false) w hw
    have hne : Pipeline.arrRef spec1 w ≠ oref1 :=
      (by decide : ∀ w : Fin cfg1.W, w ≠ owin1 → Pipeline.arrRef spec1 w ≠ oref1) w hw
    refine (((dat1 (atTc (Ein1 m)) c).arrAt_in w hin _).trans (A_eq1 (atTc (Ein1 m)) c w)).trans ?_
    show Ein1 m c (Proc.devRef .tc (Pipeline.arrRef spec1 w)) = Eout1 m c (Proc.devRef .tc (Pipeline.arrRef spec1 w))
    rw [Eout1_eq]
    exact (Function.update_of_ne (StableHlo.devRef_ne_of_ne hne) _ _).symm

/-- Off the region's arrays the exit contents are the entry contents: the update is at one of the arrays. -/
theorem hrest1 (c : Dev nD) : ∀ b, b ∉ Finset.univ.image (Pipeline.arrRef spec1) → atTc (Eout1 m) c b = atTc (Ein1 m) c b := by
  intro b hb
  have hne : b ≠ oref1 := fun e => hb (Finset.mem_image.mpr ⟨owin1, Finset.mem_univ _, e.symm⟩)
  show Eout1 m c (Proc.devRef .tc b) = Ein1 m c (Proc.devRef .tc b)
  rw [Eout1_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg1 : Pipeline.RegionSeg (pcfgs (F := F)) adm (pdats m) () defs₀ 𝒱₀ L lv pix1 where
  win := launch1.win.to₀
  block_pos := launch1.block_pos
  stage_whole := launch1.stage_whole
  K := PEmpty
  osem k := k.elim
  ho := Pipeline.OwnSemFacts.none _
  hbody c := (body_obligation1 (atTc (Ein1 m)) c).loose
  hwaits := Pipeline.hwaits_of_owed_zero _ _ _ _ L lv pix1 fun _ _ => rfl
  pre c := iprop(StableHlo.held (c : Thread nD τ) (Pipeline.ucRefs τ sig) (Ein1 m c) ∗ R c)
  post c := iprop(StableHlo.held (c : Thread nD τ) (Pipeline.ucRefs τ sig) (Eout1 m c) ∗ R c)
  X c := iprop(∃ r, prngReg c r)
  Y c := iprop(∃ r, prngReg c r)
  Z c := Pipeline.unscopedRest (Ix := Unit) (Name := ℕ) (U := UR sig nD τ) (Lvl := ℕ) spec1 c (atTc (Ein1 m) c)
  hentry c := by
    rw [Pipeline.ownSems0_none]
    have hsplit := Pipeline.arrays_of_unscopedBufs (p := pix1) (pcfgs (F := F)) adm (pdats m) launch1.win launch1.arr_whole c
      ((pdats m pix1 c).share_full fun _ => rfl) (atTc (Ein1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m pix1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := pix1) (pcfgs (F := F)) adm (Ix := Unit) (Name := ℕ) (U := UR sig nD τ) (Lvl := ℕ)
      launch1.win launch1.arr_whole c (pdats m) ((pdats m pix1 c).share_full fun _ => rfl)
      (atTc (Ein1 m) c) (atTc (Eout1 m) c) ((pdats m pix1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg2.lean ====
import proofs.«167047_j26895085207995_2_alg».proof.Proof.KB.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF2`, `hrest2`) are what putting the arrays back
    needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix2 : Fin 10 := 2
/-- The boundary contents the region is entered from, -/
abbrev Ein2 : Dev nD → Valuation τ sig (Elt F) := B4 m
/-- and those it is left at. -/
abbrev Eout2 : Dev nD → Valuation τ sig (Elt F) := B5 m
/-- The output window, -/
abbrev owin2 : Fin cfg2.W := 6
/-- and its array. -/
abbrev oref2 : Ref sig .tc := main_v55

/-- The exit contents are the entry contents updated at the output array, with what the pipeline's write-backs leave
    there after the last grid point. -/
theorem Eout2_eq (c : Dev nD) :
    Eout2 m c = Function.update (Ein2 m c) (Proc.devRef .tc oref2) ((dat2 (atTc (Ein2 m)) c).arrAt owin2 cfg2.N) := rfl

/-! ## The exit contents at the region's arrays and off them -/

/-- At exit each of the region's arrays holds what the pipeline leaves in it: the output's array by the update; an
    input's array is never written, so it holds its entry contents, which the update (at another reference) keeps. -/
theorem hF2 (c : Dev nD) (w : Fin cfg2.W) :
    (dat2 (atTc (Ein2 m)) c).arrAt w cfg2.N = atTc (Eout2 m) c (Pipeline.arrRef spec2 w) := by
  by_cases hw : w = owin2
  · subst hw
    show _ = Eout2 m c (Proc.devRef .tc oref2)
    rw [Eout2_eq, Function.update_self]
  · have hin : (cfg2.win w).isOut = false :=
      (by decide : ∀ w : Fin cfg2.W, w ≠ owin2 → (cfg2.win w).isOut = false) w hw
    have hne : Pipeline.arrRef spec2 w ≠ oref2 :=
      (by decide : ∀ w : Fin cfg2.W, w ≠ owin2 → Pipeline.arrRef spec2 w ≠ oref2) w hw
    refine (((dat2 (atTc (Ein2 m)) c).arrAt_in w hin _).trans (A_eq2 (atTc (Ein2 m)) c w)).trans ?_
    show Ein2 m c (Proc.devRef .tc (Pipeline.arrRef spec2 w)) = Eout2 m c (Proc.devRef .tc (Pipeline.arrRef spec2 w))
    rw [Eout2_eq]
    exact (Function.update_of_ne (StableHlo.devRef_ne_of_ne hne) _ _).symm

/-- Off the region's arrays the exit contents are the entry contents: the update is at one of the arrays. -/
theorem hrest2 (c : Dev nD) : ∀ b, b ∉ Finset.univ.image (Pipeline.arrRef spec2) → atTc (Eout2 m) c b = atTc (Ein2 m) c b := by
  intro b hb
  have hne : b ≠ oref2 := fun e => hb (Finset.mem_image.mpr ⟨owin2, Finset.mem_univ _, e.symm⟩)
  show Eout2 m c (Proc.devRef .tc b) = Ein2 m c (Proc.devRef .tc b)
  rw [Eout2_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg2 : Pipeline.RegionSeg (pcfgs (F := F)) adm (pdats m) () defs₀ 𝒱₀ L lv pix2 where
  win := launch2.win.to₀
  block_pos := launch2.block_pos
  stage_whole := launch2.stage_whole
  K := PEmpty
  osem k := k.elim
  ho := Pipeline.OwnSemFacts.none _
  hbody c := (body_obligation2 (atTc (Ein2 m)) c).loose
  hwaits := Pipeline.hwaits_of_owed_zero _ _ _ _ L lv pix2 fun _ _ => rfl
  pre c := iprop(StableHlo.held (c : Thread nD τ) (Pipeline.ucRefs τ sig) (Ein2 m c) ∗ R c)
  post c := iprop(StableHlo.held (c : Thread nD τ) (Pipeline.ucRefs τ sig) (Eout2 m c) ∗ R c)
  X c := iprop(∃ r, prngReg c r)
  Y c := iprop(∃ r, prngReg c r)
  Z c := Pipeline.unscopedRest (Ix := Unit) (Name := ℕ) (U := UR sig nD τ) (Lvl := ℕ) spec2 c (atTc (Ein2 m) c)
  hentry c := by
    rw [Pipeline.ownSems0_none]
    have hsplit := Pipeline.arrays_of_unscopedBufs (p := pix2) (pcfgs (F := F)) adm (pdats m) launch2.win launch2.arr_whole c
      ((pdats m pix2 c).share_full fun _ => rfl) (atTc (Ein2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m pix2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := pix2) (pcfgs (F := F)) adm (Ix := Unit) (Name := ℕ) (U := UR sig nD τ) (Lvl := ℕ)
      launch2.win launch2.arr_whole c (pdats m) ((pdats m pix2 c).share_full fun _ => rfl)
      (atTc (Ein2 m) c) (atTc (Eout2 m) c) ((pdats m pix2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg3.lean ====
import proofs.«167047_j26895085207995_2_alg».proof.Proof.KB.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF3`, `hrest3`) are what putting the arrays back
    needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix3 : Fin 10 := 3
/-- The boundary contents the region is entered from, -/
abbrev Ein3 : Dev nD → Valuation τ sig (Elt F) := B6 m
/-- and those it is left at. -/
abbrev Eout3 : Dev nD → Valuation τ sig (Elt F) := B7 m
/-- The output window, -/
abbrev owin3 : Fin cfg3.W := 3
/-- and its array. -/
abbrev oref3 : Ref sig .tc := main_v58

/-- The exit contents are the entry contents updated at the output array, with what the pipeline's write-backs leave
    there after the last grid point. -/
theorem Eout3_eq (c : Dev nD) :
    Eout3 m c = Function.update (Ein3 m c) (Proc.devRef .tc oref3) ((dat3 (atTc (Ein3 m)) c).arrAt owin3 cfg3.N) := rfl

/-! ## The exit contents at the region's arrays and off them -/

/-- At exit each of the region's arrays holds what the pipeline leaves in it: the output's array by the update; an
    input's array is never written, so it holds its entry contents, which the update (at another reference) keeps. -/
theorem hF3 (c : Dev nD) (w : Fin cfg3.W) :
    (dat3 (atTc (Ein3 m)) c).arrAt w cfg3.N = atTc (Eout3 m) c (Pipeline.arrRef spec3 w) := by
  by_cases hw : w = owin3
  · subst hw
    show _ = Eout3 m c (Proc.devRef .tc oref3)
    rw [Eout3_eq, Function.update_self]
  · have hin : (cfg3.win w).isOut = false :=
      (by decide : ∀ w : Fin cfg3.W, w ≠ owin3 → (cfg3.win w).isOut = false) w hw
    have hne : Pipeline.arrRef spec3 w ≠ oref3 :=
      (by decide : ∀ w : Fin cfg3.W, w ≠ owin3 → Pipeline.arrRef spec3 w ≠ oref3) w hw
    refine (((dat3 (atTc (Ein3 m)) c).arrAt_in w hin _).trans (A_eq3 (atTc (Ein3 m)) c w)).trans ?_
    show Ein3 m c (Proc.devRef .tc (Pipeline.arrRef spec3 w)) = Eout3 m c (Proc.devRef .tc (Pipeline.arrRef spec3 w))
    rw [Eout3_eq]
    exact (Function.update_of_ne (StableHlo.devRef_ne_of_ne hne) _ _).symm

/-- Off the region's arrays the exit contents are the entry contents: the update is at one of the arrays. -/
theorem hrest3 (c : Dev nD) : ∀ b, b ∉ Finset.univ.image (Pipeline.arrRef spec3) → atTc (Eout3 m) c b = atTc (Ein3 m) c b := by
  intro b hb
  have hne : b ≠ oref3 := fun e => hb (Finset.mem_image.mpr ⟨owin3, Finset.mem_univ _, e.symm⟩)
  show Eout3 m c (Proc.devRef .tc b) = Ein3 m c (Proc.devRef .tc b)
  rw [Eout3_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg3 : Pipeline.RegionSeg (pcfgs (F := F)) adm (pdats m) () defs₀ 𝒱₀ L lv pix3 where
  win := launch3.win.to₀
  block_pos := launch3.block_pos
  stage_whole := launch3.stage_whole
  K := PEmpty
  osem k := k.elim
  ho := Pipeline.OwnSemFacts.none _
  hbody c := (body_obligation3 (atTc (Ein3 m)) c).loose
  hwaits := Pipeline.hwaits_of_owed_zero _ _ _ _ L lv pix3 fun _ _ => rfl
  pre c := iprop(StableHlo.held (c : Thread nD τ) (Pipeline.ucRefs τ sig) (Ein3 m c) ∗ R c)
  post c := iprop(StableHlo.held (c : Thread nD τ) (Pipeline.ucRefs τ sig) (Eout3 m c) ∗ R c)
  X c := iprop(∃ r, prngReg c r)
  Y c := iprop(∃ r, prngReg c r)
  Z c := Pipeline.unscopedRest (Ix := Unit) (Name := ℕ) (U := UR sig nD τ) (Lvl := ℕ) spec3 c (atTc (Ein3 m) c)
  hentry c := by
    rw [Pipeline.ownSems0_none]
    have hsplit := Pipeline.arrays_of_unscopedBufs (p := pix3) (pcfgs (F := F)) adm (pdats m) launch3.win launch3.arr_whole c
      ((pdats m pix3 c).share_full fun _ => rfl) (atTc (Ein3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m pix3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := pix3) (pcfgs (F := F)) adm (Ix := Unit) (Name := ℕ) (U := UR sig nD τ) (Lvl := ℕ)
      launch3.win launch3.arr_whole c (pdats m) ((pdats m pix3 c).share_full fun _ => rfl)
      (atTc (Ein3 m) c) (atTc (Eout3 m) c) ((pdats m pix3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Rec4.lean ====
import proofs.«167047_j26895085207995_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the decided enumeration of the arrays' buffers recurses once per reference
set_option maxRecDepth 16000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region entry and exit when two input windows are handed one array

The kernel of this region reads one array through two input windows (windows 0 and 5). The buffers behind the seven
windows' arrays are therefore six, and the points-to of the shared buffer cannot be given whole to both windows: its
full share is halved, one half to each. Every other input window holds its array at the full share, and so does the
output window. At the region's entry the core's unscoped buffers, each whole at the entry contents, are sorted into the
windows' arrays at these shares and the buffers that bypass the region; at the exit the two halves are joined again and
the arrays are put back among the unscoped buffers at the exit contents. -/

/-- The share of each input window's array: the buffer behind windows 0 and 5 is one, read by both, so its full
    share is halved between them; every other input window has its array to itself. -/
def q4 : Fin cfg4.W → PosShare TreeShare :=
  fun w => if w = 0 then fullShare.left else if w = 5 then fullShare.right else fullShare

section Shared

variable {c : Dev nD} (dat : Dat τ (Elt F) Unit ℕ (UR sig nD τ) ℕ cfg4 c)

/-- Every unscoped buffer of the core, whole at `W`, is the buffers behind the windows' arrays at `W` and the rest at
    `W`: the arrays are unscoped, so their buffers are a subset of the unscoped ones; that two windows name one buffer
    does not matter, the buffers being taken as a set. -/
theorem held_eq_arrBufs4 (W : Valuation τ sig (Elt F)) :
    (StableHlo.held (c : Thread nD τ) (Pipeline.ucRefs τ sig) W : sProp 𝕄)
      = iprop(Pipeline.arrBufs spec4 c (fun b => W b) ∗ Pipeline.unscopedRest spec4 c (fun b => W b)) := by
  rw [← Pipeline.unscopedBufs_held]
  exact Pipeline.PerCore.unscopedBufs_split₀ (P := Unit) (fun _ _ => cfg4) () c winFacts₀4.arr_unscoped _

/-- The buffers behind the arrays, one by one: six buffers for seven windows. -/
theorem arrBufs4_eq (V : (b : Ref sig .tc) → Buf (Elt F) ((c : Thread nD τ).loc b)) :
    (Pipeline.arrBufs spec4 c V : sProp 𝕄)
      = iprop((((c : Thread nD τ).loc main_v58) ↦{fullShare} V main_v58)
          ∗ (((c : Thread nD τ).loc main_v59) ↦{fullShare} V main_v59)
          ∗ (((c : Thread nD τ).loc main_v38) ↦{fullShare} V main_v38)
          ∗ (((c : Thread nD τ).loc main_v40) ↦{fullShare} V main_v40)
          ∗ (((c : Thread nD τ).loc main_v42) ↦{fullShare} V main_v42)
          ∗ (((c : Thread nD τ).loc main_v60) ↦{fullShare} V main_v60)) := by
  unfold Pipeline.arrBufs
  exact bigSep_eq_bigSepL_of_eq [main_v58, main_v59, main_v38, main_v40, main_v42, main_v60] (by decide) (by decide) _

/-- The windows' arrays at contents read off `V`, window by window: every array is a whole buffer, held at the
    window's share. -/
theorem arrays4_eq (V : (b : Ref sig .tc) → Buf (Elt F) ((c : Thread nD τ).loc b))
    (G : (w : Fin cfg4.W) → Buf (Elt F) ((cfg4.win w).arr.view.loc (c : Thread nD τ))) (hG : ∀ w, G w = V (Pipeline.arrRef spec4 w)) :
    (dat.arrays G : sProp 𝕄)
      = bigSep Finset.univ fun w : Fin cfg4.W => (((c : Thread nD τ).loc (Pipeline.arrRef spec4 w)) ↦{dat.share w} V (Pipeline.arrRef spec4 w) : sProp 𝕄) := by
  unfold Dat.arrays
  exact bigSep_congr fun w _ => by rw [(arr_whole4 w).set_eq_univ, hG]

/-- The only output window is neither of the two that share a buffer. -/
theorem out4_ne : ∀ w : Fin cfg4.W, (cfg4.win w).isOut = true → w ≠ 0 ∧ w ≠ 5 := by decide

/-- The share every window holds its array at is `q4`'s: an input window's by definition, and the output window's full
    share is what `q4` says of a window that is neither 0 nor 5. -/
theorem share4_eq (hq : dat.q = q4) : dat.share = q4 := by
  funext w
  unfold Dat.share
  split
  · next h => unfold q4; rw [if_neg (out4_ne w h).1, if_neg (out4_ne w h).2]
  · rw [hq]

/-- The windows' arrays as a chain: the shared buffer appears twice, at the left half (window 0) and at the right
    half (window 5). -/
theorem arrays4_chain (hq : dat.q = q4) (V : (b : Ref sig .tc) → Buf (Elt F) ((c : Thread nD τ).loc b))
    (G : (w : Fin cfg4.W) → Buf (Elt F) ((cfg4.win w).arr.view.loc (c : Thread nD τ))) (hG : ∀ w, G w = V (Pipeline.arrRef spec4 w)) :
    (dat.arrays G : sProp 𝕄)
      = iprop((((c : Thread nD τ).loc main_v58) ↦{fullShare.left} V main_v58)
          ∗ (((c : Thread nD τ).loc main_v59) ↦{fullShare} V main_v59)
          ∗ (((c : Thread nD τ).loc main_v38) ↦{fullShare} V main_v38)
          ∗ (((c : Thread nD τ).loc main_v40) ↦{fullShare} V main_v40)
          ∗ (((c : Thread nD τ).loc main_v42) ↦{fullShare} V main_v42)
          ∗ (((c : Thread nD τ).loc main_v58) ↦{fullShare.right} V main_v58)
          ∗ (((c : Thread nD τ).loc main_v60) ↦{fullShare} V main_v60)) := by
  rw [arrays4_eq dat V G hG, share4_eq dat hq]
  exact bigSep_W4 _

/-- The windows' arrays at contents read off `V` ARE the buffers behind them, each whole at the full share at `V`:
    the two halves of the shared buffer's points-to make the whole one, and back. -/
theorem arrays4_iff (hq : dat.q = q4) (V : (b : Ref sig .tc) → Buf (Elt F) ((c : Thread nD τ).loc b))
    (G : (w : Fin cfg4.W) → Buf (Elt F) ((cfg4.win w).arr.view.loc (c : Thread nD τ))) (hG : ∀ w, G w = V (Pipeline.arrRef spec4 w)) :
    (dat.arrays G : sProp 𝕄) ⊣⊢ Pipeline.arrBufs spec4 c V := by
  rw [arrays4_chain dat hq V G hG, arrBufs4_eq]
  constructor
  · iintro ⟨H0, H1, H2, H3, Hd, H5, H6⟩
    isplitl [H0 H5]
    · iapply (pointsTo_share (PosShare.mem_left_op_right fullShare)).2
      isplitl [H0]; · iexact H0
      iexact H5
    isplitl [H1]; · iexact H1
    isplitl [H2]; · iexact H2
    isplitl [H3]; · iexact H3
    isplitl [Hd]; · iexact Hd
    iexact H6
  · iintro ⟨Ha, H1, H2, H3, Hd, H6⟩
    ihave H := (pointsTo_share (PosShare.mem_left_op_right fullShare)).1 $$ Ha
    icases H with ⟨H0, H5⟩
    isplitl [H0]; · iexact H0
    isplitl [H1]; · iexact H1
    isplitl [H2]; · iexact H2
    isplitl [H3]; · iexact H3
    isplitl [Hd]; · iexact Hd
    isplitl [H5]; · iexact H5
    iexact H6

/-- ENTRY, the arrays' part: the core's unscoped buffers, each whole at the entry contents `Vin`, are the windows'
    arrays at the proof data's entry contents (read off `Vin`: `hA`), the shared buffer halved between its two
    windows, and the unscoped rest at `Vin`. -/
theorem entry4 (Vin : Valuation τ sig (Elt F))
    (hA : ∀ w, dat.A w = Vin (Pipeline.arrRef spec4 w)) (hq : dat.q = q4) :
    (StableHlo.held (c : Thread nD τ) (Pipeline.ucRefs τ sig) Vin : sProp 𝕄)
      ⊢ iprop(dat.arrays (dat.arrAt · 0) ∗ Pipeline.unscopedRest spec4 c (fun b => Vin b)) := by
  rw [held_eq_arrBufs4]
  exact sep_mono (arrays4_iff dat hq (fun b => Vin b) (dat.arrAt · 0) hA).2 .rfl

/-- EXIT, the arrays' part: the windows' arrays at their final contents and the unscoped rest at `Vin` are the core's
    unscoped buffers at any valuation `Vout` that has the arrays at those contents (`hF`) and agrees with `Vin` off
    them (`hrest`). -/
theorem exit4 (Vin Vout : Valuation τ sig (Elt F)) (hq : dat.q = q4)
    (hF : ∀ w, dat.arrAt w cfg4.N = Vout (Pipeline.arrRef spec4 w))
    (hrest : ∀ b : Ref sig .tc, b ∉ Finset.univ.image (Pipeline.arrRef spec4) → Vout b = Vin b) :
    iprop(dat.arrays (dat.arrAt · cfg4.N) ∗ Pipeline.unscopedRest spec4 c (fun b => Vin b))
      ⊢ (StableHlo.held (c : Thread nD τ) (Pipeline.ucRefs τ sig) Vout : sProp 𝕄) := by
  rw [held_eq_arrBufs4]
  refine sep_mono (arrays4_iff dat hq (fun b => Vout b) (dat.arrAt · cfg4.N) hF).1 (Entails.of_eq ?_)
  unfold Pipeline.unscopedRest
  exact bigSep_congr fun b hb => by dsimp only; rw [hrest b (Finset.mem_sdiff.mp hb).2]

end Shared

end Cert.Kernel.Gen

end
-- ==== Proof.KB.Seg4.lean ====
import proofs.«167047_j26895085207995_2_alg».proof.Proof.KB.Fold
import proofs.«167047_j26895085207995_2_alg».proof.Proof.KB.Rec4

/-! Region 4 of the program as a segment of its run: the kernel region entered from the boundary contents before it
    and left at the boundary contents after it.

    At entry the core holds every unscoped buffer at the entry contents, beside its generator register and its (empty)
    debts. The region's arrays — the windows' arrays, whole buffers — are sorted out of the unscoped buffers. Two of the
    input windows are handed ONE array, so the buffer behind it is held in two halves, one per window; every other
    window has its array whole. The generator register goes into the pipeline's invariant — which also carries, from
    one grid point to the next, the two scratch buffers the kernel accumulates in — and comes back out of it at the
    last point. At exit the two halves are joined and the arrays are put back among the unscoped buffers. The exit
    contents are the entry contents UPDATED at the output window's array, which holds what the pipeline's write-backs
    leave there; every input window's array holds what it held (a pipeline never writes an input's array), and no
    other buffer is touched. These two facts (`hF4`, `hrest4`) are what putting the arrays back needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix4 : Fin 10 := 4
/-- The boundary contents the region is entered from, -/
abbrev Ein4 : Dev nD → Valuation τ sig (Elt F) := B8 m
/-- and those it is left at. -/
abbrev Eout4 : Dev nD → Valuation τ sig (Elt F) := B9 m
/-- The output window, -/
abbrev owin4 : Fin cfg4.W := 6
/-- and its array. -/
abbrev oref4 : Ref sig .tc := main_v60

/-- The exit contents are the entry contents updated at the output array, with what the pipeline's write-backs leave
    there after the last grid point. -/
theorem Eout4_eq (c : Dev nD) :
    Eout4 m c = Function.update (Ein4 m c) (Proc.devRef .tc oref4) ((dat4 (atTc (Ein4 m)) c).arrAt owin4 cfg4.N) := rfl

/-! ## The exit contents at the region's arrays and off them -/

/-- At exit each of the region's arrays holds what the pipeline leaves in it: the output's array by the update; an
    input's array is never written, so it holds its entry contents, which the update (at another reference) keeps.
    The two input windows that are handed one array both read that array's entry contents. -/
theorem hF4 (c : Dev nD) (w : Fin cfg4.W) :
    (dat4 (atTc (Ein4 m)) c).arrAt w cfg4.N = atTc (Eout4 m) c (Pipeline.arrRef spec4 w) := by
  by_cases hw : w = owin4
  · subst hw
    show _ = Eout4 m c (Proc.devRef .tc oref4)
    rw [Eout4_eq, Function.update_self]
  · have hin : (cfg4.win w).isOut = false :=
      (by decide : ∀ w : Fin cfg4.W, w ≠ owin4 → (cfg4.win w).isOut = false) w hw
    have hne : Pipeline.arrRef spec4 w ≠ oref4 :=
      (by decide : ∀ w : Fin cfg4.W, w ≠ owin4 → Pipeline.arrRef spec4 w ≠ oref4) w hw
    refine (((dat4 (atTc (Ein4 m)) c).arrAt_in w hin _).trans (A_eq4 (atTc (Ein4 m)) c w)).trans ?_
    show Ein4 m c (Proc.devRef .tc (Pipeline.arrRef spec4 w)) = Eout4 m c (Proc.devRef .tc (Pipeline.arrRef spec4 w))
    rw [Eout4_eq]
    exact (Function.update_of_ne (StableHlo.devRef_ne_of_ne hne) _ _).symm

/-- Off the region's arrays the exit contents are the entry contents: the update is at one of the arrays. -/
theorem hrest4 (c : Dev nD) : ∀ b, b ∉ Finset.univ.image (Pipeline.arrRef spec4) → atTc (Eout4 m) c b = atTc (Ein4 m) c b := by
  intro b hb
  have hne : b ≠ oref4 := fun e => hb (Finset.mem_image.mpr ⟨owin4, Finset.mem_univ _, e.symm⟩)
  show Eout4 m c (Proc.devRef .tc b) = Ein4 m c (Proc.devRef .tc b)
  rw [Eout4_eq]
  exact Function.update_of_ne (StableHlo.devRef_ne_of_ne hne) _ _

/-! ## The region as a segment -/

set_option backward.isDefEq.respectTransparency.types false in
/-- The region over the thread state: entered from every unscoped buffer at the entry contents, left at the exit
    contents (what the next segment is entered from). Its arrays are sorted out of the unscoped buffers — the buffer
    two windows are handed is held in two halves, one per window — and put back, the halves joined, at the exit
    contents; the generator register goes into the pipeline's invariant, which also carries the two scratches from
    grid point to grid point, and comes out of it; nothing owed; no semaphore of the kernel's own. -/
def reg4 : Pipeline.RegionSeg (pcfgs (F := F)) adm (pdats m) () defs₀ 𝒱₀ L lv pix4 where
  win := winFacts₀4
  block_pos := block_pos4
  stage_whole := stage_whole4
  K := PEmpty
  osem k := k.elim
  ho := Pipeline.OwnSemFacts.none _
  hbody c := (body_obligation4 (atTc (Ein4 m)) c).loose
  hwaits := Pipeline.hwaits_of_owed_zero _ _ _ _ L lv pix4 fun _ _ => rfl
  pre c := iprop(StableHlo.held (c : Thread nD τ) (Pipeline.ucRefs τ sig) (Ein4 m c) ∗ R c)
  post c := iprop(StableHlo.held (c : Thread nD τ) (Pipeline.ucRefs τ sig) (Eout4 m c) ∗ R c)
  X c := iprop(∃ r, prngReg c r)
  Y c := iprop(∃ r, prngReg c r)
  Z c := Pipeline.unscopedRest (Ix := Unit) (Name := ℕ) (U := UR sig nD τ) (Lvl := ℕ) spec4 c (atTc (Ein4 m) c)
  hentry c := by
    rw [Pipeline.ownSems0_none]
    have hsplit := entry4 (pdats m pix4 c) (Ein4 m c) (A_eq4 (atTc (Ein4 m)) c) rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix4 c).Φ 0 = (dat4 (atTc (Ein4 m)) c).Φ 0 from rfl]
    iintro ⟨Hp, -, Hr⟩
    iapply hin4 (atTc (Ein4 m)) c
    isplitl [Hp]; · iexact Hp
    iexact Hr
  hout c := by
    rw [Pipeline.ownSems0_none]
    refine (hout4 (atTc (Ein4 m)) c).trans ?_
    iintro ⟨Hp, Hr⟩
    isplitl [Hp]; · iexact Hp
    isplitr; · iempintro
    iexact Hr
  hexit c := by
    have hjoin := exit4 (pdats m pix4 c) (Ein4 m c) (Eout4 m c) rfl (hF4 m c) (hrest4 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg5.lean ====
import proofs.«167047_j26895085207995_2_alg».proof.Proof.KB.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF5`, `hrest5`) are what putting the arrays back
    needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix5 : Fin 10 := 5
/-- The boundary contents the region is entered from, -/
abbrev Ein5 : Dev nD → Valuation τ sig (Elt F) := B10 m
/-- and those it is left at. -/
abbrev Eout5 : Dev nD → Valuation τ sig (Elt F) := B11 m
/-- The output window, -/
abbrev owin5 : Fin cfg5.W := 3
/-- and its array. -/
abbrev oref5 : Ref sig .tc := main_v83

/-- The exit contents are the entry contents updated at the output array, with what the pipeline's write-backs leave
    there after the last grid point. -/
theorem Eout5_eq (c : Dev nD) :
    Eout5 m c = Function.update (Ein5 m c) (Proc.devRef .tc oref5) ((dat5 (atTc (Ein5 m)) c).arrAt owin5 cfg5.N) := rfl

/-! ## The exit contents at the region's arrays and off them -/

/-- At exit each of the region's arrays holds what the pipeline leaves in it: the output's array by the update; an
    input's array is never written, so it holds its entry contents, which the update (at another reference) keeps. -/
theorem hF5 (c : Dev nD) (w : Fin cfg5.W) :
    (dat5 (atTc (Ein5 m)) c).arrAt w cfg5.N = atTc (Eout5 m) c (Pipeline.arrRef spec5 w) := by
  by_cases hw : w = owin5
  · subst hw
    show _ = Eout5 m c (Proc.devRef .tc oref5)
    rw [Eout5_eq, Function.update_self]
  · have hin : (cfg5.win w).isOut = false :=
      (by decide : ∀ w : Fin cfg5.W, w ≠ owin5 → (cfg5.win w).isOut = false) w hw
    have hne : Pipeline.arrRef spec5 w ≠ oref5 :=
      (by decide : ∀ w : Fin cfg5.W, w ≠ owin5 → Pipeline.arrRef spec5 w ≠ oref5) w hw
    refine (((dat5 (atTc (Ein5 m)) c).arrAt_in w hin _).trans (A_eq5 (atTc (Ein5 m)) c w)).trans ?_
    show Ein5 m c (Proc.devRef .tc (Pipeline.arrRef spec5 w)) = Eout5 m c (Proc.devRef .tc (Pipeline.arrRef spec5 w))
    rw [Eout5_eq]
    exact (Function.update_of_ne (StableHlo.devRef_ne_of_ne hne) _ _).symm

/-- Off the region's arrays the exit contents are the entry contents: the update is at one of the arrays. -/
theorem hrest5 (c : Dev nD) : ∀ b, b ∉ Finset.univ.image (Pipeline.arrRef spec5) → atTc (Eout5 m) c b = atTc (Ein5 m) c b := by
  intro b hb
  have hne : b ≠ oref5 := fun e => hb (Finset.mem_image.mpr ⟨owin5, Finset.mem_univ _, e.symm⟩)
  show Eout5 m c (Proc.devRef .tc b) = Ein5 m c (Proc.devRef .tc b)
  rw [Eout5_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg5 : Pipeline.RegionSeg (pcfgs (F := F)) adm (pdats m) () defs₀ 𝒱₀ L lv pix5 where
  win := launch5.win.to₀
  block_pos := launch5.block_pos
  stage_whole := launch5.stage_whole
  K := PEmpty
  osem k := k.elim
  ho := Pipeline.OwnSemFacts.none _
  hbody c := (body_obligation5 (atTc (Ein5 m)) c).loose
  hwaits := Pipeline.hwaits_of_owed_zero _ _ _ _ L lv pix5 fun _ _ => rfl
  pre c := iprop(StableHlo.held (c : Thread nD τ) (Pipeline.ucRefs τ sig) (Ein5 m c) ∗ R c)
  post c := iprop(StableHlo.held (c : Thread nD τ) (Pipeline.ucRefs τ sig) (Eout5 m c) ∗ R c)
  X c := iprop(∃ r, prngReg c r)
  Y c := iprop(∃ r, prngReg c r)
  Z c := Pipeline.unscopedRest (Ix := Unit) (Name := ℕ) (U := UR sig nD τ) (Lvl := ℕ) spec5 c (atTc (Ein5 m) c)
  hentry c := by
    rw [Pipeline.ownSems0_none]
    have hsplit := Pipeline.arrays_of_unscopedBufs (p := pix5) (pcfgs (F := F)) adm (pdats m) launch5.win launch5.arr_whole c
      ((pdats m pix5 c).share_full fun _ => rfl) (atTc (Ein5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m pix5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := pix5) (pcfgs (F := F)) adm (Ix := Unit) (Name := ℕ) (U := UR sig nD τ) (Lvl := ℕ)
      launch5.win launch5.arr_whole c (pdats m) ((pdats m pix5 c).share_full fun _ => rfl)
      (atTc (Ein5 m) c) (atTc (Eout5 m) c) ((pdats m pix5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg6.lean ====
import proofs.«167047_j26895085207995_2_alg».proof.Proof.KB.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF6`, `hrest6`) are what putting the arrays back
    needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix6 : Fin 10 := 6
/-- The boundary contents the region is entered from, -/
abbrev Ein6 : Dev nD → Valuation τ sig (Elt F) := B12 m
/-- and those it is left at. -/
abbrev Eout6 : Dev nD → Valuation τ sig (Elt F) := B13 m
/-- The output window, -/
abbrev owin6 : Fin cfg6.W := 3
/-- and its array. -/
abbrev oref6 : Ref sig .tc := main_v93

/-- The exit contents are the entry contents updated at the output array, with what the pipeline's write-backs leave
    there after the last grid point. -/
theorem Eout6_eq (c : Dev nD) :
    Eout6 m c = Function.update (Ein6 m c) (Proc.devRef .tc oref6) ((dat6 (atTc (Ein6 m)) c).arrAt owin6 cfg6.N) := rfl

/-! ## The exit contents at the region's arrays and off them -/

/-- At exit each of the region's arrays holds what the pipeline leaves in it: the output's array by the update; an
    input's array is never written, so it holds its entry contents, which the update (at another reference) keeps. -/
theorem hF6 (c : Dev nD) (w : Fin cfg6.W) :
    (dat6 (atTc (Ein6 m)) c).arrAt w cfg6.N = atTc (Eout6 m) c (Pipeline.arrRef spec6 w) := by
  by_cases hw : w = owin6
  · subst hw
    show _ = Eout6 m c (Proc.devRef .tc oref6)
    rw [Eout6_eq, Function.update_self]
  · have hin : (cfg6.win w).isOut = false :=
      (by decide : ∀ w : Fin cfg6.W, w ≠ owin6 → (cfg6.win w).isOut = false) w hw
    have hne : Pipeline.arrRef spec6 w ≠ oref6 :=
      (by decide : ∀ w : Fin cfg6.W, w ≠ owin6 → Pipeline.arrRef spec6 w ≠ oref6) w hw
    refine (((dat6 (atTc (Ein6 m)) c).arrAt_in w hin _).trans (A_eq6 (atTc (Ein6 m)) c w)).trans ?_
    show Ein6 m c (Proc.devRef .tc (Pipeline.arrRef spec6 w)) = Eout6 m c (Proc.devRef .tc (Pipeline.arrRef spec6 w))
    rw [Eout6_eq]
    exact (Function.update_of_ne (StableHlo.devRef_ne_of_ne hne) _ _).symm

/-- Off the region's arrays the exit contents are the entry contents: the update is at one of the arrays. -/
theorem hrest6 (c : Dev nD) : ∀ b, b ∉ Finset.univ.image (Pipeline.arrRef spec6) → atTc (Eout6 m) c b = atTc (Ein6 m) c b := by
  intro b hb
  have hne : b ≠ oref6 := fun e => hb (Finset.mem_image.mpr ⟨owin6, Finset.mem_univ _, e.symm⟩)
  show Eout6 m c (Proc.devRef .tc b) = Ein6 m c (Proc.devRef .tc b)
  rw [Eout6_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg6 : Pipeline.RegionSeg (pcfgs (F := F)) adm (pdats m) () defs₀ 𝒱₀ L lv pix6 where
  win := launch6.win.to₀
  block_pos := launch6.block_pos
  stage_whole := launch6.stage_whole
  K := PEmpty
  osem k := k.elim
  ho := Pipeline.OwnSemFacts.none _
  hbody c := (body_obligation6 (atTc (Ein6 m)) c).loose
  hwaits := Pipeline.hwaits_of_owed_zero _ _ _ _ L lv pix6 fun _ _ => rfl
  pre c := iprop(StableHlo.held (c : Thread nD τ) (Pipeline.ucRefs τ sig) (Ein6 m c) ∗ R c)
  post c := iprop(StableHlo.held (c : Thread nD τ) (Pipeline.ucRefs τ sig) (Eout6 m c) ∗ R c)
  X c := iprop(∃ r, prngReg c r)
  Y c := iprop(∃ r, prngReg c r)
  Z c := Pipeline.unscopedRest (Ix := Unit) (Name := ℕ) (U := UR sig nD τ) (Lvl := ℕ) spec6 c (atTc (Ein6 m) c)
  hentry c := by
    rw [Pipeline.ownSems0_none]
    have hsplit := Pipeline.arrays_of_unscopedBufs (p := pix6) (pcfgs (F := F)) adm (pdats m) launch6.win launch6.arr_whole c
      ((pdats m pix6 c).share_full fun _ => rfl) (atTc (Ein6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m pix6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := pix6) (pcfgs (F := F)) adm (Ix := Unit) (Name := ℕ) (U := UR sig nD τ) (Lvl := ℕ)
      launch6.win launch6.arr_whole c (pdats m) ((pdats m pix6 c).share_full fun _ => rfl)
      (atTc (Ein6 m) c) (atTc (Eout6 m) c) ((pdats m pix6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg7.lean ====
import proofs.«167047_j26895085207995_2_alg».proof.Proof.KB.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF7`, `hrest7`) are what putting the arrays back
    needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix7 : Fin 10 := 7
/-- The boundary contents the region is entered from, -/
abbrev Ein7 : Dev nD → Valuation τ sig (Elt F) := B13 m
/-- and those it is left at. -/
abbrev Eout7 : Dev nD → Valuation τ sig (Elt F) := B14 m
/-- The output window, -/
abbrev owin7 : Fin cfg7.W := 6
/-- and its array. -/
abbrev oref7 : Ref sig .tc := main_v94

/-- The exit contents are the entry contents updated at the output array, with what the pipeline's write-backs leave
    there after the last grid point. -/
theorem Eout7_eq (c : Dev nD) :
    Eout7 m c = Function.update (Ein7 m c) (Proc.devRef .tc oref7) ((dat7 (atTc (Ein7 m)) c).arrAt owin7 cfg7.N) := rfl

/-! ## The exit contents at the region's arrays and off them -/

/-- At exit each of the region's arrays holds what the pipeline leaves in it: the output's array by the update; an
    input's array is never written, so it holds its entry contents, which the update (at another reference) keeps. -/
theorem hF7 (c : Dev nD) (w : Fin cfg7.W) :
    (dat7 (atTc (Ein7 m)) c).arrAt w cfg7.N = atTc (Eout7 m) c (Pipeline.arrRef spec7 w) := by
  by_cases hw : w = owin7
  · subst hw
    show _ = Eout7 m c (Proc.devRef .tc oref7)
    rw [Eout7_eq, Function.update_self]
  · have hin : (cfg7.win w).isOut = false :=
      (by decide : ∀ w : Fin cfg7.W, w ≠ owin7 → (cfg7.win w).isOut = false) w hw
    have hne : Pipeline.arrRef spec7 w ≠ oref7 :=
      (by decide : ∀ w : Fin cfg7.W, w ≠ owin7 → Pipeline.arrRef spec7 w ≠ oref7) w hw
    refine (((dat7 (atTc (Ein7 m)) c).arrAt_in w hin _).trans (A_eq7 (atTc (Ein7 m)) c w)).trans ?_
    show Ein7 m c (Proc.devRef .tc (Pipeline.arrRef spec7 w)) = Eout7 m c (Proc.devRef .tc (Pipeline.arrRef spec7 w))
    rw [Eout7_eq]
    exact (Function.update_of_ne (StableHlo.devRef_ne_of_ne hne) _ _).symm

/-- Off the region's arrays the exit contents are the entry contents: the update is at one of the arrays. -/
theorem hrest7 (c : Dev nD) : ∀ b, b ∉ Finset.univ.image (Pipeline.arrRef spec7) → atTc (Eout7 m) c b = atTc (Ein7 m) c b := by
  intro b hb
  have hne : b ≠ oref7 := fun e => hb (Finset.mem_image.mpr ⟨owin7, Finset.mem_univ _, e.symm⟩)
  show Eout7 m c (Proc.devRef .tc b) = Ein7 m c (Proc.devRef .tc b)
  rw [Eout7_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg7 : Pipeline.RegionSeg (pcfgs (F := F)) adm (pdats m) () defs₀ 𝒱₀ L lv pix7 where
  win := launch7.win.to₀
  block_pos := launch7.block_pos
  stage_whole := launch7.stage_whole
  K := PEmpty
  osem k := k.elim
  ho := Pipeline.OwnSemFacts.none _
  hbody c := (body_obligation7 (atTc (Ein7 m)) c).loose
  hwaits := Pipeline.hwaits_of_owed_zero _ _ _ _ L lv pix7 fun _ _ => rfl
  pre c := iprop(StableHlo.held (c : Thread nD τ) (Pipeline.ucRefs τ sig) (Ein7 m c) ∗ R c)
  post c := iprop(StableHlo.held (c : Thread nD τ) (Pipeline.ucRefs τ sig) (Eout7 m c) ∗ R c)
  X c := iprop(∃ r, prngReg c r)
  Y c := iprop(∃ r, prngReg c r)
  Z c := Pipeline.unscopedRest (Ix := Unit) (Name := ℕ) (U := UR sig nD τ) (Lvl := ℕ) spec7 c (atTc (Ein7 m) c)
  hentry c := by
    rw [Pipeline.ownSems0_none]
    have hsplit := Pipeline.arrays_of_unscopedBufs (p := pix7) (pcfgs (F := F)) adm (pdats m) launch7.win launch7.arr_whole c
      ((pdats m pix7 c).share_full fun _ => rfl) (atTc (Ein7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m pix7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := pix7) (pcfgs (F := F)) adm (Ix := Unit) (Name := ℕ) (U := UR sig nD τ) (Lvl := ℕ)
      launch7.win launch7.arr_whole c (pdats m) ((pdats m pix7 c).share_full fun _ => rfl)
      (atTc (Ein7 m) c) (atTc (Eout7 m) c) ((pdats m pix7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg8.lean ====
import proofs.«167047_j26895085207995_2_alg».proof.Proof.KB.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF8`, `hrest8`) are what putting the arrays back
    needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix8 : Fin 10 := 8
/-- The boundary contents the region is entered from, -/
abbrev Ein8 : Dev nD → Valuation τ sig (Elt F) := B15 m
/-- and those it is left at. -/
abbrev Eout8 : Dev nD → Valuation τ sig (Elt F) := B16 m
/-- The output window, -/
abbrev owin8 : Fin cfg8.W := 3
/-- and its array. -/
abbrev oref8 : Ref sig .tc := main_v97

/-- The exit contents are the entry contents updated at the output array, with what the pipeline's write-backs leave
    there after the last grid point. -/
theorem Eout8_eq (c : Dev nD) :
    Eout8 m c = Function.update (Ein8 m c) (Proc.devRef .tc oref8) ((dat8 (atTc (Ein8 m)) c).arrAt owin8 cfg8.N) := rfl

/-! ## The exit contents at the region's arrays and off them -/

/-- At exit each of the region's arrays holds what the pipeline leaves in it: the output's array by the update; an
    input's array is never written, so it holds its entry contents, which the update (at another reference) keeps. -/
theorem hF8 (c : Dev nD) (w : Fin cfg8.W) :
    (dat8 (atTc (Ein8 m)) c).arrAt w cfg8.N = atTc (Eout8 m) c (Pipeline.arrRef spec8 w) := by
  by_cases hw : w = owin8
  · subst hw
    show _ = Eout8 m c (Proc.devRef .tc oref8)
    rw [Eout8_eq, Function.update_self]
  · have hin : (cfg8.win w).isOut = false :=
      (by decide : ∀ w : Fin cfg8.W, w ≠ owin8 → (cfg8.win w).isOut = false) w hw
    have hne : Pipeline.arrRef spec8 w ≠ oref8 :=
      (by decide : ∀ w : Fin cfg8.W, w ≠ owin8 → Pipeline.arrRef spec8 w ≠ oref8) w hw
    refine (((dat8 (atTc (Ein8 m)) c).arrAt_in w hin _).trans (A_eq8 (atTc (Ein8 m)) c w)).trans ?_
    show Ein8 m c (Proc.devRef .tc (Pipeline.arrRef spec8 w)) = Eout8 m c (Proc.devRef .tc (Pipeline.arrRef spec8 w))
    rw [Eout8_eq]
    exact (Function.update_of_ne (StableHlo.devRef_ne_of_ne hne) _ _).symm

/-- Off the region's arrays the exit contents are the entry contents: the update is at one of the arrays. -/
theorem hrest8 (c : Dev nD) : ∀ b, b ∉ Finset.univ.image (Pipeline.arrRef spec8) → atTc (Eout8 m) c b = atTc (Ein8 m) c b := by
  intro b hb
  have hne : b ≠ oref8 := fun e => hb (Finset.mem_image.mpr ⟨owin8, Finset.mem_univ _, e.symm⟩)
  show Eout8 m c (Proc.devRef .tc b) = Ein8 m c (Proc.devRef .tc b)
  rw [Eout8_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg8 : Pipeline.RegionSeg (pcfgs (F := F)) adm (pdats m) () defs₀ 𝒱₀ L lv pix8 where
  win := launch8.win.to₀
  block_pos := launch8.block_pos
  stage_whole := launch8.stage_whole
  K := PEmpty
  osem k := k.elim
  ho := Pipeline.OwnSemFacts.none _
  hbody c := (body_obligation8 (atTc (Ein8 m)) c).loose
  hwaits := Pipeline.hwaits_of_owed_zero _ _ _ _ L lv pix8 fun _ _ => rfl
  pre c := iprop(StableHlo.held (c : Thread nD τ) (Pipeline.ucRefs τ sig) (Ein8 m c) ∗ R c)
  post c := iprop(StableHlo.held (c : Thread nD τ) (Pipeline.ucRefs τ sig) (Eout8 m c) ∗ R c)
  X c := iprop(∃ r, prngReg c r)
  Y c := iprop(∃ r, prngReg c r)
  Z c := Pipeline.unscopedRest (Ix := Unit) (Name := ℕ) (U := UR sig nD τ) (Lvl := ℕ) spec8 c (atTc (Ein8 m) c)
  hentry c := by
    rw [Pipeline.ownSems0_none]
    have hsplit := Pipeline.arrays_of_unscopedBufs (p := pix8) (pcfgs (F := F)) adm (pdats m) launch8.win launch8.arr_whole c
      ((pdats m pix8 c).share_full fun _ => rfl) (atTc (Ein8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m pix8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := pix8) (pcfgs (F := F)) adm (Ix := Unit) (Name := ℕ) (U := UR sig nD τ) (Lvl := ℕ)
      launch8.win launch8.arr_whole c (pdats m) ((pdats m pix8 c).share_full fun _ => rfl)
      (atTc (Ein8 m) c) (atTc (Eout8 m) c) ((pdats m pix8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Rec9.lean ====
import proofs.«167047_j26895085207995_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the decided enumeration of the arrays' buffers recurses once per reference
set_option maxRecDepth 16000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region entry and exit when two input windows are handed one array

The kernel of this region reads one array through two input windows (windows 0 and 5). The buffers behind the seven
windows' arrays are therefore six, and the points-to of the shared buffer cannot be given whole to both windows: its
full share is halved, one half to each. Every other input window holds its array at the full share, and so does the
output window. At the region's entry the core's unscoped buffers, each whole at the entry contents, are sorted into the
windows' arrays at these shares and the buffers that bypass the region; at the exit the two halves are joined again and
the arrays are put back among the unscoped buffers at the exit contents. -/

/-- The share of each input window's array: the buffer behind windows 0 and 5 is one, read by both, so its full
    share is halved between them; every other input window has its array to itself. -/
def q9 : Fin cfg9.W → PosShare TreeShare :=
  fun w => if w = 0 then fullShare.left else if w = 5 then fullShare.right else fullShare

section Shared

variable {c : Dev nD} (dat : Dat τ (Elt F) Unit ℕ (UR sig nD τ) ℕ cfg9 c)

/-- Every unscoped buffer of the core, whole at `W`, is the buffers behind the windows' arrays at `W` and the rest at
    `W`: the arrays are unscoped, so their buffers are a subset of the unscoped ones; that two windows name one buffer
    does not matter, the buffers being taken as a set. -/
theorem held_eq_arrBufs9 (W : Valuation τ sig (Elt F)) :
    (StableHlo.held (c : Thread nD τ) (Pipeline.ucRefs τ sig) W : sProp 𝕄)
      = iprop(Pipeline.arrBufs spec9 c (fun b => W b) ∗ Pipeline.unscopedRest spec9 c (fun b => W b)) := by
  rw [← Pipeline.unscopedBufs_held]
  exact Pipeline.PerCore.unscopedBufs_split₀ (P := Unit) (fun _ _ => cfg9) () c winFacts₀9.arr_unscoped _

/-- The buffers behind the arrays, one by one: six buffers for seven windows. -/
theorem arrBufs9_eq (V : (b : Ref sig .tc) → Buf (Elt F) ((c : Thread nD τ).loc b)) :
    (Pipeline.arrBufs spec9 c V : sProp 𝕄)
      = iprop((((c : Thread nD τ).loc main_v97) ↦{fullShare} V main_v97)
          ∗ (((c : Thread nD τ).loc main_v98) ↦{fullShare} V main_v98)
          ∗ (((c : Thread nD τ).loc main_v77) ↦{fullShare} V main_v77)
          ∗ (((c : Thread nD τ).loc main_v79) ↦{fullShare} V main_v79)
          ∗ (((c : Thread nD τ).loc main_v81) ↦{fullShare} V main_v81)
          ∗ (((c : Thread nD τ).loc main_v99) ↦{fullShare} V main_v99)) := by
  unfold Pipeline.arrBufs
  exact bigSep_eq_bigSepL_of_eq [main_v97, main_v98, main_v77, main_v79, main_v81, main_v99] (by decide) (by decide) _

/-- The windows' arrays at contents read off `V`, window by window: every array is a whole buffer, held at the
    window's share. -/
theorem arrays9_eq (V : (b : Ref sig .tc) → Buf (Elt F) ((c : Thread nD τ).loc b))
    (G : (w : Fin cfg9.W) → Buf (Elt F) ((cfg9.win w).arr.view.loc (c : Thread nD τ))) (hG : ∀ w, G w = V (Pipeline.arrRef spec9 w)) :
    (dat.arrays G : sProp 𝕄)
      = bigSep Finset.univ fun w : Fin cfg9.W => (((c : Thread nD τ).loc (Pipeline.arrRef spec9 w)) ↦{dat.share w} V (Pipeline.arrRef spec9 w) : sProp 𝕄) := by
  unfold Dat.arrays
  exact bigSep_congr fun w _ => by rw [(arr_whole9 w).set_eq_univ, hG]

/-- The only output window is neither of the two that share a buffer. -/
theorem out9_ne : ∀ w : Fin cfg9.W, (cfg9.win w).isOut = true → w ≠ 0 ∧ w ≠ 5 := by decide

/-- The share every window holds its array at is `q9`'s: an input window's by definition, and the output window's full
    share is what `q9` says of a window that is neither 0 nor 5. -/
theorem share9_eq (hq : dat.q = q9) : dat.share = q9 := by
  funext w
  unfold Dat.share
  split
  · next h => unfold q9; rw [if_neg (out9_ne w h).1, if_neg (out9_ne w h).2]
  · rw [hq]

/-- The windows' arrays as a chain: the shared buffer appears twice, at the left half (window 0) and at the right
    half (window 5). -/
theorem arrays9_chain (hq : dat.q = q9) (V : (b : Ref sig .tc) → Buf (Elt F) ((c : Thread nD τ).loc b))
    (G : (w : Fin cfg9.W) → Buf (Elt F) ((cfg9.win w).arr.view.loc (c : Thread nD τ))) (hG : ∀ w, G w = V (Pipeline.arrRef spec9 w)) :
    (dat.arrays G : sProp 𝕄)
      = iprop((((c : Thread nD τ).loc main_v97) ↦{fullShare.left} V main_v97)
          ∗ (((c : Thread nD τ).loc main_v98) ↦{fullShare} V main_v98)
          ∗ (((c : Thread nD τ).loc main_v77) ↦{fullShare} V main_v77)
          ∗ (((c : Thread nD τ).loc main_v79) ↦{fullShare} V main_v79)
          ∗ (((c : Thread nD τ).loc main_v81) ↦{fullShare} V main_v81)
          ∗ (((c : Thread nD τ).loc main_v97) ↦{fullShare.right} V main_v97)
          ∗ (((c : Thread nD τ).loc main_v99) ↦{fullShare} V main_v99)) := by
  rw [arrays9_eq dat V G hG, share9_eq dat hq]
  exact bigSep_W9 _

/-- The windows' arrays at contents read off `V` ARE the buffers behind them, each whole at the full share at `V`:
    the two halves of the shared buffer's points-to make the whole one, and back. -/
theorem arrays9_iff (hq : dat.q = q9) (V : (b : Ref sig .tc) → Buf (Elt F) ((c : Thread nD τ).loc b))
    (G : (w : Fin cfg9.W) → Buf (Elt F) ((cfg9.win w).arr.view.loc (c : Thread nD τ))) (hG : ∀ w, G w = V (Pipeline.arrRef spec9 w)) :
    (dat.arrays G : sProp 𝕄) ⊣⊢ Pipeline.arrBufs spec9 c V := by
  rw [arrays9_chain dat hq V G hG, arrBufs9_eq]
  constructor
  · iintro ⟨H0, H1, H2, H3, Hd, H5, H6⟩
    isplitl [H0 H5]
    · iapply (pointsTo_share (PosShare.mem_left_op_right fullShare)).2
      isplitl [H0]; · iexact H0
      iexact H5
    isplitl [H1]; · iexact H1
    isplitl [H2]; · iexact H2
    isplitl [H3]; · iexact H3
    isplitl [Hd]; · iexact Hd
    iexact H6
  · iintro ⟨Ha, H1, H2, H3, Hd, H6⟩
    ihave H := (pointsTo_share (PosShare.mem_left_op_right fullShare)).1 $$ Ha
    icases H with ⟨H0, H5⟩
    isplitl [H0]; · iexact H0
    isplitl [H1]; · iexact H1
    isplitl [H2]; · iexact H2
    isplitl [H3]; · iexact H3
    isplitl [Hd]; · iexact Hd
    isplitl [H5]; · iexact H5
    iexact H6

/-- ENTRY, the arrays' part: the core's unscoped buffers, each whole at the entry contents `Vin`, are the windows'
    arrays at the proof data's entry contents (read off `Vin`: `hA`), the shared buffer halved between its two
    windows, and the unscoped rest at `Vin`. -/
theorem entry9 (Vin : Valuation τ sig (Elt F))
    (hA : ∀ w, dat.A w = Vin (Pipeline.arrRef spec9 w)) (hq : dat.q = q9) :
    (StableHlo.held (c : Thread nD τ) (Pipeline.ucRefs τ sig) Vin : sProp 𝕄)
      ⊢ iprop(dat.arrays (dat.arrAt · 0) ∗ Pipeline.unscopedRest spec9 c (fun b => Vin b)) := by
  rw [held_eq_arrBufs9]
  exact sep_mono (arrays9_iff dat hq (fun b => Vin b) (dat.arrAt · 0) hA).2 .rfl

/-- EXIT, the arrays' part: the windows' arrays at their final contents and the unscoped rest at `Vin` are the core's
    unscoped buffers at any valuation `Vout` that has the arrays at those contents (`hF`) and agrees with `Vin` off
    them (`hrest`). -/
theorem exit9 (Vin Vout : Valuation τ sig (Elt F)) (hq : dat.q = q9)
    (hF : ∀ w, dat.arrAt w cfg9.N = Vout (Pipeline.arrRef spec9 w))
    (hrest : ∀ b : Ref sig .tc, b ∉ Finset.univ.image (Pipeline.arrRef spec9) → Vout b = Vin b) :
    iprop(dat.arrays (dat.arrAt · cfg9.N) ∗ Pipeline.unscopedRest spec9 c (fun b => Vin b))
      ⊢ (StableHlo.held (c : Thread nD τ) (Pipeline.ucRefs τ sig) Vout : sProp 𝕄) := by
  rw [held_eq_arrBufs9]
  refine sep_mono (arrays9_iff dat hq (fun b => Vout b) (dat.arrAt · cfg9.N) hF).1 (Entails.of_eq ?_)
  unfold Pipeline.unscopedRest
  exact bigSep_congr fun b hb => by dsimp only; rw [hrest b (Finset.mem_sdiff.mp hb).2]

end Shared

end Cert.Kernel.Gen

end
-- ==== Proof.KB.Seg9.lean ====
import proofs.«167047_j26895085207995_2_alg».proof.Proof.KB.Fold
import proofs.«167047_j26895085207995_2_alg».proof.Proof.KB.Rec9

/-! Region 9 of the program as a segment of its run: the kernel region entered from the boundary contents before it
    and left at the boundary contents after it.

    At entry the core holds every unscoped buffer at the entry contents, beside its generator register and its (empty)
    debts. The region's arrays — the windows' arrays, whole buffers — are sorted out of the unscoped buffers. Two of the
    input windows are handed ONE array, so the buffer behind it is held in two halves, one per window; every other
    window has its array whole. The generator register goes into the pipeline's invariant — which also carries, from
    one grid point to the next, the two scratch buffers the kernel accumulates in — and comes back out of it at the
    last point. At exit the two halves are joined and the arrays are put back among the unscoped buffers. The exit
    contents are the entry contents UPDATED at the output window's array, which holds what the pipeline's write-backs
    leave there; every input window's array holds what it held (a pipeline never writes an input's array), and no
    other buffer is touched. These two facts (`hF9`, `hrest9`) are what putting the arrays back needs. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix9 : Fin 10 := 9
/-- The boundary contents the region is entered from, -/
abbrev Ein9 : Dev nD → Valuation τ sig (Elt F) := B17 m
/-- and those it is left at. -/
abbrev Eout9 : Dev nD → Valuation τ sig (Elt F) := B18 m
/-- The output window, -/
abbrev owin9 : Fin cfg9.W := 6
/-- and its array. -/
abbrev oref9 : Ref sig .tc := main_v99

/-- The exit contents are the entry contents updated at the output array, with what the pipeline's write-backs leave
    there after the last grid point. -/
theorem Eout9_eq (c : Dev nD) :
    Eout9 m c = Function.update (Ein9 m c) (Proc.devRef .tc oref9) ((dat9 (atTc (Ein9 m)) c).arrAt owin9 cfg9.N) := rfl

/-! ## The exit contents at the region's arrays and off them -/

/-- At exit each of the region's arrays holds what the pipeline leaves in it: the output's array by the update; an
    input's array is never written, so it holds its entry contents, which the update (at another reference) keeps.
    The two input windows that are handed one array both read that array's entry contents. -/
theorem hF9 (c : Dev nD) (w : Fin cfg9.W) :
    (dat9 (atTc (Ein9 m)) c).arrAt w cfg9.N = atTc (Eout9 m) c (Pipeline.arrRef spec9 w) := by
  by_cases hw : w = owin9
  · subst hw
    show _ = Eout9 m c (Proc.devRef .tc oref9)
    rw [Eout9_eq, Function.update_self]
  · have hin : (cfg9.win w).isOut = false :=
      (by decide : ∀ w : Fin cfg9.W, w ≠ owin9 → (cfg9.win w).isOut = false) w hw
    have hne : Pipeline.arrRef spec9 w ≠ oref9 :=
      (by decide : ∀ w : Fin cfg9.W, w ≠ owin9 → Pipeline.arrRef spec9 w ≠ oref9) w hw
    refine (((dat9 (atTc (Ein9 m)) c).arrAt_in w hin _).trans (A_eq9 (atTc (Ein9 m)) c w)).trans ?_
    show Ein9 m c (Proc.devRef .tc (Pipeline.arrRef spec9 w)) = Eout9 m c (Proc.devRef .tc (Pipeline.arrRef spec9 w))
    rw [Eout9_eq]
    exact (Function.update_of_ne (StableHlo.devRef_ne_of_ne hne) _ _).symm

/-- Off the region's arrays the exit contents are the entry contents: the update is at one of the arrays. -/
theorem hrest9 (c : Dev nD) : ∀ b, b ∉ Finset.univ.image (Pipeline.arrRef spec9) → atTc (Eout9 m) c b = atTc (Ein9 m) c b := by
  intro b hb
  have hne : b ≠ oref9 := fun e => hb (Finset.mem_image.mpr ⟨owin9, Finset.mem_univ _, e.symm⟩)
  show Eout9 m c (Proc.devRef .tc b) = Ein9 m c (Proc.devRef .tc b)
  rw [Eout9_eq]
  exact Function.update_of_ne (StableHlo.devRef_ne_of_ne hne) _ _

/-! ## The region as a segment -/

set_option backward.isDefEq.respectTransparency.types false in
/-- The region over the thread state: entered from every unscoped buffer at the entry contents, left at the exit
    contents (what the next segment is entered from). Its arrays are sorted out of the unscoped buffers — the buffer
    two windows are handed is held in two halves, one per window — and put back, the halves joined, at the exit
    contents; the generator register goes into the pipeline's invariant, which also carries the two scratches from
    grid point to grid point, and comes out of it; nothing owed; no semaphore of the kernel's own. -/
def reg9 : Pipeline.RegionSeg (pcfgs (F := F)) adm (pdats m) () defs₀ 𝒱₀ L lv pix9 where
  win := winFacts₀9
  block_pos := block_pos9
  stage_whole := stage_whole9
  K := PEmpty
  osem k := k.elim
  ho := Pipeline.OwnSemFacts.none _
  hbody c := (body_obligation9 (atTc (Ein9 m)) c).loose
  hwaits := Pipeline.hwaits_of_owed_zero _ _ _ _ L lv pix9 fun _ _ => rfl
  pre c := iprop(StableHlo.held (c : Thread nD τ) (Pipeline.ucRefs τ sig) (Ein9 m c) ∗ R c)
  post c := iprop(StableHlo.held (c : Thread nD τ) (Pipeline.ucRefs τ sig) (Eout9 m c) ∗ R c)
  X c := iprop(∃ r, prngReg c r)
  Y c := iprop(∃ r, prngReg c r)
  Z c := Pipeline.unscopedRest (Ix := Unit) (Name := ℕ) (U := UR sig nD τ) (Lvl := ℕ) spec9 c (atTc (Ein9 m) c)
  hentry c := by
    rw [Pipeline.ownSems0_none]
    have hsplit := entry9 (pdats m pix9 c) (Ein9 m c) (A_eq9 (atTc (Ein9 m)) c) rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix9 c).Φ 0 = (dat9 (atTc (Ein9 m)) c).Φ 0 from rfl]
    iintro ⟨Hp, -, Hr⟩
    iapply hin9 (atTc (Ein9 m)) c
    isplitl [Hp]; · iexact Hp
    iexact Hr
  hout c := by
    rw [Pipeline.ownSems0_none]
    refine (hout9 (atTc (Ein9 m)) c).trans ?_
    iintro ⟨Hp, Hr⟩
    isplitl [Hp]; · iexact Hp
    isplitr; · iempintro
    iexact Hr
  hexit c := by
    have hjoin := exit9 (pdats m pix9 c) (Ein9 m c) (Eout9 m c) rfl (hF9 m c) (hrest9 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Run.lean ====
/-
  The whole program's run at the boundaries' contents: from any memory with zero counters every weakly fair execution
  terminates, nothing faulting, and every unscoped buffer of the final memory holds the last boundary's contents —
  the launch memory pushed through the host stretches, with each region's output array at what the region leaves.
  Every region's record is entered from the boundary before it and left at the one after it; the state beside the
  buffers is the same at every boundary (the generator register at some state, nothing owed), so the records chain.
  The frame claim follows because no host stretch and no region writes an argument array.
-/
import proofs.«167047_j26895085207995_2_alg».proof.Proof.KB.Fold
import proofs.«167047_j26895085207995_2_alg».proof.Proof.KB.Seg0
import proofs.«167047_j26895085207995_2_alg».proof.Proof.KB.Seg1
import proofs.«167047_j26895085207995_2_alg».proof.Proof.KB.Seg2
import proofs.«167047_j26895085207995_2_alg».proof.Proof.KB.Seg3
import proofs.«167047_j26895085207995_2_alg».proof.Proof.KB.Seg4
import proofs.«167047_j26895085207995_2_alg».proof.Proof.KB.Seg5
import proofs.«167047_j26895085207995_2_alg».proof.Proof.KB.Seg6
import proofs.«167047_j26895085207995_2_alg».proof.Proof.KB.Seg7
import proofs.«167047_j26895085207995_2_alg».proof.Proof.KB.Seg8
import proofs.«167047_j26895085207995_2_alg».proof.Proof.KB.Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one
set_option backward.isDefEq.respectTransparency.types false in
/-- Every weakly fair execution ends with every unscoped buffer at the last boundary's contents. -/
theorem run : θ_run defs (onTc (τ := τ) (main (F := F))) ⟨m, fun _ => 0, ρ⟩ (fun r => ∀ c : Dev nD,
    ∀ b ∈ Pipeline.ucRefs τ sig, r.2.mem (((c : Thread nD τ)).1, b) = B19 m c b) := by
  have h : θ_run defs (onTc (τ := τ) (main (F := F))) ⟨m, fun _ => 0, ρ⟩ (fun r => ∀ c : Dev nD,
      ∀ b ∈ Pipeline.ucRefs τ sig, r.2.mem (((c : Thread nD τ)).1, b) = V19 m (outsR m) c b) := ?_
  · exact (θ_run defs _ _).mono (fun r hr c b hb => (hr c b hb).trans (congrFun (V19_eq m c) b)) h
  refine run_cond m (Ix := Unit) (U := UR sig nD τ) (Lvl := ℕ) emb₁ () 𝒱₀ L lv (fun _ _ => rfl) ρ (outsR m) (pdats m)
    (0 : Dev nD → CellTallies nD τ sig Unit) (fun _ => iprop(emp))
    (initOf (Pipeline.cells cfgs cellOf_inj) (Pipeline.launchToks cfgs cellOf_inj)) ?_ (fun _ c => R c) ?_ ?_
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V12_eq]; exact .rfl) (fun c => by rw [V13_eq]; exact .rfl)
    (reg7 m) (fun c => by rw [V13_eq]; exact .rfl) (fun c => by rw [V14_eq]; exact .rfl)
    (reg8 m) (fun c => by rw [V15_eq]; exact .rfl) (fun c => by rw [V16_eq]; exact .rfl)
    (reg9 m) (fun c => by rw [V17_eq]; exact .rfl) (fun c => by rw [V18_eq]; exact .rfl)
  · -- the launch's ghost state: the cells' tokens, and nothing else
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the first boundary's rest state, core by core: the register as launched, nothing owed
    refine Pipeline.initEach L lv fun c => ?_
    iintro ⟨⟨-, HO, -, Hp, -⟩, -⟩
    imodintro
    isplitl [Hp]; · iexists _; iexact Hp
    iexists ∅; iexact HO
  · -- the last boundary owes nothing
    intro c
    iintro ⟨-, HO⟩
    iexact HO

/-- The frame: every argument array ends as launched (no host stretch and no region writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r (hr : ∀ c : Dev nD, ∀ b ∈ Pipeline.ucRefs τ sig,
      r.2.mem (((c : Thread nD τ)).1, b) = B19 m c b) c => by
    have h := fun (b : Ref sig .tc) (hb : ¬ (Proc.devRef .tc b : DevRef τ sig).isScoped) =>
      ((hr c _ (mem_uc b hb)).trans (congrFun (V19_eq m c).symm _))
    exact ⟨(h main_arg0 (by decide)).trans (V19_main_arg0 m (outsR m) c),
      (h main_arg1 (by decide)).trans (V19_main_arg1 m (outsR m) c),
      (h main_arg2 (by decide)).trans (V19_main_arg2 m (outsR m) c),
      (h main_arg3 (by decide)).trans (V19_main_arg3 m (outsR m) c),
      (h main_arg4 (by decide)).trans (V19_main_arg4 m (outsR m) c),
      (h main_arg5 (by decide)).trans (V19_main_arg5 m (outsR m) c),
      (h main_arg6 (by decide)).trans (V19_main_arg6 m (outsR m) c),
      (h main_arg7 (by decide)).trans (V19_main_arg7 m (outsR m) c),
      (h main_arg8 (by decide)).trans (V19_main_arg8 m (outsR m) c),
      (h main_arg9 (by decide)).trans (V19_main_arg9 m (outsR m) c),
      (h main_arg10 (by decide)).trans (V19_main_arg10 m (outsR m) c),
      (h main_arg11 (by decide)).trans (V19_main_arg11 m (outsR m) c),
      (h main_arg12 (by decide)).trans (V19_main_arg12 m (outsR m) c),
      (h main_arg13 (by decide)).trans (V19_main_arg13 m (outsR m) c)⟩) (run m ρ)

end Cert.Kernel.Gen

end
-- ==== Proof.KI.RunCond.lean ====
/- The program's run, given one record per kernel region: from any memory with zero counters, every weakly fair
  execution of the whole program terminates, nothing faulting, and every final memory holds EVERY unscoped buffer at
  the last boundary's contents: the launch contents pushed through each host stretch, each region's output array at
  what that region leaves.  The frame claim (the arguments as launched) and the results' values are both read off
  this one statement.
-/
import proofs.«167047_j26895085207995_2_alg».proof.Proof.Gen.KernelIdeal.Regions

set_option maxRecDepth 1396

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- The run over the regions' records: every unscoped buffer ends at the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 10) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 11 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE10 : ∀ c : Dev nD, E 10 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V13 m outs c) ∗ E 7 c) ⊢ R7.pre c)
    (hpost7 : ∀ c : Dev nD, R7.post c ⊢ iprop(StableHlo.held (c : Thread nD τ) (Pipeline.ucRefs τ sig) (V14 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V17 m outs c) ∗ E 9 c) ⊢ R9.pre c)
    (hpost9 : ∀ c : Dev nD, R9.post c ⊢ iprop(StableHlo.held (c : Thread nD τ) (Pipeline.ucRefs τ sig) (V18 m outs c) ∗ E 10 c)) :
    θ_run defs (onTc (τ := τ) (main (F := F))) ⟨m, fun _ => 0, ρ⟩ (fun r => ∀ c : Dev nD,
      ∀ b ∈ Pipeline.ucRefs τ sig, r.2.mem (((c : Thread nD τ)).1, b) = V19 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9)
    (fun c Q => by
      rewrite [main_chain c, Seg.run_eq_chain,
        show (segs m outs 𝒱₀ L lv E ι pdats R0 R1 R2 R3 R4 R5 R6 R7 R8 R9 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, hpost0 c, hpre1 c, (hpost1 c).trans (hpre2 c), hpost2 c, hpre3 c, hpost3 c, hpre4 c, hpost4 c, hpre5 c, hpost5 c, hpre6 c, (hpost6 c).trans (hpre7 c), hpost7 c, hpre8 c, hpost8 c, hpre9 c, hpost9 c, sep_mono .rfl (hE10 c)⟩)
    (hinit := ?_) (QY := fun c s => ∀ b ∈ Pipeline.ucRefs τ sig, s.mem (((c : Thread nD τ)).1, b) = V19 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact h
    · iexact HSI

end Cert.KernelIdeal.Gen

end
-- ==== Proof.KI.Reg0.lean ====
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # A layer's normalise-and-project call: its windows' blocks, what its body leaves, its proof data

The call walks a 2 x 6 grid. At point `(i, j)` its body is handed three input blocks — rows `512 i .. 512 i + 511` of
the `1024 x 2048` activations, the whole `1 x 2048` gain row, and rows `512 j .. 512 j + 511` of the `3072 x 2048`
stacked projection weights (half-width elements) — and one output block, the `512 x 512` tile `(i, j)` of the
`1024 x 3072` result. The body reads the three inputs whole, reads the output tile (the value read is not used), and
stores over the WHOLE output tile one value: the payload of the three blocks read (each row scaled by the reciprocal
root of its mean square plus a constant, scaled columnwise by the gain, rounded to half width, and multiplied with the
transposed weight block). So after the body every input buffer holds what it held and the output buffer holds that
payload, whatever it held before.

Everything here is stated at a PARAMETER `V`, the contents of the core's buffers when the call is entered, and for
any float instance. -/

-- that a coordinate lies in a rectangle of extent 512 x 2048 is checked coordinate by coordinate: one level of
-- recursion per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered: the parameter everything below is stated at
variable (V : (c : Dev nD) → (b : Ref sig .tc) → Buf (Elt F) ((c : Thread nD τ).loc b))

/-! ## The windows' blocks -/

/-- Window `w`'s block at point `t`: the entries of its array, as the call finds it (`V`), that lie in the
    rectangle the window's index map picks at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (window 0) is fetched only where the row index `i` moves (every sixth point). At the other
    points its block index is the previous point's, and the body left the block in place there, so by induction
    along the grid the buffer holds the block of THIS point at every point: for ANY proof data whose array is
    `V`'s (`hA`) and whose body leaves the block in place (`hafter`). The window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The gain row's window (window 1) has one block, fetched at the first point only; the same argument gives that
    block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The weights' window (window 2) moves with the column index `j` and is fetched at every point; the same statement
    holds of it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a `512 x 2048` block (the activations' and the weights'). -/
abbrev r0_0 : Rect S512x2048 := Rect.unit (s := S512x2048) ![0, 0] S512x2048.size inb_S512x2048_S512x2048_0_0
/-- The whole of the `1 x 2048` gain row. -/
abbrev r0_1 : Rect S1x2048 := Rect.unit (s := S1x2048) ![0, 0] S1x2048.size inb_S1x2048_S1x2048_0_0
/-- The whole of the `512 x 512` output tile. -/
abbrev r0_2 : Rect S512x512 := Rect.unit (s := S512x512) ![0, 0] S512x512.size inb_S512x512_S512x512_0_0

/-! ## What the body leaves in the output window's buffer -/

/-- Window 3's buffer after the body, from the three input blocks: its one store as a piece — the whole tile, at the
    payload of the three blocks read whole. -/
def out0_3 (x0 : Vec F S512x2048 .f32) (x1 : Vec F S1x2048 .f32) (x2 : Vec F S512x2048 .bf16) : Vec F S512x512 .f32 :=
  View.canon [⟨r0_2, k0_pay1 (View.ld x0 r0_0) (View.ld x1 r0_1) (View.ld x2 r0_0)⟩]

/-- The store's rectangle is the whole tile, so it covers it: every coordinate lies in the one piece. -/
theorem cover0_3 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The body on whole staging memrefs, the inputs' at contents `x0`, `x1`, `x2` and the output's at anything, runs to
    the continuation holding the inputs' as they were and the output's at `out0_3` of the inputs': the three loads
    return the blocks, the load of the output tile returns a value nothing uses, and the store overwrites the whole
    tile, so what the tile held before is gone. The grid point `i` plays no part. -/
theorem sound_kernel0 (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x512 .f32) (harg5 : arg5.IsWhole)
    (x0 : Vec F S512x2048 .f32) (x1 : Vec F S1x2048 .f32) (x2 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__rmsnorm_matmul_kernel i arg2 harg2 arg3 harg3 arg4 harg4 arg5 harg5) K := by
  simp only [cc0__rmsnorm_matmul_kernel_eq_skeleton]; unfold cc0__rmsnorm_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this call's pipeline on core `c`: the arrays as the call finds them (`V`); after the body at
    point `t` each input's buffer at its block and the output's at `out0_3` of the three input blocks; the invariant
    "the scoped rest and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents at entry: the definition projected, `V` never opened. -/
theorem A_eq0 (c : Dev nD) (w : Fin cfg0.W) : (dat0 V c).A w = V c (Pipeline.arrRef spec0 w) := by
  dsimp only [dat0]

/-- What the body leaves, window by window (the definition's case split reduced at each window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and the four current staging buffers,
    each at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_0`, `before0_1`, `before0_2`), so
    `sound_kernel0` applies; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point: its two conjunctions over the windows written out, it is
    `sound_body0`. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1.lean ====
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of the rotary-embedding call on the keys (the kernel function `cc1__rope_kernel`), at any float
    instance and at a PARAMETER `V`: the TensorCore's buffer contents when the call is entered.

    The call walks the eight heads of the key array. At head `t` it is handed the head's block `[1,1024,64]` of the
    `[8,1024,64]` key array (window 0), the whole cosine and sine tables `[1024,64]` (windows 1 and 2: their block
    index never moves, so they are fetched at the first head only and found in place afterwards), and the head's block
    of the result (window 3). The body reads the three input blocks whole, and stores ONE value over the whole of the
    output block: the payload `k1_pay1` of the three blocks (the rotation `x · cos + rotate_half x · sin`). So after the
    body each input buffer holds the block it held, and the output buffer holds that payload: `out1_3`. This module
    states that as the pipeline's proof data `dat1` and proves the pipeline's body obligation for it. -/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it (`V`): for windows 0 and 3 head
    `t`'s `[1,1024,64]` slab of the `[8,1024,64]` array, for windows 1 and 2 the whole `[1024,64]` table. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is
    `V`'s (`hA`) and whose body leaves the block in place (`hafter`): the window is fetched at every point, uncut
    and never idle. -/
theorem beforeOf1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the cosine table) likewise, fetched or not: it is fetched at the first point only, and where it is
    not fetched its block index has not moved, so the buffer still holds the block the body left in place. -/
theorem beforeOf1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the sine table) likewise. -/
theorem beforeOf1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a `[1,1024,64]` buffer (the key block's and the result block's loads, the result's store), -/
abbrev r1_0 : Rect S1x1024x64 := Rect.unit (s := S1x1024x64) ![0, 0, 0] S1x1024x64.size inb_S1x1024x64_S1x1024x64_0_0_0
/-- and the whole of a `[1024,64]` buffer (the tables' loads). -/
abbrev r1_1 : Rect S1024x64 := Rect.unit (s := S1024x64) ![0, 0] S1024x64.size inb_S1024x64_S1024x64_0_0

/-! ## What the body leaves in the output window's buffer -/

/-- Window 3's staging buffer after the body, from the input windows' blocks (`x0` the key block, `x1` the cosine
    table, `x2` the sine table): its one store as a piece — the rotation's payload over the whole buffer. -/
def out1_3 (x0 : Vec F S1x1024x64 .f32) (x1 : Vec F S1024x64 .f32) (x2 : Vec F S1024x64 .f32) : Vec F S1x1024x64 .f32 :=
  View.canon [⟨r1_0, k1_pay1 (View.ld x0 r1_0) (View.ld x1 r1_1) (View.ld x2 r1_1)⟩]

/-- The store is of the whole buffer, so it covers it. -/
theorem cover1_3 (p0 : Vec F S1x1024x64 .f32) (y : S1x1024x64.Idx) :
    ∃ pc ∈ ([⟨r1_0, p0⟩] : List (View.Piece (Elt F) S1x1024x64 .f32)), y ∈ pc.1.set :=
  View.cover_of_tiled [⟨r1_0, p0⟩] S1x1024x64.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs':
    the printed function is its skeleton of three input loads, one (unused) load of the output and one store. -/
theorem sound_kernel1 (c : Dev nD) (E : Set ℕ) (i : grid1.Coords) (arg1 : Memref sig .tc .vmem S1x1024x64 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1x1024x64 .f32) (harg4 : arg4.IsWhole)
    (x0 : Vec F S1x1024x64 .f32) (x1 : Vec F S1024x64 .f32) (x2 : Vec F S1024x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__rope_kernel i arg1 harg1 arg2 harg2 arg3 harg3 arg4 harg4) K := by
  simp only [cc1__rope_kernel_eq_skeleton]; unfold cc1__rope_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the call finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  beforeOf1_0 V (dat1 V c) (A_eq1 V c 0) (after1_0 V c) t d
theorem before1_1 (c : Dev nD) (t : Fin cfg1.N) (d) : (dat1 V c).before 1 t d = iblk1 V c 1 t :=
  beforeOf1_1 V (dat1 V c) (A_eq1 V c 1) (after1_1 V c) t d
theorem before1_2 (c : Dev nD) (t : Fin cfg1.N) (d) : (dat1 V c).before 2 t d = iblk1 V c 2 t :=
  beforeOf1_2 V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Reg2.lean ====
/-
  One attention call of the decoder as a pipeline region: what each of its seven windows holds at a grid point, and
  what the kernel body leaves there.  The six input windows (queries, keys, values, the two rotary tables and the
  additive mask) hold their blocks of the arrays the region finds on entry; the body reads all six blocks whole,
  rotates the queries, forms the scaled scores against the keys, adds the mask, takes the row softmax and multiplies
  by the values; its one store overwrites the output window's whole staging buffer with that product.  Everything is
  stated for an arbitrary float instance and at arbitrary entry contents `V`, so the same text serves every run
  that enters this call.
-/
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place: where the window is not
    fetched its block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place: where the window is not
    fetched its block index has not moved, so the block of the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place: where the window is not
    fetched its block index has not moved, so the block of the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place: where the window is not
    fetched its block index has not moved, so the block of the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents and whose body leaves the block in place: where the window is not
    fetched its block index has not moved, so the block of the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is the entry contents and whose body leaves the block in place: where the window is not
    fetched its block index has not moved, so the block of the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a per-head block, of a rotary table and of the mask: the three rectangles the body reads and writes. -/
abbrev r2_0 : Rect S1x1024x64 := Rect.unit (s := S1x1024x64) ![0, 0, 0] S1x1024x64.size inb_S1x1024x64_S1x1024x64_0_0_0
abbrev r2_1 : Rect S1024x64 := Rect.unit (s := S1024x64) ![0, 0] S1024x64.size inb_S1024x64_S1024x64_0_0
abbrev r2_2 : Rect S1024x1024 := Rect.unit (s := S1024x1024) ![0, 0] S1024x1024.size inb_S1024x1024_S1024x1024_0_0

/-! ## What the body leaves in the output window's buffer -/

/-- The output window's staging buffer after the body, from the six input blocks: one store of the whole block,
    whose payload is the softmax weights (from queries, keys, the tables and the mask) times the values, summed
    from zero. -/
def out2_6 (x0 x1 x2 : Vec F S1x1024x64 .f32) (x3 x4 : Vec F S1024x64 .f32) (x5 : Vec F S1024x1024 .f32) : Vec F S1x1024x64 .f32 :=
  View.canon [⟨r2_0, k2_pay1 (k2_pay2 (View.ld x2 r2_0))
    (k2_pay3 (View.ld x0 r2_0) (View.ld x1 r2_0) (View.ld x3 r2_1) (View.ld x4 r2_1) (View.ld x5 r2_2))
    (constant S1024x64 .f32 0x00000000#32)⟩]

/-- The one store is of the whole buffer, so it covers it. -/
theorem cover2_6 (p0 : Vec F S1x1024x64 .f32) (y : S1x1024x64.Idx) :
    ∃ pc ∈ ([⟨r2_0, p0⟩] : List (View.Piece (Elt F) S1x1024x64 .f32)), y ∈ pc.1.set :=
  View.cover_of_tiled [⟨r2_0, p0⟩] S1x1024x64.size (by rfl) y

/-! ## The body's triple -/

set_option maxHeartbeats 1000000 in
/-- The kernel body on whole staging memrefs, the inputs' at read contents and the output's at anything, runs to the
    continuation holding the inputs' as they were and the output's at `out2_6` of the inputs'. -/
theorem sound_kernel2 (c : Dev nD) (E : Set ℕ) (i : grid2.Coords)
    (arg1 : Memref sig .tc .vmem S1x1024x64 .f32) (harg1 : arg1.IsWhole) (arg2 : Memref sig .tc .vmem S1x1024x64 .f32) (harg2 : arg2.IsWhole)
    (arg3 : Memref sig .tc .vmem S1x1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1x1024x64 .f32) (harg7 : arg7.IsWhole)
    (x0 x1 x2 : Vec F S1x1024x64 .f32) (x3 x4 : Vec F S1024x64 .f32) (x5 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__attn_kernel i arg1 harg1 arg2 harg2 arg3 harg3 arg4 harg4 arg5 harg5 arg6 harg6 arg7 harg7) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of this pipeline on core `c`: the arrays as the region finds them; after the body at point `t`
    each input's buffer at its block and the output's at `out2_6` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen
-- ==== Proof.KI.Reg3.lean ====
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The output projection with its residual, as one pipelined region: the body's half of the frame

The region multiplies a 512×2048 block of activations (rounded to bf16) by the transpose of a 512×2048 block of
bf16 weights and adds a 512×512 block of the residual stream; the sum is stored over the whole 512×512 output
block. Everything here is stated at a PARAMETER V, the TensorCore's buffer contents when the region is entered,
and for any float instance. What is proved: at every grid point each input window's staging buffer holds that
window's block of its array (whether the block was moved in at this point or at an earlier one), the body leaves
the three inputs as they were and the output buffer at the one stored payload, and so the body meets the
pipeline's obligation for the proof data "each input at its block, the output at the payload of the input
blocks". -/

-- membership of an index in a rectangle of these extents is found by a structural recursion with one level per
-- coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, as the region finds it, that the window's index map
    selects at t. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' window (its block index depends on the row coordinate only, so it is moved in at every
    fourth point): its current staging buffer holds its block at EVERY point, for any proof data whose array is
    V's and whose body leaves the block in place. Where the block was not moved in, the block index is the
    previous point's, and so is the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weights' window (bf16 elements; moved in at every point): the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The residual's window (an input; moved in at every point): the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 512×2048 buffer (the activations' and the weights' loads). -/
abbrev r3_0 : Rect S512x2048 := Rect.unit (s := S512x2048) ![0, 0] S512x2048.size inb_S512x2048_S512x2048_0_0
/-- The whole 512×512 buffer (the residual's load and the one store). -/
abbrev r3_1 : Rect S512x512 := Rect.unit (s := S512x512) ![0, 0] S512x512.size inb_S512x512_S512x512_0_0

/-! ## What the body leaves in the output window's buffer -/

/-- The output window's staging buffer after the body, from the three input blocks: its one store, whose payload
    is the residual block plus the product of the activations' block (rounded to bf16) with the transposed
    weights' block, laid over the whole buffer. -/
def out3_3 (x0 : Vec F S512x2048 .f32) (x1 : Vec F S512x2048 .bf16) (x2 : Vec F S512x512 .f32) : Vec F S512x512 .f32 :=
  View.canon [⟨r3_1, k3_pay1 (View.ld x0 r3_0) (View.ld x1 r3_0) (View.ld x2 r3_1)⟩]

/-- The store's rectangle is the whole buffer, so it covers every index. -/
theorem cover3_3 (p0 : Vec F S512x512 .f32) (y : S512x512.Idx) :
    ∃ pc ∈ ([⟨r3_1, p0⟩] : List (View.Piece (Elt F) S512x512 .f32)), y ∈ pc.1.set :=
  View.cover_of_tiled [⟨r3_1, p0⟩] S512x512.size (by rfl) y

/-! ## The body's triple -/

set_option maxHeartbeats 1000000 in
/-- The kernel body on whole staging memrefs, the inputs' at read contents x0, x1, x2 and the output's at
    anything, runs to a state holding the inputs' as they were and the output's at out3_3 of the inputs': three
    whole-buffer loads, a load of the output buffer that nothing reads, and one whole-buffer store. -/
theorem sound_kernel3 (c : Dev nD) (E : Set ℕ) (i : grid3.Coords) (mem0 : Memref sig .tc .vmem S512x2048 .f32) (hmem0 : mem0.IsWhole) (mem1 : Memref sig .tc .vmem S512x2048 .bf16) (hmem1 : mem1.IsWhole) (mem2 : Memref sig .tc .vmem S512x512 .f32) (hmem2 : mem2.IsWhole) (memOut : Memref sig .tc .vmem S512x512 .f32) (hmemOut : memOut.IsWhole)
    (x0 : Vec F S512x2048 .f32) (x1 : Vec F S512x2048 .bf16) (x2 : Vec F S512x512 .f32) (K : PUnit → sProp 𝕄) :
    iprop(owns (c : Thread nD τ) mem0 fullShare x0 ∗ owns (c : Thread nD τ) mem1 fullShare x1 ∗ owns (c : Thread nD τ) mem2 fullShare x2 ∗ (∃ d, owns (c : Thread nD τ) memOut fullShare d)
        ∗ (iprop(owns (c : Thread nD τ) mem0 fullShare x0 ∗ owns (c : Thread nD τ) mem1 fullShare x1 ∗ owns (c : Thread nD τ) mem2 fullShare x2 ∗ owns (c : Thread nD τ) memOut fullShare (out3_3 x0 x1 x2)) -∗ K ⟨⟩))
      ⊢ wp frame (wpE (defs₀ (F := F)) Variants.none c none) E (cc3__matmul_residual_kernel i mem0 hmem0 mem1 hmem1 mem2 hmem2 memOut hmemOut) K := by
  simp only [cc3__matmul_residual_kernel_eq_skeleton]; unfold cc3__matmul_residual_kernel_skel
  unfold owns
  iintro ⟨⟨%f0, %hf0, H0⟩, ⟨%f1, %hf1, H1⟩, ⟨%f2, %hf2, H2⟩, ⟨%dOut, %fOut, -, HOut⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HOut
  ipureintro
  exact View.read_writes_eq_canon _ _ _ (cover3_3 _)

/-! ## The pipeline's proof data -/

/-- The proof data of this pipeline on core c: the arrays as the region finds them (V); after the body at point
    t each input's buffer at its block and the output's at out3_3 of the three input blocks; the invariant that
    leaves the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, moved in there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%dOut, HOut⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [HOut]; · iexists _; iexact HOut
  iintro ⟨H0, H1, H2, HOut⟩
  isplitl [HΦ]; · iexact HΦ
  isplitl [Ho]; · iexact Ho
  isplitl [H0]; · iexact H0
  isplitl [H1]; · iexact H1
  isplitl [H2]; · iexact H2
  iexact HOut

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Reg4.lean ====
/- The frame half of the fused feed-forward call, at any float instance and at a parameter `V`:
   the TensorCore's buffer contents when the region is entered.

   The grid is four row blocks by sixteen steps of a reduction over the hidden dimension, the step the fast axis. At the first step of
   a row block the body divides each row of the block by its root mean square, weights it, truncates it and keeps the
   result in one scratch, and zeroes an accumulator kept in a second scratch. At every step it multiplies the kept rows
   by a block of the gate and of the up projection, combines the two products (x ↦ x · logistic x on the gate side,
   times the up side), truncates, multiplies by the matching block of the down projection and adds the product to the
   accumulator. At the last step it adds the residual block to the accumulator and stores the sum into the output's buffer,
   the only step at which that buffer is stored and the only one after which it is written back.

   So a point is in one of three cases by its step (first, middle, last), the two scratches are carried from point to point,
   and the output window is idle except at a last step. Per case the body's run gives the pieces written into each
   buffer; `outsAt4` threads them along the points; the region's invariant carries the two scratches at
   `outsAt4`'s components; `dat4` is the pipeline's proof data and `body_obligation4` its obligation; `hin4` and
   `hout4` tie the invariant to what the region is entered with and leaves. Windows 0 and 5 read one array: the proof
   data gives each a complementary half share of it. -/
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the row block to normalise): its current staging buffer holds its block at every point, fetched there or not (an
    unfetched point has the block index of the point before), for any proof data whose array is the entry contents and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the norm's weight row): its current staging buffer holds its block at every point, fetched there or not (an
    unfetched point has the block index of the point before), for any proof data whose array is the entry contents and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the gate projection's block of rows): its current staging buffer holds its block at every point, fetched there or not (an
    unfetched point has the block index of the point before), for any proof data whose array is the entry contents and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the up projection's block of rows): its current staging buffer holds its block at every point, fetched there or not (an
    unfetched point has the block index of the point before), for any proof data whose array is the entry contents and
    whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the down projection's block of columns): its current staging buffer holds its block at every point, fetched there or not (an
    unfetched point has the block index of the point before), for any proof data whose array is the entry contents and
    whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5 (the residual row block, the same array as window 0): its current staging buffer holds its block at every point, fetched there or not (an
    unfetched point has the block index of the point before), for any proof data whose array is the entry contents and
    whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions on the reduction coordinate -/

/-- The first conditional's condition: the reduction coordinate is 0. -/
abbrev cond4_0 (i : grid4.Coords) : Prop := (Scalar.cmpi .ne (Scalar.extui (Scalar.cmpi .eq (BitVec.ofNat 32 (i 1).val) 0#32)) 0#32) = 1#1
/-- It holds at the points ≡ 0 (mod 16): the reduction coordinate is the fast one, 16 long. -/
theorem hcond4_0 : ∀ t : Fin cfg4.N, cond4_0 (grid4.coords t) ↔ t.val % 16 = 0 :=
  (by decide +kernel : ∀ t : Fin grid4.N, cond4_0 (grid4.coords t) ↔ t.val % 16 = 0)

/-- The second conditional's condition: the reduction coordinate is 15. -/
abbrev cond4_1 (i : grid4.Coords) : Prop := k4_cond2 i = 1#1
/-- It holds at the points ≡ 15 (mod 16). -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

/-- Input window 0 is never idle. -/
theorem liveAt4_0 : ∀ t : Fin cfg4.N, cfg4.idle 0 (grid4.coords t) = false := by decide +kernel
/-- Input window 1 is never idle. -/
theorem liveAt4_1 : ∀ t : Fin cfg4.N, cfg4.idle 1 (grid4.coords t) = false := by decide +kernel
/-- Input window 2 is never idle. -/
theorem liveAt4_2 : ∀ t : Fin cfg4.N, cfg4.idle 2 (grid4.coords t) = false := by decide +kernel
/-- Input window 3 is never idle. -/
theorem liveAt4_3 : ∀ t : Fin cfg4.N, cfg4.idle 3 (grid4.coords t) = false := by decide +kernel
/-- Input window 4 is never idle. -/
theorem liveAt4_4 : ∀ t : Fin cfg4.N, cfg4.idle 4 (grid4.coords t) = false := by decide +kernel
/-- Input window 5 is never idle. -/
theorem liveAt4_5 : ∀ t : Fin cfg4.N, cfg4.idle 5 (grid4.coords t) = false := by decide +kernel
/-- At a first step the output window is idle (nothing is stored into it) -/
theorem idleAt4_6_A : ∀ t : Fin cfg4.N, cond4_0 (grid4.coords t) → ¬cond4_1 (grid4.coords t) → cfg4.idle 6 (grid4.coords t) = true := by decide +kernel
/-- and its block is not written back. -/
theorem noFlush4_6_A : ∀ t : Fin cfg4.N, cond4_0 (grid4.coords t) → ¬cond4_1 (grid4.coords t) → (cfg4.win 6).flush t = false := by decide +kernel
/-- At a middle step likewise: idle, -/
theorem idleAt4_6_B : ∀ t : Fin cfg4.N, ¬cond4_0 (grid4.coords t) → ¬cond4_1 (grid4.coords t) → cfg4.idle 6 (grid4.coords t) = true := by decide +kernel
/-- not written back. -/
theorem noFlush4_6_B : ∀ t : Fin cfg4.N, ¬cond4_0 (grid4.coords t) → ¬cond4_1 (grid4.coords t) → (cfg4.win 6).flush t = false := by decide +kernel
/-- At a last step the output window is live: the body stores into it. -/
theorem liveAt4_6_C : ∀ t : Fin cfg4.N, ¬cond4_0 (grid4.coords t) → cond4_1 (grid4.coords t) → cfg4.idle 6 (grid4.coords t) = false := by decide +kernel

/-! ## The buffers the body is called on -/

/-- One staging buffer of the output window, through which its contents are stated (the choice does not matter). -/
abbrev VO4_6 : View sig .tc .vmem S256x2048 .f32 := (Memref.whole cc4_stg6_0 : Memref sig .tc .vmem S256x2048 .f32).view
/-- Window 0's current staging buffer at point `t`, and that it is a whole buffer. -/
abbrev ms4_0 (t : Fin cfg4.N) : Memref sig .tc .vmem S256x2048 .f32 := win4_0.stage (cfg4.slots t 0)
abbrev hs4_0 (t : Fin cfg4.N) : (ms4_0 t).IsWhole := hstage4_0 ((cfg4.slots t 0).cast nbuf4_0)
/-- Window 1's current staging buffer at point `t`, and that it is a whole buffer. -/
abbrev ms4_1 (t : Fin cfg4.N) : Memref sig .tc .vmem S1x2048 .f32 := win4_1.stage (cfg4.slots t 1)
abbrev hs4_1 (t : Fin cfg4.N) : (ms4_1 t).IsWhole := hstage4_1 ((cfg4.slots t 1).cast nbuf4_1)
/-- Window 2's current staging buffer at point `t`, and that it is a whole buffer. -/
abbrev ms4_2 (t : Fin cfg4.N) : Memref sig .tc .vmem S512x2048 .bf16 := win4_2.stage (cfg4.slots t 2)
abbrev hs4_2 (t : Fin cfg4.N) : (ms4_2 t).IsWhole := hstage4_2 ((cfg4.slots t 2).cast nbuf4_2)
/-- Window 3's current staging buffer at point `t`, and that it is a whole buffer. -/
abbrev ms4_3 (t : Fin cfg4.N) : Memref sig .tc .vmem S512x2048 .bf16 := win4_3.stage (cfg4.slots t 3)
abbrev hs4_3 (t : Fin cfg4.N) : (ms4_3 t).IsWhole := hstage4_3 ((cfg4.slots t 3).cast nbuf4_3)
/-- Window 4's current staging buffer at point `t`, and that it is a whole buffer. -/
abbrev ms4_4 (t : Fin cfg4.N) : Memref sig .tc .vmem S2048x512 .bf16 := win4_4.stage (cfg4.slots t 4)
abbrev hs4_4 (t : Fin cfg4.N) : (ms4_4 t).IsWhole := hstage4_4 ((cfg4.slots t 4).cast nbuf4_4)
/-- Window 5's current staging buffer at point `t`, and that it is a whole buffer. -/
abbrev ms4_5 (t : Fin cfg4.N) : Memref sig .tc .vmem S256x2048 .f32 := win4_5.stage (cfg4.slots t 5)
abbrev hs4_5 (t : Fin cfg4.N) : (ms4_5 t).IsWhole := hstage4_5 ((cfg4.slots t 5).cast nbuf4_5)
/-- Window 6's current staging buffer at point `t`, and that it is a whole buffer. -/
abbrev ms4_6 (t : Fin cfg4.N) : Memref sig .tc .vmem S256x2048 .f32 := win4_6.stage (cfg4.slots t 6)
abbrev hs4_6 (t : Fin cfg4.N) : (ms4_6 t).IsWhole := hstage4_6 ((cfg4.slots t 6).cast nbuf4_6)
/-- The accumulator scratch and the scratch of normalised rows: whole scoped buffers of the kernel's own. -/
abbrev scM4_0 : Memref sig .tc .vmem S256x2048 .f32 := Memref.whole cc4_scratch0
abbrev scM4_1 : Memref sig .tc .vmem S256x2048 .bf16 := Memref.whole cc4_scratch1
/-- The same as views: what the scratches hold is stated through them. -/
abbrev VS4_0 : View sig .tc .vmem S256x2048 .f32 := scM4_0.view
abbrev VS4_1 : View sig .tc .vmem S256x2048 .bf16 := scM4_1.view

/-- The scoped buffers no window stages, apart from the two scratches: each at some contents. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The scoped buffers no window stages, with the generator register: the two scratches each owned at some contents,
    the others unopened, the register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ restBut4 c) ∗ (∃ r, prngReg c r)) := by
  unfold Pipeline.ΦA; rw [scopedRest4_split]; simp only [scM4_0, scM4_1, owns_whole]; try rfl

/-! ## The body's run, case by case -/

set_option maxHeartbeats 1000000 in
/-- THE FIRST STEP of a row block (reduction coordinate 0; the first conditional taken, the second not). With the six
    inputs' buffers at their contents, the output's buffer at `vo` and the two scratches at anything, the body runs to
    the continuation holding the inputs and the output's buffer as they were and each scratch with the listed pieces
    written: the normalised rows stored whole; the accumulator reset, then overwritten by the reset plus the first
    partial product. The piece lists are the witnesses the run finds. -/
noncomputable def kernelRun4_A (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) :
    Σ' (LO : List (View.Piece (Elt F) S256x2048 .f32)), Σ' (LACC : List (View.Piece (Elt F) S256x2048 .f32)), { LXN : List (View.Piece (Elt F) S256x2048 .bf16) //
      ∀ (vo : Vec F S256x2048 .f32) (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ d, owns (c : Thread nD τ) macc fullShare d) ∗ (∃ d, owns (c : Thread nD τ) mxn fullShare d)
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ f, macc.view.loc (c : Thread nD τ) ↦[macc.view.set]{fullShare} macc.view.writes (Elt F) f LACC) ∗ (∃ f, mxn.view.loc (c : Thread nD τ) ↦[mxn.view.set]{fullShare} mxn.view.writes (Elt F) f LXN)) -∗ K ⟨⟩))
          ⊢ wp frame (wpE (defs₀ (F := F)) Variants.none c none) E (cc4__mlp_kernel i mx hmx mw hmw mg hmg mu hmu md hmd mr hmr mo hmo macc hmacc mxn hmxn) K } := by
  refine ⟨[], ?_, ?_, fun vo E K => ?run⟩
  case run =>
    simp only [cc4__mlp_kernel_eq_skeleton]; unfold cc4__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%fo, %hfo, Ho⟩, ⟨%eacc, %facc, -, Hacc⟩, ⟨%exn, %fxn, -, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmo.eq_unread hfo
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]
    · iexists _; isplitr; · ipureintro; exact hmo.read_unread _
      iexact Ho
    isplitl [Hacc]; · iexists _; iexact Hacc
    iexists _; iexact Hxn

set_option maxHeartbeats 1000000 in
/-- A MIDDLE STEP (reduction coordinate strictly between the ends; neither conditional taken). With the inputs'
    buffers at their contents, the output's buffer at `vo`, the accumulator at `vacc` and the normalised rows at
    `vxn`, the body runs to the continuation holding everything as it was but the accumulator, which has the listed
    piece written: what it held plus this step's partial product. -/
noncomputable def kernelRun4_B (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) :
    Σ' (LO : List (View.Piece (Elt F) S256x2048 .f32)), { LACC : List (View.Piece (Elt F) S256x2048 .f32) //
      ∀ (vo : Vec F S256x2048 .f32) (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ owns (c : Thread nD τ) macc fullShare vacc ∗ owns (c : Thread nD τ) mxn fullShare vxn
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ f, macc.view.loc (c : Thread nD τ) ↦[macc.view.set]{fullShare} macc.view.writes (Elt F) f LACC) ∗ owns (c : Thread nD τ) mxn fullShare vxn) -∗ K ⟨⟩))
          ⊢ wp frame (wpE (defs₀ (F := F)) Variants.none c none) E (cc4__mlp_kernel i mx hmx mw hmw mg hmg mu hmu md hmd mr hmr mo hmo macc hmacc mxn hmxn) K } := by
  refine ⟨[], ?_, fun vo E K => ?run⟩
  case run =>
    simp only [cc4__mlp_kernel_eq_skeleton]; unfold cc4__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%fo, %hfo, Ho⟩, ⟨%facc, %hfacc, Hacc⟩, ⟨%fxn, %hfxn, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmo.eq_unread hfo; obtain rfl := hmacc.eq_unread hfacc; obtain rfl := hmxn.eq_unread hfxn
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]
    · iexists _; isplitr; · ipureintro; exact hmo.read_unread _
      iexact Ho
    isplitl [Hacc]; · iexists _; iexact Hacc
    iexists _; isplitr; · ipureintro; exact hmxn.read_unread _
    iexact Hxn

set_option maxHeartbeats 1000000 in
/-- THE LAST STEP of a row block (reduction coordinate at its end; the second conditional taken, the first not). With
    the inputs' buffers at their contents, the output's buffer at anything, the accumulator at `vacc` and the normalised
    rows at `vxn`, the body runs to the continuation holding the inputs and the normalised rows as they were, the
    accumulator with this step's partial product added, and the output's buffer with the finished accumulator plus the
    residual block written. -/
noncomputable def kernelRun4_C (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) :
    Σ' (LO : List (View.Piece (Elt F) S256x2048 .f32)), { LACC : List (View.Piece (Elt F) S256x2048 .f32) //
      ∀ (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ (∃ d, owns (c : Thread nD τ) mo fullShare d) ∗ owns (c : Thread nD τ) macc fullShare vacc ∗ owns (c : Thread nD τ) mxn fullShare vxn
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ (∃ f, mo.view.loc (c : Thread nD τ) ↦[mo.view.set]{fullShare} mo.view.writes (Elt F) f LO) ∗ (∃ f, macc.view.loc (c : Thread nD τ) ↦[macc.view.set]{fullShare} macc.view.writes (Elt F) f LACC) ∗ owns (c : Thread nD τ) mxn fullShare vxn) -∗ K ⟨⟩))
          ⊢ wp frame (wpE (defs₀ (F := F)) Variants.none c none) E (cc4__mlp_kernel i mx hmx mw hmw mg hmg mu hmu md hmd mr hmr mo hmo macc hmacc mxn hmxn) K } := by
  refine ⟨?_, ?_, fun E K => ?run⟩
  case run =>
    simp only [cc4__mlp_kernel_eq_skeleton]; unfold cc4__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%eo, %fo, -, Ho⟩, ⟨%facc, %hfacc, Hacc⟩, ⟨%fxn, %hfxn, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmacc.eq_unread hfacc; obtain rfl := hmxn.eq_unread hfxn
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]; · iexists _; iexact Ho
    isplitl [Hacc]; · iexists _; iexact Hacc
    iexists _; isplitr; · ipureintro; exact hmxn.read_unread _
    iexact Hxn

/-! ## What each case leaves in the output's buffer and in the two scratches -/

/-- A first step stores nothing into the output's buffer: a placeholder nothing consults (the window is idle there and its block is not written back). -/
def out4_A_6 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .f32 :=
  VO4_6.read (Elt F) (VO4_6.writes (Elt F) VO4_6.junk (kernelRun4_A c i mx hmx mw hmw mg hmg mu hmu md hmd mr hmr mo hmo macc hmacc mxn hmxn hc0 hc1 vx vw vg vu vd vr).1)

/-- A first step's stores into the accumulator scratch cover it. -/
theorem scover4_A_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (y : S256x2048.Idx) :
    ∃ pc ∈ (kernelRun4_A c i mx hmx mw hmw mg hmg mu hmu md hmd mr hmr mo hmo macc hmacc mxn hmxn hc0 hc1 vx vw vg vu vd vr).2.1, y ∈ pc.1.set :=
  View.cover_of_tiledL (kernelRun4_A c i mx hmx mw hmw mg hmg mu hmu md hmd mr hmr mo hmo macc hmacc mxn hmxn hc0 hc1 vx vw vg vu vd vr).2.1 S256x2048.size (by sl_kernel_rfl) y

/-- What a first step leaves in the accumulator scratch: the reset, then the first partial product added to it. -/
def sout4_A_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .f32 :=
  VS4_0.read (Elt F) (VS4_0.writes (Elt F) VS4_0.junk (kernelRun4_A c i mx hmx mw hmw mg hmg mu hmu md hmd mr hmr mo hmo macc hmacc mxn hmxn hc0 hc1 vx vw vg vu vd vr).2.1)

/-- A first step's store into the scratch of normalised rows covers it. -/
theorem scover4_A_1 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (y : S256x2048.Idx) :
    ∃ pc ∈ (kernelRun4_A c i mx hmx mw hmw mg hmg mu hmu md hmd mr hmr mo hmo macc hmacc mxn hmxn hc0 hc1 vx vw vg vu vd vr).2.2.1, y ∈ pc.1.set :=
  View.cover_of_tiledL (kernelRun4_A c i mx hmx mw hmw mg hmg mu hmu md hmd mr hmr mo hmo macc hmacc mxn hmxn hc0 hc1 vx vw vg vu vd vr).2.2.1 S256x2048.size (by sl_kernel_rfl) y

/-- What a first step leaves in the scratch of normalised rows: each row of the block divided by its root mean square, weighted, truncated. -/
def sout4_A_1 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .bf16 :=
  VS4_1.read (Elt F) (VS4_1.writes (Elt F) VS4_1.junk (kernelRun4_A c i mx hmx mw hmw mg hmg mu hmu md hmd mr hmr mo hmo macc hmacc mxn hmxn hc0 hc1 vx vw vg vu vd vr).2.2.1)

/-- A middle step stores nothing into the output's buffer: a placeholder nothing consults. -/
def out4_B_6 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VO4_6.read (Elt F) (VO4_6.writes (Elt F) VO4_6.junk (kernelRun4_B c i mx hmx mw hmw mg hmg mu hmu md hmd mr hmr mo hmo macc hmacc mxn hmxn hc0 hc1 vx vw vg vu vd vr vacc vxn).1)

/-- A middle step's store into the accumulator scratch covers it. -/
theorem scover4_B_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun4_B c i mx hmx mw hmw mg hmg mu hmu md hmd mr hmr mo hmo macc hmacc mxn hmxn hc0 hc1 vx vw vg vu vd vr vacc vxn).2.1, y ∈ pc.1.set :=
  View.cover_of_tiledL (kernelRun4_B c i mx hmx mw hmw mg hmg mu hmu md hmd mr hmr mo hmo macc hmacc mxn hmxn hc0 hc1 vx vw vg vu vd vr vacc vxn).2.1 S256x2048.size (by sl_kernel_rfl) y

/-- What a middle step leaves in the accumulator scratch: the step's partial product added to what it held. -/
def sout4_B_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VS4_0.read (Elt F) (VS4_0.writes (Elt F) VS4_0.junk (kernelRun4_B c i mx hmx mw hmw mg hmg mu hmu md hmd mr hmr mo hmo macc hmacc mxn hmxn hc0 hc1 vx vw vg vu vd vr vacc vxn).2.1)

/-- The last step's store into the output's buffer covers it. -/
theorem cover4_C_6 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun4_C c i mx hmx mw hmw mg hmg mu hmu md hmd mr hmr mo hmo macc hmacc mxn hmxn hc0 hc1 vx vw vg vu vd vr vacc vxn).1, y ∈ pc.1.set :=
  View.cover_of_tiledL (kernelRun4_C c i mx hmx mw hmw mg hmg mu hmu md hmd mr hmr mo hmo macc hmacc mxn hmxn hc0 hc1 vx vw vg vu vd vr vacc vxn).1 S256x2048.size (by sl_kernel_rfl) y

/-- What the last step leaves in the output's buffer: the finished accumulator plus the residual block. -/
def out4_C_6 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VO4_6.read (Elt F) (VO4_6.writes (Elt F) VO4_6.junk (kernelRun4_C c i mx hmx mw hmw mg hmg mu hmu md hmd mr hmr mo hmo macc hmacc mxn hmxn hc0 hc1 vx vw vg vu vd vr vacc vxn).1)

/-- The last step's store into the accumulator scratch covers it. -/
theorem scover4_C_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun4_C c i mx hmx mw hmw mg hmg mu hmu md hmd mr hmr mo hmo macc hmacc mxn hmxn hc0 hc1 vx vw vg vu vd vr vacc vxn).2.1, y ∈ pc.1.set :=
  View.cover_of_tiledL (kernelRun4_C c i mx hmx mw hmw mg hmg mu hmu md hmd mr hmr mo hmo macc hmacc mxn hmxn hc0 hc1 vx vw vg vu vd vr vacc vxn).2.1 S256x2048.size (by sl_kernel_rfl) y

/-- What the last step leaves in the accumulator scratch: the step's partial product added to what it held. -/
def sout4_C_0 (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VS4_0.read (Elt F) (VS4_0.writes (Elt F) VS4_0.junk (kernelRun4_C c i mx hmx mw hmw mg hmg mu hmu md hmd mr hmr mo hmo macc hmacc mxn hmxn hc0 hc1 vx vw vg vu vd vr vacc vxn).2.1)

/-! ## What the output's buffer and the two scratches hold after each point -/

/-- THE ACCUMULATION ALONG THE REDUCTION AXIS. After the body at position `n`: the output's staging buffer, the
    accumulator scratch and the scratch of normalised rows (in this order). The first step of a row block resets both
    scratches from the row block alone; every later step adds its partial product to the accumulator the step before
    left and keeps the normalised rows; the last step also stores the output. No point is both first and last. -/
def outsAt4 (c : Dev nD) : (n : ℕ) → n < cfg4.N → Vec F S256x2048 .f32 × Vec F S256x2048 .f32 × Vec F S256x2048 .bf16
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 16 = 0 then
      if h1 : (n + 1) % 16 = 15 then
        False.elim (by omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : (n + 1) % 16 = 15 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, (outsAt4 c n (Nat.lt_of_succ_lt hn)).2.2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, (outsAt4 c n (Nat.lt_of_succ_lt hn)).2.2)

/-- At a first step: that case's contents. -/
theorem outsAt4_A (c : Dev nD) (t : Fin cfg4.N) (h0 : t.val % 16 = 0) (h1 : ¬t.val % 16 = 15) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

/-- At a middle step: that case's contents, over what the point before left. -/
theorem outsAt4_B (c : Dev nD) (t : Fin cfg4.N) (h0 : ¬t.val % 16 = 0) (h1 : ¬t.val % 16 = 15) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt4_C (c : Dev nD) (t : Fin cfg4.N) (h0 : ¬t.val % 16 = 0) (h1 : t.val % 16 = 15) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- The invariant before position `n`. Before the first point: the scoped buffers no window stages at anything and
    the generator register at some state. Afterwards: the accumulator scratch and the scratch of normalised rows at what
    the point before left in them, the other such scoped buffers at anything, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2)) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2)) ∗ restBut4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2)) ∗ restBut4 c) ∗ (∃ r, prngReg c r)) := by
  cases n with
  | zero => exact absurd rfl hz
  | succ n => rfl

/-- The proof data of this pipeline on core `c`: the arrays as the region finds them; after the body each input's
    buffer at its block and the output's at `outsAt4`'s first component; the invariant `PhiS4`; nothing owed. The two
    input windows that read one array hold complementary halves of it; every other input its array whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q := fun w => if w = 0 then fullShare.left else if w = 5 then fullShare.right else fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point. The inputs' buffers hold their blocks; the position along the reduction axis says which
    of the three cases the point is in; the invariant hands the body the two scratches at what the point before left
    (at anything before the first point) and takes them back at this point's contents; the output's buffer is handed
    back untouched except at a last step, where it is left at the stored sum. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  rw [show (dat4 V c).leavesExact 3 t = owns (c : Thread nD τ) (ms4_3 t) fullShare ((dat4 V c).after 3 t) from by
        unfold Dat.leavesExact; rw [liveAt4_3 t], after4_3]
  rw [show (dat4 V c).leavesExact 4 t = owns (c : Thread nD τ) (ms4_4 t) fullShare ((dat4 V c).after 4 t) from by
        unfold Dat.leavesExact; rw [liveAt4_4 t], after4_4]
  rw [show (dat4 V c).leavesExact 5 t = owns (c : Thread nD τ) (ms4_5 t) fullShare ((dat4 V c).after 5 t) from by
        unfold Dat.leavesExact; rw [liveAt4_5 t], after4_5]
  by_cases h0 : t.val % 16 = 0
  · by_cases h1 : t.val % 16 = 15
    · exfalso; omega
    · rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
        iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 _ Set.univ _)
        isplitl [Hx]; · iexact Hx
        isplitl [Hw]; · iexact Hw
        isplitl [Hg]; · iexact Hg
        isplitl [Hu]; · iexact Hu
        isplitl [Hd]; · iexact Hd
        isplitl [Hr]; · iexact Hr
        isplitl [Ho]; · iexact Ho
        isplitl [Hacc]; · iexact Hacc
        isplitl [Hxn]; · iexact Hxn
        iintro ⟨Hx, Hw, Hg, Hu, Hd, Hr, Ho, ⟨%gacc, Hacc⟩, ⟨%gxn, Hxn⟩⟩
        isplitl [Hacc Hxn Hrest Hgen]
        · isplitl [Hacc Hxn Hrest]
          · isplitl [Hacc Hxn]
            · isplitl [Hacc]
              · unfold owns; iexists _; isplitr
                swap; · iexact Hacc
                ipureintro; exact View.read_writes_of_cover _ _ _ _ _ (scover4_A_0 c _ _ _ _ _ _ _ _ _ _ _ _ _ _ _ _ _ _ _ _ _ _ _ _ _ _ _)
              · unfold owns; iexists _; isplitr
                swap; · iexact Hxn
                ipureintro; exact View.read_writes_of_cover _ _ _ _ _ (scover4_A_1 c _ _ _ _ _ _ _ _ _ _ _ _ _ _ _ _ _ _ _ _ _ _ _ _ _ _ _)
            iexact Hrest
          iexact Hgen
        isplitl [Howe]; · iexact Howe
        isplitl [Hx]; · iexact Hx
        isplitl [Hw]; · iexact Hw
        isplitl [Hg]; · iexact Hg
        isplitl [Hu]; · iexact Hu
        isplitl [Hd]; · iexact Hd
        isplitl [Hr]; · iexact Hr
        iexists _; iexact Ho
      · rw [PhiS4_castSucc V c t, PhiS4_pos V c _ _ hz]
        iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
        iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 _ Set.univ _)
        isplitl [Hx]; · iexact Hx
        isplitl [Hw]; · iexact Hw
        isplitl [Hg]; · iexact Hg
        isplitl [Hu]; · iexact Hu
        isplitl [Hd]; · iexact Hd
        isplitl [Hr]; · iexact Hr
        isplitl [Ho]; · iexact Ho
        isplitl [Hacc]; · iexists _; iexact Hacc
        isplitl [Hxn]; · iexists _; iexact Hxn
        iintro ⟨Hx, Hw, Hg, Hu, Hd, Hr, Ho, ⟨%gacc, Hacc⟩, ⟨%gxn, Hxn⟩⟩
        isplitl [Hacc Hxn Hrest Hgen]
        · isplitl [Hacc Hxn Hrest]
          · isplitl [Hacc Hxn]
            · isplitl [Hacc]
              · unfold owns; iexists _; isplitr
                swap; · iexact Hacc
                ipureintro; exact View.read_writes_of_cover _ _ _ _ _ (scover4_A_0 c _ _ _ _ _ _ _ _ _ _ _ _ _ _ _ _ _ _ _ _ _ _ _ _ _ _ _)
              · unfold owns; iexists _; isplitr
                swap; · iexact Hxn
                ipureintro; exact View.read_writes_of_cover _ _ _ _ _ (scover4_A_1 c _ _ _ _ _ _ _ _ _ _ _ _ _ _ _ _ _ _ _ _ _ _ _ _ _ _ _)
            iexact Hrest
          iexact Hgen
        isplitl [Howe]; · iexact Howe
        isplitl [Hx]; · iexact Hx
        isplitl [Hw]; · iexact Hw
        isplitl [Hg]; · iexact Hg
        isplitl [Hu]; · iexact Hu
        isplitl [Hd]; · iexact Hd
        isplitl [Hr]; · iexact Hr
        iexists _; iexact Ho
  · by_cases h1 : t.val % 16 = 15
    · rw [show (dat4 V c).leavesExact 6 t = owns (c : Thread nD τ) (ms4_6 t) fullShare ((dat4 V c).after 6 t) from by
        unfold Dat.leavesExact; rw [liveAt4_6_C t (fun h => h0 ((hcond4_0 t).mp h)) ((hcond4_1 t).mpr h1)], after4_6]
      rw [outsAt4_C V c t h0 h1]
      unfold out4_C_6 sout4_C_0; (try dsimp only)
      have hz : t.val ≠ 0 := by omega
      rw [PhiS4_castSucc V c t, PhiS4_pos V c _ _ hz]
      iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2 Set.univ _)
      isplitl [Hx]; · iexact Hx
      isplitl [Hw]; · iexact Hw
      isplitl [Hg]; · iexact Hg
      isplitl [Hu]; · iexact Hu
      isplitl [Hd]; · iexact Hd
      isplitl [Hr]; · iexact Hr
      isplitl [Ho]; · iexists _; iexact Ho
      isplitl [Hacc]; · iexact Hacc
      isplitl [Hxn]; · iexact Hxn
      iintro ⟨Hx, Hw, Hg, Hu, Hd, Hr, ⟨%go, Ho⟩, ⟨%gacc, Hacc⟩, Hxn⟩
      isplitl [Hacc Hxn Hrest Hgen]
      · isplitl [Hacc Hxn Hrest]
        · isplitl [Hacc Hxn]
          · isplitl [Hacc]
            · unfold owns; iexists _; isplitr
              swap; · iexact Hacc
              ipureintro; exact View.read_writes_of_cover _ _ _ _ _ (scover4_C_0 c _ _ _ _ _ _ _ _ _ _ _ _ _ _ _ _ _ _ _ _ _ _ _ _ _ _ _ _ _)
            iexact Hxn
          iexact Hrest
        iexact Hgen
      isplitl [Howe]; · iexact Howe
      isplitl [Hx]; · iexact Hx
      isplitl [Hw]; · iexact Hw
      isplitl [Hg]; · iexact Hg
      isplitl [Hu]; · iexact Hu
      isplitl [Hd]; · iexact Hd
      isplitl [Hr]; · iexact Hr
      unfold owns; iexists _; isplitr
      swap; · iexact Ho
      ipureintro; exact View.read_writes_of_cover _ _ _ _ _ (cover4_C_6 c _ _ _ _ _ _ _ _ _ _ _ _ _ _ _ _ _ _ _ _ _ _ _ _ _ _ _ _ _)
    · rw [Dat.leavesExact_idle (dat4 V c) 6 t (idleAt4_6_B t (fun h => h0 ((hcond4_0 t).mp h)) (fun h => h1 ((hcond4_1 t).mp h))) (noFlush4_6_B t (fun h => h0 ((hcond4_0 t).mp h)) (fun h => h1 ((hcond4_1 t).mp h)))]
      rw [outsAt4_B V c t h0 h1]
      unfold sout4_B_0; (try dsimp only)
      have hz : t.val ≠ 0 := by omega
      rw [PhiS4_castSucc V c t, PhiS4_pos V c _ _ hz]
      iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2 _ Set.univ _)
      isplitl [Hx]; · iexact Hx
      isplitl [Hw]; · iexact Hw
      isplitl [Hg]; · iexact Hg
      isplitl [Hu]; · iexact Hu
      isplitl [Hd]; · iexact Hd
      isplitl [Hr]; · iexact Hr
      isplitl [Ho]; · iexact Ho
      isplitl [Hacc]; · iexact Hacc
      isplitl [Hxn]; · iexact Hxn
      iintro ⟨Hx, Hw, Hg, Hu, Hd, Hr, Ho, ⟨%gacc, Hacc⟩, Hxn⟩
      isplitl [Hacc Hxn Hrest Hgen]
      · isplitl [Hacc Hxn Hrest]
        · isplitl [Hacc Hxn]
          · isplitl [Hacc]
            · unfold owns; iexists _; isplitr
              swap; · iexact Hacc
              ipureintro; exact View.read_writes_of_cover _ _ _ _ _ (scover4_B_0 c _ _ _ _ _ _ _ _ _ _ _ _ _ _ _ _ _ _ _ _ _ _ _ _ _ _ _ _ _)
            iexact Hxn
          iexact Hrest
        iexact Hgen
      isplitl [Howe]; · iexact Howe
      isplitl [Hx]; · iexact Hx
      isplitl [Hw]; · iexact Hw
      isplitl [Hg]; · iexact Hg
      isplitl [Hu]; · iexact Hu
      isplitl [Hd]; · iexact Hd
      isplitl [Hr]; · iexact Hr
      iexists _; iexact Ho

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- The generator register and the scoped buffers no window stages make the invariant before the first point. -/
theorem hin4 (c : Dev nD) :
    (iprop((∃ r, prngReg c r) ∗ Pipeline.scopedRest (Ix := Unit) (Name := ℕ) (U := UR sig nD τ) (Lvl := ℕ) (Val := Elt F) spec4 c) : sProp 𝕄) ⊢ (dat4 V c).Φ 0 := by
  rw [show (dat4 V c).Φ 0 = PhiS4 V c 0 (Nat.zero_le _) from rfl, PhiS4_zero V c 0 _ rfl]; unfold Pipeline.ΦA
  iintro ⟨Hp, Hr⟩
  isplitl [Hr]; · iexact Hr
  iexact Hp

/-- After any point the invariant gives them back: what the scratches were left at is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨Hacc, Hxn⟩, Hrest⟩, Hgen⟩
  isplitl [Hacc Hxn Hrest]
  · isplitl [Hacc Hxn]
    · isplitl [Hacc]
      · iexists _; iexact Hacc
      iexists _; iexact Hxn
    iexact Hrest
  iexact Hgen

/-- The same after the last point. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  refine (Phi_out4 V c _ (by rw [Fin.val_last]; have : cfg4.N = 64 := N_4; omega)).trans ?_
  unfold Pipeline.ΦA
  iintro ⟨Hr, Hp⟩
  isplitl [Hp]; · iexact Hp
  iexact Hr

end Cert.KernelIdeal.Gen

end
-- ==== Proof.KI.Reg5.lean ====
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # A layer's normalise-and-project call: its windows' blocks, what its body leaves, its proof data

The call walks a 2 x 6 grid. At point `(i, j)` its body is handed three input blocks — rows `512 i .. 512 i + 511` of
the `1024 x 2048` activations, the whole `1 x 2048` gain row, and rows `512 j .. 512 j + 511` of the `3072 x 2048`
stacked projection weights (half-width elements) — and one output block, the `512 x 512` tile `(i, j)` of the
`1024 x 3072` result. The body reads the three inputs whole, reads the output tile (the value read is not used), and
stores over the WHOLE output tile one value: the payload of the three blocks read (each row scaled by the reciprocal
root of its mean square plus a constant, scaled columnwise by the gain, rounded to half width, and multiplied with the
transposed weight block). So after the body every input buffer holds what it held and the output buffer holds that
payload, whatever it held before.

Everything here is stated at a PARAMETER `V`, the contents of the core's buffers when the call is entered, and for
any float instance. -/

-- that a coordinate lies in a rectangle of extent 512 x 2048 is checked coordinate by coordinate: one level of
-- recursion per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered: the parameter everything below is stated at
variable (V : (c : Dev nD) → (b : Ref sig .tc) → Buf (Elt F) ((c : Thread nD τ).loc b))

/-! ## The windows' blocks -/

/-- Window `w`'s block at point `t`: the entries of its array, as the call finds it (`V`), that lie in the
    rectangle the window's index map picks at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations' window (window 0) is fetched only where the row index `i` moves (every sixth point). At the other
    points its block index is the previous point's, and the body left the block in place there, so by induction
    along the grid the buffer holds the block of THIS point at every point: for ANY proof data whose array is
    `V`'s (`hA`) and whose body leaves the block in place (`hafter`). The window is never cut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The gain row's window (window 1) has one block, fetched at the first point only; the same argument gives that
    block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The weights' window (window 2) moves with the column index `j` and is fetched at every point; the same statement
    holds of it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole of a `512 x 2048` block (the activations' and the weights'). -/
abbrev r5_0 : Rect S512x2048 := Rect.unit (s := S512x2048) ![0, 0] S512x2048.size inb_S512x2048_S512x2048_0_0
/-- The whole of the `1 x 2048` gain row. -/
abbrev r5_1 : Rect S1x2048 := Rect.unit (s := S1x2048) ![0, 0] S1x2048.size inb_S1x2048_S1x2048_0_0
/-- The whole of the `512 x 512` output tile. -/
abbrev r5_2 : Rect S512x512 := Rect.unit (s := S512x512) ![0, 0] S512x512.size inb_S512x512_S512x512_0_0

/-! ## What the body leaves in the output window's buffer -/

/-- Window 3's buffer after the body, from the three input blocks: its one store as a piece — the whole tile, at the
    payload of the three blocks read whole. -/
def out5_3 (x0 : Vec F S512x2048 .f32) (x1 : Vec F S1x2048 .f32) (x2 : Vec F S512x2048 .bf16) : Vec F S512x512 .f32 :=
  View.canon [⟨r5_2, k5_pay1 (View.ld x0 r5_0) (View.ld x1 r5_1) (View.ld x2 r5_0)⟩]

/-- The store's rectangle is the whole tile, so it covers it: every coordinate lies in the one piece. -/
theorem cover5_3 (p0 : Vec F S512x512 .f32) (y : S512x512.Idx) :
    ∃ pc ∈ ([⟨r5_2, p0⟩] : List (View.Piece (Elt F) S512x512 .f32)), y ∈ pc.1.set :=
  View.cover_of_tiled [⟨r5_2, p0⟩] S512x512.size (by rfl) y

/-! ## The body's triple -/

set_option maxHeartbeats 1000000 in
/-- The body on whole staging memrefs, the inputs' at contents `x0`, `x1`, `x2` and the output's at anything, runs to
    the continuation holding the inputs' as they were and the output's at `out5_3` of the inputs': the three loads
    return the blocks, the load of the output tile returns a value nothing uses, and the store overwrites the whole
    tile, so what the tile held before is gone. The grid point `i` plays no part. -/
theorem sound_kernel5 (c : Dev nD) (E : Set ℕ) (i : grid5.Coords) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x512 .f32) (harg5 : arg5.IsWhole)
    (x0 : Vec F S512x2048 .f32) (x1 : Vec F S1x2048 .f32) (x2 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out5_3 x0 x1 x2)) -∗ K ⟨⟩))
      ⊢ wp frame (wpE (defs₀ (F := F)) Variants.none c none) E (cc5__rmsnorm_matmul_kernel i arg2 harg2 arg3 harg3 arg4 harg4 arg5 harg5) K := by
  simp only [cc5__rmsnorm_matmul_kernel_eq_skeleton]; unfold cc5__rmsnorm_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of this call's pipeline on core `c`: the arrays as the call finds them (`V`); after the body at
    point `t` each input's buffer at its block and the output's at `out5_3` of the three input blocks; the invariant
    "the scoped rest and the generator register, untouched"; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the contents at entry: the definition projected, `V` never opened. -/
theorem A_eq5 (c : Dev nD) (w : Fin cfg5.W) : (dat5 V c).A w = V c (Pipeline.arrRef spec5 w) := by
  dsimp only [dat5]

/-- What the body leaves, window by window (the definition's case split reduced at each window). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`: the invariant, what is owed, and the four current staging buffers,
    each at what the pipeline has put there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns: the same, the buffers at what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_0`, `before5_1`, `before5_2`), so
    `sound_kernel5` applies; the invariant and what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point: its two conjunctions over the windows written out, it is
    `sound_body5`. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.Reg6.lean ====
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of the rotary-embedding call on the keys (the kernel function `cc6__rope_kernel`), at any float
    instance and at a PARAMETER `V`: the TensorCore's buffer contents when the call is entered.

    The call walks the eight heads of the key array. At head `t` it is handed the head's block `[1,1024,64]` of the
    `[8,1024,64]` key array (window 0), the whole cosine and sine tables `[1024,64]` (windows 1 and 2: their block
    index never moves, so they are fetched at the first head only and found in place afterwards), and the head's block
    of the result (window 3). The body reads the three input blocks whole, and stores ONE value over the whole of the
    output block: the payload `k6_pay1` of the three blocks (the rotation `x · cos + rotate_half x · sin`). So after the
    body each input buffer holds the block it held, and the output buffer holds that payload: `out6_3`. This module
    states that as the pipeline's proof data `dat6` and proves the pipeline's body obligation for it. -/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it (`V`): for windows 0 and 3 head
    `t`'s `[1,1024,64]` slab of the `[8,1024,64]` array, for windows 1 and 2 the whole `[1024,64]` table. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for ANY proof data whose array is
    `V`'s (`hA`) and whose body leaves the block in place (`hafter`): the window is fetched at every point, uncut
    and never idle. -/
theorem beforeOf6_0 {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 (the cosine table) likewise, fetched or not: it is fetched at the first point only, and where it is
    not fetched its block index has not moved, so the buffer still holds the block the body left in place. -/
theorem beforeOf6_1 {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2 (the sine table) likewise. -/
theorem beforeOf6_2 {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole of a `[1,1024,64]` buffer (the key block's and the result block's loads, the result's store), -/
abbrev r6_0 : Rect S1x1024x64 := Rect.unit (s := S1x1024x64) ![0, 0, 0] S1x1024x64.size inb_S1x1024x64_S1x1024x64_0_0_0
/-- and the whole of a `[1024,64]` buffer (the tables' loads). -/
abbrev r6_1 : Rect S1024x64 := Rect.unit (s := S1024x64) ![0, 0] S1024x64.size inb_S1024x64_S1024x64_0_0

/-! ## What the body leaves in the output window's buffer -/

/-- Window 3's staging buffer after the body, from the input windows' blocks (`x0` the key block, `x1` the cosine
    table, `x2` the sine table): its one store as a piece — the rotation's payload over the whole buffer. -/
def out6_3 (x0 : Vec F S1x1024x64 .f32) (x1 : Vec F S1024x64 .f32) (x2 : Vec F S1024x64 .f32) : Vec F S1x1024x64 .f32 :=
  View.canon [⟨r6_0, k6_pay1 (View.ld x0 r6_0) (View.ld x1 r6_1) (View.ld x2 r6_1)⟩]

/-- The store is of the whole buffer, so it covers it. -/
theorem cover6_3 (p0 : Vec F S1x1024x64 .f32) (y : S1x1024x64.Idx) :
    ∃ pc ∈ ([⟨r6_0, p0⟩] : List (View.Piece (Elt F) S1x1024x64 .f32)), y ∈ pc.1.set :=
  View.cover_of_tiled [⟨r6_0, p0⟩] S1x1024x64.size (by rfl) y

/-! ## The body's triple -/

set_option maxHeartbeats 1000000 in
/-- The kernel body on whole staging memrefs, the inputs' at read contents `x0`, `x1`, `x2` and the output's at
    anything, runs to the continuation holding the inputs' as they were and the output's at `out6_3` of the inputs':
    the printed function is its skeleton of three input loads, one (unused) load of the output and one store. -/
theorem sound_kernel6 (c : Dev nD) (E : Set ℕ) (i : grid6.Coords) (arg1 : Memref sig .tc .vmem S1x1024x64 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1x1024x64 .f32) (harg4 : arg4.IsWhole)
    (x0 : Vec F S1x1024x64 .f32) (x1 : Vec F S1024x64 .f32) (x2 : Vec F S1024x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__rope_kernel i arg1 harg1 arg2 harg2 arg3 harg3 arg4 harg4) K := by
  simp only [cc6__rope_kernel_eq_skeleton]; unfold cc6__rope_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of this pipeline on core `c`: the arrays as the call finds them (`V`); after the body at point `t`
    each input's buffer at its block and the output's at `out6_3` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the entry contents (the proof data's definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  beforeOf6_0 V (dat6 V c) (A_eq6 V c 0) (after6_0 V c) t d
theorem before6_1 (c : Dev nD) (t : Fin cfg6.N) (d) : (dat6 V c).before 1 t d = iblk6 V c 1 t :=
  beforeOf6_1 V (dat6 V c) (A_eq6 V c 1) (after6_1 V c) t d
theorem before6_2 (c : Dev nD) (t : Fin cfg6.N) (d) : (dat6 V c).before 2 t d = iblk6 V c 2 t :=
  beforeOf6_2 V (dat6 V c) (A_eq6 V c 2) (after6_2 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KI.Reg7.lean ====
/-
  One attention call of the decoder as a pipeline region: what each of its seven windows holds at a grid point, and
  what the kernel body leaves there.  The six input windows (queries, keys, values, the two rotary tables and the
  additive mask) hold their blocks of the arrays the region finds on entry; the body reads all six blocks whole,
  rotates the queries, forms the scaled scores against the keys, adds the mask, takes the row softmax and multiplies
  by the values; its one store overwrites the output window's whole staging buffer with that product.  Everything is
  stated for an arbitrary float instance and at arbitrary entry contents `V`, so the same text serves every run
  that enters this call.
-/
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is the entry contents and whose body leaves the block in place: where the window is not
    fetched its block index has not moved, so the block of the point before is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is the entry contents and whose body leaves the block in place: where the window is not
    fetched its block index has not moved, so the block of the point before is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is the entry contents and whose body leaves the block in place: where the window is not
    fetched its block index has not moved, so the block of the point before is this point's. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is the entry contents and whose body leaves the block in place: where the window is not
    fetched its block index has not moved, so the block of the point before is this point's. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is the entry contents and whose body leaves the block in place: where the window is not
    fetched its block index has not moved, so the block of the point before is this point's. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof
    data whose array is the entry contents and whose body leaves the block in place: where the window is not
    fetched its block index has not moved, so the block of the point before is this point's. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole of a per-head block, of a rotary table and of the mask: the three rectangles the body reads and writes. -/
abbrev r7_0 : Rect S1x1024x64 := Rect.unit (s := S1x1024x64) ![0, 0, 0] S1x1024x64.size inb_S1x1024x64_S1x1024x64_0_0_0
abbrev r7_1 : Rect S1024x64 := Rect.unit (s := S1024x64) ![0, 0] S1024x64.size inb_S1024x64_S1024x64_0_0
abbrev r7_2 : Rect S1024x1024 := Rect.unit (s := S1024x1024) ![0, 0] S1024x1024.size inb_S1024x1024_S1024x1024_0_0

/-! ## What the body leaves in the output window's buffer -/

/-- The output window's staging buffer after the body, from the six input blocks: one store of the whole block,
    whose payload is the softmax weights (from queries, keys, the tables and the mask) times the values, summed
    from zero. -/
def out7_6 (x0 x1 x2 : Vec F S1x1024x64 .f32) (x3 x4 : Vec F S1024x64 .f32) (x5 : Vec F S1024x1024 .f32) : Vec F S1x1024x64 .f32 :=
  View.canon [⟨r7_0, k7_pay1 (k7_pay2 (View.ld x2 r7_0))
    (k7_pay3 (View.ld x0 r7_0) (View.ld x1 r7_0) (View.ld x3 r7_1) (View.ld x4 r7_1) (View.ld x5 r7_2))
    (constant S1024x64 .f32 0x00000000#32)⟩]

/-- The one store is of the whole buffer, so it covers it. -/
theorem cover7_6 (p0 : Vec F S1x1024x64 .f32) (y : S1x1024x64.Idx) :
    ∃ pc ∈ ([⟨r7_0, p0⟩] : List (View.Piece (Elt F) S1x1024x64 .f32)), y ∈ pc.1.set :=
  View.cover_of_tiled [⟨r7_0, p0⟩] S1x1024x64.size (by rfl) y

/-! ## The body's triple -/

set_option maxHeartbeats 1000000 in
/-- The kernel body on whole staging memrefs, the inputs' at read contents and the output's at anything, runs to the
    continuation holding the inputs' as they were and the output's at `out7_6` of the inputs'. -/
theorem sound_kernel7 (c : Dev nD) (E : Set ℕ) (i : grid7.Coords)
    (arg1 : Memref sig .tc .vmem S1x1024x64 .f32) (harg1 : arg1.IsWhole) (arg2 : Memref sig .tc .vmem S1x1024x64 .f32) (harg2 : arg2.IsWhole)
    (arg3 : Memref sig .tc .vmem S1x1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x1024 .f32) (harg6 : arg6.IsWhole)
    (arg7 : Memref sig .tc .vmem S1x1024x64 .f32) (harg7 : arg7.IsWhole)
    (x0 x1 x2 : Vec F S1x1024x64 .f32) (x3 x4 : Vec F S1024x64 .f32) (x5 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E (cc7__attn_kernel i arg1 harg1 arg2 harg2 arg3 harg3 arg4 harg4 arg5 harg5 arg6 harg6 arg7 harg7) K := by
  simp only [cc7__attn_kernel_eq_skeleton]; unfold cc7__attn_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The proof data of this pipeline on core `c`: the arrays as the region finds them; after the body at point `t`
    each input's buffer at its block and the output's at `out7_6` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

set_option maxHeartbeats 1000000 in
/-- The body at any point: the inputs' memrefs hold their blocks, so the body's triple applies; the invariant and the
    core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen
-- ==== Proof.KI.Reg8.lean ====
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The output projection with its residual, as one pipelined region: the body's half of the frame

The region multiplies a 512×2048 block of activations (rounded to bf16) by the transpose of a 512×2048 block of
bf16 weights and adds a 512×512 block of the residual stream; the sum is stored over the whole 512×512 output
block. Everything here is stated at a PARAMETER V, the TensorCore's buffer contents when the region is entered,
and for any float instance. What is proved: at every grid point each input window's staging buffer holds that
window's block of its array (whether the block was moved in at this point or at an earlier one), the body leaves
the three inputs as they were and the output buffer at the one stored payload, and so the body meets the
pipeline's obligation for the proof data "each input at its block, the output at the payload of the input
blocks". -/

-- membership of an index in a rectangle of these extents is found by a structural recursion with one level per
-- coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, as the region finds it, that the window's index map
    selects at t. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The activations' window (its block index depends on the row coordinate only, so it is moved in at every
    fourth point): its current staging buffer holds its block at EVERY point, for any proof data whose array is
    V's and whose body leaves the block in place. Where the block was not moved in, the block index is the
    previous point's, and so is the block. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The weights' window (bf16 elements; moved in at every point): the same. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The residual's window (an input; moved in at every point): the same. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 512×2048 buffer (the activations' and the weights' loads). -/
abbrev r8_0 : Rect S512x2048 := Rect.unit (s := S512x2048) ![0, 0] S512x2048.size inb_S512x2048_S512x2048_0_0
/-- The whole 512×512 buffer (the residual's load and the one store). -/
abbrev r8_1 : Rect S512x512 := Rect.unit (s := S512x512) ![0, 0] S512x512.size inb_S512x512_S512x512_0_0

/-! ## What the body leaves in the output window's buffer -/

/-- The output window's staging buffer after the body, from the three input blocks: its one store, whose payload
    is the residual block plus the product of the activations' block (rounded to bf16) with the transposed
    weights' block, laid over the whole buffer. -/
def out8_3 (x0 : Vec F S512x2048 .f32) (x1 : Vec F S512x2048 .bf16) (x2 : Vec F S512x512 .f32) : Vec F S512x512 .f32 :=
  View.canon [⟨r8_1, k8_pay1 (View.ld x0 r8_0) (View.ld x1 r8_0) (View.ld x2 r8_1)⟩]

/-- The store's rectangle is the whole buffer, so it covers every index. -/
theorem cover8_3 (p0 : Vec F S512x512 .f32) (y : S512x512.Idx) :
    ∃ pc ∈ ([⟨r8_1, p0⟩] : List (View.Piece (Elt F) S512x512 .f32)), y ∈ pc.1.set :=
  View.cover_of_tiled [⟨r8_1, p0⟩] S512x512.size (by rfl) y

/-! ## The body's triple -/

set_option maxHeartbeats 1000000 in
/-- The kernel body on whole staging memrefs, the inputs' at read contents x0, x1, x2 and the output's at
    anything, runs to a state holding the inputs' as they were and the output's at out8_3 of the inputs': three
    whole-buffer loads, a load of the output buffer that nothing reads, and one whole-buffer store. -/
theorem sound_kernel8 (c : Dev nD) (E : Set ℕ) (i : grid8.Coords) (mem0 : Memref sig .tc .vmem S512x2048 .f32) (hmem0 : mem0.IsWhole) (mem1 : Memref sig .tc .vmem S512x2048 .bf16) (hmem1 : mem1.IsWhole) (mem2 : Memref sig .tc .vmem S512x512 .f32) (hmem2 : mem2.IsWhole) (memOut : Memref sig .tc .vmem S512x512 .f32) (hmemOut : memOut.IsWhole)
    (x0 : Vec F S512x2048 .f32) (x1 : Vec F S512x2048 .bf16) (x2 : Vec F S512x512 .f32) (K : PUnit → sProp 𝕄) :
    iprop(owns (c : Thread nD τ) mem0 fullShare x0 ∗ owns (c : Thread nD τ) mem1 fullShare x1 ∗ owns (c : Thread nD τ) mem2 fullShare x2 ∗ (∃ d, owns (c : Thread nD τ) memOut fullShare d)
        ∗ (iprop(owns (c : Thread nD τ) mem0 fullShare x0 ∗ owns (c : Thread nD τ) mem1 fullShare x1 ∗ owns (c : Thread nD τ) mem2 fullShare x2 ∗ owns (c : Thread nD τ) memOut fullShare (out8_3 x0 x1 x2)) -∗ K ⟨⟩))
      ⊢ wp frame (wpE (defs₀ (F := F)) Variants.none c none) E (cc8__matmul_residual_kernel i mem0 hmem0 mem1 hmem1 mem2 hmem2 memOut hmemOut) K := by
  simp only [cc8__matmul_residual_kernel_eq_skeleton]; unfold cc8__matmul_residual_kernel_skel
  unfold owns
  iintro ⟨⟨%f0, %hf0, H0⟩, ⟨%f1, %hf1, H1⟩, ⟨%f2, %hf2, H2⟩, ⟨%dOut, %fOut, -, HOut⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HOut
  ipureintro
  exact View.read_writes_eq_canon _ _ _ (cover8_3 _)

/-! ## The pipeline's proof data -/

/-- The proof data of this pipeline on core c: the arrays as the region finds them (V); after the body at point
    t each input's buffer at its block and the output's at out8_3 of the three input blocks; the invariant that
    leaves the scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, moved in there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point t (the obligation's precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%dOut, HOut⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [HOut]; · iexists _; iexact HOut
  iintro ⟨H0, H1, H2, HOut⟩
  isplitl [HΦ]; · iexact HΦ
  isplitl [Ho]; · iexact Ho
  isplitl [H0]; · iexact H0
  isplitl [H1]; · iexact H1
  isplitl [H2]; · iexact H2
  iexact HOut

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Gen

end
-- ==== Proof.KI.Reg9.lean ====
/- The frame half of the fused feed-forward call, at any float instance and at a parameter `V`:
   the TensorCore's buffer contents when the region is entered.

   The grid is four row blocks by sixteen steps of a reduction over the hidden dimension, the step the fast axis. At the first step of
   a row block the body divides each row of the block by its root mean square, weights it, truncates it and keeps the
   result in one scratch, and zeroes an accumulator kept in a second scratch. At every step it multiplies the kept rows
   by a block of the gate and of the up projection, combines the two products (x ↦ x · logistic x on the gate side,
   times the up side), truncates, multiplies by the matching block of the down projection and adds the product to the
   accumulator. At the last step it adds the residual block to the accumulator and stores the sum into the output's buffer,
   the only step at which that buffer is stored and the only one after which it is written back.

   So a point is in one of three cases by its step (first, middle, last), the two scratches are carried from point to point,
   and the output window is idle except at a last step. Per case the body's run gives the pieces written into each
   buffer; `outsAt9` threads them along the points; the region's invariant carries the two scratches at
   `outsAt9`'s components; `dat9` is the pipeline's proof data and `body_obligation9` its obligation; `hin9` and
   `hout9` tie the invariant to what the region is entered with and leaves. Windows 0 and 5 read one array: the proof
   data gives each a complementary half share of it. -/
import proofs.«167047_j26895085207995_2_alg».proof.Proof.Gen.KernelIdeal.Launch
import proofs.«167047_j26895085207995_2_alg».proof.Proof.Gen.KernelIdeal.Skeleton
import proofs.«167047_j26895085207995_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the row block to normalise): its current staging buffer holds its block at every point, fetched there or not (an
    unfetched point has the block index of the point before), for any proof data whose array is the entry contents and
    whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the norm's weight row): its current staging buffer holds its block at every point, fetched there or not (an
    unfetched point has the block index of the point before), for any proof data whose array is the entry contents and
    whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2 (the gate projection's block of rows): its current staging buffer holds its block at every point, fetched there or not (an
    unfetched point has the block index of the point before), for any proof data whose array is the entry contents and
    whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3 (the up projection's block of rows): its current staging buffer holds its block at every point, fetched there or not (an
    unfetched point has the block index of the point before), for any proof data whose array is the entry contents and
    whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4 (the down projection's block of columns): its current staging buffer holds its block at every point, fetched there or not (an
    unfetched point has the block index of the point before), for any proof data whose array is the entry contents and
    whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5 (the residual row block, the same array as window 0): its current staging buffer holds its block at every point, fetched there or not (an
    unfetched point has the block index of the point before), for any proof data whose array is the entry contents and
    whose body leaves the block in place. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's two conditions on the reduction coordinate -/

/-- The first conditional's condition: the reduction coordinate is 0. -/
abbrev cond9_0 (i : grid9.Coords) : Prop := (Scalar.cmpi .ne (Scalar.extui (Scalar.cmpi .eq (BitVec.ofNat 32 (i 1).val) 0#32)) 0#32) = 1#1
/-- It holds at the points ≡ 0 (mod 16): the reduction coordinate is the fast one, 16 long. -/
theorem hcond9_0 : ∀ t : Fin cfg9.N, cond9_0 (grid9.coords t) ↔ t.val % 16 = 0 :=
  (by decide +kernel : ∀ t : Fin grid9.N, cond9_0 (grid9.coords t) ↔ t.val % 16 = 0)

/-- The second conditional's condition: the reduction coordinate is 15. -/
abbrev cond9_1 (i : grid9.Coords) : Prop := k9_cond2 i = 1#1
/-- It holds at the points ≡ 15 (mod 16). -/
theorem hcond9_1 : ∀ t : Fin cfg9.N, cond9_1 (grid9.coords t) ↔ t.val % 16 = 15 :=
  (by decide +kernel : ∀ t : Fin grid9.N, cond9_1 (grid9.coords t) ↔ t.val % 16 = 15)

/-! ## Where the windows are idle -/

/-- Input window 0 is never idle. -/
theorem liveAt9_0 : ∀ t : Fin cfg9.N, cfg9.idle 0 (grid9.coords t) = false := by decide +kernel
/-- Input window 1 is never idle. -/
theorem liveAt9_1 : ∀ t : Fin cfg9.N, cfg9.idle 1 (grid9.coords t) = false := by decide +kernel
/-- Input window 2 is never idle. -/
theorem liveAt9_2 : ∀ t : Fin cfg9.N, cfg9.idle 2 (grid9.coords t) = false := by decide +kernel
/-- Input window 3 is never idle. -/
theorem liveAt9_3 : ∀ t : Fin cfg9.N, cfg9.idle 3 (grid9.coords t) = false := by decide +kernel
/-- Input window 4 is never idle. -/
theorem liveAt9_4 : ∀ t : Fin cfg9.N, cfg9.idle 4 (grid9.coords t) = false := by decide +kernel
/-- Input window 5 is never idle. -/
theorem liveAt9_5 : ∀ t : Fin cfg9.N, cfg9.idle 5 (grid9.coords t) = false := by decide +kernel
/-- At a first step the output window is idle (nothing is stored into it) -/
theorem idleAt9_6_A : ∀ t : Fin cfg9.N, cond9_0 (grid9.coords t) → ¬cond9_1 (grid9.coords t) → cfg9.idle 6 (grid9.coords t) = true := by decide +kernel
/-- and its block is not written back. -/
theorem noFlush9_6_A : ∀ t : Fin cfg9.N, cond9_0 (grid9.coords t) → ¬cond9_1 (grid9.coords t) → (cfg9.win 6).flush t = false := by decide +kernel
/-- At a middle step likewise: idle, -/
theorem idleAt9_6_B : ∀ t : Fin cfg9.N, ¬cond9_0 (grid9.coords t) → ¬cond9_1 (grid9.coords t) → cfg9.idle 6 (grid9.coords t) = true := by decide +kernel
/-- not written back. -/
theorem noFlush9_6_B : ∀ t : Fin cfg9.N, ¬cond9_0 (grid9.coords t) → ¬cond9_1 (grid9.coords t) → (cfg9.win 6).flush t = false := by decide +kernel
/-- At a last step the output window is live: the body stores into it. -/
theorem liveAt9_6_C : ∀ t : Fin cfg9.N, ¬cond9_0 (grid9.coords t) → cond9_1 (grid9.coords t) → cfg9.idle 6 (grid9.coords t) = false := by decide +kernel

/-! ## The buffers the body is called on -/

/-- One staging buffer of the output window, through which its contents are stated (the choice does not matter). -/
abbrev VO9_6 : View sig .tc .vmem S256x2048 .f32 := (Memref.whole cc9_stg6_0 : Memref sig .tc .vmem S256x2048 .f32).view
/-- Window 0's current staging buffer at point `t`, and that it is a whole buffer. -/
abbrev ms9_0 (t : Fin cfg9.N) : Memref sig .tc .vmem S256x2048 .f32 := win9_0.stage (cfg9.slots t 0)
abbrev hs9_0 (t : Fin cfg9.N) : (ms9_0 t).IsWhole := hstage9_0 ((cfg9.slots t 0).cast nbuf9_0)
/-- Window 1's current staging buffer at point `t`, and that it is a whole buffer. -/
abbrev ms9_1 (t : Fin cfg9.N) : Memref sig .tc .vmem S1x2048 .f32 := win9_1.stage (cfg9.slots t 1)
abbrev hs9_1 (t : Fin cfg9.N) : (ms9_1 t).IsWhole := hstage9_1 ((cfg9.slots t 1).cast nbuf9_1)
/-- Window 2's current staging buffer at point `t`, and that it is a whole buffer. -/
abbrev ms9_2 (t : Fin cfg9.N) : Memref sig .tc .vmem S512x2048 .bf16 := win9_2.stage (cfg9.slots t 2)
abbrev hs9_2 (t : Fin cfg9.N) : (ms9_2 t).IsWhole := hstage9_2 ((cfg9.slots t 2).cast nbuf9_2)
/-- Window 3's current staging buffer at point `t`, and that it is a whole buffer. -/
abbrev ms9_3 (t : Fin cfg9.N) : Memref sig .tc .vmem S512x2048 .bf16 := win9_3.stage (cfg9.slots t 3)
abbrev hs9_3 (t : Fin cfg9.N) : (ms9_3 t).IsWhole := hstage9_3 ((cfg9.slots t 3).cast nbuf9_3)
/-- Window 4's current staging buffer at point `t`, and that it is a whole buffer. -/
abbrev ms9_4 (t : Fin cfg9.N) : Memref sig .tc .vmem S2048x512 .bf16 := win9_4.stage (cfg9.slots t 4)
abbrev hs9_4 (t : Fin cfg9.N) : (ms9_4 t).IsWhole := hstage9_4 ((cfg9.slots t 4).cast nbuf9_4)
/-- Window 5's current staging buffer at point `t`, and that it is a whole buffer. -/
abbrev ms9_5 (t : Fin cfg9.N) : Memref sig .tc .vmem S256x2048 .f32 := win9_5.stage (cfg9.slots t 5)
abbrev hs9_5 (t : Fin cfg9.N) : (ms9_5 t).IsWhole := hstage9_5 ((cfg9.slots t 5).cast nbuf9_5)
/-- Window 6's current staging buffer at point `t`, and that it is a whole buffer. -/
abbrev ms9_6 (t : Fin cfg9.N) : Memref sig .tc .vmem S256x2048 .f32 := win9_6.stage (cfg9.slots t 6)
abbrev hs9_6 (t : Fin cfg9.N) : (ms9_6 t).IsWhole := hstage9_6 ((cfg9.slots t 6).cast nbuf9_6)
/-- The accumulator scratch and the scratch of normalised rows: whole scoped buffers of the kernel's own. -/
abbrev scM9_0 : Memref sig .tc .vmem S256x2048 .f32 := Memref.whole cc9_scratch0
abbrev scM9_1 : Memref sig .tc .vmem S256x2048 .bf16 := Memref.whole cc9_scratch1
/-- The same as views: what the scratches hold is stated through them. -/
abbrev VS9_0 : View sig .tc .vmem S256x2048 .f32 := scM9_0.view
abbrev VS9_1 : View sig .tc .vmem S256x2048 .bf16 := scM9_1.view

/-- The scoped buffers no window stages, apart from the two scratches: each at some contents. -/
abbrev restBut9 (c : Dev nD) : sProp 𝕄 :=
  Pipeline.scopedRestBut (Ix := Unit) (Name := ℕ) (U := UR sig nD τ) (Lvl := ℕ) (Val := Elt F) spec9 c [cc9_scratch0, cc9_scratch1]

/-- The scoped buffers no window stages, with the generator register: the two scratches each owned at some contents,
    the others unopened, the register at some state. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d)) ∗ restBut9 c) ∗ (∃ r, prngReg c r)) := by
  unfold Pipeline.ΦA; rw [scopedRest9_split]; simp only [scM9_0, scM9_1, owns_whole]; try rfl

/-! ## The body's run, case by case -/

set_option maxHeartbeats 1000000 in
/-- THE FIRST STEP of a row block (reduction coordinate 0; the first conditional taken, the second not). With the six
    inputs' buffers at their contents, the output's buffer at `vo` and the two scratches at anything, the body runs to
    the continuation holding the inputs and the output's buffer as they were and each scratch with the listed pieces
    written: the normalised rows stored whole; the accumulator reset, then overwritten by the reset plus the first
    partial product. The piece lists are the witnesses the run finds. -/
noncomputable def kernelRun9_A (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) :
    Σ' (LO : List (View.Piece (Elt F) S256x2048 .f32)), Σ' (LACC : List (View.Piece (Elt F) S256x2048 .f32)), { LXN : List (View.Piece (Elt F) S256x2048 .bf16) //
      ∀ (vo : Vec F S256x2048 .f32) (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ d, owns (c : Thread nD τ) macc fullShare d) ∗ (∃ d, owns (c : Thread nD τ) mxn fullShare d)
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ f, macc.view.loc (c : Thread nD τ) ↦[macc.view.set]{fullShare} macc.view.writes (Elt F) f LACC) ∗ (∃ f, mxn.view.loc (c : Thread nD τ) ↦[mxn.view.set]{fullShare} mxn.view.writes (Elt F) f LXN)) -∗ K ⟨⟩))
          ⊢ wp frame (wpE (defs₀ (F := F)) Variants.none c none) E (cc9__mlp_kernel i mx hmx mw hmw mg hmg mu hmu md hmd mr hmr mo hmo macc hmacc mxn hmxn) K } := by
  refine ⟨[], ?_, ?_, fun vo E K => ?run⟩
  case run =>
    simp only [cc9__mlp_kernel_eq_skeleton]; unfold cc9__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%fo, %hfo, Ho⟩, ⟨%eacc, %facc, -, Hacc⟩, ⟨%exn, %fxn, -, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmo.eq_unread hfo
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]
    · iexists _; isplitr; · ipureintro; exact hmo.read_unread _
      iexact Ho
    isplitl [Hacc]; · iexists _; iexact Hacc
    iexists _; iexact Hxn

set_option maxHeartbeats 1000000 in
/-- A MIDDLE STEP (reduction coordinate strictly between the ends; neither conditional taken). With the inputs'
    buffers at their contents, the output's buffer at `vo`, the accumulator at `vacc` and the normalised rows at
    `vxn`, the body runs to the continuation holding everything as it was but the accumulator, which has the listed
    piece written: what it held plus this step's partial product. -/
noncomputable def kernelRun9_B (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) :
    Σ' (LO : List (View.Piece (Elt F) S256x2048 .f32)), { LACC : List (View.Piece (Elt F) S256x2048 .f32) //
      ∀ (vo : Vec F S256x2048 .f32) (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ owns (c : Thread nD τ) macc fullShare vacc ∗ owns (c : Thread nD τ) mxn fullShare vxn
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ owns (c : Thread nD τ) mo fullShare vo ∗ (∃ f, macc.view.loc (c : Thread nD τ) ↦[macc.view.set]{fullShare} macc.view.writes (Elt F) f LACC) ∗ owns (c : Thread nD τ) mxn fullShare vxn) -∗ K ⟨⟩))
          ⊢ wp frame (wpE (defs₀ (F := F)) Variants.none c none) E (cc9__mlp_kernel i mx hmx mw hmw mg hmg mu hmu md hmd mr hmr mo hmo macc hmacc mxn hmxn) K } := by
  refine ⟨[], ?_, fun vo E K => ?run⟩
  case run =>
    simp only [cc9__mlp_kernel_eq_skeleton]; unfold cc9__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%fo, %hfo, Ho⟩, ⟨%facc, %hfacc, Hacc⟩, ⟨%fxn, %hfxn, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmo.eq_unread hfo; obtain rfl := hmacc.eq_unread hfacc; obtain rfl := hmxn.eq_unread hfxn
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]
    · iexists _; isplitr; · ipureintro; exact hmo.read_unread _
      iexact Ho
    isplitl [Hacc]; · iexists _; iexact Hacc
    iexists _; isplitr; · ipureintro; exact hmxn.read_unread _
    iexact Hxn

set_option maxHeartbeats 1000000 in
/-- THE LAST STEP of a row block (reduction coordinate at its end; the second conditional taken, the first not). With
    the inputs' buffers at their contents, the output's buffer at anything, the accumulator at `vacc` and the normalised
    rows at `vxn`, the body runs to the continuation holding the inputs and the normalised rows as they were, the
    accumulator with this step's partial product added, and the output's buffer with the finished accumulator plus the
    residual block written. -/
noncomputable def kernelRun9_C (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) :
    Σ' (LO : List (View.Piece (Elt F) S256x2048 .f32)), { LACC : List (View.Piece (Elt F) S256x2048 .f32) //
      ∀ (E : Set ℕ) (K : PUnit → sProp 𝕄),
        iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ (∃ d, owns (c : Thread nD τ) mo fullShare d) ∗ owns (c : Thread nD τ) macc fullShare vacc ∗ owns (c : Thread nD τ) mxn fullShare vxn
            ∗ (iprop(owns (c : Thread nD τ) mx fullShare vx ∗ owns (c : Thread nD τ) mw fullShare vw ∗ owns (c : Thread nD τ) mg fullShare vg ∗ owns (c : Thread nD τ) mu fullShare vu ∗ owns (c : Thread nD τ) md fullShare vd ∗ owns (c : Thread nD τ) mr fullShare vr ∗ (∃ f, mo.view.loc (c : Thread nD τ) ↦[mo.view.set]{fullShare} mo.view.writes (Elt F) f LO) ∗ (∃ f, macc.view.loc (c : Thread nD τ) ↦[macc.view.set]{fullShare} macc.view.writes (Elt F) f LACC) ∗ owns (c : Thread nD τ) mxn fullShare vxn) -∗ K ⟨⟩))
          ⊢ wp frame (wpE (defs₀ (F := F)) Variants.none c none) E (cc9__mlp_kernel i mx hmx mw hmw mg hmg mu hmu md hmd mr hmr mo hmo macc hmacc mxn hmxn) K } := by
  refine ⟨?_, ?_, fun E K => ?run⟩
  case run =>
    simp only [cc9__mlp_kernel_eq_skeleton]; unfold cc9__mlp_kernel_skel
    unfold owns
    iintro ⟨⟨%fx, %hfx, Hx⟩, ⟨%fw, %hfw, Hw⟩, ⟨%fg, %hfg, Hg⟩, ⟨%fu, %hfu, Hu⟩, ⟨%fd, %hfd, Hd⟩, ⟨%fr, %hfr, Hr⟩, ⟨%eo, %fo, -, Ho⟩, ⟨%facc, %hfacc, Hacc⟩, ⟨%fxn, %hfxn, Hxn⟩, Hk⟩
    obtain rfl := hmx.eq_unread hfx; obtain rfl := hmw.eq_unread hfw; obtain rfl := hmg.eq_unread hfg; obtain rfl := hmu.eq_unread hfu; obtain rfl := hmd.eq_unread hfd; obtain rfl := hmr.eq_unread hfr; obtain rfl := hmacc.eq_unread hfacc; obtain rfl := hmxn.eq_unread hfxn
    sl_exec (disch := first | exact hc0 | exact hc1)
    sl_step
    iapply Hk
    isplitl [Hx]
    · iexists _; isplitr; · ipureintro; exact hmx.read_unread _
      iexact Hx
    isplitl [Hw]
    · iexists _; isplitr; · ipureintro; exact hmw.read_unread _
      iexact Hw
    isplitl [Hg]
    · iexists _; isplitr; · ipureintro; exact hmg.read_unread _
      iexact Hg
    isplitl [Hu]
    · iexists _; isplitr; · ipureintro; exact hmu.read_unread _
      iexact Hu
    isplitl [Hd]
    · iexists _; isplitr; · ipureintro; exact hmd.read_unread _
      iexact Hd
    isplitl [Hr]
    · iexists _; isplitr; · ipureintro; exact hmr.read_unread _
      iexact Hr
    isplitl [Ho]; · iexists _; iexact Ho
    isplitl [Hacc]; · iexists _; iexact Hacc
    iexists _; isplitr; · ipureintro; exact hmxn.read_unread _
    iexact Hxn

/-! ## What each case leaves in the output's buffer and in the two scratches -/

/-- A first step stores nothing into the output's buffer: a placeholder nothing consults (the window is idle there and its block is not written back). -/
def out9_A_6 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .f32 :=
  VO9_6.read (Elt F) (VO9_6.writes (Elt F) VO9_6.junk (kernelRun9_A c i mx hmx mw hmw mg hmg mu hmu md hmd mr hmr mo hmo macc hmacc mxn hmxn hc0 hc1 vx vw vg vu vd vr).1)

/-- A first step's stores into the accumulator scratch cover it. -/
theorem scover9_A_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (y : S256x2048.Idx) :
    ∃ pc ∈ (kernelRun9_A c i mx hmx mw hmw mg hmg mu hmu md hmd mr hmr mo hmo macc hmacc mxn hmxn hc0 hc1 vx vw vg vu vd vr).2.1, y ∈ pc.1.set :=
  View.cover_of_tiledL (kernelRun9_A c i mx hmx mw hmw mg hmg mu hmu md hmd mr hmr mo hmo macc hmacc mxn hmxn hc0 hc1 vx vw vg vu vd vr).2.1 S256x2048.size (by sl_kernel_rfl) y

/-- What a first step leaves in the accumulator scratch: the reset, then the first partial product added to it. -/
def sout9_A_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .f32 :=
  VS9_0.read (Elt F) (VS9_0.writes (Elt F) VS9_0.junk (kernelRun9_A c i mx hmx mw hmw mg hmg mu hmu md hmd mr hmr mo hmo macc hmacc mxn hmxn hc0 hc1 vx vw vg vu vd vr).2.1)

/-- A first step's store into the scratch of normalised rows covers it. -/
theorem scover9_A_1 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (y : S256x2048.Idx) :
    ∃ pc ∈ (kernelRun9_A c i mx hmx mw hmw mg hmg mu hmu md hmd mr hmr mo hmo macc hmacc mxn hmxn hc0 hc1 vx vw vg vu vd vr).2.2.1, y ∈ pc.1.set :=
  View.cover_of_tiledL (kernelRun9_A c i mx hmx mw hmw mg hmg mu hmu md hmd mr hmr mo hmo macc hmacc mxn hmxn hc0 hc1 vx vw vg vu vd vr).2.2.1 S256x2048.size (by sl_kernel_rfl) y

/-- What a first step leaves in the scratch of normalised rows: each row of the block divided by its root mean square, weighted, truncated. -/
def sout9_A_1 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) : Vec F S256x2048 .bf16 :=
  VS9_1.read (Elt F) (VS9_1.writes (Elt F) VS9_1.junk (kernelRun9_A c i mx hmx mw hmw mg hmg mu hmu md hmd mr hmr mo hmo macc hmacc mxn hmxn hc0 hc1 vx vw vg vu vd vr).2.2.1)

/-- A middle step stores nothing into the output's buffer: a placeholder nothing consults. -/
def out9_B_6 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VO9_6.read (Elt F) (VO9_6.writes (Elt F) VO9_6.junk (kernelRun9_B c i mx hmx mw hmw mg hmg mu hmu md hmd mr hmr mo hmo macc hmacc mxn hmxn hc0 hc1 vx vw vg vu vd vr vacc vxn).1)

/-- A middle step's store into the accumulator scratch covers it. -/
theorem scover9_B_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun9_B c i mx hmx mw hmw mg hmg mu hmu md hmd mr hmr mo hmo macc hmacc mxn hmxn hc0 hc1 vx vw vg vu vd vr vacc vxn).2.1, y ∈ pc.1.set :=
  View.cover_of_tiledL (kernelRun9_B c i mx hmx mw hmw mg hmg mu hmu md hmd mr hmr mo hmo macc hmacc mxn hmxn hc0 hc1 vx vw vg vu vd vr vacc vxn).2.1 S256x2048.size (by sl_kernel_rfl) y

/-- What a middle step leaves in the accumulator scratch: the step's partial product added to what it held. -/
def sout9_B_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VS9_0.read (Elt F) (VS9_0.writes (Elt F) VS9_0.junk (kernelRun9_B c i mx hmx mw hmw mg hmg mu hmu md hmd mr hmr mo hmo macc hmacc mxn hmxn hc0 hc1 vx vw vg vu vd vr vacc vxn).2.1)

/-- The last step's store into the output's buffer covers it. -/
theorem cover9_C_6 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun9_C c i mx hmx mw hmw mg hmg mu hmu md hmd mr hmr mo hmo macc hmacc mxn hmxn hc0 hc1 vx vw vg vu vd vr vacc vxn).1, y ∈ pc.1.set :=
  View.cover_of_tiledL (kernelRun9_C c i mx hmx mw hmw mg hmg mu hmu md hmd mr hmr mo hmo macc hmacc mxn hmxn hc0 hc1 vx vw vg vu vd vr vacc vxn).1 S256x2048.size (by sl_kernel_rfl) y

/-- What the last step leaves in the output's buffer: the finished accumulator plus the residual block. -/
def out9_C_6 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VO9_6.read (Elt F) (VO9_6.writes (Elt F) VO9_6.junk (kernelRun9_C c i mx hmx mw hmw mg hmg mu hmu md hmd mr hmr mo hmo macc hmacc mxn hmxn hc0 hc1 vx vw vg vu vd vr vacc vxn).1)

/-- The last step's store into the accumulator scratch covers it. -/
theorem scover9_C_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) (y : S256x2048.Idx) :
    ∃ pc ∈ (kernelRun9_C c i mx hmx mw hmw mg hmg mu hmu md hmd mr hmr mo hmo macc hmacc mxn hmxn hc0 hc1 vx vw vg vu vd vr vacc vxn).2.1, y ∈ pc.1.set :=
  View.cover_of_tiledL (kernelRun9_C c i mx hmx mw hmw mg hmg mu hmu md hmd mr hmr mo hmo macc hmacc mxn hmxn hc0 hc1 vx vw vg vu vd vr vacc vxn).2.1 S256x2048.size (by sl_kernel_rfl) y

/-- What the last step leaves in the accumulator scratch: the step's partial product added to what it held. -/
def sout9_C_0 (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec F S256x2048 .f32) (vw : Vec F S1x2048 .f32) (vg : Vec F S512x2048 .bf16) (vu : Vec F S512x2048 .bf16) (vd : Vec F S2048x512 .bf16) (vr : Vec F S256x2048 .f32) (vacc : Vec F S256x2048 .f32) (vxn : Vec F S256x2048 .bf16) : Vec F S256x2048 .f32 :=
  VS9_0.read (Elt F) (VS9_0.writes (Elt F) VS9_0.junk (kernelRun9_C c i mx hmx mw hmw mg hmg mu hmu md hmd mr hmr mo hmo macc hmacc mxn hmxn hc0 hc1 vx vw vg vu vd vr vacc vxn).2.1)

/-! ## What the output's buffer and the two scratches hold after each point -/

/-- THE ACCUMULATION ALONG THE REDUCTION AXIS. After the body at position `n`: the output's staging buffer, the
    accumulator scratch and the scratch of normalised rows (in this order). The first step of a row block resets both
    scratches from the row block alone; every later step adds its partial product to the accumulator the step before
    left and keeps the normalised rows; the last step also stores the output. No point is both first and last. -/
def outsAt9 (c : Dev nD) : (n : ℕ) → n < cfg9.N → Vec F S256x2048 .f32 × Vec F S256x2048 .f32 × Vec F S256x2048 .bf16
  | 0, hn => (out9_A_6 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) scM9_1 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) scM9_1 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩), sout9_A_1 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) scM9_1 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩))
  | n + 1, hn =>
    if h0 : (n + 1) % 16 = 0 then
      if h1 : (n + 1) % 16 = 15 then
        False.elim (by omega)
      else
        (out9_A_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩), sout9_A_1 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩))
    else
      if h1 : (n + 1) % 16 = 15 then
        (out9_C_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2.1 (outsAt9 c n (Nat.lt_of_succ_lt hn)).2.2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2.1 (outsAt9 c n (Nat.lt_of_succ_lt hn)).2.2, (outsAt9 c n (Nat.lt_of_succ_lt hn)).2.2)
      else
        (out9_B_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2.1 (outsAt9 c n (Nat.lt_of_succ_lt hn)).2.2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) scM9_1 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2.1 (outsAt9 c n (Nat.lt_of_succ_lt hn)).2.2, (outsAt9 c n (Nat.lt_of_succ_lt hn)).2.2)

/-- At a first step: that case's contents. -/
theorem outsAt9_A (c : Dev nD) (t : Fin cfg9.N) (h0 : t.val % 16 = 0) (h1 : ¬t.val % 16 = 15) :
    outsAt9 V c t.val t.isLt = (out9_A_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t), sout9_A_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t), sout9_A_1 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t)) := by
  obtain ⟨n, hn⟩ := t
  cases n with
  | zero => exact rfl
  | succ n => exact (dif_pos h0).trans ((dif_neg h1).trans rfl)

/-- At a middle step: that case's contents, over what the point before left. -/
theorem outsAt9_B (c : Dev nD) (t : Fin cfg9.N) (h0 : ¬t.val % 16 = 0) (h1 : ¬t.val % 16 = 15) :
    outsAt9 V c t.val t.isLt = (out9_B_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1 (outsAt9 V c (t.val - 1) (Nat.lt_of_le_of_lt (Nat.sub_le _ _) t.isLt)).2.2, sout9_B_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1 (outsAt9 V c (t.val - 1) (Nat.lt_of_le_of_lt (Nat.sub_le _ _) t.isLt)).2.2, (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt9_C (c : Dev nD) (t : Fin cfg9.N) (h0 : ¬t.val % 16 = 0) (h1 : t.val % 16 = 15) :
    outsAt9 V c t.val t.isLt = (out9_C_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1 (outsAt9 V c (t.val - 1) (Nat.lt_of_le_of_lt (Nat.sub_le _ _) t.isLt)).2.2, sout9_C_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1 (outsAt9 V c (t.val - 1) (Nat.lt_of_le_of_lt (Nat.sub_le _ _) t.isLt)).2.2, (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- The invariant before position `n`. Before the first point: the scoped buffers no window stages at anything and
    the generator register at some state. Afterwards: the accumulator scratch and the scratch of normalised rows at what
    the point before left in them, the other such scoped buffers at anything, the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.1) ∗ owns (c : Thread nD τ) scM9_1 fullShare ((outsAt9 V c n hn).2.2)) ∗ restBut9 c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((outsAt9 V c n hn).2.1) ∗ owns (c : Thread nD τ) scM9_1 fullShare ((outsAt9 V c n hn).2.2)) ∗ restBut9 c) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.1) ∗ owns (c : Thread nD τ) scM9_1 fullShare ((outsAt9 V c (n - 1) (by omega)).2.2)) ∗ restBut9 c) ∗ (∃ r, prngReg c r)) := by
  cases n with
  | zero => exact absurd rfl hz
  | succ n => rfl

/-- The proof data of this pipeline on core `c`: the arrays as the region finds them; after the body each input's
    buffer at its block and the output's at `outsAt9`'s first component; the invariant `PhiS9`; nothing owed. The two
    input windows that read one array hold complementary halves of it; every other input its array whole. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => (outsAt9 V c t.val t.isLt).1
  Φ t := PhiS9 V c t.val (Nat.le_of_lt_succ t.isLt)
  q := fun w => if w = 0 then fullShare.left else if w = 5 then fullShare.right else fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation -/

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t)

set_option maxHeartbeats 4800000 in
/-- The body at any point. The inputs' buffers hold their blocks; the position along the reduction axis says which
    of the three cases the point is in; the invariant hands the body the two scratches at what the point before left
    (at anything before the first point) and takes them back at this point's contents; the output's buffer is handed
    back untouched except at a last step, where it is left at the stored sum. The core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_4)
  rw [show (dat9 V c).leavesExact 0 t = owns (c : Thread nD τ) (ms9_0 t) fullShare ((dat9 V c).after 0 t) from by
        unfold Dat.leavesExact; rw [liveAt9_0 t], after9_0]
  rw [show (dat9 V c).leavesExact 1 t = owns (c : Thread nD τ) (ms9_1 t) fullShare ((dat9 V c).after 1 t) from by
        unfold Dat.leavesExact; rw [liveAt9_1 t], after9_1]
  rw [show (dat9 V c).leavesExact 2 t = owns (c : Thread nD τ) (ms9_2 t) fullShare ((dat9 V c).after 2 t) from by
        unfold Dat.leavesExact; rw [liveAt9_2 t], after9_2]
  rw [show (dat9 V c).leavesExact 3 t = owns (c : Thread nD τ) (ms9_3 t) fullShare ((dat9 V c).after 3 t) from by
        unfold Dat.leavesExact; rw [liveAt9_3 t], after9_3]
  rw [show (dat9 V c).leavesExact 4 t = owns (c : Thread nD τ) (ms9_4 t) fullShare ((dat9 V c).after 4 t) from by
        unfold Dat.leavesExact; rw [liveAt9_4 t], after9_4]
  rw [show (dat9 V c).leavesExact 5 t = owns (c : Thread nD τ) (ms9_5 t) fullShare ((dat9 V c).after 5 t) from by
        unfold Dat.leavesExact; rw [liveAt9_5 t], after9_5]
  by_cases h0 : t.val % 16 = 0
  · by_cases h1 : t.val % 16 = 15
    · exfalso; omega
    · rw [Dat.leavesExact_idle (dat9 V c) 6 t (idleAt9_6_A t ((hcond9_0 t).mpr h0) (fun h => h1 ((hcond9_1 t).mp h))) (noFlush9_6_A t ((hcond9_0 t).mpr h0) (fun h => h1 ((hcond9_1 t).mp h)))]
      rw [outsAt9_A V c t h0 h1]
      unfold sout9_A_0 sout9_A_1; (try dsimp only)
      by_cases hz : t.val = 0
      · rw [PhiS9_castSucc V c t, PhiS9_zero V c _ _ hz, PhiA9_eq]
        iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
        iapply ((kernelRun9_A c (grid9.coords t) _ _ _ _ _ _ _ _ _ _ _ _ _ _ _ _ _ _ ((hcond9_0 t).mpr h0) (fun h => h1 ((hcond9_1 t).mp h)) (iblk9 V c 0 t) (iblk9 V c 1 t) (iblk9 V c 2 t) (iblk9 V c 3 t) (iblk9 V c 4 t) (iblk9 V c 5 t)).2.2.2 _ Set.univ _)
        isplitl [Hx]; · iexact Hx
        isplitl [Hw]; · iexact Hw
        isplitl [Hg]; · iexact Hg
        isplitl [Hu]; · iexact Hu
        isplitl [Hd]; · iexact Hd
        isplitl [Hr]; · iexact Hr
        isplitl [Ho]; · iexact Ho
        isplitl [Hacc]; · iexact Hacc
        isplitl [Hxn]; · iexact Hxn
        iintro ⟨Hx, Hw, Hg, Hu, Hd, Hr, Ho, ⟨%gacc, Hacc⟩, ⟨%gxn, Hxn⟩⟩
        isplitl [Hacc Hxn Hrest Hgen]
        · isplitl [Hacc Hxn Hrest]
          · isplitl [Hacc Hxn]
            · isplitl [Hacc]
              · unfold owns; iexists _; isplitr
                swap; · iexact Hacc
                ipureintro; exact View.read_writes_of_cover _ _ _ _ _ (scover9_A_0 c _ _ _ _ _ _ _ _ _ _ _ _ _ _ _ _ _ _ _ _ _ _ _ _ _ _ _)
              · unfold owns; iexists _; isplitr
                swap; · iexact Hxn
                ipureintro; exact View.read_writes_of_cover _ _ _ _ _ (scover9_A_1 c _ _ _ _ _ _ _ _ _ _ _ _ _ _ _ _ _ _ _ _ _ _ _ _ _ _ _)
            iexact Hrest
          iexact Hgen
        isplitl [Howe]; · iexact Howe
        isplitl [Hx]; · iexact Hx
        isplitl [Hw]; · iexact Hw
        isplitl [Hg]; · iexact Hg
        isplitl [Hu]; · iexact Hu
        isplitl [Hd]; · iexact Hd
        isplitl [Hr]; · iexact Hr
        iexists _; iexact Ho
      · rw [PhiS9_castSucc V c t, PhiS9_pos V c _ _ hz]
        iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
        iapply ((kernelRun9_A c (grid9.coords t) _ _ _ _ _ _ _ _ _ _ _ _ _ _ _ _ _ _ ((hcond9_0 t).mpr h0) (fun h => h1 ((hcond9_1 t).mp h)) (iblk9 V c 0 t) (iblk9 V c 1 t) (iblk9 V c 2 t) (iblk9 V c 3 t) (iblk9 V c 4 t) (iblk9 V c 5 t)).2.2.2 _ Set.univ _)
        isplitl [Hx]; · iexact Hx
        isplitl [Hw]; · iexact Hw
        isplitl [Hg]; · iexact Hg
        isplitl [Hu]; · iexact Hu
        isplitl [Hd]; · iexact Hd
        isplitl [Hr]; · iexact Hr
        isplitl [Ho]; · iexact Ho
        isplitl [Hacc]; · iexists _; iexact Hacc
        isplitl [Hxn]; · iexists _; iexact Hxn
        iintro ⟨Hx, Hw, Hg, Hu, Hd, Hr, Ho, ⟨%gacc, Hacc⟩, ⟨%gxn, Hxn⟩⟩
        isplitl [Hacc Hxn Hrest Hgen]
        · isplitl [Hacc Hxn Hrest]
          · isplitl [Hacc Hxn]
            · isplitl [Hacc]
              · unfold owns; iexists _; isplitr
                swap; · iexact Hacc
                ipureintro; exact View.read_writes_of_cover _ _ _ _ _ (scover9_A_0 c _ _ _ _ _ _ _ _ _ _ _ _ _ _ _ _ _ _ _ _ _ _ _ _ _ _ _)
              · unfold owns; iexists _; isplitr
                swap; · iexact Hxn
                ipureintro; exact View.read_writes_of_cover _ _ _ _ _ (scover9_A_1 c _ _ _ _ _ _ _ _ _ _ _ _ _ _ _ _ _ _ _ _ _ _ _ _ _ _ _)
            iexact Hrest
          iexact Hgen
        isplitl [Howe]; · iexact Howe
        isplitl [Hx]; · iexact Hx
        isplitl [Hw]; · iexact Hw
        isplitl [Hg]; · iexact Hg
        isplitl [Hu]; · iexact Hu
        isplitl [Hd]; · iexact Hd
        isplitl [Hr]; · iexact Hr
        iexists _; iexact Ho
  · by_cases h1 : t.val % 16 = 15
    · rw [show (dat9 V c).leavesExact 6 t = owns (c : Thread nD τ) (ms9_6 t) fullShare ((dat9 V c).after 6 t) from by
        unfold Dat.leavesExact; rw [liveAt9_6_C t (fun h => h0 ((hcond9_0 t).mp h)) ((hcond9_1 t).mpr h1)], after9_6]
      rw [outsAt9_C V c t h0 h1]
      unfold out9_C_6 sout9_C_0; (try dsimp only)
      have hz : t.val ≠ 0 := by omega
      rw [PhiS9_castSucc V c t, PhiS9_pos V c _ _ hz]
      iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
      iapply ((kernelRun9_C c (grid9.coords t) _ _ _ _ _ _ _ _ _ _ _ _ _ _ _ _ _ _ (fun h => h0 ((hcond9_0 t).mp h)) ((hcond9_1 t).mpr h1) (iblk9 V c 0 t) (iblk9 V c 1 t) (iblk9 V c 2 t) (iblk9 V c 3 t) (iblk9 V c 4 t) (iblk9 V c 5 t) _ _).2.2 Set.univ _)
      isplitl [Hx]; · iexact Hx
      isplitl [Hw]; · iexact Hw
      isplitl [Hg]; · iexact Hg
      isplitl [Hu]; · iexact Hu
      isplitl [Hd]; · iexact Hd
      isplitl [Hr]; · iexact Hr
      isplitl [Ho]; · iexists _; iexact Ho
      isplitl [Hacc]; · iexact Hacc
      isplitl [Hxn]; · iexact Hxn
      iintro ⟨Hx, Hw, Hg, Hu, Hd, Hr, ⟨%go, Ho⟩, ⟨%gacc, Hacc⟩, Hxn⟩
      isplitl [Hacc Hxn Hrest Hgen]
      · isplitl [Hacc Hxn Hrest]
        · isplitl [Hacc Hxn]
          · isplitl [Hacc]
            · unfold owns; iexists _; isplitr
              swap; · iexact Hacc
              ipureintro; exact View.read_writes_of_cover _ _ _ _ _ (scover9_C_0 c _ _ _ _ _ _ _ _ _ _ _ _ _ _ _ _ _ _ _ _ _ _ _ _ _ _ _ _ _)
            iexact Hxn
          iexact Hrest
        iexact Hgen
      isplitl [Howe]; · iexact Howe
      isplitl [Hx]; · iexact Hx
      isplitl [Hw]; · iexact Hw
      isplitl [Hg]; · iexact Hg
      isplitl [Hu]; · iexact Hu
      isplitl [Hd]; · iexact Hd
      isplitl [Hr]; · iexact Hr
      unfold owns; iexists _; isplitr
      swap; · iexact Ho
      ipureintro; exact View.read_writes_of_cover _ _ _ _ _ (cover9_C_6 c _ _ _ _ _ _ _ _ _ _ _ _ _ _ _ _ _ _ _ _ _ _ _ _ _ _ _ _ _)
    · rw [Dat.leavesExact_idle (dat9 V c) 6 t (idleAt9_6_B t (fun h => h0 ((hcond9_0 t).mp h)) (fun h => h1 ((hcond9_1 t).mp h))) (noFlush9_6_B t (fun h => h0 ((hcond9_0 t).mp h)) (fun h => h1 ((hcond9_1 t).mp h)))]
      rw [outsAt9_B V c t h0 h1]
      unfold sout9_B_0; (try dsimp only)
      have hz : t.val ≠ 0 := by omega
      rw [PhiS9_castSucc V c t, PhiS9_pos V c _ _ hz]
      iintro ⟨⟨⟨⟨Hacc, Hxn⟩, Hrest⟩, Hgen⟩, Howe, ⟨%ex, Hx⟩, ⟨%ew, Hw⟩, ⟨%eg, Hg⟩, ⟨%eu, Hu⟩, ⟨%ed, Hd⟩, ⟨%er, Hr⟩, ⟨%eo, Ho⟩⟩
      iapply ((kernelRun9_B c (grid9.coords t) _ _ _ _ _ _ _ _ _ _ _ _ _ _ _ _ _ _ (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) _ _).2.2 _ Set.univ _)
      isplitl [Hx]; · iexact Hx
      isplitl [Hw]; · iexact Hw
      isplitl [Hg]; · iexact Hg
      isplitl [Hu]; · iexact Hu
      isplitl [Hd]; · iexact Hd
      isplitl [Hr]; · iexact Hr
      isplitl [Ho]; · iexact Ho
      isplitl [Hacc]; · iexact Hacc
      isplitl [Hxn]; · iexact Hxn
      iintro ⟨Hx, Hw, Hg, Hu, Hd, Hr, Ho, ⟨%gacc, Hacc⟩, Hxn⟩
      isplitl [Hacc Hxn Hrest Hgen]
      · isplitl [Hacc Hxn Hrest]
        · isplitl [Hacc Hxn]
          · isplitl [Hacc]
            · unfold owns; iexists _; isplitr
              swap; · iexact Hacc
              ipureintro; exact View.read_writes_of_cover _ _ _ _ _ (scover9_B_0 c _ _ _ _ _ _ _ _ _ _ _ _ _ _ _ _ _ _ _ _ _ _ _ _ _ _ _ _ _)
            iexact Hxn
          iexact Hrest
        iexact Hgen
      isplitl [Howe]; · iexact Howe
      isplitl [Hx]; · iexact Hx
      isplitl [Hw]; · iexact Hw
      isplitl [Hg]; · iexact Hg
      isplitl [Hu]; · iexact Hu
      isplitl [Hd]; · iexact Hd
      isplitl [Hr]; · iexact Hr
      iexists _; iexact Ho

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's ends -/

/-- The generator register and the scoped buffers no window stages make the invariant before the first point. -/
theorem hin9 (c : Dev nD) :
    (iprop((∃ r, prngReg c r) ∗ Pipeline.scopedRest (Ix := Unit) (Name := ℕ) (U := UR sig nD τ) (Lvl := ℕ) (Val := Elt F) spec9 c) : sProp 𝕄) ⊢ (dat9 V c).Φ 0 := by
  rw [show (dat9 V c).Φ 0 = PhiS9 V c 0 (Nat.zero_le _) from rfl, PhiS9_zero V c 0 _ rfl]; unfold Pipeline.ΦA
  iintro ⟨Hp, Hr⟩
  isplitl [Hr]; · iexact Hr
  iexact Hp

/-- After any point the invariant gives them back: what the scratches were left at is forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨Hacc, Hxn⟩, Hrest⟩, Hgen⟩
  isplitl [Hacc Hxn Hrest]
  · isplitl [Hacc Hxn]
    · isplitl [Hacc]
      · iexists _; iexact Hacc
      iexists _; iexact Hxn
    iexact Hrest
  iexact Hgen

/-- The same after the last point. -/
theorem hout9 (c : Dev nD) :
    (dat9 V c).Φ (Fin.last cfg9.N) ⊢ (iprop((∃ r, prngReg c r) ∗ Pipeline.scopedRest (Ix := Unit) (Name := ℕ) (U := UR sig nD τ) (Lvl := ℕ) (Val := Elt F) spec9 c) : sProp 𝕄) := by
  refine (Phi_out9 V c _ (by rw [Fin.val_last]; have : cfg9.N = 64 := N_4; omega)).trans ?_
  unfold Pipeline.ΦA
  iintro ⟨Hr, Hp⟩
  isplitl [Hp]; · iexact Hp
  iexact Hr

end Cert.KernelIdeal.Gen

end
-- ==== Proof.KI.Fold.lean ====
/- The contents of the TensorCore's unscoped buffers at each boundary of the program: the launch memory pushed through
  each host stretch, and after each kernel region the same contents with the region's output array at what the
  region's write-backs leave (the proof data's array after the last grid point).  Each region's proof data is taken
  at the boundary it is entered from; beside the buffers every boundary carries the generator register at some
  state and nothing owed.
-/
import proofs.«167047_j26895085207995_2_alg».proof.Proof.KI.RunCond
import proofs.«167047_j26895085207995_2_alg».proof.Proof.KI.Reg0
import proofs.«167047_j26895085207995_2_alg».proof.Proof.KI.Reg1
import proofs.«167047_j26895085207995_2_alg».proof.Proof.KI.Reg2
import proofs.«167047_j26895085207995_2_alg».proof.Proof.KI.Reg3
import proofs.«167047_j26895085207995_2_alg».proof.Proof.KI.Reg4
import proofs.«167047_j26895085207995_2_alg».proof.Proof.KI.Reg5
import proofs.«167047_j26895085207995_2_alg».proof.Proof.KI.Reg6
import proofs.«167047_j26895085207995_2_alg».proof.Proof.KI.Reg7
import proofs.«167047_j26895085207995_2_alg».proof.Proof.KI.Reg8
import proofs.«167047_j26895085207995_2_alg».proof.Proof.KI.Reg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A boundary's contents read at the TensorCore's references: what a region's proof data take. -/
abbrev atTc (W : Dev nD → Valuation τ sig (Elt F)) : (c : Dev nD) → (b : Ref sig .tc) → Buf (Elt F) ((c : Thread nD τ).loc b) :=
  fun c b => W c b

/-- After the first host stretch: region 0's entry. -/
abbrev B1 (c : Dev nD) : Valuation τ sig (Elt F) := StableHlo.after hostOps0 (V0 m c)
/-- What region 0 leaves in its output array. -/
def o2 (c : Dev nD) : Buf (Elt F) ((c : Thread nD τ).loc main_v44) := (dat0 (atTc (B1 m)) c).arrAt 3 cfg0.N
/-- After region 0: its output array at what it leaves, every other buffer as entered. -/
def B2 (c : Dev nD) : Valuation τ sig (Elt F) := Function.update (B1 m c) main_v44 (o2 m c)
/-- After the host stretch `hostOps1`. -/
abbrev B3 (c : Dev nD) : Valuation τ sig (Elt F) := StableHlo.after hostOps1 (B2 m c)
/-- What region 1 leaves in its output array. -/
def o4 (c : Dev nD) : Buf (Elt F) ((c : Thread nD τ).loc main_v54) := (dat1 (atTc (B3 m)) c).arrAt 3 cfg1.N
/-- After region 1: its output array at what it leaves, every other buffer as entered. -/
def B4 (c : Dev nD) : Valuation τ sig (Elt F) := Function.update (B3 m c) main_v54 (o4 m c)
/-- What region 2 leaves in its output array. -/
def o5 (c : Dev nD) : Buf (Elt F) ((c : Thread nD τ).loc main_v55) := (dat2 (atTc (B4 m)) c).arrAt 6 cfg2.N
/-- After region 2: its output array at what it leaves, every other buffer as entered. -/
def B5 (c : Dev nD) : Valuation τ sig (Elt F) := Function.update (B4 m c) main_v55 (o5 m c)
/-- After the host stretch `hostOps3`. -/
abbrev B6 (c : Dev nD) : Valuation τ sig (Elt F) := StableHlo.after hostOps3 (B5 m c)
/-- What region 3 leaves in its output array. -/
def o7 (c : Dev nD) : Buf (Elt F) ((c : Thread nD τ).loc main_v58) := (dat3 (atTc (B6 m)) c).arrAt 3 cfg3.N
/-- After region 3: its output array at what it leaves, every other buffer as entered. -/
def B7 (c : Dev nD) : Valuation τ sig (Elt F) := Function.update (B6 m c) main_v58 (o7 m c)
/-- After the host stretch `hostOps4`. -/
abbrev B8 (c : Dev nD) : Valuation τ sig (Elt F) := StableHlo.after hostOps4 (B7 m c)
/-- What region 4 leaves in its output array. -/
def o9 (c : Dev nD) : Buf (Elt F) ((c : Thread nD τ).loc main_v60) := (dat4 (atTc (B8 m)) c).arrAt 6 cfg4.N
/-- After region 4: its output array at what it leaves, every other buffer as entered. -/
def B9 (c : Dev nD) : Valuation τ sig (Elt F) := Function.update (B8 m c) main_v60 (o9 m c)
/-- After the host stretch `hostOps5`. -/
abbrev B10 (c : Dev nD) : Valuation τ sig (Elt F) := StableHlo.after hostOps5 (B9 m c)
/-- What region 5 leaves in its output array. -/
def o11 (c : Dev nD) : Buf (Elt F) ((c : Thread nD τ).loc main_v83) := (dat5 (atTc (B10 m)) c).arrAt 3 cfg5.N
/-- After region 5: its output array at what it leaves, every other buffer as entered. -/
def B11 (c : Dev nD) : Valuation τ sig (Elt F) := Function.update (B10 m c) main_v83 (o11 m c)
/-- After the host stretch `hostOps6`. -/
abbrev B12 (c : Dev nD) : Valuation τ sig (Elt F) := StableHlo.after hostOps6 (B11 m c)
/-- What region 6 leaves in its output array. -/
def o13 (c : Dev nD) : Buf (Elt F) ((c : Thread nD τ).loc main_v93) := (dat6 (atTc (B12 m)) c).arrAt 3 cfg6.N
/-- After region 6: its output array at what it leaves, every other buffer as entered. -/
def B13 (c : Dev nD) : Valuation τ sig (Elt F) := Function.update (B12 m c) main_v93 (o13 m c)
/-- What region 7 leaves in its output array. -/
def o14 (c : Dev nD) : Buf (Elt F) ((c : Thread nD τ).loc main_v94) := (dat7 (atTc (B13 m)) c).arrAt 6 cfg7.N
/-- After region 7: its output array at what it leaves, every other buffer as entered. -/
def B14 (c : Dev nD) : Valuation τ sig (Elt F) := Function.update (B13 m c) main_v94 (o14 m c)
/-- After the host stretch `hostOps8`. -/
abbrev B15 (c : Dev nD) : Valuation τ sig (Elt F) := StableHlo.after hostOps8 (B14 m c)
/-- What region 8 leaves in its output array. -/
def o16 (c : Dev nD) : Buf (Elt F) ((c : Thread nD τ).loc main_v97) := (dat8 (atTc (B15 m)) c).arrAt 3 cfg8.N
/-- After region 8: its output array at what it leaves, every other buffer as entered. -/
def B16 (c : Dev nD) : Valuation τ sig (Elt F) := Function.update (B15 m c) main_v97 (o16 m c)
/-- After the host stretch `hostOps9`. -/
abbrev B17 (c : Dev nD) : Valuation τ sig (Elt F) := StableHlo.after hostOps9 (B16 m c)
/-- What region 9 leaves in its output array. -/
def o18 (c : Dev nD) : Buf (Elt F) ((c : Thread nD τ).loc main_v99) := (dat9 (atTc (B17 m)) c).arrAt 6 cfg9.N
/-- After region 9: its output array at what it leaves, every other buffer as entered. -/
def B18 (c : Dev nD) : Valuation τ sig (Elt F) := Function.update (B17 m c) main_v99 (o18 m c)
/-- After the host stretch `hostOps10`. -/
abbrev B19 (c : Dev nD) : Valuation τ sig (Elt F) := StableHlo.after hostOps10 (B18 m c)

/-- What the regions leave, as the conditional frame's unknowns: the boundary contents themselves. -/
def outsR : Outs (F := F) := fun J r c =>
  if J = 2 then B2 m c r else if J = 4 then B4 m c r else if J = 5 then B5 m c r else if J = 7 then B7 m c r
  else if J = 9 then B9 m c r else if J = 11 then B11 m c r else if J = 13 then B13 m c r else if J = 14 then B14 m c r
  else if J = 16 then B16 m c r else B18 m c r

/-- The unknown read at region 0's output array is what the region leaves. -/
theorem outsR_2 (c : Dev nD) : outsR m 2 main_v44 c = o2 m c := by
  unfold outsR B2
  rw [if_pos rfl]
  exact Function.update_self _ _ _
/-- The unknown read at region 1's output array is what the region leaves. -/
theorem outsR_4 (c : Dev nD) : outsR m 4 main_v54 c = o4 m c := by
  unfold outsR B4
  rw [if_neg (by decide), if_pos rfl]
  exact Function.update_self _ _ _
/-- The unknown read at region 2's output array is what the region leaves. -/
theorem outsR_5 (c : Dev nD) : outsR m 5 main_v55 c = o5 m c := by
  unfold outsR B5
  rw [if_neg (by decide), if_neg (by decide), if_pos rfl]
  exact Function.update_self _ _ _
/-- The unknown read at region 3's output array is what the region leaves. -/
theorem outsR_7 (c : Dev nD) : outsR m 7 main_v58 c = o7 m c := by
  unfold outsR B7
  rw [if_neg (by decide), if_neg (by decide), if_neg (by decide), if_pos rfl]
  exact Function.update_self _ _ _
/-- The unknown read at region 4's output array is what the region leaves. -/
theorem outsR_9 (c : Dev nD) : outsR m 9 main_v60 c = o9 m c := by
  unfold outsR B9
  rw [if_neg (by decide), if_neg (by decide), if_neg (by decide), if_neg (by decide), if_pos rfl]
  exact Function.update_self _ _ _
/-- The unknown read at region 5's output array is what the region leaves. -/
theorem outsR_11 (c : Dev nD) : outsR m 11 main_v83 c = o11 m c := by
  unfold outsR B11
  rw [if_neg (by decide), if_neg (by decide), if_neg (by decide), if_neg (by decide), if_neg (by decide), if_pos rfl]
  exact Function.update_self _ _ _
/-- The unknown read at region 6's output array is what the region leaves. -/
theorem outsR_13 (c : Dev nD) : outsR m 13 main_v93 c = o13 m c := by
  unfold outsR B13
  rw [if_neg (by decide), if_neg (by decide), if_neg (by decide), if_neg (by decide), if_neg (by decide), if_neg (by decide), if_pos rfl]
  exact Function.update_self _ _ _
/-- The unknown read at region 7's output array is what the region leaves. -/
theorem outsR_14 (c : Dev nD) : outsR m 14 main_v94 c = o14 m c := by
  unfold outsR B14
  rw [if_neg (by decide), if_neg (by decide), if_neg (by decide), if_neg (by decide), if_neg (by decide), if_neg (by decide), if_neg (by decide), if_pos rfl]
  exact Function.update_self _ _ _
/-- The unknown read at region 8's output array is what the region leaves. -/
theorem outsR_16 (c : Dev nD) : outsR m 16 main_v97 c = o16 m c := by
  unfold outsR B16
  rw [if_neg (by decide), if_neg (by decide), if_neg (by decide), if_neg (by decide), if_neg (by decide), if_neg (by decide), if_neg (by decide), if_neg (by decide), if_pos rfl]
  exact Function.update_self _ _ _
/-- The unknown read at region 9's output array is what the region leaves. -/
theorem outsR_18 (c : Dev nD) : outsR m 18 main_v99 c = o18 m c := by
  unfold outsR B18
  rw [if_neg (by decide), if_neg (by decide), if_neg (by decide), if_neg (by decide), if_neg (by decide), if_neg (by decide), if_neg (by decide), if_neg (by decide), if_neg (by decide)]
  exact Function.update_self _ _ _

/-- The conditional frame's boundary contents at these unknowns are the boundaries above. -/
theorem V1_eq (c : Dev nD) : V1 m c = B1 m c := rfl
theorem V2_eq (c : Dev nD) : V2 m (outsR m) c = B2 m c := by
  show Function.update (V1 m c) main_v44 (outsR m 2 main_v44 c) = Function.update (B1 m c) main_v44 (o2 m c)
  rw [V1_eq, outsR_2]
theorem V3_eq (c : Dev nD) : V3 m (outsR m) c = B3 m c := by
  show StableHlo.after hostOps1 (V2 m (outsR m) c) = StableHlo.after hostOps1 (B2 m c)
  rw [V2_eq]
theorem V4_eq (c : Dev nD) : V4 m (outsR m) c = B4 m c := by
  show Function.update (V3 m (outsR m) c) main_v54 (outsR m 4 main_v54 c) = Function.update (B3 m c) main_v54 (o4 m c)
  rw [V3_eq, outsR_4]
theorem V5_eq (c : Dev nD) : V5 m (outsR m) c = B5 m c := by
  show Function.update (V4 m (outsR m) c) main_v55 (outsR m 5 main_v55 c) = Function.update (B4 m c) main_v55 (o5 m c)
  rw [V4_eq, outsR_5]
theorem V6_eq (c : Dev nD) : V6 m (outsR m) c = B6 m c := by
  show StableHlo.after hostOps3 (V5 m (outsR m) c) = StableHlo.after hostOps3 (B5 m c)
  rw [V5_eq]
theorem V7_eq (c : Dev nD) : V7 m (outsR m) c = B7 m c := by
  show Function.update (V6 m (outsR m) c) main_v58 (outsR m 7 main_v58 c) = Function.update (B6 m c) main_v58 (o7 m c)
  rw [V6_eq, outsR_7]
theorem V8_eq (c : Dev nD) : V8 m (outsR m) c = B8 m c := by
  show StableHlo.after hostOps4 (V7 m (outsR m) c) = StableHlo.after hostOps4 (B7 m c)
  rw [V7_eq]
theorem V9_eq (c : Dev nD) : V9 m (outsR m) c = B9 m c := by
  show Function.update (V8 m (outsR m) c) main_v60 (outsR m 9 main_v60 c) = Function.update (B8 m c) main_v60 (o9 m c)
  rw [V8_eq, outsR_9]
theorem V10_eq (c : Dev nD) : V10 m (outsR m) c = B10 m c := by
  show StableHlo.after hostOps5 (V9 m (outsR m) c) = StableHlo.after hostOps5 (B9 m c)
  rw [V9_eq]
theorem V11_eq (c : Dev nD) : V11 m (outsR m) c = B11 m c := by
  show Function.update (V10 m (outsR m) c) main_v83 (outsR m 11 main_v83 c) = Function.update (B10 m c) main_v83 (o11 m c)
  rw [V10_eq, outsR_11]
theorem V12_eq (c : Dev nD) : V12 m (outsR m) c = B12 m c := by
  show StableHlo.after hostOps6 (V11 m (outsR m) c) = StableHlo.after hostOps6 (B11 m c)
  rw [V11_eq]
theorem V13_eq (c : Dev nD) : V13 m (outsR m) c = B13 m c := by
  show Function.update (V12 m (outsR m) c) main_v93 (outsR m 13 main_v93 c) = Function.update (B12 m c) main_v93 (o13 m c)
  rw [V12_eq, outsR_13]
theorem V14_eq (c : Dev nD) : V14 m (outsR m) c = B14 m c := by
  show Function.update (V13 m (outsR m) c) main_v94 (outsR m 14 main_v94 c) = Function.update (B13 m c) main_v94 (o14 m c)
  rw [V13_eq, outsR_14]
theorem V15_eq (c : Dev nD) : V15 m (outsR m) c = B15 m c := by
  show StableHlo.after hostOps8 (V14 m (outsR m) c) = StableHlo.after hostOps8 (B14 m c)
  rw [V14_eq]
theorem V16_eq (c : Dev nD) : V16 m (outsR m) c = B16 m c := by
  show Function.update (V15 m (outsR m) c) main_v97 (outsR m 16 main_v97 c) = Function.update (B15 m c) main_v97 (o16 m c)
  rw [V15_eq, outsR_16]
theorem V17_eq (c : Dev nD) : V17 m (outsR m) c = B17 m c := by
  show StableHlo.after hostOps9 (V16 m (outsR m) c) = StableHlo.after hostOps9 (B16 m c)
  rw [V16_eq]
theorem V18_eq (c : Dev nD) : V18 m (outsR m) c = B18 m c := by
  show Function.update (V17 m (outsR m) c) main_v99 (outsR m 18 main_v99 c) = Function.update (B17 m c) main_v99 (o18 m c)
  rw [V17_eq, outsR_18]
theorem V19_eq (c : Dev nD) : V19 m (outsR m) c = B19 m c := by
  show StableHlo.after hostOps10 (V18 m (outsR m) c) = StableHlo.after hostOps10 (B18 m c)
  rw [V18_eq]

/-! ## The proof data family and the state beside the buffers -/

/-- Every region's proof data, each at the boundary it is entered from: a literal match on the region's number. -/
def pdats : (p : Fin 10) → (c : Dev nD) → Dat τ (Elt F) Unit ℕ (UR sig nD τ) ℕ (cfgs p) c
  | ⟨0, _⟩ => fun c => dat0 (atTc (B1 m)) c
  | ⟨1, _⟩ => fun c => dat1 (atTc (B3 m)) c
  | ⟨2, _⟩ => fun c => dat2 (atTc (B4 m)) c
  | ⟨3, _⟩ => fun c => dat3 (atTc (B6 m)) c
  | ⟨4, _⟩ => fun c => dat4 (atTc (B8 m)) c
  | ⟨5, _⟩ => fun c => dat5 (atTc (B10 m)) c
  | ⟨6, _⟩ => fun c => dat6 (atTc (B12 m)) c
  | ⟨7, _⟩ => fun c => dat7 (atTc (B13 m)) c
  | ⟨8, _⟩ => fun c => dat8 (atTc (B15 m)) c
  | ⟨9, _⟩ => fun c => dat9 (atTc (B17 m)) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every boundary: the core's generator register at some state, and nothing owed. -/
abbrev R (c : Dev nD) : sProp 𝕄 := iprop((∃ r, prngReg c r) ∗ ∃ W, owes (c : Thread nD τ) (0 : CellTallies nD τ sig Unit) W)
/-- An unscoped TensorCore reference is among those a boundary holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Gen

end
-- ==== Proof.KI.Seg0.lean ====
import proofs.«167047_j26895085207995_2_alg».proof.Proof.KI.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF0`, `hrest0`) are what putting the arrays back
    needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix0 : Fin 10 := 0
/-- The boundary contents the region is entered from, -/
abbrev Ein0 : Dev nD → Valuation τ sig (Elt F) := B1 m
/-- and those it is left at. -/
abbrev Eout0 : Dev nD → Valuation τ sig (Elt F) := B2 m
/-- The output window, -/
abbrev owin0 : Fin cfg0.W := 3
/-- and its array. -/
abbrev oref0 : Ref sig .tc := main_v44

/-- The exit contents are the entry contents updated at the output array, with what the pipeline's write-backs leave
    there after the last grid point. -/
theorem Eout0_eq (c : Dev nD) :
    Eout0 m c = Function.update (Ein0 m c) (Proc.devRef .tc oref0) ((dat0 (atTc (Ein0 m)) c).arrAt owin0 cfg0.N) := rfl

/-! ## The exit contents at the region's arrays and off them -/

/-- At exit each of the region's arrays holds what the pipeline leaves in it: the output's array by the update; an
    input's array is never written, so it holds its entry contents, which the update (at another reference) keeps. -/
theorem hF0 (c : Dev nD) (w : Fin cfg0.W) :
    (dat0 (atTc (Ein0 m)) c).arrAt w cfg0.N = atTc (Eout0 m) c (Pipeline.arrRef spec0 w) := by
  by_cases hw : w = owin0
  · subst hw
    show _ = Eout0 m c (Proc.devRef .tc oref0)
    rw [Eout0_eq, Function.update_self]
  · have hin : (cfg0.win w).isOut = false :=
      (by decide : ∀ w : Fin cfg0.W, w ≠ owin0 → (cfg0.win w).isOut = false) w hw
    have hne : Pipeline.arrRef spec0 w ≠ oref0 :=
      (by decide : ∀ w : Fin cfg0.W, w ≠ owin0 → Pipeline.arrRef spec0 w ≠ oref0) w hw
    refine (((dat0 (atTc (Ein0 m)) c).arrAt_in w hin _).trans (A_eq0 (atTc (Ein0 m)) c w)).trans ?_
    show Ein0 m c (Proc.devRef .tc (Pipeline.arrRef spec0 w)) = Eout0 m c (Proc.devRef .tc (Pipeline.arrRef spec0 w))
    rw [Eout0_eq]
    exact (Function.update_of_ne (StableHlo.devRef_ne_of_ne hne) _ _).symm

/-- Off the region's arrays the exit contents are the entry contents: the update is at one of the arrays. -/
theorem hrest0 (c : Dev nD) : ∀ b, b ∉ Finset.univ.image (Pipeline.arrRef spec0) → atTc (Eout0 m) c b = atTc (Ein0 m) c b := by
  intro b hb
  have hne : b ≠ oref0 := fun e => hb (Finset.mem_image.mpr ⟨owin0, Finset.mem_univ _, e.symm⟩)
  show Eout0 m c (Proc.devRef .tc b) = Ein0 m c (Proc.devRef .tc b)
  rw [Eout0_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg0 : Pipeline.RegionSeg (pcfgs (F := F)) adm (pdats m) () defs₀ 𝒱₀ L lv pix0 where
  win := launch0.win.to₀
  block_pos := launch0.block_pos
  stage_whole := launch0.stage_whole
  K := PEmpty
  osem k := k.elim
  ho := Pipeline.OwnSemFacts.none _
  hbody c := (body_obligation0 (atTc (Ein0 m)) c).loose
  hwaits := Pipeline.hwaits_of_owed_zero _ _ _ _ L lv pix0 fun _ _ => rfl
  pre c := iprop(StableHlo.held (c : Thread nD τ) (Pipeline.ucRefs τ sig) (Ein0 m c) ∗ R c)
  post c := iprop(StableHlo.held (c : Thread nD τ) (Pipeline.ucRefs τ sig) (Eout0 m c) ∗ R c)
  X c := iprop(∃ r, prngReg c r)
  Y c := iprop(∃ r, prngReg c r)
  Z c := Pipeline.unscopedRest (Ix := Unit) (Name := ℕ) (U := UR sig nD τ) (Lvl := ℕ) spec0 c (atTc (Ein0 m) c)
  hentry c := by
    rw [Pipeline.ownSems0_none]
    have hsplit := Pipeline.arrays_of_unscopedBufs (p := pix0) (pcfgs (F := F)) adm (pdats m) launch0.win launch0.arr_whole c
      ((pdats m pix0 c).share_full fun _ => rfl) (atTc (Ein0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m pix0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := pix0) (pcfgs (F := F)) adm (Ix := Unit) (Name := ℕ) (U := UR sig nD τ) (Lvl := ℕ)
      launch0.win launch0.arr_whole c (pdats m) ((pdats m pix0 c).share_full fun _ => rfl)
      (atTc (Ein0 m) c) (atTc (Eout0 m) c) ((pdats m pix0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg1.lean ====
import proofs.«167047_j26895085207995_2_alg».proof.Proof.KI.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF1`, `hrest1`) are what putting the arrays back
    needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix1 : Fin 10 := 1
/-- The boundary contents the region is entered from, -/
abbrev Ein1 : Dev nD → Valuation τ sig (Elt F) := B3 m
/-- and those it is left at. -/
abbrev Eout1 : Dev nD → Valuation τ sig (Elt F) := B4 m
/-- The output window, -/
abbrev owin1 : Fin cfg1.W := 3
/-- and its array. -/
abbrev oref1 : Ref sig .tc := main_v54

/-- The exit contents are the entry contents updated at the output array, with what the pipeline's write-backs leave
    there after the last grid point. -/
theorem Eout1_eq (c : Dev nD) :
    Eout1 m c = Function.update (Ein1 m c) (Proc.devRef .tc oref1) ((dat1 (atTc (Ein1 m)) c).arrAt owin1 cfg1.N) := rfl

/-! ## The exit contents at the region's arrays and off them -/

/-- At exit each of the region's arrays holds what the pipeline leaves in it: the output's array by the update; an
    input's array is never written, so it holds its entry contents, which the update (at another reference) keeps. -/
theorem hF1 (c : Dev nD) (w : Fin cfg1.W) :
    (dat1 (atTc (Ein1 m)) c).arrAt w cfg1.N = atTc (Eout1 m) c (Pipeline.arrRef spec1 w) := by
  by_cases hw : w = owin1
  · subst hw
    show _ = Eout1 m c (Proc.devRef .tc oref1)
    rw [Eout1_eq, Function.update_self]
  · have hin : (cfg1.win w).isOut = false :=
      (by decide : ∀ w : Fin cfg1.W, w ≠ owin1 → (cfg1.win w).isOut = false) w hw
    have hne : Pipeline.arrRef spec1 w ≠ oref1 :=
      (by decide : ∀ w : Fin cfg1.W, w ≠ owin1 → Pipeline.arrRef spec1 w ≠ oref1) w hw
    refine (((dat1 (atTc (Ein1 m)) c).arrAt_in w hin _).trans (A_eq1 (atTc (Ein1 m)) c w)).trans ?_
    show Ein1 m c (Proc.devRef .tc (Pipeline.arrRef spec1 w)) = Eout1 m c (Proc.devRef .tc (Pipeline.arrRef spec1 w))
    rw [Eout1_eq]
    exact (Function.update_of_ne (StableHlo.devRef_ne_of_ne hne) _ _).symm

/-- Off the region's arrays the exit contents are the entry contents: the update is at one of the arrays. -/
theorem hrest1 (c : Dev nD) : ∀ b, b ∉ Finset.univ.image (Pipeline.arrRef spec1) → atTc (Eout1 m) c b = atTc (Ein1 m) c b := by
  intro b hb
  have hne : b ≠ oref1 := fun e => hb (Finset.mem_image.mpr ⟨owin1, Finset.mem_univ _, e.symm⟩)
  show Eout1 m c (Proc.devRef .tc b) = Ein1 m c (Proc.devRef .tc b)
  rw [Eout1_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg1 : Pipeline.RegionSeg (pcfgs (F := F)) adm (pdats m) () defs₀ 𝒱₀ L lv pix1 where
  win := launch1.win.to₀
  block_pos := launch1.block_pos
  stage_whole := launch1.stage_whole
  K := PEmpty
  osem k := k.elim
  ho := Pipeline.OwnSemFacts.none _
  hbody c := (body_obligation1 (atTc (Ein1 m)) c).loose
  hwaits := Pipeline.hwaits_of_owed_zero _ _ _ _ L lv pix1 fun _ _ => rfl
  pre c := iprop(StableHlo.held (c : Thread nD τ) (Pipeline.ucRefs τ sig) (Ein1 m c) ∗ R c)
  post c := iprop(StableHlo.held (c : Thread nD τ) (Pipeline.ucRefs τ sig) (Eout1 m c) ∗ R c)
  X c := iprop(∃ r, prngReg c r)
  Y c := iprop(∃ r, prngReg c r)
  Z c := Pipeline.unscopedRest (Ix := Unit) (Name := ℕ) (U := UR sig nD τ) (Lvl := ℕ) spec1 c (atTc (Ein1 m) c)
  hentry c := by
    rw [Pipeline.ownSems0_none]
    have hsplit := Pipeline.arrays_of_unscopedBufs (p := pix1) (pcfgs (F := F)) adm (pdats m) launch1.win launch1.arr_whole c
      ((pdats m pix1 c).share_full fun _ => rfl) (atTc (Ein1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m pix1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := pix1) (pcfgs (F := F)) adm (Ix := Unit) (Name := ℕ) (U := UR sig nD τ) (Lvl := ℕ)
      launch1.win launch1.arr_whole c (pdats m) ((pdats m pix1 c).share_full fun _ => rfl)
      (atTc (Ein1 m) c) (atTc (Eout1 m) c) ((pdats m pix1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg2.lean ====
import proofs.«167047_j26895085207995_2_alg».proof.Proof.KI.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF2`, `hrest2`) are what putting the arrays back
    needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix2 : Fin 10 := 2
/-- The boundary contents the region is entered from, -/
abbrev Ein2 : Dev nD → Valuation τ sig (Elt F) := B4 m
/-- and those it is left at. -/
abbrev Eout2 : Dev nD → Valuation τ sig (Elt F) := B5 m
/-- The output window, -/
abbrev owin2 : Fin cfg2.W := 6
/-- and its array. -/
abbrev oref2 : Ref sig .tc := main_v55

/-- The exit contents are the entry contents updated at the output array, with what the pipeline's write-backs leave
    there after the last grid point. -/
theorem Eout2_eq (c : Dev nD) :
    Eout2 m c = Function.update (Ein2 m c) (Proc.devRef .tc oref2) ((dat2 (atTc (Ein2 m)) c).arrAt owin2 cfg2.N) := rfl

/-! ## The exit contents at the region's arrays and off them -/

/-- At exit each of the region's arrays holds what the pipeline leaves in it: the output's array by the update; an
    input's array is never written, so it holds its entry contents, which the update (at another reference) keeps. -/
theorem hF2 (c : Dev nD) (w : Fin cfg2.W) :
    (dat2 (atTc (Ein2 m)) c).arrAt w cfg2.N = atTc (Eout2 m) c (Pipeline.arrRef spec2 w) := by
  by_cases hw : w = owin2
  · subst hw
    show _ = Eout2 m c (Proc.devRef .tc oref2)
    rw [Eout2_eq, Function.update_self]
  · have hin : (cfg2.win w).isOut = false :=
      (by decide : ∀ w : Fin cfg2.W, w ≠ owin2 → (cfg2.win w).isOut = false) w hw
    have hne : Pipeline.arrRef spec2 w ≠ oref2 :=
      (by decide : ∀ w : Fin cfg2.W, w ≠ owin2 → Pipeline.arrRef spec2 w ≠ oref2) w hw
    refine (((dat2 (atTc (Ein2 m)) c).arrAt_in w hin _).trans (A_eq2 (atTc (Ein2 m)) c w)).trans ?_
    show Ein2 m c (Proc.devRef .tc (Pipeline.arrRef spec2 w)) = Eout2 m c (Proc.devRef .tc (Pipeline.arrRef spec2 w))
    rw [Eout2_eq]
    exact (Function.update_of_ne (StableHlo.devRef_ne_of_ne hne) _ _).symm

/-- Off the region's arrays the exit contents are the entry contents: the update is at one of the arrays. -/
theorem hrest2 (c : Dev nD) : ∀ b, b ∉ Finset.univ.image (Pipeline.arrRef spec2) → atTc (Eout2 m) c b = atTc (Ein2 m) c b := by
  intro b hb
  have hne : b ≠ oref2 := fun e => hb (Finset.mem_image.mpr ⟨owin2, Finset.mem_univ _, e.symm⟩)
  show Eout2 m c (Proc.devRef .tc b) = Ein2 m c (Proc.devRef .tc b)
  rw [Eout2_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg2 : Pipeline.RegionSeg (pcfgs (F := F)) adm (pdats m) () defs₀ 𝒱₀ L lv pix2 where
  win := launch2.win.to₀
  block_pos := launch2.block_pos
  stage_whole := launch2.stage_whole
  K := PEmpty
  osem k := k.elim
  ho := Pipeline.OwnSemFacts.none _
  hbody c := (body_obligation2 (atTc (Ein2 m)) c).loose
  hwaits := Pipeline.hwaits_of_owed_zero _ _ _ _ L lv pix2 fun _ _ => rfl
  pre c := iprop(StableHlo.held (c : Thread nD τ) (Pipeline.ucRefs τ sig) (Ein2 m c) ∗ R c)
  post c := iprop(StableHlo.held (c : Thread nD τ) (Pipeline.ucRefs τ sig) (Eout2 m c) ∗ R c)
  X c := iprop(∃ r, prngReg c r)
  Y c := iprop(∃ r, prngReg c r)
  Z c := Pipeline.unscopedRest (Ix := Unit) (Name := ℕ) (U := UR sig nD τ) (Lvl := ℕ) spec2 c (atTc (Ein2 m) c)
  hentry c := by
    rw [Pipeline.ownSems0_none]
    have hsplit := Pipeline.arrays_of_unscopedBufs (p := pix2) (pcfgs (F := F)) adm (pdats m) launch2.win launch2.arr_whole c
      ((pdats m pix2 c).share_full fun _ => rfl) (atTc (Ein2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m pix2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := pix2) (pcfgs (F := F)) adm (Ix := Unit) (Name := ℕ) (U := UR sig nD τ) (Lvl := ℕ)
      launch2.win launch2.arr_whole c (pdats m) ((pdats m pix2 c).share_full fun _ => rfl)
      (atTc (Ein2 m) c) (atTc (Eout2 m) c) ((pdats m pix2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg3.lean ====
import proofs.«167047_j26895085207995_2_alg».proof.Proof.KI.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF3`, `hrest3`) are what putting the arrays back
    needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix3 : Fin 10 := 3
/-- The boundary contents the region is entered from, -/
abbrev Ein3 : Dev nD → Valuation τ sig (Elt F) := B6 m
/-- and those it is left at. -/
abbrev Eout3 : Dev nD → Valuation τ sig (Elt F) := B7 m
/-- The output window, -/
abbrev owin3 : Fin cfg3.W := 3
/-- and its array. -/
abbrev oref3 : Ref sig .tc := main_v58

/-- The exit contents are the entry contents updated at the output array, with what the pipeline's write-backs leave
    there after the last grid point. -/
theorem Eout3_eq (c : Dev nD) :
    Eout3 m c = Function.update (Ein3 m c) (Proc.devRef .tc oref3) ((dat3 (atTc (Ein3 m)) c).arrAt owin3 cfg3.N) := rfl

/-! ## The exit contents at the region's arrays and off them -/

/-- At exit each of the region's arrays holds what the pipeline leaves in it: the output's array by the update; an
    input's array is never written, so it holds its entry contents, which the update (at another reference) keeps. -/
theorem hF3 (c : Dev nD) (w : Fin cfg3.W) :
    (dat3 (atTc (Ein3 m)) c).arrAt w cfg3.N = atTc (Eout3 m) c (Pipeline.arrRef spec3 w) := by
  by_cases hw : w = owin3
  · subst hw
    show _ = Eout3 m c (Proc.devRef .tc oref3)
    rw [Eout3_eq, Function.update_self]
  · have hin : (cfg3.win w).isOut = false :=
      (by decide : ∀ w : Fin cfg3.W, w ≠ owin3 → (cfg3.win w).isOut = false) w hw
    have hne : Pipeline.arrRef spec3 w ≠ oref3 :=
      (by decide : ∀ w : Fin cfg3.W, w ≠ owin3 → Pipeline.arrRef spec3 w ≠ oref3) w hw
    refine (((dat3 (atTc (Ein3 m)) c).arrAt_in w hin _).trans (A_eq3 (atTc (Ein3 m)) c w)).trans ?_
    show Ein3 m c (Proc.devRef .tc (Pipeline.arrRef spec3 w)) = Eout3 m c (Proc.devRef .tc (Pipeline.arrRef spec3 w))
    rw [Eout3_eq]
    exact (Function.update_of_ne (StableHlo.devRef_ne_of_ne hne) _ _).symm

/-- Off the region's arrays the exit contents are the entry contents: the update is at one of the arrays. -/
theorem hrest3 (c : Dev nD) : ∀ b, b ∉ Finset.univ.image (Pipeline.arrRef spec3) → atTc (Eout3 m) c b = atTc (Ein3 m) c b := by
  intro b hb
  have hne : b ≠ oref3 := fun e => hb (Finset.mem_image.mpr ⟨owin3, Finset.mem_univ _, e.symm⟩)
  show Eout3 m c (Proc.devRef .tc b) = Ein3 m c (Proc.devRef .tc b)
  rw [Eout3_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg3 : Pipeline.RegionSeg (pcfgs (F := F)) adm (pdats m) () defs₀ 𝒱₀ L lv pix3 where
  win := launch3.win.to₀
  block_pos := launch3.block_pos
  stage_whole := launch3.stage_whole
  K := PEmpty
  osem k := k.elim
  ho := Pipeline.OwnSemFacts.none _
  hbody c := (body_obligation3 (atTc (Ein3 m)) c).loose
  hwaits := Pipeline.hwaits_of_owed_zero _ _ _ _ L lv pix3 fun _ _ => rfl
  pre c := iprop(StableHlo.held (c : Thread nD τ) (Pipeline.ucRefs τ sig) (Ein3 m c) ∗ R c)
  post c := iprop(StableHlo.held (c : Thread nD τ) (Pipeline.ucRefs τ sig) (Eout3 m c) ∗ R c)
  X c := iprop(∃ r, prngReg c r)
  Y c := iprop(∃ r, prngReg c r)
  Z c := Pipeline.unscopedRest (Ix := Unit) (Name := ℕ) (U := UR sig nD τ) (Lvl := ℕ) spec3 c (atTc (Ein3 m) c)
  hentry c := by
    rw [Pipeline.ownSems0_none]
    have hsplit := Pipeline.arrays_of_unscopedBufs (p := pix3) (pcfgs (F := F)) adm (pdats m) launch3.win launch3.arr_whole c
      ((pdats m pix3 c).share_full fun _ => rfl) (atTc (Ein3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m pix3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := pix3) (pcfgs (F := F)) adm (Ix := Unit) (Name := ℕ) (U := UR sig nD τ) (Lvl := ℕ)
      launch3.win launch3.arr_whole c (pdats m) ((pdats m pix3 c).share_full fun _ => rfl)
      (atTc (Ein3 m) c) (atTc (Eout3 m) c) ((pdats m pix3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Rec4.lean ====
import proofs.«167047_j26895085207995_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the decided enumeration of the arrays' buffers recurses once per reference
set_option maxRecDepth 16000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region entry and exit when two input windows are handed one array

The kernel of this region reads one array through two input windows (windows 0 and 5). The buffers behind the seven
windows' arrays are therefore six, and the points-to of the shared buffer cannot be given whole to both windows: its
full share is halved, one half to each. Every other input window holds its array at the full share, and so does the
output window. At the region's entry the core's unscoped buffers, each whole at the entry contents, are sorted into the
windows' arrays at these shares and the buffers that bypass the region; at the exit the two halves are joined again and
the arrays are put back among the unscoped buffers at the exit contents. -/

/-- The share of each input window's array: the buffer behind windows 0 and 5 is one, read by both, so its full
    share is halved between them; every other input window has its array to itself. -/
def q4 : Fin cfg4.W → PosShare TreeShare :=
  fun w => if w = 0 then fullShare.left else if w = 5 then fullShare.right else fullShare

section Shared

variable {c : Dev nD} (dat : Dat τ (Elt F) Unit ℕ (UR sig nD τ) ℕ cfg4 c)

/-- Every unscoped buffer of the core, whole at `W`, is the buffers behind the windows' arrays at `W` and the rest at
    `W`: the arrays are unscoped, so their buffers are a subset of the unscoped ones; that two windows name one buffer
    does not matter, the buffers being taken as a set. -/
theorem held_eq_arrBufs4 (W : Valuation τ sig (Elt F)) :
    (StableHlo.held (c : Thread nD τ) (Pipeline.ucRefs τ sig) W : sProp 𝕄)
      = iprop(Pipeline.arrBufs spec4 c (fun b => W b) ∗ Pipeline.unscopedRest spec4 c (fun b => W b)) := by
  rw [← Pipeline.unscopedBufs_held]
  exact Pipeline.PerCore.unscopedBufs_split₀ (P := Unit) (fun _ _ => cfg4) () c winFacts₀4.arr_unscoped _

/-- The buffers behind the arrays, one by one: six buffers for seven windows. -/
theorem arrBufs4_eq (V : (b : Ref sig .tc) → Buf (Elt F) ((c : Thread nD τ).loc b)) :
    (Pipeline.arrBufs spec4 c V : sProp 𝕄)
      = iprop((((c : Thread nD τ).loc main_v58) ↦{fullShare} V main_v58)
          ∗ (((c : Thread nD τ).loc main_v59) ↦{fullShare} V main_v59)
          ∗ (((c : Thread nD τ).loc main_v38) ↦{fullShare} V main_v38)
          ∗ (((c : Thread nD τ).loc main_v40) ↦{fullShare} V main_v40)
          ∗ (((c : Thread nD τ).loc main_v42) ↦{fullShare} V main_v42)
          ∗ (((c : Thread nD τ).loc main_v60) ↦{fullShare} V main_v60)) := by
  unfold Pipeline.arrBufs
  exact bigSep_eq_bigSepL_of_eq [main_v58, main_v59, main_v38, main_v40, main_v42, main_v60] (by decide) (by decide) _

/-- The windows' arrays at contents read off `V`, window by window: every array is a whole buffer, held at the
    window's share. -/
theorem arrays4_eq (V : (b : Ref sig .tc) → Buf (Elt F) ((c : Thread nD τ).loc b))
    (G : (w : Fin cfg4.W) → Buf (Elt F) ((cfg4.win w).arr.view.loc (c : Thread nD τ))) (hG : ∀ w, G w = V (Pipeline.arrRef spec4 w)) :
    (dat.arrays G : sProp 𝕄)
      = bigSep Finset.univ fun w : Fin cfg4.W => (((c : Thread nD τ).loc (Pipeline.arrRef spec4 w)) ↦{dat.share w} V (Pipeline.arrRef spec4 w) : sProp 𝕄) := by
  unfold Dat.arrays
  exact bigSep_congr fun w _ => by rw [(arr_whole4 w).set_eq_univ, hG]

/-- The only output window is neither of the two that share a buffer. -/
theorem out4_ne : ∀ w : Fin cfg4.W, (cfg4.win w).isOut = true → w ≠ 0 ∧ w ≠ 5 := by decide

/-- The share every window holds its array at is `q4`'s: an input window's by definition, and the output window's full
    share is what `q4` says of a window that is neither 0 nor 5. -/
theorem share4_eq (hq : dat.q = q4) : dat.share = q4 := by
  funext w
  unfold Dat.share
  split
  · next h => unfold q4; rw [if_neg (out4_ne w h).1, if_neg (out4_ne w h).2]
  · rw [hq]

/-- The windows' arrays as a chain: the shared buffer appears twice, at the left half (window 0) and at the right
    half (window 5). -/
theorem arrays4_chain (hq : dat.q = q4) (V : (b : Ref sig .tc) → Buf (Elt F) ((c : Thread nD τ).loc b))
    (G : (w : Fin cfg4.W) → Buf (Elt F) ((cfg4.win w).arr.view.loc (c : Thread nD τ))) (hG : ∀ w, G w = V (Pipeline.arrRef spec4 w)) :
    (dat.arrays G : sProp 𝕄)
      = iprop((((c : Thread nD τ).loc main_v58) ↦{fullShare.left} V main_v58)
          ∗ (((c : Thread nD τ).loc main_v59) ↦{fullShare} V main_v59)
          ∗ (((c : Thread nD τ).loc main_v38) ↦{fullShare} V main_v38)
          ∗ (((c : Thread nD τ).loc main_v40) ↦{fullShare} V main_v40)
          ∗ (((c : Thread nD τ).loc main_v42) ↦{fullShare} V main_v42)
          ∗ (((c : Thread nD τ).loc main_v58) ↦{fullShare.right} V main_v58)
          ∗ (((c : Thread nD τ).loc main_v60) ↦{fullShare} V main_v60)) := by
  rw [arrays4_eq dat V G hG, share4_eq dat hq]
  exact bigSep_W4 _

/-- The windows' arrays at contents read off `V` ARE the buffers behind them, each whole at the full share at `V`:
    the two halves of the shared buffer's points-to make the whole one, and back. -/
theorem arrays4_iff (hq : dat.q = q4) (V : (b : Ref sig .tc) → Buf (Elt F) ((c : Thread nD τ).loc b))
    (G : (w : Fin cfg4.W) → Buf (Elt F) ((cfg4.win w).arr.view.loc (c : Thread nD τ))) (hG : ∀ w, G w = V (Pipeline.arrRef spec4 w)) :
    (dat.arrays G : sProp 𝕄) ⊣⊢ Pipeline.arrBufs spec4 c V := by
  rw [arrays4_chain dat hq V G hG, arrBufs4_eq]
  constructor
  · iintro ⟨H0, H1, H2, H3, Hd, H5, H6⟩
    isplitl [H0 H5]
    · iapply (pointsTo_share (PosShare.mem_left_op_right fullShare)).2
      isplitl [H0]; · iexact H0
      iexact H5
    isplitl [H1]; · iexact H1
    isplitl [H2]; · iexact H2
    isplitl [H3]; · iexact H3
    isplitl [Hd]; · iexact Hd
    iexact H6
  · iintro ⟨Ha, H1, H2, H3, Hd, H6⟩
    ihave H := (pointsTo_share (PosShare.mem_left_op_right fullShare)).1 $$ Ha
    icases H with ⟨H0, H5⟩
    isplitl [H0]; · iexact H0
    isplitl [H1]; · iexact H1
    isplitl [H2]; · iexact H2
    isplitl [H3]; · iexact H3
    isplitl [Hd]; · iexact Hd
    isplitl [H5]; · iexact H5
    iexact H6

/-- ENTRY, the arrays' part: the core's unscoped buffers, each whole at the entry contents `Vin`, are the windows'
    arrays at the proof data's entry contents (read off `Vin`: `hA`), the shared buffer halved between its two
    windows, and the unscoped rest at `Vin`. -/
theorem entry4 (Vin : Valuation τ sig (Elt F))
    (hA : ∀ w, dat.A w = Vin (Pipeline.arrRef spec4 w)) (hq : dat.q = q4) :
    (StableHlo.held (c : Thread nD τ) (Pipeline.ucRefs τ sig) Vin : sProp 𝕄)
      ⊢ iprop(dat.arrays (dat.arrAt · 0) ∗ Pipeline.unscopedRest spec4 c (fun b => Vin b)) := by
  rw [held_eq_arrBufs4]
  exact sep_mono (arrays4_iff dat hq (fun b => Vin b) (dat.arrAt · 0) hA).2 .rfl

/-- EXIT, the arrays' part: the windows' arrays at their final contents and the unscoped rest at `Vin` are the core's
    unscoped buffers at any valuation `Vout` that has the arrays at those contents (`hF`) and agrees with `Vin` off
    them (`hrest`). -/
theorem exit4 (Vin Vout : Valuation τ sig (Elt F)) (hq : dat.q = q4)
    (hF : ∀ w, dat.arrAt w cfg4.N = Vout (Pipeline.arrRef spec4 w))
    (hrest : ∀ b : Ref sig .tc, b ∉ Finset.univ.image (Pipeline.arrRef spec4) → Vout b = Vin b) :
    iprop(dat.arrays (dat.arrAt · cfg4.N) ∗ Pipeline.unscopedRest spec4 c (fun b => Vin b))
      ⊢ (StableHlo.held (c : Thread nD τ) (Pipeline.ucRefs τ sig) Vout : sProp 𝕄) := by
  rw [held_eq_arrBufs4]
  refine sep_mono (arrays4_iff dat hq (fun b => Vout b) (dat.arrAt · cfg4.N) hF).1 (Entails.of_eq ?_)
  unfold Pipeline.unscopedRest
  exact bigSep_congr fun b hb => by dsimp only; rw [hrest b (Finset.mem_sdiff.mp hb).2]

end Shared

end Cert.KernelIdeal.Gen

end
-- ==== Proof.KI.Seg4.lean ====
import proofs.«167047_j26895085207995_2_alg».proof.Proof.KI.Fold
import proofs.«167047_j26895085207995_2_alg».proof.Proof.KI.Rec4

/-! Region 4 of the program as a segment of its run: the kernel region entered from the boundary contents before it
    and left at the boundary contents after it.

    At entry the core holds every unscoped buffer at the entry contents, beside its generator register and its (empty)
    debts. The region's arrays — the windows' arrays, whole buffers — are sorted out of the unscoped buffers. Two of the
    input windows are handed ONE array, so the buffer behind it is held in two halves, one per window; every other
    window has its array whole. The generator register goes into the pipeline's invariant — which also carries, from
    one grid point to the next, the two scratch buffers the kernel accumulates in — and comes back out of it at the
    last point. At exit the two halves are joined and the arrays are put back among the unscoped buffers. The exit
    contents are the entry contents UPDATED at the output window's array, which holds what the pipeline's write-backs
    leave there; every input window's array holds what it held (a pipeline never writes an input's array), and no
    other buffer is touched. These two facts (`hF4`, `hrest4`) are what putting the arrays back needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix4 : Fin 10 := 4
/-- The boundary contents the region is entered from, -/
abbrev Ein4 : Dev nD → Valuation τ sig (Elt F) := B8 m
/-- and those it is left at. -/
abbrev Eout4 : Dev nD → Valuation τ sig (Elt F) := B9 m
/-- The output window, -/
abbrev owin4 : Fin cfg4.W := 6
/-- and its array. -/
abbrev oref4 : Ref sig .tc := main_v60

/-- The exit contents are the entry contents updated at the output array, with what the pipeline's write-backs leave
    there after the last grid point. -/
theorem Eout4_eq (c : Dev nD) :
    Eout4 m c = Function.update (Ein4 m c) (Proc.devRef .tc oref4) ((dat4 (atTc (Ein4 m)) c).arrAt owin4 cfg4.N) := rfl

/-! ## The exit contents at the region's arrays and off them -/

/-- At exit each of the region's arrays holds what the pipeline leaves in it: the output's array by the update; an
    input's array is never written, so it holds its entry contents, which the update (at another reference) keeps.
    The two input windows that are handed one array both read that array's entry contents. -/
theorem hF4 (c : Dev nD) (w : Fin cfg4.W) :
    (dat4 (atTc (Ein4 m)) c).arrAt w cfg4.N = atTc (Eout4 m) c (Pipeline.arrRef spec4 w) := by
  by_cases hw : w = owin4
  · subst hw
    show _ = Eout4 m c (Proc.devRef .tc oref4)
    rw [Eout4_eq, Function.update_self]
  · have hin : (cfg4.win w).isOut = false :=
      (by decide : ∀ w : Fin cfg4.W, w ≠ owin4 → (cfg4.win w).isOut = false) w hw
    have hne : Pipeline.arrRef spec4 w ≠ oref4 :=
      (by decide : ∀ w : Fin cfg4.W, w ≠ owin4 → Pipeline.arrRef spec4 w ≠ oref4) w hw
    refine (((dat4 (atTc (Ein4 m)) c).arrAt_in w hin _).trans (A_eq4 (atTc (Ein4 m)) c w)).trans ?_
    show Ein4 m c (Proc.devRef .tc (Pipeline.arrRef spec4 w)) = Eout4 m c (Proc.devRef .tc (Pipeline.arrRef spec4 w))
    rw [Eout4_eq]
    exact (Function.update_of_ne (StableHlo.devRef_ne_of_ne hne) _ _).symm

/-- Off the region's arrays the exit contents are the entry contents: the update is at one of the arrays. -/
theorem hrest4 (c : Dev nD) : ∀ b, b ∉ Finset.univ.image (Pipeline.arrRef spec4) → atTc (Eout4 m) c b = atTc (Ein4 m) c b := by
  intro b hb
  have hne : b ≠ oref4 := fun e => hb (Finset.mem_image.mpr ⟨owin4, Finset.mem_univ _, e.symm⟩)
  show Eout4 m c (Proc.devRef .tc b) = Ein4 m c (Proc.devRef .tc b)
  rw [Eout4_eq]
  exact Function.update_of_ne (StableHlo.devRef_ne_of_ne hne) _ _

/-! ## The region as a segment -/

set_option backward.isDefEq.respectTransparency.types false in
/-- The region over the thread state: entered from every unscoped buffer at the entry contents, left at the exit
    contents (what the next segment is entered from). Its arrays are sorted out of the unscoped buffers — the buffer
    two windows are handed is held in two halves, one per window — and put back, the halves joined, at the exit
    contents; the generator register goes into the pipeline's invariant, which also carries the two scratches from
    grid point to grid point, and comes out of it; nothing owed; no semaphore of the kernel's own. -/
def reg4 : Pipeline.RegionSeg (pcfgs (F := F)) adm (pdats m) () defs₀ 𝒱₀ L lv pix4 where
  win := winFacts₀4
  block_pos := block_pos4
  stage_whole := stage_whole4
  K := PEmpty
  osem k := k.elim
  ho := Pipeline.OwnSemFacts.none _
  hbody c := (body_obligation4 (atTc (Ein4 m)) c).loose
  hwaits := Pipeline.hwaits_of_owed_zero _ _ _ _ L lv pix4 fun _ _ => rfl
  pre c := iprop(StableHlo.held (c : Thread nD τ) (Pipeline.ucRefs τ sig) (Ein4 m c) ∗ R c)
  post c := iprop(StableHlo.held (c : Thread nD τ) (Pipeline.ucRefs τ sig) (Eout4 m c) ∗ R c)
  X c := iprop(∃ r, prngReg c r)
  Y c := iprop(∃ r, prngReg c r)
  Z c := Pipeline.unscopedRest (Ix := Unit) (Name := ℕ) (U := UR sig nD τ) (Lvl := ℕ) spec4 c (atTc (Ein4 m) c)
  hentry c := by
    rw [Pipeline.ownSems0_none]
    have hsplit := entry4 (pdats m pix4 c) (Ein4 m c) (A_eq4 (atTc (Ein4 m)) c) rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix4 c).Φ 0 = (dat4 (atTc (Ein4 m)) c).Φ 0 from rfl]
    iintro ⟨Hp, -, Hr⟩
    iapply hin4 (atTc (Ein4 m)) c
    isplitl [Hp]; · iexact Hp
    iexact Hr
  hout c := by
    rw [Pipeline.ownSems0_none]
    refine (hout4 (atTc (Ein4 m)) c).trans ?_
    iintro ⟨Hp, Hr⟩
    isplitl [Hp]; · iexact Hp
    isplitr; · iempintro
    iexact Hr
  hexit c := by
    have hjoin := exit4 (pdats m pix4 c) (Ein4 m c) (Eout4 m c) rfl (hF4 m c) (hrest4 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg5.lean ====
import proofs.«167047_j26895085207995_2_alg».proof.Proof.KI.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF5`, `hrest5`) are what putting the arrays back
    needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix5 : Fin 10 := 5
/-- The boundary contents the region is entered from, -/
abbrev Ein5 : Dev nD → Valuation τ sig (Elt F) := B10 m
/-- and those it is left at. -/
abbrev Eout5 : Dev nD → Valuation τ sig (Elt F) := B11 m
/-- The output window, -/
abbrev owin5 : Fin cfg5.W := 3
/-- and its array. -/
abbrev oref5 : Ref sig .tc := main_v83

/-- The exit contents are the entry contents updated at the output array, with what the pipeline's write-backs leave
    there after the last grid point. -/
theorem Eout5_eq (c : Dev nD) :
    Eout5 m c = Function.update (Ein5 m c) (Proc.devRef .tc oref5) ((dat5 (atTc (Ein5 m)) c).arrAt owin5 cfg5.N) := rfl

/-! ## The exit contents at the region's arrays and off them -/

/-- At exit each of the region's arrays holds what the pipeline leaves in it: the output's array by the update; an
    input's array is never written, so it holds its entry contents, which the update (at another reference) keeps. -/
theorem hF5 (c : Dev nD) (w : Fin cfg5.W) :
    (dat5 (atTc (Ein5 m)) c).arrAt w cfg5.N = atTc (Eout5 m) c (Pipeline.arrRef spec5 w) := by
  by_cases hw : w = owin5
  · subst hw
    show _ = Eout5 m c (Proc.devRef .tc oref5)
    rw [Eout5_eq, Function.update_self]
  · have hin : (cfg5.win w).isOut = false :=
      (by decide : ∀ w : Fin cfg5.W, w ≠ owin5 → (cfg5.win w).isOut = false) w hw
    have hne : Pipeline.arrRef spec5 w ≠ oref5 :=
      (by decide : ∀ w : Fin cfg5.W, w ≠ owin5 → Pipeline.arrRef spec5 w ≠ oref5) w hw
    refine (((dat5 (atTc (Ein5 m)) c).arrAt_in w hin _).trans (A_eq5 (atTc (Ein5 m)) c w)).trans ?_
    show Ein5 m c (Proc.devRef .tc (Pipeline.arrRef spec5 w)) = Eout5 m c (Proc.devRef .tc (Pipeline.arrRef spec5 w))
    rw [Eout5_eq]
    exact (Function.update_of_ne (StableHlo.devRef_ne_of_ne hne) _ _).symm

/-- Off the region's arrays the exit contents are the entry contents: the update is at one of the arrays. -/
theorem hrest5 (c : Dev nD) : ∀ b, b ∉ Finset.univ.image (Pipeline.arrRef spec5) → atTc (Eout5 m) c b = atTc (Ein5 m) c b := by
  intro b hb
  have hne : b ≠ oref5 := fun e => hb (Finset.mem_image.mpr ⟨owin5, Finset.mem_univ _, e.symm⟩)
  show Eout5 m c (Proc.devRef .tc b) = Ein5 m c (Proc.devRef .tc b)
  rw [Eout5_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg5 : Pipeline.RegionSeg (pcfgs (F := F)) adm (pdats m) () defs₀ 𝒱₀ L lv pix5 where
  win := launch5.win.to₀
  block_pos := launch5.block_pos
  stage_whole := launch5.stage_whole
  K := PEmpty
  osem k := k.elim
  ho := Pipeline.OwnSemFacts.none _
  hbody c := (body_obligation5 (atTc (Ein5 m)) c).loose
  hwaits := Pipeline.hwaits_of_owed_zero _ _ _ _ L lv pix5 fun _ _ => rfl
  pre c := iprop(StableHlo.held (c : Thread nD τ) (Pipeline.ucRefs τ sig) (Ein5 m c) ∗ R c)
  post c := iprop(StableHlo.held (c : Thread nD τ) (Pipeline.ucRefs τ sig) (Eout5 m c) ∗ R c)
  X c := iprop(∃ r, prngReg c r)
  Y c := iprop(∃ r, prngReg c r)
  Z c := Pipeline.unscopedRest (Ix := Unit) (Name := ℕ) (U := UR sig nD τ) (Lvl := ℕ) spec5 c (atTc (Ein5 m) c)
  hentry c := by
    rw [Pipeline.ownSems0_none]
    have hsplit := Pipeline.arrays_of_unscopedBufs (p := pix5) (pcfgs (F := F)) adm (pdats m) launch5.win launch5.arr_whole c
      ((pdats m pix5 c).share_full fun _ => rfl) (atTc (Ein5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m pix5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := pix5) (pcfgs (F := F)) adm (Ix := Unit) (Name := ℕ) (U := UR sig nD τ) (Lvl := ℕ)
      launch5.win launch5.arr_whole c (pdats m) ((pdats m pix5 c).share_full fun _ => rfl)
      (atTc (Ein5 m) c) (atTc (Eout5 m) c) ((pdats m pix5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg6.lean ====
import proofs.«167047_j26895085207995_2_alg».proof.Proof.KI.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF6`, `hrest6`) are what putting the arrays back
    needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix6 : Fin 10 := 6
/-- The boundary contents the region is entered from, -/
abbrev Ein6 : Dev nD → Valuation τ sig (Elt F) := B12 m
/-- and those it is left at. -/
abbrev Eout6 : Dev nD → Valuation τ sig (Elt F) := B13 m
/-- The output window, -/
abbrev owin6 : Fin cfg6.W := 3
/-- and its array. -/
abbrev oref6 : Ref sig .tc := main_v93

/-- The exit contents are the entry contents updated at the output array, with what the pipeline's write-backs leave
    there after the last grid point. -/
theorem Eout6_eq (c : Dev nD) :
    Eout6 m c = Function.update (Ein6 m c) (Proc.devRef .tc oref6) ((dat6 (atTc (Ein6 m)) c).arrAt owin6 cfg6.N) := rfl

/-! ## The exit contents at the region's arrays and off them -/

/-- At exit each of the region's arrays holds what the pipeline leaves in it: the output's array by the update; an
    input's array is never written, so it holds its entry contents, which the update (at another reference) keeps. -/
theorem hF6 (c : Dev nD) (w : Fin cfg6.W) :
    (dat6 (atTc (Ein6 m)) c).arrAt w cfg6.N = atTc (Eout6 m) c (Pipeline.arrRef spec6 w) := by
  by_cases hw : w = owin6
  · subst hw
    show _ = Eout6 m c (Proc.devRef .tc oref6)
    rw [Eout6_eq, Function.update_self]
  · have hin : (cfg6.win w).isOut = false :=
      (by decide : ∀ w : Fin cfg6.W, w ≠ owin6 → (cfg6.win w).isOut = false) w hw
    have hne : Pipeline.arrRef spec6 w ≠ oref6 :=
      (by decide : ∀ w : Fin cfg6.W, w ≠ owin6 → Pipeline.arrRef spec6 w ≠ oref6) w hw
    refine (((dat6 (atTc (Ein6 m)) c).arrAt_in w hin _).trans (A_eq6 (atTc (Ein6 m)) c w)).trans ?_
    show Ein6 m c (Proc.devRef .tc (Pipeline.arrRef spec6 w)) = Eout6 m c (Proc.devRef .tc (Pipeline.arrRef spec6 w))
    rw [Eout6_eq]
    exact (Function.update_of_ne (StableHlo.devRef_ne_of_ne hne) _ _).symm

/-- Off the region's arrays the exit contents are the entry contents: the update is at one of the arrays. -/
theorem hrest6 (c : Dev nD) : ∀ b, b ∉ Finset.univ.image (Pipeline.arrRef spec6) → atTc (Eout6 m) c b = atTc (Ein6 m) c b := by
  intro b hb
  have hne : b ≠ oref6 := fun e => hb (Finset.mem_image.mpr ⟨owin6, Finset.mem_univ _, e.symm⟩)
  show Eout6 m c (Proc.devRef .tc b) = Ein6 m c (Proc.devRef .tc b)
  rw [Eout6_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg6 : Pipeline.RegionSeg (pcfgs (F := F)) adm (pdats m) () defs₀ 𝒱₀ L lv pix6 where
  win := launch6.win.to₀
  block_pos := launch6.block_pos
  stage_whole := launch6.stage_whole
  K := PEmpty
  osem k := k.elim
  ho := Pipeline.OwnSemFacts.none _
  hbody c := (body_obligation6 (atTc (Ein6 m)) c).loose
  hwaits := Pipeline.hwaits_of_owed_zero _ _ _ _ L lv pix6 fun _ _ => rfl
  pre c := iprop(StableHlo.held (c : Thread nD τ) (Pipeline.ucRefs τ sig) (Ein6 m c) ∗ R c)
  post c := iprop(StableHlo.held (c : Thread nD τ) (Pipeline.ucRefs τ sig) (Eout6 m c) ∗ R c)
  X c := iprop(∃ r, prngReg c r)
  Y c := iprop(∃ r, prngReg c r)
  Z c := Pipeline.unscopedRest (Ix := Unit) (Name := ℕ) (U := UR sig nD τ) (Lvl := ℕ) spec6 c (atTc (Ein6 m) c)
  hentry c := by
    rw [Pipeline.ownSems0_none]
    have hsplit := Pipeline.arrays_of_unscopedBufs (p := pix6) (pcfgs (F := F)) adm (pdats m) launch6.win launch6.arr_whole c
      ((pdats m pix6 c).share_full fun _ => rfl) (atTc (Ein6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m pix6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := pix6) (pcfgs (F := F)) adm (Ix := Unit) (Name := ℕ) (U := UR sig nD τ) (Lvl := ℕ)
      launch6.win launch6.arr_whole c (pdats m) ((pdats m pix6 c).share_full fun _ => rfl)
      (atTc (Ein6 m) c) (atTc (Eout6 m) c) ((pdats m pix6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg7.lean ====
import proofs.«167047_j26895085207995_2_alg».proof.Proof.KI.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF7`, `hrest7`) are what putting the arrays back
    needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix7 : Fin 10 := 7
/-- The boundary contents the region is entered from, -/
abbrev Ein7 : Dev nD → Valuation τ sig (Elt F) := B13 m
/-- and those it is left at. -/
abbrev Eout7 : Dev nD → Valuation τ sig (Elt F) := B14 m
/-- The output window, -/
abbrev owin7 : Fin cfg7.W := 6
/-- and its array. -/
abbrev oref7 : Ref sig .tc := main_v94

/-- The exit contents are the entry contents updated at the output array, with what the pipeline's write-backs leave
    there after the last grid point. -/
theorem Eout7_eq (c : Dev nD) :
    Eout7 m c = Function.update (Ein7 m c) (Proc.devRef .tc oref7) ((dat7 (atTc (Ein7 m)) c).arrAt owin7 cfg7.N) := rfl

/-! ## The exit contents at the region's arrays and off them -/

/-- At exit each of the region's arrays holds what the pipeline leaves in it: the output's array by the update; an
    input's array is never written, so it holds its entry contents, which the update (at another reference) keeps. -/
theorem hF7 (c : Dev nD) (w : Fin cfg7.W) :
    (dat7 (atTc (Ein7 m)) c).arrAt w cfg7.N = atTc (Eout7 m) c (Pipeline.arrRef spec7 w) := by
  by_cases hw : w = owin7
  · subst hw
    show _ = Eout7 m c (Proc.devRef .tc oref7)
    rw [Eout7_eq, Function.update_self]
  · have hin : (cfg7.win w).isOut = false :=
      (by decide : ∀ w : Fin cfg7.W, w ≠ owin7 → (cfg7.win w).isOut = false) w hw
    have hne : Pipeline.arrRef spec7 w ≠ oref7 :=
      (by decide : ∀ w : Fin cfg7.W, w ≠ owin7 → Pipeline.arrRef spec7 w ≠ oref7) w hw
    refine (((dat7 (atTc (Ein7 m)) c).arrAt_in w hin _).trans (A_eq7 (atTc (Ein7 m)) c w)).trans ?_
    show Ein7 m c (Proc.devRef .tc (Pipeline.arrRef spec7 w)) = Eout7 m c (Proc.devRef .tc (Pipeline.arrRef spec7 w))
    rw [Eout7_eq]
    exact (Function.update_of_ne (StableHlo.devRef_ne_of_ne hne) _ _).symm

/-- Off the region's arrays the exit contents are the entry contents: the update is at one of the arrays. -/
theorem hrest7 (c : Dev nD) : ∀ b, b ∉ Finset.univ.image (Pipeline.arrRef spec7) → atTc (Eout7 m) c b = atTc (Ein7 m) c b := by
  intro b hb
  have hne : b ≠ oref7 := fun e => hb (Finset.mem_image.mpr ⟨owin7, Finset.mem_univ _, e.symm⟩)
  show Eout7 m c (Proc.devRef .tc b) = Ein7 m c (Proc.devRef .tc b)
  rw [Eout7_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg7 : Pipeline.RegionSeg (pcfgs (F := F)) adm (pdats m) () defs₀ 𝒱₀ L lv pix7 where
  win := launch7.win.to₀
  block_pos := launch7.block_pos
  stage_whole := launch7.stage_whole
  K := PEmpty
  osem k := k.elim
  ho := Pipeline.OwnSemFacts.none _
  hbody c := (body_obligation7 (atTc (Ein7 m)) c).loose
  hwaits := Pipeline.hwaits_of_owed_zero _ _ _ _ L lv pix7 fun _ _ => rfl
  pre c := iprop(StableHlo.held (c : Thread nD τ) (Pipeline.ucRefs τ sig) (Ein7 m c) ∗ R c)
  post c := iprop(StableHlo.held (c : Thread nD τ) (Pipeline.ucRefs τ sig) (Eout7 m c) ∗ R c)
  X c := iprop(∃ r, prngReg c r)
  Y c := iprop(∃ r, prngReg c r)
  Z c := Pipeline.unscopedRest (Ix := Unit) (Name := ℕ) (U := UR sig nD τ) (Lvl := ℕ) spec7 c (atTc (Ein7 m) c)
  hentry c := by
    rw [Pipeline.ownSems0_none]
    have hsplit := Pipeline.arrays_of_unscopedBufs (p := pix7) (pcfgs (F := F)) adm (pdats m) launch7.win launch7.arr_whole c
      ((pdats m pix7 c).share_full fun _ => rfl) (atTc (Ein7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m pix7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := pix7) (pcfgs (F := F)) adm (Ix := Unit) (Name := ℕ) (U := UR sig nD τ) (Lvl := ℕ)
      launch7.win launch7.arr_whole c (pdats m) ((pdats m pix7 c).share_full fun _ => rfl)
      (atTc (Ein7 m) c) (atTc (Eout7 m) c) ((pdats m pix7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg8.lean ====
import proofs.«167047_j26895085207995_2_alg».proof.Proof.KI.Fold

/-! One kernel region of the program as a segment of its run: the region entered from the boundary contents before it
    and left at the boundary contents after it.

    At entry the core holds every unscoped buffer at the entry contents, beside its generator register and its (empty)
    debts. The region's arrays — the windows' arrays, distinct whole buffers — are split out of the unscoped buffers;
    the generator register goes into the pipeline's invariant and comes back; at exit the arrays are put back among the
    unscoped buffers. The exit contents are the entry contents UPDATED at the output window's array, which holds what
    the pipeline's write-backs leave there; every input window's array holds what it held (a pipeline never writes an
    input's array), and no other buffer is touched. These two facts (`hF8`, `hrest8`) are what putting the arrays back
    needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix8 : Fin 10 := 8
/-- The boundary contents the region is entered from, -/
abbrev Ein8 : Dev nD → Valuation τ sig (Elt F) := B15 m
/-- and those it is left at. -/
abbrev Eout8 : Dev nD → Valuation τ sig (Elt F) := B16 m
/-- The output window, -/
abbrev owin8 : Fin cfg8.W := 3
/-- and its array. -/
abbrev oref8 : Ref sig .tc := main_v97

/-- The exit contents are the entry contents updated at the output array, with what the pipeline's write-backs leave
    there after the last grid point. -/
theorem Eout8_eq (c : Dev nD) :
    Eout8 m c = Function.update (Ein8 m c) (Proc.devRef .tc oref8) ((dat8 (atTc (Ein8 m)) c).arrAt owin8 cfg8.N) := rfl

/-! ## The exit contents at the region's arrays and off them -/

/-- At exit each of the region's arrays holds what the pipeline leaves in it: the output's array by the update; an
    input's array is never written, so it holds its entry contents, which the update (at another reference) keeps. -/
theorem hF8 (c : Dev nD) (w : Fin cfg8.W) :
    (dat8 (atTc (Ein8 m)) c).arrAt w cfg8.N = atTc (Eout8 m) c (Pipeline.arrRef spec8 w) := by
  by_cases hw : w = owin8
  · subst hw
    show _ = Eout8 m c (Proc.devRef .tc oref8)
    rw [Eout8_eq, Function.update_self]
  · have hin : (cfg8.win w).isOut = false :=
      (by decide : ∀ w : Fin cfg8.W, w ≠ owin8 → (cfg8.win w).isOut = false) w hw
    have hne : Pipeline.arrRef spec8 w ≠ oref8 :=
      (by decide : ∀ w : Fin cfg8.W, w ≠ owin8 → Pipeline.arrRef spec8 w ≠ oref8) w hw
    refine (((dat8 (atTc (Ein8 m)) c).arrAt_in w hin _).trans (A_eq8 (atTc (Ein8 m)) c w)).trans ?_
    show Ein8 m c (Proc.devRef .tc (Pipeline.arrRef spec8 w)) = Eout8 m c (Proc.devRef .tc (Pipeline.arrRef spec8 w))
    rw [Eout8_eq]
    exact (Function.update_of_ne (StableHlo.devRef_ne_of_ne hne) _ _).symm

/-- Off the region's arrays the exit contents are the entry contents: the update is at one of the arrays. -/
theorem hrest8 (c : Dev nD) : ∀ b, b ∉ Finset.univ.image (Pipeline.arrRef spec8) → atTc (Eout8 m) c b = atTc (Ein8 m) c b := by
  intro b hb
  have hne : b ≠ oref8 := fun e => hb (Finset.mem_image.mpr ⟨owin8, Finset.mem_univ _, e.symm⟩)
  show Eout8 m c (Proc.devRef .tc b) = Ein8 m c (Proc.devRef .tc b)
  rw [Eout8_eq]
  exact Function.update_of_ne (StableHlo.devRef_ne_of_ne hne) _ _

/-! ## The region as a segment -/

-- a library lemma stated over the pinned configuration unifies with the printed one only when unification may unfold
-- plain definitions in a metavariable's type
set_option backward.isDefEq.respectTransparency.types false in
/-- The region over the thread state: entered from every unscoped buffer at the entry contents, left at the exit
    contents (what the next segment is entered from). Its arrays split out of the unscoped buffers and put back at the
    exit contents; the generator register into the pipeline's invariant and out; nothing owed; no semaphore of the
    kernel's own. -/
def reg8 : Pipeline.RegionSeg (pcfgs (F := F)) adm (pdats m) () defs₀ 𝒱₀ L lv pix8 where
  win := launch8.win.to₀
  block_pos := launch8.block_pos
  stage_whole := launch8.stage_whole
  K := PEmpty
  osem k := k.elim
  ho := Pipeline.OwnSemFacts.none _
  hbody c := (body_obligation8 (atTc (Ein8 m)) c).loose
  hwaits := Pipeline.hwaits_of_owed_zero _ _ _ _ L lv pix8 fun _ _ => rfl
  pre c := iprop(StableHlo.held (c : Thread nD τ) (Pipeline.ucRefs τ sig) (Ein8 m c) ∗ R c)
  post c := iprop(StableHlo.held (c : Thread nD τ) (Pipeline.ucRefs τ sig) (Eout8 m c) ∗ R c)
  X c := iprop(∃ r, prngReg c r)
  Y c := iprop(∃ r, prngReg c r)
  Z c := Pipeline.unscopedRest (Ix := Unit) (Name := ℕ) (U := UR sig nD τ) (Lvl := ℕ) spec8 c (atTc (Ein8 m) c)
  hentry c := by
    rw [Pipeline.ownSems0_none]
    have hsplit := Pipeline.arrays_of_unscopedBufs (p := pix8) (pcfgs (F := F)) adm (pdats m) launch8.win launch8.arr_whole c
      ((pdats m pix8 c).share_full fun _ => rfl) (atTc (Ein8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m pix8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := pix8) (pcfgs (F := F)) adm (Ix := Unit) (Name := ℕ) (U := UR sig nD τ) (Lvl := ℕ)
      launch8.win launch8.arr_whole c (pdats m) ((pdats m pix8 c).share_full fun _ => rfl)
      (atTc (Ein8 m) c) (atTc (Eout8 m) c) ((pdats m pix8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Rec9.lean ====
import proofs.«167047_j26895085207995_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the decided enumeration of the arrays' buffers recurses once per reference
set_option maxRecDepth 16000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region entry and exit when two input windows are handed one array

The kernel of this region reads one array through two input windows (windows 0 and 5). The buffers behind the seven
windows' arrays are therefore six, and the points-to of the shared buffer cannot be given whole to both windows: its
full share is halved, one half to each. Every other input window holds its array at the full share, and so does the
output window. At the region's entry the core's unscoped buffers, each whole at the entry contents, are sorted into the
windows' arrays at these shares and the buffers that bypass the region; at the exit the two halves are joined again and
the arrays are put back among the unscoped buffers at the exit contents. -/

/-- The share of each input window's array: the buffer behind windows 0 and 5 is one, read by both, so its full
    share is halved between them; every other input window has its array to itself. -/
def q9 : Fin cfg9.W → PosShare TreeShare :=
  fun w => if w = 0 then fullShare.left else if w = 5 then fullShare.right else fullShare

section Shared

variable {c : Dev nD} (dat : Dat τ (Elt F) Unit ℕ (UR sig nD τ) ℕ cfg9 c)

/-- Every unscoped buffer of the core, whole at `W`, is the buffers behind the windows' arrays at `W` and the rest at
    `W`: the arrays are unscoped, so their buffers are a subset of the unscoped ones; that two windows name one buffer
    does not matter, the buffers being taken as a set. -/
theorem held_eq_arrBufs9 (W : Valuation τ sig (Elt F)) :
    (StableHlo.held (c : Thread nD τ) (Pipeline.ucRefs τ sig) W : sProp 𝕄)
      = iprop(Pipeline.arrBufs spec9 c (fun b => W b) ∗ Pipeline.unscopedRest spec9 c (fun b => W b)) := by
  rw [← Pipeline.unscopedBufs_held]
  exact Pipeline.PerCore.unscopedBufs_split₀ (P := Unit) (fun _ _ => cfg9) () c winFacts₀9.arr_unscoped _

/-- The buffers behind the arrays, one by one: six buffers for seven windows. -/
theorem arrBufs9_eq (V : (b : Ref sig .tc) → Buf (Elt F) ((c : Thread nD τ).loc b)) :
    (Pipeline.arrBufs spec9 c V : sProp 𝕄)
      = iprop((((c : Thread nD τ).loc main_v97) ↦{fullShare} V main_v97)
          ∗ (((c : Thread nD τ).loc main_v98) ↦{fullShare} V main_v98)
          ∗ (((c : Thread nD τ).loc main_v77) ↦{fullShare} V main_v77)
          ∗ (((c : Thread nD τ).loc main_v79) ↦{fullShare} V main_v79)
          ∗ (((c : Thread nD τ).loc main_v81) ↦{fullShare} V main_v81)
          ∗ (((c : Thread nD τ).loc main_v99) ↦{fullShare} V main_v99)) := by
  unfold Pipeline.arrBufs
  exact bigSep_eq_bigSepL_of_eq [main_v97, main_v98, main_v77, main_v79, main_v81, main_v99] (by decide) (by decide) _

/-- The windows' arrays at contents read off `V`, window by window: every array is a whole buffer, held at the
    window's share. -/
theorem arrays9_eq (V : (b : Ref sig .tc) → Buf (Elt F) ((c : Thread nD τ).loc b))
    (G : (w : Fin cfg9.W) → Buf (Elt F) ((cfg9.win w).arr.view.loc (c : Thread nD τ))) (hG : ∀ w, G w = V (Pipeline.arrRef spec9 w)) :
    (dat.arrays G : sProp 𝕄)
      = bigSep Finset.univ fun w : Fin cfg9.W => (((c : Thread nD τ).loc (Pipeline.arrRef spec9 w)) ↦{dat.share w} V (Pipeline.arrRef spec9 w) : sProp 𝕄) := by
  unfold Dat.arrays
  exact bigSep_congr fun w _ => by rw [(arr_whole9 w).set_eq_univ, hG]

/-- The only output window is neither of the two that share a buffer. -/
theorem out9_ne : ∀ w : Fin cfg9.W, (cfg9.win w).isOut = true → w ≠ 0 ∧ w ≠ 5 := by decide

/-- The share every window holds its array at is `q9`'s: an input window's by definition, and the output window's full
    share is what `q9` says of a window that is neither 0 nor 5. -/
theorem share9_eq (hq : dat.q = q9) : dat.share = q9 := by
  funext w
  unfold Dat.share
  split
  · next h => unfold q9; rw [if_neg (out9_ne w h).1, if_neg (out9_ne w h).2]
  · rw [hq]

/-- The windows' arrays as a chain: the shared buffer appears twice, at the left half (window 0) and at the right
    half (window 5). -/
theorem arrays9_chain (hq : dat.q = q9) (V : (b : Ref sig .tc) → Buf (Elt F) ((c : Thread nD τ).loc b))
    (G : (w : Fin cfg9.W) → Buf (Elt F) ((cfg9.win w).arr.view.loc (c : Thread nD τ))) (hG : ∀ w, G w = V (Pipeline.arrRef spec9 w)) :
    (dat.arrays G : sProp 𝕄)
      = iprop((((c : Thread nD τ).loc main_v97) ↦{fullShare.left} V main_v97)
          ∗ (((c : Thread nD τ).loc main_v98) ↦{fullShare} V main_v98)
          ∗ (((c : Thread nD τ).loc main_v77) ↦{fullShare} V main_v77)
          ∗ (((c : Thread nD τ).loc main_v79) ↦{fullShare} V main_v79)
          ∗ (((c : Thread nD τ).loc main_v81) ↦{fullShare} V main_v81)
          ∗ (((c : Thread nD τ).loc main_v97) ↦{fullShare.right} V main_v97)
          ∗ (((c : Thread nD τ).loc main_v99) ↦{fullShare} V main_v99)) := by
  rw [arrays9_eq dat V G hG, share9_eq dat hq]
  exact bigSep_W9 _

/-- The windows' arrays at contents read off `V` ARE the buffers behind them, each whole at the full share at `V`:
    the two halves of the shared buffer's points-to make the whole one, and back. -/
theorem arrays9_iff (hq : dat.q = q9) (V : (b : Ref sig .tc) → Buf (Elt F) ((c : Thread nD τ).loc b))
    (G : (w : Fin cfg9.W) → Buf (Elt F) ((cfg9.win w).arr.view.loc (c : Thread nD τ))) (hG : ∀ w, G w = V (Pipeline.arrRef spec9 w)) :
    (dat.arrays G : sProp 𝕄) ⊣⊢ Pipeline.arrBufs spec9 c V := by
  rw [arrays9_chain dat hq V G hG, arrBufs9_eq]
  constructor
  · iintro ⟨H0, H1, H2, H3, Hd, H5, H6⟩
    isplitl [H0 H5]
    · iapply (pointsTo_share (PosShare.mem_left_op_right fullShare)).2
      isplitl [H0]; · iexact H0
      iexact H5
    isplitl [H1]; · iexact H1
    isplitl [H2]; · iexact H2
    isplitl [H3]; · iexact H3
    isplitl [Hd]; · iexact Hd
    iexact H6
  · iintro ⟨Ha, H1, H2, H3, Hd, H6⟩
    ihave H := (pointsTo_share (PosShare.mem_left_op_right fullShare)).1 $$ Ha
    icases H with ⟨H0, H5⟩
    isplitl [H0]; · iexact H0
    isplitl [H1]; · iexact H1
    isplitl [H2]; · iexact H2
    isplitl [H3]; · iexact H3
    isplitl [Hd]; · iexact Hd
    isplitl [H5]; · iexact H5
    iexact H6

/-- ENTRY, the arrays' part: the core's unscoped buffers, each whole at the entry contents `Vin`, are the windows'
    arrays at the proof data's entry contents (read off `Vin`: `hA`), the shared buffer halved between its two
    windows, and the unscoped rest at `Vin`. -/
theorem entry9 (Vin : Valuation τ sig (Elt F))
    (hA : ∀ w, dat.A w = Vin (Pipeline.arrRef spec9 w)) (hq : dat.q = q9) :
    (StableHlo.held (c : Thread nD τ) (Pipeline.ucRefs τ sig) Vin : sProp 𝕄)
      ⊢ iprop(dat.arrays (dat.arrAt · 0) ∗ Pipeline.unscopedRest spec9 c (fun b => Vin b)) := by
  rw [held_eq_arrBufs9]
  exact sep_mono (arrays9_iff dat hq (fun b => Vin b) (dat.arrAt · 0) hA).2 .rfl

/-- EXIT, the arrays' part: the windows' arrays at their final contents and the unscoped rest at `Vin` are the core's
    unscoped buffers at any valuation `Vout` that has the arrays at those contents (`hF`) and agrees with `Vin` off
    them (`hrest`). -/
theorem exit9 (Vin Vout : Valuation τ sig (Elt F)) (hq : dat.q = q9)
    (hF : ∀ w, dat.arrAt w cfg9.N = Vout (Pipeline.arrRef spec9 w))
    (hrest : ∀ b : Ref sig .tc, b ∉ Finset.univ.image (Pipeline.arrRef spec9) → Vout b = Vin b) :
    iprop(dat.arrays (dat.arrAt · cfg9.N) ∗ Pipeline.unscopedRest spec9 c (fun b => Vin b))
      ⊢ (StableHlo.held (c : Thread nD τ) (Pipeline.ucRefs τ sig) Vout : sProp 𝕄) := by
  rw [held_eq_arrBufs9]
  refine sep_mono (arrays9_iff dat hq (fun b => Vout b) (dat.arrAt · cfg9.N) hF).1 (Entails.of_eq ?_)
  unfold Pipeline.unscopedRest
  exact bigSep_congr fun b hb => by dsimp only; rw [hrest b (Finset.mem_sdiff.mp hb).2]

end Shared

end Cert.KernelIdeal.Gen

end
-- ==== Proof.KI.Seg9.lean ====
import proofs.«167047_j26895085207995_2_alg».proof.Proof.KI.Fold
import proofs.«167047_j26895085207995_2_alg».proof.Proof.KI.Rec9

/-! Region 9 of the program as a segment of its run: the kernel region entered from the boundary contents before it
    and left at the boundary contents after it.

    At entry the core holds every unscoped buffer at the entry contents, beside its generator register and its (empty)
    debts. The region's arrays — the windows' arrays, whole buffers — are sorted out of the unscoped buffers. Two of the
    input windows are handed ONE array, so the buffer behind it is held in two halves, one per window; every other
    window has its array whole. The generator register goes into the pipeline's invariant — which also carries, from
    one grid point to the next, the two scratch buffers the kernel accumulates in — and comes back out of it at the
    last point. At exit the two halves are joined and the arrays are put back among the unscoped buffers. The exit
    contents are the entry contents UPDATED at the output window's array, which holds what the pipeline's write-backs
    leave there; every input window's array holds what it held (a pipeline never writes an input's array), and no
    other buffer is touched. These two facts (`hF9`, `hrest9`) are what putting the arrays back needs. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## This region's place in the program -/

/-- The region's number among the program's pipelines. -/
abbrev pix9 : Fin 10 := 9
/-- The boundary contents the region is entered from, -/
abbrev Ein9 : Dev nD → Valuation τ sig (Elt F) := B17 m
/-- and those it is left at. -/
abbrev Eout9 : Dev nD → Valuation τ sig (Elt F) := B18 m
/-- The output window, -/
abbrev owin9 : Fin cfg9.W := 6
/-- and its array. -/
abbrev oref9 : Ref sig .tc := main_v99

/-- The exit contents are the entry contents updated at the output array, with what the pipeline's write-backs leave
    there after the last grid point. -/
theorem Eout9_eq (c : Dev nD) :
    Eout9 m c = Function.update (Ein9 m c) (Proc.devRef .tc oref9) ((dat9 (atTc (Ein9 m)) c).arrAt owin9 cfg9.N) := rfl

/-! ## The exit contents at the region's arrays and off them -/

/-- At exit each of the region's arrays holds what the pipeline leaves in it: the output's array by the update; an
    input's array is never written, so it holds its entry contents, which the update (at another reference) keeps.
    The two input windows that are handed one array both read that array's entry contents. -/
theorem hF9 (c : Dev nD) (w : Fin cfg9.W) :
    (dat9 (atTc (Ein9 m)) c).arrAt w cfg9.N = atTc (Eout9 m) c (Pipeline.arrRef spec9 w) := by
  by_cases hw : w = owin9
  · subst hw
    show _ = Eout9 m c (Proc.devRef .tc oref9)
    rw [Eout9_eq, Function.update_self]
  · have hin : (cfg9.win w).isOut = false :=
      (by decide : ∀ w : Fin cfg9.W, w ≠ owin9 → (cfg9.win w).isOut = false) w hw
    have hne : Pipeline.arrRef spec9 w ≠ oref9 :=
      (by decide : ∀ w : Fin cfg9.W, w ≠ owin9 → Pipeline.arrRef spec9 w ≠ oref9) w hw
    refine (((dat9 (atTc (Ein9 m)) c).arrAt_in w hin _).trans (A_eq9 (atTc (Ein9 m)) c w)).trans ?_
    show Ein9 m c (Proc.devRef .tc (Pipeline.arrRef spec9 w)) = Eout9 m c (Proc.devRef .tc (Pipeline.arrRef spec9 w))
    rw [Eout9_eq]
    exact (Function.update_of_ne (StableHlo.devRef_ne_of_ne hne) _ _).symm

/-- Off the region's arrays the exit contents are the entry contents: the update is at one of the arrays. -/
theorem hrest9 (c : Dev nD) : ∀ b, b ∉ Finset.univ.image (Pipeline.arrRef spec9) → atTc (Eout9 m) c b = atTc (Ein9 m) c b := by
  intro b hb
  have hne : b ≠ oref9 := fun e => hb (Finset.mem_image.mpr ⟨owin9, Finset.mem_univ _, e.symm⟩)
  show Eout9 m c (Proc.devRef .tc b) = Ein9 m c (Proc.devRef .tc b)
  rw [Eout9_eq]
  exact Function.update_of_ne (StableHlo.devRef_ne_of_ne hne) _ _

/-! ## The region as a segment -/

set_option backward.isDefEq.respectTransparency.types false in
/-- The region over the thread state: entered from every unscoped buffer at the entry contents, left at the exit
    contents (what the next segment is entered from). Its arrays are sorted out of the unscoped buffers — the buffer
    two windows are handed is held in two halves, one per window — and put back, the halves joined, at the exit
    contents; the generator register goes into the pipeline's invariant, which also carries the two scratches from
    grid point to grid point, and comes out of it; nothing owed; no semaphore of the kernel's own. -/
def reg9 : Pipeline.RegionSeg (pcfgs (F := F)) adm (pdats m) () defs₀ 𝒱₀ L lv pix9 where
  win := winFacts₀9
  block_pos := block_pos9
  stage_whole := stage_whole9
  K := PEmpty
  osem k := k.elim
  ho := Pipeline.OwnSemFacts.none _
  hbody c := (body_obligation9 (atTc (Ein9 m)) c).loose
  hwaits := Pipeline.hwaits_of_owed_zero _ _ _ _ L lv pix9 fun _ _ => rfl
  pre c := iprop(StableHlo.held (c : Thread nD τ) (Pipeline.ucRefs τ sig) (Ein9 m c) ∗ R c)
  post c := iprop(StableHlo.held (c : Thread nD τ) (Pipeline.ucRefs τ sig) (Eout9 m c) ∗ R c)
  X c := iprop(∃ r, prngReg c r)
  Y c := iprop(∃ r, prngReg c r)
  Z c := Pipeline.unscopedRest (Ix := Unit) (Name := ℕ) (U := UR sig nD τ) (Lvl := ℕ) spec9 c (atTc (Ein9 m) c)
  hentry c := by
    rw [Pipeline.ownSems0_none]
    have hsplit := entry9 (pdats m pix9 c) (Ein9 m c) (A_eq9 (atTc (Ein9 m)) c) rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pix9 c).Φ 0 = (dat9 (atTc (Ein9 m)) c).Φ 0 from rfl]
    iintro ⟨Hp, -, Hr⟩
    iapply hin9 (atTc (Ein9 m)) c
    isplitl [Hp]; · iexact Hp
    iexact Hr
  hout c := by
    rw [Pipeline.ownSems0_none]
    refine (hout9 (atTc (Ein9 m)) c).trans ?_
    iintro ⟨Hp, Hr⟩
    isplitl [Hp]; · iexact Hp
    isplitr; · iempintro
    iexact Hr
  hexit c := by
    have hjoin := exit9 (pdats m pix9 c) (Ein9 m c) (Eout9 m c) rfl (hF9 m c) (hrest9 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Run.lean ====
/-
  The whole program's run at the boundaries' contents: from any memory with zero counters every weakly fair execution
  terminates, nothing faulting, and every unscoped buffer of the final memory holds the last boundary's contents —
  the launch memory pushed through the host stretches, with each region's output array at what the region leaves.
  Every region's record is entered from the boundary before it and left at the one after it; the state beside the
  buffers is the same at every boundary (the generator register at some state, nothing owed), so the records chain.
  The frame claim follows because no host stretch and no region writes an argument array.
-/
import proofs.«167047_j26895085207995_2_alg».proof.Proof.KI.Fold
import proofs.«167047_j26895085207995_2_alg».proof.Proof.KI.Seg0
import proofs.«167047_j26895085207995_2_alg».proof.Proof.KI.Seg1
import proofs.«167047_j26895085207995_2_alg».proof.Proof.KI.Seg2
import proofs.«167047_j26895085207995_2_alg».proof.Proof.KI.Seg3
import proofs.«167047_j26895085207995_2_alg».proof.Proof.KI.Seg4
import proofs.«167047_j26895085207995_2_alg».proof.Proof.KI.Seg5
import proofs.«167047_j26895085207995_2_alg».proof.Proof.KI.Seg6
import proofs.«167047_j26895085207995_2_alg».proof.Proof.KI.Seg7
import proofs.«167047_j26895085207995_2_alg».proof.Proof.KI.Seg8
import proofs.«167047_j26895085207995_2_alg».proof.Proof.KI.Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one
set_option backward.isDefEq.respectTransparency.types false in
/-- Every weakly fair execution ends with every unscoped buffer at the last boundary's contents. -/
theorem run : θ_run defs (onTc (τ := τ) (main (F := F))) ⟨m, fun _ => 0, ρ⟩ (fun r => ∀ c : Dev nD,
    ∀ b ∈ Pipeline.ucRefs τ sig, r.2.mem (((c : Thread nD τ)).1, b) = B19 m c b) := by
  have h : θ_run defs (onTc (τ := τ) (main (F := F))) ⟨m, fun _ => 0, ρ⟩ (fun r => ∀ c : Dev nD,
      ∀ b ∈ Pipeline.ucRefs τ sig, r.2.mem (((c : Thread nD τ)).1, b) = V19 m (outsR m) c b) := ?_
  · exact (θ_run defs _ _).mono (fun r hr c b hb => (hr c b hb).trans (congrFun (V19_eq m c) b)) h
  refine run_cond m (Ix := Unit) (U := UR sig nD τ) (Lvl := ℕ) emb₁ () 𝒱₀ L lv (fun _ _ => rfl) ρ (outsR m) (pdats m)
    (0 : Dev nD → CellTallies nD τ sig Unit) (fun _ => iprop(emp))
    (initOf (Pipeline.cells cfgs cellOf_inj) (Pipeline.launchToks cfgs cellOf_inj)) ?_ (fun _ c => R c) ?_ ?_
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V12_eq]; exact .rfl) (fun c => by rw [V13_eq]; exact .rfl)
    (reg7 m) (fun c => by rw [V13_eq]; exact .rfl) (fun c => by rw [V14_eq]; exact .rfl)
    (reg8 m) (fun c => by rw [V15_eq]; exact .rfl) (fun c => by rw [V16_eq]; exact .rfl)
    (reg9 m) (fun c => by rw [V17_eq]; exact .rfl) (fun c => by rw [V18_eq]; exact .rfl)
  · -- the launch's ghost state: the cells' tokens, and nothing else
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the first boundary's rest state, core by core: the register as launched, nothing owed
    refine Pipeline.initEach L lv fun c => ?_
    iintro ⟨⟨-, HO, -, Hp, -⟩, -⟩
    imodintro
    isplitl [Hp]; · iexists _; iexact Hp
    iexists ∅; iexact HO
  · -- the last boundary owes nothing
    intro c
    iintro ⟨-, HO⟩
    iexact HO

/-- The frame: every argument array ends as launched (no host stretch and no region writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r (hr : ∀ c : Dev nD, ∀ b ∈ Pipeline.ucRefs τ sig,
      r.2.mem (((c : Thread nD τ)).1, b) = B19 m c b) c => by
    have h := fun (b : Ref sig .tc) (hb : ¬ (Proc.devRef .tc b : DevRef τ sig).isScoped) =>
      ((hr c _ (mem_uc b hb)).trans (congrFun (V19_eq m c).symm _))
    exact ⟨(h main_arg0 (by decide)).trans (V19_main_arg0 m (outsR m) c),
      (h main_arg1 (by decide)).trans (V19_main_arg1 m (outsR m) c),
      (h main_arg2 (by decide)).trans (V19_main_arg2 m (outsR m) c),
      (h main_arg3 (by decide)).trans (V19_main_arg3 m (outsR m) c),
      (h main_arg4 (by decide)).trans (V19_main_arg4 m (outsR m) c),
      (h main_arg5 (by decide)).trans (V19_main_arg5 m (outsR m) c),
      (h main_arg6 (by decide)).trans (V19_main_arg6 m (outsR m) c),
      (h main_arg7 (by decide)).trans (V19_main_arg7 m (outsR m) c),
      (h main_arg8 (by decide)).trans (V19_main_arg8 m (outsR m) c),
      (h main_arg9 (by decide)).trans (V19_main_arg9 m (outsR m) c),
      (h main_arg10 (by decide)).trans (V19_main_arg10 m (outsR m) c),
      (h main_arg11 (by decide)).trans (V19_main_arg11 m (outsR m) c),
      (h main_arg12 (by decide)).trans (V19_main_arg12 m (outsR m) c),
      (h main_arg13 (by decide)).trans (V19_main_arg13 m (outsR m) c)⟩) (run m ρ)

end Cert.KernelIdeal.Gen

end
-- ==== Proof.Spec.lean ====
/-
  The mathematics both programs compute, written once over coordinates on the extended reals: two decoder layers
  (RMS normalisation, the q/k/v projections, rotary embedding, grouped-query attention with an additive mask and a
  row softmax, the output projection with its residual, and the gated feed-forward block with its residual).
  Every sum is a plain finite sum; the normalisation divides by the square root of the mean square plus a small
  constant; the softmax subtracts the row's supremum.  Nothing here mentions a program.
-/
import Idealize.ShloMosaic.PureOps.Ideal

noncomputable section

open scoped BigOperators
open Idealize.ShloMosaic

namespace Cert.Spec

/-- The normalisation's small constant, the row length, the attention divisor and the unit, as the words both programs print. -/
abbrev eps : EReal := Ideal.ofBits .f32 0x3727C5AC#32
abbrev rowLen : EReal := Ideal.ofBits .f32 0x45000000#32
abbrev eight : EReal := Ideal.ofBits .f32 0x41000000#32
abbrev one : EReal := Ideal.ofBits .f32 0x3F800000#32

/-- A hidden-state array, a weight matrix with `O` output rows, a per-head array. -/
abbrev Hid : Type := Fin 1024 → Fin 2048 → EReal
abbrev Wt (O I : Nat) : Type := Fin O → Fin I → EReal
abbrev Heads (n : Nat) : Type := Fin n → Fin 1024 → Fin 64 → EReal
abbrev Tab : Type := Fin 1024 → Fin 64 → EReal

/-- The mean square of row `s` plus the small constant: what the normalisation takes the root of. -/
def msq (x : Hid) (s : Fin 1024) : EReal := Ideal.div (∑ h : Fin 2048, x s h * x s h) rowLen + eps

/-- RMS normalisation: each entry over the root of its row's mean square, times the gain. -/
def rms (x : Hid) (g : Fin 2048 → EReal) : Hid := fun s h => Ideal.div (x s h) (Ideal.sqrt (msq x s)) * g h

/-- A projection: row `s` of the input against row `o` of the weight. -/
def proj {O I : Nat} (y : Fin 1024 → Fin I → EReal) (W : Wt O I) : Fin 1024 → Fin O → EReal := fun s o => ∑ h : Fin I, y s h * W o h

/-- Column `hd * 64 + d` of a projection, as head `hd`, position `s`, lane `d`. -/
def heads {n : Nat} (y : Fin 1024 → Fin (n * 64) → EReal) : Heads n := fun hd s d =>
  y s ⟨hd.val * 64 + d.val, by have := hd.isLt; have := d.isLt; nlinarith⟩

/-- The half rotation of a 64-lane vector: lanes 32..63 negated come first, then lanes 0..31. -/
def rot (k : Fin 64 → EReal) : Fin 64 → EReal := fun d =>
  if h : d.val < 32 then - k ⟨d.val + 32, by omega⟩ else k ⟨d.val - 32, by have := d.isLt; omega⟩

/-- Rotary embedding of every head at every position. -/
def rope {n : Nat} (k : Heads n) (cos sin : Tab) : Heads n := fun hd s d => k hd s d * cos s d + rot (k hd s) d * sin s d

/-- Attention logits of one head: the scaled inner products plus the additive mask. -/
def scores (q k : Fin 1024 → Fin 64 → EReal) (mask : Fin 1024 → Fin 1024 → EReal) : Fin 1024 → Fin 1024 → EReal :=
  fun s t => Ideal.div (∑ d : Fin 64, q s d * k t d) eight + mask s t

/-- The row softmax: exponentials of the row minus its supremum, over their sum. -/
def softmax (z : Fin 1024 → EReal) : Fin 1024 → EReal := fun t =>
  Ideal.div (Ideal.exp (z t - Finset.univ.sup z)) (∑ t' : Fin 1024, Ideal.exp (z t' - Finset.univ.sup z))

/-- Grouped-query attention: query head `hd` attends to key/value head `hd / 4`. -/
def attn (q : Heads 32) (k v : Heads 8) (mask : Fin 1024 → Fin 1024 → EReal) : Heads 32 := fun hd s d =>
  ∑ t : Fin 1024, softmax (scores (q hd) (k ⟨hd.val / 4, by have := hd.isLt; omega⟩) mask s) t * v ⟨hd.val / 4, by have := hd.isLt; omega⟩ t d

/-- The heads laid side by side again: column `o` is lane `o % 64` of head `o / 64`. -/
def merge (a : Heads 32) : Hid := fun s o =>
  a ⟨o.val / 64, by have := o.isLt; omega⟩ s ⟨o.val % 64, Nat.mod_lt _ (by decide)⟩

/-- `x · sigmoid x`, the sigmoid spelt `1 / (1 + e^{-x})`. -/
def silu (x : EReal) : EReal := x * Ideal.div one (one + Ideal.exp (-x))

/-- The gated feed-forward block with its residual. -/
def mlp (h : Hid) (g : Fin 2048 → EReal) (Wg Wu : Wt 8192 2048) (Wd : Wt 2048 8192) : Hid := fun s o =>
  h s o + ∑ i : Fin 8192, (silu (proj (rms h g) Wg s i) * proj (rms h g) Wu s i) * Wd o i

/-- One decoder layer's weights. -/
structure LayerW where
  g1 : Fin 2048 → EReal
  g2 : Fin 2048 → EReal
  Wq : Wt 2048 2048
  Wk : Wt 512 2048
  Wv : Wt 512 2048
  Wo : Wt 2048 2048
  Wg : Wt 8192 2048
  Wu : Wt 8192 2048
  Wd : Wt 2048 8192

/-- The new keys of a layer: the rotated key heads. -/
def newK (x : Hid) (cos sin : Tab) (w : LayerW) : Heads 8 :=
  rope (heads (n := 8) (proj (rms x w.g1) w.Wk)) cos sin
/-- The new values of a layer: the value heads as projected. -/
def newV (x : Hid) (w : LayerW) : Heads 8 := heads (n := 8) (proj (rms x w.g1) w.Wv)
/-- The hidden state after attention and its residual. -/
def afterAttn (x : Hid) (mask : Fin 1024 → Fin 1024 → EReal) (cos sin : Tab) (w : LayerW) : Hid := fun s o =>
  x s o + proj (merge (attn (rope (heads (n := 32) (proj (rms x w.g1) w.Wq)) cos sin) (newK x cos sin w) (newV x w) mask)) w.Wo s o
/-- One decoder layer's hidden-state result. -/
def layer (x : Hid) (mask : Fin 1024 → Fin 1024 → EReal) (cos sin : Tab) (w : LayerW) : Hid :=
  mlp (afterAttn x mask cos sin w) w.g2 w.Wg w.Wu w.Wd

end Cert.Spec

end
-- ==== Proof.Algebra.lean ====
/-
  The laws on the extended reals that join the two programs' spellings to the specification's. The printed words
  are the reals they denote (one, 2048, eight, one eighth, zero, minus infinity, and a positive small constant); a
  product with one eighth is a quotient by eight; a mean of squares plus the small constant is positive whatever the
  entries, the infinities included, so that on it the product with the reciprocal square root is the quotient by
  the square root; the logistic function is its expression; a row's maximum taken from minus infinity is the row's
  supremum; and a finite sum may be taken block by block or split in two.
-/
import proofs.«167047_j26895085207995_2_alg».proof.Proof.Spec
import Idealize.ShloMosaic.PureOps.Ideal.Laws

noncomputable section

open scoped BigOperators
open Idealize.ShloMosaic

namespace Cert.Spec

/-! ### The printed words, as the extended reals they denote -/

/-- The word both programs print for the unit is the real one. -/
theorem one_eq : one = (1 : EReal) := by
  show Ideal.ofBits .f32 0x3F800000#32 = 1
  simp [Ideal.ofBits, Ideal.ieee, -EReal.coe_mul]; norm_num

/-- The row length's word is the real 2048. -/
theorem rowLen_eq : rowLen = ((2048 : ℝ) : EReal) := by
  show Ideal.ofBits .f32 0x45000000#32 = _
  simp [Ideal.ofBits, Ideal.ieee, -EReal.coe_mul]; norm_num

/-- The attention divisor's word is the real 8. -/
theorem eight_eq : eight = ((8 : ℝ) : EReal) := by
  show Ideal.ofBits .f32 0x41000000#32 = _
  simp [Ideal.ofBits, Ideal.ieee, -EReal.coe_mul]; norm_num

/-- The kernel's score scale, 0.125, is the real one eighth. -/
theorem eighth_word : Ideal.ofBits .f32 0x3E000000#32 = (((1 : ℝ) / 8 : ℝ) : EReal) := by
  simp [Ideal.ofBits, Ideal.ieee, -EReal.coe_mul]; norm_num

/-- The zero word is zero. -/
theorem zero_word : Ideal.ofBits .f32 0x00000000#32 = (0 : EReal) := Ideal.ofBits_zero_f32

/-- The word of minus infinity is the bottom of the extended reals. -/
theorem ninf_word : Ideal.ofBits .f32 0xFF800000#32 = (⊥ : EReal) := by
  simp [Ideal.ofBits, Ideal.ieee]

/-- The normalisation's small constant is a positive real (a positive significand times a power of two). -/
theorem eps_pos : (0 : EReal) < eps := by
  show (0 : EReal) < Ideal.ofBits .f32 0x3727C5AC#32
  simp [Ideal.ofBits, Ideal.ieee, -EReal.coe_mul]

/-! ### Times one eighth is over eight -/

/-- The kernel scales a score by the word 0.125; the specification divides it by eight. Division by a nonzero real
    is the product with its reciprocal at every extended real, the infinities included. -/
theorem mul_eighth (z : EReal) : z * Ideal.ofBits .f32 0x3E000000#32 = Ideal.div z eight := by
  rw [eighth_word, eight_eq, Ideal.div_coe (by norm_num : (8 : ℝ) ≠ 0)]

/-! ### The mean square plus the small constant is positive -/

/-- A square is nonnegative on the extended reals: both factors lie on one side of zero
    (at the infinities the square of the bottom and the square of the top are both the top). -/
theorem ereal_mul_self_nonneg (a : EReal) : (0 : EReal) ≤ a * a :=
  EReal.mul_nonneg_iff.2 ((le_total 0 a).imp (fun h => ⟨h, h⟩) (fun h => ⟨h, h⟩))

/-- So is a finite sum of squares. -/
theorem sumsq_nonneg {n : Nat} (f : Fin n → EReal) : (0 : EReal) ≤ ∑ h : Fin n, f h * f h :=
  Finset.sum_nonneg fun h _ => ereal_mul_self_nonneg (f h)

/-- Dividing by the row length, the positive real 2048, keeps a nonnegative value nonnegative. -/
theorem div_rowLen_nonneg {a : EReal} (ha : 0 ≤ a) : (0 : EReal) ≤ Ideal.div a rowLen := by
  rw [rowLen_eq, Ideal.div_coe (by norm_num : (2048 : ℝ) ≠ 0)]
  exact EReal.mul_nonneg ha (EReal.coe_nonneg.2 (by norm_num))

/-- A mean of squares plus the small constant is positive: the mean is nonnegative and the constant positive.
    No finiteness is asked of the entries. -/
theorem sumsq_div_pos {n : Nat} (f : Fin n → EReal) : (0 : EReal) < Ideal.div (∑ h : Fin n, f h * f h) rowLen + eps :=
  eps_pos.trans_le (le_add_of_nonneg_left (div_rowLen_nonneg (sumsq_nonneg f)))

/-- What the normalisation takes the root of is positive. -/
theorem msq_pos (x : Hid) (s : Fin 1024) : (0 : EReal) < msq x s := sumsq_div_pos fun h => x s h

/-! ### Times the reciprocal root is over the root -/

/-- On the interval from zero (excluded) to the top (included) the product with the reciprocal square root is the
    quotient by the square root. At a positive real both are the product with the inverse of the real root; at the
    top the reciprocal root is zero and the root is the top, whose inverse is zero, so both sides are x times zero. -/
theorem mul_rsqrt_eq_div_sqrt (x v : EReal) (hv : 0 < v) : x * Ideal.rsqrt v = Ideal.div x (Ideal.sqrt v) := by
  induction v using EReal.rec with
  | bot => exact absurd hv (not_lt.2 bot_le)
  | top => rw [Ideal.rsqrt_top, Ideal.sqrt_top, mul_zero, Ideal.div, if_neg EReal.top_ne_zero, EReal.inv_top, mul_zero]
  | coe r =>
    have hr : 0 < r := EReal.coe_pos.1 hv
    have hs : Real.sqrt r ≠ 0 := (Real.sqrt_pos.2 hr).ne'
    rw [Ideal.rsqrt_coe, Ideal.sqrt_coe, if_neg (not_lt.2 hr.le), if_neg hr.ne', if_neg (not_lt.2 hr.le), Ideal.div,
      if_neg (by exact_mod_cast hs), EReal.coe_inv]

/-! ### The logistic function is its expression -/

/-- The one-operation logistic is one over one plus the exponential of the negated argument, the unit spelt as
    the printed word. -/
theorem logistic_eq (x : EReal) : Ideal.logistic x = Ideal.div one (one + Ideal.exp (-x)) := by
  rw [one_eq]; rfl

/-! ### A row's maximum is its supremum -/

/-- The fold of the maximum over a row from the bottom is the row's supremum. -/
theorem fold_max_eq_sup {n : Nat} (z : Fin n → EReal) : (Finset.univ.fold max ⊥ z) = Finset.univ.sup z := rfl

/-- The bottom is the maximum's unit. -/
theorem max_bot (z : EReal) : max ⊥ z = z := max_eq_right bot_le

/-- The kernel's maximum over one axis, started from the word of minus infinity, read at an index: the supremum of
    the source over that axis's coordinates. -/
theorem multiReduction_max_eq_sup {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = Finset.univ.sup (src ∘ h.lift j) := by
  rw [Ideal.multiReduction_maximumf_single, Ideal.ofBits_def, ninf_word]; rfl

/-- The host's reduction with the maximum over one axis from an initial value that is the bottom, read at an index:
    the same supremum. -/
theorem hostReduce_max_eq_sup {s t u : Shape} {a : Fin s.rank} (x : s.Idx → EReal) (init : u.Idx → EReal)
    (h' : s.ReducesTo [a] t) (h : s.Reduces [a] t) (hu : 0 < u.numel) (hinit : init (Shape.Idx.first hu) = ⊥)
    (j : t.Idx) :
    Host.reduce (FloatOps.maximumf (F := Ideal) (φ := .f32)) x init h' hu j = Finset.univ.sup (x ∘ h.lift j) := by
  rw [Host.reduce_eq_fold_single (FloatOps.maximumf (F := Ideal) (φ := .f32)) x init h' h hu, hinit]; rfl

/-- … and the host's further maximum with the bottom changes nothing. -/
theorem max_bot_hostReduce_eq_sup {s t u : Shape} {a : Fin s.rank} (x : s.Idx → EReal) (init : u.Idx → EReal)
    (h' : s.ReducesTo [a] t) (h : s.Reduces [a] t) (hu : 0 < u.numel) (hinit : init (Shape.Idx.first hu) = ⊥)
    (j : t.Idx) :
    max ⊥ (Host.reduce (FloatOps.maximumf (F := Ideal) (φ := .f32)) x init h' hu j) = Finset.univ.sup (x ∘ h.lift j) := by
  rw [max_bot, hostReduce_max_eq_sup x init h' h hu hinit]

/-! ### Sums regrouped -/

/-- Position j of block t lies inside m blocks of length n. -/
theorem block_lt {m n t j : Nat} (ht : t < m) (hj : j < n) : t * n + j < m * n :=
  calc t * n + j < t * n + n := by omega
    _ = (t + 1) * n := by ring
    _ ≤ m * n := Nat.mul_le_mul_right n ht

/-- A sum over m * n indices is the sum over m blocks of the sums over each block's n positions. -/
theorem sum_blocks {M : Type} [AddCommMonoid M] (m n : Nat) (f : Fin (m * n) → M) :
    ∑ i : Fin (m * n), f i = ∑ t : Fin m, ∑ j : Fin n, f ⟨t.val * n + j.val, block_lt t.isLt j.isLt⟩ := by
  rw [← (finProdFinEquiv (m := m) (n := n)).sum_comp f, Fintype.sum_prod_type]
  refine Finset.sum_congr rfl fun t _ => Finset.sum_congr rfl fun j _ => congrArg f (Fin.ext ?_)
  simp only [finProdFinEquiv_apply_val]; ring

/-- The feed-forward sum over 8192 columns, taken sixteen tiles of 512 at a time. -/
theorem sum_tiles {M : Type} [AddCommMonoid M] (f : Fin 8192 → M) :
    ∑ i : Fin 8192, f i
      = ∑ t : Fin 16, ∑ j : Fin 512, f ⟨t.val * 512 + j.val, by have := t.isLt; have := j.isLt; omega⟩ :=
  sum_blocks 16 512 f

/-- A sum over a + b indices is the sum over the first a plus the sum over the last b. -/
theorem sum_split {M : Type} [AddCommMonoid M] (a b : Nat) (f : Fin (a + b) → M) :
    ∑ i, f i = ∑ i : Fin a, f (Fin.castAdd b i) + ∑ j : Fin b, f (Fin.natAdd a j) := Fin.sum_univ_add f

end Cert.Spec

end
-- ==== Proof.Val.Pay0.lean ====
/-
  The normalisation-and-projection kernel's one payload, read at an output coordinate: row `p` of the
  block is divided by the root of its mean square plus the small constant, scaled by the gain row, and
  contracted against row `q` of the weight block.  The kernel multiplies by the reciprocal root; on the
  extended reals the mean square plus the constant is positive, so that product is the quotient the
  specification writes.
-/
import proofs.«167047_j26895085207995_2_alg».proof.Proof.Spec
import proofs.«167047_j26895085207995_2_alg».proof.Proof.Algebra
import proofs.«167047_j26895085207995_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.KV

namespace Pay0

/-! ## The layout operations of the payload, read at coordinates -/

/-- A reciprocal root taken lane by lane reads, at an index, the reciprocal root of the entry. -/
theorem rsqrt_apply {s : Shape} {φ : FTy} (v : FVec Ideal s φ) (i : s.Idx) : rsqrt v i = Ideal.rsqrt (v i) := rfl

/-- A vector of length `a` viewed as an `a × 1` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column laid along every lane reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a 512 × 2048 block, read at row `p`, is the sum of that row's entries. -/
theorem laneSum_apply (v : FVec Ideal Cert.KernelIdeal.S512x2048 .f32)
    (h : Cert.KernelIdeal.S512x2048.Reduces [1] Cert.KernelIdeal.S512) (hφ : FKind.Formats .f32)
    (hacc : (0x00000000#32 : BitVec 32) = FKind.add.neutral .f32 hφ) (p : Fin 512) :
    multiReduction (F := Ideal) .add [1] Cert.KernelIdeal.S512 v 0x00000000#32 h hφ hacc (ix1 p)
      = ∑ k : Fin 2048, v (ix2 p k) := by
  refine (Ideal.multiReduction_add_single v _ h hφ hacc (ix1 p)).trans ?_
  show ∑ k : Fin 2048, v (h.lift (ix1 p) k) = _
  refine Finset.sum_congr rfl fun k _ => congrArg v ?_
  funext c
  refine Fin.ext ?_
  match c with
  | ⟨0, _⟩ => rfl
  | ⟨1, _⟩ => rfl

/-! ## The block product -/

/-- The product's left operand is read at the output's row … -/
theorem lhs_mm_0 (i : Cert.KernelIdeal.S512x512.Idx) (q : Cert.KernelIdeal.dot_S512x2048_S2048x512_S512x512_1_0_0_1_n_n.contr.Idx) :
    (Cert.KernelIdeal.dot_S512x2048_S2048x512_S512x512_1_0_0_1_n_n.lhsIdx i q 0).val = (i 0).val := by
  unfold DotDims.lhsIdx
  rw [dif_neg (show ¬(0 : Fin Cert.KernelIdeal.S512x2048.rank) ∈ Cert.KernelIdeal.dot_S512x2048_S2048x512_S512x512_1_0_0_1_n_n.lhsBatch by decide),
    dif_pos (show (0 : Fin Cert.KernelIdeal.S512x2048.rank) ∈ Cert.KernelIdeal.dot_S512x2048_S2048x512_S512x512_1_0_0_1_n_n.lhsNonContracting by decide)]
  rfl
/-- … and at the contracted coordinate; -/
theorem lhs_mm_1 (i : Cert.KernelIdeal.S512x512.Idx) (q : Cert.KernelIdeal.dot_S512x2048_S2048x512_S512x512_1_0_0_1_n_n.contr.Idx) :
    (Cert.KernelIdeal.dot_S512x2048_S2048x512_S512x512_1_0_0_1_n_n.lhsIdx i q 1).val = (q ⟨0, by decide⟩).val :=
  Cert.KernelIdeal.dot_S512x2048_S2048x512_S512x512_1_0_0_1_n_n.lhsIdx_val_of_single rfl i q
/-- the right operand at the contracted coordinate … -/
theorem rhs_mm_0 (i : Cert.KernelIdeal.S512x512.Idx) (q : Cert.KernelIdeal.dot_S512x2048_S2048x512_S512x512_1_0_0_1_n_n.contr.Idx) :
    (Cert.KernelIdeal.dot_S512x2048_S2048x512_S512x512_1_0_0_1_n_n.rhsIdx i q 0).val = (q ⟨0, by decide⟩).val :=
  Cert.KernelIdeal.dot_S512x2048_S2048x512_S512x512_1_0_0_1_n_n.rhsIdx_val_of_single rfl i q
/-- … and at the output's column. -/
theorem rhs_mm_1 (i : Cert.KernelIdeal.S512x512.Idx) (q : Cert.KernelIdeal.dot_S512x2048_S2048x512_S512x512_1_0_0_1_n_n.contr.Idx) :
    (Cert.KernelIdeal.dot_S512x2048_S2048x512_S512x512_1_0_0_1_n_n.rhsIdx i q 1).val = (i 1).val := by
  unfold DotDims.rhsIdx
  rw [dif_neg (show ¬(1 : Fin Cert.KernelIdeal.S2048x512.rank) ∈ Cert.KernelIdeal.dot_S512x2048_S2048x512_S512x512_1_0_0_1_n_n.rhsBatch by decide),
    dif_pos (show (1 : Fin Cert.KernelIdeal.S2048x512.rank) ∈ Cert.KernelIdeal.dot_S512x2048_S2048x512_S512x512_1_0_0_1_n_n.rhsNonContracting by decide)]
  rfl

/-- A 512 × 2048 block times a 2048 × 512 block into the zero accumulator, read at `(p, q)`: the sum over the 2048
    contracted lanes of the products of the entries. -/
theorem mm_apply (A : FVec Ideal Cert.KernelIdeal.S512x2048 .bf16) (B : FVec Ideal Cert.KernelIdeal.S2048x512 .bf16)
    (p q : Fin 512) :
    matmul (F := Ideal) Cert.KernelIdeal.dot_S512x2048_S2048x512_S512x512_1_0_0_1_n_n none A B (constant (F := Ideal) Cert.KernelIdeal.S512x512 .f32 0x00000000#32) (ix2 p q)
      = ∑ h : Fin 2048, A (ix2 p h) * B (ix2 h q) := by
  simp only [matmul]
  rw [Ideal.matmul_constant_zero_apply, ← Equiv.sum_comp (contrEquiv1 Cert.KernelIdeal.dot_S512x2048_S2048x512_S512x512_1_0_0_1_n_n 2048 rfl rfl).symm]
  refine Finset.sum_congr rfl fun k _ => ?_
  have hk := contrEquiv1_symm_val Cert.KernelIdeal.dot_S512x2048_S2048x512_S512x512_1_0_0_1_n_n 2048 rfl rfl k
  have el : Cert.KernelIdeal.dot_S512x2048_S2048x512_S512x512_1_0_0_1_n_n.lhsIdx (ix2 p q) ((contrEquiv1 Cert.KernelIdeal.dot_S512x2048_S2048x512_S512x512_1_0_0_1_n_n 2048 rfl rfl).symm k) = ix2 p k :=
    funext fun a => Fin.ext (by
      match a with
      | ⟨0, _⟩ => exact lhs_mm_0 _ _
      | ⟨1, _⟩ => exact (lhs_mm_1 _ _).trans hk)
  have er : Cert.KernelIdeal.dot_S512x2048_S2048x512_S512x512_1_0_0_1_n_n.rhsIdx (ix2 p q) ((contrEquiv1 Cert.KernelIdeal.dot_S512x2048_S2048x512_S512x512_1_0_0_1_n_n 2048 rfl rfl).symm k) = ix2 k q :=
    funext fun a => Fin.ext (by
      match a with
      | ⟨0, _⟩ => exact (rhs_mm_0 _ _).trans hk
      | ⟨1, _⟩ => exact rhs_mm_1 _ _)
  rw [el, er]

end Pay0

open Pay0

theorem pay0_apply (x : Vec Ideal Cert.KernelIdeal.S512x2048 .f32) (g : Vec Ideal Cert.KernelIdeal.S1x2048 .f32)
    (w : Vec Ideal Cert.KernelIdeal.S512x2048 .bf16) (p q : Fin 512) :
    Cert.KernelIdeal.Gen.k0_pay1 (F := Ideal) x g w (ix2 p q)
      = ∑ h : Fin 2048, (Ideal.div (x (ix2 p h)) (Ideal.sqrt (Ideal.div (∑ h' : Fin 2048, x (ix2 p h') * x (ix2 p h')) Cert.Spec.rowLen + Cert.Spec.eps)) * g (ix2 0 h)) * w (ix2 q h) := by
  unfold Cert.KernelIdeal.Gen.k0_pay1
  rw [mm_apply]
  refine Finset.sum_congr rfl fun h _ => ?_
  -- the right factor: the transposed weight block at `(h, q)` is the weight block at `(q, h)`
  refine congrArg₂ (· * ·) ?_ ((transpose_ix2_apply _ _ h q).trans (congrFun (shapeCast_self w _) _))
  -- the left factor: the pointwise operations and the two broadcasts, read at `(p, h)`
  simp only [truncf_apply, mulf_apply, shapeCast_self, broadcastTo_1b_ab_apply, broadcastTo_a1_ab_apply, rsqrt_apply,
    addf_apply, divf_apply, broadcast_apply, shapeCast_a_a1_apply]
  refine congrArg (· * g (ix2 0 h)) ?_
  -- the product with the reciprocal root is the quotient by the root, the mean square plus the constant being positive
  refine Eq.trans ?_ (Cert.Spec.mul_rsqrt_eq_div_sqrt _ _ (Cert.Spec.sumsq_div_pos fun h' => x (ix2 p h')))
  refine congrArg (fun s => x (ix2 p h) * Ideal.rsqrt (Ideal.div s Cert.Spec.rowLen + Cert.Spec.eps)) ?_
  exact laneSum_apply _ _ _ _ p

end Cert.KV

end
-- ==== Proof.Val.Final0.lean ====
/-
  From tiles to the whole array, for the normalise-and-project call of region 0.  The call walks a 2 x 6 grid; at
  point `(i, j)` it writes tile `(i, j)` of the 1024 x 3072 result, computed from rows `512 i ..` of the activations,
  the gain row, and rows `512 j ..` of the stacked projection weights.  Entry `(p, q)` of that tile is the payload of the
  three blocks at `(p, q)`, which is entry `(512 i + p, 512 j + q)` of the projection of the normalised activations;
  the twelve tiles cover the array, so after the last point the array is that projection.
-/
import proofs.«167047_j26895085207995_2_alg».proof.Proof.Spec
import proofs.«167047_j26895085207995_2_alg».proof.Proof.KI.Reg0
import proofs.«167047_j26895085207995_2_alg».proof.Proof.Val.Pay0
import Idealize.ShloMosaic.Lib.ValueIdx
import Idealize.ShloMosaic.Lib.Pipeline.Value

noncomputable section

namespace Cert.KV

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets, as the constant function. -/
theorem Final0.hz : (![0, 0] : Fin 2 → Nat) = fun _ => 0 := funext fun a => by fin_cases a <;> rfl

namespace Final0

/-- The activations, the gain row and the stacked projection weights as the call finds them, by coordinates. -/
abbrev actv0 (c : Dev nD) : Cert.Spec.Hid := fun s h => (V c (Pipeline.arrRef spec0 0) : Vec Ideal S1024x2048 .f32) (ix2 s h)
abbrev gain0 (c : Dev nD) : Fin 2048 → EReal := fun h => (V c (Pipeline.arrRef spec0 1) : Vec Ideal S1x2048 .f32) (ix2 0 h)
abbrev wts0 (c : Dev nD) : Cert.Spec.Wt 3072 2048 := fun o h => (V c (Pipeline.arrRef spec0 2) : Vec Ideal S3072x2048 .bf16) (ix2 o h)

/-- What the call's output array ends holding: the normalised activations projected, entry by entry. -/
def G0 (c : Dev nD) : Vec Ideal S1024x3072 .f32 := fun i =>
  Cert.Spec.proj (Cert.Spec.rms (actv0 V c) (gain0 V c)) (wts0 V c) ⟨(i 0).val, (i 0).isLt⟩ ⟨(i 1).val, (i 1).isLt⟩

/-- The index maps, decided once over the twelve grid points: the activations' block follows the output tile's row
    index, the weights' block its column index, the gain row has one block; the tile indices stay in their ranges. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (1 : Fin 2)
    ∧ win0_2.index t (1 : Fin 2) = 0
    ∧ win0_3.index t (0 : Fin 2) ≤ 1
    ∧ win0_3.index t (1 : Fin 2) ≤ 5 :=
  (by decide +kernel : ∀ t : Fin grid0.N, _)

/-- Every tile of the 2 x 6 tiling is some point's. -/
theorem idx_onto0 : ∀ (a : Fin 2) (b : Fin 6), ∃ t : Fin cfg0.N, win0_3.index t = ![a.val, b.val] :=
  (by decide +kernel : ∀ (a : Fin 2) (b : Fin 6), ∃ t : Fin grid0.N, win0_3.index t = ![a.val, b.val])

/-- The activations' block at point `t`, read at `(p, h)`, is the array's row `512 i + p`, `i` the tile's row index. -/
theorem iblk0_0_apply (c : Dev nD) (t : Fin cfg0.N) (p : Fin 512) (s : Fin 1024)
    (hs : s.val = win0_3.index t (0 : Fin 2) * 512 + p.val) (h : Fin 2048) :
    (iblk0 V c 0 t : Vec Ideal S512x2048 .f32) (ix2 p h) = actv0 V c s h := by
  obtain ⟨er, ec, -⟩ := idx_facts0 t
  unfold iblk0
  rw [View.read_apply]
  show (V c (Pipeline.arrRef spec0 0) : Vec Ideal S1024x2048 .f32) _ = (V c (Pipeline.arrRef spec0 0) : Vec Ideal S1024x2048 .f32) (ix2 s h)
  congr 1
  funext a
  apply Fin.ext
  match a with
  | ⟨0, _⟩ => show win0_0.index t (0 : Fin 2) * 512 + 1 * p.val = s.val; omega
  | ⟨1, _⟩ => show win0_0.index t (1 : Fin 2) * 2048 + 1 * h.val = h.val; omega

/-- The gain row's one block is the gain row. -/
theorem iblk0_1_apply (c : Dev nD) (t : Fin cfg0.N) (u : Fin 1) (h : Fin 2048) :
    (iblk0 V c 1 t : Vec Ideal S1x2048 .f32) (ix2 u h) = gain0 V c h := by
  obtain ⟨-, -, er, ec, -⟩ := idx_facts0 t
  have hu : u.val = 0 := by omega
  unfold iblk0
  rw [View.read_apply]
  show (V c (Pipeline.arrRef spec0 1) : Vec Ideal S1x2048 .f32) _ = (V c (Pipeline.arrRef spec0 1) : Vec Ideal S1x2048 .f32) (ix2 0 h)
  congr 1
  funext a
  apply Fin.ext
  match a with
  | ⟨0, _⟩ => show win0_1.index t (0 : Fin 2) * 1 + 1 * u.val = 0; omega
  | ⟨1, _⟩ => show win0_1.index t (1 : Fin 2) * 2048 + 1 * h.val = h.val; omega

/-- The weights' block at point `t`, read at `(q, h)`, is the array's row `512 j + q`, `j` the tile's column index. -/
theorem iblk0_2_apply (c : Dev nD) (t : Fin cfg0.N) (q : Fin 512) (o : Fin 3072)
    (ho : o.val = win0_3.index t (1 : Fin 2) * 512 + q.val) (h : Fin 2048) :
    (iblk0 V c 2 t : Vec Ideal S512x2048 .bf16) (ix2 q h) = wts0 V c o h := by
  obtain ⟨-, -, -, -, er, ec, -⟩ := idx_facts0 t
  unfold iblk0
  rw [View.read_apply]
  show (V c (Pipeline.arrRef spec0 2) : Vec Ideal S3072x2048 .bf16) _ = (V c (Pipeline.arrRef spec0 2) : Vec Ideal S3072x2048 .bf16) (ix2 o h)
  congr 1
  funext a
  apply Fin.ext
  match a with
  | ⟨0, _⟩ => show win0_2.index t (0 : Fin 2) * 512 + 1 * q.val = o.val; omega
  | ⟨1, _⟩ => show win0_2.index t (1 : Fin 2) * 2048 + 1 * h.val = h.val; omega

/-- Entry `(p, q)` of the output tile at point `t` sits in the array at `(512 i + p, 512 j + q)`. -/
theorem emb0_3 (t : Fin cfg0.N) (p q : Fin 512) (s : Fin 1024) (o : Fin 3072)
    (hs : s.val = win0_3.index t (0 : Fin 2) * 512 + p.val) (ho : o.val = win0_3.index t (1 : Fin 2) * 512 + q.val) :
    ((cfg0.win 3).blk t).view.emb (ix2 p q) = (ix2 s o : S1024x3072.Idx) := by
  funext a
  apply Fin.ext
  match a with
  | ⟨0, _⟩ => show win0_3.index t (0 : Fin 2) * 512 + 1 * p.val = s.val; omega
  | ⟨1, _⟩ => show win0_3.index t (1 : Fin 2) * 512 + 1 * q.val = o.val; omega

/-- What point `t` writes back is tile `t` of `G0`. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S512x2048) hz, View.ld_unit_zero (S := S1x2048) hz]
  refine funext fun (j : S512x512.Idx) => ?_
  obtain ⟨p, q, rfl⟩ : ∃ (p : Fin 512) (q : Fin 512), j = ix2 p q := ⟨j 0, j 1, eq_ix2 j⟩
  show k0_pay1 (F := Ideal) (iblk0 V c 0 t) (iblk0 V c 1 t) (iblk0 V c 2 t) (ix2 p q) = G0 V c (((cfg0.win 3).blk t).view.emb (ix2 p q))
  rw [pay0_apply]
  obtain ⟨-, -, -, -, -, -, br, bc⟩ := idx_facts0 t
  have hp : p.val < 512 := p.isLt
  have hq : q.val < 512 := q.isLt
  rw [emb0_3 t p q ⟨win0_3.index t (0 : Fin 2) * 512 + p.val, by omega⟩ ⟨win0_3.index t (1 : Fin 2) * 512 + q.val, by omega⟩ rfl rfl]
  simp only [iblk0_0_apply V c t p ⟨win0_3.index t (0 : Fin 2) * 512 + p.val, by omega⟩ rfl, iblk0_1_apply V c t,
    iblk0_2_apply V c t q ⟨win0_3.index t (1 : Fin 2) * 512 + q.val, by omega⟩ rfl]
  rfl

/-- An index of the array is in point `t`'s tile iff each coordinate is in the tile's range on its axis. -/
theorem mem_blk0 (t : Fin cfg0.N) (i : S1024x3072.Idx) :
    i ∈ ((cfg0.win 3).blk t).view.set ↔ ∀ a : Fin 2, win0_3.index t a * S512x512.size a ≤ (i a).val ∧ (i a).val < win0_3.index t a * S512x512.size a + S512x512.size a := by
  show i ∈ ((View.whole (Pipeline.arrRef spec0 3)).slice (win0_3.rect t)).set ↔ _
  rw [View.set_slice_whole, Rect.mem_set_unit]
  exact Iff.rfl

/-- The tiles cover the array: entry `(r, k)` lies in the tile `(r / 512, k / 512)`. -/
theorem cover0 (i : S1024x3072.Idx) : ∃ t : Fin cfg0.N, (cfg0.win 3).flush t = true ∧ i ∈ ((cfg0.win 3).blk t).view.set := by
  have hr : (i 0).val < 1024 := (i 0).isLt
  have hk : (i 1).val < 3072 := (i 1).isLt
  obtain ⟨t, ht⟩ := idx_onto0 ⟨(i 0).val / 512, by omega⟩ ⟨(i 1).val / 512, by omega⟩
  have er : win0_3.index t (0 : Fin 2) = (i 0).val / 512 := congrFun ht 0
  have ek : win0_3.index t (1 : Fin 2) = (i 1).val / 512 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

end Final0

open Final0 in
/-- The call's output array after its last grid point is the projection of the normalised activations. -/
theorem final0 (c : Dev nD) (s : Fin 1024) (o : Fin 3072) :
    ((dat0 (F := Ideal) V c).arrAt 3 cfg0.N : Vec Ideal S1024x3072 .f32) (ix2 s o)
      = Cert.Spec.proj (Cert.Spec.rms (fun s h => (V c (Pipeline.arrRef spec0 0) : Vec Ideal S1024x2048 .f32) (ix2 s h))
          (fun h => (V c (Pipeline.arrRef spec0 1) : Vec Ideal S1x2048 .f32) (ix2 0 h)))
        (fun o h => (V c (Pipeline.arrRef spec0 2) : Vec Ideal S3072x2048 .bf16) (ix2 o h)) s o :=
  congrFun ((dat0 (F := Ideal) V c).arrAt_eq_of_cover 3 (G0 V c) (fun t _ => flushed0_eq V c t) cover0) (ix2 s o)

end Cert.KV

end
-- ==== Proof.Val.Pay1.lean ====
/-
  The rotary kernel's result at an index.  The kernel reads one key head as a [1, 1024, 64] block together with the
  cosine and sine tables, views the block as a [1024, 64] matrix, and forms

      k * cos + (the half rotation of k) * sin,

  the half rotation spelt as the concatenation, along the lanes, of the zero vector minus lanes 32..63 with lanes
  0..31.  Read at position `s` and lane `d` this is `k s d * cos s d + rot (k s) d * sin s d`: below lane 32 the
  concatenation reads its first piece, `0 - k s (d + 32)`, from lane 32 on its second, `k s (d - 32)`; on the extended
  reals `0 - x = -x` with no side condition.
-/
import proofs.«167047_j26895085207995_2_alg».proof.Proof.Spec
import proofs.«167047_j26895085207995_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx

namespace Cert.KV

open Cert.KernelIdeal

/-- The half rotation as the kernel spells it, on a [1024, 64] matrix: the lanes from 32 on, each taken from zero,
    laid in front of the lanes below 32. -/
def rotCat (x : Vec Ideal S1024x64 .f32) : FVec Ideal S1024x64 .f32 :=
  concatenate S1024x64 1
    [⟨S1024x32, subf (broadcast S1024x32 (Scalar.ofBits .f32 0x00000000#32))
        (extractStridedSlice S1024x32 ![0, 32] x Gen.slices_S1024x64_o0_32_S1024x32)⟩,
     ⟨S1024x32, extractStridedSlice S1024x32 ![0, 0] x Gen.slices_S1024x64_o0_0_S1024x32⟩]
    Gen.concatenates_S1024x32_S1024x32_S1024x64_d1

/-- Below lane 32 the concatenation reads its first piece: minus the lane 32 further on. -/
theorem rotCat_lo (x : Vec Ideal S1024x64 .f32) (s : Fin 1024) (d : Fin 64) (hd : d.val < 32) :
    rotCat x (ix2 s d) = - x (ix2 s ⟨d.val + 32, by omega⟩) := by
  unfold rotCat
  rw [concatenate_pair_apply_left _ _ _ Gen.concatenates_S1024x32_S1024x32_S1024x64_d1 (ix2 s d) rfl
    (ix2 s (⟨d.val, hd⟩ : Fin 32)) (fun b => by
      match b with
      | ⟨0, _⟩ => rfl
      | ⟨1, _⟩ => rfl)]
  rw [subf_apply, broadcast_apply,
    slice2_axis1_apply 32 x Gen.slices_S1024x64_o0_32_S1024x32 s (⟨d.val, hd⟩ : Fin 32) ⟨d.val + 32, by omega⟩
      (Nat.add_comm _ _)]
  show Ideal.ofBits .f32 0x00000000#32 - x (ix2 s ⟨d.val + 32, _⟩) = - x (ix2 s ⟨d.val + 32, _⟩)
  rw [Ideal.ofBits_zero_f32, zero_sub]

/-- From lane 32 on the concatenation reads its second piece: the lane 32 back. -/
theorem rotCat_hi (x : Vec Ideal S1024x64 .f32) (s : Fin 1024) (d : Fin 64) (hd : ¬ d.val < 32) :
    rotCat x (ix2 s d) = x (ix2 s ⟨d.val - 32, by have := d.isLt; omega⟩) := by
  have hd' : d.val - 32 < 32 := by have := d.isLt; omega
  unfold rotCat
  rw [concatenate_pair_apply_right _ _ _ Gen.concatenates_S1024x32_S1024x32_S1024x64_d1 (ix2 s d) rfl rfl
    (ix2 s (⟨d.val - 32, hd'⟩ : Fin 32)) (fun b hb => by
      match b with
      | ⟨0, _⟩ => rfl
      | ⟨1, _⟩ => exact absurd rfl hb)
    (by show d.val - 32 + 32 = d.val; omega)]
  exact slice2_axis1_apply 0 x Gen.slices_S1024x64_o0_0_S1024x32 s (⟨d.val - 32, hd'⟩ : Fin 32) ⟨d.val - 32, _⟩
    (Nat.zero_add _).symm

/-- The kernel's half rotation at a position and lane is the half rotation of that position's 64 lanes. -/
theorem rotCat_apply (x : Vec Ideal S1024x64 .f32) (s : Fin 1024) (d : Fin 64) :
    rotCat x (ix2 s d) = Cert.Spec.rot (fun d' => x (ix2 s d')) d := by
  unfold Cert.Spec.rot
  by_cases hd : d.val < 32
  · rw [dif_pos hd, rotCat_lo x s d hd]
  · rw [dif_neg hd, rotCat_hi x s d hd]

/-- The rotary kernel's stored block at `(0, s, d)`, first layer. -/
theorem pay1_apply (k : Vec Ideal Cert.KernelIdeal.S1x1024x64 .f32) (cos sin : Vec Ideal Cert.KernelIdeal.S1024x64 .f32)
    (s : Fin 1024) (d : Fin 64) :
    Cert.KernelIdeal.Gen.k1_pay1 (F := Ideal) k cos sin (ix3 0 s d)
      = k (ix3 0 s d) * cos (ix2 s d) + Cert.Spec.rot (fun d' => k (ix3 0 s d')) d * sin (ix2 s d) := by
  show shapeCast S1x1024x64
      (addf (mulf (shapeCast S1024x64 k Gen.shapeCasts_S1x1024x64_S1024x64) (shapeCast S1024x64 cos Gen.shapeCasts_S1024x64_S1024x64))
        (mulf (rotCat (shapeCast S1024x64 k Gen.shapeCasts_S1x1024x64_S1024x64)) (shapeCast S1024x64 sin Gen.shapeCasts_S1024x64_S1024x64)))
      Gen.shapeCasts_S1024x64_S1x1024x64 (ix3 0 s d) = _
  rw [shapeCast_ab_1ab_apply, addf_apply, mulf_apply, mulf_apply, rotCat_apply, shapeCast_self, shapeCast_self]
  simp only [shapeCast_1ab_ab_apply]

end Cert.KV

end
-- ==== Proof.Val.Final1.lean ====
/-
  From blocks to the whole array, for the rotary-embedding call on the keys.  The call walks the eight key heads; at
  head `t` it writes back, as block `t` of the `[8, 1024, 64]` result, the rotation of block `t` of the key array by
  the two tables.  Every block is the restriction of ONE function of the three arrays the call found — the rotary
  embedding of every head at every position — and the eight blocks tile the result, so after the last head the
  result array holds that function.
-/
import proofs.«167047_j26895085207995_2_alg».proof.Proof.Spec
import proofs.«167047_j26895085207995_2_alg».proof.Proof.KI.Reg1
import proofs.«167047_j26895085207995_2_alg».proof.Proof.Val.Pay1
import Idealize.ShloMosaic.Lib.ValueIdx
import Idealize.ShloMosaic.Lib.Pipeline.Value
import Idealize.ShloMosaic.Lib.ValueLayout

noncomputable section

open Idealize.ShloMosaic Idealize.ShloMosaic.TcCoe Idealize.ShloMosaic.ValueIdx
open Idealize.ShloMosaic.Pipeline (Dat)

namespace Cert.KV

open Cert.KernelIdeal Cert.KernelIdeal.Gen

-- the TensorCore's buffer contents when the call is entered
variable (V : (c : Dev nD) → (b : Ref sig .tc) → Buf (Elt Ideal) ((c : Thread nD τ).loc b))

/-- The zero offsets of a whole-buffer access, rank 3 and rank 2. -/
theorem zeros1_3 : (![0, 0, 0] : Fin 3 → Nat) = fun _ => 0 := funext fun a => by fin_cases a <;> rfl
theorem zeros1_2 : (![0, 0] : Fin 2 → Nat) = fun _ => 0 := funext fun a => by fin_cases a <;> rfl

/-- The rotary embedding of every head of a key array at every position, as an array again. -/
def ropeArr1 (a0 : Vec Ideal S8x1024x64 .f32) (a1 a2 : Vec Ideal S1024x64 .f32) : Vec Ideal S8x1024x64 .f32 :=
  fun i => Cert.Spec.rope (n := 8) (fun kv s d => a0 (ix3 kv s d)) (fun s d => a1 (ix2 s d)) (fun s d => a2 (ix2 s d))
    (i 0) (i 1) (i 2)

/-- The printed index maps, decided over the grid: the key and result windows sit at head `t`, the tables never move. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The call has eight points, one per key head. -/
theorem points1 : cfg1.N = 8 := by decide

/-- A head's number as a coordinate of the key array. -/
abbrev headOf1 (t : Fin cfg1.N) : Fin 8 := ⟨t.val, Nat.lt_of_lt_of_eq t.isLt points1⟩

/-- The key window's block at head `t`, at position `s` and lane `d`, is the key array at `(t, s, d)`. -/
theorem keyBlock1_apply (c : Dev nD) (t : Fin cfg1.N) (u : Fin 1) (s : Fin 1024) (d : Fin 64) :
    (iblk1 V c 0 t : Vec Ideal S1x1024x64 .f32) (ix3 u s d)
      = (V c (Pipeline.arrRef spec1 0) : Vec Ideal S8x1024x64 .f32) (ix3 (headOf1 t) s d) := by
  obtain ⟨e0, e1, e2, -⟩ := idx_facts1 t
  unfold iblk1
  rw [View.read_apply]
  show (V c (Pipeline.arrRef spec1 0) : Vec Ideal S8x1024x64 .f32) _ = _
  congr 1
  funext a; apply Fin.ext
  match a with
  | ⟨0, _⟩ => show win1_0.index t (0 : Fin 3) * 1 + 1 * u.val = t.val; omega
  | ⟨1, _⟩ => show win1_0.index t (1 : Fin 3) * 1024 + 1 * s.val = s.val; omega
  | ⟨2, _⟩ => show win1_0.index t (2 : Fin 3) * 64 + 1 * d.val = d.val; omega

/-- The cosine window's block is the whole cosine table at every head. -/
theorem cosBlock1_apply (c : Dev nD) (t : Fin cfg1.N) (s : Fin 1024) (d : Fin 64) :
    (iblk1 V c 1 t : Vec Ideal S1024x64 .f32) (ix2 s d)
      = (V c (Pipeline.arrRef spec1 1) : Vec Ideal S1024x64 .f32) (ix2 s d) := by
  obtain ⟨-, -, -, e0, e1, -⟩ := idx_facts1 t
  unfold iblk1
  rw [View.read_apply]
  show (V c (Pipeline.arrRef spec1 1) : Vec Ideal S1024x64 .f32) _ = _
  congr 1
  funext a; apply Fin.ext
  match a with
  | ⟨0, _⟩ => show win1_1.index t (0 : Fin 2) * 1024 + 1 * s.val = s.val; omega
  | ⟨1, _⟩ => show win1_1.index t (1 : Fin 2) * 64 + 1 * d.val = d.val; omega

/-- The sine window's block is the whole sine table at every head. -/
theorem sinBlock1_apply (c : Dev nD) (t : Fin cfg1.N) (s : Fin 1024) (d : Fin 64) :
    (iblk1 V c 2 t : Vec Ideal S1024x64 .f32) (ix2 s d)
      = (V c (Pipeline.arrRef spec1 2) : Vec Ideal S1024x64 .f32) (ix2 s d) := by
  obtain ⟨-, -, -, -, -, e0, e1, -⟩ := idx_facts1 t
  unfold iblk1
  rw [View.read_apply]
  show (V c (Pipeline.arrRef spec1 2) : Vec Ideal S1024x64 .f32) _ = _
  congr 1
  funext a; apply Fin.ext
  match a with
  | ⟨0, _⟩ => show win1_2.index t (0 : Fin 2) * 1024 + 1 * s.val = s.val; omega
  | ⟨1, _⟩ => show win1_2.index t (1 : Fin 2) * 64 + 1 * d.val = d.val; omega

/-- WHAT HEAD `t` WRITES BACK is block `t` of the rotary embedding of the arrays as the call finds them. -/
theorem flushed1_eq (c : Dev nD) (t : Fin cfg1.N) :
    (dat1 (F := Ideal) V c).flushed 3 t = ((cfg1.win 3).blk t).view.read (Elt Ideal)
      (ropeArr1 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zeros1_3]
  simp only [View.ld_unit_zero (S := S1x1024x64) zeros1_3, View.ld_unit_zero (S := S1024x64) zeros1_2]
  funext j
  revert j
  show ∀ j : S1x1024x64.Idx, k1_pay1 (F := Ideal) (iblk1 V c 0 t) (iblk1 V c 1 t) (iblk1 V c 2 t) j
      = ropeArr1 (V c (Pipeline.arrRef spec1 0)) (V c (Pipeline.arrRef spec1 1)) (V c (Pipeline.arrRef spec1 2))
          (((cfg1.win 3).blk t).view.emb j)
  intro j
  obtain ⟨u, s, d, rfl⟩ : ∃ (u : Fin 1) (s : Fin 1024) (d : Fin 64), j = ix3 u s d := ⟨j 0, j 1, j 2, eq_ix3 j⟩
  obtain rfl : u = 0 := Subsingleton.elim _ _
  obtain ⟨-, -, -, -, -, -, -, e0, e1, e2⟩ := idx_facts1 t
  have hemb : ((cfg1.win 3).blk t).view.emb (ix3 (0 : Fin 1) s d) = (ix3 (headOf1 t) s d : S8x1024x64.Idx) := by
    funext a; apply Fin.ext
    match a with
    | ⟨0, _⟩ => show win1_3.index t (0 : Fin 3) * 1 + 1 * 0 = t.val; omega
    | ⟨1, _⟩ => show win1_3.index t (1 : Fin 3) * 1024 + 1 * s.val = s.val; omega
    | ⟨2, _⟩ => show win1_3.index t (2 : Fin 3) * 64 + 1 * d.val = d.val; omega
  rw [hemb, pay1_apply]
  simp only [keyBlock1_apply, cosBlock1_apply, sinBlock1_apply]
  rfl

/-- An index of the result array is in head `t`'s block iff each coordinate is in the block's range on its axis. -/
theorem mem_blk1 (t : Fin cfg1.N) (i : S8x1024x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole (Pipeline.arrRef spec1 3)).slice (win1_3.rect t)).set ↔ _
  rw [View.set_slice_whole, Rect.mem_set_unit]
  exact Iff.rfl

/-- The eight blocks tile the result: index `(kv, s, d)` lies in head `kv`'s block. -/
theorem cover1 (i : S8x1024x64.Idx) :
    ∃ t : Fin cfg1.N, (cfg1.win 3).flush t = true ∧ i ∈ ((cfg1.win 3).blk t).view.set := by
  have h0 : (i 0).val < 8 := (i 0).isLt
  have h1 : (i 1).val < 1024 := (i 1).isLt
  have h2 : (i 2).val < 64 := (i 2).isLt
  let t : Fin cfg1.N := ⟨(i 0).val, Nat.lt_of_lt_of_eq h0 points1.symm⟩
  obtain ⟨-, -, -, -, -, -, -, e0, e1, e2⟩ := idx_facts1 t
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; rw [e0]; show (i 0).val * 1 ≤ (i 0).val ∧ (i 0).val < (i 0).val * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

theorem final1 (c : Dev nD) (kv : Fin 8) (s : Fin 1024) (d : Fin 64) :
    ((dat1 (F := Ideal) V c).arrAt 3 cfg1.N : Vec Ideal S8x1024x64 .f32) (ix3 kv s d)
      = Cert.Spec.rope (n := 8) (fun kv s d => (V c (Pipeline.arrRef spec1 0) : Vec Ideal S8x1024x64 .f32) (ix3 kv s d))
          (fun s d => (V c (Pipeline.arrRef spec1 1) : Vec Ideal S1024x64 .f32) (ix2 s d))
          (fun s d => (V c (Pipeline.arrRef spec1 2) : Vec Ideal S1024x64 .f32) (ix2 s d)) kv s d := by
  have h := (dat1 (F := Ideal) V c).arrAt_eq_of_cover 3
    (ropeArr1 (V c (Pipeline.arrRef spec1 0)) (V c (Pipeline.arrRef spec1 1)) (V c (Pipeline.arrRef spec1 2)))
    (fun t _ => flushed1_eq V c t) cover1
  rw [h]
  rfl

end Cert.KV

end
-- ==== Proof.Val.Pay2.lean ====
/-
  The attention kernel's one store, read at an index.  The stored block is the product of the softmax weights with the
  values, summed from zero; the weights are, row by row, the exponentials of the logits minus the row's supremum over
  their sum; the logits are an eighth of the inner products of the rotated queries with the keys, plus the mask; the
  rotation multiplies each query lane by the cosine table and adds the half-rotated lane times the sine table.  A
  change of float format is the identity on the extended reals, a product into the zero accumulator is a plain finite
  sum, the row maximum taken from -∞ is the supremum, and a keep-dimension column spread over its row reads the
  column's entry: with these the stored block at (0, s, d) is the specification's attention sum for one head.
-/
import proofs.«167047_j26895085207995_2_alg».proof.Proof.Spec
import proofs.«167047_j26895085207995_2_alg».proof.Proof.Algebra
import proofs.«167047_j26895085207995_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx
open Cert.KernelIdeal

namespace Cert.KV

/-! ## The two products -/

private theorem lhs_qk_0 (i : S1024x1024.Idx) (c : dot_S1024x64_S64x1024_S1024x1024_1_0_0_1_n_n.contr.Idx) :
    (dot_S1024x64_S64x1024_S1024x1024_1_0_0_1_n_n.lhsIdx i c 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
private theorem lhs_qk_1 (i : S1024x1024.Idx) (c : dot_S1024x64_S64x1024_S1024x1024_1_0_0_1_n_n.contr.Idx) :
    (dot_S1024x64_S64x1024_S1024x1024_1_0_0_1_n_n.lhsIdx i c 1).val = (c ⟨0, by decide⟩).val :=
  dot_S1024x64_S64x1024_S1024x1024_1_0_0_1_n_n.lhsIdx_val_of_single rfl i c
private theorem rhs_qk_0 (i : S1024x1024.Idx) (c : dot_S1024x64_S64x1024_S1024x1024_1_0_0_1_n_n.contr.Idx) :
    (dot_S1024x64_S64x1024_S1024x1024_1_0_0_1_n_n.rhsIdx i c 0).val = (c ⟨0, by decide⟩).val :=
  dot_S1024x64_S64x1024_S1024x1024_1_0_0_1_n_n.rhsIdx_val_of_single rfl i c
private theorem rhs_qk_1 (i : S1024x1024.Idx) (c : dot_S1024x64_S64x1024_S1024x1024_1_0_0_1_n_n.contr.Idx) :
    (dot_S1024x64_S64x1024_S1024x1024_1_0_0_1_n_n.rhsIdx i c 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The logits' product into the zero accumulator, at row `s` and column `t`: the sum over the 64 lanes. -/
private theorem matmul_qk (L : FVec Ideal S1024x64 .bf16) (R : FVec Ideal S64x1024 .bf16) (s t : Fin 1024) :
    matmul dot_S1024x64_S64x1024_S1024x1024_1_0_0_1_n_n none L R (constant (F := Ideal) S1024x1024 .f32 0x00000000#32) (ix2 s t)
      = ∑ e : Fin 64, L (ix2 s e) * R (ix2 e t) := by
  simp only [matmul]
  rw [Ideal.matmul_constant_zero_apply,
    ← Equiv.sum_comp (contrEquiv1 dot_S1024x64_S64x1024_S1024x1024_1_0_0_1_n_n 64 rfl rfl).symm]
  refine Finset.sum_congr rfl fun e _ => ?_
  have hk := contrEquiv1_symm_val dot_S1024x64_S64x1024_S1024x1024_1_0_0_1_n_n 64 rfl rfl e
  have el : dot_S1024x64_S64x1024_S1024x1024_1_0_0_1_n_n.lhsIdx (ix2 s t)
      ((contrEquiv1 dot_S1024x64_S64x1024_S1024x1024_1_0_0_1_n_n 64 rfl rfl).symm e) = ix2 s e := funext fun a => Fin.ext (by
    match a with
    | ⟨0, _⟩ => exact lhs_qk_0 _ _
    | ⟨1, _⟩ => exact (lhs_qk_1 _ _).trans hk)
  have er : dot_S1024x64_S64x1024_S1024x1024_1_0_0_1_n_n.rhsIdx (ix2 s t)
      ((contrEquiv1 dot_S1024x64_S64x1024_S1024x1024_1_0_0_1_n_n 64 rfl rfl).symm e) = ix2 e t := funext fun a => Fin.ext (by
    match a with
    | ⟨0, _⟩ => exact (rhs_qk_0 _ _).trans hk
    | ⟨1, _⟩ => exact rhs_qk_1 _ _)
  rw [el, er]

private theorem lhs_pv_0 (i : S1024x64.Idx) (c : dot_S1024x1024_S1024x64_S1024x64_1_0_0_1_n_n.contr.Idx) :
    (dot_S1024x1024_S1024x64_S1024x64_1_0_0_1_n_n.lhsIdx i c 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
private theorem lhs_pv_1 (i : S1024x64.Idx) (c : dot_S1024x1024_S1024x64_S1024x64_1_0_0_1_n_n.contr.Idx) :
    (dot_S1024x1024_S1024x64_S1024x64_1_0_0_1_n_n.lhsIdx i c 1).val = (c ⟨0, by decide⟩).val :=
  dot_S1024x1024_S1024x64_S1024x64_1_0_0_1_n_n.lhsIdx_val_of_single rfl i c
private theorem rhs_pv_0 (i : S1024x64.Idx) (c : dot_S1024x1024_S1024x64_S1024x64_1_0_0_1_n_n.contr.Idx) :
    (dot_S1024x1024_S1024x64_S1024x64_1_0_0_1_n_n.rhsIdx i c 0).val = (c ⟨0, by decide⟩).val :=
  dot_S1024x1024_S1024x64_S1024x64_1_0_0_1_n_n.rhsIdx_val_of_single rfl i c
private theorem rhs_pv_1 (i : S1024x64.Idx) (c : dot_S1024x1024_S1024x64_S1024x64_1_0_0_1_n_n.contr.Idx) :
    (dot_S1024x1024_S1024x64_S1024x64_1_0_0_1_n_n.rhsIdx i c 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The probabilities times the values into the zero accumulator, at position `s` and lane `d`: the sum over the 1024 key positions. -/
private theorem matmul_pv (L : FVec Ideal S1024x1024 .bf16) (R : FVec Ideal S1024x64 .bf16) (s : Fin 1024) (d : Fin 64) :
    matmul dot_S1024x1024_S1024x64_S1024x64_1_0_0_1_n_n none L R (constant (F := Ideal) S1024x64 .f32 0x00000000#32) (ix2 s d)
      = ∑ t : Fin 1024, L (ix2 s t) * R (ix2 t d) := by
  simp only [matmul]
  rw [Ideal.matmul_constant_zero_apply,
    ← Equiv.sum_comp (contrEquiv1 dot_S1024x1024_S1024x64_S1024x64_1_0_0_1_n_n 1024 rfl rfl).symm]
  refine Finset.sum_congr rfl fun t _ => ?_
  have hk := contrEquiv1_symm_val dot_S1024x1024_S1024x64_S1024x64_1_0_0_1_n_n 1024 rfl rfl t
  have el : dot_S1024x1024_S1024x64_S1024x64_1_0_0_1_n_n.lhsIdx (ix2 s d)
      ((contrEquiv1 dot_S1024x1024_S1024x64_S1024x64_1_0_0_1_n_n 1024 rfl rfl).symm t) = ix2 s t := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 s d)
      ((contrEquiv1 dot_S1024x1024_S1024x64_S1024x64_1_0_0_1_n_n 1024 rfl rfl).symm t) = ix2 t d := funext fun a => Fin.ext (by
    match a with
    | ⟨0, _⟩ => exact (rhs_pv_0 _ _).trans hk
    | ⟨1, _⟩ => exact rhs_pv_1 _ _)
  rw [el, er]

variable {α : Type}

/-! ## A column: a vector viewed [a,1], and a column spread over its rows -/

/-- A vector viewed as a column reads, at `(i, 0)`, its entry `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread over `b` columns reads, at `(i, j)`, the column's entry `(i, 0)`. -/
private theorem broadcastTo_a1_ab_apply {a b : ℕ} (w : (⟨2, ![a, 1]⟩ : Shape).Idx → α) (h : (⟨2, ![a, 1]⟩ : Shape).Broadcasts ⟨2, ![a, b]⟩)
    (i : Fin a) (j : Fin b) : broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-! ## A row's maximum and a row's sum -/

/-- The source index over row `s` with column `t` put back is `(s, t)`. -/
private theorem lift_row (h : S1024x1024.Reduces [1] S1024) (s t : Fin 1024) : h.lift (ix1 s) t = ix2 s t :=
  funext fun c => Fin.ext (by match c with | ⟨0, _⟩ => rfl | ⟨1, _⟩ => rfl)

/-- A row's maximum taken from `-∞` is the supremum of the row. -/
private theorem rowmax_apply (z : FVec Ideal S1024x1024 .f32) (h : S1024x1024.Reduces [1] S1024) (hφ : FKind.Formats .f32)
    (hacc : (0xFF800000#32 : BitVec 32) = FKind.maximumf.neutral .f32 hφ) (s : Fin 1024) :
    multiReduction .maximumf [1] S1024 z 0xFF800000#32 h hφ hacc (ix1 s) = Finset.univ.sup fun t : Fin 1024 => z (ix2 s t) := by
  refine (Ideal.multiReduction_maximumf_single z _ h hφ hacc (ix1 s)).trans ?_
  have e : (z ∘ h.lift (ix1 s)) = fun t : Fin 1024 => z (ix2 s t) := funext fun t => congrArg z (lift_row h s t)
  show (Finset.univ : Finset (Fin 1024)).fold max (Ideal.ofBits .f32 0xFF800000#32) (z ∘ h.lift (ix1 s)) = _
  rw [e, Cert.Spec.ninf_word]
  exact Cert.Spec.fold_max_eq_sup _

/-- A row's sum from zero is the plain sum over the row. -/
private theorem rowsum_apply (x : FVec Ideal S1024x1024 .f32) (h : S1024x1024.Reduces [1] S1024) (hφ : FKind.Formats .f32)
    (hacc : (0x00000000#32 : BitVec 32) = FKind.add.neutral .f32 hφ) (s : Fin 1024) :
    multiReduction .add [1] S1024 x 0x00000000#32 h hφ hacc (ix1 s) = ∑ t : Fin 1024, x (ix2 s t) := by
  refine (Ideal.multiReduction_add_single x _ h hφ hacc (ix1 s)).trans ?_
  show ∑ t : Fin 1024, x (h.lift (ix1 s) t) = _
  exact Finset.sum_congr rfl fun t _ => congrArg x (lift_row h s t)

/-! ## The row softmax as the kernel spells it -/

/-- Subtract the row's maximum, exponentiate, divide by the row's sum: at `(s, t)` this is the softmax of row `s` at `t`. -/
private theorem softmax_apply (z : FVec Ideal S1024x1024 .f32) (hr : S1024x1024.Reduces [1] S1024) (hφm hφa : FKind.Formats .f32)
    (haccm : (0xFF800000#32 : BitVec 32) = FKind.maximumf.neutral .f32 hφm)
    (hacca : (0x00000000#32 : BitVec 32) = FKind.add.neutral .f32 hφa)
    (hc : S1024.ShapeCasts S1024x1) (hb : S1024x1.Broadcasts S1024x1024) (s t : Fin 1024) :
    divf (exp (subf z (broadcastTo S1024x1024 (shapeCast S1024x1 (multiReduction .maximumf [1] S1024 z 0xFF800000#32 hr hφm haccm) hc) hb)))
        (broadcastTo S1024x1024 (shapeCast S1024x1 (multiReduction .add [1] S1024
          (exp (subf z (broadcastTo S1024x1024 (shapeCast S1024x1 (multiReduction .maximumf [1] S1024 z 0xFF800000#32 hr hφm haccm) hc) hb)))
          0x00000000#32 hr hφa hacca) hc) hb) (ix2 s t)
      = Cert.Spec.softmax (fun t' => z (ix2 s t')) t := by
  have hm : ∀ t' : Fin 1024,
      broadcastTo S1024x1024 (shapeCast S1024x1 (multiReduction .maximumf [1] S1024 z 0xFF800000#32 hr hφm haccm) hc) hb (ix2 s t')
        = Finset.univ.sup fun t'' : Fin 1024 => z (ix2 s t'') := fun t' => by
    rw [broadcastTo_a1_ab_apply, shapeCast_a_a1_apply, rowmax_apply]
  generalize broadcastTo S1024x1024 (shapeCast S1024x1 (multiReduction .maximumf [1] S1024 z 0xFF800000#32 hr hφm haccm) hc) hb = M at hm ⊢
  have he : ∀ t' : Fin 1024, exp (subf z M) (ix2 s t') = Ideal.exp (z (ix2 s t') - Finset.univ.sup fun t'' : Fin 1024 => z (ix2 s t'')) := fun t' => by
    show Ideal.exp (z (ix2 s t') - M (ix2 s t')) = _
    rw [hm t']
  show Ideal.div (exp (subf z M) (ix2 s t)) (broadcastTo S1024x1024 (shapeCast S1024x1 (multiReduction .add [1] S1024 (exp (subf z M)) 0x00000000#32 hr hφa hacca) hc) hb (ix2 s t)) = _
  rw [he t, broadcastTo_a1_ab_apply, shapeCast_a_a1_apply, rowsum_apply]
  unfold Cert.Spec.softmax
  exact congrArg _ (Finset.sum_congr rfl fun t' _ => he t')

/-! ## The rotary embedding of the queries -/

/-- The kernel's half rotation (the upper half negated, then the lower half) at `(s, d)`. -/
private theorem rot_apply (x : FVec Ideal S1024x64 .f32) (h1 : S1024x64.Slices ![0, 32] S1024x32) (h0 : S1024x64.Slices ![0, 0] S1024x32)
    (hc : Shape.Concatenates [S1024x32, S1024x32] S1024x64 1) (s : Fin 1024) (d : Fin 64) :
    concatenate S1024x64 1
        [⟨S1024x32, subf (broadcast S1024x32 (Scalar.ofBits (F := Ideal) .f32 0x00000000#32)) (extractStridedSlice S1024x32 ![0, 32] x h1)⟩,
          ⟨S1024x32, extractStridedSlice S1024x32 ![0, 0] x h0⟩] hc (ix2 s d)
      = Cert.Spec.rot (fun e => x (ix2 s e)) d := by
  unfold Cert.Spec.rot
  by_cases hd : d.val < 32
  · rw [dif_pos hd]
    refine (concatenate_pair_apply_left (1 : Fin S1024x64.rank) _ _ hc (ix2 s d) rfl (ix2 s (⟨d.val, hd⟩ : Fin 32)) (fun b => by
      match b with
      | ⟨0, _⟩ => rfl
      | ⟨1, _⟩ => rfl)).trans ?_
    show Ideal.ofBits .f32 0x00000000#32 - extractStridedSlice S1024x32 ![0, 32] x h1 (ix2 s (⟨d.val, hd⟩ : Fin 32)) = _
    rw [slice2_axis1_apply 32 x h1 s ⟨d.val, hd⟩ ⟨d.val + 32, by omega⟩ (by show d.val + 32 = 32 + d.val; omega),
      Ideal.ofBits_zero_f32, zero_sub]
  · rw [dif_neg hd]
    have hlt : d.val - 32 < 32 := by have := d.isLt; omega
    refine (concatenate_pair_apply_right (1 : Fin S1024x64.rank) _ _ hc (ix2 s d) rfl rfl (ix2 s (⟨d.val - 32, hlt⟩ : Fin 32)) (fun b hb => by
      match b with
      | ⟨0, _⟩ => rfl
      | ⟨1, _⟩ => exact absurd rfl hb) (by show d.val - 32 + 32 = d.val; omega)).trans ?_
    exact slice2_axis1_apply 0 x h0 s ⟨d.val - 32, hlt⟩ ⟨d.val - 32, by have := d.isLt; omega⟩ (by show d.val - 32 = 0 + (d.val - 32); omega)

/-- The rotary embedding at `(s, d)`: the entry times the cosine plus the half rotation times the sine. -/
private theorem rope_apply (x c sn : FVec Ideal S1024x64 .f32) (h1 : S1024x64.Slices ![0, 32] S1024x32) (h0 : S1024x64.Slices ![0, 0] S1024x32)
    (hc : Shape.Concatenates [S1024x32, S1024x32] S1024x64 1) (s : Fin 1024) (d : Fin 64) :
    addf (mulf x c) (mulf (concatenate S1024x64 1
        [⟨S1024x32, subf (broadcast S1024x32 (Scalar.ofBits (F := Ideal) .f32 0x00000000#32)) (extractStridedSlice S1024x32 ![0, 32] x h1)⟩,
          ⟨S1024x32, extractStridedSlice S1024x32 ![0, 0] x h0⟩] hc) sn) (ix2 s d)
      = x (ix2 s d) * c (ix2 s d) + Cert.Spec.rot (fun e => x (ix2 s e)) d * sn (ix2 s d) := by
  exact congrArg (fun y => x (ix2 s d) * c (ix2 s d) + y * sn (ix2 s d)) (rot_apply x h1 h0 hc s d)

/-! ## The logits -/

/-- Queries against transposed keys into zero, times an eighth, plus the mask: the specification's logits. -/
private theorem logits_apply (a kk : FVec Ideal S1024x64 .f32) (m : FVec Ideal S1024x1024 .f32) (hb : FTy.bits .bf16 < FTy.bits .f32)
    (ht : S1024x64.Transposes [1, 0] S64x1024) (s t : Fin 1024) :
    addf (mulf (matmul dot_S1024x64_S64x1024_S1024x1024_1_0_0_1_n_n none (truncf .bf16 a hb)
          (transpose S64x1024 [1, 0] (truncf .bf16 kk hb) ht) (constant (F := Ideal) S1024x1024 .f32 0x00000000#32))
        (broadcast S1024x1024 (Scalar.ofBits (F := Ideal) .f32 0x3E000000#32))) m (ix2 s t)
      = Cert.Spec.scores (fun s' d' => a (ix2 s' d')) (fun t' d' => kk (ix2 t' d')) (fun s' t' => m (ix2 s' t')) s t := by
  show matmul dot_S1024x64_S64x1024_S1024x1024_1_0_0_1_n_n none (truncf .bf16 a hb)
        (transpose S64x1024 [1, 0] (truncf .bf16 kk hb) ht) (constant (F := Ideal) S1024x1024 .f32 0x00000000#32) (ix2 s t)
      * Ideal.ofBits .f32 0x3E000000#32 + m (ix2 s t) = _
  rw [matmul_qk, Cert.Spec.mul_eighth]
  unfold Cert.Spec.scores
  refine congrArg (fun y => Ideal.div y Cert.Spec.eight + m (ix2 s t)) (Finset.sum_congr rfl fun e _ => ?_)
  rw [transpose_ix2_apply]
  rfl

/-- The logits depend on their three arguments entry by entry. -/
private theorem scores_congr (A A' B B' : Fin 1024 → Fin 64 → EReal) (C C' : Fin 1024 → Fin 1024 → EReal)
    (hA : ∀ s d, A s d = A' s d) (hB : ∀ t d, B t d = B' t d) (hC : ∀ s t, C s t = C' s t) (s t : Fin 1024) :
    Cert.Spec.scores A B C s t = Cert.Spec.scores A' B' C' s t := by
  rw [show A = A' from funext fun a => funext (hA a), show B = B' from funext fun a => funext (hB a),
    show C = C' from funext fun a => funext (hC a)]

/-! ## The three payloads of the attention kernel -/

/-- The probabilities at `(s, t)`: the softmax of row `s` of the logits of the rotated queries against the keys. -/
private theorem pay3_apply (q k : Vec Ideal S1x1024x64 .f32) (cos sin : Vec Ideal S1024x64 .f32) (mask : Vec Ideal S1024x1024 .f32)
    (s t : Fin 1024) :
    Gen.k2_pay3 q k cos sin mask (ix2 s t)
      = Cert.Spec.softmax (Cert.Spec.scores
          (fun s' d' => q (ix3 0 s' d') * cos (ix2 s' d') + Cert.Spec.rot (fun e => q (ix3 0 s' e)) d' * sin (ix2 s' d'))
          (fun t' d' => k (ix3 0 t' d')) (fun s' t' => mask (ix2 s' t')) s) t := by
  unfold Gen.k2_pay3
  dsimp only
  rw [truncf_apply]
  refine (softmax_apply _ _ _ _ _ _ _ _ s t).trans ?_
  refine congrArg (fun f => Cert.Spec.softmax f t) (funext fun t' => ?_)
  refine (logits_apply _ _ _ _ _ s t').trans ?_
  refine scores_congr _ _ _ _ _ _ (fun s' d' => ?_) (fun t'' d' => ?_) (fun s' t'' => ?_) s t'
  · beta_reduce
    refine (rope_apply _ _ _ _ _ _ s' d').trans ?_
    rw [shapeCast_self, shapeCast_self, shapeCast_1ab_ab_apply]
    simp only [shapeCast_1ab_ab_apply]
  · exact shapeCast_1ab_ab_apply k _ t'' d'
  · beta_reduce
    rw [shapeCast_self]

/-- The values as the kernel hands them to the product: the block with its unit axis dropped. -/
private theorem pay2_val (v : Vec Ideal S1x1024x64 .f32) (t : Fin 1024) (d : Fin 64) :
    Gen.k2_pay2 v (ix2 t d) = v (ix3 0 t d) := by
  unfold Gen.k2_pay2
  rw [truncf_apply, shapeCast_1ab_ab_apply]

/-- The stored block at `(0, s, d)`: the probabilities of row `s` against column `d` of the values, summed from zero. -/
private theorem pay1_apply (V : FVec Ideal S1024x64 .bf16) (P : FVec Ideal S1024x1024 .bf16) (s : Fin 1024) (d : Fin 64) :
    Gen.k2_pay1 V P (constant (F := Ideal) S1024x64 .f32 0x00000000#32) (ix3 0 s d) = ∑ t : Fin 1024, P (ix2 s t) * V (ix2 t d) := by
  unfold Gen.k2_pay1
  rw [shapeCast_ab_1ab_apply, matmul_pv]

/-- The attention kernel's output block at `(0, s, d)`: the softmax weights of row `s` (rotated queries against the keys,
    an eighth of the inner product plus the mask) times lane `d` of the values, summed over the key positions. -/
theorem pay2_apply (q k v : Vec Ideal S1x1024x64 .f32) (cos sin : Vec Ideal S1024x64 .f32) (mask : Vec Ideal S1024x1024 .f32)
    (s : Fin 1024) (d : Fin 64) :
    Gen.k2_pay1 (Gen.k2_pay2 v) (Gen.k2_pay3 q k cos sin mask) (constant (F := Ideal) S1024x64 .f32 0x00000000#32) (ix3 0 s d)
      = ∑ t : Fin 1024, Cert.Spec.softmax (Cert.Spec.scores
          (fun s' d' => q (ix3 0 s' d') * cos (ix2 s' d') + Cert.Spec.rot (fun e => q (ix3 0 s' e)) d' * sin (ix2 s' d'))
          (fun t' d' => k (ix3 0 t' d')) (fun s' t' => mask (ix2 s' t')) s) t * v (ix3 0 t d) := by
  rw [pay1_apply]
  exact Finset.sum_congr rfl fun t _ => by rw [pay3_apply, pay2_val]

end Cert.KV

end
-- ==== Proof.Val.Final2.lean ====
/-
  From blocks to the whole array, for the attention call.  The call walks the thirty-two query heads; at head `t` it
  reads block `t` of the queries, block `t / 4` of the keys and of the values (four query heads share one key/value
  head), the two rotary tables and the mask whole, and writes back, as block `t` of the `[32, 1024, 64]` result, the
  softmax weights of the rotated queries against the keys times the values.  Every block written is the restriction of
  ONE function of the six arrays the call found, the grouped-query attention of the rotated queries, and the
  thirty-two blocks tile the result, so after the last head the result array holds that function.
-/
import proofs.«167047_j26895085207995_2_alg».proof.Proof.Spec
import proofs.«167047_j26895085207995_2_alg».proof.Proof.KI.Reg2
import proofs.«167047_j26895085207995_2_alg».proof.Proof.Val.Pay2
import Idealize.ShloMosaic.Lib.ValueIdx
import Idealize.ShloMosaic.Lib.Pipeline.Value
import Idealize.ShloMosaic.Lib.ValueLayout

noncomputable section

open scoped BigOperators
open Idealize.ShloMosaic Idealize.ShloMosaic.TcCoe Idealize.ShloMosaic.ValueIdx
open Idealize.ShloMosaic.Pipeline (Dat)

namespace Cert.KV

open Cert.KernelIdeal Cert.KernelIdeal.Gen

-- the TensorCore's buffer contents when the call is entered
variable (V : (c : Dev nD) → (b : Ref sig .tc) → Buf (Elt Ideal) ((c : Thread nD τ).loc b))

private theorem offZeroThree : (![0, 0, 0] : Fin 3 → Nat) = fun _ => 0 := funext fun a => by fin_cases a <;> rfl
private theorem offZeroTwo : (![0, 0] : Fin 2 → Nat) = fun _ => 0 := funext fun a => by fin_cases a <;> rfl

/-- Grouped-query attention of the rotated query heads against the key and value heads, as an array again. -/
def attnArr2 (a0 : Vec Ideal S32x1024x64 .f32) (a1 a2 : Vec Ideal S8x1024x64 .f32) (a3 a4 : Vec Ideal S1024x64 .f32)
    (a5 : Vec Ideal S1024x1024 .f32) : Vec Ideal S32x1024x64 .f32 :=
  fun i => Cert.Spec.attn
    (Cert.Spec.rope (n := 32) (fun hd s d => a0 (ix3 hd s d)) (fun s d => a3 (ix2 s d)) (fun s d => a4 (ix2 s d)))
    (fun kv s d => a1 (ix3 kv s d)) (fun kv s d => a2 (ix3 kv s d)) (fun s t => a5 (ix2 s t)) (i 0) (i 1) (i 2)

/-- The six arrays the call finds, each at its literal type. -/
abbrev arr2_0 (c : Dev nD) : Vec Ideal S32x1024x64 .f32 := V c (Pipeline.arrRef spec2 0)
abbrev arr2_1 (c : Dev nD) : Vec Ideal S8x1024x64 .f32 := V c (Pipeline.arrRef spec2 1)
abbrev arr2_2 (c : Dev nD) : Vec Ideal S8x1024x64 .f32 := V c (Pipeline.arrRef spec2 2)
abbrev arr2_3 (c : Dev nD) : Vec Ideal S1024x64 .f32 := V c (Pipeline.arrRef spec2 3)
abbrev arr2_4 (c : Dev nD) : Vec Ideal S1024x64 .f32 := V c (Pipeline.arrRef spec2 4)
abbrev arr2_5 (c : Dev nD) : Vec Ideal S1024x1024 .f32 := V c (Pipeline.arrRef spec2 5)

/-- The printed index maps, decided over the grid: the query and result windows sit at head `t`, the key and value
    windows at head `t / 4`, the tables and the mask never move. -/
private theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val / 4 ∧ win2_1.index t (1 : Fin 3) = 0 ∧ win2_1.index t (2 : Fin 3) = 0
    ∧ win2_2.index t (0 : Fin 3) = t.val / 4 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) = t.val ∧ win2_6.index t (1 : Fin 3) = 0 ∧ win2_6.index t (2 : Fin 3) = 0 :=
  (by decide +kernel : ∀ t : Fin grid2.N, _)

/-- The call has thirty-two grid points, one per query head. -/
private theorem points2 : cfg2.N = 32 := by decide

private theorem lt2 (t : Fin cfg2.N) : t.val < 32 := lt_of_lt_of_eq t.isLt points2

/-- The query block at head `t` is head `t` of the query array. -/
private theorem blk2_0_apply (c : Dev nD) (t : Fin cfg2.N) (s : Fin 1024) (d : Fin 64) :
    (iblk2 V c 0 t : Vec Ideal S1x1024x64 .f32) (ix3 0 s d)
      = arr2_0 V c (ix3 ⟨t.val, lt2 t⟩ s d) := by
  obtain ⟨e0, e1, e2, -⟩ := idx_facts2 t
  unfold iblk2
  rw [View.read_apply]
  show arr2_0 V c (((cfg2.win 0).blk t).view.emb (ix3 0 s d)) = _
  refine congrArg _ (funext fun a => Fin.ext ?_)
  match a with
  | ⟨0, _⟩ => show win2_0.index t (0 : Fin 3) * 1 + 1 * 0 = t.val; omega
  | ⟨1, _⟩ => show win2_0.index t (1 : Fin 3) * 1024 + 1 * s.val = s.val; omega
  | ⟨2, _⟩ => show win2_0.index t (2 : Fin 3) * 64 + 1 * d.val = d.val; omega

/-- The key block at head `t` is key head `t / 4`. -/
private theorem blk2_1_apply (c : Dev nD) (t : Fin cfg2.N) (s : Fin 1024) (d : Fin 64) :
    (iblk2 V c 1 t : Vec Ideal S1x1024x64 .f32) (ix3 0 s d)
      = arr2_1 V c (ix3 ⟨t.val / 4, by have := lt2 t; omega⟩ s d) := by
  obtain ⟨-, -, -, e0, e1, e2, -⟩ := idx_facts2 t
  unfold iblk2
  rw [View.read_apply]
  show arr2_1 V c (((cfg2.win 1).blk t).view.emb (ix3 0 s d)) = _
  refine congrArg _ (funext fun a => Fin.ext ?_)
  match a with
  | ⟨0, _⟩ => show win2_1.index t (0 : Fin 3) * 1 + 1 * 0 = t.val / 4; omega
  | ⟨1, _⟩ => show win2_1.index t (1 : Fin 3) * 1024 + 1 * s.val = s.val; omega
  | ⟨2, _⟩ => show win2_1.index t (2 : Fin 3) * 64 + 1 * d.val = d.val; omega

/-- The value block at head `t` is value head `t / 4`. -/
private theorem blk2_2_apply (c : Dev nD) (t : Fin cfg2.N) (s : Fin 1024) (d : Fin 64) :
    (iblk2 V c 2 t : Vec Ideal S1x1024x64 .f32) (ix3 0 s d)
      = arr2_2 V c (ix3 ⟨t.val / 4, by have := lt2 t; omega⟩ s d) := by
  obtain ⟨-, -, -, -, -, -, e0, e1, e2, -⟩ := idx_facts2 t
  unfold iblk2
  rw [View.read_apply]
  show arr2_2 V c (((cfg2.win 2).blk t).view.emb (ix3 0 s d)) = _
  refine congrArg _ (funext fun a => Fin.ext ?_)
  match a with
  | ⟨0, _⟩ => show win2_2.index t (0 : Fin 3) * 1 + 1 * 0 = t.val / 4; omega
  | ⟨1, _⟩ => show win2_2.index t (1 : Fin 3) * 1024 + 1 * s.val = s.val; omega
  | ⟨2, _⟩ => show win2_2.index t (2 : Fin 3) * 64 + 1 * d.val = d.val; omega

/-- The cosine table's block is the whole table at every head. -/
private theorem blk2_3_apply (c : Dev nD) (t : Fin cfg2.N) (s : Fin 1024) (d : Fin 64) :
    (iblk2 V c 3 t : Vec Ideal S1024x64 .f32) (ix2 s d) = arr2_3 V c (ix2 s d) := by
  obtain ⟨-, -, -, -, -, -, -, -, -, e0, e1, -⟩ := idx_facts2 t
  unfold iblk2
  rw [View.read_apply]
  show arr2_3 V c (((cfg2.win 3).blk t).view.emb (ix2 s d)) = _
  refine congrArg _ (funext fun a => Fin.ext ?_)
  match a with
  | ⟨0, _⟩ => show win2_3.index t (0 : Fin 2) * 1024 + 1 * s.val = s.val; omega
  | ⟨1, _⟩ => show win2_3.index t (1 : Fin 2) * 64 + 1 * d.val = d.val; omega

/-- The sine table's block is the whole table at every head. -/
private theorem blk2_4_apply (c : Dev nD) (t : Fin cfg2.N) (s : Fin 1024) (d : Fin 64) :
    (iblk2 V c 4 t : Vec Ideal S1024x64 .f32) (ix2 s d) = arr2_4 V c (ix2 s d) := by
  obtain ⟨-, -, -, -, -, -, -, -, -, -, -, e0, e1, -⟩ := idx_facts2 t
  unfold iblk2
  rw [View.read_apply]
  show arr2_4 V c (((cfg2.win 4).blk t).view.emb (ix2 s d)) = _
  refine congrArg _ (funext fun a => Fin.ext ?_)
  match a with
  | ⟨0, _⟩ => show win2_4.index t (0 : Fin 2) * 1024 + 1 * s.val = s.val; omega
  | ⟨1, _⟩ => show win2_4.index t (1 : Fin 2) * 64 + 1 * d.val = d.val; omega

/-- The mask's block is the whole mask at every head. -/
private theorem blk2_5_apply (c : Dev nD) (t : Fin cfg2.N) (s u : Fin 1024) :
    (iblk2 V c 5 t : Vec Ideal S1024x1024 .f32) (ix2 s u) = arr2_5 V c (ix2 s u) := by
  obtain ⟨-, -, -, -, -, -, -, -, -, -, -, -, -, e0, e1, -⟩ := idx_facts2 t
  unfold iblk2
  rw [View.read_apply]
  show arr2_5 V c (((cfg2.win 5).blk t).view.emb (ix2 s u)) = _
  refine congrArg _ (funext fun a => Fin.ext ?_)
  match a with
  | ⟨0, _⟩ => show win2_5.index t (0 : Fin 2) * 1024 + 1 * s.val = s.val; omega
  | ⟨1, _⟩ => show win2_5.index t (1 : Fin 2) * 1024 + 1 * u.val = u.val; omega

/-- Block `t` of an array of the result's shape, read back at `(0, s, d)`, is the array at `(t, s, d)`. -/
private theorem read2_6 (t : Fin cfg2.N) (G : Vec Ideal S32x1024x64 .f32) (s : Fin 1024) (d : Fin 64) :
    ((cfg2.win 6).blk t).view.read (Elt Ideal) G (ix3 0 s d) = G (ix3 ⟨t.val, lt2 t⟩ s d) := by
  obtain ⟨-, -, -, -, -, -, -, -, -, -, -, -, -, -, -, e0, e1, e2⟩ := idx_facts2 t
  rw [View.read_apply]
  show G (((cfg2.win 6).blk t).view.emb (ix3 0 s d)) = _
  refine congrArg G (funext fun a => Fin.ext ?_)
  match a with
  | ⟨0, _⟩ => show win2_6.index t (0 : Fin 3) * 1 + 1 * 0 = t.val; omega
  | ⟨1, _⟩ => show win2_6.index t (1 : Fin 3) * 1024 + 1 * s.val = s.val; omega
  | ⟨2, _⟩ => show win2_6.index t (2 : Fin 3) * 64 + 1 * d.val = d.val; omega

private theorem mul_congr_both {a a' b b' : EReal} (h1 : a = a') (h2 : b = b') : a * b = a' * b' := by rw [h1, h2]

/-- The logits depend on their three arguments entry by entry. -/
private theorem scores_congr_pt (A A' B B' : Fin 1024 → Fin 64 → EReal) (C C' : Fin 1024 → Fin 1024 → EReal)
    (hA : ∀ s d, A s d = A' s d) (hB : ∀ t d, B t d = B' t d) (hC : ∀ s t, C s t = C' s t) (s t : Fin 1024) :
    Cert.Spec.scores A B C s t = Cert.Spec.scores A' B' C' s t := by
  rw [show A = A' from funext fun a => funext (hA a), show B = B' from funext fun a => funext (hB a),
    show C = C' from funext fun a => funext (hC a)]

/-- WHAT HEAD `t` WRITES BACK is block `t` of the attention array of the six arrays the call found. -/
private theorem flushed2_eq (c : Dev nD) (t : Fin cfg2.N) :
    (dat2 (F := Ideal) V c).flushed 6 t = ((cfg2.win 6).blk t).view.read (Elt Ideal)
      (attnArr2 (arr2_0 V c) (arr2_1 V c) (arr2_2 V c) (arr2_3 V c) (arr2_4 V c) (arr2_5 V c)) := by
  show (cfg2.win 6).cut (grid2.coords t) ((dat2 V c).after 6 t) = _
  rw [after2_6]
  unfold out2_6
  rw [View.canon_unit_zero offZeroThree]
  simp only [View.ld_unit_zero (S := S1x1024x64) offZeroThree, View.ld_unit_zero (S := S1024x64) offZeroTwo,
    View.ld_unit_zero (S := S1024x1024) offZeroTwo]
  funext j
  obtain ⟨u, s, d, rfl⟩ : ∃ (u : Fin 1) (s : Fin 1024) (d : Fin 64), j = ix3 u s d := ⟨j 0, j 1, j 2, eq_ix3 j⟩
  obtain rfl : u = 0 := Subsingleton.elim _ _
  refine Eq.trans ?_ (read2_6 t _ s d).symm
  show k2_pay1 (k2_pay2 (iblk2 V c 2 t)) (k2_pay3 (iblk2 V c 0 t) (iblk2 V c 1 t) (iblk2 V c 3 t) (iblk2 V c 4 t) (iblk2 V c 5 t))
      (constant (F := Ideal) S1024x64 .f32 0x00000000#32) (ix3 0 s d)
    = Cert.Spec.attn
        (Cert.Spec.rope (n := 32) (fun hd s d => arr2_0 V c (ix3 hd s d)) (fun s d => arr2_3 V c (ix2 s d)) (fun s d => arr2_4 V c (ix2 s d)))
        (fun kv s d => arr2_1 V c (ix3 kv s d)) (fun kv s d => arr2_2 V c (ix3 kv s d)) (fun s u => arr2_5 V c (ix2 s u))
        (⟨t.val, lt2 t⟩ : Fin 32) s d
  refine (pay2_apply _ _ _ _ _ _ s d).trans ?_
  unfold Cert.Spec.attn
  refine Finset.sum_congr rfl fun t' _ => ?_
  refine mul_congr_both (congrArg (fun z => Cert.Spec.softmax z t') (funext fun t'' => ?_)) (blk2_2_apply V c t t' d)
  refine scores_congr_pt _ _ _ _ _ _ (fun s' d' => ?_) (fun u d' => ?_) (fun s' u => ?_) s t''
  · beta_reduce
    rw [blk2_0_apply V c t s' d', blk2_3_apply V c t s' d', blk2_4_apply V c t s' d']
    simp only [blk2_0_apply V c t]
    rfl
  · exact blk2_1_apply V c t u d'
  · exact blk2_5_apply V c t s' u

/-- An index of the result array is in head `t`'s block iff each coordinate is in the block's range on its axis. -/
private theorem mem_blk2_6 (t : Fin cfg2.N) (i : S32x1024x64.Idx) :
    i ∈ ((cfg2.win 6).blk t).view.set ↔ ∀ a : Fin 3, win2_6.index t a * S1x1024x64.size a ≤ (i a).val
      ∧ (i a).val < win2_6.index t a * S1x1024x64.size a + S1x1024x64.size a := by
  show i ∈ ((View.whole (Pipeline.arrRef spec2 6)).slice (win2_6.rect t)).set ↔ _
  rw [View.set_slice_whole, Rect.mem_set_unit]
  exact Iff.rfl

/-- Every index of the result array is in the block of the head its first coordinate names. -/
private theorem covered2_6 (i : S32x1024x64.Idx) :
    ∃ t : Fin cfg2.N, (cfg2.win 6).flush t = true ∧ i ∈ ((cfg2.win 6).blk t).view.set := by
  have h0 : (i 0).val < 32 := (i 0).isLt
  have h1 : (i 1).val < 1024 := (i 1).isLt
  have h2 : (i 2).val < 64 := (i 2).isLt
  obtain ⟨t, ht⟩ : ∃ t : Fin cfg2.N, t.val = (i 0).val := ⟨⟨(i 0).val, lt_of_lt_of_eq h0 points2.symm⟩, rfl⟩
  obtain ⟨-, -, -, -, -, -, -, -, -, -, -, -, -, -, -, e0, e1, e2⟩ := idx_facts2 t
  refine ⟨t, flush2_6 t, ?_⟩
  rw [mem_blk2_6]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 1024 ≤ (i 1).val ∧ (i 1).val < win2_6.index t (1 : Fin 3) * 1024 + 1024; omega
  | ⟨2, _⟩ => show win2_6.index t (2 : Fin 3) * 64 ≤ (i 2).val ∧ (i 2).val < win2_6.index t (2 : Fin 3) * 64 + 64; omega

/-- After the last head the result array holds the attention array of the six arrays the call found. -/
theorem final2_arr (c : Dev nD) : (dat2 (F := Ideal) V c).arrAt 6 cfg2.N
    = attnArr2 (arr2_0 V c) (arr2_1 V c) (arr2_2 V c) (arr2_3 V c) (arr2_4 V c) (arr2_5 V c) :=
  (dat2 V c).arrAt_eq_of_cover 6 _ (fun t _ => flushed2_eq V c t) covered2_6

theorem final2 (c : Dev nD) (hd : Fin 32) (s : Fin 1024) (d : Fin 64) :
    ((dat2 (F := Ideal) V c).arrAt 6 cfg2.N : Vec Ideal S32x1024x64 .f32) (ix3 hd s d)
      = Cert.Spec.attn
          (Cert.Spec.rope (n := 32) (fun hd s d => (V c (Pipeline.arrRef spec2 0) : Vec Ideal S32x1024x64 .f32) (ix3 hd s d))
            (fun s d => (V c (Pipeline.arrRef spec2 3) : Vec Ideal S1024x64 .f32) (ix2 s d))
            (fun s d => (V c (Pipeline.arrRef spec2 4) : Vec Ideal S1024x64 .f32) (ix2 s d)))
          (fun kv s d => (V c (Pipeline.arrRef spec2 1) : Vec Ideal S8x1024x64 .f32) (ix3 kv s d))
          (fun kv s d => (V c (Pipeline.arrRef spec2 2) : Vec Ideal S8x1024x64 .f32) (ix3 kv s d))
          (fun s t => (V c (Pipeline.arrRef spec2 5) : Vec Ideal S1024x1024 .f32) (ix2 s t)) hd s d :=
  congrFun (final2_arr V c) (ix3 hd s d)

end Cert.KV

end
-- ==== Proof.Val.Pay3.lean ====
import proofs.«167047_j26895085207995_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The output projection's stored block, read at one entry

The output-projection region stores, over its 512×512 output block, the residual block plus the product of the
512×2048 activation block (narrowed to bf16, which on the extended reals changes nothing) with the transpose of
the 512×2048 weight block. Read at row `p` and column `q` this is the residual entry plus the sum over the
hidden coordinate `h` of activation `(p, h)` times weight `(q, h)`: the transpose only renames the weight's two
coordinates, the product accumulates into zero, and the casts between equal shapes are the identity. -/

noncomputable section

open scoped BigOperators
open Idealize.ShloMosaic Idealize.ShloMosaic.TcCoe Idealize.ShloMosaic.ValueIdx

namespace Cert.KV

/-- The dimension numbers of the projection's product: rows of the left operand against columns of the right,
    contracted over the left's second and the right's first axis. -/
abbrev dotProj : DotDims Cert.KernelIdeal.S512x2048 Cert.KernelIdeal.S2048x512 Cert.KernelIdeal.S512x512 :=
  Cert.KernelIdeal.dot_S512x2048_S2048x512_S512x512_1_0_0_1_n_n

/-- The left operand's row is the output's row. -/
theorem lhs_dotProj_0 (i : Cert.KernelIdeal.S512x512.Idx) (k : dotProj.contr.Idx) :
    (dotProj.lhsIdx i k 0).val = (i 0).val := by
  unfold DotDims.lhsIdx
  rw [dif_neg (show ¬(0 : Fin Cert.KernelIdeal.S512x2048.rank) ∈ dotProj.lhsBatch by decide),
    dif_pos (show (0 : Fin Cert.KernelIdeal.S512x2048.rank) ∈ dotProj.lhsNonContracting by decide)]
  rfl

/-- The left operand's column is the contracted coordinate. -/
theorem lhs_dotProj_1 (i : Cert.KernelIdeal.S512x512.Idx) (k : dotProj.contr.Idx) :
    (dotProj.lhsIdx i k 1).val = (k ⟨0, by decide⟩).val :=
  dotProj.lhsIdx_val_of_single rfl i k

/-- The right operand's row is the contracted coordinate. -/
theorem rhs_dotProj_0 (i : Cert.KernelIdeal.S512x512.Idx) (k : dotProj.contr.Idx) :
    (dotProj.rhsIdx i k 0).val = (k ⟨0, by decide⟩).val :=
  dotProj.rhsIdx_val_of_single rfl i k

/-- The right operand's column is the output's column. -/
theorem rhs_dotProj_1 (i : Cert.KernelIdeal.S512x512.Idx) (k : dotProj.contr.Idx) :
    (dotProj.rhsIdx i k 1).val = (i 1).val := by
  unfold DotDims.rhsIdx
  rw [dif_neg (show ¬(1 : Fin Cert.KernelIdeal.S2048x512.rank) ∈ dotProj.rhsBatch by decide),
    dif_pos (show (1 : Fin Cert.KernelIdeal.S2048x512.rank) ∈ dotProj.rhsNonContracting by decide)]
  rfl

/-- The product into zero, read at `(p, q)`: the sum over the hidden coordinate of left `(p, h)` times right `(h, q)`. -/
theorem matmulProj_apply (a : FVec Ideal Cert.KernelIdeal.S512x2048 .bf16) (b : FVec Ideal Cert.KernelIdeal.S2048x512 .bf16)
    (p q : Fin 512) :
    matmul dotProj none a b (constant (F := Ideal) Cert.KernelIdeal.S512x512 .f32 0x00000000#32) (ix2 p q)
      = ∑ h : Fin 2048, a (ix2 p h) * b (ix2 h q) := by
  simp only [matmul]
  rw [Ideal.matmul_constant_zero_apply, ← Equiv.sum_comp (contrEquiv1 dotProj 2048 rfl rfl).symm]
  refine Finset.sum_congr rfl fun h _ => ?_
  have hk := contrEquiv1_symm_val dotProj 2048 rfl rfl h
  have el : dotProj.lhsIdx (ix2 p q) ((contrEquiv1 dotProj 2048 rfl rfl).symm h) = ix2 p h :=
    funext fun c => Fin.ext (by
      match c with
      | ⟨0, _⟩ => exact lhs_dotProj_0 _ _
      | ⟨1, _⟩ => exact (lhs_dotProj_1 _ _).trans hk)
  have er : dotProj.rhsIdx (ix2 p q) ((contrEquiv1 dotProj 2048 rfl rfl).symm h) = ix2 h q :=
    funext fun c => Fin.ext (by
      match c with
      | ⟨0, _⟩ => exact (rhs_dotProj_0 _ _).trans hk
      | ⟨1, _⟩ => exact rhs_dotProj_1 _ _)
  rw [el, er]

/-- The first layer's stored block at `(p, q)`: the residual there plus the activation row `p` against the weight row `q`. -/
theorem pay3_apply (x : Vec Ideal Cert.KernelIdeal.S512x2048 .f32) (w : Vec Ideal Cert.KernelIdeal.S512x2048 .bf16)
    (res : Vec Ideal Cert.KernelIdeal.S512x512 .f32) (p q : Fin 512) :
    Cert.KernelIdeal.Gen.k3_pay1 (F := Ideal) x w res (ix2 p q) = res (ix2 p q) + ∑ h : Fin 2048, x (ix2 p h) * w (ix2 q h) := by
  unfold Cert.KernelIdeal.Gen.k3_pay1
  rw [addf_apply, shapeCast_self, shapeCast_self, shapeCast_self]
  refine congrArg (res (ix2 p q) + ·) ?_
  refine (matmulProj_apply _ _ p q).trans ?_
  refine Finset.sum_congr rfl fun h _ => ?_
  rw [truncf_apply, transpose_ix2_apply]

end Cert.KV

end
-- ==== Proof.Val.Final3.lean ====
import proofs.«167047_j26895085207995_2_alg».proof.Proof.Spec
import proofs.«167047_j26895085207995_2_alg».proof.Proof.KI.Reg3
import proofs.«167047_j26895085207995_2_alg».proof.Proof.Val.Pay3
import Idealize.ShloMosaic.Lib.ValueIdx
import Idealize.ShloMosaic.Lib.Pipeline.Value

/-! # The output projection's array after its last grid point

The region runs over a 2×4 grid of points; point `(i, j)` reads rows `512 i … 512 i + 511` of the activations,
rows `512 j … 512 j + 511` of the weights and the 512×512 block `(i, j)` of the residual, and writes block `(i, j)`
of the output. Every block coordinate is the block index times the block's size plus the coordinate inside the
block, so what point `(i, j)` writes back is block `(i, j)` of ONE function of the three arrays as the region
finds them — the residual entry plus the activation row against the weight row —, and the eight output blocks
cover the 1024×2048 array. Hence the array ends holding that function. -/

noncomputable section

open scoped BigOperators
open Idealize.ShloMosaic Idealize.ShloMosaic.TcCoe Idealize.ShloMosaic.ValueIdx Idealize.SL.Sem
open Idealize.ShloMosaic.Pipeline (Dat)

namespace Cert.KV

open Cert.KernelIdeal Cert.KernelIdeal.Gen

-- the TensorCore's buffer contents when the region is entered
variable (V : (c : Dev nD) → (b : Ref sig .tc) → Buf (Elt Ideal) ((c : Thread nD τ).loc b))

/-! ## The three arrays and their blocks, at their literal types -/

/-- The activations, the weights and the residual as the region finds them. -/
abbrev xarr3 (c : Dev nD) : Vec Ideal S1024x2048 .f32 := V c (Pipeline.arrRef spec3 0)
abbrev warr3 (c : Dev nD) : Vec Ideal S2048x2048 .bf16 := V c (Pipeline.arrRef spec3 1)
abbrev rarr3 (c : Dev nD) : Vec Ideal S1024x2048 .f32 := V c (Pipeline.arrRef spec3 2)

/-- Their blocks at point `t`. -/
abbrev xblk3 (c : Dev nD) (t : Fin cfg3.N) : Vec Ideal S512x2048 .f32 := iblk3 V c 0 t
abbrev wblk3 (c : Dev nD) (t : Fin cfg3.N) : Vec Ideal S512x2048 .bf16 := iblk3 V c 1 t
abbrev rblk3 (c : Dev nD) (t : Fin cfg3.N) : Vec Ideal S512x512 .f32 := iblk3 V c 2 t

/-- The function the output array ends holding, by coordinates: the residual entry plus activation row `s` against
    weight row `o`. -/
def Gfun3 (c : Dev nD) (s : Fin 1024) (o : Fin 2048) : EReal :=
  rarr3 V c (ix2 s o) + ∑ h : Fin 2048, xarr3 V c (ix2 s h) * warr3 V c (ix2 o h)

/-- The same as an array. -/
def G3 (c : Dev nD) : Vec Ideal S1024x2048 .f32 := fun i => Gfun3 V c (i 0) (i 1)

theorem zero_offsets3 : (![0, 0] : Fin 2 → Nat) = fun _ => 0 := funext fun a => by fin_cases a <;> rfl

/-! ## The index maps, decided over the grid -/

/-- The activations' block follows the output's row block, the weights' block the output's column block, the
    residual's block the output's block; the output's block indices stay in their ranges. -/
theorem idx_facts3 : ∀ t : Fin cfg3.N,
    win3_0.index t (0 : Fin 2) = win3_3.index t (0 : Fin 2) ∧ win3_0.index t (1 : Fin 2) = 0
    ∧ win3_1.index t (0 : Fin 2) = win3_3.index t (1 : Fin 2) ∧ win3_1.index t (1 : Fin 2) = 0
    ∧ win3_2.index t (0 : Fin 2) = win3_3.index t (0 : Fin 2) ∧ win3_2.index t (1 : Fin 2) = win3_3.index t (1 : Fin 2)
    ∧ win3_3.index t (0 : Fin 2) ≤ 1 ∧ win3_3.index t (1 : Fin 2) ≤ 3 :=
  (by decide +kernel : ∀ t : Fin grid3.N, _)

/-- Every output block is some point's. -/
theorem idx_onto3 : ∀ (q0 : Fin 2) (q1 : Fin 4), ∃ t : Fin cfg3.N, win3_3.index t = ![q0.val, q1.val] :=
  (by decide +kernel : ∀ (q0 : Fin 2) (q1 : Fin 4), ∃ t : Fin grid3.N, win3_3.index t = ![q0.val, q1.val])

/-! ## Each input block read where the output's block says -/

/-- Row `p` of the activations' block at `t` is row `s` of the array, `s` the output block's row offset plus `p`. -/
theorem xblk3_apply (c : Dev nD) (t : Fin cfg3.N) (p : Fin 512) (h : Fin 2048) (s : Fin 1024)
    (hs : s.val = win3_3.index t (0 : Fin 2) * 512 + p.val) :
    xblk3 V c t (ix2 p h) = xarr3 V c (ix2 s h) := by
  obtain ⟨e0, e1, -⟩ := idx_facts3 t
  unfold xblk3 iblk3
  rw [View.read_apply]
  show xarr3 V c _ = xarr3 V c _
  congr 1
  funext a
  apply Fin.ext
  match a with
  | ⟨0, _⟩ => show win3_0.index t (0 : Fin 2) * 512 + 1 * p.val = s.val; omega
  | ⟨1, _⟩ => show win3_0.index t (1 : Fin 2) * 2048 + 1 * h.val = h.val; omega

/-- Row `q` of the weights' block at `t` is row `o` of the array, `o` the output block's column offset plus `q`. -/
theorem wblk3_apply (c : Dev nD) (t : Fin cfg3.N) (q : Fin 512) (h : Fin 2048) (o : Fin 2048)
    (ho : o.val = win3_3.index t (1 : Fin 2) * 512 + q.val) :
    wblk3 V c t (ix2 q h) = warr3 V c (ix2 o h) := by
  obtain ⟨-, -, e2, e3, -⟩ := idx_facts3 t
  unfold wblk3 iblk3
  rw [View.read_apply]
  show warr3 V c _ = warr3 V c _
  congr 1
  funext a
  apply Fin.ext
  match a with
  | ⟨0, _⟩ => show win3_1.index t (0 : Fin 2) * 512 + 1 * q.val = o.val; omega
  | ⟨1, _⟩ => show win3_1.index t (1 : Fin 2) * 2048 + 1 * h.val = h.val; omega

/-- Entry `(p, q)` of the residual's block at `t` is entry `(s, o)` of the array. -/
theorem rblk3_apply (c : Dev nD) (t : Fin cfg3.N) (p q : Fin 512) (s : Fin 1024) (o : Fin 2048)
    (hs : s.val = win3_3.index t (0 : Fin 2) * 512 + p.val) (ho : o.val = win3_3.index t (1 : Fin 2) * 512 + q.val) :
    rblk3 V c t (ix2 p q) = rarr3 V c (ix2 s o) := by
  obtain ⟨-, -, -, -, e4, e5, -⟩ := idx_facts3 t
  unfold rblk3 iblk3
  rw [View.read_apply]
  show rarr3 V c _ = rarr3 V c _
  congr 1
  funext a
  apply Fin.ext
  match a with
  | ⟨0, _⟩ => show win3_2.index t (0 : Fin 2) * 512 + 1 * p.val = s.val; omega
  | ⟨1, _⟩ => show win3_2.index t (1 : Fin 2) * 512 + 1 * q.val = o.val; omega

/-- The stored block's entry `(p, q)` at point `t`, as the function of the arrays at the entry's place `(s, o)`. -/
theorem point3_eq (c : Dev nD) (t : Fin cfg3.N) (p q : Fin 512) (s : Fin 1024) (o : Fin 2048)
    (hs : s.val = win3_3.index t (0 : Fin 2) * 512 + p.val) (ho : o.val = win3_3.index t (1 : Fin 2) * 512 + q.val) :
    k3_pay1 (F := Ideal) (xblk3 V c t) (wblk3 V c t) (rblk3 V c t) (ix2 p q) = Gfun3 V c s o := by
  refine (pay3_apply (xblk3 V c t) (wblk3 V c t) (rblk3 V c t) p q).trans ?_
  unfold Gfun3
  rw [rblk3_apply V c t p q s o hs ho]
  refine congrArg (rarr3 V c (ix2 s o) + ·) (Finset.sum_congr rfl fun h _ => ?_)
  rw [xblk3_apply V c t p h s hs, wblk3_apply V c t q h o ho]

/-! ## What each point writes back, the cover, the array -/

/-- What point `t` writes back is block `t` of `G3`. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero zero_offsets3]
  simp only [View.ld_unit_zero (S := S512x2048) zero_offsets3, View.ld_unit_zero (S := S512x512) zero_offsets3]
  funext j
  obtain ⟨p, q, rfl⟩ : ∃ (p q : Fin 512), j = ix2 p q := ⟨j 0, j 1, eq_ix2 j⟩
  show k3_pay1 (F := Ideal) (xblk3 V c t) (wblk3 V c t) (rblk3 V c t) (ix2 p q)
    = Gfun3 V c (((cfg3.win 3).blk t).view.emb (ix2 p q) 0) (((cfg3.win 3).blk t).view.emb (ix2 p q) 1)
  refine point3_eq V c t p q _ _ ?_ ?_
  · show win3_3.index t (0 : Fin 2) * 512 + 1 * p.val = _; omega
  · show win3_3.index t (1 : Fin 2) * 512 + 1 * q.val = _; omega

/-- An index of the array is in point `t`'s block iff each coordinate is in the block's range on its axis. -/
theorem mem_blk3 (t : Fin cfg3.N) (i : S1024x2048.Idx) :
    i ∈ ((cfg3.win 3).blk t).view.set ↔ ∀ a : Fin 2, win3_3.index t a * S512x512.size a ≤ (i a).val ∧ (i a).val < win3_3.index t a * S512x512.size a + S512x512.size a := by
  show i ∈ ((View.whole (Pipeline.arrRef spec3 3)).slice (win3_3.rect t)).set ↔ _
  rw [View.set_slice_whole, Rect.mem_set_unit]
  exact Iff.rfl

/-- Every index of the array is in some point's block: row `r`, column `k` in the block of index `(r / 512, k / 512)`. -/
theorem cover3 (i : S1024x2048.Idx) : ∃ t : Fin cfg3.N, (cfg3.win 3).flush t = true ∧ i ∈ ((cfg3.win 3).blk t).view.set := by
  have hi0 : (i 0).val < 1024 := (i 0).isLt
  have hi1 : (i 1).val < 2048 := (i 1).isLt
  obtain ⟨t, ht⟩ := idx_onto3 ⟨(i 0).val / 512, by omega⟩ ⟨(i 1).val / 512, by omega⟩
  have q0 : win3_3.index t (0 : Fin 2) = (i 0).val / 512 := congrFun ht 0
  have q1 : win3_3.index t (1 : Fin 2) = (i 1).val / 512 := congrFun ht 1
  refine ⟨t, flush3_3 t, ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 512 ≤ (i 1).val ∧ (i 1).val < win3_3.index t (1 : Fin 2) * 512 + 512; omega

/-- The output array after the last point is `G3` of the arrays the region found. -/
theorem final3_arr (c : Dev nD) : (dat3 V c).arrAt 3 cfg3.N = G3 V c :=
  (dat3 V c).arrAt_eq_of_cover 3 (G3 V c) (fun t _ => flushed3_eq V c t) (cover3)

/-- Entry by entry: the residual plus the projection of the activations by the weights. -/
theorem final3 (c : Dev nD) (s : Fin 1024) (o : Fin 2048) :
    ((dat3 V c).arrAt 3 cfg3.N : Vec Ideal S1024x2048 .f32) (ix2 s o)
      = rarr3 V c (ix2 s o)
        + Cert.Spec.proj (fun s h => xarr3 V c (ix2 s h)) (fun o h => warr3 V c (ix2 o h)) s o := by
  rw [final3_arr V c]
  rfl

end Cert.KV

end
-- ==== Proof.Val.Pay4.lean ====
/-
  The fused feed-forward kernel's four stored values, each read at one index over the extended reals.

  The kernel walks a grid of row blocks (256 rows) by inner steps (512 of the 8192 inner rows at a time).  At the first
  inner step it stores the RMS-normalised row block, and zeros for the accumulator; at every step it adds to the
  accumulator the gated product of this step's 512 inner rows against the matching 512 columns of the down weights; at
  the last step it adds the residual.  Here: entry `(p, h)` of the normalised block is the entry over the root of its
  row's mean square plus the small constant, times the gain of column `h` (the kernel multiplies by the reciprocal
  root, which is the same number because the mean square plus the constant is positive); entry `(p, o)` of an
  accumulator step is the old entry plus `∑ j, (silu (x_p · gate_j) · (x_p · up_j)) · down_{o j}`, a block product
  being the plain sum over its contracted index and the kernel's `g · logistic g` being `silu g`.  The second layer's
  kernel has the same text, so the same four equations hold of it.
-/
import proofs.«167047_j26895085207995_2_alg».proof.Proof.Spec
import proofs.«167047_j26895085207995_2_alg».proof.Proof.Algebra
import proofs.«167047_j26895085207995_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.KV

open Cert.Spec Cert.KernelIdeal Cert.KernelIdeal.Gen

/-! ## Layout operations at an index: the column forms of a kept-dimension row sum -/

/-- A column `[a, 1]` broadcast to `[a, b]` reads, at `(p, c)`, the column's entry of row `p`. -/
theorem pay4_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem pay4_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reciprocal square root of a vector, at an index, is that of the element. -/
theorem pay4_rsqrt_apply {s : Shape} {φ : FTy} (a : FVec Ideal s φ) (i : s.Idx) : rsqrt a i = Ideal.rsqrt (a i) := rfl
/-- The logistic function of a vector, at an index, is that of the element. -/
theorem pay4_logistic_apply {s : Shape} {φ : FTy} (a : FVec Ideal s φ) (i : s.Idx) : logistic a i = Ideal.logistic (a i) := rfl

/-- The sum along the lanes of a `[256, 2048]` block, read at row `p`: the sum of that row's entries. -/
theorem pay4_rowSum_apply (src : FVec Ideal S256x2048 .f32) (h : S256x2048.Reduces [1] S256) (hφ : FKind.Formats .f32)
    (hacc : (0x00000000#32 : BitVec 32) = 0x00000000#32) (p : Fin 256) :
    multiReduction (F := Ideal) .add [1] S256 src 0x00000000#32 h hφ hacc (ix1 p) = ∑ k : Fin 2048, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-! ## The two block products

Output `(p, j)` at contraction position `q` reads the left operand at `(p, q)` and the right operand at `(q, j)`. -/

theorem pay4_lhs_up_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide),
    dif_pos (show (0 : Fin S256x2048.rank) ∈ dot_S256x2048_S2048x512_S256x512_1_0_0_1_n_n.lhsNonContracting by decide)]
  rfl
theorem pay4_lhs_up_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem pay4_rhs_up_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem pay4_rhs_up_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide),
    dif_pos (show (1 : Fin S2048x512.rank) ∈ dot_S256x2048_S2048x512_S256x512_1_0_0_1_n_n.rhsNonContracting by decide)]
  rfl

theorem pay4_lhs_down_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide),
    dif_pos (show (0 : Fin S256x512.rank) ∈ dot_S256x512_S512x2048_S256x2048_1_0_0_1_n_n.lhsNonContracting by decide)]
  rfl
theorem pay4_lhs_down_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem pay4_rhs_down_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem pay4_rhs_down_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide),
    dif_pos (show (1 : Fin S512x2048.rank) ∈ dot_S256x512_S512x2048_S256x2048_1_0_0_1_n_n.rhsNonContracting by decide)]
  rfl

/-- The block product `[256, 2048] · [2048, 512]` onto zeros, at `(p, j)`: the sum over the hidden index. -/
theorem pay4_matmul_up_apply (lhs : FVec Ideal S256x2048 .bf16) (rhs : FVec Ideal S2048x512 .bf16) (p : Fin 256) (j : Fin 512) :
    matmul (F := Ideal) dot_S256x2048_S2048x512_S256x512_1_0_0_1_n_n none lhs rhs (constant (F := Ideal) S256x512 .f32 0x00000000#32) (ix2 p j)
      = ∑ h : Fin 2048, lhs (ix2 p h) * rhs (ix2 h j) := by
  simp only [matmul]
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 p j) ((contrEquiv1 dot_S256x2048_S2048x512_S256x512_1_0_0_1_n_n 2048 rfl rfl).symm k) = ix2 p k :=
    funext fun a => Fin.ext (by
      match a with
      | ⟨0, _⟩ => exact pay4_lhs_up_0 _ _
      | ⟨1, _⟩ => exact (pay4_lhs_up_1 _ _).trans hk)
  have er : dot_S256x2048_S2048x512_S256x512_1_0_0_1_n_n.rhsIdx (ix2 p j) ((contrEquiv1 dot_S256x2048_S2048x512_S256x512_1_0_0_1_n_n 2048 rfl rfl).symm k) = ix2 k j :=
    funext fun a => Fin.ext (by
      match a with
      | ⟨0, _⟩ => exact (pay4_rhs_up_0 _ _).trans hk
      | ⟨1, _⟩ => exact pay4_rhs_up_1 _ _)
  rw [el, er]

/-- The block product `[256, 512] · [512, 2048]` onto zeros, at `(p, o)`: the sum over the inner index. -/
theorem pay4_matmul_down_apply (lhs : FVec Ideal S256x512 .bf16) (rhs : FVec Ideal S512x2048 .bf16) (p : Fin 256) (o : Fin 2048) :
    matmul (F := Ideal) dot_S256x512_S512x2048_S256x2048_1_0_0_1_n_n none lhs rhs (constant (F := Ideal) S256x2048 .f32 0x00000000#32) (ix2 p o)
      = ∑ j : Fin 512, lhs (ix2 p j) * rhs (ix2 j o) := by
  simp only [matmul]
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 p o) ((contrEquiv1 dot_S256x512_S512x2048_S256x2048_1_0_0_1_n_n 512 rfl rfl).symm k) = ix2 p k :=
    funext fun a => Fin.ext (by
      match a with
      | ⟨0, _⟩ => exact pay4_lhs_down_0 _ _
      | ⟨1, _⟩ => exact (pay4_lhs_down_1 _ _).trans hk)
  have er : dot_S256x512_S512x2048_S256x2048_1_0_0_1_n_n.rhsIdx (ix2 p o) ((contrEquiv1 dot_S256x512_S512x2048_S256x2048_1_0_0_1_n_n 512 rfl rfl).symm k) = ix2 k o :=
    funext fun a => Fin.ext (by
      match a with
      | ⟨0, _⟩ => exact (pay4_rhs_down_0 _ _).trans hk
      | ⟨1, _⟩ => exact pay4_rhs_down_1 _ _)
  rw [el, er]

/-! ## The four stored values of the first layer's kernel -/

/-- The normalised row block at an index: the entry over the root of its row's mean square plus the small constant,
    times the gain of its column. -/
theorem pay4_1_apply (x : Vec Ideal Cert.KernelIdeal.S256x2048 .f32) (g : Vec Ideal Cert.KernelIdeal.S1x2048 .f32)
    (p : Fin 256) (h : Fin 2048) :
    Cert.KernelIdeal.Gen.k4_pay1 (F := Ideal) x g (ix2 p h)
      = Ideal.div (x (ix2 p h)) (Ideal.sqrt (Ideal.div (∑ h' : Fin 2048, x (ix2 p h') * x (ix2 p h')) Cert.Spec.rowLen + Cert.Spec.eps))
        * g (ix2 0 h) := by
  unfold Cert.KernelIdeal.Gen.k4_pay1
  simp only [shapeCast_self]
  rw [truncf_apply, mulf_apply, mulf_apply, broadcastTo_1b_ab_apply, pay4_broadcastTo_a1_ab_apply, pay4_rsqrt_apply, addf_apply,
    divf_apply, broadcast_apply, broadcast_apply, pay4_shapeCast_a_a1_apply, pay4_rowSum_apply]
  simp only [mulf_apply]
  exact congrArg (· * g (ix2 0 h)) (mul_rsqrt_eq_div_sqrt _ _ (sumsq_div_pos fun k => x (ix2 p k)))

/-- The accumulator's first value: zero everywhere. -/
theorem pay4_2_apply (p : Fin 256) (o : Fin 2048) :
    Cert.KernelIdeal.Gen.k4_pay2 (F := Ideal) (ix2 p o) = 0 := by
  unfold Cert.KernelIdeal.Gen.k4_pay2
  rw [shapeCast_self]
  exact Ideal.ofBits_zero_f32

/-- One inner step of the feed-forward block at an index: the accumulator plus, over the 512 inner rows of this step, the
    gated product against the down weights. -/
theorem pay4_3_apply (xb : Vec Ideal Cert.KernelIdeal.S256x2048 .bf16) (wg wu : Vec Ideal Cert.KernelIdeal.S512x2048 .bf16)
    (wd : Vec Ideal Cert.KernelIdeal.S2048x512 .bf16) (acc : Vec Ideal Cert.KernelIdeal.S256x2048 .f32) (p : Fin 256) (o : Fin 2048) :
    Cert.KernelIdeal.Gen.k4_pay3 (F := Ideal) xb wg wu wd acc (ix2 p o)
      = acc (ix2 p o) + ∑ j : Fin 512, (Cert.Spec.silu (∑ h : Fin 2048, xb (ix2 p h) * wg (ix2 j h))
          * (∑ h : Fin 2048, xb (ix2 p h) * wu (ix2 j h))) * wd (ix2 o j) := by
  unfold Cert.KernelIdeal.Gen.k4_pay3
  simp only [shapeCast_self]
  rw [addf_apply, pay4_matmul_down_apply]
  refine congrArg (acc (ix2 p o) + ·) (Finset.sum_congr rfl fun j _ => ?_)
  rw [truncf_apply, mulf_apply, mulf_apply, pay4_logistic_apply, pay4_matmul_up_apply, pay4_matmul_up_apply, transpose_ix2_apply]
  have eg : ∀ h : Fin 2048, transpose S2048x512 [1, 0] wg transposes_S512x2048_p1_0_S2048x512 (ix2 h j) = wg (ix2 j h) :=
    fun h => transpose_ix2_apply wg _ h j
  have eu : ∀ h : Fin 2048, transpose S2048x512 [1, 0] wu transposes_S512x2048_p1_0_S2048x512 (ix2 h j) = wu (ix2 j h) :=
    fun h => transpose_ix2_apply wu _ h j
  simp only [eg, eu]
  unfold Cert.Spec.silu
  rw [logistic_eq]

/-- The last step: the accumulator plus the residual. -/
theorem pay4_4_apply (acc res : Vec Ideal Cert.KernelIdeal.S256x2048 .f32) (p : Fin 256) (o : Fin 2048) :
    Cert.KernelIdeal.Gen.k4_pay4 (F := Ideal) acc res (ix2 p o) = acc (ix2 p o) + res (ix2 p o) := by
  unfold Cert.KernelIdeal.Gen.k4_pay4
  rw [shapeCast_self]
  rfl

/-! ## The second layer's kernel: the same four values -/

/-- The second layer's normalised row block at an index. -/
theorem pay9_1_apply (x : Vec Ideal Cert.KernelIdeal.S256x2048 .f32) (g : Vec Ideal Cert.KernelIdeal.S1x2048 .f32)
    (p : Fin 256) (h : Fin 2048) :
    Cert.KernelIdeal.Gen.k9_pay1 (F := Ideal) x g (ix2 p h)
      = Ideal.div (x (ix2 p h)) (Ideal.sqrt (Ideal.div (∑ h' : Fin 2048, x (ix2 p h') * x (ix2 p h')) Cert.Spec.rowLen + Cert.Spec.eps))
        * g (ix2 0 h) :=
  pay4_1_apply x g p h

/-- The second layer's accumulator starts at zero. -/
theorem pay9_2_apply (p : Fin 256) (o : Fin 2048) :
    Cert.KernelIdeal.Gen.k9_pay2 (F := Ideal) (ix2 p o) = 0 :=
  pay4_2_apply p o

/-- One inner step of the second layer's feed-forward block at an index. -/
theorem pay9_3_apply (xb : Vec Ideal Cert.KernelIdeal.S256x2048 .bf16) (wg wu : Vec Ideal Cert.KernelIdeal.S512x2048 .bf16)
    (wd : Vec Ideal Cert.KernelIdeal.S2048x512 .bf16) (acc : Vec Ideal Cert.KernelIdeal.S256x2048 .f32) (p : Fin 256) (o : Fin 2048) :
    Cert.KernelIdeal.Gen.k9_pay3 (F := Ideal) xb wg wu wd acc (ix2 p o)
      = acc (ix2 p o) + ∑ j : Fin 512, (Cert.Spec.silu (∑ h : Fin 2048, xb (ix2 p h) * wg (ix2 j h))
          * (∑ h : Fin 2048, xb (ix2 p h) * wu (ix2 j h))) * wd (ix2 o j) :=
  pay4_3_apply xb wg wu wd acc p o

/-- The second layer's last step: the accumulator plus the residual. -/
theorem pay9_4_apply (acc res : Vec Ideal Cert.KernelIdeal.S256x2048 .f32) (p : Fin 256) (o : Fin 2048) :
    Cert.KernelIdeal.Gen.k9_pay4 (F := Ideal) acc res (ix2 p o) = acc (ix2 p o) + res (ix2 p o) :=
  pay4_4_apply acc res p o

end Cert.KV

end
-- ==== Proof.Val.Pieces4.lean ====
/-
  What each case of the fused feed-forward body leaves in its two carried scratches and in the output's buffer, as
  values.  Every store of the body writes a whole buffer, so what a run leaves in a buffer is the payload of its last
  store there, and a buffer loaded after a store in the same run reads that store's payload.  The first step of a row
  block stores the normalised rows, zeroes the accumulator and adds the first partial product to the zeros; a middle
  step adds its partial product to what the accumulator held; the last step does the same and then stores the finished
  accumulator plus the residual block into the output's buffer.
-/
import proofs.«167047_j26895085207995_2_alg».proof.Proof.KI.Reg4
import Idealize.ShloMosaic.Lib.Pipeline.Value
import Idealize.ShloMosaic.PureOps.Ideal

noncomputable section

open Idealize.ShloMosaic Idealize.ShloMosaic.TcCoe Idealize.ShloMosaic.Tactic

namespace Cert.KV

open Cert.KernelIdeal Cert.KernelIdeal.Gen

/-! ## What each case of the body leaves in the two scratches and in the output's buffer

Every store of the body writes a whole buffer, so what a run leaves in a buffer is the payload of its last store there;
a buffer loaded after a store in the same run reads that store's payload. -/

theorem zero_offsets4 : (![0, 0] : Fin 2 → Nat) = fun _ => 0 := funext fun a => by fin_cases a <;> rfl

/-- The first step leaves the normalised row block in the scratch of normalised rows. -/
theorem sout4_A_1_eq (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) :
    sout4_A_1 (F := Ideal) c i mx hmx mw hmw mg hmg mu hmu md hmd mr hmr mo hmo macc hmacc mxn hmxn hc0 hc1 vx vw vg vu vd vr = k4_pay1 (F := Ideal) vx vw := by
  unfold sout4_A_1
  rw [View.read_writes_eq_canon _ _ _ (scover4_A_1 c i mx hmx mw hmw mg hmg mu hmu md hmd mr hmr mo hmo macc hmacc mxn hmxn hc0 hc1 vx vw vg vu vd vr)]
  unfold kernelRun4_A
  dsimp only
  sl_unfold_words
  rw [View.canon_unit_zero zero_offsets4]
  simp only [View.readAt_eq_ld, hmx.read_unread, hmw.read_unread, hmg.read_unread, hmu.read_unread, hmd.read_unread, hmr.read_unread, View.ld_unit_zero (S := S256x2048) zero_offsets4, View.ld_unit_zero (S := S1x2048) zero_offsets4, View.ld_unit_zero (S := S512x2048) zero_offsets4, View.ld_unit_zero (S := S2048x512) zero_offsets4]

/-- The first step leaves in the accumulator the first tile's product added to zeros, over the rows it has just
    normalised. -/
theorem sout4_A_0_eq (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond4_0 i) (hc1 : ¬cond4_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) :
    sout4_A_0 (F := Ideal) c i mx hmx mw hmw mg hmg mu hmu md hmd mr hmr mo hmo macc hmacc mxn hmxn hc0 hc1 vx vw vg vu vd vr = k4_pay3 (F := Ideal) (k4_pay1 (F := Ideal) vx vw) vg vu vd (k4_pay2 (F := Ideal)) := by
  unfold sout4_A_0
  rw [View.read_writes_eq_canon _ _ _ (scover4_A_0 c i mx hmx mw hmw mg hmg mu hmu md hmd mr hmr mo hmo macc hmacc mxn hmxn hc0 hc1 vx vw vg vu vd vr)]
  unfold kernelRun4_A
  dsimp only
  sl_unfold_words
  rw [View.canon_cons_unit_zero (S := S256x2048) zero_offsets4]
  simp only [View.readAt_eq_ld, hmx.read_unread, hmw.read_unread, hmg.read_unread, hmu.read_unread, hmd.read_unread, hmr.read_unread, View.ld_unit_zero (S := S256x2048) zero_offsets4, View.ld_unit_zero (S := S1x2048) zero_offsets4, View.ld_unit_zero (S := S512x2048) zero_offsets4, View.ld_unit_zero (S := S2048x512) zero_offsets4,
    View.readCov_unit_zero (S := S256x2048) _ zero_offsets4]

/-- A middle step leaves in the accumulator its tile's product added to what the accumulator held. -/
theorem sout4_B_0_eq (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : ¬cond4_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) (vacc : Vec Ideal S256x2048 .f32) (vxn : Vec Ideal S256x2048 .bf16) :
    sout4_B_0 (F := Ideal) c i mx hmx mw hmw mg hmg mu hmu md hmd mr hmr mo hmo macc hmacc mxn hmxn hc0 hc1 vx vw vg vu vd vr vacc vxn = k4_pay3 (F := Ideal) vxn vg vu vd vacc := by
  unfold sout4_B_0
  rw [View.read_writes_eq_canon _ _ _ (scover4_B_0 c i mx hmx mw hmw mg hmg mu hmu md hmd mr hmr mo hmo macc hmacc mxn hmxn hc0 hc1 vx vw vg vu vd vr vacc vxn)]
  unfold kernelRun4_B
  dsimp only
  sl_unfold_words
  rw [View.canon_unit_zero zero_offsets4]
  simp only [View.readAt_eq_ld, hmx.read_unread, hmw.read_unread, hmg.read_unread, hmu.read_unread, hmd.read_unread, hmr.read_unread, hmacc.read_unread, hmxn.read_unread, View.ld_unit_zero (S := S256x2048) zero_offsets4, View.ld_unit_zero (S := S1x2048) zero_offsets4, View.ld_unit_zero (S := S512x2048) zero_offsets4, View.ld_unit_zero (S := S2048x512) zero_offsets4]

/-- So does the last step. -/
theorem sout4_C_0_eq (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) (vacc : Vec Ideal S256x2048 .f32) (vxn : Vec Ideal S256x2048 .bf16) :
    sout4_C_0 (F := Ideal) c i mx hmx mw hmw mg hmg mu hmu md hmd mr hmr mo hmo macc hmacc mxn hmxn hc0 hc1 vx vw vg vu vd vr vacc vxn = k4_pay3 (F := Ideal) vxn vg vu vd vacc := by
  unfold sout4_C_0
  rw [View.read_writes_eq_canon _ _ _ (scover4_C_0 c i mx hmx mw hmw mg hmg mu hmu md hmd mr hmr mo hmo macc hmacc mxn hmxn hc0 hc1 vx vw vg vu vd vr vacc vxn)]
  unfold kernelRun4_C
  dsimp only
  sl_unfold_words
  rw [View.canon_unit_zero zero_offsets4]
  simp only [View.readAt_eq_ld, hmx.read_unread, hmw.read_unread, hmg.read_unread, hmu.read_unread, hmd.read_unread, hmr.read_unread, hmacc.read_unread, hmxn.read_unread, View.ld_unit_zero (S := S256x2048) zero_offsets4, View.ld_unit_zero (S := S1x2048) zero_offsets4, View.ld_unit_zero (S := S512x2048) zero_offsets4, View.ld_unit_zero (S := S2048x512) zero_offsets4]

/-- The last step leaves in the output's buffer the finished accumulator plus the residual block. -/
theorem out4_C_6_eq (c : Dev nD) (i : grid4.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond4_0 i) (hc1 : cond4_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) (vacc : Vec Ideal S256x2048 .f32) (vxn : Vec Ideal S256x2048 .bf16) :
    out4_C_6 (F := Ideal) c i mx hmx mw hmw mg hmg mu hmu md hmd mr hmr mo hmo macc hmacc mxn hmxn hc0 hc1 vx vw vg vu vd vr vacc vxn = k4_pay4 (F := Ideal) (k4_pay3 (F := Ideal) vxn vg vu vd vacc) vr := by
  unfold out4_C_6
  rw [View.read_writes_eq_canon _ _ _ (cover4_C_6 c i mx hmx mw hmw mg hmg mu hmu md hmd mr hmr mo hmo macc hmacc mxn hmxn hc0 hc1 vx vw vg vu vd vr vacc vxn)]
  unfold kernelRun4_C
  dsimp only
  sl_unfold_words
  rw [View.canon_unit_zero zero_offsets4]
  simp only [View.readAt_eq_ld, hmx.read_unread, hmw.read_unread, hmg.read_unread, hmu.read_unread, hmd.read_unread, hmr.read_unread, hmacc.read_unread, hmxn.read_unread, View.ld_unit_zero (S := S256x2048) zero_offsets4, View.ld_unit_zero (S := S1x2048) zero_offsets4, View.ld_unit_zero (S := S512x2048) zero_offsets4, View.ld_unit_zero (S := S2048x512) zero_offsets4,
    View.readCov_unit_zero (S := S256x2048) _ zero_offsets4]

end Cert.KV

end
-- ==== Proof.Val.Final4.lean ====
/-
  The fused feed-forward region's output array after its last grid point, over the extended reals.

  The region walks a 4 × 16 grid: point `t` is row block `t / 16` (256 rows of the hidden state) at inner step
  `t % 16` (512 of the 8192 inner rows).  The kernel keeps two buffers of its own across the inner steps of a row
  block: the normalised rows, made at step 0, and an accumulator, zeroed at step 0 and grown by one tile's gated product
  at every step; at step 15 it stores the accumulator plus the residual block, which is the hidden state's block again
  (the two windows are handed the same array).  Every block coordinate is the block index times the block's size plus
  the coordinate inside the block.  So by induction along the grid the accumulator's entry for place `(s, o)` after step
  `j` is the sum of the tiles `0 … j` of the feed-forward terms, after step 15 the sum over all 8192 inner rows, and
  what the last point of a row block writes back is that block of ONE function of the arrays the region found: the
  specification's feed-forward block with its residual.  The four row blocks cover the array.
-/
import proofs.«167047_j26895085207995_2_alg».proof.Proof.Spec
import proofs.«167047_j26895085207995_2_alg».proof.Proof.Algebra
import proofs.«167047_j26895085207995_2_alg».proof.Proof.KI.Reg4
import proofs.«167047_j26895085207995_2_alg».proof.Proof.Val.Pay4
import proofs.«167047_j26895085207995_2_alg».proof.Proof.Val.Pieces4
import Idealize.ShloMosaic.Lib.ValueIdx
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KV

open Cert.KernelIdeal Cert.KernelIdeal.Gen

-- the TensorCore's buffer contents when the region is entered
variable (V : (c : Dev nD) → (b : Ref sig .tc) → Buf (Elt Ideal) ((c : Thread nD τ).loc b))

/-! ## The arrays and their blocks, at their literal types -/

/-- The hidden state, the gain, the gate, up and down weights and the residual (the hidden state again) as the region
    finds them. -/
abbrev xarr4 (c : Dev nD) : Vec Ideal S1024x2048 .f32 := V c (Pipeline.arrRef spec4 0)
abbrev garr4 (c : Dev nD) : Vec Ideal S1x2048 .f32 := V c (Pipeline.arrRef spec4 1)
abbrev wgarr4 (c : Dev nD) : Vec Ideal S8192x2048 .bf16 := V c (Pipeline.arrRef spec4 2)
abbrev wuarr4 (c : Dev nD) : Vec Ideal S8192x2048 .bf16 := V c (Pipeline.arrRef spec4 3)
abbrev wdarr4 (c : Dev nD) : Vec Ideal S2048x8192 .bf16 := V c (Pipeline.arrRef spec4 4)
abbrev rarr4 (c : Dev nD) : Vec Ideal S1024x2048 .f32 := V c (Pipeline.arrRef spec4 5)

/-- Their blocks at point `t`. -/
abbrev xblk4 (c : Dev nD) (t : Fin cfg4.N) : Vec Ideal S256x2048 .f32 := iblk4 V c 0 t
abbrev gblk4 (c : Dev nD) (t : Fin cfg4.N) : Vec Ideal S1x2048 .f32 := iblk4 V c 1 t
abbrev wgblk4 (c : Dev nD) (t : Fin cfg4.N) : Vec Ideal S512x2048 .bf16 := iblk4 V c 2 t
abbrev wublk4 (c : Dev nD) (t : Fin cfg4.N) : Vec Ideal S512x2048 .bf16 := iblk4 V c 3 t
abbrev wdblk4 (c : Dev nD) (t : Fin cfg4.N) : Vec Ideal S2048x512 .bf16 := iblk4 V c 4 t
abbrev rblk4 (c : Dev nD) (t : Fin cfg4.N) : Vec Ideal S256x2048 .f32 := iblk4 V c 5 t

/-! ## The index maps, decided over the 64 grid points

Point `t` is row block `t / 16` at inner step `t % 16`. The hidden state's, the residual's and the output's block is
row block `t / 16`; the gain's block is the whole gain; the gate and up weights' block is row tile `t % 16`; the down
weights' block is column tile `t % 16`. -/
theorem idx_facts4 : ∀ t : Fin cfg4.N,
    win4_0.index t (0 : Fin 2) = t.val / 16 ∧ win4_0.index t (1 : Fin 2) = 0
    ∧ win4_1.index t (0 : Fin 2) = 0 ∧ win4_1.index t (1 : Fin 2) = 0
    ∧ win4_2.index t (0 : Fin 2) = t.val % 16 ∧ win4_2.index t (1 : Fin 2) = 0
    ∧ win4_3.index t (0 : Fin 2) = t.val % 16 ∧ win4_3.index t (1 : Fin 2) = 0
    ∧ win4_4.index t (0 : Fin 2) = 0 ∧ win4_4.index t (1 : Fin 2) = t.val % 16
    ∧ win4_5.index t (0 : Fin 2) = t.val / 16 ∧ win4_5.index t (1 : Fin 2) = 0
    ∧ win4_6.index t (0 : Fin 2) = t.val / 16 ∧ win4_6.index t (1 : Fin 2) = 0 :=
  (by decide +kernel : ∀ t : Fin grid4.N, _)

/-! ## The arrays as plain functions of coordinates -/

/-- The hidden state, the gain and the three weight matrices as the region finds them, by coordinates. -/
abbrev xs4 (c : Dev nD) : Cert.Spec.Hid := fun s h => xarr4 V c (ix2 s h)
abbrev gs4 (c : Dev nD) : Fin 2048 → EReal := fun h => garr4 V c (ix2 0 h)
abbrev wgs4 (c : Dev nD) : Cert.Spec.Wt 8192 2048 := fun i h => wgarr4 V c (ix2 i h)
abbrev wus4 (c : Dev nD) : Cert.Spec.Wt 8192 2048 := fun i h => wuarr4 V c (ix2 i h)
abbrev wds4 (c : Dev nD) : Cert.Spec.Wt 2048 8192 := fun o i => wdarr4 V c (ix2 o i)

/-- The feed-forward term of inner row `i` at the output's place `(s, o)`: the gated product of the normalised row
    `s` against gate row `i` and up row `i`, times the down weight `(o, i)`. -/
def term4 (c : Dev nD) (s : Fin 1024) (o : Fin 2048) (i : Fin 8192) : EReal :=
  (Cert.Spec.silu (Cert.Spec.proj (Cert.Spec.rms (xs4 V c) (gs4 V c)) (wgs4 V c) s i)
      * Cert.Spec.proj (Cert.Spec.rms (xs4 V c) (gs4 V c)) (wus4 V c) s i) * wds4 V c o i

/-- The terms of the 512 inner rows of tile `j`, summed. -/
def tile4 (c : Dev nD) (s : Fin 1024) (o : Fin 2048) (j : Fin 16) : EReal :=
  ∑ k : Fin 512, term4 V c s o ⟨j.val * 512 + k.val, by have := j.isLt; have := k.isLt; omega⟩

/-- The accumulator's entry for the place `(s, o)` after inner step `n`: zero plus tile 0, then one tile more per step. -/
def accum4 (c : Dev nD) (s : Fin 1024) (o : Fin 2048) : (n : ℕ) → n < 16 → EReal
  | 0, h => 0 + tile4 V c s o ⟨0, h⟩
  | n + 1, h => accum4 c s o n (Nat.lt_of_succ_lt h) + tile4 V c s o ⟨n + 1, h⟩

/-- After step `n` the accumulator holds the sum of the tiles `0 … n`. -/
theorem accum4_eq_sum (c : Dev nD) (s : Fin 1024) (o : Fin 2048) : ∀ (n : ℕ) (h : n < 16),
    accum4 V c s o n h = ∑ j : Fin (n + 1), tile4 V c s o ⟨j.val, lt_of_lt_of_le j.isLt h⟩
  | 0, h => by
    rw [accum4, zero_add, Fin.sum_univ_one]
    rfl
  | n + 1, h => by
    rw [accum4, accum4_eq_sum c s o n (Nat.lt_of_succ_lt h)]
    exact (Fin.sum_univ_castSucc (fun j : Fin (n + 2) => tile4 V c s o ⟨j.val, lt_of_lt_of_le j.isLt h⟩)).symm

/-- After the last step: the sum over all 8192 inner rows. -/
theorem accum4_last (c : Dev nD) (s : Fin 1024) (o : Fin 2048) :
    accum4 V c s o 15 (by decide) = ∑ i : Fin 8192, term4 V c s o i := by
  rw [accum4_eq_sum, Cert.Spec.sum_tiles]
  rfl

/-! ## Each input block read at its place in its array

A block's coordinate is the block index times the block's size plus the coordinate inside the block. -/

/-- Row `p` of the hidden state's block at `t` is row `s` of the array, `s` = 256 · (row block) + `p`. -/
theorem xblk4_apply (c : Dev nD) (t : Fin cfg4.N) (p : Fin 256) (h : Fin 2048) (s : Fin 1024)
    (hs : s.val = t.val / 16 * 256 + p.val) :
    xblk4 V c t (ix2 p h) = xarr4 V c (ix2 s h) := by
  obtain ⟨e0, e1, -⟩ := idx_facts4 t
  unfold xblk4 iblk4
  rw [View.read_apply]
  show xarr4 V c _ = xarr4 V c _
  congr 1
  funext a
  apply Fin.ext
  match a with
  | ⟨0, _⟩ => show win4_0.index t (0 : Fin 2) * 256 + 1 * p.val = s.val; omega
  | ⟨1, _⟩ => show win4_0.index t (1 : Fin 2) * 2048 + 1 * h.val = h.val; omega

/-- The gain's block is the gain. -/
theorem gblk4_apply (c : Dev nD) (t : Fin cfg4.N) (u : Fin 1) (h : Fin 2048) :
    gblk4 V c t (ix2 u h) = garr4 V c (ix2 0 h) := by
  obtain ⟨-, -, e0, e1, -⟩ := idx_facts4 t
  unfold gblk4 iblk4
  rw [View.read_apply]
  show garr4 V c _ = garr4 V c _
  congr 1
  funext a
  apply Fin.ext
  match a with
  | ⟨0, _⟩ => show win4_1.index t (0 : Fin 2) * 1 + 1 * u.val = 0; omega
  | ⟨1, _⟩ => show win4_1.index t (1 : Fin 2) * 2048 + 1 * h.val = h.val; omega

/-- Row `k` of the gate weights' block at `t` is inner row `i` of the array, `i` = 512 · (step) + `k`. -/
theorem wgblk4_apply (c : Dev nD) (t : Fin cfg4.N) (k : Fin 512) (h : Fin 2048) (i : Fin 8192)
    (hi : i.val = t.val % 16 * 512 + k.val) :
    wgblk4 V c t (ix2 k h) = wgarr4 V c (ix2 i h) := by
  obtain ⟨-, -, -, -, e0, e1, -⟩ := idx_facts4 t
  unfold wgblk4 iblk4
  rw [View.read_apply]
  show wgarr4 V c _ = wgarr4 V c _
  congr 1
  funext a
  apply Fin.ext
  match a with
  | ⟨0, _⟩ => show win4_2.index t (0 : Fin 2) * 512 + 1 * k.val = i.val; omega
  | ⟨1, _⟩ => show win4_2.index t (1 : Fin 2) * 2048 + 1 * h.val = h.val; omega

/-- Row `k` of the up weights' block at `t` is inner row `i` of the array. -/
theorem wublk4_apply (c : Dev nD) (t : Fin cfg4.N) (k : Fin 512) (h : Fin 2048) (i : Fin 8192)
    (hi : i.val = t.val % 16 * 512 + k.val) :
    wublk4 V c t (ix2 k h) = wuarr4 V c (ix2 i h) := by
  obtain ⟨-, -, -, -, -, -, e0, e1, -⟩ := idx_facts4 t
  unfold wublk4 iblk4
  rw [View.read_apply]
  show wuarr4 V c _ = wuarr4 V c _
  congr 1
  funext a
  apply Fin.ext
  match a with
  | ⟨0, _⟩ => show win4_3.index t (0 : Fin 2) * 512 + 1 * k.val = i.val; omega
  | ⟨1, _⟩ => show win4_3.index t (1 : Fin 2) * 2048 + 1 * h.val = h.val; omega

/-- Column `k` of the down weights' block at `t` is inner column `i` of the array. -/
theorem wdblk4_apply (c : Dev nD) (t : Fin cfg4.N) (o : Fin 2048) (k : Fin 512) (i : Fin 8192)
    (hi : i.val = t.val % 16 * 512 + k.val) :
    wdblk4 V c t (ix2 o k) = wdarr4 V c (ix2 o i) := by
  obtain ⟨-, -, -, -, -, -, -, -, e0, e1, -⟩ := idx_facts4 t
  unfold wdblk4 iblk4
  rw [View.read_apply]
  show wdarr4 V c _ = wdarr4 V c _
  congr 1
  funext a
  apply Fin.ext
  match a with
  | ⟨0, _⟩ => show win4_4.index t (0 : Fin 2) * 2048 + 1 * o.val = o.val; omega
  | ⟨1, _⟩ => show win4_4.index t (1 : Fin 2) * 512 + 1 * k.val = i.val; omega

/-- Row `p` of the residual's block at `t` is row `s` of the hidden state: the residual's array is the hidden state's. -/
theorem rblk4_apply (c : Dev nD) (t : Fin cfg4.N) (p : Fin 256) (o : Fin 2048) (s : Fin 1024)
    (hs : s.val = t.val / 16 * 256 + p.val) :
    rblk4 V c t (ix2 p o) = xarr4 V c (ix2 s o) := by
  obtain ⟨-, -, -, -, -, -, -, -, -, -, e0, e1, -⟩ := idx_facts4 t
  unfold rblk4 iblk4
  rw [View.read_apply]
  show rarr4 V c _ = rarr4 V c _
  congr 1
  funext a
  apply Fin.ext
  match a with
  | ⟨0, _⟩ => show win4_5.index t (0 : Fin 2) * 256 + 1 * p.val = s.val; omega
  | ⟨1, _⟩ => show win4_5.index t (1 : Fin 2) * 2048 + 1 * o.val = o.val; omega

/-! ## The kernel's stored values at a point, as functions of the arrays -/

/-- The normalised block stored at the first inner step of row block `t / 16`: the normalised hidden state. -/
theorem norm4_eq (c : Dev nD) (t : Fin cfg4.N) (p : Fin 256) (h : Fin 2048) (s : Fin 1024)
    (hs : s.val = t.val / 16 * 256 + p.val) :
    k4_pay1 (F := Ideal) (xblk4 V c t) (gblk4 V c t) (ix2 p h) = Cert.Spec.rms (xs4 V c) (gs4 V c) s h := by
  refine (pay4_1_apply (xblk4 V c t) (gblk4 V c t) p h).trans ?_
  unfold Cert.Spec.rms Cert.Spec.msq
  rw [xblk4_apply V c t p h s hs, gblk4_apply V c t 0 h]
  have hsum : (∑ h' : Fin 2048, xblk4 V c t (ix2 p h') * xblk4 V c t (ix2 p h'))
      = ∑ h' : Fin 2048, xs4 V c s h' * xs4 V c s h' :=
    Finset.sum_congr rfl fun h' _ => by rw [xblk4_apply V c t p h' s hs]
  rw [hsum]

/-- One inner step at point `t`: over a scratch holding the normalised rows of this row block, the accumulator's entry
    grows by the tile of this step. -/
theorem step4_eq (c : Dev nD) (t : Fin cfg4.N) (xn : Vec Ideal S256x2048 .bf16) (acc : Vec Ideal S256x2048 .f32)
    (p : Fin 256) (o : Fin 2048) (s : Fin 1024)
    (hxn : ∀ h : Fin 2048, xn (ix2 p h) = Cert.Spec.rms (xs4 V c) (gs4 V c) s h) :
    k4_pay3 (F := Ideal) xn (wgblk4 V c t) (wublk4 V c t) (wdblk4 V c t) acc (ix2 p o)
      = acc (ix2 p o) + tile4 V c s o ⟨t.val % 16, Nat.mod_lt _ (by decide)⟩ := by
  refine (pay4_3_apply xn (wgblk4 V c t) (wublk4 V c t) (wdblk4 V c t) acc p o).trans ?_
  unfold tile4 term4 Cert.Spec.proj
  refine congrArg (acc (ix2 p o) + ·) (Finset.sum_congr rfl fun k _ => ?_)
  have hi : (⟨t.val % 16 * 512 + k.val, by have := Nat.mod_lt t.val (show 0 < 16 by decide); have := k.isLt; omega⟩ : Fin 8192).val
      = t.val % 16 * 512 + k.val := rfl
  rw [wdblk4_apply V c t o k _ hi]
  have hg : (∑ h : Fin 2048, xn (ix2 p h) * wgblk4 V c t (ix2 k h))
      = ∑ h : Fin 2048, Cert.Spec.rms (xs4 V c) (gs4 V c) s h * wgs4 V c ⟨t.val % 16 * 512 + k.val, by have := Nat.mod_lt t.val (show 0 < 16 by decide); have := k.isLt; omega⟩ h :=
    Finset.sum_congr rfl fun h _ => by rw [hxn h, wgblk4_apply V c t k h _ hi]
  have hu : (∑ h : Fin 2048, xn (ix2 p h) * wublk4 V c t (ix2 k h))
      = ∑ h : Fin 2048, Cert.Spec.rms (xs4 V c) (gs4 V c) s h * wus4 V c ⟨t.val % 16 * 512 + k.val, by have := Nat.mod_lt t.val (show 0 < 16 by decide); have := k.isLt; omega⟩ h :=
    Finset.sum_congr rfl fun h _ => by rw [hxn h, wublk4_apply V c t k h _ hi]
  rw [hg, hu]

/-- The last step's stored value: the accumulator plus the hidden state's entry. -/
theorem last4_eq (c : Dev nD) (t : Fin cfg4.N) (acc : Vec Ideal S256x2048 .f32) (p : Fin 256) (o : Fin 2048) (s : Fin 1024)
    (hs : s.val = t.val / 16 * 256 + p.val) :
    k4_pay4 (F := Ideal) acc (rblk4 V c t) (ix2 p o) = acc (ix2 p o) + xs4 V c s o := by
  refine (pay4_4_apply acc (rblk4 V c t) p o).trans ?_
  rw [rblk4_apply V c t p o s hs]

/-! ## The recurrence along the grid

After point `t` the scratch of normalised rows, the accumulator and (at a last step) the output's buffer, from the
blocks at `t` and what the point before left. -/

/-- At the first step of a row block both scratches are made from the blocks alone. -/
theorem outs4_first (c : Dev nD) (t : Fin cfg4.N) (h0 : t.val % 16 = 0) :
    (outsAt4 V c t.val t.isLt).2.2 = k4_pay1 (F := Ideal) (xblk4 V c t) (gblk4 V c t)
    ∧ (outsAt4 V c t.val t.isLt).2.1
        = k4_pay3 (F := Ideal) (k4_pay1 (F := Ideal) (xblk4 V c t) (gblk4 V c t)) (wgblk4 V c t) (wublk4 V c t) (wdblk4 V c t)
            (k4_pay2 (F := Ideal)) := by
  have h1 : ¬t.val % 16 = 15 := by omega
  rw [outsAt4_A V c t h0 h1]
  dsimp only
  exact ⟨sout4_A_1_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (xblk4 V c t) (gblk4 V c t) (wgblk4 V c t) (wublk4 V c t) (wdblk4 V c t) (rblk4 V c t),
    sout4_A_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (xblk4 V c t) (gblk4 V c t) (wgblk4 V c t) (wublk4 V c t) (wdblk4 V c t) (rblk4 V c t)⟩

/-- At every later step the normalised rows are kept and the accumulator grows by this step's product. -/
theorem outs4_next (c : Dev nD) (t : Fin cfg4.N) (h0 : ¬t.val % 16 = 0) :
    (outsAt4 V c t.val t.isLt).2.2 = (outsAt4 V c (t.val - 1) (Nat.lt_of_le_of_lt (Nat.sub_le _ _) t.isLt)).2.2
    ∧ (outsAt4 V c t.val t.isLt).2.1
        = k4_pay3 (F := Ideal) (outsAt4 V c (t.val - 1) (Nat.lt_of_le_of_lt (Nat.sub_le _ _) t.isLt)).2.2 (wgblk4 V c t) (wublk4 V c t) (wdblk4 V c t) (outsAt4 V c (t.val - 1) (Nat.lt_of_le_of_lt (Nat.sub_le _ _) t.isLt)).2.1 := by
  by_cases h1 : t.val % 16 = 15
  · rw [outsAt4_C V c t h0 h1]
    dsimp only
    exact ⟨rfl, sout4_C_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (xblk4 V c t) (gblk4 V c t) (wgblk4 V c t) (wublk4 V c t) (wdblk4 V c t) (rblk4 V c t) (outsAt4 V c (t.val - 1) (Nat.lt_of_le_of_lt (Nat.sub_le _ _) t.isLt)).2.1 (outsAt4 V c (t.val - 1) (Nat.lt_of_le_of_lt (Nat.sub_le _ _) t.isLt)).2.2⟩
  · rw [outsAt4_B V c t h0 h1]
    dsimp only
    exact ⟨rfl, sout4_B_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (xblk4 V c t) (gblk4 V c t) (wgblk4 V c t) (wublk4 V c t) (wdblk4 V c t) (rblk4 V c t) (outsAt4 V c (t.val - 1) (Nat.lt_of_le_of_lt (Nat.sub_le _ _) t.isLt)).2.1 (outsAt4 V c (t.val - 1) (Nat.lt_of_le_of_lt (Nat.sub_le _ _) t.isLt)).2.2⟩

/-- At the last step of a row block the output's buffer is left at the accumulator plus the residual block. -/
theorem outs4_last (c : Dev nD) (t : Fin cfg4.N) (h1 : t.val % 16 = 15) :
    (outsAt4 V c t.val t.isLt).1 = k4_pay4 (F := Ideal) (outsAt4 V c t.val t.isLt).2.1 (rblk4 V c t) := by
  have h0 : ¬t.val % 16 = 0 := by omega
  rw [outsAt4_C V c t h0 h1]
  dsimp only
  exact (out4_C_6_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (xblk4 V c t) (gblk4 V c t) (wgblk4 V c t) (wublk4 V c t) (wdblk4 V c t) (rblk4 V c t) (outsAt4 V c (t.val - 1) (Nat.lt_of_le_of_lt (Nat.sub_le _ _) t.isLt)).2.1 (outsAt4 V c (t.val - 1) (Nat.lt_of_le_of_lt (Nat.sub_le _ _) t.isLt)).2.2).trans
    (congrArg (fun a => k4_pay4 (F := Ideal) a (rblk4 V c t))
      (sout4_C_0_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (xblk4 V c t) (gblk4 V c t) (wgblk4 V c t) (wublk4 V c t) (wdblk4 V c t) (rblk4 V c t) (outsAt4 V c (t.val - 1) (Nat.lt_of_le_of_lt (Nat.sub_le _ _) t.isLt)).2.1 (outsAt4 V c (t.val - 1) (Nat.lt_of_le_of_lt (Nat.sub_le _ _) t.isLt)).2.2).symm)

/-! ## The invariant along the grid -/

theorem accum4_first (c : Dev nD) (s : Fin 1024) (o : Fin 2048) (j : ℕ) (hj : j < 16) (h0 : j = 0) :
    accum4 V c s o j hj = 0 + tile4 V c s o ⟨j, hj⟩ := by
  subst h0; rfl

theorem accum4_next (c : Dev nD) (s : Fin 1024) (o : Fin 2048) (j : ℕ) (hj : j < 16) (h0 : j ≠ 0) :
    accum4 V c s o j hj = accum4 V c s o (j - 1) (by omega) + tile4 V c s o ⟨j, hj⟩ := by
  cases j with
  | zero => exact absurd rfl h0
  | succ j => rfl

theorem accum4_congr (c : Dev nD) (s : Fin 1024) (o : Fin 2048) {j j' : ℕ} (hj : j < 16) (hj' : j' < 16) (e : j = j') :
    accum4 V c s o j hj = accum4 V c s o j' hj' := by
  subst e; rfl

/-- After point `n`, which is inner step `n % 16` of row block `n / 16`: the scratch of normalised rows holds the
    normalised rows of the block; the accumulator holds, entry by entry, the tiles `0 … n % 16` summed; and at a last
    step the output's buffer holds all sixteen tiles summed plus the hidden state's entry. -/
def Inv4 (c : Dev nD) (n : ℕ) (hn : n < cfg4.N) : Prop :=
  (∀ (p : Fin 256) (h : Fin 2048) (s : Fin 1024), s.val = n / 16 * 256 + p.val →
      (outsAt4 V c n hn).2.2 (ix2 p h) = Cert.Spec.rms (xs4 V c) (gs4 V c) s h)
  ∧ (∀ (p : Fin 256) (o : Fin 2048) (s : Fin 1024), s.val = n / 16 * 256 + p.val →
      (outsAt4 V c n hn).2.1 (ix2 p o) = accum4 V c s o (n % 16) (Nat.mod_lt _ (by decide)))
  ∧ (n % 16 = 15 → ∀ (p : Fin 256) (o : Fin 2048) (s : Fin 1024), s.val = n / 16 * 256 + p.val →
      (outsAt4 V c n hn).1 (ix2 p o) = accum4 V c s o 15 (by decide) + xs4 V c s o)

/-- The invariant at a first step, from the blocks alone. -/
theorem inv4_first (c : Dev nD) (t : Fin cfg4.N) (h0 : t.val % 16 = 0) : Inv4 V c t.val t.isLt := by
  obtain ⟨ex, ea⟩ := outs4_first V c t h0
  refine ⟨fun p h s hs => ?_, fun p o s hs => ?_, fun h15 => absurd h15 (by omega)⟩
  · rw [ex]
    exact norm4_eq V c t p h s hs
  · rw [ea]
    refine (step4_eq V c t _ _ p o s (fun h => norm4_eq V c t p h s hs)).trans ?_
    rw [pay4_2_apply, accum4_first V c s o (t.val % 16) _ h0]

/-- The invariant at a later step, from the invariant at the point before. -/
theorem inv4_next (c : Dev nD) (t : Fin cfg4.N) (h0 : ¬t.val % 16 = 0)
    (ih : Inv4 V c (t.val - 1) (Nat.lt_of_le_of_lt (Nat.sub_le _ _) t.isLt)) : Inv4 V c t.val t.isLt := by
  obtain ⟨ihx, iha, -⟩ := ih
  obtain ⟨ex, ea⟩ := outs4_next V c t h0
  have hx : ∀ (p : Fin 256) (h : Fin 2048) (s : Fin 1024), s.val = t.val / 16 * 256 + p.val →
      (outsAt4 V c t.val t.isLt).2.2 (ix2 p h) = Cert.Spec.rms (xs4 V c) (gs4 V c) s h := fun p h s hs => by
    rw [ex]
    exact ihx p h s (by omega)
  have ha : ∀ (p : Fin 256) (o : Fin 2048) (s : Fin 1024), s.val = t.val / 16 * 256 + p.val →
      (outsAt4 V c t.val t.isLt).2.1 (ix2 p o) = accum4 V c s o (t.val % 16) (Nat.mod_lt _ (by decide)) := fun p o s hs => by
    rw [ea]
    refine (step4_eq V c t _ _ p o s (fun h => ihx p h s (by omega))).trans ?_
    rw [iha p o s (by omega), accum4_next V c s o (t.val % 16) _ h0]
    exact congrArg (· + tile4 V c s o ⟨t.val % 16, Nat.mod_lt _ (by decide)⟩)
      (accum4_congr V c s o _ _ (by omega))
  refine ⟨hx, ha, fun h15 p o s hs => ?_⟩
  rw [outs4_last V c t h15]
  refine (last4_eq V c t _ p o s hs).trans ?_
  rw [ha p o s hs]
  exact congrArg (· + xs4 V c s o) (accum4_congr V c s o _ _ h15)

/-- The invariant at every point, by induction along the grid. -/
theorem inv4 (c : Dev nD) : ∀ (n : ℕ) (hn : n < cfg4.N), Inv4 V c n hn
  | 0, hn => inv4_first V c ⟨0, hn⟩ (Nat.zero_mod 16)
  | n + 1, hn => by
    by_cases h0 : (n + 1) % 16 = 0
    · exact inv4_first V c ⟨n + 1, hn⟩ h0
    · exact inv4_next V c ⟨n + 1, hn⟩ h0 (inv4 c n (Nat.lt_of_succ_lt hn))

/-! ## What each row block's last point writes back, the cover, the array -/

/-- The function the output array ends holding: the feed-forward block of the arrays the region found. -/
def G4 (c : Dev nD) : Vec Ideal S1024x2048 .f32 :=
  fun i => Cert.Spec.mlp (xs4 V c) (gs4 V c) (wgs4 V c) (wus4 V c) (wds4 V c) (i 0) (i 1)

/-- The feed-forward block at a place: the hidden state's entry plus the terms of all inner rows. -/
theorem mlp4_eq (c : Dev nD) (s : Fin 1024) (o : Fin 2048) :
    Cert.Spec.mlp (xs4 V c) (gs4 V c) (wgs4 V c) (wus4 V c) (wds4 V c) s o = xs4 V c s o + ∑ i : Fin 8192, term4 V c s o i := rfl

/-- Entry `(p, o)` of the output's buffer after a last step is the feed-forward block at the entry's place. -/
theorem point4_eq (c : Dev nD) (t : Fin cfg4.N) (h15 : t.val % 16 = 15) (p : Fin 256) (o : Fin 2048) (s : Fin 1024) (o' : Fin 2048)
    (hs : s.val = t.val / 16 * 256 + p.val) (ho : o'.val = o.val) :
    (outsAt4 V c t.val t.isLt).1 (ix2 p o) = Cert.Spec.mlp (xs4 V c) (gs4 V c) (wgs4 V c) (wus4 V c) (wds4 V c) s o' := by
  obtain rfl : o' = o := Fin.ext ho
  rw [(inv4 V c t.val t.isLt).2.2 h15 p o' s hs, accum4_last, mlp4_eq, add_comm]

/-- What a last point writes back is its block of `G4`. -/
theorem flushed4_eq (c : Dev nD) (t : Fin cfg4.N) (hf : (cfg4.win 6).flush t = true) :
    (dat4 V c).flushed 6 t = ((cfg4.win 6).blk t).view.read (Elt Ideal) (G4 V c) := by
  have h15 : t.val % 16 = 15 := (flush4_6 t).mp hf
  obtain ⟨-, -, -, -, -, -, -, -, -, -, -, -, e0, e1⟩ := idx_facts4 t
  show (cfg4.win 6).cut (grid4.coords t) ((dat4 V c).after 6 t) = _
  rw [after4_6]
  funext j
  obtain ⟨p, o, rfl⟩ : ∃ (p : Fin 256) (o : Fin 2048), j = ix2 p o := ⟨j 0, j 1, eq_ix2 j⟩
  show (outsAt4 V c t.val t.isLt).1 (ix2 p o)
    = Cert.Spec.mlp (xs4 V c) (gs4 V c) (wgs4 V c) (wus4 V c) (wds4 V c)
        (((cfg4.win 6).blk t).view.emb (ix2 p o) 0) (((cfg4.win 6).blk t).view.emb (ix2 p o) 1)
  refine point4_eq V c t h15 p o _ _ ?_ ?_
  · show win4_6.index t (0 : Fin 2) * 256 + 1 * p.val = _; omega
  · show win4_6.index t (1 : Fin 2) * 2048 + 1 * o.val = _; omega

/-- An index of the array is in point `t`'s block iff each coordinate is in the block's range on its axis. -/
theorem mem_blk4 (t : Fin cfg4.N) (i : S1024x2048.Idx) :
    i ∈ ((cfg4.win 6).blk t).view.set ↔ ∀ a : Fin 2, win4_6.index t a * S256x2048.size a ≤ (i a).val ∧ (i a).val < win4_6.index t a * S256x2048.size a + S256x2048.size a := by
  show i ∈ ((View.whole main_v60).slice (win4_6.rect t)).set ↔ _
  rw [View.set_slice_whole, Rect.mem_set_unit]
  exact Iff.rfl

/-- Every index of the array is in the block of a last point: row `r` in row block `r / 256`. -/
theorem cover4 (i : S1024x2048.Idx) : ∃ t : Fin cfg4.N, (cfg4.win 6).flush t = true ∧ i ∈ ((cfg4.win 6).blk t).view.set := by
  have hi0 : (i 0).val < 1024 := (i 0).isLt
  have hi1 : (i 1).val < 2048 := (i 1).isLt
  have hN : cfg4.N = 64 := by decide
  have hlt : (i 0).val / 256 * 16 + 15 < cfg4.N := lt_of_lt_of_eq (by omega) hN.symm
  obtain ⟨-, -, -, -, -, -, -, -, -, -, -, -, e0, e1⟩ := idx_facts4 ⟨(i 0).val / 256 * 16 + 15, hlt⟩
  refine ⟨⟨(i 0).val / 256 * 16 + 15, hlt⟩, (flush4_6 _).mpr (by show ((i 0).val / 256 * 16 + 15) % 16 = 15; omega), ?_⟩
  rw [mem_blk4]
  have e0' : win4_6.index ⟨(i 0).val / 256 * 16 + 15, hlt⟩ (0 : Fin 2) = ((i 0).val / 256 * 16 + 15) / 16 := e0
  intro a
  match a with
  | ⟨0, _⟩ =>
    show win4_6.index ⟨(i 0).val / 256 * 16 + 15, hlt⟩ (0 : Fin 2) * 256 ≤ (i 0).val
      ∧ (i 0).val < win4_6.index ⟨(i 0).val / 256 * 16 + 15, hlt⟩ (0 : Fin 2) * 256 + 256
    omega
  | ⟨1, _⟩ =>
    show win4_6.index ⟨(i 0).val / 256 * 16 + 15, hlt⟩ (1 : Fin 2) * 2048 ≤ (i 1).val
      ∧ (i 1).val < win4_6.index ⟨(i 0).val / 256 * 16 + 15, hlt⟩ (1 : Fin 2) * 2048 + 2048
    omega

/-- The output array after the last point is `G4` of the arrays the region found. -/
theorem final4_arr (c : Dev nD) : (dat4 V c).arrAt 6 cfg4.N = G4 V c :=
  (dat4 V c).arrAt_eq_of_cover 6 (G4 V c) (fun t hf => flushed4_eq V c t hf) cover4

/-- Entry by entry: the feed-forward block with its residual, of the arrays the region found. -/
theorem final4 (c : Dev nD) (s : Fin 1024) (o : Fin 2048) :
    ((dat4 (F := Ideal) V c).arrAt 6 cfg4.N : Vec Ideal S1024x2048 .f32) (ix2 s o)
      = Cert.Spec.mlp (fun s h => (V c (Pipeline.arrRef spec4 0) : Vec Ideal S1024x2048 .f32) (ix2 s h))
          (fun h => (V c (Pipeline.arrRef spec4 1) : Vec Ideal S1x2048 .f32) (ix2 0 h))
          (fun i h => (V c (Pipeline.arrRef spec4 2) : Vec Ideal S8192x2048 .bf16) (ix2 i h))
          (fun i h => (V c (Pipeline.arrRef spec4 3) : Vec Ideal S8192x2048 .bf16) (ix2 i h))
          (fun o i => (V c (Pipeline.arrRef spec4 4) : Vec Ideal S2048x8192 .bf16) (ix2 o i)) s o := by
  rw [final4_arr V c]
  rfl

end Cert.KV

end
-- ==== Proof.Val.Pay5.lean ====
/-
  The second layer's normalisation-and-projection payload.  Its generated definition is the first layer's, operation
  for operation, so the two are one function of the three blocks and the reading at an output coordinate is the same:
  row `p` over the root of its mean square plus the small constant, times the gain row, against weight row `q`.
-/
import proofs.«167047_j26895085207995_2_alg».proof.Proof.Val.Pay0

noncomputable section

open scoped BigOperators
open Idealize.ShloMosaic Idealize.ShloMosaic.TcCoe Idealize.ShloMosaic.ValueIdx

namespace Cert.KV

/-- The two layers' payloads are the same function of the blocks. -/
theorem k5_pay1_eq (x : Vec Ideal Cert.KernelIdeal.S512x2048 .f32) (g : Vec Ideal Cert.KernelIdeal.S1x2048 .f32)
    (w : Vec Ideal Cert.KernelIdeal.S512x2048 .bf16) :
    Cert.KernelIdeal.Gen.k5_pay1 (F := Ideal) x g w = Cert.KernelIdeal.Gen.k0_pay1 (F := Ideal) x g w := rfl

/-- So the second layer's payload at `(p, q)` reads as the first layer's does. -/
theorem pay5_apply (x : Vec Ideal Cert.KernelIdeal.S512x2048 .f32) (g : Vec Ideal Cert.KernelIdeal.S1x2048 .f32)
    (w : Vec Ideal Cert.KernelIdeal.S512x2048 .bf16) (p q : Fin 512) :
    Cert.KernelIdeal.Gen.k5_pay1 (F := Ideal) x g w (ix2 p q)
      = ∑ h : Fin 2048, (Ideal.div (x (ix2 p h)) (Ideal.sqrt (Ideal.div (∑ h' : Fin 2048, x (ix2 p h') * x (ix2 p h')) Cert.Spec.rowLen + Cert.Spec.eps)) * g (ix2 0 h)) * w (ix2 q h) :=
  (congrFun (k5_pay1_eq x g w) (ix2 p q)).trans (pay0_apply x g w p q)

end Cert.KV

end
-- ==== Proof.Val.Final5.lean ====
/-
  From tiles to the whole array, for the normalise-and-project call of region 5.  The call walks a 2 x 6 grid; at
  point `(i, j)` it writes tile `(i, j)` of the 1024 x 3072 result, computed from rows `512 i ..` of the activations,
  the gain row, and rows `512 j ..` of the stacked projection weights.  Entry `(p, q)` of that tile is the payload of the
  three blocks at `(p, q)`, which is entry `(512 i + p, 512 j + q)` of the projection of the normalised activations;
  the twelve tiles cover the array, so after the last point the array is that projection.
-/
import proofs.«167047_j26895085207995_2_alg».proof.Proof.Spec
import proofs.«167047_j26895085207995_2_alg».proof.Proof.KI.Reg5
import proofs.«167047_j26895085207995_2_alg».proof.Proof.Val.Pay5
import Idealize.ShloMosaic.Lib.ValueIdx
import Idealize.ShloMosaic.Lib.Pipeline.Value

noncomputable section

namespace Cert.KV

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets, as the constant function. -/
theorem Final5.hz : (![0, 0] : Fin 2 → Nat) = fun _ => 0 := funext fun a => by fin_cases a <;> rfl

namespace Final5

/-- The activations, the gain row and the stacked projection weights as the call finds them, by coordinates. -/
abbrev actv5 (c : Dev nD) : Cert.Spec.Hid := fun s h => (V c (Pipeline.arrRef spec5 0) : Vec Ideal S1024x2048 .f32) (ix2 s h)
abbrev gain5 (c : Dev nD) : Fin 2048 → EReal := fun h => (V c (Pipeline.arrRef spec5 1) : Vec Ideal S1x2048 .f32) (ix2 0 h)
abbrev wts5 (c : Dev nD) : Cert.Spec.Wt 3072 2048 := fun o h => (V c (Pipeline.arrRef spec5 2) : Vec Ideal S3072x2048 .bf16) (ix2 o h)

/-- What the call's output array ends holding: the normalised activations projected, entry by entry. -/
def G5 (c : Dev nD) : Vec Ideal S1024x3072 .f32 := fun i =>
  Cert.Spec.proj (Cert.Spec.rms (actv5 V c) (gain5 V c)) (wts5 V c) ⟨(i 0).val, (i 0).isLt⟩ ⟨(i 1).val, (i 1).isLt⟩

/-- The index maps, decided once over the twelve grid points: the activations' block follows the output tile's row
    index, the weights' block its column index, the gain row has one block; the tile indices stay in their ranges. -/
theorem idx_facts5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = win5_3.index t (1 : Fin 2)
    ∧ win5_2.index t (1 : Fin 2) = 0
    ∧ win5_3.index t (0 : Fin 2) ≤ 1
    ∧ win5_3.index t (1 : Fin 2) ≤ 5 :=
  (by decide +kernel : ∀ t : Fin grid5.N, _)

/-- Every tile of the 2 x 6 tiling is some point's. -/
theorem idx_onto5 : ∀ (a : Fin 2) (b : Fin 6), ∃ t : Fin cfg5.N, win5_3.index t = ![a.val, b.val] :=
  (by decide +kernel : ∀ (a : Fin 2) (b : Fin 6), ∃ t : Fin grid5.N, win5_3.index t = ![a.val, b.val])

/-- The activations' block at point `t`, read at `(p, h)`, is the array's row `512 i + p`, `i` the tile's row index. -/
theorem iblk5_0_apply (c : Dev nD) (t : Fin cfg5.N) (p : Fin 512) (s : Fin 1024)
    (hs : s.val = win5_3.index t (0 : Fin 2) * 512 + p.val) (h : Fin 2048) :
    (iblk5 V c 0 t : Vec Ideal S512x2048 .f32) (ix2 p h) = actv5 V c s h := by
  obtain ⟨er, ec, -⟩ := idx_facts5 t
  unfold iblk5
  rw [View.read_apply]
  show (V c (Pipeline.arrRef spec5 0) : Vec Ideal S1024x2048 .f32) _ = (V c (Pipeline.arrRef spec5 0) : Vec Ideal S1024x2048 .f32) (ix2 s h)
  congr 1
  funext a
  apply Fin.ext
  match a with
  | ⟨0, _⟩ => show win5_0.index t (0 : Fin 2) * 512 + 1 * p.val = s.val; omega
  | ⟨1, _⟩ => show win5_0.index t (1 : Fin 2) * 2048 + 1 * h.val = h.val; omega

/-- The gain row's one block is the gain row. -/
theorem iblk5_1_apply (c : Dev nD) (t : Fin cfg5.N) (u : Fin 1) (h : Fin 2048) :
    (iblk5 V c 1 t : Vec Ideal S1x2048 .f32) (ix2 u h) = gain5 V c h := by
  obtain ⟨-, -, er, ec, -⟩ := idx_facts5 t
  have hu : u.val = 0 := by omega
  unfold iblk5
  rw [View.read_apply]
  show (V c (Pipeline.arrRef spec5 1) : Vec Ideal S1x2048 .f32) _ = (V c (Pipeline.arrRef spec5 1) : Vec Ideal S1x2048 .f32) (ix2 0 h)
  congr 1
  funext a
  apply Fin.ext
  match a with
  | ⟨0, _⟩ => show win5_1.index t (0 : Fin 2) * 1 + 1 * u.val = 0; omega
  | ⟨1, _⟩ => show win5_1.index t (1 : Fin 2) * 2048 + 1 * h.val = h.val; omega

/-- The weights' block at point `t`, read at `(q, h)`, is the array's row `512 j + q`, `j` the tile's column index. -/
theorem iblk5_2_apply (c : Dev nD) (t : Fin cfg5.N) (q : Fin 512) (o : Fin 3072)
    (ho : o.val = win5_3.index t (1 : Fin 2) * 512 + q.val) (h : Fin 2048) :
    (iblk5 V c 2 t : Vec Ideal S512x2048 .bf16) (ix2 q h) = wts5 V c o h := by
  obtain ⟨-, -, -, -, er, ec, -⟩ := idx_facts5 t
  unfold iblk5
  rw [View.read_apply]
  show (V c (Pipeline.arrRef spec5 2) : Vec Ideal S3072x2048 .bf16) _ = (V c (Pipeline.arrRef spec5 2) : Vec Ideal S3072x2048 .bf16) (ix2 o h)
  congr 1
  funext a
  apply Fin.ext
  match a with
  | ⟨0, _⟩ => show win5_2.index t (0 : Fin 2) * 512 + 1 * q.val = o.val; omega
  | ⟨1, _⟩ => show win5_2.index t (1 : Fin 2) * 2048 + 1 * h.val = h.val; omega

/-- Entry `(p, q)` of the output tile at point `t` sits in the array at `(512 i + p, 512 j + q)`. -/
theorem emb5_3 (t : Fin cfg5.N) (p q : Fin 512) (s : Fin 1024) (o : Fin 3072)
    (hs : s.val = win5_3.index t (0 : Fin 2) * 512 + p.val) (ho : o.val = win5_3.index t (1 : Fin 2) * 512 + q.val) :
    ((cfg5.win 3).blk t).view.emb (ix2 p q) = (ix2 s o : S1024x3072.Idx) := by
  funext a
  apply Fin.ext
  match a with
  | ⟨0, _⟩ => show win5_3.index t (0 : Fin 2) * 512 + 1 * p.val = s.val; omega
  | ⟨1, _⟩ => show win5_3.index t (1 : Fin 2) * 512 + 1 * q.val = o.val; omega

/-- What point `t` writes back is tile `t` of `G5`. -/
theorem flushed5_eq (c : Dev nD) (t : Fin cfg5.N) :
    (dat5 (F := Ideal) V c).flushed 3 t = ((cfg5.win 3).blk t).view.read (Elt Ideal) (G5 V c) := by
  show (cfg5.win 3).cut (grid5.coords t) ((dat5 V c).after 3 t) = _
  rw [after5_3]
  unfold out5_3
  rw [View.canon_unit_zero hz]
  simp only [View.ld_unit_zero (S := S512x2048) hz, View.ld_unit_zero (S := S1x2048) hz]
  refine funext fun (j : S512x512.Idx) => ?_
  obtain ⟨p, q, rfl⟩ : ∃ (p : Fin 512) (q : Fin 512), j = ix2 p q := ⟨j 0, j 1, eq_ix2 j⟩
  show k5_pay1 (F := Ideal) (iblk5 V c 0 t) (iblk5 V c 1 t) (iblk5 V c 2 t) (ix2 p q) = G5 V c (((cfg5.win 3).blk t).view.emb (ix2 p q))
  rw [pay5_apply]
  obtain ⟨-, -, -, -, -, -, br, bc⟩ := idx_facts5 t
  have hp : p.val < 512 := p.isLt
  have hq : q.val < 512 := q.isLt
  rw [emb5_3 t p q ⟨win5_3.index t (0 : Fin 2) * 512 + p.val, by omega⟩ ⟨win5_3.index t (1 : Fin 2) * 512 + q.val, by omega⟩ rfl rfl]
  simp only [iblk5_0_apply V c t p ⟨win5_3.index t (0 : Fin 2) * 512 + p.val, by omega⟩ rfl, iblk5_1_apply V c t,
    iblk5_2_apply V c t q ⟨win5_3.index t (1 : Fin 2) * 512 + q.val, by omega⟩ rfl]
  rfl

/-- An index of the array is in point `t`'s tile iff each coordinate is in the tile's range on its axis. -/
theorem mem_blk5 (t : Fin cfg5.N) (i : S1024x3072.Idx) :
    i ∈ ((cfg5.win 3).blk t).view.set ↔ ∀ a : Fin 2, win5_3.index t a * S512x512.size a ≤ (i a).val ∧ (i a).val < win5_3.index t a * S512x512.size a + S512x512.size a := by
  show i ∈ ((View.whole (Pipeline.arrRef spec5 3)).slice (win5_3.rect t)).set ↔ _
  rw [View.set_slice_whole, Rect.mem_set_unit]
  exact Iff.rfl

/-- The tiles cover the array: entry `(r, k)` lies in the tile `(r / 512, k / 512)`. -/
theorem cover5 (i : S1024x3072.Idx) : ∃ t : Fin cfg5.N, (cfg5.win 3).flush t = true ∧ i ∈ ((cfg5.win 3).blk t).view.set := by
  have hr : (i 0).val < 1024 := (i 0).isLt
  have hk : (i 1).val < 3072 := (i 1).isLt
  obtain ⟨t, ht⟩ := idx_onto5 ⟨(i 0).val / 512, by omega⟩ ⟨(i 1).val / 512, by omega⟩
  have er : win5_3.index t (0 : Fin 2) = (i 0).val / 512 := congrFun ht 0
  have ek : win5_3.index t (1 : Fin 2) = (i 1).val / 512 := congrFun ht 1
  refine ⟨t, flush5_3 t, ?_⟩
  rw [mem_blk5]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 512 ≤ (i 1).val ∧ (i 1).val < win5_3.index t (1 : Fin 2) * 512 + 512; omega

end Final5

open Final5 in
/-- The call's output array after its last grid point is the projection of the normalised activations. -/
theorem final5 (c : Dev nD) (s : Fin 1024) (o : Fin 3072) :
    ((dat5 (F := Ideal) V c).arrAt 3 cfg5.N : Vec Ideal S1024x3072 .f32) (ix2 s o)
      = Cert.Spec.proj (Cert.Spec.rms (fun s h => (V c (Pipeline.arrRef spec5 0) : Vec Ideal S1024x2048 .f32) (ix2 s h))
          (fun h => (V c (Pipeline.arrRef spec5 1) : Vec Ideal S1x2048 .f32) (ix2 0 h)))
        (fun o h => (V c (Pipeline.arrRef spec5 2) : Vec Ideal S3072x2048 .bf16) (ix2 o h)) s o :=
  congrFun ((dat5 (F := Ideal) V c).arrAt_eq_of_cover 3 (G5 V c) (fun t _ => flushed5_eq V c t) cover5) (ix2 s o)

end Cert.KV

end
-- ==== Proof.Val.Pay6.lean ====
/-
  The second layer's rotary kernel at an index.  Its text is the first layer's again, so its stored block reads the
  same: `k s d * cos s d + rot (k s) d * sin s d`.
-/
import proofs.«167047_j26895085207995_2_alg».proof.Proof.Val.Pay1

noncomputable section

open Idealize.ShloMosaic Idealize.ShloMosaic.TcCoe Idealize.ShloMosaic.ValueIdx

namespace Cert.KV

/-- The second layer's rotary kernel's stored block at `(0, s, d)`. -/
theorem pay6_apply (k : Vec Ideal Cert.KernelIdeal.S1x1024x64 .f32) (cos sin : Vec Ideal Cert.KernelIdeal.S1024x64 .f32)
    (s : Fin 1024) (d : Fin 64) :
    Cert.KernelIdeal.Gen.k6_pay1 (F := Ideal) k cos sin (ix3 0 s d)
      = k (ix3 0 s d) * cos (ix2 s d) + Cert.Spec.rot (fun d' => k (ix3 0 s d')) d * sin (ix2 s d) :=
  pay1_apply k cos sin s d

end Cert.KV

end
-- ==== Proof.Val.Final6.lean ====
/-
  From blocks to the whole array, for the rotary-embedding call on the keys.  The call walks the eight key heads; at
  head `t` it writes back, as block `t` of the `[8, 1024, 64]` result, the rotation of block `t` of the key array by
  the two tables.  Every block is the restriction of ONE function of the three arrays the call found — the rotary
  embedding of every head at every position — and the eight blocks tile the result, so after the last head the
  result array holds that function.
-/
import proofs.«167047_j26895085207995_2_alg».proof.Proof.Spec
import proofs.«167047_j26895085207995_2_alg».proof.Proof.KI.Reg6
import proofs.«167047_j26895085207995_2_alg».proof.Proof.Val.Pay6
import Idealize.ShloMosaic.Lib.ValueIdx
import Idealize.ShloMosaic.Lib.Pipeline.Value
import Idealize.ShloMosaic.Lib.ValueLayout

noncomputable section

open Idealize.ShloMosaic Idealize.ShloMosaic.TcCoe Idealize.ShloMosaic.ValueIdx
open Idealize.ShloMosaic.Pipeline (Dat)

namespace Cert.KV

open Cert.KernelIdeal Cert.KernelIdeal.Gen

-- the TensorCore's buffer contents when the call is entered
variable (V : (c : Dev nD) → (b : Ref sig .tc) → Buf (Elt Ideal) ((c : Thread nD τ).loc b))

/-- The zero offsets of a whole-buffer access, rank 3 and rank 2. -/
theorem zeros6_3 : (![0, 0, 0] : Fin 3 → Nat) = fun _ => 0 := funext fun a => by fin_cases a <;> rfl
theorem zeros6_2 : (![0, 0] : Fin 2 → Nat) = fun _ => 0 := funext fun a => by fin_cases a <;> rfl

/-- The rotary embedding of every head of a key array at every position, as an array again. -/
def ropeArr6 (a0 : Vec Ideal S8x1024x64 .f32) (a1 a2 : Vec Ideal S1024x64 .f32) : Vec Ideal S8x1024x64 .f32 :=
  fun i => Cert.Spec.rope (n := 8) (fun kv s d => a0 (ix3 kv s d)) (fun s d => a1 (ix2 s d)) (fun s d => a2 (ix2 s d))
    (i 0) (i 1) (i 2)

/-- The printed index maps, decided over the grid: the key and result windows sit at head `t`, the tables never move. -/
theorem idx_facts6 : ∀ t : Fin cfg6.N,
    win6_0.index t (0 : Fin 3) = t.val ∧ win6_0.index t (1 : Fin 3) = 0 ∧ win6_0.index t (2 : Fin 3) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 3) = t.val ∧ win6_3.index t (1 : Fin 3) = 0 ∧ win6_3.index t (2 : Fin 3) = 0 :=
  (by decide +kernel : ∀ t : Fin grid6.N, _)

/-- The call has eight points, one per key head. -/
theorem points6 : cfg6.N = 8 := by decide

/-- A head's number as a coordinate of the key array. -/
abbrev headOf6 (t : Fin cfg6.N) : Fin 8 := ⟨t.val, Nat.lt_of_lt_of_eq t.isLt points6⟩

/-- The key window's block at head `t`, at position `s` and lane `d`, is the key array at `(t, s, d)`. -/
theorem keyBlock6_apply (c : Dev nD) (t : Fin cfg6.N) (u : Fin 1) (s : Fin 1024) (d : Fin 64) :
    (iblk6 V c 0 t : Vec Ideal S1x1024x64 .f32) (ix3 u s d)
      = (V c (Pipeline.arrRef spec6 0) : Vec Ideal S8x1024x64 .f32) (ix3 (headOf6 t) s d) := by
  obtain ⟨e0, e1, e2, -⟩ := idx_facts6 t
  unfold iblk6
  rw [View.read_apply]
  show (V c (Pipeline.arrRef spec6 0) : Vec Ideal S8x1024x64 .f32) _ = _
  congr 1
  funext a; apply Fin.ext
  match a with
  | ⟨0, _⟩ => show win6_0.index t (0 : Fin 3) * 1 + 1 * u.val = t.val; omega
  | ⟨1, _⟩ => show win6_0.index t (1 : Fin 3) * 1024 + 1 * s.val = s.val; omega
  | ⟨2, _⟩ => show win6_0.index t (2 : Fin 3) * 64 + 1 * d.val = d.val; omega

/-- The cosine window's block is the whole cosine table at every head. -/
theorem cosBlock6_apply (c : Dev nD) (t : Fin cfg6.N) (s : Fin 1024) (d : Fin 64) :
    (iblk6 V c 1 t : Vec Ideal S1024x64 .f32) (ix2 s d)
      = (V c (Pipeline.arrRef spec6 1) : Vec Ideal S1024x64 .f32) (ix2 s d) := by
  obtain ⟨-, -, -, e0, e1, -⟩ := idx_facts6 t
  unfold iblk6
  rw [View.read_apply]
  show (V c (Pipeline.arrRef spec6 1) : Vec Ideal S1024x64 .f32) _ = _
  congr 1
  funext a; apply Fin.ext
  match a with
  | ⟨0, _⟩ => show win6_1.index t (0 : Fin 2) * 1024 + 1 * s.val = s.val; omega
  | ⟨1, _⟩ => show win6_1.index t (1 : Fin 2) * 64 + 1 * d.val = d.val; omega

/-- The sine window's block is the whole sine table at every head. -/
theorem sinBlock6_apply (c : Dev nD) (t : Fin cfg6.N) (s : Fin 1024) (d : Fin 64) :
    (iblk6 V c 2 t : Vec Ideal S1024x64 .f32) (ix2 s d)
      = (V c (Pipeline.arrRef spec6 2) : Vec Ideal S1024x64 .f32) (ix2 s d) := by
  obtain ⟨-, -, -, -, -, e0, e1, -⟩ := idx_facts6 t
  unfold iblk6
  rw [View.read_apply]
  show (V c (Pipeline.arrRef spec6 2) : Vec Ideal S1024x64 .f32) _ = _
  congr 1
  funext a; apply Fin.ext
  match a with
  | ⟨0, _⟩ => show win6_2.index t (0 : Fin 2) * 1024 + 1 * s.val = s.val; omega
  | ⟨1, _⟩ => show win6_2.index t (1 : Fin 2) * 64 + 1 * d.val = d.val; omega

/-- WHAT HEAD `t` WRITES BACK is block `t` of the rotary embedding of the arrays as the call finds them. -/
theorem flushed6_eq (c : Dev nD) (t : Fin cfg6.N) :
    (dat6 (F := Ideal) V c).flushed 3 t = ((cfg6.win 3).blk t).view.read (Elt Ideal)
      (ropeArr6 (V c (Pipeline.arrRef spec6 0)) (V c (Pipeline.arrRef spec6 1)) (V c (Pipeline.arrRef spec6 2))) := by
  show (cfg6.win 3).cut (grid6.coords t) ((dat6 (F := Ideal) V c).after 3 t) = _
  rw [after6_3]
  unfold out6_3
  rw [View.canon_unit_zero zeros6_3]
  simp only [View.ld_unit_zero (S := S1x1024x64) zeros6_3, View.ld_unit_zero (S := S1024x64) zeros6_2]
  funext j
  revert j
  show ∀ j : S1x1024x64.Idx, k6_pay1 (F := Ideal) (iblk6 V c 0 t) (iblk6 V c 1 t) (iblk6 V c 2 t) j
      = ropeArr6 (V c (Pipeline.arrRef spec6 0)) (V c (Pipeline.arrRef spec6 1)) (V c (Pipeline.arrRef spec6 2))
          (((cfg6.win 3).blk t).view.emb j)
  intro j
  obtain ⟨u, s, d, rfl⟩ : ∃ (u : Fin 1) (s : Fin 1024) (d : Fin 64), j = ix3 u s d := ⟨j 0, j 1, j 2, eq_ix3 j⟩
  obtain rfl : u = 0 := Subsingleton.elim _ _
  obtain ⟨-, -, -, -, -, -, -, e0, e1, e2⟩ := idx_facts6 t
  have hemb : ((cfg6.win 3).blk t).view.emb (ix3 (0 : Fin 1) s d) = (ix3 (headOf6 t) s d : S8x1024x64.Idx) := by
    funext a; apply Fin.ext
    match a with
    | ⟨0, _⟩ => show win6_3.index t (0 : Fin 3) * 1 + 1 * 0 = t.val; omega
    | ⟨1, _⟩ => show win6_3.index t (1 : Fin 3) * 1024 + 1 * s.val = s.val; omega
    | ⟨2, _⟩ => show win6_3.index t (2 : Fin 3) * 64 + 1 * d.val = d.val; omega
  rw [hemb, pay6_apply]
  simp only [keyBlock6_apply, cosBlock6_apply, sinBlock6_apply]
  rfl

/-- An index of the result array is in head `t`'s block iff each coordinate is in the block's range on its axis. -/
theorem mem_blk6 (t : Fin cfg6.N) (i : S8x1024x64.Idx) :
    i ∈ ((cfg6.win 3).blk t).view.set ↔ ∀ a : Fin 3, win6_3.index t a * S1x1024x64.size a ≤ (i a).val ∧ (i a).val < win6_3.index t a * S1x1024x64.size a + S1x1024x64.size a := by
  show i ∈ ((View.whole (Pipeline.arrRef spec6 3)).slice (win6_3.rect t)).set ↔ _
  rw [View.set_slice_whole, Rect.mem_set_unit]
  exact Iff.rfl

/-- The eight blocks tile the result: index `(kv, s, d)` lies in head `kv`'s block. -/
theorem cover6 (i : S8x1024x64.Idx) :
    ∃ t : Fin cfg6.N, (cfg6.win 3).flush t = true ∧ i ∈ ((cfg6.win 3).blk t).view.set := by
  have h0 : (i 0).val < 8 := (i 0).isLt
  have h1 : (i 1).val < 1024 := (i 1).isLt
  have h2 : (i 2).val < 64 := (i 2).isLt
  let t : Fin cfg6.N := ⟨(i 0).val, Nat.lt_of_lt_of_eq h0 points6.symm⟩
  obtain ⟨-, -, -, -, -, -, -, e0, e1, e2⟩ := idx_facts6 t
  refine ⟨t, flush6_3 t, ?_⟩
  rw [mem_blk6]
  intro a
  match a with
  | ⟨0, _⟩ => show win6_3.index t (0 : Fin 3) * 1 ≤ (i 0).val ∧ (i 0).val < win6_3.index t (0 : Fin 3) * 1 + 1; rw [e0]; show (i 0).val * 1 ≤ (i 0).val ∧ (i 0).val < (i 0).val * 1 + 1; omega
  | ⟨1, _⟩ => show win6_3.index t (1 : Fin 3) * 1024 ≤ (i 1).val ∧ (i 1).val < win6_3.index t (1 : Fin 3) * 1024 + 1024; omega
  | ⟨2, _⟩ => show win6_3.index t (2 : Fin 3) * 64 ≤ (i 2).val ∧ (i 2).val < win6_3.index t (2 : Fin 3) * 64 + 64; omega

theorem final6 (c : Dev nD) (kv : Fin 8) (s : Fin 1024) (d : Fin 64) :
    ((dat6 (F := Ideal) V c).arrAt 3 cfg6.N : Vec Ideal S8x1024x64 .f32) (ix3 kv s d)
      = Cert.Spec.rope (n := 8) (fun kv s d => (V c (Pipeline.arrRef spec6 0) : Vec Ideal S8x1024x64 .f32) (ix3 kv s d))
          (fun s d => (V c (Pipeline.arrRef spec6 1) : Vec Ideal S1024x64 .f32) (ix2 s d))
          (fun s d => (V c (Pipeline.arrRef spec6 2) : Vec Ideal S1024x64 .f32) (ix2 s d)) kv s d := by
  have h := (dat6 (F := Ideal) V c).arrAt_eq_of_cover 3
    (ropeArr6 (V c (Pipeline.arrRef spec6 0)) (V c (Pipeline.arrRef spec6 1)) (V c (Pipeline.arrRef spec6 2)))
    (fun t _ => flushed6_eq V c t) cover6
  rw [h]
  rfl

end Cert.KV

end
-- ==== Proof.Val.Pay7.lean ====
/-
  The second layer's attention kernel stores the same product as the first layer's: its three payloads are the first
  layer's under other names, term for term, so its stored block at (0, s, d) is the same attention sum of its six blocks.
-/
import proofs.«167047_j26895085207995_2_alg».proof.Proof.Spec
import proofs.«167047_j26895085207995_2_alg».proof.Proof.Gen.KernelIdeal.Skeleton
import proofs.«167047_j26895085207995_2_alg».proof.Proof.Val.Pay2
import Idealize.ShloMosaic.Lib.ValueIdx

noncomputable section

open scoped BigOperators
open Idealize.ShloMosaic Idealize.ShloMosaic.TcCoe Idealize.ShloMosaic.ValueIdx
open Cert.KernelIdeal

namespace Cert.KV

private theorem k7_pay1_eq : Gen.k7_pay1 (F := Ideal) = Gen.k2_pay1 := rfl
private theorem k7_pay2_eq : Gen.k7_pay2 (F := Ideal) = Gen.k2_pay2 := rfl
private theorem k7_pay3_eq : Gen.k7_pay3 (F := Ideal) = Gen.k2_pay3 := rfl

/-- The second layer's attention output block at `(0, s, d)`: the softmax weights of row `s` (rotated queries against
    the keys, an eighth of the inner product plus the mask) times lane `d` of the values, summed over the key positions. -/
theorem pay7_apply (q k v : Vec Ideal S1x1024x64 .f32) (cos sin : Vec Ideal S1024x64 .f32) (mask : Vec Ideal S1024x1024 .f32)
    (s : Fin 1024) (d : Fin 64) :
    Gen.k7_pay1 (Gen.k7_pay2 v) (Gen.k7_pay3 q k cos sin mask) (constant (F := Ideal) S1024x64 .f32 0x00000000#32) (ix3 0 s d)
      = ∑ t : Fin 1024, Cert.Spec.softmax (Cert.Spec.scores
          (fun s' d' => q (ix3 0 s' d') * cos (ix2 s' d') + Cert.Spec.rot (fun e => q (ix3 0 s' e)) d' * sin (ix2 s' d'))
          (fun t' d' => k (ix3 0 t' d')) (fun s' t' => mask (ix2 s' t')) s) t * v (ix3 0 t d) := by
  rw [k7_pay1_eq, k7_pay2_eq, k7_pay3_eq]
  exact pay2_apply q k v cos sin mask s d

end Cert.KV

end
-- ==== Proof.Val.Final7.lean ====
/-
  From blocks to the whole array, for the attention call.  The call walks the thirty-two query heads; at head `t` it
  reads block `t` of the queries, block `t / 4` of the keys and of the values (four query heads share one key/value
  head), the two rotary tables and the mask whole, and writes back, as block `t` of the `[32, 1024, 64]` result, the
  softmax weights of the rotated queries against the keys times the values.  Every block written is the restriction of
  ONE function of the six arrays the call found, the grouped-query attention of the rotated queries, and the
  thirty-two blocks tile the result, so after the last head the result array holds that function.
-/
import proofs.«167047_j26895085207995_2_alg».proof.Proof.Spec
import proofs.«167047_j26895085207995_2_alg».proof.Proof.KI.Reg7
import proofs.«167047_j26895085207995_2_alg».proof.Proof.Val.Pay7
import Idealize.ShloMosaic.Lib.ValueIdx
import Idealize.ShloMosaic.Lib.Pipeline.Value
import Idealize.ShloMosaic.Lib.ValueLayout

noncomputable section

open scoped BigOperators
open Idealize.ShloMosaic Idealize.ShloMosaic.TcCoe Idealize.ShloMosaic.ValueIdx
open Idealize.ShloMosaic.Pipeline (Dat)

namespace Cert.KV

open Cert.KernelIdeal Cert.KernelIdeal.Gen

-- the TensorCore's buffer contents when the call is entered
variable (V : (c : Dev nD) → (b : Ref sig .tc) → Buf (Elt Ideal) ((c : Thread nD τ).loc b))

private theorem offZeroThree : (![0, 0, 0] : Fin 3 → Nat) = fun _ => 0 := funext fun a => by fin_cases a <;> rfl
private theorem offZeroTwo : (![0, 0] : Fin 2 → Nat) = fun _ => 0 := funext fun a => by fin_cases a <;> rfl

/-- Grouped-query attention of the rotated query heads against the key and value heads, as an array again. -/
def attnArr7 (a0 : Vec Ideal S32x1024x64 .f32) (a1 a2 : Vec Ideal S8x1024x64 .f32) (a3 a4 : Vec Ideal S1024x64 .f32)
    (a5 : Vec Ideal S1024x1024 .f32) : Vec Ideal S32x1024x64 .f32 :=
  fun i => Cert.Spec.attn
    (Cert.Spec.rope (n := 32) (fun hd s d => a0 (ix3 hd s d)) (fun s d => a3 (ix2 s d)) (fun s d => a4 (ix2 s d)))
    (fun kv s d => a1 (ix3 kv s d)) (fun kv s d => a2 (ix3 kv s d)) (fun s t => a5 (ix2 s t)) (i 0) (i 1) (i 2)

/-- The six arrays the call finds, each at its literal type. -/
abbrev arr7_0 (c : Dev nD) : Vec Ideal S32x1024x64 .f32 := V c (Pipeline.arrRef spec7 0)
abbrev arr7_1 (c : Dev nD) : Vec Ideal S8x1024x64 .f32 := V c (Pipeline.arrRef spec7 1)
abbrev arr7_2 (c : Dev nD) : Vec Ideal S8x1024x64 .f32 := V c (Pipeline.arrRef spec7 2)
abbrev arr7_3 (c : Dev nD) : Vec Ideal S1024x64 .f32 := V c (Pipeline.arrRef spec7 3)
abbrev arr7_4 (c : Dev nD) : Vec Ideal S1024x64 .f32 := V c (Pipeline.arrRef spec7 4)
abbrev arr7_5 (c : Dev nD) : Vec Ideal S1024x1024 .f32 := V c (Pipeline.arrRef spec7 5)

/-- The printed index maps, decided over the grid: the query and result windows sit at head `t`, the key and value
    windows at head `t / 4`, the tables and the mask never move. -/
private theorem idx_facts7 : ∀ t : Fin cfg7.N,
    win7_0.index t (0 : Fin 3) = t.val ∧ win7_0.index t (1 : Fin 3) = 0 ∧ win7_0.index t (2 : Fin 3) = 0
    ∧ win7_1.index t (0 : Fin 3) = t.val / 4 ∧ win7_1.index t (1 : Fin 3) = 0 ∧ win7_1.index t (2 : Fin 3) = 0
    ∧ win7_2.index t (0 : Fin 3) = t.val / 4 ∧ win7_2.index t (1 : Fin 3) = 0 ∧ win7_2.index t (2 : Fin 3) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 3) = t.val ∧ win7_6.index t (1 : Fin 3) = 0 ∧ win7_6.index t (2 : Fin 3) = 0 :=
  (by decide +kernel : ∀ t : Fin grid7.N, _)

/-- The call has thirty-two grid points, one per query head. -/
private theorem points7 : cfg7.N = 32 := by decide

private theorem lt7 (t : Fin cfg7.N) : t.val < 32 := lt_of_lt_of_eq t.isLt points7

/-- The query block at head `t` is head `t` of the query array. -/
private theorem blk7_0_apply (c : Dev nD) (t : Fin cfg7.N) (s : Fin 1024) (d : Fin 64) :
    (iblk7 V c 0 t : Vec Ideal S1x1024x64 .f32) (ix3 0 s d)
      = arr7_0 V c (ix3 ⟨t.val, lt7 t⟩ s d) := by
  obtain ⟨e0, e1, e2, -⟩ := idx_facts7 t
  unfold iblk7
  rw [View.read_apply]
  show arr7_0 V c (((cfg7.win 0).blk t).view.emb (ix3 0 s d)) = _
  refine congrArg _ (funext fun a => Fin.ext ?_)
  match a with
  | ⟨0, _⟩ => show win7_0.index t (0 : Fin 3) * 1 + 1 * 0 = t.val; omega
  | ⟨1, _⟩ => show win7_0.index t (1 : Fin 3) * 1024 + 1 * s.val = s.val; omega
  | ⟨2, _⟩ => show win7_0.index t (2 : Fin 3) * 64 + 1 * d.val = d.val; omega

/-- The key block at head `t` is key head `t / 4`. -/
private theorem blk7_1_apply (c : Dev nD) (t : Fin cfg7.N) (s : Fin 1024) (d : Fin 64) :
    (iblk7 V c 1 t : Vec Ideal S1x1024x64 .f32) (ix3 0 s d)
      = arr7_1 V c (ix3 ⟨t.val / 4, by have := lt7 t; omega⟩ s d) := by
  obtain ⟨-, -, -, e0, e1, e2, -⟩ := idx_facts7 t
  unfold iblk7
  rw [View.read_apply]
  show arr7_1 V c (((cfg7.win 1).blk t).view.emb (ix3 0 s d)) = _
  refine congrArg _ (funext fun a => Fin.ext ?_)
  match a with
  | ⟨0, _⟩ => show win7_1.index t (0 : Fin 3) * 1 + 1 * 0 = t.val / 4; omega
  | ⟨1, _⟩ => show win7_1.index t (1 : Fin 3) * 1024 + 1 * s.val = s.val; omega
  | ⟨2, _⟩ => show win7_1.index t (2 : Fin 3) * 64 + 1 * d.val = d.val; omega

/-- The value block at head `t` is value head `t / 4`. -/
private theorem blk7_2_apply (c : Dev nD) (t : Fin cfg7.N) (s : Fin 1024) (d : Fin 64) :
    (iblk7 V c 2 t : Vec Ideal S1x1024x64 .f32) (ix3 0 s d)
      = arr7_2 V c (ix3 ⟨t.val / 4, by have := lt7 t; omega⟩ s d) := by
  obtain ⟨-, -, -, -, -, -, e0, e1, e2, -⟩ := idx_facts7 t
  unfold iblk7
  rw [View.read_apply]
  show arr7_2 V c (((cfg7.win 2).blk t).view.emb (ix3 0 s d)) = _
  refine congrArg _ (funext fun a => Fin.ext ?_)
  match a with
  | ⟨0, _⟩ => show win7_2.index t (0 : Fin 3) * 1 + 1 * 0 = t.val / 4; omega
  | ⟨1, _⟩ => show win7_2.index t (1 : Fin 3) * 1024 + 1 * s.val = s.val; omega
  | ⟨2, _⟩ => show win7_2.index t (2 : Fin 3) * 64 + 1 * d.val = d.val; omega

/-- The cosine table's block is the whole table at every head. -/
private theorem blk7_3_apply (c : Dev nD) (t : Fin cfg7.N) (s : Fin 1024) (d : Fin 64) :
    (iblk7 V c 3 t : Vec Ideal S1024x64 .f32) (ix2 s d) = arr7_3 V c (ix2 s d) := by
  obtain ⟨-, -, -, -, -, -, -, -, -, e0, e1, -⟩ := idx_facts7 t
  unfold iblk7
  rw [View.read_apply]
  show arr7_3 V c (((cfg7.win 3).blk t).view.emb (ix2 s d)) = _
  refine congrArg _ (funext fun a => Fin.ext ?_)
  match a with
  | ⟨0, _⟩ => show win7_3.index t (0 : Fin 2) * 1024 + 1 * s.val = s.val; omega
  | ⟨1, _⟩ => show win7_3.index t (1 : Fin 2) * 64 + 1 * d.val = d.val; omega

/-- The sine table's block is the whole table at every head. -/
private theorem blk7_4_apply (c : Dev nD) (t : Fin cfg7.N) (s : Fin 1024) (d : Fin 64) :
    (iblk7 V c 4 t : Vec Ideal S1024x64 .f32) (ix2 s d) = arr7_4 V c (ix2 s d) := by
  obtain ⟨-, -, -, -, -, -, -, -, -, -, -, e0, e1, -⟩ := idx_facts7 t
  unfold iblk7
  rw [View.read_apply]
  show arr7_4 V c (((cfg7.win 4).blk t).view.emb (ix2 s d)) = _
  refine congrArg _ (funext fun a => Fin.ext ?_)
  match a with
  | ⟨0, _⟩ => show win7_4.index t (0 : Fin 2) * 1024 + 1 * s.val = s.val; omega
  | ⟨1, _⟩ => show win7_4.index t (1 : Fin 2) * 64 + 1 * d.val = d.val; omega

/-- The mask's block is the whole mask at every head. -/
private theorem blk7_5_apply (c : Dev nD) (t : Fin cfg7.N) (s u : Fin 1024) :
    (iblk7 V c 5 t : Vec Ideal S1024x1024 .f32) (ix2 s u) = arr7_5 V c (ix2 s u) := by
  obtain ⟨-, -, -, -, -, -, -, -, -, -, -, -, -, e0, e1, -⟩ := idx_facts7 t
  unfold iblk7
  rw [View.read_apply]
  show arr7_5 V c (((cfg7.win 5).blk t).view.emb (ix2 s u)) = _
  refine congrArg _ (funext fun a => Fin.ext ?_)
  match a with
  | ⟨0, _⟩ => show win7_5.index t (0 : Fin 2) * 1024 + 1 * s.val = s.val; omega
  | ⟨1, _⟩ => show win7_5.index t (1 : Fin 2) * 1024 + 1 * u.val = u.val; omega

/-- Block `t` of an array of the result's shape, read back at `(0, s, d)`, is the array at `(t, s, d)`. -/
private theorem read7_6 (t : Fin cfg7.N) (G : Vec Ideal S32x1024x64 .f32) (s : Fin 1024) (d : Fin 64) :
    ((cfg7.win 6).blk t).view.read (Elt Ideal) G (ix3 0 s d) = G (ix3 ⟨t.val, lt7 t⟩ s d) := by
  obtain ⟨-, -, -, -, -, -, -, -, -, -, -, -, -, -, -, e0, e1, e2⟩ := idx_facts7 t
  rw [View.read_apply]
  show G (((cfg7.win 6).blk t).view.emb (ix3 0 s d)) = _
  refine congrArg G (funext fun a => Fin.ext ?_)
  match a with
  | ⟨0, _⟩ => show win7_6.index t (0 : Fin 3) * 1 + 1 * 0 = t.val; omega
  | ⟨1, _⟩ => show win7_6.index t (1 : Fin 3) * 1024 + 1 * s.val = s.val; omega
  | ⟨2, _⟩ => show win7_6.index t (2 : Fin 3) * 64 + 1 * d.val = d.val; omega

private theorem mul_congr_both {a a' b b' : EReal} (h1 : a = a') (h2 : b = b') : a * b = a' * b' := by rw [h1, h2]

/-- The logits depend on their three arguments entry by entry. -/
private theorem scores_congr_pt (A A' B B' : Fin 1024 → Fin 64 → EReal) (C C' : Fin 1024 → Fin 1024 → EReal)
    (hA : ∀ s d, A s d = A' s d) (hB : ∀ t d, B t d = B' t d) (hC : ∀ s t, C s t = C' s t) (s t : Fin 1024) :
    Cert.Spec.scores A B C s t = Cert.Spec.scores A' B' C' s t := by
  rw [show A = A' from funext fun a => funext (hA a), show B = B' from funext fun a => funext (hB a),
    show C = C' from funext fun a => funext (hC a)]

/-- WHAT HEAD `t` WRITES BACK is block `t` of the attention array of the six arrays the call found. -/
private theorem flushed7_eq (c : Dev nD) (t : Fin cfg7.N) :
    (dat7 (F := Ideal) V c).flushed 6 t = ((cfg7.win 6).blk t).view.read (Elt Ideal)
      (attnArr7 (arr7_0 V c) (arr7_1 V c) (arr7_2 V c) (arr7_3 V c) (arr7_4 V c) (arr7_5 V c)) := by
  show (cfg7.win 6).cut (grid7.coords t) ((dat7 V c).after 6 t) = _
  rw [after7_6]
  unfold out7_6
  rw [View.canon_unit_zero offZeroThree]
  simp only [View.ld_unit_zero (S := S1x1024x64) offZeroThree, View.ld_unit_zero (S := S1024x64) offZeroTwo,
    View.ld_unit_zero (S := S1024x1024) offZeroTwo]
  funext j
  obtain ⟨u, s, d, rfl⟩ : ∃ (u : Fin 1) (s : Fin 1024) (d : Fin 64), j = ix3 u s d := ⟨j 0, j 1, j 2, eq_ix3 j⟩
  obtain rfl : u = 0 := Subsingleton.elim _ _
  refine Eq.trans ?_ (read7_6 t _ s d).symm
  show k7_pay1 (k7_pay2 (iblk7 V c 2 t)) (k7_pay3 (iblk7 V c 0 t) (iblk7 V c 1 t) (iblk7 V c 3 t) (iblk7 V c 4 t) (iblk7 V c 5 t))
      (constant (F := Ideal) S1024x64 .f32 0x00000000#32) (ix3 0 s d)
    = Cert.Spec.attn
        (Cert.Spec.rope (n := 32) (fun hd s d => arr7_0 V c (ix3 hd s d)) (fun s d => arr7_3 V c (ix2 s d)) (fun s d => arr7_4 V c (ix2 s d)))
        (fun kv s d => arr7_1 V c (ix3 kv s d)) (fun kv s d => arr7_2 V c (ix3 kv s d)) (fun s u => arr7_5 V c (ix2 s u))
        (⟨t.val, lt7 t⟩ : Fin 32) s d
  refine (pay7_apply _ _ _ _ _ _ s d).trans ?_
  unfold Cert.Spec.attn
  refine Finset.sum_congr rfl fun t' _ => ?_
  refine mul_congr_both (congrArg (fun z => Cert.Spec.softmax z t') (funext fun t'' => ?_)) (blk7_2_apply V c t t' d)
  refine scores_congr_pt _ _ _ _ _ _ (fun s' d' => ?_) (fun u d' => ?_) (fun s' u => ?_) s t''
  · beta_reduce
    rw [blk7_0_apply V c t s' d', blk7_3_apply V c t s' d', blk7_4_apply V c t s' d']
    simp only [blk7_0_apply V c t]
    rfl
  · exact blk7_1_apply V c t u d'
  · exact blk7_5_apply V c t s' u

/-- An index of the result array is in head `t`'s block iff each coordinate is in the block's range on its axis. -/
private theorem mem_blk7_6 (t : Fin cfg7.N) (i : S32x1024x64.Idx) :
    i ∈ ((cfg7.win 6).blk t).view.set ↔ ∀ a : Fin 3, win7_6.index t a * S1x1024x64.size a ≤ (i a).val
      ∧ (i a).val < win7_6.index t a * S1x1024x64.size a + S1x1024x64.size a := by
  show i ∈ ((View.whole (Pipeline.arrRef spec7 6)).slice (win7_6.rect t)).set ↔ _
  rw [View.set_slice_whole, Rect.mem_set_unit]
  exact Iff.rfl

/-- Every index of the result array is in the block of the head its first coordinate names. -/
private theorem covered7_6 (i : S32x1024x64.Idx) :
    ∃ t : Fin cfg7.N, (cfg7.win 6).flush t = true ∧ i ∈ ((cfg7.win 6).blk t).view.set := by
  have h0 : (i 0).val < 32 := (i 0).isLt
  have h1 : (i 1).val < 1024 := (i 1).isLt
  have h2 : (i 2).val < 64 := (i 2).isLt
  obtain ⟨t, ht⟩ : ∃ t : Fin cfg7.N, t.val = (i 0).val := ⟨⟨(i 0).val, lt_of_lt_of_eq h0 points7.symm⟩, rfl⟩
  obtain ⟨-, -, -, -, -, -, -, -, -, -, -, -, -, -, -, e0, e1, e2⟩ := idx_facts7 t
  refine ⟨t, flush7_6 t, ?_⟩
  rw [mem_blk7_6]
  intro a
  match a with
  | ⟨0, _⟩ => show win7_6.index t (0 : Fin 3) * 1 ≤ (i 0).val ∧ (i 0).val < win7_6.index t (0 : Fin 3) * 1 + 1; omega
  | ⟨1, _⟩ => show win7_6.index t (1 : Fin 3) * 1024 ≤ (i 1).val ∧ (i 1).val < win7_6.index t (1 : Fin 3) * 1024 + 1024; omega
  | ⟨2, _⟩ => show win7_6.index t (2 : Fin 3) * 64 ≤ (i 2).val ∧ (i 2).val < win7_6.index t (2 : Fin 3) * 64 + 64; omega

/-- After the last head the result array holds the attention array of the six arrays the call found. -/
theorem final7_arr (c : Dev nD) : (dat7 (F := Ideal) V c).arrAt 6 cfg7.N
    = attnArr7 (arr7_0 V c) (arr7_1 V c) (arr7_2 V c) (arr7_3 V c) (arr7_4 V c) (arr7_5 V c) :=
  (dat7 V c).arrAt_eq_of_cover 6 _ (fun t _ => flushed7_eq V c t) covered7_6

theorem final7 (c : Dev nD) (hd : Fin 32) (s : Fin 1024) (d : Fin 64) :
    ((dat7 (F := Ideal) V c).arrAt 6 cfg7.N : Vec Ideal S32x1024x64 .f32) (ix3 hd s d)
      = Cert.Spec.attn
          (Cert.Spec.rope (n := 32) (fun hd s d => (V c (Pipeline.arrRef spec7 0) : Vec Ideal S32x1024x64 .f32) (ix3 hd s d))
            (fun s d => (V c (Pipeline.arrRef spec7 3) : Vec Ideal S1024x64 .f32) (ix2 s d))
            (fun s d => (V c (Pipeline.arrRef spec7 4) : Vec Ideal S1024x64 .f32) (ix2 s d)))
          (fun kv s d => (V c (Pipeline.arrRef spec7 1) : Vec Ideal S8x1024x64 .f32) (ix3 kv s d))
          (fun kv s d => (V c (Pipeline.arrRef spec7 2) : Vec Ideal S8x1024x64 .f32) (ix3 kv s d))
          (fun s t => (V c (Pipeline.arrRef spec7 5) : Vec Ideal S1024x1024 .f32) (ix2 s t)) hd s d :=
  congrFun (final7_arr V c) (ix3 hd s d)

end Cert.KV

end
-- ==== Proof.Val.Pay8.lean ====
import proofs.«167047_j26895085207995_2_alg».proof.Proof.Val.Pay3

/-! # The second layer's output projection, read at one entry

The second layer's output-projection region stores the same payload as the first layer's, operation for operation:
the residual block plus the activation block against the transposed weight block. So its reading at row `p` and
column `q` is the first layer's: the residual entry plus the sum over the hidden coordinate of activation `(p, h)`
times weight `(q, h)`. -/

noncomputable section

open scoped BigOperators
open Idealize.ShloMosaic Idealize.ShloMosaic.TcCoe Idealize.ShloMosaic.ValueIdx

namespace Cert.KV

/-- The second layer's stored block at `(p, q)`: the residual there plus the activation row `p` against the weight row `q`. -/
theorem pay8_apply (x : Vec Ideal Cert.KernelIdeal.S512x2048 .f32) (w : Vec Ideal Cert.KernelIdeal.S512x2048 .bf16)
    (res : Vec Ideal Cert.KernelIdeal.S512x512 .f32) (p q : Fin 512) :
    Cert.KernelIdeal.Gen.k8_pay1 (F := Ideal) x w res (ix2 p q) = res (ix2 p q) + ∑ h : Fin 2048, x (ix2 p h) * w (ix2 q h) :=
  pay3_apply x w res p q

end Cert.KV

end
-- ==== Proof.Val.Final8.lean ====
import proofs.«167047_j26895085207995_2_alg».proof.Proof.Spec
import proofs.«167047_j26895085207995_2_alg».proof.Proof.KI.Reg8
import proofs.«167047_j26895085207995_2_alg».proof.Proof.Val.Pay8
import Idealize.ShloMosaic.Lib.ValueIdx
import Idealize.ShloMosaic.Lib.Pipeline.Value

/-! # The output projection's array after its last grid point

The region runs over a 2×4 grid of points; point `(i, j)` reads rows `512 i … 512 i + 511` of the activations,
rows `512 j … 512 j + 511` of the weights and the 512×512 block `(i, j)` of the residual, and writes block `(i, j)`
of the output. Every block coordinate is the block index times the block's size plus the coordinate inside the
block, so what point `(i, j)` writes back is block `(i, j)` of ONE function of the three arrays as the region
finds them — the residual entry plus the activation row against the weight row —, and the eight output blocks
cover the 1024×2048 array. Hence the array ends holding that function. -/

noncomputable section

open scoped BigOperators
open Idealize.ShloMosaic Idealize.ShloMosaic.TcCoe Idealize.ShloMosaic.ValueIdx Idealize.SL.Sem
open Idealize.ShloMosaic.Pipeline (Dat)

namespace Cert.KV

open Cert.KernelIdeal Cert.KernelIdeal.Gen

-- the TensorCore's buffer contents when the region is entered
variable (V : (c : Dev nD) → (b : Ref sig .tc) → Buf (Elt Ideal) ((c : Thread nD τ).loc b))

/-! ## The three arrays and their blocks, at their literal types -/

/-- The activations, the weights and the residual as the region finds them. -/
abbrev xarr8 (c : Dev nD) : Vec Ideal S1024x2048 .f32 := V c (Pipeline.arrRef spec8 0)
abbrev warr8 (c : Dev nD) : Vec Ideal S2048x2048 .bf16 := V c (Pipeline.arrRef spec8 1)
abbrev rarr8 (c : Dev nD) : Vec Ideal S1024x2048 .f32 := V c (Pipeline.arrRef spec8 2)

/-- Their blocks at point `t`. -/
abbrev xblk8 (c : Dev nD) (t : Fin cfg8.N) : Vec Ideal S512x2048 .f32 := iblk8 V c 0 t
abbrev wblk8 (c : Dev nD) (t : Fin cfg8.N) : Vec Ideal S512x2048 .bf16 := iblk8 V c 1 t
abbrev rblk8 (c : Dev nD) (t : Fin cfg8.N) : Vec Ideal S512x512 .f32 := iblk8 V c 2 t

/-- The function the output array ends holding, by coordinates: the residual entry plus activation row `s` against
    weight row `o`. -/
def Gfun8 (c : Dev nD) (s : Fin 1024) (o : Fin 2048) : EReal :=
  rarr8 V c (ix2 s o) + ∑ h : Fin 2048, xarr8 V c (ix2 s h) * warr8 V c (ix2 o h)

/-- The same as an array. -/
def G8 (c : Dev nD) : Vec Ideal S1024x2048 .f32 := fun i => Gfun8 V c (i 0) (i 1)

theorem zero_offsets8 : (![0, 0] : Fin 2 → Nat) = fun _ => 0 := funext fun a => by fin_cases a <;> rfl

/-! ## The index maps, decided over the grid -/

/-- The activations' block follows the output's row block, the weights' block the output's column block, the
    residual's block the output's block; the output's block indices stay in their ranges. -/
theorem idx_facts8 : ∀ t : Fin cfg8.N,
    win8_0.index t (0 : Fin 2) = win8_3.index t (0 : Fin 2) ∧ win8_0.index t (1 : Fin 2) = 0
    ∧ win8_1.index t (0 : Fin 2) = win8_3.index t (1 : Fin 2) ∧ win8_1.index t (1 : Fin 2) = 0
    ∧ win8_2.index t (0 : Fin 2) = win8_3.index t (0 : Fin 2) ∧ win8_2.index t (1 : Fin 2) = win8_3.index t (1 : Fin 2)
    ∧ win8_3.index t (0 : Fin 2) ≤ 1 ∧ win8_3.index t (1 : Fin 2) ≤ 3 :=
  (by decide +kernel : ∀ t : Fin grid8.N, _)

/-- Every output block is some point's. -/
theorem idx_onto8 : ∀ (q0 : Fin 2) (q1 : Fin 4), ∃ t : Fin cfg8.N, win8_3.index t = ![q0.val, q1.val] :=
  (by decide +kernel : ∀ (q0 : Fin 2) (q1 : Fin 4), ∃ t : Fin grid8.N, win8_3.index t = ![q0.val, q1.val])

/-! ## Each input block read where the output's block says -/

/-- Row `p` of the activations' block at `t` is row `s` of the array, `s` the output block's row offset plus `p`. -/
theorem xblk8_apply (c : Dev nD) (t : Fin cfg8.N) (p : Fin 512) (h : Fin 2048) (s : Fin 1024)
    (hs : s.val = win8_3.index t (0 : Fin 2) * 512 + p.val) :
    xblk8 V c t (ix2 p h) = xarr8 V c (ix2 s h) := by
  obtain ⟨e0, e1, -⟩ := idx_facts8 t
  unfold xblk8 iblk8
  rw [View.read_apply]
  show xarr8 V c _ = xarr8 V c _
  congr 1
  funext a
  apply Fin.ext
  match a with
  | ⟨0, _⟩ => show win8_0.index t (0 : Fin 2) * 512 + 1 * p.val = s.val; omega
  | ⟨1, _⟩ => show win8_0.index t (1 : Fin 2) * 2048 + 1 * h.val = h.val; omega

/-- Row `q` of the weights' block at `t` is row `o` of the array, `o` the output block's column offset plus `q`. -/
theorem wblk8_apply (c : Dev nD) (t : Fin cfg8.N) (q : Fin 512) (h : Fin 2048) (o : Fin 2048)
    (ho : o.val = win8_3.index t (1 : Fin 2) * 512 + q.val) :
    wblk8 V c t (ix2 q h) = warr8 V c (ix2 o h) := by
  obtain ⟨-, -, e2, e3, -⟩ := idx_facts8 t
  unfold wblk8 iblk8
  rw [View.read_apply]
  show warr8 V c _ = warr8 V c _
  congr 1
  funext a
  apply Fin.ext
  match a with
  | ⟨0, _⟩ => show win8_1.index t (0 : Fin 2) * 512 + 1 * q.val = o.val; omega
  | ⟨1, _⟩ => show win8_1.index t (1 : Fin 2) * 2048 + 1 * h.val = h.val; omega

/-- Entry `(p, q)` of the residual's block at `t` is entry `(s, o)` of the array. -/
theorem rblk8_apply (c : Dev nD) (t : Fin cfg8.N) (p q : Fin 512) (s : Fin 1024) (o : Fin 2048)
    (hs : s.val = win8_3.index t (0 : Fin 2) * 512 + p.val) (ho : o.val = win8_3.index t (1 : Fin 2) * 512 + q.val) :
    rblk8 V c t (ix2 p q) = rarr8 V c (ix2 s o) := by
  obtain ⟨-, -, -, -, e4, e5, -⟩ := idx_facts8 t
  unfold rblk8 iblk8
  rw [View.read_apply]
  show rarr8 V c _ = rarr8 V c _
  congr 1
  funext a
  apply Fin.ext
  match a with
  | ⟨0, _⟩ => show win8_2.index t (0 : Fin 2) * 512 + 1 * p.val = s.val; omega
  | ⟨1, _⟩ => show win8_2.index t (1 : Fin 2) * 512 + 1 * q.val = o.val; omega

/-- The stored block's entry `(p, q)` at point `t`, as the function of the arrays at the entry's place `(s, o)`. -/
theorem point8_eq (c : Dev nD) (t : Fin cfg8.N) (p q : Fin 512) (s : Fin 1024) (o : Fin 2048)
    (hs : s.val = win8_3.index t (0 : Fin 2) * 512 + p.val) (ho : o.val = win8_3.index t (1 : Fin 2) * 512 + q.val) :
    k8_pay1 (F := Ideal) (xblk8 V c t) (wblk8 V c t) (rblk8 V c t) (ix2 p q) = Gfun8 V c s o := by
  refine (pay8_apply (xblk8 V c t) (wblk8 V c t) (rblk8 V c t) p q).trans ?_
  unfold Gfun8
  rw [rblk8_apply V c t p q s o hs ho]
  refine congrArg (rarr8 V c (ix2 s o) + ·) (Finset.sum_congr rfl fun h _ => ?_)
  rw [xblk8_apply V c t p h s hs, wblk8_apply V c t q h o ho]

/-! ## What each point writes back, the cover, the array -/

/-- What point `t` writes back is block `t` of `G8`. -/
theorem flushed8_eq (c : Dev nD) (t : Fin cfg8.N) :
    (dat8 V c).flushed 3 t = ((cfg8.win 3).blk t).view.read (Elt Ideal) (G8 V c) := by
  show (cfg8.win 3).cut (grid8.coords t) ((dat8 V c).after 3 t) = _
  rw [after8_3]
  unfold out8_3
  rw [View.canon_unit_zero zero_offsets8]
  simp only [View.ld_unit_zero (S := S512x2048) zero_offsets8, View.ld_unit_zero (S := S512x512) zero_offsets8]
  funext j
  obtain ⟨p, q, rfl⟩ : ∃ (p q : Fin 512), j = ix2 p q := ⟨j 0, j 1, eq_ix2 j⟩
  show k8_pay1 (F := Ideal) (xblk8 V c t) (wblk8 V c t) (rblk8 V c t) (ix2 p q)
    = Gfun8 V c (((cfg8.win 3).blk t).view.emb (ix2 p q) 0) (((cfg8.win 3).blk t).view.emb (ix2 p q) 1)
  refine point8_eq V c t p q _ _ ?_ ?_
  · show win8_3.index t (0 : Fin 2) * 512 + 1 * p.val = _; omega
  · show win8_3.index t (1 : Fin 2) * 512 + 1 * q.val = _; omega

/-- An index of the array is in point `t`'s block iff each coordinate is in the block's range on its axis. -/
theorem mem_blk8 (t : Fin cfg8.N) (i : S1024x2048.Idx) :
    i ∈ ((cfg8.win 3).blk t).view.set ↔ ∀ a : Fin 2, win8_3.index t a * S512x512.size a ≤ (i a).val ∧ (i a).val < win8_3.index t a * S512x512.size a + S512x512.size a := by
  show i ∈ ((View.whole (Pipeline.arrRef spec8 3)).slice (win8_3.rect t)).set ↔ _
  rw [View.set_slice_whole, Rect.mem_set_unit]
  exact Iff.rfl

/-- Every index of the array is in some point's block: row `r`, column `k` in the block of index `(r / 512, k / 512)`. -/
theorem cover8 (i : S1024x2048.Idx) : ∃ t : Fin cfg8.N, (cfg8.win 3).flush t = true ∧ i ∈ ((cfg8.win 3).blk t).view.set := by
  have hi0 : (i 0).val < 1024 := (i 0).isLt
  have hi1 : (i 1).val < 2048 := (i 1).isLt
  obtain ⟨t, ht⟩ := idx_onto8 ⟨(i 0).val / 512, by omega⟩ ⟨(i 1).val / 512, by omega⟩
  have q0 : win8_3.index t (0 : Fin 2) = (i 0).val / 512 := congrFun ht 0
  have q1 : win8_3.index t (1 : Fin 2) = (i 1).val / 512 := congrFun ht 1
  refine ⟨t, flush8_3 t, ?_⟩
  rw [mem_blk8]
  intro a
  match a with
  | ⟨0, _⟩ => show win8_3.index t (0 : Fin 2) * 512 ≤ (i 0).val ∧ (i 0).val < win8_3.index t (0 : Fin 2) * 512 + 512; omega
  | ⟨1, _⟩ => show win8_3.index t (1 : Fin 2) * 512 ≤ (i 1).val ∧ (i 1).val < win8_3.index t (1 : Fin 2) * 512 + 512; omega

/-- The output array after the last point is `G8` of the arrays the region found. -/
theorem final8_arr (c : Dev nD) : (dat8 V c).arrAt 3 cfg8.N = G8 V c :=
  (dat8 V c).arrAt_eq_of_cover 3 (G8 V c) (fun t _ => flushed8_eq V c t) (cover8)

/-- Entry by entry: the residual plus the projection of the activations by the weights. -/
theorem final8 (c : Dev nD) (s : Fin 1024) (o : Fin 2048) :
    ((dat8 V c).arrAt 3 cfg8.N : Vec Ideal S1024x2048 .f32) (ix2 s o)
      = rarr8 V c (ix2 s o)
        + Cert.Spec.proj (fun s h => xarr8 V c (ix2 s h)) (fun o h => warr8 V c (ix2 o h)) s o := by
  rw [final8_arr V c]
  rfl

end Cert.KV

end
-- ==== Proof.Val.Pieces9.lean ====
/-
  What each case of the fused feed-forward body leaves in its two carried scratches and in the output's buffer, as
  values.  Every store of the body writes a whole buffer, so what a run leaves in a buffer is the payload of its last
  store there, and a buffer loaded after a store in the same run reads that store's payload.  The first step of a row
  block stores the normalised rows, zeroes the accumulator and adds the first partial product to the zeros; a middle
  step adds its partial product to what the accumulator held; the last step does the same and then stores the finished
  accumulator plus the residual block into the output's buffer.
-/
import proofs.«167047_j26895085207995_2_alg».proof.Proof.KI.Reg9
import Idealize.ShloMosaic.Lib.Pipeline.Value
import Idealize.ShloMosaic.PureOps.Ideal

noncomputable section

open Idealize.ShloMosaic Idealize.ShloMosaic.TcCoe Idealize.ShloMosaic.Tactic

namespace Cert.KV

open Cert.KernelIdeal Cert.KernelIdeal.Gen

/-! ## What each case of the body leaves in the two scratches and in the output's buffer

Every store of the body writes a whole buffer, so what a run leaves in a buffer is the payload of its last store there;
a buffer loaded after a store in the same run reads that store's payload. -/

theorem zero_offsets9 : (![0, 0] : Fin 2 → Nat) = fun _ => 0 := funext fun a => by fin_cases a <;> rfl

/-- The first step leaves the normalised row block in the scratch of normalised rows. -/
theorem sout9_A_1_eq (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) :
    sout9_A_1 (F := Ideal) c i mx hmx mw hmw mg hmg mu hmu md hmd mr hmr mo hmo macc hmacc mxn hmxn hc0 hc1 vx vw vg vu vd vr = k9_pay1 (F := Ideal) vx vw := by
  unfold sout9_A_1
  rw [View.read_writes_eq_canon _ _ _ (scover9_A_1 c i mx hmx mw hmw mg hmg mu hmu md hmd mr hmr mo hmo macc hmacc mxn hmxn hc0 hc1 vx vw vg vu vd vr)]
  unfold kernelRun9_A
  dsimp only
  sl_unfold_words
  rw [View.canon_unit_zero zero_offsets9]
  simp only [View.readAt_eq_ld, hmx.read_unread, hmw.read_unread, hmg.read_unread, hmu.read_unread, hmd.read_unread, hmr.read_unread, View.ld_unit_zero (S := S256x2048) zero_offsets9, View.ld_unit_zero (S := S1x2048) zero_offsets9, View.ld_unit_zero (S := S512x2048) zero_offsets9, View.ld_unit_zero (S := S2048x512) zero_offsets9]

/-- The first step leaves in the accumulator the first tile's product added to zeros, over the rows it has just
    normalised. -/
theorem sout9_A_0_eq (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : cond9_0 i) (hc1 : ¬cond9_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) :
    sout9_A_0 (F := Ideal) c i mx hmx mw hmw mg hmg mu hmu md hmd mr hmr mo hmo macc hmacc mxn hmxn hc0 hc1 vx vw vg vu vd vr = k9_pay3 (F := Ideal) (k9_pay1 (F := Ideal) vx vw) vg vu vd (k9_pay2 (F := Ideal)) := by
  unfold sout9_A_0
  rw [View.read_writes_eq_canon _ _ _ (scover9_A_0 c i mx hmx mw hmw mg hmg mu hmu md hmd mr hmr mo hmo macc hmacc mxn hmxn hc0 hc1 vx vw vg vu vd vr)]
  unfold kernelRun9_A
  dsimp only
  sl_unfold_words
  rw [View.canon_cons_unit_zero (S := S256x2048) zero_offsets9]
  simp only [View.readAt_eq_ld, hmx.read_unread, hmw.read_unread, hmg.read_unread, hmu.read_unread, hmd.read_unread, hmr.read_unread, View.ld_unit_zero (S := S256x2048) zero_offsets9, View.ld_unit_zero (S := S1x2048) zero_offsets9, View.ld_unit_zero (S := S512x2048) zero_offsets9, View.ld_unit_zero (S := S2048x512) zero_offsets9,
    View.readCov_unit_zero (S := S256x2048) _ zero_offsets9]

/-- A middle step leaves in the accumulator its tile's product added to what the accumulator held. -/
theorem sout9_B_0_eq (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : ¬cond9_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) (vacc : Vec Ideal S256x2048 .f32) (vxn : Vec Ideal S256x2048 .bf16) :
    sout9_B_0 (F := Ideal) c i mx hmx mw hmw mg hmg mu hmu md hmd mr hmr mo hmo macc hmacc mxn hmxn hc0 hc1 vx vw vg vu vd vr vacc vxn = k9_pay3 (F := Ideal) vxn vg vu vd vacc := by
  unfold sout9_B_0
  rw [View.read_writes_eq_canon _ _ _ (scover9_B_0 c i mx hmx mw hmw mg hmg mu hmu md hmd mr hmr mo hmo macc hmacc mxn hmxn hc0 hc1 vx vw vg vu vd vr vacc vxn)]
  unfold kernelRun9_B
  dsimp only
  sl_unfold_words
  rw [View.canon_unit_zero zero_offsets9]
  simp only [View.readAt_eq_ld, hmx.read_unread, hmw.read_unread, hmg.read_unread, hmu.read_unread, hmd.read_unread, hmr.read_unread, hmacc.read_unread, hmxn.read_unread, View.ld_unit_zero (S := S256x2048) zero_offsets9, View.ld_unit_zero (S := S1x2048) zero_offsets9, View.ld_unit_zero (S := S512x2048) zero_offsets9, View.ld_unit_zero (S := S2048x512) zero_offsets9]

/-- So does the last step. -/
theorem sout9_C_0_eq (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) (vacc : Vec Ideal S256x2048 .f32) (vxn : Vec Ideal S256x2048 .bf16) :
    sout9_C_0 (F := Ideal) c i mx hmx mw hmw mg hmg mu hmu md hmd mr hmr mo hmo macc hmacc mxn hmxn hc0 hc1 vx vw vg vu vd vr vacc vxn = k9_pay3 (F := Ideal) vxn vg vu vd vacc := by
  unfold sout9_C_0
  rw [View.read_writes_eq_canon _ _ _ (scover9_C_0 c i mx hmx mw hmw mg hmg mu hmu md hmd mr hmr mo hmo macc hmacc mxn hmxn hc0 hc1 vx vw vg vu vd vr vacc vxn)]
  unfold kernelRun9_C
  dsimp only
  sl_unfold_words
  rw [View.canon_unit_zero zero_offsets9]
  simp only [View.readAt_eq_ld, hmx.read_unread, hmw.read_unread, hmg.read_unread, hmu.read_unread, hmd.read_unread, hmr.read_unread, hmacc.read_unread, hmxn.read_unread, View.ld_unit_zero (S := S256x2048) zero_offsets9, View.ld_unit_zero (S := S1x2048) zero_offsets9, View.ld_unit_zero (S := S512x2048) zero_offsets9, View.ld_unit_zero (S := S2048x512) zero_offsets9]

/-- The last step leaves in the output's buffer the finished accumulator plus the residual block. -/
theorem out9_C_6_eq (c : Dev nD) (i : grid9.Coords) (mx : Memref sig .tc .vmem S256x2048 .f32) (hmx : mx.IsWhole) (mw : Memref sig .tc .vmem S1x2048 .f32) (hmw : mw.IsWhole) (mg : Memref sig .tc .vmem S512x2048 .bf16) (hmg : mg.IsWhole) (mu : Memref sig .tc .vmem S512x2048 .bf16) (hmu : mu.IsWhole) (md : Memref sig .tc .vmem S2048x512 .bf16) (hmd : md.IsWhole) (mr : Memref sig .tc .vmem S256x2048 .f32) (hmr : mr.IsWhole) (mo : Memref sig .tc .vmem S256x2048 .f32) (hmo : mo.IsWhole) (macc : Memref sig .tc .vmem S256x2048 .f32) (hmacc : macc.IsWhole) (mxn : Memref sig .tc .vmem S256x2048 .bf16) (hmxn : mxn.IsWhole) (hc0 : ¬cond9_0 i) (hc1 : cond9_1 i)
    (vx : Vec Ideal S256x2048 .f32) (vw : Vec Ideal S1x2048 .f32) (vg : Vec Ideal S512x2048 .bf16) (vu : Vec Ideal S512x2048 .bf16) (vd : Vec Ideal S2048x512 .bf16) (vr : Vec Ideal S256x2048 .f32) (vacc : Vec Ideal S256x2048 .f32) (vxn : Vec Ideal S256x2048 .bf16) :
    out9_C_6 (F := Ideal) c i mx hmx mw hmw mg hmg mu hmu md hmd mr hmr mo hmo macc hmacc mxn hmxn hc0 hc1 vx vw vg vu vd vr vacc vxn = k9_pay4 (F := Ideal) (k9_pay3 (F := Ideal) vxn vg vu vd vacc) vr := by
  unfold out9_C_6
  rw [View.read_writes_eq_canon _ _ _ (cover9_C_6 c i mx hmx mw hmw mg hmg mu hmu md hmd mr hmr mo hmo macc hmacc mxn hmxn hc0 hc1 vx vw vg vu vd vr vacc vxn)]
  unfold kernelRun9_C
  dsimp only
  sl_unfold_words
  rw [View.canon_unit_zero zero_offsets9]
  simp only [View.readAt_eq_ld, hmx.read_unread, hmw.read_unread, hmg.read_unread, hmu.read_unread, hmd.read_unread, hmr.read_unread, hmacc.read_unread, hmxn.read_unread, View.ld_unit_zero (S := S256x2048) zero_offsets9, View.ld_unit_zero (S := S1x2048) zero_offsets9, View.ld_unit_zero (S := S512x2048) zero_offsets9, View.ld_unit_zero (S := S2048x512) zero_offsets9,
    View.readCov_unit_zero (S := S256x2048) _ zero_offsets9]

end Cert.KV

end
-- ==== Proof.Val.Final9.lean ====
/-
  The fused feed-forward region's output array after its last grid point, over the extended reals.

  The region walks a 4 × 16 grid: point `t` is row block `t / 16` (256 rows of the hidden state) at inner step
  `t % 16` (512 of the 8192 inner rows).  The kernel keeps two buffers of its own across the inner steps of a row
  block: the normalised rows, made at step 0, and an accumulator, zeroed at step 0 and grown by one tile's gated product
  at every step; at step 15 it stores the accumulator plus the residual block, which is the hidden state's block again
  (the two windows are handed the same array).  Every block coordinate is the block index times the block's size plus
  the coordinate inside the block.  So by induction along the grid the accumulator's entry for place `(s, o)` after step
  `j` is the sum of the tiles `0 … j` of the feed-forward terms, after step 15 the sum over all 8192 inner rows, and
  what the last point of a row block writes back is that block of ONE function of the arrays the region found: the
  specification's feed-forward block with its residual.  The four row blocks cover the array.
-/
import proofs.«167047_j26895085207995_2_alg».proof.Proof.Spec
import proofs.«167047_j26895085207995_2_alg».proof.Proof.Algebra
import proofs.«167047_j26895085207995_2_alg».proof.Proof.KI.Reg9
import proofs.«167047_j26895085207995_2_alg».proof.Proof.Val.Pay4
import proofs.«167047_j26895085207995_2_alg».proof.Proof.Val.Pieces9
import Idealize.ShloMosaic.Lib.ValueIdx
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KV

open Cert.KernelIdeal Cert.KernelIdeal.Gen

-- the TensorCore's buffer contents when the region is entered
variable (V : (c : Dev nD) → (b : Ref sig .tc) → Buf (Elt Ideal) ((c : Thread nD τ).loc b))

/-! ## The arrays and their blocks, at their literal types -/

/-- The hidden state, the gain, the gate, up and down weights and the residual (the hidden state again) as the region
    finds them. -/
abbrev xarr9 (c : Dev nD) : Vec Ideal S1024x2048 .f32 := V c (Pipeline.arrRef spec9 0)
abbrev garr9 (c : Dev nD) : Vec Ideal S1x2048 .f32 := V c (Pipeline.arrRef spec9 1)
abbrev wgarr9 (c : Dev nD) : Vec Ideal S8192x2048 .bf16 := V c (Pipeline.arrRef spec9 2)
abbrev wuarr9 (c : Dev nD) : Vec Ideal S8192x2048 .bf16 := V c (Pipeline.arrRef spec9 3)
abbrev wdarr9 (c : Dev nD) : Vec Ideal S2048x8192 .bf16 := V c (Pipeline.arrRef spec9 4)
abbrev rarr9 (c : Dev nD) : Vec Ideal S1024x2048 .f32 := V c (Pipeline.arrRef spec9 5)

/-- Their blocks at point `t`. -/
abbrev xblk9 (c : Dev nD) (t : Fin cfg9.N) : Vec Ideal S256x2048 .f32 := iblk9 V c 0 t
abbrev gblk9 (c : Dev nD) (t : Fin cfg9.N) : Vec Ideal S1x2048 .f32 := iblk9 V c 1 t
abbrev wgblk9 (c : Dev nD) (t : Fin cfg9.N) : Vec Ideal S512x2048 .bf16 := iblk9 V c 2 t
abbrev wublk9 (c : Dev nD) (t : Fin cfg9.N) : Vec Ideal S512x2048 .bf16 := iblk9 V c 3 t
abbrev wdblk9 (c : Dev nD) (t : Fin cfg9.N) : Vec Ideal S2048x512 .bf16 := iblk9 V c 4 t
abbrev rblk9 (c : Dev nD) (t : Fin cfg9.N) : Vec Ideal S256x2048 .f32 := iblk9 V c 5 t

/-! ## The index maps, decided over the 64 grid points

Point `t` is row block `t / 16` at inner step `t % 16`. The hidden state's, the residual's and the output's block is
row block `t / 16`; the gain's block is the whole gain; the gate and up weights' block is row tile `t % 16`; the down
weights' block is column tile `t % 16`. -/
theorem idx_facts9 : ∀ t : Fin cfg9.N,
    win9_0.index t (0 : Fin 2) = t.val / 16 ∧ win9_0.index t (1 : Fin 2) = 0
    ∧ win9_1.index t (0 : Fin 2) = 0 ∧ win9_1.index t (1 : Fin 2) = 0
    ∧ win9_2.index t (0 : Fin 2) = t.val % 16 ∧ win9_2.index t (1 : Fin 2) = 0
    ∧ win9_3.index t (0 : Fin 2) = t.val % 16 ∧ win9_3.index t (1 : Fin 2) = 0
    ∧ win9_4.index t (0 : Fin 2) = 0 ∧ win9_4.index t (1 : Fin 2) = t.val % 16
    ∧ win9_5.index t (0 : Fin 2) = t.val / 16 ∧ win9_5.index t (1 : Fin 2) = 0
    ∧ win9_6.index t (0 : Fin 2) = t.val / 16 ∧ win9_6.index t (1 : Fin 2) = 0 :=
  (by decide +kernel : ∀ t : Fin grid9.N, _)

/-! ## The arrays as plain functions of coordinates -/

/-- The hidden state, the gain and the three weight matrices as the region finds them, by coordinates. -/
abbrev xs9 (c : Dev nD) : Cert.Spec.Hid := fun s h => xarr9 V c (ix2 s h)
abbrev gs9 (c : Dev nD) : Fin 2048 → EReal := fun h => garr9 V c (ix2 0 h)
abbrev wgs9 (c : Dev nD) : Cert.Spec.Wt 8192 2048 := fun i h => wgarr9 V c (ix2 i h)
abbrev wus9 (c : Dev nD) : Cert.Spec.Wt 8192 2048 := fun i h => wuarr9 V c (ix2 i h)
abbrev wds9 (c : Dev nD) : Cert.Spec.Wt 2048 8192 := fun o i => wdarr9 V c (ix2 o i)

/-- The feed-forward term of inner row `i` at the output's place `(s, o)`: the gated product of the normalised row
    `s` against gate row `i` and up row `i`, times the down weight `(o, i)`. -/
def term9 (c : Dev nD) (s : Fin 1024) (o : Fin 2048) (i : Fin 8192) : EReal :=
  (Cert.Spec.silu (Cert.Spec.proj (Cert.Spec.rms (xs9 V c) (gs9 V c)) (wgs9 V c) s i)
      * Cert.Spec.proj (Cert.Spec.rms (xs9 V c) (gs9 V c)) (wus9 V c) s i) * wds9 V c o i

/-- The terms of the 512 inner rows of tile `j`, summed. -/
def tile9 (c : Dev nD) (s : Fin 1024) (o : Fin 2048) (j : Fin 16) : EReal :=
  ∑ k : Fin 512, term9 V c s o ⟨j.val * 512 + k.val, by have := j.isLt; have := k.isLt; omega⟩

/-- The accumulator's entry for the place `(s, o)` after inner step `n`: zero plus tile 0, then one tile more per step. -/
def accum9 (c : Dev nD) (s : Fin 1024) (o : Fin 2048) : (n : ℕ) → n < 16 → EReal
  | 0, h => 0 + tile9 V c s o ⟨0, h⟩
  | n + 1, h => accum9 c s o n (Nat.lt_of_succ_lt h) + tile9 V c s o ⟨n + 1, h⟩

/-- After step `n` the accumulator holds the sum of the tiles `0 … n`. -/
theorem accum9_eq_sum (c : Dev nD) (s : Fin 1024) (o : Fin 2048) : ∀ (n : ℕ) (h : n < 16),
    accum9 V c s o n h = ∑ j : Fin (n + 1), tile9 V c s o ⟨j.val, lt_of_lt_of_le j.isLt h⟩
  | 0, h => by
    rw [accum9, zero_add, Fin.sum_univ_one]
    rfl
  | n + 1, h => by
    rw [accum9, accum9_eq_sum c s o n (Nat.lt_of_succ_lt h)]
    exact (Fin.sum_univ_castSucc (fun j : Fin (n + 2) => tile9 V c s o ⟨j.val, lt_of_lt_of_le j.isLt h⟩)).symm

/-- After the last step: the sum over all 8192 inner rows. -/
theorem accum9_last (c : Dev nD) (s : Fin 1024) (o : Fin 2048) :
    accum9 V c s o 15 (by decide) = ∑ i : Fin 8192, term9 V c s o i := by
  rw [accum9_eq_sum, Cert.Spec.sum_tiles]
  rfl

/-! ## Each input block read at its place in its array

A block's coordinate is the block index times the block's size plus the coordinate inside the block. -/

/-- Row `p` of the hidden state's block at `t` is row `s` of the array, `s` = 256 · (row block) + `p`. -/
theorem xblk9_apply (c : Dev nD) (t : Fin cfg9.N) (p : Fin 256) (h : Fin 2048) (s : Fin 1024)
    (hs : s.val = t.val / 16 * 256 + p.val) :
    xblk9 V c t (ix2 p h) = xarr9 V c (ix2 s h) := by
  obtain ⟨e0, e1, -⟩ := idx_facts9 t
  unfold xblk9 iblk9
  rw [View.read_apply]
  show xarr9 V c _ = xarr9 V c _
  congr 1
  funext a
  apply Fin.ext
  match a with
  | ⟨0, _⟩ => show win9_0.index t (0 : Fin 2) * 256 + 1 * p.val = s.val; omega
  | ⟨1, _⟩ => show win9_0.index t (1 : Fin 2) * 2048 + 1 * h.val = h.val; omega

/-- The gain's block is the gain. -/
theorem gblk9_apply (c : Dev nD) (t : Fin cfg9.N) (u : Fin 1) (h : Fin 2048) :
    gblk9 V c t (ix2 u h) = garr9 V c (ix2 0 h) := by
  obtain ⟨-, -, e0, e1, -⟩ := idx_facts9 t
  unfold gblk9 iblk9
  rw [View.read_apply]
  show garr9 V c _ = garr9 V c _
  congr 1
  funext a
  apply Fin.ext
  match a with
  | ⟨0, _⟩ => show win9_1.index t (0 : Fin 2) * 1 + 1 * u.val = 0; omega
  | ⟨1, _⟩ => show win9_1.index t (1 : Fin 2) * 2048 + 1 * h.val = h.val; omega

/-- Row `k` of the gate weights' block at `t` is inner row `i` of the array, `i` = 512 · (step) + `k`. -/
theorem wgblk9_apply (c : Dev nD) (t : Fin cfg9.N) (k : Fin 512) (h : Fin 2048) (i : Fin 8192)
    (hi : i.val = t.val % 16 * 512 + k.val) :
    wgblk9 V c t (ix2 k h) = wgarr9 V c (ix2 i h) := by
  obtain ⟨-, -, -, -, e0, e1, -⟩ := idx_facts9 t
  unfold wgblk9 iblk9
  rw [View.read_apply]
  show wgarr9 V c _ = wgarr9 V c _
  congr 1
  funext a
  apply Fin.ext
  match a with
  | ⟨0, _⟩ => show win9_2.index t (0 : Fin 2) * 512 + 1 * k.val = i.val; omega
  | ⟨1, _⟩ => show win9_2.index t (1 : Fin 2) * 2048 + 1 * h.val = h.val; omega

/-- Row `k` of the up weights' block at `t` is inner row `i` of the array. -/
theorem wublk9_apply (c : Dev nD) (t : Fin cfg9.N) (k : Fin 512) (h : Fin 2048) (i : Fin 8192)
    (hi : i.val = t.val % 16 * 512 + k.val) :
    wublk9 V c t (ix2 k h) = wuarr9 V c (ix2 i h) := by
  obtain ⟨-, -, -, -, -, -, e0, e1, -⟩ := idx_facts9 t
  unfold wublk9 iblk9
  rw [View.read_apply]
  show wuarr9 V c _ = wuarr9 V c _
  congr 1
  funext a
  apply Fin.ext
  match a with
  | ⟨0, _⟩ => show win9_3.index t (0 : Fin 2) * 512 + 1 * k.val = i.val; omega
  | ⟨1, _⟩ => show win9_3.index t (1 : Fin 2) * 2048 + 1 * h.val = h.val; omega

/-- Column `k` of the down weights' block at `t` is inner column `i` of the array. -/
theorem wdblk9_apply (c : Dev nD) (t : Fin cfg9.N) (o : Fin 2048) (k : Fin 512) (i : Fin 8192)
    (hi : i.val = t.val % 16 * 512 + k.val) :
    wdblk9 V c t (ix2 o k) = wdarr9 V c (ix2 o i) := by
  obtain ⟨-, -, -, -, -, -, -, -, e0, e1, -⟩ := idx_facts9 t
  unfold wdblk9 iblk9
  rw [View.read_apply]
  show wdarr9 V c _ = wdarr9 V c _
  congr 1
  funext a
  apply Fin.ext
  match a with
  | ⟨0, _⟩ => show win9_4.index t (0 : Fin 2) * 2048 + 1 * o.val = o.val; omega
  | ⟨1, _⟩ => show win9_4.index t (1 : Fin 2) * 512 + 1 * k.val = i.val; omega

/-- Row `p` of the residual's block at `t` is row `s` of the hidden state: the residual's array is the hidden state's. -/
theorem rblk9_apply (c : Dev nD) (t : Fin cfg9.N) (p : Fin 256) (o : Fin 2048) (s : Fin 1024)
    (hs : s.val = t.val / 16 * 256 + p.val) :
    rblk9 V c t (ix2 p o) = xarr9 V c (ix2 s o) := by
  obtain ⟨-, -, -, -, -, -, -, -, -, -, e0, e1, -⟩ := idx_facts9 t
  unfold rblk9 iblk9
  rw [View.read_apply]
  show rarr9 V c _ = rarr9 V c _
  congr 1
  funext a
  apply Fin.ext
  match a with
  | ⟨0, _⟩ => show win9_5.index t (0 : Fin 2) * 256 + 1 * p.val = s.val; omega
  | ⟨1, _⟩ => show win9_5.index t (1 : Fin 2) * 2048 + 1 * o.val = o.val; omega

/-! ## The kernel's stored values at a point, as functions of the arrays -/

/-- The normalised block stored at the first inner step of row block `t / 16`: the normalised hidden state. -/
theorem norm9_eq (c : Dev nD) (t : Fin cfg9.N) (p : Fin 256) (h : Fin 2048) (s : Fin 1024)
    (hs : s.val = t.val / 16 * 256 + p.val) :
    k9_pay1 (F := Ideal) (xblk9 V c t) (gblk9 V c t) (ix2 p h) = Cert.Spec.rms (xs9 V c) (gs9 V c) s h := by
  refine (pay9_1_apply (xblk9 V c t) (gblk9 V c t) p h).trans ?_
  unfold Cert.Spec.rms Cert.Spec.msq
  rw [xblk9_apply V c t p h s hs, gblk9_apply V c t 0 h]
  have hsum : (∑ h' : Fin 2048, xblk9 V c t (ix2 p h') * xblk9 V c t (ix2 p h'))
      = ∑ h' : Fin 2048, xs9 V c s h' * xs9 V c s h' :=
    Finset.sum_congr rfl fun h' _ => by rw [xblk9_apply V c t p h' s hs]
  rw [hsum]

/-- One inner step at point `t`: over a scratch holding the normalised rows of this row block, the accumulator's entry
    grows by the tile of this step. -/
theorem step9_eq (c : Dev nD) (t : Fin cfg9.N) (xn : Vec Ideal S256x2048 .bf16) (acc : Vec Ideal S256x2048 .f32)
    (p : Fin 256) (o : Fin 2048) (s : Fin 1024)
    (hxn : ∀ h : Fin 2048, xn (ix2 p h) = Cert.Spec.rms (xs9 V c) (gs9 V c) s h) :
    k9_pay3 (F := Ideal) xn (wgblk9 V c t) (wublk9 V c t) (wdblk9 V c t) acc (ix2 p o)
      = acc (ix2 p o) + tile9 V c s o ⟨t.val % 16, Nat.mod_lt _ (by decide)⟩ := by
  refine (pay9_3_apply xn (wgblk9 V c t) (wublk9 V c t) (wdblk9 V c t) acc p o).trans ?_
  unfold tile9 term9 Cert.Spec.proj
  refine congrArg (acc (ix2 p o) + ·) (Finset.sum_congr rfl fun k _ => ?_)
  have hi : (⟨t.val % 16 * 512 + k.val, by have := Nat.mod_lt t.val (show 0 < 16 by decide); have := k.isLt; omega⟩ : Fin 8192).val
      = t.val % 16 * 512 + k.val := rfl
  rw [wdblk9_apply V c t o k _ hi]
  have hg : (∑ h : Fin 2048, xn (ix2 p h) * wgblk9 V c t (ix2 k h))
      = ∑ h : Fin 2048, Cert.Spec.rms (xs9 V c) (gs9 V c) s h * wgs9 V c ⟨t.val % 16 * 512 + k.val, by have := Nat.mod_lt t.val (show 0 < 16 by decide); have := k.isLt; omega⟩ h :=
    Finset.sum_congr rfl fun h _ => by rw [hxn h, wgblk9_apply V c t k h _ hi]
  have hu : (∑ h : Fin 2048, xn (ix2 p h) * wublk9 V c t (ix2 k h))
      = ∑ h : Fin 2048, Cert.Spec.rms (xs9 V c) (gs9 V c) s h * wus9 V c ⟨t.val % 16 * 512 + k.val, by have := Nat.mod_lt t.val (show 0 < 16 by decide); have := k.isLt; omega⟩ h :=
    Finset.sum_congr rfl fun h _ => by rw [hxn h, wublk9_apply V c t k h _ hi]
  rw [hg, hu]

/-- The last step's stored value: the accumulator plus the hidden state's entry. -/
theorem last9_eq (c : Dev nD) (t : Fin cfg9.N) (acc : Vec Ideal S256x2048 .f32) (p : Fin 256) (o : Fin 2048) (s : Fin 1024)
    (hs : s.val = t.val / 16 * 256 + p.val) :
    k9_pay4 (F := Ideal) acc (rblk9 V c t) (ix2 p o) = acc (ix2 p o) + xs9 V c s o := by
  refine (pay9_4_apply acc (rblk9 V c t) p o).trans ?_
  rw [rblk9_apply V c t p o s hs]

/-! ## The recurrence along the grid

After point `t` the scratch of normalised rows, the accumulator and (at a last step) the output's buffer, from the
blocks at `t` and what the point before left. -/

/-- At the first step of a row block both scratches are made from the blocks alone. -/
theorem outs9_first (c : Dev nD) (t : Fin cfg9.N) (h0 : t.val % 16 = 0) :
    (outsAt9 V c t.val t.isLt).2.2 = k9_pay1 (F := Ideal) (xblk9 V c t) (gblk9 V c t)
    ∧ (outsAt9 V c t.val t.isLt).2.1
        = k9_pay3 (F := Ideal) (k9_pay1 (F := Ideal) (xblk9 V c t) (gblk9 V c t)) (wgblk9 V c t) (wublk9 V c t) (wdblk9 V c t)
            (k9_pay2 (F := Ideal)) := by
  have h1 : ¬t.val % 16 = 15 := by omega
  rw [outsAt9_A V c t h0 h1]
  dsimp only
  exact ⟨sout9_A_1_eq c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) ((hcond9_0 t).mpr h0) (fun h => h1 ((hcond9_1 t).mp h)) (xblk9 V c t) (gblk9 V c t) (wgblk9 V c t) (wublk9 V c t) (wdblk9 V c t) (rblk9 V c t),
    sout9_A_0_eq c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) ((hcond9_0 t).mpr h0) (fun h => h1 ((hcond9_1 t).mp h)) (xblk9 V c t) (gblk9 V c t) (wgblk9 V c t) (wublk9 V c t) (wdblk9 V c t) (rblk9 V c t)⟩

/-- At every later step the normalised rows are kept and the accumulator grows by this step's product. -/
theorem outs9_next (c : Dev nD) (t : Fin cfg9.N) (h0 : ¬t.val % 16 = 0) :
    (outsAt9 V c t.val t.isLt).2.2 = (outsAt9 V c (t.val - 1) (Nat.lt_of_le_of_lt (Nat.sub_le _ _) t.isLt)).2.2
    ∧ (outsAt9 V c t.val t.isLt).2.1
        = k9_pay3 (F := Ideal) (outsAt9 V c (t.val - 1) (Nat.lt_of_le_of_lt (Nat.sub_le _ _) t.isLt)).2.2 (wgblk9 V c t) (wublk9 V c t) (wdblk9 V c t) (outsAt9 V c (t.val - 1) (Nat.lt_of_le_of_lt (Nat.sub_le _ _) t.isLt)).2.1 := by
  by_cases h1 : t.val % 16 = 15
  · rw [outsAt9_C V c t h0 h1]
    dsimp only
    exact ⟨rfl, sout9_C_0_eq c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) ((hcond9_1 t).mpr h1) (xblk9 V c t) (gblk9 V c t) (wgblk9 V c t) (wublk9 V c t) (wdblk9 V c t) (rblk9 V c t) (outsAt9 V c (t.val - 1) (Nat.lt_of_le_of_lt (Nat.sub_le _ _) t.isLt)).2.1 (outsAt9 V c (t.val - 1) (Nat.lt_of_le_of_lt (Nat.sub_le _ _) t.isLt)).2.2⟩
  · rw [outsAt9_B V c t h0 h1]
    dsimp only
    exact ⟨rfl, sout9_B_0_eq c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) (fun h => h1 ((hcond9_1 t).mp h)) (xblk9 V c t) (gblk9 V c t) (wgblk9 V c t) (wublk9 V c t) (wdblk9 V c t) (rblk9 V c t) (outsAt9 V c (t.val - 1) (Nat.lt_of_le_of_lt (Nat.sub_le _ _) t.isLt)).2.1 (outsAt9 V c (t.val - 1) (Nat.lt_of_le_of_lt (Nat.sub_le _ _) t.isLt)).2.2⟩

/-- At the last step of a row block the output's buffer is left at the accumulator plus the residual block. -/
theorem outs9_last (c : Dev nD) (t : Fin cfg9.N) (h1 : t.val % 16 = 15) :
    (outsAt9 V c t.val t.isLt).1 = k9_pay4 (F := Ideal) (outsAt9 V c t.val t.isLt).2.1 (rblk9 V c t) := by
  have h0 : ¬t.val % 16 = 0 := by omega
  rw [outsAt9_C V c t h0 h1]
  dsimp only
  exact (out9_C_6_eq c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) ((hcond9_1 t).mpr h1) (xblk9 V c t) (gblk9 V c t) (wgblk9 V c t) (wublk9 V c t) (wdblk9 V c t) (rblk9 V c t) (outsAt9 V c (t.val - 1) (Nat.lt_of_le_of_lt (Nat.sub_le _ _) t.isLt)).2.1 (outsAt9 V c (t.val - 1) (Nat.lt_of_le_of_lt (Nat.sub_le _ _) t.isLt)).2.2).trans
    (congrArg (fun a => k9_pay4 (F := Ideal) a (rblk9 V c t))
      (sout9_C_0_eq c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) scM9_1 (Memref.isWhole_whole _) (fun h => h0 ((hcond9_0 t).mp h)) ((hcond9_1 t).mpr h1) (xblk9 V c t) (gblk9 V c t) (wgblk9 V c t) (wublk9 V c t) (wdblk9 V c t) (rblk9 V c t) (outsAt9 V c (t.val - 1) (Nat.lt_of_le_of_lt (Nat.sub_le _ _) t.isLt)).2.1 (outsAt9 V c (t.val - 1) (Nat.lt_of_le_of_lt (Nat.sub_le _ _) t.isLt)).2.2).symm)

/-! ## The invariant along the grid -/

theorem accum9_first (c : Dev nD) (s : Fin 1024) (o : Fin 2048) (j : ℕ) (hj : j < 16) (h0 : j = 0) :
    accum9 V c s o j hj = 0 + tile9 V c s o ⟨j, hj⟩ := by
  subst h0; rfl

theorem accum9_next (c : Dev nD) (s : Fin 1024) (o : Fin 2048) (j : ℕ) (hj : j < 16) (h0 : j ≠ 0) :
    accum9 V c s o j hj = accum9 V c s o (j - 1) (by omega) + tile9 V c s o ⟨j, hj⟩ := by
  cases j with
  | zero => exact absurd rfl h0
  | succ j => rfl

theorem accum9_congr (c : Dev nD) (s : Fin 1024) (o : Fin 2048) {j j' : ℕ} (hj : j < 16) (hj' : j' < 16) (e : j = j') :
    accum9 V c s o j hj = accum9 V c s o j' hj' := by
  subst e; rfl

/-- After point `n`, which is inner step `n % 16` of row block `n / 16`: the scratch of normalised rows holds the
    normalised rows of the block; the accumulator holds, entry by entry, the tiles `0 … n % 16` summed; and at a last
    step the output's buffer holds all sixteen tiles summed plus the hidden state's entry. -/
def Inv9 (c : Dev nD) (n : ℕ) (hn : n < cfg9.N) : Prop :=
  (∀ (p : Fin 256) (h : Fin 2048) (s : Fin 1024), s.val = n / 16 * 256 + p.val →
      (outsAt9 V c n hn).2.2 (ix2 p h) = Cert.Spec.rms (xs9 V c) (gs9 V c) s h)
  ∧ (∀ (p : Fin 256) (o : Fin 2048) (s : Fin 1024), s.val = n / 16 * 256 + p.val →
      (outsAt9 V c n hn).2.1 (ix2 p o) = accum9 V c s o (n % 16) (Nat.mod_lt _ (by decide)))
  ∧ (n % 16 = 15 → ∀ (p : Fin 256) (o : Fin 2048) (s : Fin 1024), s.val = n / 16 * 256 + p.val →
      (outsAt9 V c n hn).1 (ix2 p o) = accum9 V c s o 15 (by decide) + xs9 V c s o)

/-- The invariant at a first step, from the blocks alone. -/
theorem inv9_first (c : Dev nD) (t : Fin cfg9.N) (h0 : t.val % 16 = 0) : Inv9 V c t.val t.isLt := by
  obtain ⟨ex, ea⟩ := outs9_first V c t h0
  refine ⟨fun p h s hs => ?_, fun p o s hs => ?_, fun h15 => absurd h15 (by omega)⟩
  · rw [ex]
    exact norm9_eq V c t p h s hs
  · rw [ea]
    refine (step9_eq V c t _ _ p o s (fun h => norm9_eq V c t p h s hs)).trans ?_
    rw [pay9_2_apply, accum9_first V c s o (t.val % 16) _ h0]

/-- The invariant at a later step, from the invariant at the point before. -/
theorem inv9_next (c : Dev nD) (t : Fin cfg9.N) (h0 : ¬t.val % 16 = 0)
    (ih : Inv9 V c (t.val - 1) (Nat.lt_of_le_of_lt (Nat.sub_le _ _) t.isLt)) : Inv9 V c t.val t.isLt := by
  obtain ⟨ihx, iha, -⟩ := ih
  obtain ⟨ex, ea⟩ := outs9_next V c t h0
  have hx : ∀ (p : Fin 256) (h : Fin 2048) (s : Fin 1024), s.val = t.val / 16 * 256 + p.val →
      (outsAt9 V c t.val t.isLt).2.2 (ix2 p h) = Cert.Spec.rms (xs9 V c) (gs9 V c) s h := fun p h s hs => by
    rw [ex]
    exact ihx p h s (by omega)
  have ha : ∀ (p : Fin 256) (o : Fin 2048) (s : Fin 1024), s.val = t.val / 16 * 256 + p.val →
      (outsAt9 V c t.val t.isLt).2.1 (ix2 p o) = accum9 V c s o (t.val % 16) (Nat.mod_lt _ (by decide)) := fun p o s hs => by
    rw [ea]
    refine (step9_eq V c t _ _ p o s (fun h => ihx p h s (by omega))).trans ?_
    rw [iha p o s (by omega), accum9_next V c s o (t.val % 16) _ h0]
    exact congrArg (· + tile9 V c s o ⟨t.val % 16, Nat.mod_lt _ (by decide)⟩)
      (accum9_congr V c s o _ _ (by omega))
  refine ⟨hx, ha, fun h15 p o s hs => ?_⟩
  rw [outs9_last V c t h15]
  refine (last9_eq V c t _ p o s hs).trans ?_
  rw [ha p o s hs]
  exact congrArg (· + xs9 V c s o) (accum9_congr V c s o _ _ h15)

/-- The invariant at every point, by induction along the grid. -/
theorem inv9 (c : Dev nD) : ∀ (n : ℕ) (hn : n < cfg9.N), Inv9 V c n hn
  | 0, hn => inv9_first V c ⟨0, hn⟩ (Nat.zero_mod 16)
  | n + 1, hn => by
    by_cases h0 : (n + 1) % 16 = 0
    · exact inv9_first V c ⟨n + 1, hn⟩ h0
    · exact inv9_next V c ⟨n + 1, hn⟩ h0 (inv9 c n (Nat.lt_of_succ_lt hn))

/-! ## What each row block's last point writes back, the cover, the array -/

/-- The function the output array ends holding: the feed-forward block of the arrays the region found. -/
def G9 (c : Dev nD) : Vec Ideal S1024x2048 .f32 :=
  fun i => Cert.Spec.mlp (xs9 V c) (gs9 V c) (wgs9 V c) (wus9 V c) (wds9 V c) (i 0) (i 1)

/-- The feed-forward block at a place: the hidden state's entry plus the terms of all inner rows. -/
theorem mlp9_eq (c : Dev nD) (s : Fin 1024) (o : Fin 2048) :
    Cert.Spec.mlp (xs9 V c) (gs9 V c) (wgs9 V c) (wus9 V c) (wds9 V c) s o = xs9 V c s o + ∑ i : Fin 8192, term9 V c s o i := rfl

/-- Entry `(p, o)` of the output's buffer after a last step is the feed-forward block at the entry's place. -/
theorem point9_eq (c : Dev nD) (t : Fin cfg9.N) (h15 : t.val % 16 = 15) (p : Fin 256) (o : Fin 2048) (s : Fin 1024) (o' : Fin 2048)
    (hs : s.val = t.val / 16 * 256 + p.val) (ho : o'.val = o.val) :
    (outsAt9 V c t.val t.isLt).1 (ix2 p o) = Cert.Spec.mlp (xs9 V c) (gs9 V c) (wgs9 V c) (wus9 V c) (wds9 V c) s o' := by
  obtain rfl : o' = o := Fin.ext ho
  rw [(inv9 V c t.val t.isLt).2.2 h15 p o' s hs, accum9_last, mlp9_eq, add_comm]

/-- What a last point writes back is its block of `G9`. -/
theorem flushed9_eq (c : Dev nD) (t : Fin cfg9.N) (hf : (cfg9.win 6).flush t = true) :
    (dat9 V c).flushed 6 t = ((cfg9.win 6).blk t).view.read (Elt Ideal) (G9 V c) := by
  have h15 : t.val % 16 = 15 := (flush9_6 t).mp hf
  obtain ⟨-, -, -, -, -, -, -, -, -, -, -, -, e0, e1⟩ := idx_facts9 t
  show (cfg9.win 6).cut (grid9.coords t) ((dat9 V c).after 6 t) = _
  rw [after9_6]
  funext j
  obtain ⟨p, o, rfl⟩ : ∃ (p : Fin 256) (o : Fin 2048), j = ix2 p o := ⟨j 0, j 1, eq_ix2 j⟩
  show (outsAt9 V c t.val t.isLt).1 (ix2 p o)
    = Cert.Spec.mlp (xs9 V c) (gs9 V c) (wgs9 V c) (wus9 V c) (wds9 V c)
        (((cfg9.win 6).blk t).view.emb (ix2 p o) 0) (((cfg9.win 6).blk t).view.emb (ix2 p o) 1)
  refine point9_eq V c t h15 p o _ _ ?_ ?_
  · show win9_6.index t (0 : Fin 2) * 256 + 1 * p.val = _; omega
  · show win9_6.index t (1 : Fin 2) * 2048 + 1 * o.val = _; omega

/-- An index of the array is in point `t`'s block iff each coordinate is in the block's range on its axis. -/
theorem mem_blk9 (t : Fin cfg9.N) (i : S1024x2048.Idx) :
    i ∈ ((cfg9.win 6).blk t).view.set ↔ ∀ a : Fin 2, win9_6.index t a * S256x2048.size a ≤ (i a).val ∧ (i a).val < win9_6.index t a * S256x2048.size a + S256x2048.size a := by
  show i ∈ ((View.whole main_v99).slice (win9_6.rect t)).set ↔ _
  rw [View.set_slice_whole, Rect.mem_set_unit]
  exact Iff.rfl

/-- Every index of the array is in the block of a last point: row `r` in row block `r / 256`. -/
theorem cover9 (i : S1024x2048.Idx) : ∃ t : Fin cfg9.N, (cfg9.win 6).flush t = true ∧ i ∈ ((cfg9.win 6).blk t).view.set := by
  have hi0 : (i 0).val < 1024 := (i 0).isLt
  have hi1 : (i 1).val < 2048 := (i 1).isLt
  have hN : cfg9.N = 64 := by decide
  have hlt : (i 0).val / 256 * 16 + 15 < cfg9.N := lt_of_lt_of_eq (by omega) hN.symm
  obtain ⟨-, -, -, -, -, -, -, -, -, -, -, -, e0, e1⟩ := idx_facts9 ⟨(i 0).val / 256 * 16 + 15, hlt⟩
  refine ⟨⟨(i 0).val / 256 * 16 + 15, hlt⟩, (flush9_6 _).mpr (by show ((i 0).val / 256 * 16 + 15) % 16 = 15; omega), ?_⟩
  rw [mem_blk9]
  have e0' : win9_6.index ⟨(i 0).val / 256 * 16 + 15, hlt⟩ (0 : Fin 2) = ((i 0).val / 256 * 16 + 15) / 16 := e0
  intro a
  match a with
  | ⟨0, _⟩ =>
    show win9_6.index ⟨(i 0).val / 256 * 16 + 15, hlt⟩ (0 : Fin 2) * 256 ≤ (i 0).val
      ∧ (i 0).val < win9_6.index ⟨(i 0).val / 256 * 16 + 15, hlt⟩ (0 : Fin 2) * 256 + 256
    omega
  | ⟨1, _⟩ =>
    show win9_6.index ⟨(i 0).val / 256 * 16 + 15, hlt⟩ (1 : Fin 2) * 2048 ≤ (i 1).val
      ∧ (i 1).val < win9_6.index ⟨(i 0).val / 256 * 16 + 15, hlt⟩ (1 : Fin 2) * 2048 + 2048
    omega

/-- The output array after the last point is `G9` of the arrays the region found. -/
theorem final9_arr (c : Dev nD) : (dat9 V c).arrAt 6 cfg9.N = G9 V c :=
  (dat9 V c).arrAt_eq_of_cover 6 (G9 V c) (fun t hf => flushed9_eq V c t hf) cover9

/-- Entry by entry: the feed-forward block with its residual, of the arrays the region found. -/
theorem final9 (c : Dev nD) (s : Fin 1024) (o : Fin 2048) :
    ((dat9 (F := Ideal) V c).arrAt 6 cfg9.N : Vec Ideal S1024x2048 .f32) (ix2 s o)
      = Cert.Spec.mlp (fun s h => (V c (Pipeline.arrRef spec9 0) : Vec Ideal S1024x2048 .f32) (ix2 s h))
          (fun h => (V c (Pipeline.arrRef spec9 1) : Vec Ideal S1x2048 .f32) (ix2 0 h))
          (fun i h => (V c (Pipeline.arrRef spec9 2) : Vec Ideal S8192x2048 .bf16) (ix2 i h))
          (fun i h => (V c (Pipeline.arrRef spec9 3) : Vec Ideal S8192x2048 .bf16) (ix2 i h))
          (fun o i => (V c (Pipeline.arrRef spec9 4) : Vec Ideal S2048x8192 .bf16) (ix2 o i)) s o := by
  rw [final9_arr V c]
  rfl

end Cert.KV

end
-- ==== Proof.Inputs.lean ====
/-
  The fourteen argument arrays read as the specification's objects: the hidden states of the one batch entry, the
  additive mask, the two rotary tables gathered at the positions (row `row p` of a table for the position word `p`,
  the row function a parameter), and layer `l`'s weights and gains (index `l` of each stacked array's leading axis).
-/
import proofs.«167047_j26895085207995_2_alg».proof.Proof.Spec
import Idealize.ShloMosaic.Lib.ValueIdx

noncomputable section

open Idealize.ShloMosaic Idealize.ShloMosaic.ValueIdx

namespace Cert.KV

/-- The argument arrays of either program at the extended reals (the position array holds words). -/
structure Args where
  x : (⟨3, ![1, 1024, 2048]⟩ : Shape).Idx → EReal
  mask : (⟨4, ![1, 1, 1024, 1024]⟩ : Shape).Idx → EReal
  pos : (⟨2, ![1, 1024]⟩ : Shape).Idx → BitVec 32
  cosc : (⟨2, ![1024, 64]⟩ : Shape).Idx → EReal
  sinc : (⟨2, ![1024, 64]⟩ : Shape).Idx → EReal
  ln1 : (⟨2, ![2, 2048]⟩ : Shape).Idx → EReal
  ln2 : (⟨2, ![2, 2048]⟩ : Shape).Idx → EReal
  Wq : (⟨3, ![2, 2048, 2048]⟩ : Shape).Idx → EReal
  Wk : (⟨3, ![2, 512, 2048]⟩ : Shape).Idx → EReal
  Wv : (⟨3, ![2, 512, 2048]⟩ : Shape).Idx → EReal
  Wo : (⟨3, ![2, 2048, 2048]⟩ : Shape).Idx → EReal
  Wg : (⟨3, ![2, 8192, 2048]⟩ : Shape).Idx → EReal
  Wu : (⟨3, ![2, 8192, 2048]⟩ : Shape).Idx → EReal
  Wd : (⟨3, ![2, 2048, 8192]⟩ : Shape).Idx → EReal

variable (row : BitVec 32 → Fin 1024) (a : Args)

/-- The hidden states the first layer starts from. -/
def hid0 : Cert.Spec.Hid := fun s h => a.x (ix3 0 s h)
/-- The additive attention mask. -/
def maskOf : Fin 1024 → Fin 1024 → EReal := fun s t => a.mask (ix4 0 0 s t)
/-- The cosine and sine rows at the positions. -/
def cosOf : Cert.Spec.Tab := fun s d => a.cosc (ix2 (row (a.pos (ix2 0 s))) d)
def sinOf : Cert.Spec.Tab := fun s d => a.sinc (ix2 (row (a.pos (ix2 0 s))) d)
/-- Layer `l`'s weights. -/
def weights (l : Fin 2) : Cert.Spec.LayerW where
  g1 := fun h => a.ln1 (ix2 l h)
  g2 := fun h => a.ln2 (ix2 l h)
  Wq := fun o h => a.Wq (ix3 l o h)
  Wk := fun o h => a.Wk (ix3 l o h)
  Wv := fun o h => a.Wv (ix3 l o h)
  Wo := fun o h => a.Wo (ix3 l o h)
  Wg := fun o h => a.Wg (ix3 l o h)
  Wu := fun o h => a.Wu (ix3 l o h)
  Wd := fun o h => a.Wd (ix3 l o h)

/-- The hidden states after the first layer, and the three results: the second layer's hidden states and the two
    layers' new keys and new values. -/
def hid1 : Cert.Spec.Hid := Cert.Spec.layer (hid0 a) (maskOf a) (cosOf row a) (sinOf row a) (weights a 0)
def outHid : Cert.Spec.Hid := Cert.Spec.layer (hid1 row a) (maskOf a) (cosOf row a) (sinOf row a) (weights a 1)
def outK (l : Fin 2) : Cert.Spec.Heads 8 :=
  Cert.Spec.newK (if l = 0 then hid0 a else hid1 row a) (cosOf row a) (sinOf row a) (weights a l)
def outV (l : Fin 2) : Cert.Spec.Heads 8 :=
  Cert.Spec.newV (if l = 0 then hid0 a else hid1 row a) (weights a l)

end Cert.KV

end
-- ==== Proof.Val.Row.lean ====
/-
  The table row a position word reads. Both programs take a position, add the table's length to it when it is
  negative, and hand it to a gather as a start index; the gather reads the start index as a signed integer and
  clamps it into the table. `row` is that composite on one word; `gather_rows_apply` reads a gather of whole
  rows of a two-axis table, through a column of start indices, at a result index.
-/
import Idealize.ShloMosaic.Lib.ValueIdx

noncomputable section

open Idealize.ShloMosaic Idealize.ShloMosaic.ValueIdx

namespace Cert.KV

/-- A position word as the normalisation leaves it: a negative word has the table's length, 1024, added. -/
def norm (p : BitVec 32) : BitVec 32 :=
  Scalar.select (IntOp.cmpi .slt p 0#32) (IntOp.addi p 1024#32) p

/-- The row of a 1024-row table a position word reads: the normalised word as a signed integer, clamped into
    `[0, 1023]`. -/
def row (p : BitVec 32) : Fin 1024 := ⟨min (norm p).toInt.toNat 1023, by omega⟩

section Rows
variable {α : Type}

/-- The dimension numbers of a gather of whole rows: operand `[N, C]`, start indices a column `[n, 1]`, result
    `[n, C]`; the row axis collapsed and start-indexed, the column axis the one offset axis, slices `[1, C]`. -/
abbrev rowDims (N n C : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The gather of rows read at `(p, q)`: the table at column `q` of the row that start index `p` names, read signed
    and clamped into `[0, N − 1]`. -/
theorem gather_rows_apply {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N n C wf) x idx (ix2 p q)
      = x (ix2 ⟨min (idx (ix2 p (0 : Fin 1))).toInt.toNat (N - 1), by omega⟩ q) := by
  unfold Host.gather
  congr 1
  funext a
  refine Fin.ext ?_
  show (rowDims N n C wf).start (ix2 p q) idx a + (rowDims N n C wf).batchCoord (ix2 p q) a
    + (rowDims N n C wf).offCoord (ix2 p q) a = _
  rw [GatherDims.batchCoord_eq_zero _ _ _ List.not_mem_nil]
  match a with
  | ⟨0, _⟩ =>
    rw [GatherDims.offCoord_eq_zero _ _ _
      (fun h => ((GatherDims.mem_sKept _ _).mp h).1 (List.mem_singleton.mpr rfl))]
    simp only [Nat.add_zero]
    unfold GatherDims.start
    rw [dif_pos (show (⟨0, by decide⟩ : Fin 2) ∈ (rowDims N n C wf).startIndexMap from List.mem_singleton.mpr rfl)]
    have hsi : (rowDims N n C wf).siIdx (ix2 p q) ⟨List.idxOf (⟨0, by decide⟩ : Fin 2) (rowDims N n C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, h1⟩ =>
    have hs : (rowDims N n C wf).start (ix2 p q) idx ⟨1, h1⟩ = 0 := by
      unfold GatherDims.start
      rw [dif_neg (fun h => absurd (congrArg Fin.val (List.mem_singleton.mp h)) Nat.one_ne_zero)]
    have hk : (⟨1, h1⟩ : Fin 2) ∈ (rowDims N n C wf).sKept :=
      (GatherDims.mem_sKept _ _).mpr
        ⟨fun h => absurd (congrArg Fin.val (List.mem_singleton.mp h)) Nat.one_ne_zero, List.not_mem_nil⟩
    rw [hs]
    unfold GatherDims.offCoord
    rw [dif_pos hk]
    simp only [Nat.zero_add]
    rfl

end Rows

end Cert.KV

end
-- ==== Proof.Val.ArgsOf.lean ====
/-
  The fourteen argument arrays of either program, read off a launch memory on a device as the specification's
  arguments; when two launch memories agree on the argument arrays, the two readings are equal.
-/
import proofs.«167047_j26895085207995_2_alg».proof.Proof.Inputs
import proofs.«167047_j26895085207995_2_alg».proof.KernelIdeal
import proofs.«167047_j26895085207995_2_alg».proof.ReferenceIdeal
import Idealize.ShloMosaic.Lib.ValueIdx

noncomputable section

open Idealize.ShloMosaic Idealize.ShloMosaic.ValueIdx

namespace Cert.KV

/-- The kernel program's argument arrays in the launch memory `m` on device `c`, in argument order. -/
def argsOf (m : (ℓ : Loc Cert.KernelIdeal.nD Cert.KernelIdeal.τ Cert.KernelIdeal.sig) → Buf (Elt Ideal) ℓ) (c : Dev Cert.KernelIdeal.nD) : Args where
  x := m ((c.tc : Thread Cert.KernelIdeal.nD Cert.KernelIdeal.τ).loc Cert.KernelIdeal.main_arg0)
  mask := m ((c.tc : Thread Cert.KernelIdeal.nD Cert.KernelIdeal.τ).loc Cert.KernelIdeal.main_arg1)
  pos := m ((c.tc : Thread Cert.KernelIdeal.nD Cert.KernelIdeal.τ).loc Cert.KernelIdeal.main_arg2)
  cosc := m ((c.tc : Thread Cert.KernelIdeal.nD Cert.KernelIdeal.τ).loc Cert.KernelIdeal.main_arg3)
  sinc := m ((c.tc : Thread Cert.KernelIdeal.nD Cert.KernelIdeal.τ).loc Cert.KernelIdeal.main_arg4)
  ln1 := m ((c.tc : Thread Cert.KernelIdeal.nD Cert.KernelIdeal.τ).loc Cert.KernelIdeal.main_arg5)
  ln2 := m ((c.tc : Thread Cert.KernelIdeal.nD Cert.KernelIdeal.τ).loc Cert.KernelIdeal.main_arg6)
  Wq := m ((c.tc : Thread Cert.KernelIdeal.nD Cert.KernelIdeal.τ).loc Cert.KernelIdeal.main_arg7)
  Wk := m ((c.tc : Thread Cert.KernelIdeal.nD Cert.KernelIdeal.τ).loc Cert.KernelIdeal.main_arg8)
  Wv := m ((c.tc : Thread Cert.KernelIdeal.nD Cert.KernelIdeal.τ).loc Cert.KernelIdeal.main_arg9)
  Wo := m ((c.tc : Thread Cert.KernelIdeal.nD Cert.KernelIdeal.τ).loc Cert.KernelIdeal.main_arg10)
  Wg := m ((c.tc : Thread Cert.KernelIdeal.nD Cert.KernelIdeal.τ).loc Cert.KernelIdeal.main_arg11)
  Wu := m ((c.tc : Thread Cert.KernelIdeal.nD Cert.KernelIdeal.τ).loc Cert.KernelIdeal.main_arg12)
  Wd := m ((c.tc : Thread Cert.KernelIdeal.nD Cert.KernelIdeal.τ).loc Cert.KernelIdeal.main_arg13)

/-- The reference program's argument arrays in the launch memory `m'` on device `c`, in argument order. -/
def refArgsOf (m' : (ℓ : Loc Cert.ReferenceIdeal.nD Cert.ReferenceIdeal.τ Cert.ReferenceIdeal.sig) → Buf (Elt Ideal) ℓ) (c : Dev Cert.ReferenceIdeal.nD) : Args where
  x := m' ((c.tc : Thread Cert.ReferenceIdeal.nD Cert.ReferenceIdeal.τ).loc Cert.ReferenceIdeal.main_arg0)
  mask := m' ((c.tc : Thread Cert.ReferenceIdeal.nD Cert.ReferenceIdeal.τ).loc Cert.ReferenceIdeal.main_arg1)
  pos := m' ((c.tc : Thread Cert.ReferenceIdeal.nD Cert.ReferenceIdeal.τ).loc Cert.ReferenceIdeal.main_arg2)
  cosc := m' ((c.tc : Thread Cert.ReferenceIdeal.nD Cert.ReferenceIdeal.τ).loc Cert.ReferenceIdeal.main_arg3)
  sinc := m' ((c.tc : Thread Cert.ReferenceIdeal.nD Cert.ReferenceIdeal.τ).loc Cert.ReferenceIdeal.main_arg4)
  ln1 := m' ((c.tc : Thread Cert.ReferenceIdeal.nD Cert.ReferenceIdeal.τ).loc Cert.ReferenceIdeal.main_arg5)
  ln2 := m' ((c.tc : Thread Cert.ReferenceIdeal.nD Cert.ReferenceIdeal.τ).loc Cert.ReferenceIdeal.main_arg6)
  Wq := m' ((c.tc : Thread Cert.ReferenceIdeal.nD Cert.ReferenceIdeal.τ).loc Cert.ReferenceIdeal.main_arg7)
  Wk := m' ((c.tc : Thread Cert.ReferenceIdeal.nD Cert.ReferenceIdeal.τ).loc Cert.ReferenceIdeal.main_arg8)
  Wv := m' ((c.tc : Thread Cert.ReferenceIdeal.nD Cert.ReferenceIdeal.τ).loc Cert.ReferenceIdeal.main_arg9)
  Wo := m' ((c.tc : Thread Cert.ReferenceIdeal.nD Cert.ReferenceIdeal.τ).loc Cert.ReferenceIdeal.main_arg10)
  Wg := m' ((c.tc : Thread Cert.ReferenceIdeal.nD Cert.ReferenceIdeal.τ).loc Cert.ReferenceIdeal.main_arg11)
  Wu := m' ((c.tc : Thread Cert.ReferenceIdeal.nD Cert.ReferenceIdeal.τ).loc Cert.ReferenceIdeal.main_arg12)
  Wd := m' ((c.tc : Thread Cert.ReferenceIdeal.nD Cert.ReferenceIdeal.τ).loc Cert.ReferenceIdeal.main_arg13)

section Readers

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! Each field of a reading is the memory at that argument's buffer. -/

theorem argsOf_x (c : Dev Cert.KernelIdeal.nD) : (argsOf m c).x = m ((c.tc : Thread Cert.KernelIdeal.nD Cert.KernelIdeal.τ).loc Cert.KernelIdeal.main_arg0) := rfl
theorem argsOf_mask (c : Dev Cert.KernelIdeal.nD) : (argsOf m c).mask = m ((c.tc : Thread Cert.KernelIdeal.nD Cert.KernelIdeal.τ).loc Cert.KernelIdeal.main_arg1) := rfl
theorem argsOf_pos (c : Dev Cert.KernelIdeal.nD) : (argsOf m c).pos = m ((c.tc : Thread Cert.KernelIdeal.nD Cert.KernelIdeal.τ).loc Cert.KernelIdeal.main_arg2) := rfl
theorem argsOf_cosc (c : Dev Cert.KernelIdeal.nD) : (argsOf m c).cosc = m ((c.tc : Thread Cert.KernelIdeal.nD Cert.KernelIdeal.τ).loc Cert.KernelIdeal.main_arg3) := rfl
theorem argsOf_sinc (c : Dev Cert.KernelIdeal.nD) : (argsOf m c).sinc = m ((c.tc : Thread Cert.KernelIdeal.nD Cert.KernelIdeal.τ).loc Cert.KernelIdeal.main_arg4) := rfl
theorem argsOf_ln1 (c : Dev Cert.KernelIdeal.nD) : (argsOf m c).ln1 = m ((c.tc : Thread Cert.KernelIdeal.nD Cert.KernelIdeal.τ).loc Cert.KernelIdeal.main_arg5) := rfl
theorem argsOf_ln2 (c : Dev Cert.KernelIdeal.nD) : (argsOf m c).ln2 = m ((c.tc : Thread Cert.KernelIdeal.nD Cert.KernelIdeal.τ).loc Cert.KernelIdeal.main_arg6) := rfl
theorem argsOf_Wq (c : Dev Cert.KernelIdeal.nD) : (argsOf m c).Wq = m ((c.tc : Thread Cert.KernelIdeal.nD Cert.KernelIdeal.τ).loc Cert.KernelIdeal.main_arg7) := rfl
theorem argsOf_Wk (c : Dev Cert.KernelIdeal.nD) : (argsOf m c).Wk = m ((c.tc : Thread Cert.KernelIdeal.nD Cert.KernelIdeal.τ).loc Cert.KernelIdeal.main_arg8) := rfl
theorem argsOf_Wv (c : Dev Cert.KernelIdeal.nD) : (argsOf m c).Wv = m ((c.tc : Thread Cert.KernelIdeal.nD Cert.KernelIdeal.τ).loc Cert.KernelIdeal.main_arg9) := rfl
theorem argsOf_Wo (c : Dev Cert.KernelIdeal.nD) : (argsOf m c).Wo = m ((c.tc : Thread Cert.KernelIdeal.nD Cert.KernelIdeal.τ).loc Cert.KernelIdeal.main_arg10) := rfl
theorem argsOf_Wg (c : Dev Cert.KernelIdeal.nD) : (argsOf m c).Wg = m ((c.tc : Thread Cert.KernelIdeal.nD Cert.KernelIdeal.τ).loc Cert.KernelIdeal.main_arg11) := rfl
theorem argsOf_Wu (c : Dev Cert.KernelIdeal.nD) : (argsOf m c).Wu = m ((c.tc : Thread Cert.KernelIdeal.nD Cert.KernelIdeal.τ).loc Cert.KernelIdeal.main_arg12) := rfl
theorem argsOf_Wd (c : Dev Cert.KernelIdeal.nD) : (argsOf m c).Wd = m ((c.tc : Thread Cert.KernelIdeal.nD Cert.KernelIdeal.τ).loc Cert.KernelIdeal.main_arg13) := rfl

theorem refArgsOf_x (c : Dev Cert.ReferenceIdeal.nD) : (refArgsOf m' c).x = m' ((c.tc : Thread Cert.ReferenceIdeal.nD Cert.ReferenceIdeal.τ).loc Cert.ReferenceIdeal.main_arg0) := rfl
theorem refArgsOf_mask (c : Dev Cert.ReferenceIdeal.nD) : (refArgsOf m' c).mask = m' ((c.tc : Thread Cert.ReferenceIdeal.nD Cert.ReferenceIdeal.τ).loc Cert.ReferenceIdeal.main_arg1) := rfl
theorem refArgsOf_pos (c : Dev Cert.ReferenceIdeal.nD) : (refArgsOf m' c).pos = m' ((c.tc : Thread Cert.ReferenceIdeal.nD Cert.ReferenceIdeal.τ).loc Cert.ReferenceIdeal.main_arg2) := rfl
theorem refArgsOf_cosc (c : Dev Cert.ReferenceIdeal.nD) : (refArgsOf m' c).cosc = m' ((c.tc : Thread Cert.ReferenceIdeal.nD Cert.ReferenceIdeal.τ).loc Cert.ReferenceIdeal.main_arg3) := rfl
theorem refArgsOf_sinc (c : Dev Cert.ReferenceIdeal.nD) : (refArgsOf m' c).sinc = m' ((c.tc : Thread Cert.ReferenceIdeal.nD Cert.ReferenceIdeal.τ).loc Cert.ReferenceIdeal.main_arg4) := rfl
theorem refArgsOf_ln1 (c : Dev Cert.ReferenceIdeal.nD) : (refArgsOf m' c).ln1 = m' ((c.tc : Thread Cert.ReferenceIdeal.nD Cert.ReferenceIdeal.τ).loc Cert.ReferenceIdeal.main_arg5) := rfl
theorem refArgsOf_ln2 (c : Dev Cert.ReferenceIdeal.nD) : (refArgsOf m' c).ln2 = m' ((c.tc : Thread Cert.ReferenceIdeal.nD Cert.ReferenceIdeal.τ).loc Cert.ReferenceIdeal.main_arg6) := rfl
theorem refArgsOf_Wq (c : Dev Cert.ReferenceIdeal.nD) : (refArgsOf m' c).Wq = m' ((c.tc : Thread Cert.ReferenceIdeal.nD Cert.ReferenceIdeal.τ).loc Cert.ReferenceIdeal.main_arg7) := rfl
theorem refArgsOf_Wk (c : Dev Cert.ReferenceIdeal.nD) : (refArgsOf m' c).Wk = m' ((c.tc : Thread Cert.ReferenceIdeal.nD Cert.ReferenceIdeal.τ).loc Cert.ReferenceIdeal.main_arg8) := rfl
theorem refArgsOf_Wv (c : Dev Cert.ReferenceIdeal.nD) : (refArgsOf m' c).Wv = m' ((c.tc : Thread Cert.ReferenceIdeal.nD Cert.ReferenceIdeal.τ).loc Cert.ReferenceIdeal.main_arg9) := rfl
theorem refArgsOf_Wo (c : Dev Cert.ReferenceIdeal.nD) : (refArgsOf m' c).Wo = m' ((c.tc : Thread Cert.ReferenceIdeal.nD Cert.ReferenceIdeal.τ).loc Cert.ReferenceIdeal.main_arg10) := rfl
theorem refArgsOf_Wg (c : Dev Cert.ReferenceIdeal.nD) : (refArgsOf m' c).Wg = m' ((c.tc : Thread Cert.ReferenceIdeal.nD Cert.ReferenceIdeal.τ).loc Cert.ReferenceIdeal.main_arg11) := rfl
theorem refArgsOf_Wu (c : Dev Cert.ReferenceIdeal.nD) : (refArgsOf m' c).Wu = m' ((c.tc : Thread Cert.ReferenceIdeal.nD Cert.ReferenceIdeal.τ).loc Cert.ReferenceIdeal.main_arg12) := rfl
theorem refArgsOf_Wd (c : Dev Cert.ReferenceIdeal.nD) : (refArgsOf m' c).Wd = m' ((c.tc : Thread Cert.ReferenceIdeal.nD Cert.ReferenceIdeal.τ).loc Cert.ReferenceIdeal.main_arg13) := rfl

/-- Memories that agree on the fourteen argument arrays give the two programs the same arguments. -/
theorem args_agree
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (c : Dev Cert.KernelIdeal.nD) : refArgsOf m' c = argsOf m c := by
  obtain ⟨h0, h1, h2, h3, h4, h5, h6, h7, h8, h9, h10, h11, h12, h13⟩ := hagree c
  unfold refArgsOf argsOf
  congr 1

end Readers

end Cert.KV

end
-- ==== Proof.Val.Chains.lean ====
/-
  Layout chains read at an index, over variables: the drop of two leading unit axes, one layer of a stack of two
  matrices or of two rows (a slice of the leading axis followed by the cast that drops it), and three matrices
  stacked along the rows read at a row of the first, the second or the third. Nothing here mentions a program.
-/
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.KV

section Chains
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- Layer `l` of a stack of two matrices: the slice `[l : l + 1]` of `[2, a, b]` cast to `[a, b]` reads, at `(i, j)`,
    the stack at `(l, i, j)`. -/
theorem layer_matrix_apply {a b : ℕ} (l : ℕ) (hl : l < 2) (x : (⟨3, ![2, a, b]⟩ : Shape).Idx → α)
    (hs : (⟨3, ![2, a, b]⟩ : Shape).Slices ![l, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![l, 0, 0] x hs) hc (ix2 i j)
      = x (ix3 (⟨l, hl⟩ : Fin 2) i j) := by
  refine (shapeCast_1ab_ab_apply _ _ i j).trans ?_
  refine extractStridedSlice_apply _ _ _ _ (ix3 (⟨l, hl⟩ : Fin 2) i j) fun c => ?_
  match c with
  | ⟨0, _⟩ => rfl
  | ⟨1, _⟩ => exact (Nat.zero_add _).symm
  | ⟨2, _⟩ => exact (Nat.zero_add _).symm

/-- Layer `l` of a stack of two rows: the slice `[l : l + 1]` of `[2, a]` cast to `[a]` reads, at `i`, the stack at
    `(l, i)`. -/
theorem layer_row_apply {a : ℕ} (l : ℕ) (hl : l < 2) (x : (⟨2, ![2, a]⟩ : Shape).Idx → α)
    (hs : (⟨2, ![2, a]⟩ : Shape).Slices ![l, 0] ⟨2, ![1, a]⟩)
    (hc : (⟨2, ![1, a]⟩ : Shape).ShapeCasts ⟨1, ![a]⟩) (i : Fin a) :
    shapeCast ⟨1, ![a]⟩ (extractStridedSlice ⟨2, ![1, a]⟩ ![l, 0] x hs) hc (ix1 i)
      = x (ix2 (⟨l, hl⟩ : Fin 2) i) := by
  refine (shapeCast_1a_a_apply _ _ i).trans ?_
  refine extractStridedSlice_apply _ _ _ _ (ix2 (⟨l, hl⟩ : Fin 2) i) fun c => ?_
  match c with
  | ⟨0, _⟩ => rfl
  | ⟨1, _⟩ => exact (Nat.zero_add _).symm

section Stack
variable {n0 n1 n2 N b : ℕ} (x0 : (⟨2, ![n0, b]⟩ : Shape).Idx → α) (x1 : (⟨2, ![n1, b]⟩ : Shape).Idx → α)
  (x2 : (⟨2, ![n2, b]⟩ : Shape).Idx → α)
  (hc : Shape.Concatenates (([⟨⟨2, ![n0, b]⟩, x0⟩, ⟨⟨2, ![n1, b]⟩, x1⟩, ⟨⟨2, ![n2, b]⟩, x2⟩] :
    List ((s : Shape) × (s.Idx → α))).map (·.1)) ⟨2, ![N, b]⟩ (0 : Fin 2))

/-- Three matrices stacked along the rows, read at a row of the first. -/
theorem stack3_fst_apply (o : Fin n0) (h : Fin b) (r : Fin N) (hr : r.val = o.val) :
    concatenate ⟨2, ![N, b]⟩ (0 : Fin 2) [⟨⟨2, ![n0, b]⟩, x0⟩, ⟨⟨2, ![n1, b]⟩, x1⟩, ⟨⟨2, ![n2, b]⟩, x2⟩] hc (ix2 r h)
      = x0 (ix2 o h) :=
  concatenate_apply_piece (0 : Fin 2) _ hc (ix2 r h) 0 (by simp) ⟨2, ![n0, b]⟩ x0 rfl rfl 0 rfl (ix2 o h)
    (fun c hcne => match c, hcne with
      | ⟨0, _⟩, hcne => absurd rfl hcne
      | ⟨1, _⟩, _ => rfl)
    (by show 0 + o.val = r.val; omega)

/-- Three matrices stacked along the rows, read at a row of the second. -/
theorem stack3_snd_apply (o : Fin n1) (h : Fin b) (r : Fin N) (hr : r.val = n0 + o.val) :
    concatenate ⟨2, ![N, b]⟩ (0 : Fin 2) [⟨⟨2, ![n0, b]⟩, x0⟩, ⟨⟨2, ![n1, b]⟩, x1⟩, ⟨⟨2, ![n2, b]⟩, x2⟩] hc (ix2 r h)
      = x1 (ix2 o h) :=
  concatenate_apply_piece (0 : Fin 2) _ hc (ix2 r h) 1 (by simp) ⟨2, ![n1, b]⟩ x1 rfl rfl n0
    (by simp) (ix2 o h)
    (fun c hcne => match c, hcne with
      | ⟨0, _⟩, hcne => absurd rfl hcne
      | ⟨1, _⟩, _ => rfl)
    (by show n0 + o.val = r.val; omega)

/-- Three matrices stacked along the rows, read at a row of the third. -/
theorem stack3_thd_apply (o : Fin n2) (h : Fin b) (r : Fin N) (hr : r.val = n0 + n1 + o.val) :
    concatenate ⟨2, ![N, b]⟩ (0 : Fin 2) [⟨⟨2, ![n0, b]⟩, x0⟩, ⟨⟨2, ![n1, b]⟩, x1⟩, ⟨⟨2, ![n2, b]⟩, x2⟩] hc (ix2 r h)
      = x2 (ix2 o h) :=
  concatenate_apply_piece (0 : Fin 2) _ hc (ix2 r h) 2 (by simp) ⟨2, ![n2, b]⟩ x2 rfl rfl (n0 + n1)
    (by simp) (ix2 o h)
    (fun c hcne => match c, hcne with
      | ⟨0, _⟩, hcne => absurd rfl hcne
      | ⟨1, _⟩, _ => rfl)
    (by show n0 + n1 + o.val = r.val; omega)

end Stack

end Chains

end Cert.KV

end
-- ==== Proof.Val.Host0.lean ====
/-
  What the host operations before the first call leave in the buffers the calls read, at an index, as functions of
  what the stretch found: the input with its unit batch axis dropped, the mask with its two unit axes dropped, the
  cosine and sine rows gathered at the normalised positions, the weights converted to the narrow float type (the
  identity on the extended reals), layer 0 of each stacked weight, the three projection weights of layer 0 stacked
  along the rows, and the two gain rows of layer 0 (the second one laid as a one-row matrix by the one operation
  before the feed-forward call). The valuation `W` the stretch starts from is arbitrary.
-/
import proofs.«167047_j26895085207995_2_alg».proof.Proof.Gen.KernelIdeal.Launch
import proofs.«167047_j26895085207995_2_alg».proof.Proof.Val.Row
import proofs.«167047_j26895085207995_2_alg».proof.Proof.Val.Chains
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.TcCoe Idealize.ShloMosaic.ValueIdx
open Cert.KernelIdeal

namespace Cert.KV

/-- The second half of the library's reading of a line of operations: each operation's result at its own result
    buffer is its function's value, at any other reference what was there; outermost first, until none applies. -/
macro "read_results" : tactic =>
  `(tactic| repeat (first
      | rw [StableHlo.nullary_result] | rw [StableHlo.unary_result] | rw [StableHlo.binary_result]
      | rw [StableHlo.ternary_result] | rw [StableHlo.reshape_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)
      | (rw [StableHlo.nary_result_ne]; rotate_left; decide)))

/-- The column of start indices the program builds from the positions — the positions as a vector, a negative one
    with 1024 added, laid as an `[1024, 1]` column — holds at row `s` the normalised word of position `s`. -/
theorem start_column_apply (v : Vec Ideal S1x1024 .i32) (hc : S1x1024.ShapeCasts S1024)
    (hb : S_.BroadcastsInDim S1024 ![]) (hcol : S1024.BroadcastsInDim S1024x1 ![0]) (s : Fin 1024) :
    broadcastInDim S1024x1 ![0] hcol
        (select (cmpi .slt (shapeCast S1024 v hc) (broadcastInDim S1024 ![] hb (constantI S_ 32 0#32)))
          (addi (shapeCast S1024 v hc) (broadcastInDim S1024 ![] hb (constantI S_ 32 1024#32)))
          (shapeCast S1024 v hc)) (ix2 s (0 : Fin 1))
      = norm (v (ix2 (0 : Fin 1) s)) := by
  refine (broadcastInDim_apply _ _ _ _ (ix1 s) (fun a => match a with | ⟨0, _⟩ => rfl)).trans ?_
  show Scalar.select (IntOp.cmpi .slt (shapeCast S1024 v hc (ix1 s)) 0#32)
      (IntOp.addi (shapeCast S1024 v hc (ix1 s)) 1024#32) (shapeCast S1024 v hc (ix1 s)) = _
  rw [shapeCast_1a_a_apply]
  rfl

variable (W : Valuation τ sig (Elt Ideal))

/-! ## The input, the mask, the gathered rows -/

theorem host0_x (s : Fin 1024) (h : Fin 2048) :
    (StableHlo.after Gen.hostOps0 W main_v23 : Vec Ideal S1024x2048 .f32) (ix2 s h)
      = (W main_arg0 : Vec Ideal S1x1024x2048 .f32) (ix3 (0 : Fin 1) s h) := by
  dsimp only [Gen.hostOps0]
  after_results
  exact shapeCast_1ab_ab_apply _ _ s h

theorem host0_mask (s t : Fin 1024) :
    (StableHlo.after Gen.hostOps0 W main_v15 : Vec Ideal S1024x1024 .f32) (ix2 s t)
      = (W main_arg1 : Vec Ideal S1x1x1024x1024 .f32) (ix4 (0 : Fin 1) (0 : Fin 1) s t) := by
  dsimp only [Gen.hostOps0]
  after_results
  exact shapeCast_11ab_ab_apply _ _ s t

theorem host0_cos (s : Fin 1024) (d : Fin 64) :
    (StableHlo.after Gen.hostOps0 W main_v7 : Vec Ideal S1024x64 .f32) (ix2 s d)
      = (W main_arg3 : Vec Ideal S1024x64 .f32) (ix2 (row ((W main_arg2 : Vec Ideal S1x1024 .i32) (ix2 (0 : Fin 1) s))) d) := by
  dsimp only [Gen.hostOps0]
  after_results
  refine (gather_rows_apply (by decide) _ _ _ s d).trans ?_
  exact congrArg (fun p : BitVec 32 => (W main_arg3 : Vec Ideal S1024x64 .f32) (ix2 ⟨min p.toInt.toNat (1024 - 1), by omega⟩ d))
    (start_column_apply (W main_arg2) _ _ _ s)

theorem host0_sin (s : Fin 1024) (d : Fin 64) :
    (StableHlo.after Gen.hostOps0 W main_v14 : Vec Ideal S1024x64 .f32) (ix2 s d)
      = (W main_arg4 : Vec Ideal S1024x64 .f32) (ix2 (row ((W main_arg2 : Vec Ideal S1x1024 .i32) (ix2 (0 : Fin 1) s))) d) := by
  dsimp only [Gen.hostOps0]
  after_results_simp
  refine (gather_rows_apply (by decide) _ _ _ s d).trans ?_
  exact congrArg (fun p : BitVec 32 => (W main_arg4 : Vec Ideal S1024x64 .f32) (ix2 ⟨min p.toInt.toNat (1024 - 1), by omega⟩ d))
    (start_column_apply (W main_arg2) _ _ _ s)

/-! ## The converted weights: the conversion is the identity on the extended reals -/

theorem host0_cvt_wq (l : Fin 2) (o h : Fin 2048) :
    (StableHlo.after Gen.hostOps0 W main_v16 : Vec Ideal S2x2048x2048 .bf16) (ix3 l o h)
      = (W main_arg7 : Vec Ideal S2x2048x2048 .f32) (ix3 l o h) := by
  dsimp only [Gen.hostOps0]
  after_results
  rfl

theorem host0_cvt_wk (l : Fin 2) (o : Fin 512) (h : Fin 2048) :
    (StableHlo.after Gen.hostOps0 W main_v17 : Vec Ideal S2x512x2048 .bf16) (ix3 l o h)
      = (W main_arg8 : Vec Ideal S2x512x2048 .f32) (ix3 l o h) := by
  dsimp only [Gen.hostOps0]
  after_results
  rfl

theorem host0_cvt_wv (l : Fin 2) (o : Fin 512) (h : Fin 2048) :
    (StableHlo.after Gen.hostOps0 W main_v18 : Vec Ideal S2x512x2048 .bf16) (ix3 l o h)
      = (W main_arg9 : Vec Ideal S2x512x2048 .f32) (ix3 l o h) := by
  dsimp only [Gen.hostOps0]
  after_results
  rfl

theorem host0_cvt_wo (l : Fin 2) (o h : Fin 2048) :
    (StableHlo.after Gen.hostOps0 W main_v19 : Vec Ideal S2x2048x2048 .bf16) (ix3 l o h)
      = (W main_arg10 : Vec Ideal S2x2048x2048 .f32) (ix3 l o h) := by
  dsimp only [Gen.hostOps0]
  after_results
  rfl

theorem host0_cvt_wg (l : Fin 2) (i : Fin 8192) (h : Fin 2048) :
    (StableHlo.after Gen.hostOps0 W main_v20 : Vec Ideal S2x8192x2048 .bf16) (ix3 l i h)
      = (W main_arg11 : Vec Ideal S2x8192x2048 .f32) (ix3 l i h) := by
  dsimp only [Gen.hostOps0]
  after_results
  rfl

theorem host0_cvt_wu (l : Fin 2) (i : Fin 8192) (h : Fin 2048) :
    (StableHlo.after Gen.hostOps0 W main_v21 : Vec Ideal S2x8192x2048 .bf16) (ix3 l i h)
      = (W main_arg12 : Vec Ideal S2x8192x2048 .f32) (ix3 l i h) := by
  dsimp only [Gen.hostOps0]
  after_results
  rfl

theorem host0_cvt_wd (l : Fin 2) (o : Fin 2048) (i : Fin 8192) :
    (StableHlo.after Gen.hostOps0 W main_v22 : Vec Ideal S2x2048x8192 .bf16) (ix3 l o i)
      = (W main_arg13 : Vec Ideal S2x2048x8192 .f32) (ix3 l o i) := by
  dsimp only [Gen.hostOps0]
  after_results
  rfl

/-! ## Layer 0's projection weights stacked along the rows: rows 0..2047 the query weight, 2048..2559 the key
    weight, 2560..3071 the value weight -/

theorem host0_wq (o h : Fin 2048) :
    (StableHlo.after Gen.hostOps0 W main_v30 : Vec Ideal S3072x2048 .bf16) (ix2 (⟨o.val, by omega⟩ : Fin 3072) h)
      = (W main_arg7 : Vec Ideal S2x2048x2048 .f32) (ix3 (0 : Fin 2) o h) := by
  dsimp only [Gen.hostOps0]
  after_results
  refine (stack3_fst_apply _ _ _ _ o h (⟨o.val, by omega⟩ : Fin 3072) rfl).trans ?_
  dsimp only [Matrix.cons_val]
  read_results
  exact layer_matrix_apply 0 (by decide) _ _ _ o h

theorem host0_wk (o : Fin 512) (h : Fin 2048) :
    (StableHlo.after Gen.hostOps0 W main_v30 : Vec Ideal S3072x2048 .bf16) (ix2 (⟨2048 + o.val, by omega⟩ : Fin 3072) h)
      = (W main_arg8 : Vec Ideal S2x512x2048 .f32) (ix3 (0 : Fin 2) o h) := by
  dsimp only [Gen.hostOps0]
  after_results
  refine (stack3_snd_apply _ _ _ _ o h (⟨2048 + o.val, by omega⟩ : Fin 3072) rfl).trans ?_
  dsimp only [Matrix.cons_val]
  read_results
  exact layer_matrix_apply 0 (by decide) _ _ _ o h

theorem host0_wv (o : Fin 512) (h : Fin 2048) :
    (StableHlo.after Gen.hostOps0 W main_v30 : Vec Ideal S3072x2048 .bf16) (ix2 (⟨2560 + o.val, by omega⟩ : Fin 3072) h)
      = (W main_arg9 : Vec Ideal S2x512x2048 .f32) (ix3 (0 : Fin 2) o h) := by
  dsimp only [Gen.hostOps0]
  after_results
  refine (stack3_thd_apply _ _ _ _ o h (⟨2560 + o.val, by omega⟩ : Fin 3072) rfl).trans ?_
  dsimp only [Matrix.cons_val]
  read_results
  exact layer_matrix_apply 0 (by decide) _ _ _ o h

/-! ## Layer 0's gain rows and its other weights -/

theorem host0_g1 (h : Fin 2048) :
    (StableHlo.after Gen.hostOps0 W main_v43 : Vec Ideal S1x2048 .f32) (ix2 (0 : Fin 1) h)
      = (W main_arg5 : Vec Ideal S2x2048 .f32) (ix2 (0 : Fin 2) h) := by
  dsimp only [Gen.hostOps0]
  after_results
  refine (shapeCast_a_1a_apply _ _ (0 : Fin 1) h).trans ?_
  exact layer_row_apply 0 (by decide) _ _ _ h

theorem host0_ln2 (h : Fin 2048) :
    (StableHlo.after Gen.hostOps0 W main_v34 : Vec Ideal S2048 .f32) (ix1 h)
      = (W main_arg6 : Vec Ideal S2x2048 .f32) (ix2 (0 : Fin 2) h) := by
  dsimp only [Gen.hostOps0]
  after_results
  exact layer_row_apply 0 (by decide) _ _ _ h

theorem host0_wo (o h : Fin 2048) :
    (StableHlo.after Gen.hostOps0 W main_v36 : Vec Ideal S2048x2048 .bf16) (ix2 o h)
      = (W main_arg10 : Vec Ideal S2x2048x2048 .f32) (ix3 (0 : Fin 2) o h) := by
  dsimp only [Gen.hostOps0]
  after_results
  exact layer_matrix_apply 0 (by decide) _ _ _ o h

theorem host0_wg (i : Fin 8192) (h : Fin 2048) :
    (StableHlo.after Gen.hostOps0 W main_v38 : Vec Ideal S8192x2048 .bf16) (ix2 i h)
      = (W main_arg11 : Vec Ideal S2x8192x2048 .f32) (ix3 (0 : Fin 2) i h) := by
  dsimp only [Gen.hostOps0]
  after_results
  exact layer_matrix_apply 0 (by decide) _ _ _ i h

theorem host0_wu (i : Fin 8192) (h : Fin 2048) :
    (StableHlo.after Gen.hostOps0 W main_v40 : Vec Ideal S8192x2048 .bf16) (ix2 i h)
      = (W main_arg12 : Vec Ideal S2x8192x2048 .f32) (ix3 (0 : Fin 2) i h) := by
  dsimp only [Gen.hostOps0]
  after_results
  exact layer_matrix_apply 0 (by decide) _ _ _ i h

theorem host0_wd (o : Fin 2048) (i : Fin 8192) :
    (StableHlo.after Gen.hostOps0 W main_v42 : Vec Ideal S2048x8192 .bf16) (ix2 o i)
      = (W main_arg13 : Vec Ideal S2x2048x8192 .f32) (ix3 (0 : Fin 2) o i) := by
  dsimp only [Gen.hostOps0]
  after_results
  exact layer_matrix_apply 0 (by decide) _ _ _ o i

/-! ## The second gain row as a one-row matrix -/

theorem host4_g2 (h : Fin 2048) :
    (StableHlo.after Gen.hostOps4 W main_v59 : Vec Ideal S1x2048 .f32) (ix2 (0 : Fin 1) h)
      = (W main_v34 : Vec Ideal S2048 .f32) (ix1 h) := by
  dsimp only [Gen.hostOps4]
  after_results
  exact shapeCast_a_1a_apply _ _ (0 : Fin 1) h

end Cert.KV

end
-- ==== Proof.Val.Host5.lean ====
/-
  The second layer's weights, read entry by entry. Every weight array of the model holds both layers along its first
  axis. Before the second layer's calls the program only re-lays them out: it cuts layer `1` out of each stack and
  drops the unit axis the cut leaves, lays the query, key and value weights one under the other, and turns a gain
  vector into a one-row table. No arithmetic happens here; each statement says which entry of which buffer an entry
  of a buffer written by the stretch is.
-/
import proofs.«167047_j26895085207995_2_alg».proof.Proof.Gen.KernelIdeal.Launch
import proofs.«167047_j26895085207995_2_alg».proof.Proof.Val.Chains
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.TcCoe Idealize.ShloMosaic.ValueIdx
open Cert.KernelIdeal

namespace Cert.KV

/-- Reading a line of layout operations at one buffer, once the buffer is a literal: an operation's result at its own
    result buffer is its function's value, at any other buffer what was there; outermost first, until none applies. -/
macro "read_results5" : tactic =>
  `(tactic| repeat (first
      | rw [StableHlo.unary_result] | rw [StableHlo.reshape_result]
      | (rw [StableHlo.unary_result_ne]; rotate_left; decide)
      | (rw [StableHlo.reshape_result_ne]; rotate_left; decide)))

/-! ## Before the second layer: its weights cut out of the two-layer stacks

Every weight array holds both layers along its first axis. Before the second layer's calls the program cuts layer `1`
out of each and drops the unit axis the cut leaves, so an entry of the cut is the entry of the stack with `1` put in
front of its coordinates. The query, key and value weights are then laid one under the other in one matrix of
`2048 + 512 + 512` rows, which the normalise-and-project call multiplies by in one go: rows `0 .. 2047` are the
query weights, rows `2048 .. 2559` the key weights and rows `2560 .. 3071` the value weights. The first
normalisation's gain is turned into a one-row table. Each statement is over an arbitrary valuation `W` of the buffers
found when the stretch starts. -/

variable (W : Valuation τ sig (Elt Ideal))

/-- Rows `0 .. 2047` of the stacked projection weights are the second layer's query weights. -/
theorem host5_wq (o h : Fin 2048) : (StableHlo.after Gen.hostOps5 W main_v69 : Vec Ideal S3072x2048 .bf16) (ix2 (⟨o.val, by omega⟩ : Fin 3072) h) = (W main_v16 : Vec Ideal S2x2048x2048 .bf16) (ix3 (1 : Fin 2) o h) := by
  dsimp only [Gen.hostOps5]
  after_results
  refine (stack3_fst_apply _ _ _ _ o h (⟨o.val, by omega⟩ : Fin 3072) (by rfl)).trans ?_
  dsimp only [Matrix.cons_val]
  read_results5
  exact layer_matrix_apply 1 (by decide) _ _ _ o h

/-- Rows `2048 .. 2559` are the second layer's key weights. -/
theorem host5_wk (o : Fin 512) (h : Fin 2048) : (StableHlo.after Gen.hostOps5 W main_v69 : Vec Ideal S3072x2048 .bf16) (ix2 (⟨2048 + o.val, by omega⟩ : Fin 3072) h) = (W main_v17 : Vec Ideal S2x512x2048 .bf16) (ix3 (1 : Fin 2) o h) := by
  dsimp only [Gen.hostOps5]
  after_results
  refine (stack3_snd_apply _ _ _ _ o h (⟨2048 + o.val, by omega⟩ : Fin 3072) (by rfl)).trans ?_
  dsimp only [Matrix.cons_val]
  read_results5
  exact layer_matrix_apply 1 (by decide) _ _ _ o h

/-- Rows `2560 .. 3071` are the second layer's value weights. -/
theorem host5_wv (o : Fin 512) (h : Fin 2048) : (StableHlo.after Gen.hostOps5 W main_v69 : Vec Ideal S3072x2048 .bf16) (ix2 (⟨2560 + o.val, by omega⟩ : Fin 3072) h) = (W main_v18 : Vec Ideal S2x512x2048 .bf16) (ix3 (1 : Fin 2) o h) := by
  dsimp only [Gen.hostOps5]
  after_results
  refine (stack3_thd_apply _ _ _ _ o h (⟨2560 + o.val, by omega⟩ : Fin 3072) (by rfl)).trans ?_
  dsimp only [Matrix.cons_val]
  read_results5
  exact layer_matrix_apply 1 (by decide) _ _ _ o h

/-- The second layer's first normalisation gain, as a one-row table. -/
theorem host5_g1 (h : Fin 2048) : (StableHlo.after Gen.hostOps5 W main_v82 : Vec Ideal S1x2048 .f32) (ix2 (0 : Fin 1) h) = (W main_arg5 : Vec Ideal S2x2048 .f32) (ix2 (1 : Fin 2) h) := by
  dsimp only [Gen.hostOps5]
  after_results
  refine (shapeCast_a_1a_apply _ _ (0 : Fin 1) h).trans ?_
  exact layer_row_apply 1 (by decide) _ _ _ h

/-- The second layer's second normalisation gain, as a vector. -/
theorem host5_ln2 (h : Fin 2048) : (StableHlo.after Gen.hostOps5 W main_v73 : Vec Ideal S2048 .f32) (ix1 h) = (W main_arg6 : Vec Ideal S2x2048 .f32) (ix2 (1 : Fin 2) h) := by
  dsimp only [Gen.hostOps5]
  after_results
  exact layer_row_apply 1 (by decide) _ _ _ h

/-- The second layer's output-projection weights. -/
theorem host5_wo (o h : Fin 2048) : (StableHlo.after Gen.hostOps5 W main_v75 : Vec Ideal S2048x2048 .bf16) (ix2 o h) = (W main_v19 : Vec Ideal S2x2048x2048 .bf16) (ix3 (1 : Fin 2) o h) := by
  dsimp only [Gen.hostOps5]
  after_results
  exact layer_matrix_apply 1 (by decide) _ _ _ o h

/-- The second layer's gate weights. -/
theorem host5_wg (i : Fin 8192) (h : Fin 2048) : (StableHlo.after Gen.hostOps5 W main_v77 : Vec Ideal S8192x2048 .bf16) (ix2 i h) = (W main_v20 : Vec Ideal S2x8192x2048 .bf16) (ix3 (1 : Fin 2) i h) := by
  dsimp only [Gen.hostOps5]
  after_results
  exact layer_matrix_apply 1 (by decide) _ _ _ i h

/-- The second layer's up-projection weights. -/
theorem host5_wu (i : Fin 8192) (h : Fin 2048) : (StableHlo.after Gen.hostOps5 W main_v79 : Vec Ideal S8192x2048 .bf16) (ix2 i h) = (W main_v21 : Vec Ideal S2x8192x2048 .bf16) (ix3 (1 : Fin 2) i h) := by
  dsimp only [Gen.hostOps5]
  after_results
  exact layer_matrix_apply 1 (by decide) _ _ _ i h

/-- The second layer's down-projection weights. -/
theorem host5_wd (o : Fin 2048) (i : Fin 8192) : (StableHlo.after Gen.hostOps5 W main_v81 : Vec Ideal S2048x8192 .bf16) (ix2 o i) = (W main_v22 : Vec Ideal S2x2048x8192 .bf16) (ix3 (1 : Fin 2) o i) := by
  dsimp only [Gen.hostOps5]
  after_results
  exact layer_matrix_apply 1 (by decide) _ _ _ o i

/-! ## Before the second layer's feed-forward call -/

/-- The second layer's second normalisation gain, as a one-row table. -/
theorem host9_g2 (h : Fin 2048) : (StableHlo.after Gen.hostOps9 W main_v98 : Vec Ideal S1x2048 .f32) (ix2 (0 : Fin 1) h) = (W main_v73 : Vec Ideal S2048 .f32) (ix1 h) := by
  dsimp only [Gen.hostOps9]
  after_results
  exact shapeCast_a_1a_apply _ _ (0 : Fin 1) h

end Cert.KV

end
-- ==== Proof.Val.Host1.lean ====
import proofs.«167047_j26895085207995_2_alg».proof.Proof.Gen.KernelIdeal.Launch
import Idealize.ShloMosaic.Lib.ValueIdx
import Idealize.ShloMosaic.Lib.Pipeline.Value
import Idealize.ShloMosaic.Lib.StableHlo.Run

/-! # The activation stretches between the calls, read entry by entry

Between two calls the program only re-lays arrays out; no arithmetic happens there. Each layer does the same three things.

* After the normalise-and-project call the `1024 x 3072` projection is cut by columns into queries (columns `0 .. 2047`),
  keys (`2048 .. 2559`) and values (`2560 .. 3071`); each part's columns are regrouped as heads of 64 lanes
  (column `hd * 64 + d` is lane `d` of head `hd`) and the position and head axes are exchanged. So entry `(hd, s, d)` of
  the query heads is entry `(s, hd * 64 + d)` of the projection, and the key and value heads read columns
  `2048 + kv * 64 + d` and `2560 + kv * 64 + d`.
* After the attention call the heads are laid side by side again: entry `(s, o)` of the `1024 x 2048` result is entry
  `(o / 64, s, o % 64)` of the attention output.
* Before the second layer, and again at the end, the new keys and values of a layer get a leading axis of extent one; at
  the end the two layers' arrays get one more and are stacked along a new first axis, layer one at index `0` and layer
  two at index `1`, and the final hidden state gets a leading axis of extent one.

Each statement is over an arbitrary valuation `W` of the buffers found when the stretch starts, and says which entry of
which buffer of `W` an entry of a buffer written by the stretch is. -/

noncomputable section

open Idealize.ShloMosaic Idealize.ShloMosaic.TcCoe Idealize.ShloMosaic.ValueIdx
open Cert.KernelIdeal Cert.KernelIdeal.Facts₀ Cert.KernelIdeal.Facts

namespace Cert.KV

/-! ## The layout operations composed, at an entry -/

/-- The first 2048 columns regrouped as 32 heads of 64 lanes, heads first: entry `(hd, s, d)` is entry
    `(s, hd * 64 + d)` of the array. The exchange of axes reads `(s, hd, d)`; the regrouping keeps the row-major position,
    `(s * 32 + hd) * 64 + d = s * 2048 + (hd * 64 + d)`; the cut starts at column `0`. -/
theorem qHeads_apply (x : Vec Ideal S1024x3072 .f32) (hd : Fin 32) (s : Fin 1024) (d : Fin 64) :
    transpose S32x1024x64 [1, 0, 2] (shapeCast S1024x32x64 (extractStridedSlice S1024x2048 ![0, 0] x slices_S1024x3072_S1024x2048_0_0)
      shapeCasts_S1024x2048_S1024x32x64) transposes_S1024x32x64_S32x1024x64_1_0_2 (ix3 hd s d)
      = x (ix2 s ⟨hd.val * 64 + d.val, by have := hd.isLt; have := d.isLt; omega⟩) := by
  refine (transpose_apply _ _ _ _ (ix3 s hd d) (fun b => match b with | ⟨0, _⟩ => rfl | ⟨1, _⟩ => rfl | ⟨2, _⟩ => rfl)).trans ?_
  refine (shapeCast_apply _ _ _ (ix2 s ⟨hd.val * 64 + d.val, by have := hd.isLt; have := d.isLt; omega⟩)
    (by rw [Shape.rowMajor_val_two, Shape.rowMajor_val_three]
        show s.val * 2048 + (hd.val * 64 + d.val) = (s.val * 32 + hd.val) * 64 + d.val
        omega)).trans ?_
  exact extractStridedSlice_apply _ _ _ _ _ (fun a => match a with
    | ⟨0, _⟩ => by show s.val = 0 + s.val; omega
    | ⟨1, _⟩ => by show hd.val * 64 + d.val = 0 + (hd.val * 64 + d.val); omega)

/-- 512 columns starting at column `off` regrouped as 8 heads of 64 lanes, heads first: entry `(kv, s, d)` is entry
    `(s, off + kv * 64 + d)` of the array (the keys at `off = 2048`, the values at `off = 2560`). -/
theorem kvHeads_apply (off : Nat) (x : Vec Ideal S1024x3072 .f32) (h : S1024x3072.Slices ![0, off] S1024x512)
    (kv : Fin 8) (s : Fin 1024) (d : Fin 64) (hlt : off + kv.val * 64 + d.val < 3072) :
    transpose S8x1024x64 [1, 0, 2] (shapeCast S1024x8x64 (extractStridedSlice S1024x512 ![0, off] x h)
      shapeCasts_S1024x512_S1024x8x64) transposes_S1024x8x64_S8x1024x64_1_0_2 (ix3 kv s d)
      = x (ix2 s ⟨off + kv.val * 64 + d.val, hlt⟩) := by
  refine (transpose_apply _ _ _ _ (ix3 s kv d) (fun b => match b with | ⟨0, _⟩ => rfl | ⟨1, _⟩ => rfl | ⟨2, _⟩ => rfl)).trans ?_
  refine (shapeCast_apply _ _ _ (ix2 s ⟨kv.val * 64 + d.val, by have := kv.isLt; have := d.isLt; omega⟩)
    (by rw [Shape.rowMajor_val_two, Shape.rowMajor_val_three]
        show s.val * 512 + (kv.val * 64 + d.val) = (s.val * 8 + kv.val) * 64 + d.val
        omega)).trans ?_
  exact extractStridedSlice_apply _ _ _ _ _ (fun a => match a with
    | ⟨0, _⟩ => by show s.val = 0 + s.val; omega
    | ⟨1, _⟩ => by show off + kv.val * 64 + d.val = off + (kv.val * 64 + d.val); omega)

/-- The heads laid side by side: entry `(s, o)` is entry `(o / 64, s, o % 64)` of the per-head array. The regrouping keeps
    the row-major position, `(s * 32 + o / 64) * 64 + o % 64 = s * 2048 + o`; the exchange of axes reads `(o / 64, s, o % 64)`. -/
theorem sideBySide_apply (a : Vec Ideal S32x1024x64 .f32) (s : Fin 1024) (o : Fin 2048) :
    shapeCast S1024x2048 (transpose S1024x32x64 [1, 0, 2] a transposes_S32x1024x64_S1024x32x64_1_0_2)
      shapeCasts_S1024x32x64_S1024x2048 (ix2 s o)
      = a (ix3 ⟨o.val / 64, by have := o.isLt; omega⟩ s ⟨o.val % 64, Nat.mod_lt _ (by decide)⟩) := by
  refine (shapeCast_apply _ _ _ (ix3 s ⟨o.val / 64, by have := o.isLt; omega⟩ ⟨o.val % 64, Nat.mod_lt _ (by decide)⟩)
    (by rw [Shape.rowMajor_val_three, Shape.rowMajor_val_two]
        show (s.val * 32 + o.val / 64) * 64 + o.val % 64 = s.val * 2048 + o.val
        omega)).trans ?_
  exact transpose_apply _ _ _ _ _ (fun b => match b with | ⟨0, _⟩ => rfl | ⟨1, _⟩ => rfl | ⟨2, _⟩ => rfl)

/-- A leading axis of extent one put before a `1024 x 2048` array: entry `(0, s, h)` is entry `(s, h)`. -/
theorem lead3_apply (x : Vec Ideal S1024x2048 .f32) (s : Fin 1024) (h : Fin 2048) :
    broadcastInDim S1x1024x2048 ![1, 2] bcast_S1024x2048_S1x1024x2048_1_2 x (ix3 (0 : Fin 1) s h) = x (ix2 s h) :=
  broadcastInDim_apply _ _ _ _ _ (fun a => match a with | ⟨0, _⟩ => rfl | ⟨1, _⟩ => rfl)

/-- A leading axis of extent one put before a per-head array: entry `(0, kv, s, d)` is entry `(kv, s, d)`. -/
theorem lead4_apply (x : Vec Ideal S8x1024x64 .f32) (kv : Fin 8) (s : Fin 1024) (d : Fin 64) :
    broadcastInDim S1x8x1024x64 ![1, 2, 3] bcast_S8x1024x64_S1x8x1024x64_1_2_3 x (ix4 (0 : Fin 1) kv s d) = x (ix3 kv s d) :=
  broadcastInDim_apply _ _ _ _ _ (fun a => match a with | ⟨0, _⟩ => rfl | ⟨1, _⟩ => rfl | ⟨2, _⟩ => rfl)

/-- One more leading axis of extent one: entry `(0, 0, kv, s, d)` is entry `(0, kv, s, d)`. -/
theorem lead5_apply (x : Vec Ideal S1x8x1024x64 .f32) (kv : Fin 8) (s : Fin 1024) (d : Fin 64) :
    broadcastInDim S1x1x8x1024x64 ![1, 2, 3, 4] bcast_S1x8x1024x64_S1x1x8x1024x64_1_2_3_4 x (ix5 (0 : Fin 1) (0 : Fin 1) kv s d)
      = x (ix4 (0 : Fin 1) kv s d) :=
  broadcastInDim_apply _ _ _ _ _ (fun a => match a with | ⟨0, _⟩ => rfl | ⟨1, _⟩ => rfl | ⟨2, _⟩ => rfl | ⟨3, _⟩ => rfl)

/-- Two arrays stacked along a new first axis: index `0` of that axis reads the first … -/
theorem stack_zero (a b : Vec Ideal S1x1x8x1024x64 .f32) (kv : Fin 8) (s : Fin 1024) (d : Fin 64) :
    concatenate S2x1x8x1024x64 0 [⟨S1x1x8x1024x64, a⟩, ⟨S1x1x8x1024x64, b⟩]
      concatenates_S1x1x8x1024x64_S1x1x8x1024x64_S2x1x8x1024x64_d0 (ix5 (0 : Fin 2) (0 : Fin 1) kv s d)
      = a (ix5 (0 : Fin 1) (0 : Fin 1) kv s d) :=
  concatenate_pair_apply_left (t := S2x1x8x1024x64) 0 a b concatenates_S1x1x8x1024x64_S1x1x8x1024x64_S2x1x8x1024x64_d0
    (ix5 (0 : Fin 2) (0 : Fin 1) kv s d) rfl (ix5 (0 : Fin 1) (0 : Fin 1) kv s d)
    (fun b => match b with | ⟨0, _⟩ => rfl | ⟨1, _⟩ => rfl | ⟨2, _⟩ => rfl | ⟨3, _⟩ => rfl | ⟨4, _⟩ => rfl)

/-- … and index `1` reads the second, at its own index `0` (the first array's extent, one, taken off). -/
theorem stack_one (a b : Vec Ideal S1x1x8x1024x64 .f32) (kv : Fin 8) (s : Fin 1024) (d : Fin 64) :
    concatenate S2x1x8x1024x64 0 [⟨S1x1x8x1024x64, a⟩, ⟨S1x1x8x1024x64, b⟩]
      concatenates_S1x1x8x1024x64_S1x1x8x1024x64_S2x1x8x1024x64_d0 (ix5 (1 : Fin 2) (0 : Fin 1) kv s d)
      = b (ix5 (0 : Fin 1) (0 : Fin 1) kv s d) :=
  concatenate_pair_apply_right (t := S2x1x8x1024x64) 0 a b concatenates_S1x1x8x1024x64_S1x1x8x1024x64_S2x1x8x1024x64_d0
    (ix5 (1 : Fin 2) (0 : Fin 1) kv s d) rfl rfl (ix5 (0 : Fin 1) (0 : Fin 1) kv s d)
    (fun b => match b with
      | ⟨0, _⟩ => fun hne => absurd rfl hne
      | ⟨1, _⟩ => fun _ => rfl | ⟨2, _⟩ => fun _ => rfl | ⟨3, _⟩ => fun _ => rfl | ⟨4, _⟩ => fun _ => rfl)
    rfl

/-! ## The stretches -/

variable (W : Valuation τ sig (Elt Ideal))

/-! ### After the first layer's projection: the heads -/

/-- The first layer's query heads: entry `(hd, s, d)` is entry `(s, hd * 64 + d)` of the projection. -/
theorem host1_q (hd : Fin 32) (s : Fin 1024) (d : Fin 64) :
    (StableHlo.after (Gen.hostOps1 (F := Ideal)) W main_v49 : Vec Ideal S32x1024x64 .f32) (ix3 hd s d)
      = (W main_v44 : Vec Ideal S1024x3072 .f32) (ix2 s ⟨hd.val * 64 + d.val, by have := hd.isLt; have := d.isLt; omega⟩) := by
  dsimp only [Gen.hostOps1]
  after_results
  exact qHeads_apply _ hd s d

/-- The first layer's key heads: entry `(kv, s, d)` is entry `(s, 2048 + kv * 64 + d)` of the projection. -/
theorem host1_k (kv : Fin 8) (s : Fin 1024) (d : Fin 64) :
    (StableHlo.after (Gen.hostOps1 (F := Ideal)) W main_v51 : Vec Ideal S8x1024x64 .f32) (ix3 kv s d)
      = (W main_v44 : Vec Ideal S1024x3072 .f32) (ix2 s ⟨2048 + kv.val * 64 + d.val, by have := kv.isLt; have := d.isLt; omega⟩) := by
  dsimp only [Gen.hostOps1]
  after_results
  exact kvHeads_apply 2048 _ _ kv s d _

/-- The first layer's value heads: entry `(kv, s, d)` is entry `(s, 2560 + kv * 64 + d)` of the projection. -/
theorem host1_v (kv : Fin 8) (s : Fin 1024) (d : Fin 64) :
    (StableHlo.after (Gen.hostOps1 (F := Ideal)) W main_v53 : Vec Ideal S8x1024x64 .f32) (ix3 kv s d)
      = (W main_v44 : Vec Ideal S1024x3072 .f32) (ix2 s ⟨2560 + kv.val * 64 + d.val, by have := kv.isLt; have := d.isLt; omega⟩) := by
  dsimp only [Gen.hostOps1]
  after_results
  exact kvHeads_apply 2560 _ _ kv s d _

/-! ### After the first layer's attention: the heads side by side -/

/-- The first layer's attention output as a `1024 x 2048` array: entry `(s, o)` is entry `(o / 64, s, o % 64)` of the
    per-head output. -/
theorem host3_merge (s : Fin 1024) (o : Fin 2048) :
    (StableHlo.after (Gen.hostOps3 (F := Ideal)) W main_v57 : Vec Ideal S1024x2048 .f32) (ix2 s o)
      = (W main_v55 : Vec Ideal S32x1024x64 .f32)
          (ix3 ⟨o.val / 64, by have := o.isLt; omega⟩ s ⟨o.val % 64, Nat.mod_lt _ (by decide)⟩) := by
  dsimp only [Gen.hostOps3]
  after_results
  exact sideBySide_apply _ s o

/-! ### Before the second layer: the first layer's new keys and values under a leading axis -/

/-- The first layer's new keys under a leading axis of extent one. -/
theorem host5_k (kv : Fin 8) (s : Fin 1024) (d : Fin 64) :
    (StableHlo.after (Gen.hostOps5 (F := Ideal)) W main_v61 : Vec Ideal S1x8x1024x64 .f32) (ix4 (0 : Fin 1) kv s d)
      = (W main_v54 : Vec Ideal S8x1024x64 .f32) (ix3 kv s d) := by
  dsimp only [Gen.hostOps5]
  after_results
  exact lead4_apply _ kv s d

/-- The first layer's new values under a leading axis of extent one. -/
theorem host5_v (kv : Fin 8) (s : Fin 1024) (d : Fin 64) :
    (StableHlo.after (Gen.hostOps5 (F := Ideal)) W main_v62 : Vec Ideal S1x8x1024x64 .f32) (ix4 (0 : Fin 1) kv s d)
      = (W main_v53 : Vec Ideal S8x1024x64 .f32) (ix3 kv s d) := by
  dsimp only [Gen.hostOps5]
  after_results
  exact lead4_apply _ kv s d

/-! ### After the second layer's projection: the heads -/

/-- The second layer's query heads. -/
theorem host6_q (hd : Fin 32) (s : Fin 1024) (d : Fin 64) :
    (StableHlo.after (Gen.hostOps6 (F := Ideal)) W main_v88 : Vec Ideal S32x1024x64 .f32) (ix3 hd s d)
      = (W main_v83 : Vec Ideal S1024x3072 .f32) (ix2 s ⟨hd.val * 64 + d.val, by have := hd.isLt; have := d.isLt; omega⟩) := by
  dsimp only [Gen.hostOps6]
  after_results
  exact qHeads_apply _ hd s d

/-- The second layer's key heads. -/
theorem host6_k (kv : Fin 8) (s : Fin 1024) (d : Fin 64) :
    (StableHlo.after (Gen.hostOps6 (F := Ideal)) W main_v90 : Vec Ideal S8x1024x64 .f32) (ix3 kv s d)
      = (W main_v83 : Vec Ideal S1024x3072 .f32) (ix2 s ⟨2048 + kv.val * 64 + d.val, by have := kv.isLt; have := d.isLt; omega⟩) := by
  dsimp only [Gen.hostOps6]
  after_results
  exact kvHeads_apply 2048 _ _ kv s d _

/-- The second layer's value heads. -/
theorem host6_v (kv : Fin 8) (s : Fin 1024) (d : Fin 64) :
    (StableHlo.after (Gen.hostOps6 (F := Ideal)) W main_v92 : Vec Ideal S8x1024x64 .f32) (ix3 kv s d)
      = (W main_v83 : Vec Ideal S1024x3072 .f32) (ix2 s ⟨2560 + kv.val * 64 + d.val, by have := kv.isLt; have := d.isLt; omega⟩) := by
  dsimp only [Gen.hostOps6]
  after_results
  exact kvHeads_apply 2560 _ _ kv s d _

/-! ### After the second layer's attention -/

/-- The second layer's attention output as a `1024 x 2048` array. -/
theorem host8_merge (s : Fin 1024) (o : Fin 2048) :
    (StableHlo.after (Gen.hostOps8 (F := Ideal)) W main_v96 : Vec Ideal S1024x2048 .f32) (ix2 s o)
      = (W main_v94 : Vec Ideal S32x1024x64 .f32)
          (ix3 ⟨o.val / 64, by have := o.isLt; omega⟩ s ⟨o.val % 64, Nat.mod_lt _ (by decide)⟩) := by
  dsimp only [Gen.hostOps8]
  after_results
  exact sideBySide_apply _ s o

/-! ### The results -/

/-- The final hidden state under a leading axis of extent one. -/
theorem host10_out (s : Fin 1024) (h : Fin 2048) :
    (StableHlo.after (Gen.hostOps10 (F := Ideal)) W main_v102 : Vec Ideal S1x1024x2048 .f32) (ix3 (0 : Fin 1) s h)
      = (W main_v99 : Vec Ideal S1024x2048 .f32) (ix2 s h) := by
  dsimp only [Gen.hostOps10]
  after_results
  exact lead3_apply _ s h

/-- The stacked new keys at layer index `0`: the first layer's, as the stretch finds them. -/
theorem host10_k0 (kv : Fin 8) (s : Fin 1024) (d : Fin 64) :
    (StableHlo.after (Gen.hostOps10 (F := Ideal)) W main_v105 : Vec Ideal S2x1x8x1024x64 .f32) (ix5 (0 : Fin 2) (0 : Fin 1) kv s d)
      = (W main_v61 : Vec Ideal S1x8x1024x64 .f32) (ix4 (0 : Fin 1) kv s d) := by
  dsimp only [Gen.hostOps10]
  after_results
  refine (stack_zero _ _ kv s d).trans ?_
  exact lead5_apply _ kv s d

/-- The stacked new keys at layer index `1`: the second layer's, through its two added leading axes. -/
theorem host10_k1 (kv : Fin 8) (s : Fin 1024) (d : Fin 64) :
    (StableHlo.after (Gen.hostOps10 (F := Ideal)) W main_v105 : Vec Ideal S2x1x8x1024x64 .f32) (ix5 (1 : Fin 2) (0 : Fin 1) kv s d)
      = (W main_v93 : Vec Ideal S8x1024x64 .f32) (ix3 kv s d) := by
  dsimp only [Gen.hostOps10]
  after_results
  refine (stack_one _ _ kv s d).trans ?_
  refine (lead5_apply _ kv s d).trans ?_
  exact lead4_apply _ kv s d

/-- The stacked new values at layer index `0`: the first layer's. -/
theorem host10_v0 (kv : Fin 8) (s : Fin 1024) (d : Fin 64) :
    (StableHlo.after (Gen.hostOps10 (F := Ideal)) W main_v108 : Vec Ideal S2x1x8x1024x64 .f32) (ix5 (0 : Fin 2) (0 : Fin 1) kv s d)
      = (W main_v62 : Vec Ideal S1x8x1024x64 .f32) (ix4 (0 : Fin 1) kv s d) := by
  dsimp only [Gen.hostOps10]
  after_results
  refine (stack_zero _ _ kv s d).trans ?_
  exact lead5_apply _ kv s d

/-- The stacked new values at layer index `1`: the second layer's value heads. -/
theorem host10_v1 (kv : Fin 8) (s : Fin 1024) (d : Fin 64) :
    (StableHlo.after (Gen.hostOps10 (F := Ideal)) W main_v108 : Vec Ideal S2x1x8x1024x64 .f32) (ix5 (1 : Fin 2) (0 : Fin 1) kv s d)
      = (W main_v92 : Vec Ideal S8x1024x64 .f32) (ix3 kv s d) := by
  dsimp only [Gen.hostOps10]
  after_results
  refine (stack_one _ _ kv s d).trans ?_
  refine (lead5_apply _ kv s d).trans ?_
  exact lead4_apply _ kv s d

end Cert.KV

end
-- ==== Proof.Val.Walk.lean ====
import proofs.«167047_j26895085207995_2_alg».proof.Proof.Gen.KernelIdeal.Regions
import proofs.«167047_j26895085207995_2_alg».proof.Proof.Inputs
import proofs.«167047_j26895085207995_2_alg».proof.Proof.Val.Row
import proofs.«167047_j26895085207995_2_alg».proof.Proof.Val.ArgsOf
import proofs.«167047_j26895085207995_2_alg».proof.Proof.Val.Host0
import proofs.«167047_j26895085207995_2_alg».proof.Proof.Val.Host5
import proofs.«167047_j26895085207995_2_alg».proof.Proof.Val.Host1
import Idealize.ShloMosaic.Lib.ValueIdx
import Idealize.ShloMosaic.Lib.StableHlo.Run

/-! # The program's three results, walked from the arguments through its nineteen boundaries

The program alternates host stretches and kernel regions. Between two items every buffer holds definite
contents: the launch contents pushed through each host stretch, and after a region the same contents with
the region's output array replaced. This module follows the arrays that matter from the fourteen arguments to
the three results, for ANY contents the regions may leave, under ten hypotheses: what each region leaves in
its output array is the specification's function (stacked projection of the normalised input, rotary
embedding, attention, output projection plus residual, gated feed-forward block plus residual) of the arrays
the region is entered with. Along the way a buffer that no item in between writes keeps its contents, the
host's slices, reshapes and transposes only rename coordinates, and the stacked projection weight splits
into the three projections' weights row-wise. The conclusion: the final hidden states are the second layer's
result of the specification, and the stacked keys and values are the two layers' new keys and new values. -/

set_option maxRecDepth 16384

noncomputable section

open scoped BigOperators
open Idealize.ShloMosaic Idealize.ShloMosaic.TcCoe Idealize.ShloMosaic.ValueIdx
open Cert.KernelIdeal

namespace Cert.KV

open Cert.KernelIdeal.Gen

variable (m : (ℓ : Loc nD τ sig) → Buf (Elt Ideal) ℓ)

/-- The three projection weights of a layer stacked row-wise, as the program hands them to its first kernel:
    rows 0..2047 the query weight's, rows 2048..2559 the key weight's, rows 2560..3071 the value weight's. -/
def qkvRows (w : Cert.Spec.LayerW) : Cert.Spec.Wt 3072 2048 := fun o h =>
  if h1 : o.val < 2048 then w.Wq ⟨o.val, h1⟩ h
  else if h2 : o.val < 2560 then w.Wk ⟨o.val - 2048, by have := o.isLt; omega⟩ h
  else w.Wv ⟨o.val - 2560, by have := o.isLt; omega⟩ h

/-! ## The specification's objects of core c's arguments -/

/-- The hidden states the first layer starts from, the mask, the two rotary tables at the positions, a layer's
    weights, and the hidden states between the layers. -/
abbrev xIn (c : Dev nD) : Cert.Spec.Hid := hid0 (argsOf m c)
abbrev msk (c : Dev nD) : Fin 1024 → Fin 1024 → EReal := maskOf (argsOf m c)
abbrev cosT (c : Dev nD) : Cert.Spec.Tab := cosOf row (argsOf m c)
abbrev sinT (c : Dev nD) : Cert.Spec.Tab := sinOf row (argsOf m c)
abbrev wts (c : Dev nD) (l : Fin 2) : Cert.Spec.LayerW := weights (argsOf m c) l
abbrev xMid (c : Dev nD) : Cert.Spec.Hid := hid1 row (argsOf m c)

/-! ## The stacked projection weight against the three projections -/

section Stacked
variable (y : Fin 1024 → Fin 2048 → EReal) (w : Cert.Spec.LayerW)

/-- Column hd * 64 + d of the stacked projection is lane d of query head hd. -/
theorem proj_stacked_q (s : Fin 1024) (hd : Fin 32) (d : Fin 64) :
    Cert.Spec.proj y (qkvRows w) s ⟨hd.val * 64 + d.val, by have := hd.isLt; have := d.isLt; omega⟩
      = Cert.Spec.heads (n := 32) (Cert.Spec.proj y w.Wq) hd s d := by
  have h1 : hd.val * 64 + d.val < 2048 := by have := hd.isLt; have := d.isLt; omega
  unfold Cert.Spec.heads Cert.Spec.proj
  refine Finset.sum_congr rfl fun h _ => ?_
  unfold qkvRows
  rw [dif_pos h1]

/-- Column 2048 + kv * 64 + d of the stacked projection is lane d of key head kv. -/
theorem proj_stacked_k (s : Fin 1024) (kv : Fin 8) (d : Fin 64) :
    Cert.Spec.proj y (qkvRows w) s ⟨2048 + kv.val * 64 + d.val, by have := kv.isLt; have := d.isLt; omega⟩
      = Cert.Spec.heads (n := 8) (Cert.Spec.proj y w.Wk) kv s d := by
  have h1 : ¬ 2048 + kv.val * 64 + d.val < 2048 := by omega
  have h2 : 2048 + kv.val * 64 + d.val < 2560 := by have := kv.isLt; have := d.isLt; omega
  unfold Cert.Spec.heads Cert.Spec.proj
  refine Finset.sum_congr rfl fun h _ => ?_
  unfold qkvRows
  rw [dif_neg h1, dif_pos h2]
  exact congrArg (fun i => y s h * w.Wk i h) (Fin.ext (by show 2048 + kv.val * 64 + d.val - 2048 = kv.val * 64 + d.val; omega))

/-- Column 2560 + kv * 64 + d of the stacked projection is lane d of value head kv. -/
theorem proj_stacked_v (s : Fin 1024) (kv : Fin 8) (d : Fin 64) :
    Cert.Spec.proj y (qkvRows w) s ⟨2560 + kv.val * 64 + d.val, by have := kv.isLt; have := d.isLt; omega⟩
      = Cert.Spec.heads (n := 8) (Cert.Spec.proj y w.Wv) kv s d := by
  have h1 : ¬ 2560 + kv.val * 64 + d.val < 2048 := by omega
  have h2 : ¬ 2560 + kv.val * 64 + d.val < 2560 := by omega
  unfold Cert.Spec.heads Cert.Spec.proj
  refine Finset.sum_congr rfl fun h _ => ?_
  unfold qkvRows
  rw [dif_neg h1, dif_neg h2]
  exact congrArg (fun i => y s h * w.Wv i h) (Fin.ext (by show 2560 + kv.val * 64 + d.val - 2560 = kv.val * 64 + d.val; omega))

end Stacked

/-- A residual plus an update, entry by entry. -/
def addRes (r p : Cert.Spec.Hid) : Cert.Spec.Hid := fun s o => r s o + p s o

/-! ## What each kernel region leaves, as hypotheses -/

variable (outs : Outs (F := Ideal))

/-- What the ten kernel regions leave in their output arrays, each as the specification's function of the arrays
    the region is entered with: the walk below is stated under these. -/
structure RegionValues : Prop where
  r0 : ∀ (c : Dev nD) (s : Fin 1024) (o : Fin 3072),
    (outs 2 main_v44 c : Vec Ideal S1024x3072 .f32) (ix2 s o)
      = Cert.Spec.proj (Cert.Spec.rms (fun s h => (V1 m c main_v23 : Vec Ideal S1024x2048 .f32) (ix2 s h))
            (fun h => (V1 m c main_v43 : Vec Ideal S1x2048 .f32) (ix2 (0 : Fin 1) h)))
          (fun o h => (V1 m c main_v30 : Vec Ideal S3072x2048 .bf16) (ix2 o h)) s o
  r1 : ∀ (c : Dev nD) (kv : Fin 8) (s : Fin 1024) (d : Fin 64),
    (outs 4 main_v54 c : Vec Ideal S8x1024x64 .f32) (ix3 kv s d)
      = Cert.Spec.rope (fun kv s d => (V3 m outs c main_v51 : Vec Ideal S8x1024x64 .f32) (ix3 kv s d))
          (fun s d => (V3 m outs c main_v7 : Vec Ideal S1024x64 .f32) (ix2 s d))
          (fun s d => (V3 m outs c main_v14 : Vec Ideal S1024x64 .f32) (ix2 s d)) kv s d
  r2 : ∀ (c : Dev nD) (hd : Fin 32) (s : Fin 1024) (d : Fin 64),
    (outs 5 main_v55 c : Vec Ideal S32x1024x64 .f32) (ix3 hd s d)
      = Cert.Spec.attn
          (Cert.Spec.rope (fun hd s d => (V4 m outs c main_v49 : Vec Ideal S32x1024x64 .f32) (ix3 hd s d))
            (fun s d => (V4 m outs c main_v7 : Vec Ideal S1024x64 .f32) (ix2 s d))
            (fun s d => (V4 m outs c main_v14 : Vec Ideal S1024x64 .f32) (ix2 s d)))
          (fun kv s d => (V4 m outs c main_v54 : Vec Ideal S8x1024x64 .f32) (ix3 kv s d))
          (fun kv s d => (V4 m outs c main_v53 : Vec Ideal S8x1024x64 .f32) (ix3 kv s d))
          (fun s t => (V4 m outs c main_v15 : Vec Ideal S1024x1024 .f32) (ix2 s t)) hd s d
  r3 : ∀ (c : Dev nD) (s : Fin 1024) (o : Fin 2048),
    (outs 7 main_v58 c : Vec Ideal S1024x2048 .f32) (ix2 s o)
      = addRes (fun s o => (V6 m outs c main_v23 : Vec Ideal S1024x2048 .f32) (ix2 s o))
          (Cert.Spec.proj (fun s h => (V6 m outs c main_v57 : Vec Ideal S1024x2048 .f32) (ix2 s h))
            (fun o h => (V6 m outs c main_v36 : Vec Ideal S2048x2048 .bf16) (ix2 o h))) s o
  r4 : ∀ (c : Dev nD) (s : Fin 1024) (o : Fin 2048),
    (outs 9 main_v60 c : Vec Ideal S1024x2048 .f32) (ix2 s o)
      = Cert.Spec.mlp (fun s h => (V8 m outs c main_v58 : Vec Ideal S1024x2048 .f32) (ix2 s h))
          (fun h => (V8 m outs c main_v59 : Vec Ideal S1x2048 .f32) (ix2 (0 : Fin 1) h))
          (fun i h => (V8 m outs c main_v38 : Vec Ideal S8192x2048 .bf16) (ix2 i h))
          (fun i h => (V8 m outs c main_v40 : Vec Ideal S8192x2048 .bf16) (ix2 i h))
          (fun o i => (V8 m outs c main_v42 : Vec Ideal S2048x8192 .bf16) (ix2 o i)) s o
  r5 : ∀ (c : Dev nD) (s : Fin 1024) (o : Fin 3072),
    (outs 11 main_v83 c : Vec Ideal S1024x3072 .f32) (ix2 s o)
      = Cert.Spec.proj (Cert.Spec.rms (fun s h => (V10 m outs c main_v60 : Vec Ideal S1024x2048 .f32) (ix2 s h))
            (fun h => (V10 m outs c main_v82 : Vec Ideal S1x2048 .f32) (ix2 (0 : Fin 1) h)))
          (fun o h => (V10 m outs c main_v69 : Vec Ideal S3072x2048 .bf16) (ix2 o h)) s o
  r6 : ∀ (c : Dev nD) (kv : Fin 8) (s : Fin 1024) (d : Fin 64),
    (outs 13 main_v93 c : Vec Ideal S8x1024x64 .f32) (ix3 kv s d)
      = Cert.Spec.rope (fun kv s d => (V12 m outs c main_v90 : Vec Ideal S8x1024x64 .f32) (ix3 kv s d))
          (fun s d => (V12 m outs c main_v7 : Vec Ideal S1024x64 .f32) (ix2 s d))
          (fun s d => (V12 m outs c main_v14 : Vec Ideal S1024x64 .f32) (ix2 s d)) kv s d
  r7 : ∀ (c : Dev nD) (hd : Fin 32) (s : Fin 1024) (d : Fin 64),
    (outs 14 main_v94 c : Vec Ideal S32x1024x64 .f32) (ix3 hd s d)
      = Cert.Spec.attn
          (Cert.Spec.rope (fun hd s d => (V13 m outs c main_v88 : Vec Ideal S32x1024x64 .f32) (ix3 hd s d))
            (fun s d => (V13 m outs c main_v7 : Vec Ideal S1024x64 .f32) (ix2 s d))
            (fun s d => (V13 m outs c main_v14 : Vec Ideal S1024x64 .f32) (ix2 s d)))
          (fun kv s d => (V13 m outs c main_v93 : Vec Ideal S8x1024x64 .f32) (ix3 kv s d))
          (fun kv s d => (V13 m outs c main_v92 : Vec Ideal S8x1024x64 .f32) (ix3 kv s d))
          (fun s t => (V13 m outs c main_v15 : Vec Ideal S1024x1024 .f32) (ix2 s t)) hd s d
  r8 : ∀ (c : Dev nD) (s : Fin 1024) (o : Fin 2048),
    (outs 16 main_v97 c : Vec Ideal S1024x2048 .f32) (ix2 s o)
      = addRes (fun s o => (V15 m outs c main_v60 : Vec Ideal S1024x2048 .f32) (ix2 s o))
          (Cert.Spec.proj (fun s h => (V15 m outs c main_v96 : Vec Ideal S1024x2048 .f32) (ix2 s h))
            (fun o h => (V15 m outs c main_v75 : Vec Ideal S2048x2048 .bf16) (ix2 o h))) s o
  r9 : ∀ (c : Dev nD) (s : Fin 1024) (o : Fin 2048),
    (outs 18 main_v99 c : Vec Ideal S1024x2048 .f32) (ix2 s o)
      = Cert.Spec.mlp (fun s h => (V17 m outs c main_v97 : Vec Ideal S1024x2048 .f32) (ix2 s h))
          (fun h => (V17 m outs c main_v98 : Vec Ideal S1x2048 .f32) (ix2 (0 : Fin 1) h))
          (fun i h => (V17 m outs c main_v77 : Vec Ideal S8192x2048 .bf16) (ix2 i h))
          (fun i h => (V17 m outs c main_v79 : Vec Ideal S8192x2048 .bf16) (ix2 i h))
          (fun o i => (V17 m outs c main_v81 : Vec Ideal S2048x8192 .bf16) (ix2 o i)) s o

/-! ## A buffer no item writes keeps its contents -/

/-- Rewrites a boundary's contents at a reference back through every item that does not write the reference. -/
local macro "carry" : tactic =>
  `(tactic| repeat (first
    | (rw [V19_of]; rotate_left; decide) | (rw [V18_of]; rotate_left; decide) | (rw [V17_of]; rotate_left; decide)
    | (rw [V16_of]; rotate_left; decide) | (rw [V15_of]; rotate_left; decide) | (rw [V14_of]; rotate_left; decide)
    | (rw [V13_of]; rotate_left; decide) | (rw [V12_of]; rotate_left; decide) | (rw [V11_of]; rotate_left; decide)
    | (rw [V10_of]; rotate_left; decide) | (rw [V9_of]; rotate_left; decide) | (rw [V8_of]; rotate_left; decide)
    | (rw [V7_of]; rotate_left; decide) | (rw [V6_of]; rotate_left; decide) | (rw [V5_of]; rotate_left; decide)
    | (rw [V4_of]; rotate_left; decide) | (rw [V3_of]; rotate_left; decide) | (rw [V2_of]; rotate_left; decide)
    | (rw [V1_of]; rotate_left; decide)))

/-! ## The arrays the first host stretch makes -/

theorem e_x (c : Dev nD) (s : Fin 1024) (h : Fin 2048) :
    (V1 m c main_v23 : Vec Ideal S1024x2048 .f32) (ix2 s h) = xIn m c s h := host0_x (V0 m c) s h
theorem e_mask (c : Dev nD) (s t : Fin 1024) :
    (V1 m c main_v15 : Vec Ideal S1024x1024 .f32) (ix2 s t) = msk m c s t := host0_mask (V0 m c) s t
theorem e_cos (c : Dev nD) (s : Fin 1024) (d : Fin 64) :
    (V1 m c main_v7 : Vec Ideal S1024x64 .f32) (ix2 s d) = cosT m c s d := host0_cos (V0 m c) s d
theorem e_sin (c : Dev nD) (s : Fin 1024) (d : Fin 64) :
    (V1 m c main_v14 : Vec Ideal S1024x64 .f32) (ix2 s d) = sinT m c s d := host0_sin (V0 m c) s d
theorem e_g1 (c : Dev nD) (h : Fin 2048) :
    (V1 m c main_v43 : Vec Ideal S1x2048 .f32) (ix2 (0 : Fin 1) h) = (wts m c 0).g1 h := host0_g1 (V0 m c) h
theorem e_g2 (c : Dev nD) (h : Fin 2048) :
    (V1 m c main_v34 : Vec Ideal S2048 .f32) (ix1 h) = (wts m c 0).g2 h := host0_ln2 (V0 m c) h
theorem e_wo (c : Dev nD) (o h : Fin 2048) :
    (V1 m c main_v36 : Vec Ideal S2048x2048 .bf16) (ix2 o h) = (wts m c 0).Wo o h := host0_wo (V0 m c) o h
theorem e_wg (c : Dev nD) (i : Fin 8192) (h : Fin 2048) :
    (V1 m c main_v38 : Vec Ideal S8192x2048 .bf16) (ix2 i h) = (wts m c 0).Wg i h := host0_wg (V0 m c) i h
theorem e_wu (c : Dev nD) (i : Fin 8192) (h : Fin 2048) :
    (V1 m c main_v40 : Vec Ideal S8192x2048 .bf16) (ix2 i h) = (wts m c 0).Wu i h := host0_wu (V0 m c) i h
theorem e_wd (c : Dev nD) (o : Fin 2048) (i : Fin 8192) :
    (V1 m c main_v42 : Vec Ideal S2048x8192 .bf16) (ix2 o i) = (wts m c 0).Wd o i := host0_wd (V0 m c) o i

/-- A stacked weight array read row by row: rows below 2048 through the first reading, rows 2048..2559 through
    the second, the rest through the third. -/
theorem stacked_rows (A : (⟨2, ![3072, 2048]⟩ : Shape).Idx → EReal) (w : Cert.Spec.LayerW) (h : Fin 2048)
    (hq : ∀ o : Fin 2048, A (ix2 (⟨o.val, by have := o.isLt; omega⟩ : Fin 3072) h) = w.Wq o h)
    (hk : ∀ o : Fin 512, A (ix2 (⟨2048 + o.val, by have := o.isLt; omega⟩ : Fin 3072) h) = w.Wk o h)
    (hv : ∀ o : Fin 512, A (ix2 (⟨2560 + o.val, by have := o.isLt; omega⟩ : Fin 3072) h) = w.Wv o h)
    (o : Fin 3072) : A (ix2 o h) = qkvRows w o h := by
  unfold qkvRows
  by_cases h1 : o.val < 2048
  · rw [dif_pos h1]; exact hq ⟨o.val, h1⟩
  · rw [dif_neg h1]
    by_cases h2 : o.val < 2560
    · rw [dif_pos h2]
      have e : o = (⟨2048 + (o.val - 2048), by have := o.isLt; omega⟩ : Fin 3072) :=
        Fin.ext (by show o.val = 2048 + (o.val - 2048); omega)
      exact (congrArg (fun o' : Fin 3072 => A (ix2 o' h)) e).trans (hk ⟨o.val - 2048, by have := o.isLt; omega⟩)
    · rw [dif_neg h2]
      have e : o = (⟨2560 + (o.val - 2560), by have := o.isLt; omega⟩ : Fin 3072) :=
        Fin.ext (by show o.val = 2560 + (o.val - 2560); omega)
      exact (congrArg (fun o' : Fin 3072 => A (ix2 o' h)) e).trans (hv ⟨o.val - 2560, by have := o.isLt; omega⟩)

/-- The first layer's stacked projection weight, row by row. -/
theorem e_wqkv (c : Dev nD) (o : Fin 3072) (h : Fin 2048) :
    (V1 m c main_v30 : Vec Ideal S3072x2048 .bf16) (ix2 o h) = qkvRows (wts m c 0) o h :=
  stacked_rows (V1 m c main_v30 : Vec Ideal S3072x2048 .bf16) (wts m c 0) h
    (fun o => host0_wq (V0 m c) o h) (fun o => host0_wk (V0 m c) o h) (fun o => host0_wv (V0 m c) o h) o

/-- The second layer's weights as the first host stretch narrows them (narrowing changes nothing on the
    extended reals). -/
theorem e_cq (c : Dev nD) (o h : Fin 2048) :
    (V1 m c main_v16 : Vec Ideal S2x2048x2048 .bf16) (ix3 (1 : Fin 2) o h) = (wts m c 1).Wq o h := host0_cvt_wq (V0 m c) 1 o h
theorem e_ck (c : Dev nD) (o : Fin 512) (h : Fin 2048) :
    (V1 m c main_v17 : Vec Ideal S2x512x2048 .bf16) (ix3 (1 : Fin 2) o h) = (wts m c 1).Wk o h := host0_cvt_wk (V0 m c) 1 o h
theorem e_cv (c : Dev nD) (o : Fin 512) (h : Fin 2048) :
    (V1 m c main_v18 : Vec Ideal S2x512x2048 .bf16) (ix3 (1 : Fin 2) o h) = (wts m c 1).Wv o h := host0_cvt_wv (V0 m c) 1 o h
theorem e_co (c : Dev nD) (o h : Fin 2048) :
    (V1 m c main_v19 : Vec Ideal S2x2048x2048 .bf16) (ix3 (1 : Fin 2) o h) = (wts m c 1).Wo o h := host0_cvt_wo (V0 m c) 1 o h
theorem e_cg (c : Dev nD) (i : Fin 8192) (h : Fin 2048) :
    (V1 m c main_v20 : Vec Ideal S2x8192x2048 .bf16) (ix3 (1 : Fin 2) i h) = (wts m c 1).Wg i h := host0_cvt_wg (V0 m c) 1 i h
theorem e_cu (c : Dev nD) (i : Fin 8192) (h : Fin 2048) :
    (V1 m c main_v21 : Vec Ideal S2x8192x2048 .bf16) (ix3 (1 : Fin 2) i h) = (wts m c 1).Wu i h := host0_cvt_wu (V0 m c) 1 i h
theorem e_cd (c : Dev nD) (o : Fin 2048) (i : Fin 8192) :
    (V1 m c main_v22 : Vec Ideal S2x2048x8192 .bf16) (ix3 (1 : Fin 2) o i) = (wts m c 1).Wd o i := host0_cvt_wd (V0 m c) 1 o i

/-! ## The regions' hypotheses at named arrays

Each hypothesis restated for ANY functions the region's arrays are known to read as, entry by entry. -/

section Named
variable {m outs} (H : RegionValues m outs)
include H

theorem reg_qkv1 (c : Dev nD) (X : Cert.Spec.Hid) (G : Fin 2048 → EReal) (Wm : Cert.Spec.Wt 3072 2048)
    (hX : ∀ s h, (V1 m c main_v23 : Vec Ideal S1024x2048 .f32) (ix2 s h) = X s h)
    (hG : ∀ h, (V1 m c main_v43 : Vec Ideal S1x2048 .f32) (ix2 (0 : Fin 1) h) = G h)
    (hW : ∀ o h, (V1 m c main_v30 : Vec Ideal S3072x2048 .bf16) (ix2 o h) = Wm o h)
    (s : Fin 1024) (o : Fin 3072) :
    (outs 2 main_v44 c : Vec Ideal S1024x3072 .f32) (ix2 s o) = Cert.Spec.proj (Cert.Spec.rms X G) Wm s o := by
  obtain rfl : (fun s h => (V1 m c main_v23 : Vec Ideal S1024x2048 .f32) (ix2 s h)) = X :=
    funext fun s => funext fun h => hX s h
  obtain rfl : (fun h => (V1 m c main_v43 : Vec Ideal S1x2048 .f32) (ix2 (0 : Fin 1) h)) = G := funext fun h => hG h
  obtain rfl : (fun o h => (V1 m c main_v30 : Vec Ideal S3072x2048 .bf16) (ix2 o h)) = Wm :=
    funext fun o => funext fun h => hW o h
  exact H.r0 c s o

theorem reg_rope1 (c : Dev nD) (K : Cert.Spec.Heads 8) (cs sn : Cert.Spec.Tab)
    (hK : ∀ kv s d, (V3 m outs c main_v51 : Vec Ideal S8x1024x64 .f32) (ix3 kv s d) = K kv s d)
    (hc : ∀ s d, (V3 m outs c main_v7 : Vec Ideal S1024x64 .f32) (ix2 s d) = cs s d)
    (hs : ∀ s d, (V3 m outs c main_v14 : Vec Ideal S1024x64 .f32) (ix2 s d) = sn s d)
    (kv : Fin 8) (s : Fin 1024) (d : Fin 64) :
    (outs 4 main_v54 c : Vec Ideal S8x1024x64 .f32) (ix3 kv s d) = Cert.Spec.rope K cs sn kv s d := by
  obtain rfl : (fun kv s d => (V3 m outs c main_v51 : Vec Ideal S8x1024x64 .f32) (ix3 kv s d)) = K :=
    funext fun kv => funext fun s => funext fun d => hK kv s d
  obtain rfl : (fun s d => (V3 m outs c main_v7 : Vec Ideal S1024x64 .f32) (ix2 s d)) = cs :=
    funext fun s => funext fun d => hc s d
  obtain rfl : (fun s d => (V3 m outs c main_v14 : Vec Ideal S1024x64 .f32) (ix2 s d)) = sn :=
    funext fun s => funext fun d => hs s d
  exact H.r1 c kv s d

theorem reg_attn1 (c : Dev nD) (Q : Cert.Spec.Heads 32) (K V : Cert.Spec.Heads 8) (cs sn : Cert.Spec.Tab)
    (mk : Fin 1024 → Fin 1024 → EReal)
    (hQ : ∀ hd s d, (V4 m outs c main_v49 : Vec Ideal S32x1024x64 .f32) (ix3 hd s d) = Q hd s d)
    (hK : ∀ kv s d, (V4 m outs c main_v54 : Vec Ideal S8x1024x64 .f32) (ix3 kv s d) = K kv s d)
    (hV : ∀ kv s d, (V4 m outs c main_v53 : Vec Ideal S8x1024x64 .f32) (ix3 kv s d) = V kv s d)
    (hc : ∀ s d, (V4 m outs c main_v7 : Vec Ideal S1024x64 .f32) (ix2 s d) = cs s d)
    (hs : ∀ s d, (V4 m outs c main_v14 : Vec Ideal S1024x64 .f32) (ix2 s d) = sn s d)
    (hm : ∀ s t, (V4 m outs c main_v15 : Vec Ideal S1024x1024 .f32) (ix2 s t) = mk s t)
    (hd : Fin 32) (s : Fin 1024) (d : Fin 64) :
    (outs 5 main_v55 c : Vec Ideal S32x1024x64 .f32) (ix3 hd s d)
      = Cert.Spec.attn (Cert.Spec.rope Q cs sn) K V mk hd s d := by
  obtain rfl : (fun hd s d => (V4 m outs c main_v49 : Vec Ideal S32x1024x64 .f32) (ix3 hd s d)) = Q :=
    funext fun hd => funext fun s => funext fun d => hQ hd s d
  obtain rfl : (fun kv s d => (V4 m outs c main_v54 : Vec Ideal S8x1024x64 .f32) (ix3 kv s d)) = K :=
    funext fun kv => funext fun s => funext fun d => hK kv s d
  obtain rfl : (fun kv s d => (V4 m outs c main_v53 : Vec Ideal S8x1024x64 .f32) (ix3 kv s d)) = V :=
    funext fun kv => funext fun s => funext fun d => hV kv s d
  obtain rfl : (fun s d => (V4 m outs c main_v7 : Vec Ideal S1024x64 .f32) (ix2 s d)) = cs :=
    funext fun s => funext fun d => hc s d
  obtain rfl : (fun s d => (V4 m outs c main_v14 : Vec Ideal S1024x64 .f32) (ix2 s d)) = sn :=
    funext fun s => funext fun d => hs s d
  obtain rfl : (fun s t => (V4 m outs c main_v15 : Vec Ideal S1024x1024 .f32) (ix2 s t)) = mk :=
    funext fun s => funext fun t => hm s t
  exact H.r2 c hd s d

theorem reg_res1 (c : Dev nD) (R A : Cert.Spec.Hid) (Wm : Cert.Spec.Wt 2048 2048)
    (hR : ∀ s o, (V6 m outs c main_v23 : Vec Ideal S1024x2048 .f32) (ix2 s o) = R s o)
    (hA : ∀ s h, (V6 m outs c main_v57 : Vec Ideal S1024x2048 .f32) (ix2 s h) = A s h)
    (hW : ∀ o h, (V6 m outs c main_v36 : Vec Ideal S2048x2048 .bf16) (ix2 o h) = Wm o h)
    (s : Fin 1024) (o : Fin 2048) :
    (outs 7 main_v58 c : Vec Ideal S1024x2048 .f32) (ix2 s o) = addRes R (Cert.Spec.proj A Wm) s o := by
  obtain rfl : (fun s o => (V6 m outs c main_v23 : Vec Ideal S1024x2048 .f32) (ix2 s o)) = R :=
    funext fun s => funext fun o => hR s o
  obtain rfl : (fun s h => (V6 m outs c main_v57 : Vec Ideal S1024x2048 .f32) (ix2 s h)) = A :=
    funext fun s => funext fun h => hA s h
  obtain rfl : (fun o h => (V6 m outs c main_v36 : Vec Ideal S2048x2048 .bf16) (ix2 o h)) = Wm :=
    funext fun o => funext fun h => hW o h
  exact H.r3 c s o

theorem reg_mlp1 (c : Dev nD) (Hh : Cert.Spec.Hid) (G : Fin 2048 → EReal) (Wg Wu : Cert.Spec.Wt 8192 2048)
    (Wd : Cert.Spec.Wt 2048 8192)
    (hH : ∀ s h, (V8 m outs c main_v58 : Vec Ideal S1024x2048 .f32) (ix2 s h) = Hh s h)
    (hG : ∀ h, (V8 m outs c main_v59 : Vec Ideal S1x2048 .f32) (ix2 (0 : Fin 1) h) = G h)
    (hg : ∀ i h, (V8 m outs c main_v38 : Vec Ideal S8192x2048 .bf16) (ix2 i h) = Wg i h)
    (hu : ∀ i h, (V8 m outs c main_v40 : Vec Ideal S8192x2048 .bf16) (ix2 i h) = Wu i h)
    (hd : ∀ o i, (V8 m outs c main_v42 : Vec Ideal S2048x8192 .bf16) (ix2 o i) = Wd o i)
    (s : Fin 1024) (o : Fin 2048) :
    (outs 9 main_v60 c : Vec Ideal S1024x2048 .f32) (ix2 s o) = Cert.Spec.mlp Hh G Wg Wu Wd s o := by
  obtain rfl : (fun s h => (V8 m outs c main_v58 : Vec Ideal S1024x2048 .f32) (ix2 s h)) = Hh :=
    funext fun s => funext fun h => hH s h
  obtain rfl : (fun h => (V8 m outs c main_v59 : Vec Ideal S1x2048 .f32) (ix2 (0 : Fin 1) h)) = G := funext fun h => hG h
  obtain rfl : (fun i h => (V8 m outs c main_v38 : Vec Ideal S8192x2048 .bf16) (ix2 i h)) = Wg :=
    funext fun i => funext fun h => hg i h
  obtain rfl : (fun i h => (V8 m outs c main_v40 : Vec Ideal S8192x2048 .bf16) (ix2 i h)) = Wu :=
    funext fun i => funext fun h => hu i h
  obtain rfl : (fun o i => (V8 m outs c main_v42 : Vec Ideal S2048x8192 .bf16) (ix2 o i)) = Wd :=
    funext fun o => funext fun i => hd o i
  exact H.r4 c s o

theorem reg_qkv2 (c : Dev nD) (X : Cert.Spec.Hid) (G : Fin 2048 → EReal) (Wm : Cert.Spec.Wt 3072 2048)
    (hX : ∀ s h, (V10 m outs c main_v60 : Vec Ideal S1024x2048 .f32) (ix2 s h) = X s h)
    (hG : ∀ h, (V10 m outs c main_v82 : Vec Ideal S1x2048 .f32) (ix2 (0 : Fin 1) h) = G h)
    (hW : ∀ o h, (V10 m outs c main_v69 : Vec Ideal S3072x2048 .bf16) (ix2 o h) = Wm o h)
    (s : Fin 1024) (o : Fin 3072) :
    (outs 11 main_v83 c : Vec Ideal S1024x3072 .f32) (ix2 s o) = Cert.Spec.proj (Cert.Spec.rms X G) Wm s o := by
  obtain rfl : (fun s h => (V10 m outs c main_v60 : Vec Ideal S1024x2048 .f32) (ix2 s h)) = X :=
    funext fun s => funext fun h => hX s h
  obtain rfl : (fun h => (V10 m outs c main_v82 : Vec Ideal S1x2048 .f32) (ix2 (0 : Fin 1) h)) = G := funext fun h => hG h
  obtain rfl : (fun o h => (V10 m outs c main_v69 : Vec Ideal S3072x2048 .bf16) (ix2 o h)) = Wm :=
    funext fun o => funext fun h => hW o h
  exact H.r5 c s o

theorem reg_rope2 (c : Dev nD) (K : Cert.Spec.Heads 8) (cs sn : Cert.Spec.Tab)
    (hK : ∀ kv s d, (V12 m outs c main_v90 : Vec Ideal S8x1024x64 .f32) (ix3 kv s d) = K kv s d)
    (hc : ∀ s d, (V12 m outs c main_v7 : Vec Ideal S1024x64 .f32) (ix2 s d) = cs s d)
    (hs : ∀ s d, (V12 m outs c main_v14 : Vec Ideal S1024x64 .f32) (ix2 s d) = sn s d)
    (kv : Fin 8) (s : Fin 1024) (d : Fin 64) :
    (outs 13 main_v93 c : Vec Ideal S8x1024x64 .f32) (ix3 kv s d) = Cert.Spec.rope K cs sn kv s d := by
  obtain rfl : (fun kv s d => (V12 m outs c main_v90 : Vec Ideal S8x1024x64 .f32) (ix3 kv s d)) = K :=
    funext fun kv => funext fun s => funext fun d => hK kv s d
  obtain rfl : (fun s d => (V12 m outs c main_v7 : Vec Ideal S1024x64 .f32) (ix2 s d)) = cs :=
    funext fun s => funext fun d => hc s d
  obtain rfl : (fun s d => (V12 m outs c main_v14 : Vec Ideal S1024x64 .f32) (ix2 s d)) = sn :=
    funext fun s => funext fun d => hs s d
  exact H.r6 c kv s d

theorem reg_attn2 (c : Dev nD) (Q : Cert.Spec.Heads 32) (K V : Cert.Spec.Heads 8) (cs sn : Cert.Spec.Tab)
    (mk : Fin 1024 → Fin 1024 → EReal)
    (hQ : ∀ hd s d, (V13 m outs c main_v88 : Vec Ideal S32x1024x64 .f32) (ix3 hd s d) = Q hd s d)
    (hK : ∀ kv s d, (V13 m outs c main_v93 : Vec Ideal S8x1024x64 .f32) (ix3 kv s d) = K kv s d)
    (hV : ∀ kv s d, (V13 m outs c main_v92 : Vec Ideal S8x1024x64 .f32) (ix3 kv s d) = V kv s d)
    (hc : ∀ s d, (V13 m outs c main_v7 : Vec Ideal S1024x64 .f32) (ix2 s d) = cs s d)
    (hs : ∀ s d, (V13 m outs c main_v14 : Vec Ideal S1024x64 .f32) (ix2 s d) = sn s d)
    (hm : ∀ s t, (V13 m outs c main_v15 : Vec Ideal S1024x1024 .f32) (ix2 s t) = mk s t)
    (hd : Fin 32) (s : Fin 1024) (d : Fin 64) :
    (outs 14 main_v94 c : Vec Ideal S32x1024x64 .f32) (ix3 hd s d)
      = Cert.Spec.attn (Cert.Spec.rope Q cs sn) K V mk hd s d := by
  obtain rfl : (fun hd s d => (V13 m outs c main_v88 : Vec Ideal S32x1024x64 .f32) (ix3 hd s d)) = Q :=
    funext fun hd => funext fun s => funext fun d => hQ hd s d
  obtain rfl : (fun kv s d => (V13 m outs c main_v93 : Vec Ideal S8x1024x64 .f32) (ix3 kv s d)) = K :=
    funext fun kv => funext fun s => funext fun d => hK kv s d
  obtain rfl : (fun kv s d => (V13 m outs c main_v92 : Vec Ideal S8x1024x64 .f32) (ix3 kv s d)) = V :=
    funext fun kv => funext fun s => funext fun d => hV kv s d
  obtain rfl : (fun s d => (V13 m outs c main_v7 : Vec Ideal S1024x64 .f32) (ix2 s d)) = cs :=
    funext fun s => funext fun d => hc s d
  obtain rfl : (fun s d => (V13 m outs c main_v14 : Vec Ideal S1024x64 .f32) (ix2 s d)) = sn :=
    funext fun s => funext fun d => hs s d
  obtain rfl : (fun s t => (V13 m outs c main_v15 : Vec Ideal S1024x1024 .f32) (ix2 s t)) = mk :=
    funext fun s => funext fun t => hm s t
  exact H.r7 c hd s d

theorem reg_res2 (c : Dev nD) (R A : Cert.Spec.Hid) (Wm : Cert.Spec.Wt 2048 2048)
    (hR : ∀ s o, (V15 m outs c main_v60 : Vec Ideal S1024x2048 .f32) (ix2 s o) = R s o)
    (hA : ∀ s h, (V15 m outs c main_v96 : Vec Ideal S1024x2048 .f32) (ix2 s h) = A s h)
    (hW : ∀ o h, (V15 m outs c main_v75 : Vec Ideal S2048x2048 .bf16) (ix2 o h) = Wm o h)
    (s : Fin 1024) (o : Fin 2048) :
    (outs 16 main_v97 c : Vec Ideal S1024x2048 .f32) (ix2 s o) = addRes R (Cert.Spec.proj A Wm) s o := by
  obtain rfl : (fun s o => (V15 m outs c main_v60 : Vec Ideal S1024x2048 .f32) (ix2 s o)) = R :=
    funext fun s => funext fun o => hR s o
  obtain rfl : (fun s h => (V15 m outs c main_v96 : Vec Ideal S1024x2048 .f32) (ix2 s h)) = A :=
    funext fun s => funext fun h => hA s h
  obtain rfl : (fun o h => (V15 m outs c main_v75 : Vec Ideal S2048x2048 .bf16) (ix2 o h)) = Wm :=
    funext fun o => funext fun h => hW o h
  exact H.r8 c s o

theorem reg_mlp2 (c : Dev nD) (Hh : Cert.Spec.Hid) (G : Fin 2048 → EReal) (Wg Wu : Cert.Spec.Wt 8192 2048)
    (Wd : Cert.Spec.Wt 2048 8192)
    (hH : ∀ s h, (V17 m outs c main_v97 : Vec Ideal S1024x2048 .f32) (ix2 s h) = Hh s h)
    (hG : ∀ h, (V17 m outs c main_v98 : Vec Ideal S1x2048 .f32) (ix2 (0 : Fin 1) h) = G h)
    (hg : ∀ i h, (V17 m outs c main_v77 : Vec Ideal S8192x2048 .bf16) (ix2 i h) = Wg i h)
    (hu : ∀ i h, (V17 m outs c main_v79 : Vec Ideal S8192x2048 .bf16) (ix2 i h) = Wu i h)
    (hd : ∀ o i, (V17 m outs c main_v81 : Vec Ideal S2048x8192 .bf16) (ix2 o i) = Wd o i)
    (s : Fin 1024) (o : Fin 2048) :
    (outs 18 main_v99 c : Vec Ideal S1024x2048 .f32) (ix2 s o) = Cert.Spec.mlp Hh G Wg Wu Wd s o := by
  obtain rfl : (fun s h => (V17 m outs c main_v97 : Vec Ideal S1024x2048 .f32) (ix2 s h)) = Hh :=
    funext fun s => funext fun h => hH s h
  obtain rfl : (fun h => (V17 m outs c main_v98 : Vec Ideal S1x2048 .f32) (ix2 (0 : Fin 1) h)) = G := funext fun h => hG h
  obtain rfl : (fun i h => (V17 m outs c main_v77 : Vec Ideal S8192x2048 .bf16) (ix2 i h)) = Wg :=
    funext fun i => funext fun h => hg i h
  obtain rfl : (fun i h => (V17 m outs c main_v79 : Vec Ideal S8192x2048 .bf16) (ix2 i h)) = Wu :=
    funext fun i => funext fun h => hu i h
  obtain rfl : (fun o i => (V17 m outs c main_v81 : Vec Ideal S2048x8192 .bf16) (ix2 o i)) = Wd :=
    funext fun o => funext fun i => hd o i
  exact H.r9 c s o

end Named

/-! ## The layers' intermediate objects -/

/-- The normalised input of a layer's attention half, and what its attention leaves per head. -/
abbrev nrm1 (c : Dev nD) : Cert.Spec.Hid := Cert.Spec.rms (xIn m c) (wts m c 0).g1
abbrev att1 (c : Dev nD) : Cert.Spec.Heads 32 :=
  Cert.Spec.attn (Cert.Spec.rope (Cert.Spec.heads (n := 32) (Cert.Spec.proj (nrm1 m c) (wts m c 0).Wq)) (cosT m c) (sinT m c))
    (Cert.Spec.newK (xIn m c) (cosT m c) (sinT m c) (wts m c 0)) (Cert.Spec.newV (xIn m c) (wts m c 0)) (msk m c)
abbrev nrm2 (c : Dev nD) : Cert.Spec.Hid := Cert.Spec.rms (xMid m c) (wts m c 1).g1
abbrev att2 (c : Dev nD) : Cert.Spec.Heads 32 :=
  Cert.Spec.attn (Cert.Spec.rope (Cert.Spec.heads (n := 32) (Cert.Spec.proj (nrm2 m c) (wts m c 1).Wq)) (cosT m c) (sinT m c))
    (Cert.Spec.newK (xMid m c) (cosT m c) (sinT m c) (wts m c 1)) (Cert.Spec.newV (xMid m c) (wts m c 1)) (msk m c)

/-! ## Arrays carried to where later items read them -/

section Carried
variable {m outs}

theorem cos3 (c : Dev nD) (s : Fin 1024) (d : Fin 64) :
    (V3 m outs c main_v7 : Vec Ideal S1024x64 .f32) (ix2 s d) = cosT m c s d := by carry; exact e_cos m c s d
theorem sin3 (c : Dev nD) (s : Fin 1024) (d : Fin 64) :
    (V3 m outs c main_v14 : Vec Ideal S1024x64 .f32) (ix2 s d) = sinT m c s d := by carry; exact e_sin m c s d
theorem cos4 (c : Dev nD) (s : Fin 1024) (d : Fin 64) :
    (V4 m outs c main_v7 : Vec Ideal S1024x64 .f32) (ix2 s d) = cosT m c s d := by carry; exact e_cos m c s d
theorem sin4 (c : Dev nD) (s : Fin 1024) (d : Fin 64) :
    (V4 m outs c main_v14 : Vec Ideal S1024x64 .f32) (ix2 s d) = sinT m c s d := by carry; exact e_sin m c s d
theorem mask4 (c : Dev nD) (s t : Fin 1024) :
    (V4 m outs c main_v15 : Vec Ideal S1024x1024 .f32) (ix2 s t) = msk m c s t := by carry; exact e_mask m c s t
theorem cos12 (c : Dev nD) (s : Fin 1024) (d : Fin 64) :
    (V12 m outs c main_v7 : Vec Ideal S1024x64 .f32) (ix2 s d) = cosT m c s d := by carry; exact e_cos m c s d
theorem sin12 (c : Dev nD) (s : Fin 1024) (d : Fin 64) :
    (V12 m outs c main_v14 : Vec Ideal S1024x64 .f32) (ix2 s d) = sinT m c s d := by carry; exact e_sin m c s d
theorem cos13 (c : Dev nD) (s : Fin 1024) (d : Fin 64) :
    (V13 m outs c main_v7 : Vec Ideal S1024x64 .f32) (ix2 s d) = cosT m c s d := by carry; exact e_cos m c s d
theorem sin13 (c : Dev nD) (s : Fin 1024) (d : Fin 64) :
    (V13 m outs c main_v14 : Vec Ideal S1024x64 .f32) (ix2 s d) = sinT m c s d := by carry; exact e_sin m c s d
theorem mask13 (c : Dev nD) (s t : Fin 1024) :
    (V13 m outs c main_v15 : Vec Ideal S1024x1024 .f32) (ix2 s t) = msk m c s t := by carry; exact e_mask m c s t
theorem f_g1 (c : Dev nD) (h : Fin 2048) :
    (V10 m outs c main_v82 : Vec Ideal S1x2048 .f32) (ix2 (0 : Fin 1) h) = (wts m c 1).g1 h := by
  refine (host5_g1 (V9 m outs c) h).trans ?_
  carry; try rfl
theorem f_g2 (c : Dev nD) (h : Fin 2048) :
    (V10 m outs c main_v73 : Vec Ideal S2048 .f32) (ix1 h) = (wts m c 1).g2 h := by
  refine (host5_ln2 (V9 m outs c) h).trans ?_
  carry; try rfl
theorem f_wqkv (c : Dev nD) (o : Fin 3072) (h : Fin 2048) :
    (V10 m outs c main_v69 : Vec Ideal S3072x2048 .bf16) (ix2 o h) = qkvRows (wts m c 1) o h :=
  stacked_rows (V10 m outs c main_v69 : Vec Ideal S3072x2048 .bf16) (wts m c 1) h
    (fun o => (host5_wq (V9 m outs c) o h).trans (by carry; exact e_cq m c o h))
    (fun o => (host5_wk (V9 m outs c) o h).trans (by carry; exact e_ck m c o h))
    (fun o => (host5_wv (V9 m outs c) o h).trans (by carry; exact e_cv m c o h)) o
theorem f_wo (c : Dev nD) (o h : Fin 2048) :
    (V10 m outs c main_v75 : Vec Ideal S2048x2048 .bf16) (ix2 o h) = (wts m c 1).Wo o h := by
  refine (host5_wo (V9 m outs c) o h).trans ?_
  carry; exact e_co m c o h
theorem f_wg (c : Dev nD) (i : Fin 8192) (h : Fin 2048) :
    (V10 m outs c main_v77 : Vec Ideal S8192x2048 .bf16) (ix2 i h) = (wts m c 1).Wg i h := by
  refine (host5_wg (V9 m outs c) i h).trans ?_
  carry; exact e_cg m c i h
theorem f_wu (c : Dev nD) (i : Fin 8192) (h : Fin 2048) :
    (V10 m outs c main_v79 : Vec Ideal S8192x2048 .bf16) (ix2 i h) = (wts m c 1).Wu i h := by
  refine (host5_wu (V9 m outs c) i h).trans ?_
  carry; exact e_cu m c i h
theorem f_wd (c : Dev nD) (o : Fin 2048) (i : Fin 8192) :
    (V10 m outs c main_v81 : Vec Ideal S2048x8192 .bf16) (ix2 o i) = (wts m c 1).Wd o i := by
  refine (host5_wd (V9 m outs c) o i).trans ?_
  carry; exact e_cd m c o i

end Carried

/-! ## The walk -/

section Walk
variable {m outs} (H : RegionValues m outs)
include H

/-! ### The first layer -/

/-- After the first kernel: the stacked projection of the normalised input. -/
theorem w_qkv (c : Dev nD) (s : Fin 1024) (o : Fin 3072) :
    (V2 m outs c main_v44 : Vec Ideal S1024x3072 .f32) (ix2 s o)
      = Cert.Spec.proj (nrm1 m c) (qkvRows (wts m c 0)) s o := by
  have e : V2 m outs c main_v44 = outs 2 main_v44 c := Function.update_self ..
  rw [e]
  exact reg_qkv1 H c (xIn m c) (wts m c 0).g1 (qkvRows (wts m c 0)) (e_x m c) (e_g1 m c) (e_wqkv m c) s o

/-- The query, key and value heads the host cuts out of it. -/
theorem w_q (c : Dev nD) (hd : Fin 32) (s : Fin 1024) (d : Fin 64) :
    (V3 m outs c main_v49 : Vec Ideal S32x1024x64 .f32) (ix3 hd s d)
      = Cert.Spec.heads (n := 32) (Cert.Spec.proj (nrm1 m c) (wts m c 0).Wq) hd s d :=
  (host1_q (V2 m outs c) hd s d).trans ((w_qkv H c s _).trans (proj_stacked_q _ _ s hd d))
theorem w_k (c : Dev nD) (kv : Fin 8) (s : Fin 1024) (d : Fin 64) :
    (V3 m outs c main_v51 : Vec Ideal S8x1024x64 .f32) (ix3 kv s d)
      = Cert.Spec.heads (n := 8) (Cert.Spec.proj (nrm1 m c) (wts m c 0).Wk) kv s d :=
  (host1_k (V2 m outs c) kv s d).trans ((w_qkv H c s _).trans (proj_stacked_k _ _ s kv d))
theorem w_v (c : Dev nD) (kv : Fin 8) (s : Fin 1024) (d : Fin 64) :
    (V3 m outs c main_v53 : Vec Ideal S8x1024x64 .f32) (ix3 kv s d)
      = Cert.Spec.newV (xIn m c) (wts m c 0) kv s d :=
  (host1_v (V2 m outs c) kv s d).trans ((w_qkv H c s _).trans (proj_stacked_v _ _ s kv d))

/-- After the second kernel: the rotated key heads, the layer's new keys. -/
theorem w_kr (c : Dev nD) (kv : Fin 8) (s : Fin 1024) (d : Fin 64) :
    (V4 m outs c main_v54 : Vec Ideal S8x1024x64 .f32) (ix3 kv s d)
      = Cert.Spec.newK (xIn m c) (cosT m c) (sinT m c) (wts m c 0) kv s d := by
  have e : V4 m outs c main_v54 = outs 4 main_v54 c := Function.update_self ..
  rw [e]
  exact reg_rope1 H c (Cert.Spec.heads (n := 8) (Cert.Spec.proj (nrm1 m c) (wts m c 0).Wk)) (cosT m c) (sinT m c)
    (w_k H c) (cos3 c) (sin3 c) kv s d

/-- After the third kernel: attention, per head. -/
theorem w_at (c : Dev nD) (hd : Fin 32) (s : Fin 1024) (d : Fin 64) :
    (V5 m outs c main_v55 : Vec Ideal S32x1024x64 .f32) (ix3 hd s d) = att1 m c hd s d := by
  have e : V5 m outs c main_v55 = outs 5 main_v55 c := Function.update_self ..
  rw [e]
  exact reg_attn1 H c (Cert.Spec.heads (n := 32) (Cert.Spec.proj (nrm1 m c) (wts m c 0).Wq))
    (Cert.Spec.newK (xIn m c) (cosT m c) (sinT m c) (wts m c 0)) (Cert.Spec.newV (xIn m c) (wts m c 0))
    (cosT m c) (sinT m c) (msk m c)
    (fun hd s d => by carry; exact w_q H c hd s d) (w_kr H c) (fun kv s d => by carry; exact w_v H c kv s d)
    (cos4 c) (sin4 c) (mask4 c) hd s d

/-- The heads side by side again. -/
theorem w_mg (c : Dev nD) (s : Fin 1024) (o : Fin 2048) :
    (V6 m outs c main_v57 : Vec Ideal S1024x2048 .f32) (ix2 s o) = Cert.Spec.merge (att1 m c) s o :=
  (host3_merge (V5 m outs c) s o).trans (w_at H c _ s _)

/-- After the fourth kernel: the hidden states after attention and its residual. -/
theorem w_aa (c : Dev nD) (s : Fin 1024) (o : Fin 2048) :
    (V7 m outs c main_v58 : Vec Ideal S1024x2048 .f32) (ix2 s o)
      = Cert.Spec.afterAttn (xIn m c) (msk m c) (cosT m c) (sinT m c) (wts m c 0) s o := by
  have e : V7 m outs c main_v58 = outs 7 main_v58 c := Function.update_self ..
  rw [e]
  exact reg_res1 H c (xIn m c) (Cert.Spec.merge (att1 m c)) (wts m c 0).Wo
    (fun s o => by carry; exact e_x m c s o) (w_mg H c) (fun o h => by carry; exact e_wo m c o h) s o

/-- The second normalisation's gain as a one-row array. -/
theorem w_g2 (c : Dev nD) (h : Fin 2048) :
    (V8 m outs c main_v59 : Vec Ideal S1x2048 .f32) (ix2 (0 : Fin 1) h) = (wts m c 0).g2 h := by
  refine (host4_g2 (V7 m outs c) h).trans ?_
  carry; exact e_g2 m c h

/-- After the fifth kernel: the first layer's hidden states. -/
theorem w_h1 (c : Dev nD) (s : Fin 1024) (o : Fin 2048) :
    (V9 m outs c main_v60 : Vec Ideal S1024x2048 .f32) (ix2 s o) = xMid m c s o := by
  have e : V9 m outs c main_v60 = outs 9 main_v60 c := Function.update_self ..
  rw [e]
  exact reg_mlp1 H c (Cert.Spec.afterAttn (xIn m c) (msk m c) (cosT m c) (sinT m c) (wts m c 0)) (wts m c 0).g2
    (wts m c 0).Wg (wts m c 0).Wu (wts m c 0).Wd
    (fun s h => by carry; exact w_aa H c s h) (w_g2 H c)
    (fun i h => by carry; exact e_wg m c i h) (fun i h => by carry; exact e_wu m c i h)
    (fun o i => by carry; exact e_wd m c o i) s o

/-! ### The second layer -/

theorem x_qkv (c : Dev nD) (s : Fin 1024) (o : Fin 3072) :
    (V11 m outs c main_v83 : Vec Ideal S1024x3072 .f32) (ix2 s o)
      = Cert.Spec.proj (nrm2 m c) (qkvRows (wts m c 1)) s o := by
  have e : V11 m outs c main_v83 = outs 11 main_v83 c := Function.update_self ..
  rw [e]
  exact reg_qkv2 H c (xMid m c) (wts m c 1).g1 (qkvRows (wts m c 1))
    (fun s h => by carry; exact w_h1 H c s h) (f_g1 c) (f_wqkv c) s o

theorem x_q (c : Dev nD) (hd : Fin 32) (s : Fin 1024) (d : Fin 64) :
    (V12 m outs c main_v88 : Vec Ideal S32x1024x64 .f32) (ix3 hd s d)
      = Cert.Spec.heads (n := 32) (Cert.Spec.proj (nrm2 m c) (wts m c 1).Wq) hd s d :=
  (host6_q (V11 m outs c) hd s d).trans ((x_qkv H c s _).trans (proj_stacked_q _ _ s hd d))
theorem x_k (c : Dev nD) (kv : Fin 8) (s : Fin 1024) (d : Fin 64) :
    (V12 m outs c main_v90 : Vec Ideal S8x1024x64 .f32) (ix3 kv s d)
      = Cert.Spec.heads (n := 8) (Cert.Spec.proj (nrm2 m c) (wts m c 1).Wk) kv s d :=
  (host6_k (V11 m outs c) kv s d).trans ((x_qkv H c s _).trans (proj_stacked_k _ _ s kv d))
theorem x_v (c : Dev nD) (kv : Fin 8) (s : Fin 1024) (d : Fin 64) :
    (V12 m outs c main_v92 : Vec Ideal S8x1024x64 .f32) (ix3 kv s d)
      = Cert.Spec.newV (xMid m c) (wts m c 1) kv s d :=
  (host6_v (V11 m outs c) kv s d).trans ((x_qkv H c s _).trans (proj_stacked_v _ _ s kv d))

theorem x_kr (c : Dev nD) (kv : Fin 8) (s : Fin 1024) (d : Fin 64) :
    (V13 m outs c main_v93 : Vec Ideal S8x1024x64 .f32) (ix3 kv s d)
      = Cert.Spec.newK (xMid m c) (cosT m c) (sinT m c) (wts m c 1) kv s d := by
  have e : V13 m outs c main_v93 = outs 13 main_v93 c := Function.update_self ..
  rw [e]
  exact reg_rope2 H c (Cert.Spec.heads (n := 8) (Cert.Spec.proj (nrm2 m c) (wts m c 1).Wk)) (cosT m c) (sinT m c)
    (x_k H c) (cos12 c) (sin12 c) kv s d

theorem x_at (c : Dev nD) (hd : Fin 32) (s : Fin 1024) (d : Fin 64) :
    (V14 m outs c main_v94 : Vec Ideal S32x1024x64 .f32) (ix3 hd s d) = att2 m c hd s d := by
  have e : V14 m outs c main_v94 = outs 14 main_v94 c := Function.update_self ..
  rw [e]
  exact reg_attn2 H c (Cert.Spec.heads (n := 32) (Cert.Spec.proj (nrm2 m c) (wts m c 1).Wq))
    (Cert.Spec.newK (xMid m c) (cosT m c) (sinT m c) (wts m c 1)) (Cert.Spec.newV (xMid m c) (wts m c 1))
    (cosT m c) (sinT m c) (msk m c)
    (fun hd s d => by carry; exact x_q H c hd s d) (x_kr H c) (fun kv s d => by carry; exact x_v H c kv s d)
    (cos13 c) (sin13 c) (mask13 c) hd s d

theorem x_mg (c : Dev nD) (s : Fin 1024) (o : Fin 2048) :
    (V15 m outs c main_v96 : Vec Ideal S1024x2048 .f32) (ix2 s o) = Cert.Spec.merge (att2 m c) s o :=
  (host8_merge (V14 m outs c) s o).trans (x_at H c _ s _)

theorem x_aa (c : Dev nD) (s : Fin 1024) (o : Fin 2048) :
    (V16 m outs c main_v97 : Vec Ideal S1024x2048 .f32) (ix2 s o)
      = Cert.Spec.afterAttn (xMid m c) (msk m c) (cosT m c) (sinT m c) (wts m c 1) s o := by
  have e : V16 m outs c main_v97 = outs 16 main_v97 c := Function.update_self ..
  rw [e]
  exact reg_res2 H c (xMid m c) (Cert.Spec.merge (att2 m c)) (wts m c 1).Wo
    (fun s o => by carry; exact w_h1 H c s o) (x_mg H c) (fun o h => by carry; exact f_wo c o h) s o

theorem x_g2 (c : Dev nD) (h : Fin 2048) :
    (V17 m outs c main_v98 : Vec Ideal S1x2048 .f32) (ix2 (0 : Fin 1) h) = (wts m c 1).g2 h := by
  refine (host9_g2 (V16 m outs c) h).trans ?_
  carry; exact f_g2 c h

/-- After the tenth kernel: the second layer's hidden states, the program's first result. -/
theorem x_out (c : Dev nD) (s : Fin 1024) (o : Fin 2048) :
    (V18 m outs c main_v99 : Vec Ideal S1024x2048 .f32) (ix2 s o) = outHid row (argsOf m c) s o := by
  have e : V18 m outs c main_v99 = outs 18 main_v99 c := Function.update_self ..
  rw [e]
  exact reg_mlp2 H c (Cert.Spec.afterAttn (xMid m c) (msk m c) (cosT m c) (sinT m c) (wts m c 1)) (wts m c 1).g2
    (wts m c 1).Wg (wts m c 1).Wu (wts m c 1).Wd
    (fun s h => by carry; exact x_aa H c s h) (x_g2 H c)
    (fun i h => by carry; exact f_wg c i h) (fun i h => by carry; exact f_wu c i h)
    (fun o i => by carry; exact f_wd c o i) s o

/-! ### The three results -/

/-- The final hidden states. -/
theorem walk_out (c : Dev nD) (s : Fin 1024) (h : Fin 2048) :
    (V19 m outs c main_v102 : Vec Ideal S1x1024x2048 .f32) (ix3 (0 : Fin 1) s h) = outHid row (argsOf m c) s h :=
  (host10_out (V18 m outs c) s h).trans (x_out H c s h)

/-- The stacked new keys: the first layer's at layer index 0, the second layer's at 1. -/
theorem walk_k0 (c : Dev nD) (kv : Fin 8) (s : Fin 1024) (d : Fin 64) :
    (V19 m outs c main_v105 : Vec Ideal S2x1x8x1024x64 .f32) (ix5 (0 : Fin 2) (0 : Fin 1) kv s d)
      = outK row (argsOf m c) 0 kv s d := by
  have eo : outK row (argsOf m c) 0 = Cert.Spec.newK (xIn m c) (cosT m c) (sinT m c) (wts m c 0) := by
    unfold outK; rw [if_pos rfl]
  rw [eo]
  refine (host10_k0 (V18 m outs c) kv s d).trans ?_
  have e1 : (V18 m outs c main_v61 : Vec Ideal S1x8x1024x64 .f32) (ix4 (0 : Fin 1) kv s d)
      = (V10 m outs c main_v61 : Vec Ideal S1x8x1024x64 .f32) (ix4 (0 : Fin 1) kv s d) := by carry
  refine e1.trans ((host5_k (V9 m outs c) kv s d).trans ?_)
  have e2 : (V9 m outs c main_v54 : Vec Ideal S8x1024x64 .f32) (ix3 kv s d)
      = (V4 m outs c main_v54 : Vec Ideal S8x1024x64 .f32) (ix3 kv s d) := by carry
  exact e2.trans (w_kr H c kv s d)
theorem walk_k1 (c : Dev nD) (kv : Fin 8) (s : Fin 1024) (d : Fin 64) :
    (V19 m outs c main_v105 : Vec Ideal S2x1x8x1024x64 .f32) (ix5 (1 : Fin 2) (0 : Fin 1) kv s d)
      = outK row (argsOf m c) 1 kv s d := by
  have eo : outK row (argsOf m c) 1 = Cert.Spec.newK (xMid m c) (cosT m c) (sinT m c) (wts m c 1) := by
    unfold outK; rw [if_neg (by decide)]
  rw [eo]
  refine (host10_k1 (V18 m outs c) kv s d).trans ?_
  have e1 : (V18 m outs c main_v93 : Vec Ideal S8x1024x64 .f32) (ix3 kv s d)
      = (V13 m outs c main_v93 : Vec Ideal S8x1024x64 .f32) (ix3 kv s d) := by carry
  exact e1.trans (x_kr H c kv s d)
theorem walk_k (c : Dev nD) (l : Fin 2) (kv : Fin 8) (s : Fin 1024) (d : Fin 64) :
    (V19 m outs c main_v105 : Vec Ideal S2x1x8x1024x64 .f32) (ix5 l (0 : Fin 1) kv s d) = outK row (argsOf m c) l kv s d :=
  match l with
  | ⟨0, _⟩ => walk_k0 H c kv s d
  | ⟨1, _⟩ => walk_k1 H c kv s d

/-- The stacked new values, likewise. -/
theorem walk_v0 (c : Dev nD) (kv : Fin 8) (s : Fin 1024) (d : Fin 64) :
    (V19 m outs c main_v108 : Vec Ideal S2x1x8x1024x64 .f32) (ix5 (0 : Fin 2) (0 : Fin 1) kv s d)
      = outV row (argsOf m c) 0 kv s d := by
  have eo : outV row (argsOf m c) 0 = Cert.Spec.newV (xIn m c) (wts m c 0) := by
    unfold outV; rw [if_pos rfl]
  rw [eo]
  refine (host10_v0 (V18 m outs c) kv s d).trans ?_
  have e1 : (V18 m outs c main_v62 : Vec Ideal S1x8x1024x64 .f32) (ix4 (0 : Fin 1) kv s d)
      = (V10 m outs c main_v62 : Vec Ideal S1x8x1024x64 .f32) (ix4 (0 : Fin 1) kv s d) := by carry
  refine e1.trans ((host5_v (V9 m outs c) kv s d).trans ?_)
  have e2 : (V9 m outs c main_v53 : Vec Ideal S8x1024x64 .f32) (ix3 kv s d)
      = (V3 m outs c main_v53 : Vec Ideal S8x1024x64 .f32) (ix3 kv s d) := by carry
  exact e2.trans (w_v H c kv s d)
theorem walk_v1 (c : Dev nD) (kv : Fin 8) (s : Fin 1024) (d : Fin 64) :
    (V19 m outs c main_v108 : Vec Ideal S2x1x8x1024x64 .f32) (ix5 (1 : Fin 2) (0 : Fin 1) kv s d)
      = outV row (argsOf m c) 1 kv s d := by
  have eo : outV row (argsOf m c) 1 = Cert.Spec.newV (xMid m c) (wts m c 1) := by
    unfold outV; rw [if_neg (by decide)]
  rw [eo]
  refine (host10_v1 (V18 m outs c) kv s d).trans ?_
  have e1 : (V18 m outs c main_v92 : Vec Ideal S8x1024x64 .f32) (ix3 kv s d)
      = (V12 m outs c main_v92 : Vec Ideal S8x1024x64 .f32) (ix3 kv s d) := by carry
  exact e1.trans (x_v H c kv s d)
theorem walk_v (c : Dev nD) (l : Fin 2) (kv : Fin 8) (s : Fin 1024) (d : Fin 64) :
    (V19 m outs c main_v108 : Vec Ideal S2x1x8x1024x64 .f32) (ix5 l (0 : Fin 1) kv s d) = outV row (argsOf m c) l kv s d :=
  match l with
  | ⟨0, _⟩ => walk_v0 H c kv s d
  | ⟨1, _⟩ => walk_v1 H c kv s d

end Walk

end Cert.KV

end
-- ==== Proof.Val.KValue.lean ====
/-
  The kernel program's three results as the specification's functions of its arguments.  Each of the ten kernel
  regions leaves in its output array the specification's function of the arrays it was entered with; read at the
  program's boundary contents, where a region's output array is what its write-backs leave and every other buffer is as
  the region was entered, these ten facts are the hypotheses the walk over the boundaries asks for, and the walk
  gives the final hidden states and the stacked new keys and values.
-/
import proofs.«167047_j26895085207995_2_alg».proof.Proof.KI.Fold
import proofs.«167047_j26895085207995_2_alg».proof.Proof.Val.Final0
import proofs.«167047_j26895085207995_2_alg».proof.Proof.Val.Final1
import proofs.«167047_j26895085207995_2_alg».proof.Proof.Val.Final2
import proofs.«167047_j26895085207995_2_alg».proof.Proof.Val.Final3
import proofs.«167047_j26895085207995_2_alg».proof.Proof.Val.Final4
import proofs.«167047_j26895085207995_2_alg».proof.Proof.Val.Final5
import proofs.«167047_j26895085207995_2_alg».proof.Proof.Val.Final6
import proofs.«167047_j26895085207995_2_alg».proof.Proof.Val.Final7
import proofs.«167047_j26895085207995_2_alg».proof.Proof.Val.Final8
import proofs.«167047_j26895085207995_2_alg».proof.Proof.Val.Final9
import proofs.«167047_j26895085207995_2_alg».proof.Proof.Val.Walk
import proofs.«167047_j26895085207995_2_alg».proof.Proof.Val.ArgsOf

set_option maxRecDepth 16384

noncomputable section

open scoped BigOperators
open Idealize.ShloMosaic Idealize.ShloMosaic.TcCoe Idealize.ShloMosaic.ValueIdx
open Cert.KernelIdeal Cert.KernelIdeal.Gen

namespace Cert.KV

variable (m : (ℓ : Loc nD τ sig) → Buf (Elt Ideal) ℓ)

/-! ## The ten regions' values at the program's boundaries

The boundary after a region holds the region's output array at what the region leaves and every other buffer as
entered; so read at that array it is the proof data's array after the last grid point, and the region's lemma, taken
at the boundary the region is entered from, says what that is. -/

/-- What each region leaves, as the walk's hypotheses: the region's lemma at the boundary it is entered from. -/
theorem regionValues : RegionValues m (outsR m) where
  r0 := fun c s o => by
    rw [outsR_2]
    exact final0 (atTc (B1 m)) c s o
  r1 := fun c kv s d => by
    rw [outsR_4, V3_eq]
    exact final1 (atTc (B3 m)) c kv s d
  r2 := fun c hd s d => by
    rw [outsR_5, V4_eq]
    exact final2 (atTc (B4 m)) c hd s d
  r3 := fun c s o => by
    rw [outsR_7, V6_eq]
    exact final3 (atTc (B6 m)) c s o
  r4 := fun c s o => by
    rw [outsR_9, V8_eq]
    exact final4 (atTc (B8 m)) c s o
  r5 := fun c s o => by
    rw [outsR_11, V10_eq]
    exact final5 (atTc (B10 m)) c s o
  r6 := fun c kv s d => by
    rw [outsR_13, V12_eq]
    exact final6 (atTc (B12 m)) c kv s d
  r7 := fun c hd s d => by
    rw [outsR_14, V13_eq]
    exact final7 (atTc (B13 m)) c hd s d
  r8 := fun c s o => by
    rw [outsR_16, V15_eq]
    exact final8 (atTc (B15 m)) c s o
  r9 := fun c s o => by
    rw [outsR_18, V17_eq]
    exact final9 (atTc (B17 m)) c s o

/-! ## The three results -/

/-- The final hidden states are the specification's second-layer result of the arguments. -/
theorem kernel_out (c : Dev nD) (s : Fin 1024) (h : Fin 2048) :
    (Gen.B19 (F := Ideal) m c main_v102 : Vec Ideal S1x1024x2048 .f32) (ix3 0 s h) = outHid row (argsOf m c) s h := by
  rw [← V19_eq]
  exact walk_out (regionValues m) c s h

/-- The stacked new keys are the two layers' new keys. -/
theorem kernel_k (c : Dev nD) (l : Fin 2) (kv : Fin 8) (s : Fin 1024) (d : Fin 64) :
    (Gen.B19 (F := Ideal) m c main_v105 : Vec Ideal S2x1x8x1024x64 .f32) (ix5 l 0 kv s d) = outK row (argsOf m c) l kv s d := by
  rw [← V19_eq]
  exact walk_k (regionValues m) c l kv s d

/-- The stacked new values are the two layers' new values. -/
theorem kernel_v (c : Dev nD) (l : Fin 2) (kv : Fin 8) (s : Fin 1024) (d : Fin 64) :
    (Gen.B19 (F := Ideal) m c main_v108 : Vec Ideal S2x1x8x1024x64 .f32) (ix5 l 0 kv s d) = outV row (argsOf m c) l kv s d := by
  rw [← V19_eq]
  exact walk_v (regionValues m) c l kv s d

end Cert.KV

end
-- ==== Proof.Ref.Stage0.lean ====
/-
  The reference's two slicing stretches (inside its operations 1 to 38, and 141 to 158), read at an index: each
  layer's two gain vectors and seven weight matrices are cut out of the stacked argument arrays (a slice of one
  leading index, then a reshape that drops the unit axis). Entry (o, h) of layer l's matrix is entry (l, o, h) of the
  stack. The slice and the reshape are read once, for any extents; every buffer's lemma instantiates that reading.
  (The two table gathers of the first stretch are read in a module of their own.)
-/
import proofs.«167047_j26895085207995_2_alg».proof.Proof.Spec
import proofs.«167047_j26895085207995_2_alg».proof.Proof.Ref.Segs
import Idealize.ShloMosaic.Lib.StableHlo.Run
import Idealize.ShloMosaic.Lib.ValueIdx
import Idealize.ShloMosaic.Lib.Pipeline.Value
import Idealize.ShloMosaic.PureOps.Ideal.Laws

noncomputable section

namespace Cert.KV
open scoped BigOperators
open Idealize.ShloMosaic Idealize.ShloMosaic.TcCoe Idealize.ShloMosaic.ValueIdx Idealize.ShloMosaic.StableHlo
open Cert.ReferenceIdeal Cert.ReferenceIdeal.RunP

open Cert.ReferenceIdeal.Gen

namespace Layer

/-! ## One layer of a stacked array: the slice of one leading index, with the unit axis dropped -/

/-- Layer l of a stacked array of gains [2, N], sliced out and flattened: entry h is the stack's entry (l, h). -/
theorem gain_apply {α : Type} {N : Nat} (off : Fin 2 → Nat) (x : (⟨2, ![2, N]⟩ : Shape).Idx → α)
    (hs : (⟨2, ![2, N]⟩ : Shape).Slices off ⟨2, ![1, N]⟩) (hc : (⟨2, ![1, N]⟩ : Shape).ShapeCasts ⟨1, ![N]⟩)
    (l : Fin 2) (h0 : off 0 = l.val) (h1 : off 1 = 0) (h : Fin N) :
    shapeCast ⟨1, ![N]⟩ (extractStridedSlice ⟨2, ![1, N]⟩ off x hs) hc (ix1 h) = x (ix2 l h) := by
  refine (shapeCast_apply _ hc (ix1 h) (ix2 0 h) ?_).trans ?_
  · rewrite [Shape.rowMajor_val_two, Shape.rowMajor_val_one]
    show 0 * N + h.val = h.val
    rw [Nat.zero_mul, Nat.zero_add]
  · exact extractStridedSlice_apply off x hs (ix2 0 h) (ix2 l h) (fun a => match a with
      | ⟨0, _⟩ => by show l.val = off 0 + 0; rw [h0, Nat.add_zero]
      | ⟨1, _⟩ => by show h.val = off 1 + h.val; rw [h1, Nat.zero_add])

/-- Layer l of a stacked array of weights [2, A, B], sliced out and its unit axis dropped: entry (o, h) is the
    stack's entry (l, o, h). -/
theorem weight_apply {α : Type} {A B : Nat} (off : Fin 3 → Nat) (x : (⟨3, ![2, A, B]⟩ : Shape).Idx → α)
    (hs : (⟨3, ![2, A, B]⟩ : Shape).Slices off ⟨3, ![1, A, B]⟩) (hc : (⟨3, ![1, A, B]⟩ : Shape).ShapeCasts ⟨2, ![A, B]⟩)
    (l : Fin 2) (h0 : off 0 = l.val) (h1 : off 1 = 0) (h2 : off 2 = 0) (o : Fin A) (h : Fin B) :
    shapeCast ⟨2, ![A, B]⟩ (extractStridedSlice ⟨3, ![1, A, B]⟩ off x hs) hc (ix2 o h) = x (ix3 l o h) := by
  refine (shapeCast_apply _ hc (ix2 o h) (ix3 0 o h) ?_).trans ?_
  · rewrite [Shape.rowMajor_val_three, Shape.rowMajor_val_two]
    show (0 * A + o.val) * B + h.val = o.val * B + h.val
    rw [Nat.zero_mul, Nat.zero_add]
  · exact extractStridedSlice_apply off x hs (ix3 0 o h) (ix3 l o h) (fun a => match a with
      | ⟨0, _⟩ => by show l.val = off 0 + 0; rw [h0, Nat.add_zero]
      | ⟨1, _⟩ => by show o.val = off 1 + o.val; rw [h1, Nat.zero_add]
      | ⟨2, _⟩ => by show h.val = off 2 + h.val; rw [h2, Nat.zero_add])

end Layer

open Layer

/-! ## The first layer's gains and weights (index 0 of each stack) -/

theorem ref_seg0_v17 (W : Valuation τ sig (Elt Ideal)) (h : Fin 2048) :
    (after (seg0 (F := Ideal)) W main_v17 : Vec Ideal S2048 .f32) (ix1 h) = (W main_arg5 : Vec Ideal S2x2048 .f32) (ix2 0 h) := by
  have e : (after (seg0 (F := Ideal)) W main_v17 : Vec Ideal S2048 .f32)
      = shapeCast S2048 (extractStridedSlice S1x2048 ![0, 0] (W main_arg5) slices_S2x2048_S1x2048_0_0) shapeCasts_S1x2048_S2048 := by
    dsimp only [seg0]
    after_results
    rfl
  rw [e]
  exact gain_apply ![0, 0] _ slices_S2x2048_S1x2048_0_0 shapeCasts_S1x2048_S2048 0 rfl rfl h

theorem ref_seg0_v19 (W : Valuation τ sig (Elt Ideal)) (h : Fin 2048) :
    (after (seg0 (F := Ideal)) W main_v19 : Vec Ideal S2048 .f32) (ix1 h) = (W main_arg6 : Vec Ideal S2x2048 .f32) (ix2 0 h) := by
  have e : (after (seg0 (F := Ideal)) W main_v19 : Vec Ideal S2048 .f32)
      = shapeCast S2048 (extractStridedSlice S1x2048 ![0, 0] (W main_arg6) slices_S2x2048_S1x2048_0_0) shapeCasts_S1x2048_S2048 := by
    dsimp only [seg0]
    after_results
    rfl
  rw [e]
  exact gain_apply ![0, 0] _ slices_S2x2048_S1x2048_0_0 shapeCasts_S1x2048_S2048 0 rfl rfl h

theorem ref_seg0_v21 (W : Valuation τ sig (Elt Ideal)) (o : Fin 2048) (h : Fin 2048) :
    (after (seg0 (F := Ideal)) W main_v21 : Vec Ideal S2048x2048 .f32) (ix2 o h) = (W main_arg7 : Vec Ideal S2x2048x2048 .f32) (ix3 0 o h) := by
  have e : (after (seg0 (F := Ideal)) W main_v21 : Vec Ideal S2048x2048 .f32)
      = shapeCast S2048x2048 (extractStridedSlice S1x2048x2048 ![0, 0, 0] (W main_arg7) slices_S2x2048x2048_S1x2048x2048_0_0_0) shapeCasts_S1x2048x2048_S2048x2048 := by
    dsimp only [seg0]
    after_results
    rfl
  rw [e]
  exact weight_apply ![0, 0, 0] _ slices_S2x2048x2048_S1x2048x2048_0_0_0 shapeCasts_S1x2048x2048_S2048x2048 0 rfl rfl rfl o h

theorem ref_seg0_v23 (W : Valuation τ sig (Elt Ideal)) (o : Fin 512) (h : Fin 2048) :
    (after (seg0 (F := Ideal)) W main_v23 : Vec Ideal S512x2048 .f32) (ix2 o h) = (W main_arg8 : Vec Ideal S2x512x2048 .f32) (ix3 0 o h) := by
  have e : (after (seg0 (F := Ideal)) W main_v23 : Vec Ideal S512x2048 .f32)
      = shapeCast S512x2048 (extractStridedSlice S1x512x2048 ![0, 0, 0] (W main_arg8) slices_S2x512x2048_S1x512x2048_0_0_0) shapeCasts_S1x512x2048_S512x2048 := by
    dsimp only [seg0]
    after_results
    rfl
  rw [e]
  exact weight_apply ![0, 0, 0] _ slices_S2x512x2048_S1x512x2048_0_0_0 shapeCasts_S1x512x2048_S512x2048 0 rfl rfl rfl o h

theorem ref_seg0_v25 (W : Valuation τ sig (Elt Ideal)) (o : Fin 512) (h : Fin 2048) :
    (after (seg0 (F := Ideal)) W main_v25 : Vec Ideal S512x2048 .f32) (ix2 o h) = (W main_arg9 : Vec Ideal S2x512x2048 .f32) (ix3 0 o h) := by
  have e : (after (seg0 (F := Ideal)) W main_v25 : Vec Ideal S512x2048 .f32)
      = shapeCast S512x2048 (extractStridedSlice S1x512x2048 ![0, 0, 0] (W main_arg9) slices_S2x512x2048_S1x512x2048_0_0_0) shapeCasts_S1x512x2048_S512x2048 := by
    dsimp only [seg0]
    after_results
    rfl
  rw [e]
  exact weight_apply ![0, 0, 0] _ slices_S2x512x2048_S1x512x2048_0_0_0 shapeCasts_S1x512x2048_S512x2048 0 rfl rfl rfl o h

theorem ref_seg0_v27 (W : Valuation τ sig (Elt Ideal)) (o : Fin 2048) (h : Fin 2048) :
    (after (seg0 (F := Ideal)) W main_v27 : Vec Ideal S2048x2048 .f32) (ix2 o h) = (W main_arg10 : Vec Ideal S2x2048x2048 .f32) (ix3 0 o h) := by
  have e : (after (seg0 (F := Ideal)) W main_v27 : Vec Ideal S2048x2048 .f32)
      = shapeCast S2048x2048 (extractStridedSlice S1x2048x2048 ![0, 0, 0] (W main_arg10) slices_S2x2048x2048_S1x2048x2048_0_0_0) shapeCasts_S1x2048x2048_S2048x2048 := by
    dsimp only [seg0]
    after_results
    rfl
  rw [e]
  exact weight_apply ![0, 0, 0] _ slices_S2x2048x2048_S1x2048x2048_0_0_0 shapeCasts_S1x2048x2048_S2048x2048 0 rfl rfl rfl o h

theorem ref_seg0_v29 (W : Valuation τ sig (Elt Ideal)) (o : Fin 8192) (h : Fin 2048) :
    (after (seg0 (F := Ideal)) W main_v29 : Vec Ideal S8192x2048 .f32) (ix2 o h) = (W main_arg11 : Vec Ideal S2x8192x2048 .f32) (ix3 0 o h) := by
  have e : (after (seg0 (F := Ideal)) W main_v29 : Vec Ideal S8192x2048 .f32)
      = shapeCast S8192x2048 (extractStridedSlice S1x8192x2048 ![0, 0, 0] (W main_arg11) slices_S2x8192x2048_S1x8192x2048_0_0_0) shapeCasts_S1x8192x2048_S8192x2048 := by
    dsimp only [seg0]
    after_results
    rfl
  rw [e]
  exact weight_apply ![0, 0, 0] _ slices_S2x8192x2048_S1x8192x2048_0_0_0 shapeCasts_S1x8192x2048_S8192x2048 0 rfl rfl rfl o h

theorem ref_seg0_v31 (W : Valuation τ sig (Elt Ideal)) (o : Fin 8192) (h : Fin 2048) :
    (after (seg0 (F := Ideal)) W main_v31 : Vec Ideal S8192x2048 .f32) (ix2 o h) = (W main_arg12 : Vec Ideal S2x8192x2048 .f32) (ix3 0 o h) := by
  have e : (after (seg0 (F := Ideal)) W main_v31 : Vec Ideal S8192x2048 .f32)
      = shapeCast S8192x2048 (extractStridedSlice S1x8192x2048 ![0, 0, 0] (W main_arg12) slices_S2x8192x2048_S1x8192x2048_0_0_0) shapeCasts_S1x8192x2048_S8192x2048 := by
    dsimp only [seg0]
    after_results
    rfl
  rw [e]
  exact weight_apply ![0, 0, 0] _ slices_S2x8192x2048_S1x8192x2048_0_0_0 shapeCasts_S1x8192x2048_S8192x2048 0 rfl rfl rfl o h

theorem ref_seg0_v33 (W : Valuation τ sig (Elt Ideal)) (o : Fin 2048) (h : Fin 8192) :
    (after (seg0 (F := Ideal)) W main_v33 : Vec Ideal S2048x8192 .f32) (ix2 o h) = (W main_arg13 : Vec Ideal S2x2048x8192 .f32) (ix3 0 o h) := by
  have e : (after (seg0 (F := Ideal)) W main_v33 : Vec Ideal S2048x8192 .f32)
      = shapeCast S2048x8192 (extractStridedSlice S1x2048x8192 ![0, 0, 0] (W main_arg13) slices_S2x2048x8192_S1x2048x8192_0_0_0) shapeCasts_S1x2048x8192_S2048x8192 := by
    dsimp only [seg0]
    after_results
    rfl
  rw [e]
  exact weight_apply ![0, 0, 0] _ slices_S2x2048x8192_S1x2048x8192_0_0_0 shapeCasts_S1x2048x8192_S2048x8192 0 rfl rfl rfl o h

/-! ## The second layer's gains and weights (index 1 of each stack) -/

theorem ref_seg8_v119 (W : Valuation τ sig (Elt Ideal)) (h : Fin 2048) :
    (after (seg8 (F := Ideal)) W main_v119 : Vec Ideal S2048 .f32) (ix1 h) = (W main_arg5 : Vec Ideal S2x2048 .f32) (ix2 1 h) := by
  have e : (after (seg8 (F := Ideal)) W main_v119 : Vec Ideal S2048 .f32)
      = shapeCast S2048 (extractStridedSlice S1x2048 ![1, 0] (W main_arg5) slices_S2x2048_S1x2048_1_0) shapeCasts_S1x2048_S2048 := by
    dsimp only [seg8]
    after_results
    rfl
  rw [e]
  exact gain_apply ![1, 0] _ slices_S2x2048_S1x2048_1_0 shapeCasts_S1x2048_S2048 1 rfl rfl h

theorem ref_seg8_v121 (W : Valuation τ sig (Elt Ideal)) (h : Fin 2048) :
    (after (seg8 (F := Ideal)) W main_v121 : Vec Ideal S2048 .f32) (ix1 h) = (W main_arg6 : Vec Ideal S2x2048 .f32) (ix2 1 h) := by
  have e : (after (seg8 (F := Ideal)) W main_v121 : Vec Ideal S2048 .f32)
      = shapeCast S2048 (extractStridedSlice S1x2048 ![1, 0] (W main_arg6) slices_S2x2048_S1x2048_1_0) shapeCasts_S1x2048_S2048 := by
    dsimp only [seg8]
    after_results
    rfl
  rw [e]
  exact gain_apply ![1, 0] _ slices_S2x2048_S1x2048_1_0 shapeCasts_S1x2048_S2048 1 rfl rfl h

theorem ref_seg8_v123 (W : Valuation τ sig (Elt Ideal)) (o : Fin 2048) (h : Fin 2048) :
    (after (seg8 (F := Ideal)) W main_v123 : Vec Ideal S2048x2048 .f32) (ix2 o h) = (W main_arg7 : Vec Ideal S2x2048x2048 .f32) (ix3 1 o h) := by
  have e : (after (seg8 (F := Ideal)) W main_v123 : Vec Ideal S2048x2048 .f32)
      = shapeCast S2048x2048 (extractStridedSlice S1x2048x2048 ![1, 0, 0] (W main_arg7) slices_S2x2048x2048_S1x2048x2048_1_0_0) shapeCasts_S1x2048x2048_S2048x2048 := by
    dsimp only [seg8]
    after_results
    rfl
  rw [e]
  exact weight_apply ![1, 0, 0] _ slices_S2x2048x2048_S1x2048x2048_1_0_0 shapeCasts_S1x2048x2048_S2048x2048 1 rfl rfl rfl o h

theorem ref_seg8_v125 (W : Valuation τ sig (Elt Ideal)) (o : Fin 512) (h : Fin 2048) :
    (after (seg8 (F := Ideal)) W main_v125 : Vec Ideal S512x2048 .f32) (ix2 o h) = (W main_arg8 : Vec Ideal S2x512x2048 .f32) (ix3 1 o h) := by
  have e : (after (seg8 (F := Ideal)) W main_v125 : Vec Ideal S512x2048 .f32)
      = shapeCast S512x2048 (extractStridedSlice S1x512x2048 ![1, 0, 0] (W main_arg8) slices_S2x512x2048_S1x512x2048_1_0_0) shapeCasts_S1x512x2048_S512x2048 := by
    dsimp only [seg8]
    after_results
    rfl
  rw [e]
  exact weight_apply ![1, 0, 0] _ slices_S2x512x2048_S1x512x2048_1_0_0 shapeCasts_S1x512x2048_S512x2048 1 rfl rfl rfl o h

theorem ref_seg8_v127 (W : Valuation τ sig (Elt Ideal)) (o : Fin 512) (h : Fin 2048) :
    (after (seg8 (F := Ideal)) W main_v127 : Vec Ideal S512x2048 .f32) (ix2 o h) = (W main_arg9 : Vec Ideal S2x512x2048 .f32) (ix3 1 o h) := by
  have e : (after (seg8 (F := Ideal)) W main_v127 : Vec Ideal S512x2048 .f32)
      = shapeCast S512x2048 (extractStridedSlice S1x512x2048 ![1, 0, 0] (W main_arg9) slices_S2x512x2048_S1x512x2048_1_0_0) shapeCasts_S1x512x2048_S512x2048 := by
    dsimp only [seg8]
    after_results
    rfl
  rw [e]
  exact weight_apply ![1, 0, 0] _ slices_S2x512x2048_S1x512x2048_1_0_0 shapeCasts_S1x512x2048_S512x2048 1 rfl rfl rfl o h

theorem ref_seg8_v129 (W : Valuation τ sig (Elt Ideal)) (o : Fin 2048) (h : Fin 2048) :
    (after (seg8 (F := Ideal)) W main_v129 : Vec Ideal S2048x2048 .f32) (ix2 o h) = (W main_arg10 : Vec Ideal S2x2048x2048 .f32) (ix3 1 o h) := by
  have e : (after (seg8 (F := Ideal)) W main_v129 : Vec Ideal S2048x2048 .f32)
      = shapeCast S2048x2048 (extractStridedSlice S1x2048x2048 ![1, 0, 0] (W main_arg10) slices_S2x2048x2048_S1x2048x2048_1_0_0) shapeCasts_S1x2048x2048_S2048x2048 := by
    dsimp only [seg8]
    after_results
    rfl
  rw [e]
  exact weight_apply ![1, 0, 0] _ slices_S2x2048x2048_S1x2048x2048_1_0_0 shapeCasts_S1x2048x2048_S2048x2048 1 rfl rfl rfl o h

theorem ref_seg8_v131 (W : Valuation τ sig (Elt Ideal)) (o : Fin 8192) (h : Fin 2048) :
    (after (seg8 (F := Ideal)) W main_v131 : Vec Ideal S8192x2048 .f32) (ix2 o h) = (W main_arg11 : Vec Ideal S2x8192x2048 .f32) (ix3 1 o h) := by
  have e : (after (seg8 (F := Ideal)) W main_v131 : Vec Ideal S8192x2048 .f32)
      = shapeCast S8192x2048 (extractStridedSlice S1x8192x2048 ![1, 0, 0] (W main_arg11) slices_S2x8192x2048_S1x8192x2048_1_0_0) shapeCasts_S1x8192x2048_S8192x2048 := by
    dsimp only [seg8]
    after_results
    rfl
  rw [e]
  exact weight_apply ![1, 0, 0] _ slices_S2x8192x2048_S1x8192x2048_1_0_0 shapeCasts_S1x8192x2048_S8192x2048 1 rfl rfl rfl o h

theorem ref_seg8_v133 (W : Valuation τ sig (Elt Ideal)) (o : Fin 8192) (h : Fin 2048) :
    (after (seg8 (F := Ideal)) W main_v133 : Vec Ideal S8192x2048 .f32) (ix2 o h) = (W main_arg12 : Vec Ideal S2x8192x2048 .f32) (ix3 1 o h) := by
  have e : (after (seg8 (F := Ideal)) W main_v133 : Vec Ideal S8192x2048 .f32)
      = shapeCast S8192x2048 (extractStridedSlice S1x8192x2048 ![1, 0, 0] (W main_arg12) slices_S2x8192x2048_S1x8192x2048_1_0_0) shapeCasts_S1x8192x2048_S8192x2048 := by
    dsimp only [seg8]
    after_results
    rfl
  rw [e]
  exact weight_apply ![1, 0, 0] _ slices_S2x8192x2048_S1x8192x2048_1_0_0 shapeCasts_S1x8192x2048_S8192x2048 1 rfl rfl rfl o h

theorem ref_seg8_v135 (W : Valuation τ sig (Elt Ideal)) (o : Fin 2048) (h : Fin 8192) :
    (after (seg8 (F := Ideal)) W main_v135 : Vec Ideal S2048x8192 .f32) (ix2 o h) = (W main_arg13 : Vec Ideal S2x2048x8192 .f32) (ix3 1 o h) := by
  have e : (after (seg8 (F := Ideal)) W main_v135 : Vec Ideal S2048x8192 .f32)
      = shapeCast S2048x8192 (extractStridedSlice S1x2048x8192 ![1, 0, 0] (W main_arg13) slices_S2x2048x8192_S1x2048x8192_1_0_0) shapeCasts_S1x2048x8192_S2048x8192 := by
    dsimp only [seg8]
    after_results
    rfl
  rw [e]
  exact weight_apply ![1, 0, 0] _ slices_S2x2048x8192_S1x2048x8192_1_0_0 shapeCasts_S1x2048x8192_S2048x8192 1 rfl rfl rfl o h

end Cert.KV
end
-- ==== Proof.Ref.Stage0g.lean ====
/-
  The reference's rotary tables read at an index.  Each position word has the table's length added when it is
  negative; the words, as a column of start indices, gather whole rows of a two-axis table (the start index read as
  a signed integer and clamped into the table); the gathered rows get a head axis of extent one.  At position `s`
  and lane `d` the result is the table at lane `d` of the row the position word names.
-/
import proofs.«167047_j26895085207995_2_alg».proof.Proof.Spec
import proofs.«167047_j26895085207995_2_alg».proof.Proof.Ref.Segs
import proofs.«167047_j26895085207995_2_alg».proof.Proof.Val.Row
import Idealize.ShloMosaic.Lib.ValueIdx
import Idealize.ShloMosaic.Lib.Pipeline.Value
import Idealize.ShloMosaic.Lib.StableHlo.Run

noncomputable section

namespace Cert.KV

open scoped BigOperators
open Idealize.ShloMosaic Idealize.ShloMosaic.TcCoe Idealize.ShloMosaic.ValueIdx Idealize.ShloMosaic.StableHlo
open Cert.ReferenceIdeal Cert.ReferenceIdeal.Gen Cert.ReferenceIdeal.RunP

namespace RefTables

/-! ## The stage's vector expressions -/

/-- The position words normalised: a negative word has 1024 added. -/
def normV (p : IVec S1x1024 32) : IVec S1x1024 32 :=
  select (cmpi .slt p (broadcastInDim S1x1024 ![] bcast_S_S1x1024 (constantI S_ 32 0#32)))
    (addi p (broadcastInDim S1x1024 ![] bcast_S_S1x1024 (constantI S_ 32 1024#32))) p

/-- A table's rows gathered at the normalised position words, with a head axis of extent one. -/
def gatherV (T : FVec Ideal S1024x64 .f32) (p : IVec S1x1024 32) : FVec Ideal S1x1x1024x64 .f32 :=
  broadcastInDim S1x1x1024x64 ![0, 2, 3] bcast_S1x1024x64_S1x1x1024x64_0_2_3
    (Host.gather gather_S1024x64_S1x1024x1_S1x1024x64_2_0_n_n_0_2_164 T
      (broadcastInDim S1x1024x1 ![0, 1] bcast_S1x1024_S1x1024x1_0_1 (normV p)))

/-! ## The cosine and the sine table's buffers are that expression -/

theorem seg0_term_v7 (W : Valuation τ sig (Elt Ideal)) :
    (after (seg0 (F := Ideal)) W main_v7 : Vec Ideal S1x1x1024x64 .f32) = gatherV (W main_arg3) (W main_arg2) := by
  dsimp only [seg0]
  after_results_simp
  rfl

theorem seg0_term_v15 (W : Valuation τ sig (Elt Ideal)) :
    (after (seg0 (F := Ideal)) W main_v15 : Vec Ideal S1x1x1024x64 .f32) = gatherV (W main_arg4) (W main_arg2) := by
  dsimp only [seg0]
  after_results_simp
  rfl

/-! ## Read at an index -/

/-- A normalised word is the normalisation of the word. -/
theorem normV_apply (p : IVec S1x1024 32) (s : Fin 1024) : normV p (ix2 0 s) = norm (p (ix2 0 s)) := rfl

/-- The gather of rows through a column of start indices, read at position `s` and lane `d`: the table at lane `d`
    of the row the start index names, read signed and clamped into the table's 1024 rows. -/
theorem gather_apply (T : FVec Ideal S1024x64 .f32) (idx : IVec S1x1024x1 32) (s : Fin 1024) (d : Fin 64)
    (w : BitVec 32) (hw : idx (ix3 0 s 0) = w) :
    Host.gather gather_S1024x64_S1x1024x1_S1x1024x64_2_0_n_n_0_2_164 T idx (ix3 0 s d)
      = T (ix2 ⟨min w.toInt.toNat 1023, by omega⟩ d) := by
  subst hw
  unfold Host.gather
  congr 1
  funext a
  refine Fin.ext ?_
  show gather_S1024x64_S1x1024x1_S1x1024x64_2_0_n_n_0_2_164.start (ix3 0 s d) idx a + gather_S1024x64_S1x1024x1_S1x1024x64_2_0_n_n_0_2_164.batchCoord (ix3 0 s d) a
    + gather_S1024x64_S1x1024x1_S1x1024x64_2_0_n_n_0_2_164.offCoord (ix3 0 s d) a = _
  rw [GatherDims.batchCoord_eq_zero _ _ _ List.not_mem_nil]
  match a with
  | ⟨0, _⟩ =>
    rw [GatherDims.offCoord_eq_zero _ _ _
      (fun h => ((GatherDims.mem_sKept _ _).mp h).1 (List.mem_singleton.mpr rfl))]
    simp only [Nat.add_zero]
    unfold GatherDims.start
    rw [dif_pos (show (⟨0, by decide⟩ : Fin 2) ∈ gather_S1024x64_S1x1024x1_S1x1024x64_2_0_n_n_0_2_164.startIndexMap from List.mem_singleton.mpr rfl)]
    have hsi : gather_S1024x64_S1x1024x1_S1x1024x64_2_0_n_n_0_2_164.siIdx (ix3 0 s d) ⟨List.idxOf (⟨0, by decide⟩ : Fin 2) gather_S1024x64_S1x1024x1_S1x1024x64_2_0_n_n_0_2_164.startIndexMap,
        List.idxOf_lt_length_iff.2 (List.mem_singleton.mpr rfl)⟩ = ix3 0 s 0 := by
      funext b; refine Fin.ext ?_
      match b with
      | ⟨0, _⟩ => rfl
      | ⟨1, _⟩ => rfl
      | ⟨2, _⟩ => rfl
    rw [hsi]
    rfl
  | ⟨1, h1⟩ =>
    have hs : gather_S1024x64_S1x1024x1_S1x1024x64_2_0_n_n_0_2_164.start (ix3 0 s d) idx ⟨1, h1⟩ = 0 := by
      unfold GatherDims.start
      rw [dif_neg (show ¬ (⟨1, h1⟩ : Fin 2) ∈ gather_S1024x64_S1x1024x1_S1x1024x64_2_0_n_n_0_2_164.startIndexMap from
        fun h => absurd (congrArg Fin.val (List.mem_singleton.mp h)) Nat.one_ne_zero)]
    have hk : (⟨1, h1⟩ : Fin 2) ∈ gather_S1024x64_S1x1024x1_S1x1024x64_2_0_n_n_0_2_164.sKept :=
      (GatherDims.mem_sKept _ _).mpr
        ⟨show ¬ (⟨1, h1⟩ : Fin 2) ∈ gather_S1024x64_S1x1024x1_S1x1024x64_2_0_n_n_0_2_164.collapsedSliceDims from
          fun h => absurd (congrArg Fin.val (List.mem_singleton.mp h)) Nat.one_ne_zero, List.not_mem_nil⟩
    rw [hs]
    unfold GatherDims.offCoord
    rw [dif_pos hk]
    simp only [Nat.zero_add]
    rfl

/-- The stage's expression at position `s` and lane `d`: the table at lane `d` of the position word's row. -/
theorem gatherV_apply (T : FVec Ideal S1024x64 .f32) (p : IVec S1x1024 32) (s : Fin 1024) (d : Fin 64) :
    gatherV T p (ix4 0 0 s d) = T (ix2 (row (p (ix2 0 s))) d) := by
  unfold gatherV
  refine (broadcastInDim_apply _ bcast_S1x1024x64_S1x1x1024x64_0_2_3 _ (ix4 0 0 s d) (ix3 0 s d) (fun a => match a with
      | ⟨0, _⟩ => by show 0 = if (1 : Nat) = 1 then 0 else _; rw [if_pos rfl]
      | ⟨1, _⟩ => by show s.val = if (1024 : Nat) = 1 then 0 else s.val; rw [if_neg (by decide)]
      | ⟨2, _⟩ => by show d.val = if (64 : Nat) = 1 then 0 else d.val; rw [if_neg (by decide)])).trans ?_
  exact gather_apply T _ s d (norm (p (ix2 0 s)))
    ((broadcastInDim_apply _ bcast_S1x1024_S1x1024x1_0_1 (normV p) (ix3 0 s 0) (ix2 0 s) (fun a => match a with
      | ⟨0, _⟩ => by show 0 = if (1 : Nat) = 1 then 0 else _; rw [if_pos rfl]
      | ⟨1, _⟩ => by show s.val = if (1024 : Nat) = 1 then 0 else s.val; rw [if_neg (by decide)])).trans (normV_apply p s))

end RefTables

/-! ## The interface: the two tables at the positions -/

theorem ref_seg0_v7 (W : Valuation τ sig (Elt Ideal)) (s : Fin 1024) (d : Fin 64) :
    (after (seg0 (F := Ideal)) W main_v7 : Vec Ideal S1x1x1024x64 .f32) (ix4 0 0 s d)
      = (W main_arg3 : Vec Ideal S1024x64 .f32) (ix2 (Cert.KV.row ((W main_arg2 : IVec S1x1024 32) (ix2 0 s))) d) := by
  rw [RefTables.seg0_term_v7]
  exact RefTables.gatherV_apply _ _ s d

theorem ref_seg0_v15 (W : Valuation τ sig (Elt Ideal)) (s : Fin 1024) (d : Fin 64) :
    (after (seg0 (F := Ideal)) W main_v15 : Vec Ideal S1x1x1024x64 .f32) (ix4 0 0 s d)
      = (W main_arg4 : Vec Ideal S1024x64 .f32) (ix2 (Cert.KV.row ((W main_arg2 : IVec S1x1024 32) (ix2 0 s))) d) := by
  rw [RefTables.seg0_term_v15]
  exact RefTables.gatherV_apply _ _ s d

end Cert.KV

end
-- ==== Proof.Ref.Stage1.lean ====
/-
  The reference's two normalisation stretches before the attention blocks (its operations 39 to 54 and 159 to 174),
  read at an index. Each squares the hidden states, sums every row, divides by the row length, adds the small
  constant, takes the root, divides each entry by its row's root and multiplies by the gain: at row s and column h
  that is the specification's normalisation of the coordinate functions the hidden states and the gain are.
  The composed term of a stretch is stated once as a function of its two operands; each layout operation in it
  is read at an index by one small lemma, the row sum from a zero initial value as the plain sum of the row.
-/
import proofs.«167047_j26895085207995_2_alg».proof.Proof.Spec
import proofs.«167047_j26895085207995_2_alg».proof.Proof.Ref.Segs
import Idealize.ShloMosaic.Lib.StableHlo.Run
import Idealize.ShloMosaic.Lib.ValueIdx
import Idealize.ShloMosaic.Lib.Pipeline.Value
import Idealize.ShloMosaic.PureOps.Ideal.Laws

noncomputable section

namespace Cert.KV
open scoped BigOperators
open Idealize.ShloMosaic Idealize.ShloMosaic.TcCoe Idealize.ShloMosaic.ValueIdx Idealize.ShloMosaic.StableHlo
open Cert.ReferenceIdeal Cert.ReferenceIdeal.RunP

open Cert.ReferenceIdeal.Gen

namespace Norm

/-! ## The layout operations of the normalisation, each read at an index -/

/-- A row vector [1,1024] given a trailing unit axis reads the row's entry. -/
theorem bcast_row_unit_apply (y : Vec Ideal S1x1024 .f32) (s : Fin 1024) :
    broadcastInDim S1x1024x1 ![0, 1] bcast_S1x1024_S1x1024x1_0_1 y (ix3 0 s 0) = y (ix2 0 s) :=
  broadcastInDim_apply _ bcast_S1x1024_S1x1024x1_0_1 y _ _ (fun a => match a with
    | ⟨0, _⟩ => by show 0 = if (1 : Nat) = 1 then 0 else (0 : Fin 1).val; rw [if_pos rfl]
    | ⟨1, _⟩ => by show s.val = if (1024 : Nat) = 1 then 0 else s.val; rw [if_neg (by decide)])

/-- A scalar broadcast to [1,1024,1] reads the scalar. -/
theorem bcast_scalar_col_apply (c : Vec Ideal S_ .f32) (i : S1x1024x1.Idx) :
    broadcastInDim S1x1024x1 ![] bcast_S_S1x1024x1 c i = c ix0 :=
  broadcastInDim_apply _ bcast_S_S1x1024x1 c i ix0 (fun a => a.elim0)

/-- A column [1,1024,1] broadcast along the last axis reads the row's entry. -/
theorem bcast_col_apply (y : Vec Ideal S1x1024x1 .f32) (s : Fin 1024) (h : Fin 2048) :
    broadcastInDim S1x1024x2048 ![0, 1, 2] bcast_S1x1024x1_S1x1024x2048_0_1_2 y (ix3 0 s h) = y (ix3 0 s 0) :=
  broadcastInDim_apply _ bcast_S1x1024x1_S1x1024x2048_0_1_2 y _ _ (fun a => match a with
    | ⟨0, _⟩ => by show 0 = if (1 : Nat) = 1 then 0 else (0 : Fin 1).val; rw [if_pos rfl]
    | ⟨1, _⟩ => by show s.val = if (1024 : Nat) = 1 then 0 else s.val; rw [if_neg (by decide)]
    | ⟨2, _⟩ => by show 0 = if (1 : Nat) = 1 then 0 else h.val; rw [if_pos rfl])

/-- A gain vector [2048] laid along the last axis of [1,1,2048]. -/
theorem bcast_gain_unit_apply (g : Vec Ideal S2048 .f32) (h : Fin 2048) :
    broadcastInDim S1x1x2048 ![2] bcast_S2048_S1x1x2048_2 g (ix3 0 0 h) = g (ix1 h) :=
  broadcastInDim_apply _ bcast_S2048_S1x1x2048_2 g _ _ (fun a => match a with
    | ⟨0, _⟩ => by show h.val = if (2048 : Nat) = 1 then 0 else h.val; rw [if_neg (by decide)])

/-- [1,1,2048] broadcast over the 1024 rows. -/
theorem bcast_gain_rows_apply (y : Vec Ideal S1x1x2048 .f32) (s : Fin 1024) (h : Fin 2048) :
    broadcastInDim S1x1024x2048 ![0, 1, 2] bcast_S1x1x2048_S1x1024x2048_0_1_2 y (ix3 0 s h) = y (ix3 0 0 h) :=
  broadcastInDim_apply _ bcast_S1x1x2048_S1x1024x2048_0_1_2 y _ _ (fun a => match a with
    | ⟨0, _⟩ => by show 0 = if (1 : Nat) = 1 then 0 else (0 : Fin 1).val; rw [if_pos rfl]
    | ⟨1, _⟩ => by show 0 = if (1 : Nat) = 1 then 0 else s.val; rw [if_pos rfl]
    | ⟨2, _⟩ => by show h.val = if (2048 : Nat) = 1 then 0 else h.val; rw [if_neg (by decide)])

/-- The sum over the last axis from a zero initial value, read at row s: the plain sum of the row. -/
theorem reduce_row_apply (y : Vec Ideal S1x1024x2048 .f32) (s : Fin 1024) :
    Host.reduceAdd (F := Ideal) y (constant (F := Ideal) S_ .f32 0x00000000#32) reducesTo_S1x1024x2048_S1x1024_d2 h_S_ (ix2 0 s)
      = ∑ k : Fin 2048, y (ix3 0 s k) := by
  simp only [Host.reduceAdd, Ideal.hostReduceAdd_def]
  rw [Ideal.hostReduceAdd_single reducesTo_S1x1024x2048_S1x1024_d2 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-! ## The stretch's composed term and its reading -/

/-- The composed term of the normalisation stretch, as a function of the hidden states and the gain. -/
def rmsT (a : Vec Ideal S1x1024x2048 .f32) (g : Vec Ideal S2048 .f32) : Vec Ideal S1x1024x2048 .f32 :=
  mulf (Host.divf a (broadcastInDim S1x1024x2048 ![0, 1, 2] bcast_S1x1024x1_S1x1024x2048_0_1_2
      (Host.sqrt (addf (Host.divf
        (broadcastInDim S1x1024x1 ![0, 1] bcast_S1x1024_S1x1024x1_0_1
          (Host.reduceAdd (mulf a a) (constant (F := Ideal) S_ .f32 0x00000000#32) reducesTo_S1x1024x2048_S1x1024_d2 h_S_))
        (broadcastInDim S1x1024x1 ![] bcast_S_S1x1024x1 (constant (F := Ideal) S_ .f32 0x45000000#32)))
        (broadcastInDim S1x1024x1 ![] bcast_S_S1x1024x1 (constant (F := Ideal) S_ .f32 0x3727C5AC#32))))))
    (broadcastInDim S1x1024x2048 ![0, 1, 2] bcast_S1x1x2048_S1x1024x2048_0_1_2
      (broadcastInDim S1x1x2048 ![2] bcast_S2048_S1x1x2048_2 g))

/-- The term at (s, h) is the specification's normalisation of the coordinate functions the two operands are. -/
theorem rmsT_apply (a : Vec Ideal S1x1024x2048 .f32) (gv : Vec Ideal S2048 .f32) (x : Cert.Spec.Hid) (g : Fin 2048 → EReal)
    (hx : ∀ s h, a (ix3 0 s h) = x s h) (hg : ∀ h, gv (ix1 h) = g h) (s : Fin 1024) (h : Fin 2048) :
    rmsT a gv (ix3 0 s h) = Cert.Spec.rms x g s h := by
  unfold rmsT
  rw [mulf_apply]
  show Ideal.div (a (ix3 0 s h)) _ * _ = _
  rw [bcast_col_apply, bcast_gain_rows_apply, bcast_gain_unit_apply, hg, hx]
  show Ideal.div (x s h) (Ideal.sqrt (Ideal.div _ _ + _)) * g h = _
  rw [bcast_row_unit_apply, bcast_scalar_col_apply, bcast_scalar_col_apply, reduce_row_apply]
  unfold Cert.Spec.rms Cert.Spec.msq
  refine congrArg (fun t => Ideal.div (x s h) (Ideal.sqrt (Ideal.div t _ + _)) * g h) ?_
  refine Finset.sum_congr rfl fun k _ => ?_
  rw [mulf_apply, hx]

end Norm

open Norm

/-! ## The two normalisation stretches before the attention blocks -/

/-- The first layer's stretch computes the term on the first argument and the first gain. -/
theorem seg1_term (W : Valuation τ sig (Elt Ideal)) :
    (after (seg1 (F := Ideal)) W main_v46 : Vec Ideal S1x1024x2048 .f32) = rmsT (W main_arg0) (W main_v17) := by
  dsimp only [seg1]
  after_results
  rfl

theorem ref_seg1_v46 (W : Valuation τ sig (Elt Ideal)) (x : Cert.Spec.Hid) (g : Fin 2048 → EReal)
    (hx : ∀ s h, (W main_arg0 : Vec Ideal S1x1024x2048 .f32) (ix3 0 s h) = x s h)
    (hg : ∀ h, (W main_v17 : Vec Ideal S2048 .f32) (ix1 h) = g h) (s : Fin 1024) (h : Fin 2048) :
    (after (seg1 (F := Ideal)) W main_v46 : Vec Ideal S1x1024x2048 .f32) (ix3 0 s h) = Cert.Spec.rms x g s h := by
  rw [seg1_term]
  exact rmsT_apply _ _ x g hx hg s h

/-- The second layer's stretch computes the same term on the first layer's result and the second gain. -/
theorem seg9_term (W : Valuation τ sig (Elt Ideal)) :
    (after (seg9 (F := Ideal)) W main_v148 : Vec Ideal S1x1024x2048 .f32) = rmsT (W main_v117) (W main_v119) := by
  dsimp only [seg9]
  after_results
  rfl

theorem ref_seg9_v148 (W : Valuation τ sig (Elt Ideal)) (x : Cert.Spec.Hid) (g : Fin 2048 → EReal)
    (hx : ∀ s h, (W main_v117 : Vec Ideal S1x1024x2048 .f32) (ix3 0 s h) = x s h)
    (hg : ∀ h, (W main_v119 : Vec Ideal S2048 .f32) (ix1 h) = g h) (s : Fin 1024) (h : Fin 2048) :
    (after (seg9 (F := Ideal)) W main_v148 : Vec Ideal S1x1024x2048 .f32) (ix3 0 s h) = Cert.Spec.rms x g s h := by
  rw [seg9_term]
  exact rmsT_apply _ _ x g hx hg s h

end Cert.KV
end
-- ==== Proof.Ref.Stage2.lean ====
/-
  The reference's two projection stretches (its operations 55 to 63 and 175 to 183), read at an index. Each takes
  the normalised hidden states against the query, key and value weights (a contraction over the 2048 columns),
  reshapes the result's columns into heads of 64 lanes and puts the head axis in front of the position axis: at
  head hd, position s, lane d that is the specification's projection at row s and weight row hd * 64 + d.
  The two contractions (2048 and 512 output columns) are read at an index as plain sums over the contracted
  column; the reshape and the transpose are read through the row-major position and the permutation.
-/
import proofs.«167047_j26895085207995_2_alg».proof.Proof.Spec
import proofs.«167047_j26895085207995_2_alg».proof.Proof.Ref.Segs
import Idealize.ShloMosaic.Lib.StableHlo.Run
import Idealize.ShloMosaic.Lib.ValueIdx
import Idealize.ShloMosaic.Lib.Pipeline.Value
import Idealize.ShloMosaic.PureOps.Ideal.Laws

noncomputable section

namespace Cert.KV
open scoped BigOperators
open Idealize.ShloMosaic Idealize.ShloMosaic.TcCoe Idealize.ShloMosaic.ValueIdx Idealize.ShloMosaic.StableHlo
open Cert.ReferenceIdeal Cert.ReferenceIdeal.RunP

open Cert.ReferenceIdeal.Gen

namespace Proj

/-! ## The two contractions: where each reads its operands, then the product at an index -/

theorem lhsQ_0 (i : S1x1024x2048.Idx) (q : dot_S1x1024x2048_S2048x2048_S1x1024x2048_2_1_01_0_n_n.contr.Idx) :
    (dot_S1x1024x2048_S2048x2048_S1x1024x2048_2_1_01_0_n_n.lhsIdx i q 0).val = (i 0).val := by
  unfold DotDims.lhsIdx
  rw [dif_neg (show ¬(0 : Fin S1x1024x2048.rank) ∈ dot_S1x1024x2048_S2048x2048_S1x1024x2048_2_1_01_0_n_n.lhsBatch by decide), dif_pos (show (0 : Fin S1x1024x2048.rank) ∈ dot_S1x1024x2048_S2048x2048_S1x1024x2048_2_1_01_0_n_n.lhsNonContracting by decide)]
  rfl
theorem lhsQ_1 (i : S1x1024x2048.Idx) (q : dot_S1x1024x2048_S2048x2048_S1x1024x2048_2_1_01_0_n_n.contr.Idx) :
    (dot_S1x1024x2048_S2048x2048_S1x1024x2048_2_1_01_0_n_n.lhsIdx i q 1).val = (i 1).val := by
  unfold DotDims.lhsIdx
  rw [dif_neg (show ¬(1 : Fin S1x1024x2048.rank) ∈ dot_S1x1024x2048_S2048x2048_S1x1024x2048_2_1_01_0_n_n.lhsBatch by decide), dif_pos (show (1 : Fin S1x1024x2048.rank) ∈ dot_S1x1024x2048_S2048x2048_S1x1024x2048_2_1_01_0_n_n.lhsNonContracting by decide)]
  rfl
theorem lhsQ_2 (i : S1x1024x2048.Idx) (q : dot_S1x1024x2048_S2048x2048_S1x1024x2048_2_1_01_0_n_n.contr.Idx) :
    (dot_S1x1024x2048_S2048x2048_S1x1024x2048_2_1_01_0_n_n.lhsIdx i q 2).val = (q ⟨0, by decide⟩).val :=
  dot_S1x1024x2048_S2048x2048_S1x1024x2048_2_1_01_0_n_n.lhsIdx_val_of_single rfl i q
theorem rhsQ_0 (i : S1x1024x2048.Idx) (q : dot_S1x1024x2048_S2048x2048_S1x1024x2048_2_1_01_0_n_n.contr.Idx) :
    (dot_S1x1024x2048_S2048x2048_S1x1024x2048_2_1_01_0_n_n.rhsIdx i q 0).val = (i 2).val := by
  unfold DotDims.rhsIdx
  rw [dif_neg (show ¬(0 : Fin S2048x2048.rank) ∈ dot_S1x1024x2048_S2048x2048_S1x1024x2048_2_1_01_0_n_n.rhsBatch by decide), dif_pos (show (0 : Fin S2048x2048.rank) ∈ dot_S1x1024x2048_S2048x2048_S1x1024x2048_2_1_01_0_n_n.rhsNonContracting by decide)]
  rfl
theorem rhsQ_1 (i : S1x1024x2048.Idx) (q : dot_S1x1024x2048_S2048x2048_S1x1024x2048_2_1_01_0_n_n.contr.Idx) :
    (dot_S1x1024x2048_S2048x2048_S1x1024x2048_2_1_01_0_n_n.rhsIdx i q 1).val = (q ⟨0, by decide⟩).val :=
  dot_S1x1024x2048_S2048x2048_S1x1024x2048_2_1_01_0_n_n.rhsIdx_val_of_single rfl i q

/-- The product against a [2048,2048] weight at row s and output column o: the row against the weight's row o. -/
theorem dotQ_apply (a : FVec Ideal S1x1024x2048 .f32) (wv : FVec Ideal S2048x2048 .f32) (s : Fin 1024) (o : Fin 2048) :
    Host.dotGeneral (F := Ideal) dot_S1x1024x2048_S2048x2048_S1x1024x2048_2_1_01_0_n_n none a wv (ix3 0 s o) = ∑ k : Fin 2048, a (ix3 0 s k) * wv (ix2 o k) := by
  simp only [Host.dotGeneral]
  rw [Ideal.dotGeneral_apply, ← Equiv.sum_comp (ValueIdx.contrEquiv1 dot_S1x1024x2048_S2048x2048_S1x1024x2048_2_1_01_0_n_n 2048 rfl rfl).symm]
  refine Finset.sum_congr rfl fun k _ => ?_
  have hk := ValueIdx.contrEquiv1_symm_val dot_S1x1024x2048_S2048x2048_S1x1024x2048_2_1_01_0_n_n 2048 rfl rfl k
  have el : dot_S1x1024x2048_S2048x2048_S1x1024x2048_2_1_01_0_n_n.lhsIdx (ix3 0 s o) ((ValueIdx.contrEquiv1 dot_S1x1024x2048_S2048x2048_S1x1024x2048_2_1_01_0_n_n 2048 rfl rfl).symm k) = ix3 0 s k := funext fun a => Fin.ext (by
    match a with
    | ⟨0, _⟩ => exact lhsQ_0 _ _
    | ⟨1, _⟩ => exact lhsQ_1 _ _
    | ⟨2, _⟩ => exact (lhsQ_2 _ _).trans hk)
  have er : dot_S1x1024x2048_S2048x2048_S1x1024x2048_2_1_01_0_n_n.rhsIdx (ix3 0 s o) ((ValueIdx.contrEquiv1 dot_S1x1024x2048_S2048x2048_S1x1024x2048_2_1_01_0_n_n 2048 rfl rfl).symm k) = ix2 o k := funext fun a => Fin.ext (by
    match a with
    | ⟨0, _⟩ => exact rhsQ_0 _ _
    | ⟨1, _⟩ => exact (rhsQ_1 _ _).trans hk)
  rw [el, er]

theorem lhsK_0 (i : S1x1024x512.Idx) (q : dot_S1x1024x2048_S512x2048_S1x1024x512_2_1_01_0_n_n.contr.Idx) :
    (dot_S1x1024x2048_S512x2048_S1x1024x512_2_1_01_0_n_n.lhsIdx i q 0).val = (i 0).val := by
  unfold DotDims.lhsIdx
  rw [dif_neg (show ¬(0 : Fin S1x1024x2048.rank) ∈ dot_S1x1024x2048_S512x2048_S1x1024x512_2_1_01_0_n_n.lhsBatch by decide), dif_pos (show (0 : Fin S1x1024x2048.rank) ∈ dot_S1x1024x2048_S512x2048_S1x1024x512_2_1_01_0_n_n.lhsNonContracting by decide)]
  rfl
theorem lhsK_1 (i : S1x1024x512.Idx) (q : dot_S1x1024x2048_S512x2048_S1x1024x512_2_1_01_0_n_n.contr.Idx) :
    (dot_S1x1024x2048_S512x2048_S1x1024x512_2_1_01_0_n_n.lhsIdx i q 1).val = (i 1).val := by
  unfold DotDims.lhsIdx
  rw [dif_neg (show ¬(1 : Fin S1x1024x2048.rank) ∈ dot_S1x1024x2048_S512x2048_S1x1024x512_2_1_01_0_n_n.lhsBatch by decide), dif_pos (show (1 : Fin S1x1024x2048.rank) ∈ dot_S1x1024x2048_S512x2048_S1x1024x512_2_1_01_0_n_n.lhsNonContracting by decide)]
  rfl
theorem lhsK_2 (i : S1x1024x512.Idx) (q : dot_S1x1024x2048_S512x2048_S1x1024x512_2_1_01_0_n_n.contr.Idx) :
    (dot_S1x1024x2048_S512x2048_S1x1024x512_2_1_01_0_n_n.lhsIdx i q 2).val = (q ⟨0, by decide⟩).val :=
  dot_S1x1024x2048_S512x2048_S1x1024x512_2_1_01_0_n_n.lhsIdx_val_of_single rfl i q
theorem rhsK_0 (i : S1x1024x512.Idx) (q : dot_S1x1024x2048_S512x2048_S1x1024x512_2_1_01_0_n_n.contr.Idx) :
    (dot_S1x1024x2048_S512x2048_S1x1024x512_2_1_01_0_n_n.rhsIdx i q 0).val = (i 2).val := by
  unfold DotDims.rhsIdx
  rw [dif_neg (show ¬(0 : Fin S512x2048.rank) ∈ dot_S1x1024x2048_S512x2048_S1x1024x512_2_1_01_0_n_n.rhsBatch by decide), dif_pos (show (0 : Fin S512x2048.rank) ∈ dot_S1x1024x2048_S512x2048_S1x1024x512_2_1_01_0_n_n.rhsNonContracting by decide)]
  rfl
theorem rhsK_1 (i : S1x1024x512.Idx) (q : dot_S1x1024x2048_S512x2048_S1x1024x512_2_1_01_0_n_n.contr.Idx) :
    (dot_S1x1024x2048_S512x2048_S1x1024x512_2_1_01_0_n_n.rhsIdx i q 1).val = (q ⟨0, by decide⟩).val :=
  dot_S1x1024x2048_S512x2048_S1x1024x512_2_1_01_0_n_n.rhsIdx_val_of_single rfl i q

/-- The product against a [512,2048] weight at row s and output column o. -/
theorem dotK_apply (a : FVec Ideal S1x1024x2048 .f32) (wv : FVec Ideal S512x2048 .f32) (s : Fin 1024) (o : Fin 512) :
    Host.dotGeneral (F := Ideal) dot_S1x1024x2048_S512x2048_S1x1024x512_2_1_01_0_n_n none a wv (ix3 0 s o) = ∑ k : Fin 2048, a (ix3 0 s k) * wv (ix2 o k) := by
  simp only [Host.dotGeneral]
  rw [Ideal.dotGeneral_apply, ← Equiv.sum_comp (ValueIdx.contrEquiv1 dot_S1x1024x2048_S512x2048_S1x1024x512_2_1_01_0_n_n 2048 rfl rfl).symm]
  refine Finset.sum_congr rfl fun k _ => ?_
  have hk := ValueIdx.contrEquiv1_symm_val dot_S1x1024x2048_S512x2048_S1x1024x512_2_1_01_0_n_n 2048 rfl rfl k
  have el : dot_S1x1024x2048_S512x2048_S1x1024x512_2_1_01_0_n_n.lhsIdx (ix3 0 s o) ((ValueIdx.contrEquiv1 dot_S1x1024x2048_S512x2048_S1x1024x512_2_1_01_0_n_n 2048 rfl rfl).symm k) = ix3 0 s k := funext fun a => Fin.ext (by
    match a with
    | ⟨0, _⟩ => exact lhsK_0 _ _
    | ⟨1, _⟩ => exact lhsK_1 _ _
    | ⟨2, _⟩ => exact (lhsK_2 _ _).trans hk)
  have er : dot_S1x1024x2048_S512x2048_S1x1024x512_2_1_01_0_n_n.rhsIdx (ix3 0 s o) ((ValueIdx.contrEquiv1 dot_S1x1024x2048_S512x2048_S1x1024x512_2_1_01_0_n_n 2048 rfl rfl).symm k) = ix2 o k := funext fun a => Fin.ext (by
    match a with
    | ⟨0, _⟩ => exact rhsK_0 _ _
    | ⟨1, _⟩ => exact (rhsK_1 _ _).trans hk)
  rw [el, er]

/-! ## Cutting the columns into heads: the reshape and the transpose, read at an index -/

/-- Head hd, position s, lane d of the 32-head layout is column hd * 64 + d of row s. -/
theorem headsQ_apply {α : Type} (v : S1x1024x2048.Idx → α) (hd : Fin 32) (s : Fin 1024) (d : Fin 64) :
    transpose S1x32x1024x64 [0, 2, 1, 3] (shapeCast S1x1024x32x64 v shapeCasts_S1x1024x2048_S1x1024x32x64)
        transposes_S1x1024x32x64_S1x32x1024x64_0_2_1_3 (ix4 0 hd s d)
      = v (ix3 0 s ⟨hd.val * 64 + d.val, by have := hd.isLt; have := d.isLt; omega⟩) := by
  refine (transpose_apply [0, 2, 1, 3] _ transposes_S1x1024x32x64_S1x32x1024x64_0_2_1_3 (ix4 0 hd s d) (ix4 0 s hd d)
    (fun b => match b with
      | ⟨0, _⟩ => rfl
      | ⟨1, _⟩ => rfl
      | ⟨2, _⟩ => rfl
      | ⟨3, _⟩ => rfl)).trans ?_
  exact shapeCast_apply v shapeCasts_S1x1024x2048_S1x1024x32x64 (ix4 0 s hd d) _
    (by rewrite [Shape.rowMajor_val_three, Shape.rowMajor_val_four]
        have := hd.isLt; have := d.isLt; have := s.isLt
        show (0 * 1024 + s.val) * 2048 + (hd.val * 64 + d.val) = ((0 * 1024 + s.val) * 32 + hd.val) * 64 + d.val
        omega)

/-- The same for the 8-head layout of a 512-column array. -/
theorem headsK_apply {α : Type} (v : S1x1024x512.Idx → α) (hd : Fin 8) (s : Fin 1024) (d : Fin 64) :
    transpose S1x8x1024x64 [0, 2, 1, 3] (shapeCast S1x1024x8x64 v shapeCasts_S1x1024x512_S1x1024x8x64)
        transposes_S1x1024x8x64_S1x8x1024x64_0_2_1_3 (ix4 0 hd s d)
      = v (ix3 0 s ⟨hd.val * 64 + d.val, by have := hd.isLt; have := d.isLt; omega⟩) := by
  refine (transpose_apply [0, 2, 1, 3] _ transposes_S1x1024x8x64_S1x8x1024x64_0_2_1_3 (ix4 0 hd s d) (ix4 0 s hd d)
    (fun b => match b with
      | ⟨0, _⟩ => rfl
      | ⟨1, _⟩ => rfl
      | ⟨2, _⟩ => rfl
      | ⟨3, _⟩ => rfl)).trans ?_
  exact shapeCast_apply v shapeCasts_S1x1024x512_S1x1024x8x64 (ix4 0 s hd d) _
    (by rewrite [Shape.rowMajor_val_three, Shape.rowMajor_val_four]
        have := hd.isLt; have := d.isLt; have := s.isLt
        show (0 * 1024 + s.val) * 512 + (hd.val * 64 + d.val) = ((0 * 1024 + s.val) * 8 + hd.val) * 64 + d.val
        omega)

/-! ## The composed terms and their readings -/

/-- A 32-head projection: the product, cut into heads. -/
def projQT (a : FVec Ideal S1x1024x2048 .f32) (wv : FVec Ideal S2048x2048 .f32) : FVec Ideal S1x32x1024x64 .f32 :=
  transpose S1x32x1024x64 [0, 2, 1, 3]
    (shapeCast S1x1024x32x64 (Host.dotGeneral (F := Ideal) dot_S1x1024x2048_S2048x2048_S1x1024x2048_2_1_01_0_n_n none a wv) shapeCasts_S1x1024x2048_S1x1024x32x64)
    transposes_S1x1024x32x64_S1x32x1024x64_0_2_1_3

/-- An 8-head projection: the product, cut into heads. -/
def projKT (a : FVec Ideal S1x1024x2048 .f32) (wv : FVec Ideal S512x2048 .f32) : FVec Ideal S1x8x1024x64 .f32 :=
  transpose S1x8x1024x64 [0, 2, 1, 3]
    (shapeCast S1x1024x8x64 (Host.dotGeneral (F := Ideal) dot_S1x1024x2048_S512x2048_S1x1024x512_2_1_01_0_n_n none a wv) shapeCasts_S1x1024x512_S1x1024x8x64)
    transposes_S1x1024x8x64_S1x8x1024x64_0_2_1_3

theorem projQT_apply (a : FVec Ideal S1x1024x2048 .f32) (wv : FVec Ideal S2048x2048 .f32) (y : Cert.Spec.Hid) (w : Cert.Spec.Wt 2048 2048)
    (hy : ∀ s h, a (ix3 0 s h) = y s h) (hw : ∀ o h, wv (ix2 o h) = w o h) (hd : Fin 32) (s : Fin 1024) (d : Fin 64) :
    projQT a wv (ix4 0 hd s d) = Cert.Spec.heads (n := 32) (Cert.Spec.proj y w) hd s d := by
  unfold projQT
  rw [headsQ_apply, dotQ_apply]
  unfold Cert.Spec.heads Cert.Spec.proj
  refine Finset.sum_congr rfl fun k _ => ?_
  rw [hy, hw]

theorem projKT_apply (a : FVec Ideal S1x1024x2048 .f32) (wv : FVec Ideal S512x2048 .f32) (y : Cert.Spec.Hid) (w : Cert.Spec.Wt 512 2048)
    (hy : ∀ s h, a (ix3 0 s h) = y s h) (hw : ∀ o h, wv (ix2 o h) = w o h) (hd : Fin 8) (s : Fin 1024) (d : Fin 64) :
    projKT a wv (ix4 0 hd s d) = Cert.Spec.heads (n := 8) (Cert.Spec.proj y w) hd s d := by
  unfold projKT
  rw [headsK_apply, dotK_apply]
  unfold Cert.Spec.heads Cert.Spec.proj
  refine Finset.sum_congr rfl fun k _ => ?_
  rw [hy, hw]

end Proj

open Proj

/-! ## The first layer's three projections -/

theorem seg2_v49_term (W : Valuation τ sig (Elt Ideal)) :
    (after (seg2 (F := Ideal)) W main_v49 : Vec Ideal S1x32x1024x64 .f32) = projQT (W main_v46) (W main_v21) := by
  dsimp only [seg2]
  after_results
  rfl

theorem ref_seg2_v49 (W : Valuation τ sig (Elt Ideal)) (y : Cert.Spec.Hid) (w : Cert.Spec.Wt 2048 2048)
    (hy : ∀ s h, (W main_v46 : Vec Ideal S1x1024x2048 .f32) (ix3 0 s h) = y s h)
    (hw : ∀ o h, (W main_v21 : Vec Ideal S2048x2048 .f32) (ix2 o h) = w o h) (hd : Fin 32) (s : Fin 1024) (d : Fin 64) :
    (after (seg2 (F := Ideal)) W main_v49 : Vec Ideal S1x32x1024x64 .f32) (ix4 0 hd s d) = Cert.Spec.heads (n := 32) (Cert.Spec.proj y w) hd s d := by
  rw [seg2_v49_term]
  exact projQT_apply _ _ y w hy hw hd s d

theorem seg2_v52_term (W : Valuation τ sig (Elt Ideal)) :
    (after (seg2 (F := Ideal)) W main_v52 : Vec Ideal S1x8x1024x64 .f32) = projKT (W main_v46) (W main_v23) := by
  dsimp only [seg2]
  after_results
  rfl

theorem ref_seg2_v52 (W : Valuation τ sig (Elt Ideal)) (y : Cert.Spec.Hid) (w : Cert.Spec.Wt 512 2048)
    (hy : ∀ s h, (W main_v46 : Vec Ideal S1x1024x2048 .f32) (ix3 0 s h) = y s h)
    (hw : ∀ o h, (W main_v23 : Vec Ideal S512x2048 .f32) (ix2 o h) = w o h) (hd : Fin 8) (s : Fin 1024) (d : Fin 64) :
    (after (seg2 (F := Ideal)) W main_v52 : Vec Ideal S1x8x1024x64 .f32) (ix4 0 hd s d) = Cert.Spec.heads (n := 8) (Cert.Spec.proj y w) hd s d := by
  rw [seg2_v52_term]
  exact projKT_apply _ _ y w hy hw hd s d

theorem seg2_v55_term (W : Valuation τ sig (Elt Ideal)) :
    (after (seg2 (F := Ideal)) W main_v55 : Vec Ideal S1x8x1024x64 .f32) = projKT (W main_v46) (W main_v25) := by
  dsimp only [seg2]
  after_results
  rfl

theorem ref_seg2_v55 (W : Valuation τ sig (Elt Ideal)) (y : Cert.Spec.Hid) (w : Cert.Spec.Wt 512 2048)
    (hy : ∀ s h, (W main_v46 : Vec Ideal S1x1024x2048 .f32) (ix3 0 s h) = y s h)
    (hw : ∀ o h, (W main_v25 : Vec Ideal S512x2048 .f32) (ix2 o h) = w o h) (hd : Fin 8) (s : Fin 1024) (d : Fin 64) :
    (after (seg2 (F := Ideal)) W main_v55 : Vec Ideal S1x8x1024x64 .f32) (ix4 0 hd s d) = Cert.Spec.heads (n := 8) (Cert.Spec.proj y w) hd s d := by
  rw [seg2_v55_term]
  exact projKT_apply _ _ y w hy hw hd s d

/-! ## The second layer's three projections -/

theorem seg10_v151_term (W : Valuation τ sig (Elt Ideal)) :
    (after (seg10 (F := Ideal)) W main_v151 : Vec Ideal S1x32x1024x64 .f32) = projQT (W main_v148) (W main_v123) := by
  dsimp only [seg10]
  after_results
  rfl

theorem ref_seg10_v151 (W : Valuation τ sig (Elt Ideal)) (y : Cert.Spec.Hid) (w : Cert.Spec.Wt 2048 2048)
    (hy : ∀ s h, (W main_v148 : Vec Ideal S1x1024x2048 .f32) (ix3 0 s h) = y s h)
    (hw : ∀ o h, (W main_v123 : Vec Ideal S2048x2048 .f32) (ix2 o h) = w o h) (hd : Fin 32) (s : Fin 1024) (d : Fin 64) :
    (after (seg10 (F := Ideal)) W main_v151 : Vec Ideal S1x32x1024x64 .f32) (ix4 0 hd s d) = Cert.Spec.heads (n := 32) (Cert.Spec.proj y w) hd s d := by
  rw [seg10_v151_term]
  exact projQT_apply _ _ y w hy hw hd s d

theorem seg10_v154_term (W : Valuation τ sig (Elt Ideal)) :
    (after (seg10 (F := Ideal)) W main_v154 : Vec Ideal S1x8x1024x64 .f32) = projKT (W main_v148) (W main_v125) := by
  dsimp only [seg10]
  after_results
  rfl

theorem ref_seg10_v154 (W : Valuation τ sig (Elt Ideal)) (y : Cert.Spec.Hid) (w : Cert.Spec.Wt 512 2048)
    (hy : ∀ s h, (W main_v148 : Vec Ideal S1x1024x2048 .f32) (ix3 0 s h) = y s h)
    (hw : ∀ o h, (W main_v125 : Vec Ideal S512x2048 .f32) (ix2 o h) = w o h) (hd : Fin 8) (s : Fin 1024) (d : Fin 64) :
    (after (seg10 (F := Ideal)) W main_v154 : Vec Ideal S1x8x1024x64 .f32) (ix4 0 hd s d) = Cert.Spec.heads (n := 8) (Cert.Spec.proj y w) hd s d := by
  rw [seg10_v154_term]
  exact projKT_apply _ _ y w hy hw hd s d

theorem seg10_v157_term (W : Valuation τ sig (Elt Ideal)) :
    (after (seg10 (F := Ideal)) W main_v157 : Vec Ideal S1x8x1024x64 .f32) = projKT (W main_v148) (W main_v127) := by
  dsimp only [seg10]
  after_results
  rfl

theorem ref_seg10_v157 (W : Valuation τ sig (Elt Ideal)) (y : Cert.Spec.Hid) (w : Cert.Spec.Wt 512 2048)
    (hy : ∀ s h, (W main_v148 : Vec Ideal S1x1024x2048 .f32) (ix3 0 s h) = y s h)
    (hw : ∀ o h, (W main_v127 : Vec Ideal S512x2048 .f32) (ix2 o h) = w o h) (hd : Fin 8) (s : Fin 1024) (d : Fin 64) :
    (after (seg10 (F := Ideal)) W main_v157 : Vec Ideal S1x8x1024x64 .f32) (ix4 0 hd s d) = Cert.Spec.heads (n := 8) (Cert.Spec.proj y w) hd s d := by
  rw [seg10_v157_term]
  exact projKT_apply _ _ y w hy hw hd s d

end Cert.KV
end
-- ==== Proof.Ref.Stage3.lean ====
/-
  The reference's rotary embedding of a layer read at an index (both layers, the query heads and the key heads: the
  same operations on other buffers and head counts): the heads times the cosine table spread over the heads, plus the
  half rotation of the heads times the sine table. The half rotation is printed as the negated upper 32 lanes laid
  end to end with the lower 32 lanes; read at a lane it is the specification's `rot`. The key heads' result stands in
  the second half of the stage's operations, so the stage is cut after its ninth operation first: the first nine write
  none of the buffers the second half reads.
-/
import proofs.«167047_j26895085207995_2_alg».proof.Proof.Spec
import proofs.«167047_j26895085207995_2_alg».proof.Proof.Ref.Segs
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

noncomputable section

namespace Cert.KV

open scoped BigOperators
open Idealize.ShloMosaic Idealize.ShloMosaic.TcCoe Idealize.ShloMosaic.ValueIdx Idealize.ShloMosaic.StableHlo
open Cert.ReferenceIdeal Cert.ReferenceIdeal.Gen Cert.ReferenceIdeal.RunP

/-- A line of operations run from `V` is its first `n` operations run from `V`, then the rest run from what they leave. -/
private theorem after_take_drop (n : Nat) : ∀ (l : List (HloOp τ sig (Elt Ideal))) (V : Valuation τ sig (Elt Ideal)),
    after l V = after (l.drop n) (after (l.take n) V) := by
  induction n with
  | zero => intro l V; rfl
  | succ n ih =>
    intro l V
    cases l with
    | nil => rfl
    | cons op l => exact ih l (op.result V)

/-- A position table spread over the 32 heads reads the table. -/
private theorem bc_heads32_apply {α : Type} (y : S1x1x1024x64.Idx → α) (hd : Fin 32) (s : Fin 1024) (d : Fin 64) :
    broadcastInDim S1x32x1024x64 ![0, 1, 2, 3] bcast_S1x1x1024x64_S1x32x1024x64_0_1_2_3 y (ix4 0 hd s d) = y (ix4 0 0 s d) :=
  broadcastInDim_apply _ bcast_S1x1x1024x64_S1x32x1024x64_0_1_2_3 y (ix4 0 hd s d) (ix4 0 0 s d) (fun a => match a with
    | ⟨0, _⟩ => by show 0 = if (1 : Nat) = 1 then 0 else 0; rw [if_pos rfl]
    | ⟨1, _⟩ => by show 0 = if (1 : Nat) = 1 then 0 else hd.val; rw [if_pos rfl]
    | ⟨2, _⟩ => by show s.val = if (1024 : Nat) = 1 then 0 else s.val; rw [if_neg (by decide)]
    | ⟨3, _⟩ => by show d.val = if (64 : Nat) = 1 then 0 else d.val; rw [if_neg (by decide)])

/-- The upper half of the lanes of 32 heads: lane `e` of the cut is lane `e + 32`. -/
private theorem hi_half32_apply {α : Type} (y : S1x32x1024x64.Idx → α) (hd : Fin 32) (s : Fin 1024) (e : Fin 32) :
    extractStridedSlice S1x32x1024x32 ![0, 0, 0, 32] y slices_S1x32x1024x64_S1x32x1024x32_0_0_0_32 (ix4 0 hd s e)
      = y (ix4 0 hd s ⟨e.val + 32, by have := e.isLt; omega⟩) :=
  extractStridedSlice_apply ![0, 0, 0, 32] y slices_S1x32x1024x64_S1x32x1024x32_0_0_0_32 (ix4 0 hd s e)
    (ix4 0 hd s ⟨e.val + 32, by have := e.isLt; omega⟩) (fun a => match a with
    | ⟨0, _⟩ => by show 0 = 0 + 0; omega
    | ⟨1, _⟩ => by show hd.val = 0 + hd.val; omega
    | ⟨2, _⟩ => by show s.val = 0 + s.val; omega
    | ⟨3, _⟩ => by show e.val + 32 = 32 + e.val; omega)

/-- The lower half of the lanes of 32 heads: lane `e` of the cut is lane `e`. -/
private theorem lo_half32_apply {α : Type} (y : S1x32x1024x64.Idx → α) (hd : Fin 32) (s : Fin 1024) (e : Fin 32) :
    extractStridedSlice S1x32x1024x32 ![0, 0, 0, 0] y slices_S1x32x1024x64_S1x32x1024x32_0_0_0_0 (ix4 0 hd s e)
      = y (ix4 0 hd s ⟨e.val, by have := e.isLt; omega⟩) :=
  extractStridedSlice_apply ![0, 0, 0, 0] y slices_S1x32x1024x64_S1x32x1024x32_0_0_0_0 (ix4 0 hd s e)
    (ix4 0 hd s ⟨e.val, by have := e.isLt; omega⟩) (fun a => match a with
    | ⟨0, _⟩ => by show 0 = 0 + 0; omega
    | ⟨1, _⟩ => by show hd.val = 0 + hd.val; omega
    | ⟨2, _⟩ => by show s.val = 0 + s.val; omega
    | ⟨3, _⟩ => by show e.val = 0 + e.val; omega)

/-- Two 32-lane arrays of 32 heads laid end to end along the lanes: lane `d` below 32 reads the first at `d`, any other
    lane the second at `d - 32`. -/
private theorem cat_halves32_apply {α : Type} (x₁ x₂ : S1x32x1024x32.Idx → α) (hd : Fin 32) (s : Fin 1024) (d : Fin 64) :
    concatenate S1x32x1024x64 3 [⟨S1x32x1024x32, x₁⟩, ⟨S1x32x1024x32, x₂⟩]
        concatenates_S1x32x1024x32_S1x32x1024x32_S1x32x1024x64_d3 (ix4 0 hd s d)
      = if h : d.val < 32 then x₁ (ix4 0 hd s ⟨d.val, h⟩) else x₂ (ix4 0 hd s ⟨d.val - 32, by have := d.isLt; omega⟩) := by
  have hd64 := d.isLt
  by_cases hlt : d.val < 32
  · rw [dif_pos hlt]
    exact concatenate_pair_apply_left 3 x₁ x₂ concatenates_S1x32x1024x32_S1x32x1024x32_S1x32x1024x64_d3
      (ix4 0 hd s d) rfl (ix4 0 hd s ⟨d.val, hlt⟩) (fun b => match b with
      | ⟨0, _⟩ => rfl | ⟨1, _⟩ => rfl | ⟨2, _⟩ => rfl | ⟨3, _⟩ => rfl)
  · rw [dif_neg hlt]
    exact concatenate_pair_apply_right 3 x₁ x₂ concatenates_S1x32x1024x32_S1x32x1024x32_S1x32x1024x64_d3
      (ix4 0 hd s d) rfl rfl (ix4 0 hd s ⟨d.val - 32, by omega⟩) (fun b hb => match b, hb with
      | ⟨0, _⟩, _ => rfl | ⟨1, _⟩, _ => rfl | ⟨2, _⟩, _ => rfl | ⟨3, _⟩, hb => absurd rfl hb)
      (by show d.val - 32 + 32 = d.val; omega)

/-- The negated upper half followed by the lower half, read at a lane, is the half rotation of the 32 heads' lanes. -/
private theorem rot32_apply (K : FVec Ideal S1x32x1024x64 .f32) (hd : Fin 32) (s : Fin 1024) (d : Fin 64) :
    concatenate S1x32x1024x64 3
        [⟨S1x32x1024x32, Host.negf (extractStridedSlice S1x32x1024x32 ![0, 0, 0, 32] K slices_S1x32x1024x64_S1x32x1024x32_0_0_0_32)⟩,
         ⟨S1x32x1024x32, extractStridedSlice S1x32x1024x32 ![0, 0, 0, 0] K slices_S1x32x1024x64_S1x32x1024x32_0_0_0_0⟩]
        concatenates_S1x32x1024x32_S1x32x1024x32_S1x32x1024x64_d3 (ix4 0 hd s d)
      = Cert.Spec.rot (fun d => K (ix4 0 hd s d)) d := by
  rw [cat_halves32_apply]
  unfold Cert.Spec.rot
  by_cases hlt : d.val < 32
  · rw [dif_pos hlt, dif_pos hlt]
    exact congrArg (fun z => -z) (hi_half32_apply K hd s ⟨d.val, hlt⟩)
  · rw [dif_neg hlt, dif_neg hlt]
    exact lo_half32_apply K hd s ⟨d.val - 32, by have := d.isLt; omega⟩

/-- The printed rotary embedding of 32 heads read at an index. -/
private theorem rope32_read (K : FVec Ideal S1x32x1024x64 .f32) (C S : FVec Ideal S1x1x1024x64 .f32) (hd : Fin 32) (s : Fin 1024) (d : Fin 64) :
    (addf (mulf K (broadcastInDim S1x32x1024x64 ![0, 1, 2, 3] bcast_S1x1x1024x64_S1x32x1024x64_0_1_2_3 C))
        (mulf (concatenate S1x32x1024x64 3
          [⟨S1x32x1024x32, Host.negf (extractStridedSlice S1x32x1024x32 ![0, 0, 0, 32] K slices_S1x32x1024x64_S1x32x1024x32_0_0_0_32)⟩,
           ⟨S1x32x1024x32, extractStridedSlice S1x32x1024x32 ![0, 0, 0, 0] K slices_S1x32x1024x64_S1x32x1024x32_0_0_0_0⟩]
          concatenates_S1x32x1024x32_S1x32x1024x32_S1x32x1024x64_d3)
          (broadcastInDim S1x32x1024x64 ![0, 1, 2, 3] bcast_S1x1x1024x64_S1x32x1024x64_0_1_2_3 S)) : FVec Ideal S1x32x1024x64 .f32) (ix4 0 hd s d)
      = Cert.Spec.rope (fun hd s d => K (ix4 0 hd s d)) (fun s d => C (ix4 0 0 s d)) (fun s d => S (ix4 0 0 s d)) hd s d := by
  rw [addf_apply, mulf_apply, mulf_apply, bc_heads32_apply, bc_heads32_apply, rot32_apply]
  rfl

/-- A position table spread over the 8 heads reads the table. -/
private theorem bc_heads8_apply {α : Type} (y : S1x1x1024x64.Idx → α) (hd : Fin 8) (s : Fin 1024) (d : Fin 64) :
    broadcastInDim S1x8x1024x64 ![0, 1, 2, 3] bcast_S1x1x1024x64_S1x8x1024x64_0_1_2_3 y (ix4 0 hd s d) = y (ix4 0 0 s d) :=
  broadcastInDim_apply _ bcast_S1x1x1024x64_S1x8x1024x64_0_1_2_3 y (ix4 0 hd s d) (ix4 0 0 s d) (fun a => match a with
    | ⟨0, _⟩ => by show 0 = if (1 : Nat) = 1 then 0 else 0; rw [if_pos rfl]
    | ⟨1, _⟩ => by show 0 = if (1 : Nat) = 1 then 0 else hd.val; rw [if_pos rfl]
    | ⟨2, _⟩ => by show s.val = if (1024 : Nat) = 1 then 0 else s.val; rw [if_neg (by decide)]
    | ⟨3, _⟩ => by show d.val = if (64 : Nat) = 1 then 0 else d.val; rw [if_neg (by decide)])

/-- The upper half of the lanes of 8 heads: lane `e` of the cut is lane `e + 32`. -/
private theorem hi_half8_apply {α : Type} (y : S1x8x1024x64.Idx → α) (hd : Fin 8) (s : Fin 1024) (e : Fin 32) :
    extractStridedSlice S1x8x1024x32 ![0, 0, 0, 32] y slices_S1x8x1024x64_S1x8x1024x32_0_0_0_32 (ix4 0 hd s e)
      = y (ix4 0 hd s ⟨e.val + 32, by have := e.isLt; omega⟩) :=
  extractStridedSlice_apply ![0, 0, 0, 32] y slices_S1x8x1024x64_S1x8x1024x32_0_0_0_32 (ix4 0 hd s e)
    (ix4 0 hd s ⟨e.val + 32, by have := e.isLt; omega⟩) (fun a => match a with
    | ⟨0, _⟩ => by show 0 = 0 + 0; omega
    | ⟨1, _⟩ => by show hd.val = 0 + hd.val; omega
    | ⟨2, _⟩ => by show s.val = 0 + s.val; omega
    | ⟨3, _⟩ => by show e.val + 32 = 32 + e.val; omega)

/-- The lower half of the lanes of 8 heads: lane `e` of the cut is lane `e`. -/
private theorem lo_half8_apply {α : Type} (y : S1x8x1024x64.Idx → α) (hd : Fin 8) (s : Fin 1024) (e : Fin 32) :
    extractStridedSlice S1x8x1024x32 ![0, 0, 0, 0] y slices_S1x8x1024x64_S1x8x1024x32_0_0_0_0 (ix4 0 hd s e)
      = y (ix4 0 hd s ⟨e.val, by have := e.isLt; omega⟩) :=
  extractStridedSlice_apply ![0, 0, 0, 0] y slices_S1x8x1024x64_S1x8x1024x32_0_0_0_0 (ix4 0 hd s e)
    (ix4 0 hd s ⟨e.val, by have := e.isLt; omega⟩) (fun a => match a with
    | ⟨0, _⟩ => by show 0 = 0 + 0; omega
    | ⟨1, _⟩ => by show hd.val = 0 + hd.val; omega
    | ⟨2, _⟩ => by show s.val = 0 + s.val; omega
    | ⟨3, _⟩ => by show e.val = 0 + e.val; omega)

/-- Two 32-lane arrays of 8 heads laid end to end along the lanes: lane `d` below 32 reads the first at `d`, any other
    lane the second at `d - 32`. -/
private theorem cat_halves8_apply {α : Type} (x₁ x₂ : S1x8x1024x32.Idx → α) (hd : Fin 8) (s : Fin 1024) (d : Fin 64) :
    concatenate S1x8x1024x64 3 [⟨S1x8x1024x32, x₁⟩, ⟨S1x8x1024x32, x₂⟩]
        concatenates_S1x8x1024x32_S1x8x1024x32_S1x8x1024x64_d3 (ix4 0 hd s d)
      = if h : d.val < 32 then x₁ (ix4 0 hd s ⟨d.val, h⟩) else x₂ (ix4 0 hd s ⟨d.val - 32, by have := d.isLt; omega⟩) := by
  have hd64 := d.isLt
  by_cases hlt : d.val < 32
  · rw [dif_pos hlt]
    exact concatenate_pair_apply_left 3 x₁ x₂ concatenates_S1x8x1024x32_S1x8x1024x32_S1x8x1024x64_d3
      (ix4 0 hd s d) rfl (ix4 0 hd s ⟨d.val, hlt⟩) (fun b => match b with
      | ⟨0, _⟩ => rfl | ⟨1, _⟩ => rfl | ⟨2, _⟩ => rfl | ⟨3, _⟩ => rfl)
  · rw [dif_neg hlt]
    exact concatenate_pair_apply_right 3 x₁ x₂ concatenates_S1x8x1024x32_S1x8x1024x32_S1x8x1024x64_d3
      (ix4 0 hd s d) rfl rfl (ix4 0 hd s ⟨d.val - 32, by omega⟩) (fun b hb => match b, hb with
      | ⟨0, _⟩, _ => rfl | ⟨1, _⟩, _ => rfl | ⟨2, _⟩, _ => rfl | ⟨3, _⟩, hb => absurd rfl hb)
      (by show d.val - 32 + 32 = d.val; omega)

/-- The negated upper half followed by the lower half, read at a lane, is the half rotation of the 8 heads' lanes. -/
private theorem rot8_apply (K : FVec Ideal S1x8x1024x64 .f32) (hd : Fin 8) (s : Fin 1024) (d : Fin 64) :
    concatenate S1x8x1024x64 3
        [⟨S1x8x1024x32, Host.negf (extractStridedSlice S1x8x1024x32 ![0, 0, 0, 32] K slices_S1x8x1024x64_S1x8x1024x32_0_0_0_32)⟩,
         ⟨S1x8x1024x32, extractStridedSlice S1x8x1024x32 ![0, 0, 0, 0] K slices_S1x8x1024x64_S1x8x1024x32_0_0_0_0⟩]
        concatenates_S1x8x1024x32_S1x8x1024x32_S1x8x1024x64_d3 (ix4 0 hd s d)
      = Cert.Spec.rot (fun d => K (ix4 0 hd s d)) d := by
  rw [cat_halves8_apply]
  unfold Cert.Spec.rot
  by_cases hlt : d.val < 32
  · rw [dif_pos hlt, dif_pos hlt]
    exact congrArg (fun z => -z) (hi_half8_apply K hd s ⟨d.val, hlt⟩)
  · rw [dif_neg hlt, dif_neg hlt]
    exact lo_half8_apply K hd s ⟨d.val - 32, by have := d.isLt; omega⟩

/-- The printed rotary embedding of 8 heads read at an index. -/
private theorem rope8_read (K : FVec Ideal S1x8x1024x64 .f32) (C S : FVec Ideal S1x1x1024x64 .f32) (hd : Fin 8) (s : Fin 1024) (d : Fin 64) :
    (addf (mulf K (broadcastInDim S1x8x1024x64 ![0, 1, 2, 3] bcast_S1x1x1024x64_S1x8x1024x64_0_1_2_3 C))
        (mulf (concatenate S1x8x1024x64 3
          [⟨S1x8x1024x32, Host.negf (extractStridedSlice S1x8x1024x32 ![0, 0, 0, 32] K slices_S1x8x1024x64_S1x8x1024x32_0_0_0_32)⟩,
           ⟨S1x8x1024x32, extractStridedSlice S1x8x1024x32 ![0, 0, 0, 0] K slices_S1x8x1024x64_S1x8x1024x32_0_0_0_0⟩]
          concatenates_S1x8x1024x32_S1x8x1024x32_S1x8x1024x64_d3)
          (broadcastInDim S1x8x1024x64 ![0, 1, 2, 3] bcast_S1x1x1024x64_S1x8x1024x64_0_1_2_3 S)) : FVec Ideal S1x8x1024x64 .f32) (ix4 0 hd s d)
      = Cert.Spec.rope (fun hd s d => K (ix4 0 hd s d)) (fun s d => C (ix4 0 0 s d)) (fun s d => S (ix4 0 0 s d)) hd s d := by
  rw [addf_apply, mulf_apply, mulf_apply, bc_heads8_apply, bc_heads8_apply, rot8_apply]
  rfl

theorem ref_seg3_v64 (W : Valuation τ sig (Elt Ideal)) (k : Cert.Spec.Heads 32) (cos sin : Cert.Spec.Tab)
    (hk : ∀ hd s d, (W main_v49 : Vec Ideal S1x32x1024x64 .f32) (ix4 0 hd s d) = k hd s d)
    (hc : ∀ s d, (W main_v7 : Vec Ideal S1x1x1024x64 .f32) (ix4 0 0 s d) = cos s d)
    (hs : ∀ s d, (W main_v15 : Vec Ideal S1x1x1024x64 .f32) (ix4 0 0 s d) = sin s d) (hd : Fin 32) (s : Fin 1024) (d : Fin 64) :
    (after (seg3 (F := Ideal)) W main_v64 : Vec Ideal S1x32x1024x64 .f32) (ix4 0 hd s d) = Cert.Spec.rope k cos sin hd s d := by
  dsimp only [seg3]
  after_results
  refine (rope32_read _ _ _ hd s d).trans ?_
  rw [show (fun hd s d => (W main_v49 : Vec Ideal S1x32x1024x64 .f32) (ix4 0 hd s d)) = k from
      funext fun hd => funext fun s => funext fun d => hk hd s d,
    show (fun s d => (W main_v7 : Vec Ideal S1x1x1024x64 .f32) (ix4 0 0 s d)) = cos from funext fun s => funext fun d => hc s d,
    show (fun s d => (W main_v15 : Vec Ideal S1x1x1024x64 .f32) (ix4 0 0 s d)) = sin from funext fun s => funext fun d => hs s d]

theorem ref_seg3_v73 (W : Valuation τ sig (Elt Ideal)) (k : Cert.Spec.Heads 8) (cos sin : Cert.Spec.Tab)
    (hk : ∀ hd s d, (W main_v52 : Vec Ideal S1x8x1024x64 .f32) (ix4 0 hd s d) = k hd s d)
    (hc : ∀ s d, (W main_v7 : Vec Ideal S1x1x1024x64 .f32) (ix4 0 0 s d) = cos s d)
    (hs : ∀ s d, (W main_v15 : Vec Ideal S1x1x1024x64 .f32) (ix4 0 0 s d) = sin s d) (hd : Fin 8) (s : Fin 1024) (d : Fin 64) :
    (after (seg3 (F := Ideal)) W main_v73 : Vec Ideal S1x8x1024x64 .f32) (ix4 0 hd s d) = Cert.Spec.rope k cos sin hd s d := by
  -- the first nine operations (the query heads' half) write none of the three buffers the key heads' half reads
  have ek : after ((seg3 (F := Ideal)).take 9) W main_v52 = W main_v52 := by
    dsimp only [seg3, List.take]; after_results
  have ec : after ((seg3 (F := Ideal)).take 9) W main_v7 = W main_v7 := by
    dsimp only [seg3, List.take]; after_results
  have es : after ((seg3 (F := Ideal)).take 9) W main_v15 = W main_v15 := by
    dsimp only [seg3, List.take]; after_results
  rw [after_take_drop 9 (seg3 (F := Ideal)) W]
  generalize after ((seg3 (F := Ideal)).take 9) W = V at ek ec es ⊢
  dsimp only [seg3, List.drop]
  after_results
  refine (rope8_read _ _ _ hd s d).trans ?_
  rw [ek, ec, es, show (fun hd s d => (W main_v52 : Vec Ideal S1x8x1024x64 .f32) (ix4 0 hd s d)) = k from
      funext fun hd => funext fun s => funext fun d => hk hd s d,
    show (fun s d => (W main_v7 : Vec Ideal S1x1x1024x64 .f32) (ix4 0 0 s d)) = cos from funext fun s => funext fun d => hc s d,
    show (fun s d => (W main_v15 : Vec Ideal S1x1x1024x64 .f32) (ix4 0 0 s d)) = sin from funext fun s => funext fun d => hs s d]

theorem ref_seg11_v166 (W : Valuation τ sig (Elt Ideal)) (k : Cert.Spec.Heads 32) (cos sin : Cert.Spec.Tab)
    (hk : ∀ hd s d, (W main_v151 : Vec Ideal S1x32x1024x64 .f32) (ix4 0 hd s d) = k hd s d)
    (hc : ∀ s d, (W main_v7 : Vec Ideal S1x1x1024x64 .f32) (ix4 0 0 s d) = cos s d)
    (hs : ∀ s d, (W main_v15 : Vec Ideal S1x1x1024x64 .f32) (ix4 0 0 s d) = sin s d) (hd : Fin 32) (s : Fin 1024) (d : Fin 64) :
    (after (seg11 (F := Ideal)) W main_v166 : Vec Ideal S1x32x1024x64 .f32) (ix4 0 hd s d) = Cert.Spec.rope k cos sin hd s d := by
  dsimp only [seg11]
  after_results
  refine (rope32_read _ _ _ hd s d).trans ?_
  rw [show (fun hd s d => (W main_v151 : Vec Ideal S1x32x1024x64 .f32) (ix4 0 hd s d)) = k from
      funext fun hd => funext fun s => funext fun d => hk hd s d,
    show (fun s d => (W main_v7 : Vec Ideal S1x1x1024x64 .f32) (ix4 0 0 s d)) = cos from funext fun s => funext fun d => hc s d,
    show (fun s d => (W main_v15 : Vec Ideal S1x1x1024x64 .f32) (ix4 0 0 s d)) = sin from funext fun s => funext fun d => hs s d]

theorem ref_seg11_v175 (W : Valuation τ sig (Elt Ideal)) (k : Cert.Spec.Heads 8) (cos sin : Cert.Spec.Tab)
    (hk : ∀ hd s d, (W main_v154 : Vec Ideal S1x8x1024x64 .f32) (ix4 0 hd s d) = k hd s d)
    (hc : ∀ s d, (W main_v7 : Vec Ideal S1x1x1024x64 .f32) (ix4 0 0 s d) = cos s d)
    (hs : ∀ s d, (W main_v15 : Vec Ideal S1x1x1024x64 .f32) (ix4 0 0 s d) = sin s d) (hd : Fin 8) (s : Fin 1024) (d : Fin 64) :
    (after (seg11 (F := Ideal)) W main_v175 : Vec Ideal S1x8x1024x64 .f32) (ix4 0 hd s d) = Cert.Spec.rope k cos sin hd s d := by
  -- the first nine operations (the query heads' half) write none of the three buffers the key heads' half reads
  have ek : after ((seg11 (F := Ideal)).take 9) W main_v154 = W main_v154 := by
    dsimp only [seg11, List.take]; after_results
  have ec : after ((seg11 (F := Ideal)).take 9) W main_v7 = W main_v7 := by
    dsimp only [seg11, List.take]; after_results
  have es : after ((seg11 (F := Ideal)).take 9) W main_v15 = W main_v15 := by
    dsimp only [seg11, List.take]; after_results
  rw [after_take_drop 9 (seg11 (F := Ideal)) W]
  generalize after ((seg11 (F := Ideal)).take 9) W = V at ek ec es ⊢
  dsimp only [seg11, List.drop]
  after_results
  refine (rope8_read _ _ _ hd s d).trans ?_
  rw [ek, ec, es, show (fun hd s d => (W main_v154 : Vec Ideal S1x8x1024x64 .f32) (ix4 0 hd s d)) = k from
      funext fun hd => funext fun s => funext fun d => hk hd s d,
    show (fun s d => (W main_v7 : Vec Ideal S1x1x1024x64 .f32) (ix4 0 0 s d)) = cos from funext fun s => funext fun d => hc s d,
    show (fun s d => (W main_v15 : Vec Ideal S1x1x1024x64 .f32) (ix4 0 0 s d)) = sin from funext fun s => funext fun d => hs s d]

end Cert.KV

end
-- ==== Proof.Ref.Stage4.lean ====
/-
  The reference's attention stage read at an index.  The stage repeats each key and value head four times (a new
  group axis, then a recast to thirty-two heads), takes the inner products of a query row with the key rows, divides
  by eight and adds the mask, subtracts the row's maximum taken from minus infinity, exponentiates, divides by the
  row's sum of exponentials, and multiplies with the value rows.  Each of these vector expressions is named once and
  read at an index; together they are the specification's grouped-query attention, and both layers' stages are
  this one expression at their own buffers.
-/
import proofs.«167047_j26895085207995_2_alg».proof.Proof.Spec
import proofs.«167047_j26895085207995_2_alg».proof.Proof.Ref.Segs
import proofs.«167047_j26895085207995_2_alg».proof.Proof.Algebra
import Idealize.ShloMosaic.Lib.ValueIdx
import Idealize.ShloMosaic.Lib.Pipeline.Value
import Idealize.ShloMosaic.PureOps.Ideal.Laws
import Idealize.ShloMosaic.Lib.StableHlo.Run

noncomputable section

namespace Cert.KV

open scoped BigOperators
open Idealize.ShloMosaic Idealize.ShloMosaic.TcCoe Idealize.ShloMosaic.ValueIdx Idealize.ShloMosaic.StableHlo
open Cert.ReferenceIdeal Cert.ReferenceIdeal.Gen Cert.ReferenceIdeal.RunP
open Cert.Spec (zero_word ninf_word max_bot fold_max_eq_sup)

namespace RefAttn

/-! ## The stage's vector expressions -/

/-- A key or value array repeated four times along a new group axis and recast to thirty-two heads. -/
def repV (x : FVec Ideal S1x8x1024x64 .f32) : FVec Ideal S1x32x1024x64 .f32 :=
  shapeCast S1x32x1024x64 (broadcastInDim S1x8x4x1024x64 ![0, 1, 3, 4] bcast_S1x8x1024x64_S1x8x4x1024x64_0_1_3_4 x)
    shapeCasts_S1x8x4x1024x64_S1x32x1024x64

/-- The logits: query rows against key rows, over eight, plus the mask broadcast over the heads. -/
def scoresV (Q K : FVec Ideal S1x32x1024x64 .f32) (M : FVec Ideal S1x1x1024x1024 .f32) : FVec Ideal S1x32x1024x1024 .f32 :=
  addf
    (Host.divf (Host.dotGeneral dot_S1x32x1024x64_S1x32x1024x64_S1x32x1024x1024_3_3_2_2_01_01 none Q K)
      (broadcastInDim S1x32x1024x1024 ![] bcast_S_S1x32x1024x1024 (constant (F := Ideal) S_ .f32 0x41000000#32)))
    (broadcastInDim S1x32x1024x1024 ![0, 1, 2, 3] bcast_S1x1x1024x1024_S1x32x1024x1024_0_1_2_3 M)

/-- Each row's maximum, taken from minus infinity and once more against minus infinity, laid along the row again. -/
def rowMaxV (Z : FVec Ideal S1x32x1024x1024 .f32) : FVec Ideal S1x32x1024x1024 .f32 :=
  broadcastInDim S1x32x1024x1024 ![0, 1, 2, 3] bcast_S1x32x1024x1_S1x32x1024x1024_0_1_2_3
    (broadcastInDim S1x32x1024x1 ![0, 1, 2] bcast_S1x32x1024_S1x32x1024x1_0_1_2
      (maximumf (broadcastInDim S1x32x1024 ![] bcast_S_S1x32x1024 (constant (F := Ideal) S_ .f32 0xFF800000#32))
        (Host.reduce FloatOps.maximumf Z (constant (F := Ideal) S_ .f32 0xFF800000#32)
          reducesTo_S1x32x1024x1024_S1x32x1024_d3 h_S_)))

/-- The exponentials of the logits less their row's maximum. -/
def expV (Z : FVec Ideal S1x32x1024x1024 .f32) : FVec Ideal S1x32x1024x1024 .f32 :=
  Host.exp (subf Z (rowMaxV Z))

/-- Each row's sum from zero, laid along the row again. -/
def rowSumV (E : FVec Ideal S1x32x1024x1024 .f32) : FVec Ideal S1x32x1024x1024 .f32 :=
  broadcastInDim S1x32x1024x1024 ![0, 1, 2, 3] bcast_S1x32x1024x1_S1x32x1024x1024_0_1_2_3
    (broadcastInDim S1x32x1024x1 ![0, 1, 2] bcast_S1x32x1024_S1x32x1024x1_0_1_2
      (Host.reduceAdd E (constant (F := Ideal) S_ .f32 0x00000000#32) reducesTo_S1x32x1024x1024_S1x32x1024_d3 h_S_))

/-- The exponentials over their row's sum. -/
def softV (E : FVec Ideal S1x32x1024x1024 .f32) : FVec Ideal S1x32x1024x1024 .f32 :=
  Host.divf E (rowSumV E)

/-- The whole stage: the weights of the logits against the repeated value heads. -/
def attnV (Q : FVec Ideal S1x32x1024x64 .f32) (K V : FVec Ideal S1x8x1024x64 .f32) (M : FVec Ideal S1x1x1024x1024 .f32) :
    FVec Ideal S1x32x1024x64 .f32 :=
  Host.dotGeneral dot_S1x32x1024x1024_S1x32x1024x64_S1x32x1024x64_3_2_2_3_01_01 none (softV (expV (scoresV Q (repV K) M))) (repV V)

/-! ## The two layers' stages are that expression -/

theorem seg4_term (W : Valuation τ sig (Elt Ideal)) :
    (after (seg4 (F := Ideal)) W main_v94 : Vec Ideal S1x32x1024x64 .f32)
      = attnV (W main_v64) (W main_v73) (W main_v55) (W main_arg1) := by
  dsimp only [seg4]
  after_results_simp
  rfl

theorem seg12_term (W : Valuation τ sig (Elt Ideal)) :
    (after (seg12 (F := Ideal)) W main_v196 : Vec Ideal S1x32x1024x64 .f32)
      = attnV (W main_v166) (W main_v175) (W main_v157) (W main_arg1) := by
  dsimp only [seg12]
  after_results_simp
  rfl

/-! ## Pointwise host operations at an index -/

/-- The host's quotient and exponential at an index are the extended reals'. -/
theorem hostDivf_apply {s : Shape} {φ : FTy} (a b : FVec Ideal s φ) (i : s.Idx) : Host.divf a b i = Ideal.div (a i) (b i) := rfl
theorem hostExp_apply {s : Shape} {φ : FTy} (a : FVec Ideal s φ) (i : s.Idx) : Host.exp a i = Ideal.exp (a i) := rfl

/-! ## The repeated heads at an index -/

/-- Query head `hd` of the repeated array is head `hd / 4` of the array: the recast keeps the row-major position,
    and `(hd / 4) * 4 + hd % 4 = hd`. -/
theorem repV_apply (x : FVec Ideal S1x8x1024x64 .f32) (hd : Fin 32) (t : Fin 1024) (d : Fin 64) :
    repV x (ix4 0 hd t d) = x (ix4 0 ⟨hd.val / 4, by have := hd.isLt; omega⟩ t d) := by
  unfold repV
  refine (shapeCast_apply _ shapeCasts_S1x8x4x1024x64_S1x32x1024x64 (ix4 0 hd t d)
    (ix5 0 ⟨hd.val / 4, by have := hd.isLt; omega⟩ ⟨hd.val % 4, Nat.mod_lt _ (by decide)⟩ t d) ?_).trans ?_
  · rewrite [Shape.rowMajor_val_five, Shape.rowMajor_val_four]
    have h1 := hd.isLt
    show (((0 * 8 + hd.val / 4) * 4 + hd.val % 4) * 1024 + t.val) * 64 + d.val = ((0 * 32 + hd.val) * 1024 + t.val) * 64 + d.val
    omega
  · exact broadcastInDim_apply _ bcast_S1x8x1024x64_S1x8x4x1024x64_0_1_3_4 x _
      (ix4 0 ⟨hd.val / 4, by have := hd.isLt; omega⟩ t d) (fun a => match a with
      | ⟨0, _⟩ => by show 0 = if (1 : Nat) = 1 then 0 else _; rw [if_pos rfl]
      | ⟨1, _⟩ => by show hd.val / 4 = if (8 : Nat) = 1 then 0 else hd.val / 4; rw [if_neg (by decide)]
      | ⟨2, _⟩ => by show t.val = if (1024 : Nat) = 1 then 0 else t.val; rw [if_neg (by decide)]
      | ⟨3, _⟩ => by show d.val = if (64 : Nat) = 1 then 0 else d.val; rw [if_neg (by decide)])

/-! ## The two contractions at an index -/

theorem qk_lhs_0 (i : S1x32x1024x1024.Idx) (c : dot_S1x32x1024x64_S1x32x1024x64_S1x32x1024x1024_3_3_2_2_01_01.contr.Idx) :
    (dot_S1x32x1024x64_S1x32x1024x64_S1x32x1024x1024_3_3_2_2_01_01.lhsIdx i c 0).val = (i 0).val := by
  unfold DotDims.lhsIdx
  rw [dif_pos (show (0 : Fin S1x32x1024x64.rank) ∈ dot_S1x32x1024x64_S1x32x1024x64_S1x32x1024x1024_3_3_2_2_01_01.lhsBatch by decide)]
  rfl
theorem qk_lhs_1 (i : S1x32x1024x1024.Idx) (c : dot_S1x32x1024x64_S1x32x1024x64_S1x32x1024x1024_3_3_2_2_01_01.contr.Idx) :
    (dot_S1x32x1024x64_S1x32x1024x64_S1x32x1024x1024_3_3_2_2_01_01.lhsIdx i c 1).val = (i 1).val := by
  unfold DotDims.lhsIdx
  rw [dif_pos (show (1 : Fin S1x32x1024x64.rank) ∈ dot_S1x32x1024x64_S1x32x1024x64_S1x32x1024x1024_3_3_2_2_01_01.lhsBatch by decide)]
  rfl
theorem qk_lhs_2 (i : S1x32x1024x1024.Idx) (c : dot_S1x32x1024x64_S1x32x1024x64_S1x32x1024x1024_3_3_2_2_01_01.contr.Idx) :
    (dot_S1x32x1024x64_S1x32x1024x64_S1x32x1024x1024_3_3_2_2_01_01.lhsIdx i c 2).val = (i 2).val := by
  unfold DotDims.lhsIdx
  rw [dif_neg (show ¬(2 : Fin S1x32x1024x64.rank) ∈ dot_S1x32x1024x64_S1x32x1024x64_S1x32x1024x1024_3_3_2_2_01_01.lhsBatch by decide), dif_pos (show (2 : Fin S1x32x1024x64.rank) ∈ dot_S1x32x1024x64_S1x32x1024x64_S1x32x1024x1024_3_3_2_2_01_01.lhsNonContracting by decide)]
  rfl
theorem qk_lhs_3 (i : S1x32x1024x1024.Idx) (c : dot_S1x32x1024x64_S1x32x1024x64_S1x32x1024x1024_3_3_2_2_01_01.contr.Idx) :
    (dot_S1x32x1024x64_S1x32x1024x64_S1x32x1024x1024_3_3_2_2_01_01.lhsIdx i c 3).val = (c ⟨0, by decide⟩).val :=
  dot_S1x32x1024x64_S1x32x1024x64_S1x32x1024x1024_3_3_2_2_01_01.lhsIdx_val_of_single rfl i c
theorem qk_rhs_0 (i : S1x32x1024x1024.Idx) (c : dot_S1x32x1024x64_S1x32x1024x64_S1x32x1024x1024_3_3_2_2_01_01.contr.Idx) :
    (dot_S1x32x1024x64_S1x32x1024x64_S1x32x1024x1024_3_3_2_2_01_01.rhsIdx i c 0).val = (i 0).val := by
  unfold DotDims.rhsIdx
  rw [dif_pos (show (0 : Fin S1x32x1024x64.rank) ∈ dot_S1x32x1024x64_S1x32x1024x64_S1x32x1024x1024_3_3_2_2_01_01.rhsBatch by decide)]
  rfl
theorem qk_rhs_1 (i : S1x32x1024x1024.Idx) (c : dot_S1x32x1024x64_S1x32x1024x64_S1x32x1024x1024_3_3_2_2_01_01.contr.Idx) :
    (dot_S1x32x1024x64_S1x32x1024x64_S1x32x1024x1024_3_3_2_2_01_01.rhsIdx i c 1).val = (i 1).val := by
  unfold DotDims.rhsIdx
  rw [dif_pos (show (1 : Fin S1x32x1024x64.rank) ∈ dot_S1x32x1024x64_S1x32x1024x64_S1x32x1024x1024_3_3_2_2_01_01.rhsBatch by decide)]
  rfl
theorem qk_rhs_2 (i : S1x32x1024x1024.Idx) (c : dot_S1x32x1024x64_S1x32x1024x64_S1x32x1024x1024_3_3_2_2_01_01.contr.Idx) :
    (dot_S1x32x1024x64_S1x32x1024x64_S1x32x1024x1024_3_3_2_2_01_01.rhsIdx i c 2).val = (i 3).val := by
  unfold DotDims.rhsIdx
  rw [dif_neg (show ¬(2 : Fin S1x32x1024x64.rank) ∈ dot_S1x32x1024x64_S1x32x1024x64_S1x32x1024x1024_3_3_2_2_01_01.rhsBatch by decide), dif_pos (show (2 : Fin S1x32x1024x64.rank) ∈ dot_S1x32x1024x64_S1x32x1024x64_S1x32x1024x1024_3_3_2_2_01_01.rhsNonContracting by decide)]
  rfl
theorem qk_rhs_3 (i : S1x32x1024x1024.Idx) (c : dot_S1x32x1024x64_S1x32x1024x64_S1x32x1024x1024_3_3_2_2_01_01.contr.Idx) :
    (dot_S1x32x1024x64_S1x32x1024x64_S1x32x1024x1024_3_3_2_2_01_01.rhsIdx i c 3).val = (c ⟨0, by decide⟩).val :=
  dot_S1x32x1024x64_S1x32x1024x64_S1x32x1024x1024_3_3_2_2_01_01.rhsIdx_val_of_single rfl i c

/-- Query row `s` against key row `t` of one head: the sum over the sixty-four lanes. -/
theorem qk_apply (Q K : FVec Ideal S1x32x1024x64 .f32) (hd : Fin 32) (s t : Fin 1024) :
    Host.dotGeneral dot_S1x32x1024x64_S1x32x1024x64_S1x32x1024x1024_3_3_2_2_01_01 none Q K (ix4 0 hd s t) = ∑ d : Fin 64, Q (ix4 0 hd s d) * K (ix4 0 hd t d) := by
  simp only [Host.dotGeneral]
  rw [Ideal.dotGeneral_apply, ← Equiv.sum_comp (contrEquiv1 dot_S1x32x1024x64_S1x32x1024x64_S1x32x1024x1024_3_3_2_2_01_01 64 rfl rfl).symm]
  refine Finset.sum_congr rfl fun e _ => ?_
  have he := contrEquiv1_symm_val dot_S1x32x1024x64_S1x32x1024x64_S1x32x1024x1024_3_3_2_2_01_01 64 rfl rfl e
  have el : dot_S1x32x1024x64_S1x32x1024x64_S1x32x1024x1024_3_3_2_2_01_01.lhsIdx (ix4 0 hd s t) ((contrEquiv1 dot_S1x32x1024x64_S1x32x1024x64_S1x32x1024x1024_3_3_2_2_01_01 64 rfl rfl).symm e) = ix4 0 hd s e := funext fun a => Fin.ext (by
    match a with
    | ⟨0, _⟩ => exact qk_lhs_0 _ _
    | ⟨1, _⟩ => exact qk_lhs_1 _ _
    | ⟨2, _⟩ => exact qk_lhs_2 _ _
    | ⟨3, _⟩ => exact (qk_lhs_3 _ _).trans he)
  have er : dot_S1x32x1024x64_S1x32x1024x64_S1x32x1024x1024_3_3_2_2_01_01.rhsIdx (ix4 0 hd s t) ((contrEquiv1 dot_S1x32x1024x64_S1x32x1024x64_S1x32x1024x1024_3_3_2_2_01_01 64 rfl rfl).symm e) = ix4 0 hd t e := funext fun a => Fin.ext (by
    match a with
    | ⟨0, _⟩ => exact qk_rhs_0 _ _
    | ⟨1, _⟩ => exact qk_rhs_1 _ _
    | ⟨2, _⟩ => exact qk_rhs_2 _ _
    | ⟨3, _⟩ => exact (qk_rhs_3 _ _).trans he)
  rw [el, er]

theorem pv_lhs_0 (i : S1x32x1024x64.Idx) (c : dot_S1x32x1024x1024_S1x32x1024x64_S1x32x1024x64_3_2_2_3_01_01.contr.Idx) :
    (dot_S1x32x1024x1024_S1x32x1024x64_S1x32x1024x64_3_2_2_3_01_01.lhsIdx i c 0).val = (i 0).val := by
  unfold DotDims.lhsIdx
  rw [dif_pos (show (0 : Fin S1x32x1024x1024.rank) ∈ dot_S1x32x1024x1024_S1x32x1024x64_S1x32x1024x64_3_2_2_3_01_01.lhsBatch by decide)]
  rfl
theorem pv_lhs_1 (i : S1x32x1024x64.Idx) (c : dot_S1x32x1024x1024_S1x32x1024x64_S1x32x1024x64_3_2_2_3_01_01.contr.Idx) :
    (dot_S1x32x1024x1024_S1x32x1024x64_S1x32x1024x64_3_2_2_3_01_01.lhsIdx i c 1).val = (i 1).val := by
  unfold DotDims.lhsIdx
  rw [dif_pos (show (1 : Fin S1x32x1024x1024.rank) ∈ dot_S1x32x1024x1024_S1x32x1024x64_S1x32x1024x64_3_2_2_3_01_01.lhsBatch by decide)]
  rfl
theorem pv_lhs_2 (i : S1x32x1024x64.Idx) (c : dot_S1x32x1024x1024_S1x32x1024x64_S1x32x1024x64_3_2_2_3_01_01.contr.Idx) :
    (dot_S1x32x1024x1024_S1x32x1024x64_S1x32x1024x64_3_2_2_3_01_01.lhsIdx i c 2).val = (i 2).val := by
  unfold DotDims.lhsIdx
  rw [dif_neg (show ¬(2 : Fin S1x32x1024x1024.rank) ∈ dot_S1x32x1024x1024_S1x32x1024x64_S1x32x1024x64_3_2_2_3_01_01.lhsBatch by decide), dif_pos (show (2 : Fin S1x32x1024x1024.rank) ∈ dot_S1x32x1024x1024_S1x32x1024x64_S1x32x1024x64_3_2_2_3_01_01.lhsNonContracting by decide)]
  rfl
theorem pv_lhs_3 (i : S1x32x1024x64.Idx) (c : dot_S1x32x1024x1024_S1x32x1024x64_S1x32x1024x64_3_2_2_3_01_01.contr.Idx) :
    (dot_S1x32x1024x1024_S1x32x1024x64_S1x32x1024x64_3_2_2_3_01_01.lhsIdx i c 3).val = (c ⟨0, by decide⟩).val :=
  dot_S1x32x1024x1024_S1x32x1024x64_S1x32x1024x64_3_2_2_3_01_01.lhsIdx_val_of_single rfl i c
theorem pv_rhs_0 (i : S1x32x1024x64.Idx) (c : dot_S1x32x1024x1024_S1x32x1024x64_S1x32x1024x64_3_2_2_3_01_01.contr.Idx) :
    (dot_S1x32x1024x1024_S1x32x1024x64_S1x32x1024x64_3_2_2_3_01_01.rhsIdx i c 0).val = (i 0).val := by
  unfold DotDims.rhsIdx
  rw [dif_pos (show (0 : Fin S1x32x1024x64.rank) ∈ dot_S1x32x1024x1024_S1x32x1024x64_S1x32x1024x64_3_2_2_3_01_01.rhsBatch by decide)]
  rfl
theorem pv_rhs_1 (i : S1x32x1024x64.Idx) (c : dot_S1x32x1024x1024_S1x32x1024x64_S1x32x1024x64_3_2_2_3_01_01.contr.Idx) :
    (dot_S1x32x1024x1024_S1x32x1024x64_S1x32x1024x64_3_2_2_3_01_01.rhsIdx i c 1).val = (i 1).val := by
  unfold DotDims.rhsIdx
  rw [dif_pos (show (1 : Fin S1x32x1024x64.rank) ∈ dot_S1x32x1024x1024_S1x32x1024x64_S1x32x1024x64_3_2_2_3_01_01.rhsBatch by decide)]
  rfl
theorem pv_rhs_2 (i : S1x32x1024x64.Idx) (c : dot_S1x32x1024x1024_S1x32x1024x64_S1x32x1024x64_3_2_2_3_01_01.contr.Idx) :
    (dot_S1x32x1024x1024_S1x32x1024x64_S1x32x1024x64_3_2_2_3_01_01.rhsIdx i c 2).val = (c ⟨0, by decide⟩).val :=
  dot_S1x32x1024x1024_S1x32x1024x64_S1x32x1024x64_3_2_2_3_01_01.rhsIdx_val_of_single rfl i c
theorem pv_rhs_3 (i : S1x32x1024x64.Idx) (c : dot_S1x32x1024x1024_S1x32x1024x64_S1x32x1024x64_3_2_2_3_01_01.contr.Idx) :
    (dot_S1x32x1024x1024_S1x32x1024x64_S1x32x1024x64_3_2_2_3_01_01.rhsIdx i c 3).val = (i 3).val := by
  unfold DotDims.rhsIdx
  rw [dif_neg (show ¬(3 : Fin S1x32x1024x64.rank) ∈ dot_S1x32x1024x1024_S1x32x1024x64_S1x32x1024x64_3_2_2_3_01_01.rhsBatch by decide), dif_pos (show (3 : Fin S1x32x1024x64.rank) ∈ dot_S1x32x1024x1024_S1x32x1024x64_S1x32x1024x64_3_2_2_3_01_01.rhsNonContracting by decide)]
  rfl

/-- Weight row `s` against lane `d` of the value rows of one head: the sum over the 1024 positions. -/
theorem pv_apply (P : FVec Ideal S1x32x1024x1024 .f32) (V : FVec Ideal S1x32x1024x64 .f32) (hd : Fin 32) (s : Fin 1024) (d : Fin 64) :
    Host.dotGeneral dot_S1x32x1024x1024_S1x32x1024x64_S1x32x1024x64_3_2_2_3_01_01 none P V (ix4 0 hd s d) = ∑ t : Fin 1024, P (ix4 0 hd s t) * V (ix4 0 hd t d) := by
  simp only [Host.dotGeneral]
  rw [Ideal.dotGeneral_apply, ← Equiv.sum_comp (contrEquiv1 dot_S1x32x1024x1024_S1x32x1024x64_S1x32x1024x64_3_2_2_3_01_01 1024 rfl rfl).symm]
  refine Finset.sum_congr rfl fun e _ => ?_
  have he := contrEquiv1_symm_val dot_S1x32x1024x1024_S1x32x1024x64_S1x32x1024x64_3_2_2_3_01_01 1024 rfl rfl e
  have el : dot_S1x32x1024x1024_S1x32x1024x64_S1x32x1024x64_3_2_2_3_01_01.lhsIdx (ix4 0 hd s d) ((contrEquiv1 dot_S1x32x1024x1024_S1x32x1024x64_S1x32x1024x64_3_2_2_3_01_01 1024 rfl rfl).symm e) = ix4 0 hd s e := funext fun a => Fin.ext (by
    match a with
    | ⟨0, _⟩ => exact pv_lhs_0 _ _
    | ⟨1, _⟩ => exact pv_lhs_1 _ _
    | ⟨2, _⟩ => exact pv_lhs_2 _ _
    | ⟨3, _⟩ => exact (pv_lhs_3 _ _).trans he)
  have er : dot_S1x32x1024x1024_S1x32x1024x64_S1x32x1024x64_3_2_2_3_01_01.rhsIdx (ix4 0 hd s d) ((contrEquiv1 dot_S1x32x1024x1024_S1x32x1024x64_S1x32x1024x64_3_2_2_3_01_01 1024 rfl rfl).symm e) = ix4 0 hd e d := funext fun a => Fin.ext (by
    match a with
    | ⟨0, _⟩ => exact pv_rhs_0 _ _
    | ⟨1, _⟩ => exact pv_rhs_1 _ _
    | ⟨2, _⟩ => exact (pv_rhs_2 _ _).trans he
    | ⟨3, _⟩ => exact pv_rhs_3 _ _)
  rw [el, er]

/-! ## The logits, the row maximum, the exponentials and the row sum at an index -/

/-- A logit: the scaled inner product plus the mask's entry (the mask has one head, read by every query head). -/
theorem scoresV_apply (Q K : FVec Ideal S1x32x1024x64 .f32) (M : FVec Ideal S1x1x1024x1024 .f32) (hd : Fin 32) (s t : Fin 1024) :
    scoresV Q K M (ix4 0 hd s t)
      = Ideal.div (∑ d : Fin 64, Q (ix4 0 hd s d) * K (ix4 0 hd t d)) Cert.Spec.eight + M (ix4 0 0 s t) := by
  unfold scoresV
  rw [addf_apply, hostDivf_apply, qk_apply,
    broadcastInDim_apply _ bcast_S_S1x32x1024x1024 _ (ix4 0 hd s t) ix0 (fun a => a.elim0),
    broadcastInDim_apply _ bcast_S1x1x1024x1024_S1x32x1024x1024_0_1_2_3 M (ix4 0 hd s t) (ix4 0 0 s t) (fun a => match a with
      | ⟨0, _⟩ => by show 0 = if (1 : Nat) = 1 then 0 else _; rw [if_pos rfl]
      | ⟨1, _⟩ => by show 0 = if (1 : Nat) = 1 then 0 else _; rw [if_pos rfl]
      | ⟨2, _⟩ => by show s.val = if (1024 : Nat) = 1 then 0 else s.val; rw [if_neg (by decide)]
      | ⟨3, _⟩ => by show t.val = if (1024 : Nat) = 1 then 0 else t.val; rw [if_neg (by decide)])]
  rfl

/-- A row's value laid along the row again, read anywhere on the row, is the value at the row. -/
theorem alongRow_apply (r : FVec Ideal S1x32x1024 .f32) (hd : Fin 32) (s t : Fin 1024) :
    broadcastInDim S1x32x1024x1024 ![0, 1, 2, 3] bcast_S1x32x1024x1_S1x32x1024x1024_0_1_2_3
      (broadcastInDim S1x32x1024x1 ![0, 1, 2] bcast_S1x32x1024_S1x32x1024x1_0_1_2 r) (ix4 0 hd s t) = r (ix3 0 hd s) := by
  rw [broadcastInDim_apply _ bcast_S1x32x1024x1_S1x32x1024x1024_0_1_2_3 _ (ix4 0 hd s t) (ix4 0 hd s 0) (fun a => match a with
      | ⟨0, _⟩ => by show 0 = if (1 : Nat) = 1 then 0 else _; rw [if_pos rfl]
      | ⟨1, _⟩ => by show hd.val = if (32 : Nat) = 1 then 0 else hd.val; rw [if_neg (by decide)]
      | ⟨2, _⟩ => by show s.val = if (1024 : Nat) = 1 then 0 else s.val; rw [if_neg (by decide)]
      | ⟨3, _⟩ => by show 0 = if (1 : Nat) = 1 then 0 else _; rw [if_pos rfl]),
    broadcastInDim_apply _ bcast_S1x32x1024_S1x32x1024x1_0_1_2 r (ix4 0 hd s 0) (ix3 0 hd s) (fun a => match a with
      | ⟨0, _⟩ => by show 0 = if (1 : Nat) = 1 then 0 else _; rw [if_pos rfl]
      | ⟨1, _⟩ => by show hd.val = if (32 : Nat) = 1 then 0 else hd.val; rw [if_neg (by decide)]
      | ⟨2, _⟩ => by show s.val = if (1024 : Nat) = 1 then 0 else s.val; rw [if_neg (by decide)])]

/-- The row maximum from minus infinity is the supremum of the row. -/
theorem rowMaxV_apply (Z : FVec Ideal S1x32x1024x1024 .f32) (hd : Fin 32) (s t : Fin 1024) :
    rowMaxV Z (ix4 0 hd s t) = Finset.univ.sup fun t' : Fin 1024 => Z (ix4 0 hd s t') := by
  unfold rowMaxV
  rw [alongRow_apply, maximumf_apply,
    broadcastInDim_apply _ bcast_S_S1x32x1024 _ (ix3 0 hd s) ix0 (fun a => a.elim0), constant_apply, ninf_word, max_bot,
    Host.reduce_eq_fold_single FloatOps.maximumf Z _ reducesTo_S1x32x1024x1024_S1x32x1024_d3 (by decide) h_S_ (ix3 0 hd s),
    constant_apply, ninf_word]
  refine (fold_max_eq_sup _).trans ?_
  exact congrArg (Finset.sup Finset.univ) (funext fun t' => congrArg Z (funext fun a => Fin.ext (by
    match a with | ⟨0, _⟩ => rfl | ⟨1, _⟩ => rfl | ⟨2, _⟩ => rfl | ⟨3, _⟩ => rfl)))

/-- An exponential: of the logit less the supremum of its row. -/
theorem expV_apply (Z : FVec Ideal S1x32x1024x1024 .f32) (hd : Fin 32) (s t : Fin 1024) :
    expV Z (ix4 0 hd s t) = Ideal.exp (Z (ix4 0 hd s t) - Finset.univ.sup fun t' : Fin 1024 => Z (ix4 0 hd s t')) := by
  unfold expV
  rw [hostExp_apply, subf_apply, rowMaxV_apply]

/-- The row sum from zero is the sum of the row. -/
theorem rowSumV_apply (E : FVec Ideal S1x32x1024x1024 .f32) (hd : Fin 32) (s t : Fin 1024) :
    rowSumV E (ix4 0 hd s t) = ∑ t' : Fin 1024, E (ix4 0 hd s t') := by
  unfold rowSumV
  rw [alongRow_apply]
  simp only [Host.reduceAdd, Ideal.hostReduceAdd_def]
  rw [Ideal.hostReduceAdd_single reducesTo_S1x32x1024x1024_S1x32x1024_d3 (by decide), constant_apply, zero_word, zero_add]
  exact Finset.sum_congr rfl fun t' _ => congrArg E (funext fun a => Fin.ext (by
    match a with | ⟨0, _⟩ => rfl | ⟨1, _⟩ => rfl | ⟨2, _⟩ => rfl | ⟨3, _⟩ => rfl))

/-- A weight: the exponential over the sum of its row's exponentials. -/
theorem softV_apply (E : FVec Ideal S1x32x1024x1024 .f32) (hd : Fin 32) (s t : Fin 1024) :
    softV E (ix4 0 hd s t) = Ideal.div (E (ix4 0 hd s t)) (∑ t' : Fin 1024, E (ix4 0 hd s t')) := by
  unfold softV
  rw [hostDivf_apply, rowSumV_apply]

/-- The stage's expression at an index, over arrays that read as the specification's heads and mask, is the
    specification's grouped-query attention. -/
theorem attnV_apply (Q : FVec Ideal S1x32x1024x64 .f32) (K V : FVec Ideal S1x8x1024x64 .f32) (M : FVec Ideal S1x1x1024x1024 .f32)
    (q : Cert.Spec.Heads 32) (k v : Cert.Spec.Heads 8) (mask : Fin 1024 → Fin 1024 → EReal)
    (hq : ∀ hd s d, Q (ix4 0 hd s d) = q hd s d) (hk : ∀ kv s d, K (ix4 0 kv s d) = k kv s d)
    (hv : ∀ kv s d, V (ix4 0 kv s d) = v kv s d) (hm : ∀ s t, M (ix4 0 0 s t) = mask s t)
    (hd : Fin 32) (s : Fin 1024) (d : Fin 64) :
    attnV Q K V M (ix4 0 hd s d) = Cert.Spec.attn q k v mask hd s d := by
  have hz : ∀ t, scoresV Q (repV K) M (ix4 0 hd s t)
      = Cert.Spec.scores (q hd) (k ⟨hd.val / 4, by have := hd.isLt; omega⟩) mask s t := fun t => by
    rw [scoresV_apply, hm]
    exact congrArg (fun z => Ideal.div z Cert.Spec.eight + mask s t)
      (Finset.sum_congr rfl fun e _ => by rw [hq, repV_apply, hk])
  have he : ∀ t, expV (scoresV Q (repV K) M) (ix4 0 hd s t)
      = Ideal.exp (Cert.Spec.scores (q hd) (k ⟨hd.val / 4, by have := hd.isLt; omega⟩) mask s t
          - Finset.univ.sup (Cert.Spec.scores (q hd) (k ⟨hd.val / 4, by have := hd.isLt; omega⟩) mask s)) := fun t => by
    rw [expV_apply, hz, show (fun t' : Fin 1024 => scoresV Q (repV K) M (ix4 0 hd s t'))
      = Cert.Spec.scores (q hd) (k ⟨hd.val / 4, by have := hd.isLt; omega⟩) mask s from funext hz]
  unfold attnV
  rw [pv_apply]
  unfold Cert.Spec.attn
  refine Finset.sum_congr rfl fun t _ => ?_
  rw [repV_apply, hv, softV_apply, he,
    show (fun t' : Fin 1024 => expV (scoresV Q (repV K) M) (ix4 0 hd s t')) = _ from funext he]
  rfl

end RefAttn

/-! ## The interface: each layer's attention result at an index -/

theorem ref_seg4_v94 (W : Valuation τ sig (Elt Ideal)) (q : Cert.Spec.Heads 32) (k v : Cert.Spec.Heads 8) (mask : Fin 1024 → Fin 1024 → EReal)
    (hq : ∀ hd s d, (W main_v64 : Vec Ideal S1x32x1024x64 .f32) (ix4 0 hd s d) = q hd s d)
    (hk : ∀ kv s d, (W main_v73 : Vec Ideal S1x8x1024x64 .f32) (ix4 0 kv s d) = k kv s d)
    (hv : ∀ kv s d, (W main_v55 : Vec Ideal S1x8x1024x64 .f32) (ix4 0 kv s d) = v kv s d)
    (hm : ∀ s t, (W main_arg1 : Vec Ideal S1x1x1024x1024 .f32) (ix4 0 0 s t) = mask s t) (hd : Fin 32) (s : Fin 1024) (d : Fin 64) :
    (after (seg4 (F := Ideal)) W main_v94 : Vec Ideal S1x32x1024x64 .f32) (ix4 0 hd s d) = Cert.Spec.attn q k v mask hd s d := by
  rw [RefAttn.seg4_term]
  exact RefAttn.attnV_apply _ _ _ _ q k v mask hq hk hv hm hd s d
theorem ref_seg12_v196 (W : Valuation τ sig (Elt Ideal)) (q : Cert.Spec.Heads 32) (k v : Cert.Spec.Heads 8) (mask : Fin 1024 → Fin 1024 → EReal)
    (hq : ∀ hd s d, (W main_v166 : Vec Ideal S1x32x1024x64 .f32) (ix4 0 hd s d) = q hd s d)
    (hk : ∀ kv s d, (W main_v175 : Vec Ideal S1x8x1024x64 .f32) (ix4 0 kv s d) = k kv s d)
    (hv : ∀ kv s d, (W main_v157 : Vec Ideal S1x8x1024x64 .f32) (ix4 0 kv s d) = v kv s d)
    (hm : ∀ s t, (W main_arg1 : Vec Ideal S1x1x1024x1024 .f32) (ix4 0 0 s t) = mask s t) (hd : Fin 32) (s : Fin 1024) (d : Fin 64) :
    (after (seg12 (F := Ideal)) W main_v196 : Vec Ideal S1x32x1024x64 .f32) (ix4 0 hd s d) = Cert.Spec.attn q k v mask hd s d := by
  rw [RefAttn.seg12_term]
  exact RefAttn.attnV_apply _ _ _ _ q k v mask hq hk hv hm hd s d
end Cert.KV

end
-- ==== Proof.Ref.Stage5.lean ====
/-
  The reference's output projection of a layer read at an index (both layers: the same operations on other buffers): the
  attention heads transposed and reshaped side by side (column `k` is lane `k % 64` of head `k / 64`), multiplied
  against the output weight by the host's product (row `s` of the merged array against row `o` of the weight, a plain
  finite sum), and added to the hidden state the layer started from.
-/
import proofs.«167047_j26895085207995_2_alg».proof.Proof.Spec
import proofs.«167047_j26895085207995_2_alg».proof.Proof.Ref.Segs
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

noncomputable section

namespace Cert.KV

open scoped BigOperators
open Idealize.ShloMosaic Idealize.ShloMosaic.TcCoe Idealize.ShloMosaic.ValueIdx Idealize.ShloMosaic.StableHlo
open Cert.ReferenceIdeal Cert.ReferenceIdeal.Gen Cert.ReferenceIdeal.RunP

/-- The heads laid side by side: column `k` of the merged array is lane `k % 64` of head `k / 64`. -/
private theorem merge_read {α : Type} (A : S1x32x1024x64.Idx → α) (s : Fin 1024) (k : Fin 2048) :
    shapeCast S1x1024x2048 (transpose S1x1024x32x64 [0, 2, 1, 3] A transposes_S1x32x1024x64_S1x1024x32x64_0_2_1_3)
        shapeCasts_S1x1024x32x64_S1x1024x2048 (ix3 0 s k)
      = A (ix4 0 ⟨k.val / 64, by have := k.isLt; omega⟩ s ⟨k.val % 64, Nat.mod_lt _ (by decide)⟩) := by
  have hk := k.isLt
  have hs := s.isLt
  refine (shapeCast_apply _ shapeCasts_S1x1024x32x64_S1x1024x2048 (ix3 0 s k)
    (ix4 0 s ⟨k.val / 64, by omega⟩ ⟨k.val % 64, Nat.mod_lt _ (by decide)⟩)
    (by rewrite [Shape.rowMajor_val_four, Shape.rowMajor_val_three]
        show ((0 * 1024 + s.val) * 32 + k.val / 64) * 64 + k.val % 64 = (0 * 1024 + s.val) * 2048 + k.val
        omega)).trans ?_
  exact transpose_apply [0, 2, 1, 3] A transposes_S1x32x1024x64_S1x1024x32x64_0_2_1_3
    (ix4 0 s ⟨k.val / 64, by omega⟩ ⟨k.val % 64, Nat.mod_lt _ (by decide)⟩)
    (ix4 0 ⟨k.val / 64, by omega⟩ s ⟨k.val % 64, Nat.mod_lt _ (by decide)⟩) (fun b => match b with
    | ⟨0, _⟩ => rfl
    | ⟨1, _⟩ => rfl
    | ⟨2, _⟩ => rfl
    | ⟨3, _⟩ => rfl)

private theorem lhs_out_0 (i : S1x1024x2048.Idx) (q : dot_S1x1024x2048_S2048x2048_S1x1024x2048_2_1_01_0_n_n.contr.Idx) :
    (dot_S1x1024x2048_S2048x2048_S1x1024x2048_2_1_01_0_n_n.lhsIdx i q 0).val = (i 0).val := by
  unfold DotDims.lhsIdx
  rw [dif_neg (show ¬(0 : Fin S1x1024x2048.rank) ∈ dot_S1x1024x2048_S2048x2048_S1x1024x2048_2_1_01_0_n_n.lhsBatch by decide), dif_pos (show (0 : Fin S1x1024x2048.rank) ∈ dot_S1x1024x2048_S2048x2048_S1x1024x2048_2_1_01_0_n_n.lhsNonContracting by decide)]
  rfl
private theorem lhs_out_1 (i : S1x1024x2048.Idx) (q : dot_S1x1024x2048_S2048x2048_S1x1024x2048_2_1_01_0_n_n.contr.Idx) :
    (dot_S1x1024x2048_S2048x2048_S1x1024x2048_2_1_01_0_n_n.lhsIdx i q 1).val = (i 1).val := by
  unfold DotDims.lhsIdx
  rw [dif_neg (show ¬(1 : Fin S1x1024x2048.rank) ∈ dot_S1x1024x2048_S2048x2048_S1x1024x2048_2_1_01_0_n_n.lhsBatch by decide), dif_pos (show (1 : Fin S1x1024x2048.rank) ∈ dot_S1x1024x2048_S2048x2048_S1x1024x2048_2_1_01_0_n_n.lhsNonContracting by decide)]
  rfl
private theorem lhs_out_2 (i : S1x1024x2048.Idx) (q : dot_S1x1024x2048_S2048x2048_S1x1024x2048_2_1_01_0_n_n.contr.Idx) :
    (dot_S1x1024x2048_S2048x2048_S1x1024x2048_2_1_01_0_n_n.lhsIdx i q 2).val = (q ⟨0, by decide⟩).val :=
  dot_S1x1024x2048_S2048x2048_S1x1024x2048_2_1_01_0_n_n.lhsIdx_val_of_single rfl i q
private theorem rhs_out_0 (i : S1x1024x2048.Idx) (q : dot_S1x1024x2048_S2048x2048_S1x1024x2048_2_1_01_0_n_n.contr.Idx) :
    (dot_S1x1024x2048_S2048x2048_S1x1024x2048_2_1_01_0_n_n.rhsIdx i q 0).val = (i 2).val := by
  unfold DotDims.rhsIdx
  rw [dif_neg (show ¬(0 : Fin S2048x2048.rank) ∈ dot_S1x1024x2048_S2048x2048_S1x1024x2048_2_1_01_0_n_n.rhsBatch by decide), dif_pos (show (0 : Fin S2048x2048.rank) ∈ dot_S1x1024x2048_S2048x2048_S1x1024x2048_2_1_01_0_n_n.rhsNonContracting by decide)]
  rfl
private theorem rhs_out_1 (i : S1x1024x2048.Idx) (q : dot_S1x1024x2048_S2048x2048_S1x1024x2048_2_1_01_0_n_n.contr.Idx) :
    (dot_S1x1024x2048_S2048x2048_S1x1024x2048_2_1_01_0_n_n.rhsIdx i q 1).val = (q ⟨0, by decide⟩).val :=
  dot_S1x1024x2048_S2048x2048_S1x1024x2048_2_1_01_0_n_n.rhsIdx_val_of_single rfl i q

/-- The host's product of a [1, 1024, 2048] array with a [2048, 2048] weight, contracted over the last axis of each, read at
    an index: row `s` of the array against row `o` of the weight. -/
private theorem out_dot_apply (Y : FVec Ideal S1x1024x2048 .f32) (Wt : FVec Ideal S2048x2048 .f32) (s : Fin 1024) (o : Fin 2048) :
    Host.dotGeneral dot_S1x1024x2048_S2048x2048_S1x1024x2048_2_1_01_0_n_n none Y Wt (ix3 0 s o) = ∑ k : Fin 2048, Y (ix3 0 s k) * Wt (ix2 o k) := by
  simp only [Host.dotGeneral]
  rw [Ideal.dotGeneral_apply, ← Equiv.sum_comp (ValueIdx.contrEquiv1 dot_S1x1024x2048_S2048x2048_S1x1024x2048_2_1_01_0_n_n 2048 rfl rfl).symm]
  refine Finset.sum_congr rfl fun k _ => ?_
  have hk := ValueIdx.contrEquiv1_symm_val dot_S1x1024x2048_S2048x2048_S1x1024x2048_2_1_01_0_n_n 2048 rfl rfl k
  have el : dot_S1x1024x2048_S2048x2048_S1x1024x2048_2_1_01_0_n_n.lhsIdx (ix3 0 s o) ((ValueIdx.contrEquiv1 dot_S1x1024x2048_S2048x2048_S1x1024x2048_2_1_01_0_n_n 2048 rfl rfl).symm k) = ix3 0 s k := funext fun a => Fin.ext (by
    match a with
    | ⟨0, _⟩ => exact lhs_out_0 _ _
    | ⟨1, _⟩ => exact lhs_out_1 _ _
    | ⟨2, _⟩ => exact (lhs_out_2 _ _).trans hk)
  have er : dot_S1x1024x2048_S2048x2048_S1x1024x2048_2_1_01_0_n_n.rhsIdx (ix3 0 s o) ((ValueIdx.contrEquiv1 dot_S1x1024x2048_S2048x2048_S1x1024x2048_2_1_01_0_n_n 2048 rfl rfl).symm k) = ix2 o k := funext fun a => Fin.ext (by
    match a with
    | ⟨0, _⟩ => exact rhs_out_0 _ _
    | ⟨1, _⟩ => exact (rhs_out_1 _ _).trans hk)
  rw [el, er]

/-- The printed output projection with its residual read at an index. -/
private theorem out_read (X : FVec Ideal S1x1024x2048 .f32) (A : FVec Ideal S1x32x1024x64 .f32) (Wt : FVec Ideal S2048x2048 .f32)
    (s : Fin 1024) (o : Fin 2048) :
    (addf X (Host.dotGeneral dot_S1x1024x2048_S2048x2048_S1x1024x2048_2_1_01_0_n_n none
        (shapeCast S1x1024x2048 (transpose S1x1024x32x64 [0, 2, 1, 3] A transposes_S1x32x1024x64_S1x1024x32x64_0_2_1_3)
          shapeCasts_S1x1024x32x64_S1x1024x2048) Wt) : FVec Ideal S1x1024x2048 .f32) (ix3 0 s o)
      = X (ix3 0 s o) + Cert.Spec.proj (Cert.Spec.merge (fun hd s d => A (ix4 0 hd s d))) (fun o h => Wt (ix2 o h)) s o := by
  rw [addf_apply, out_dot_apply]
  show _ = X (ix3 0 s o) + ∑ k : Fin 2048, Cert.Spec.merge (fun hd s d => A (ix4 0 hd s d)) s k * Wt (ix2 o k)
  refine congrArg (_ + ·) (Finset.sum_congr rfl fun k _ => ?_)
  rw [merge_read]
  rfl

theorem ref_seg5_v98 (W : Valuation τ sig (Elt Ideal)) (x : Cert.Spec.Hid) (a : Cert.Spec.Heads 32) (w : Cert.Spec.Wt 2048 2048)
    (hx : ∀ s h, (W main_arg0 : Vec Ideal S1x1024x2048 .f32) (ix3 0 s h) = x s h)
    (ha : ∀ hd s d, (W main_v94 : Vec Ideal S1x32x1024x64 .f32) (ix4 0 hd s d) = a hd s d)
    (hw : ∀ o h, (W main_v27 : Vec Ideal S2048x2048 .f32) (ix2 o h) = w o h) (s : Fin 1024) (o : Fin 2048) :
    (after (seg5 (F := Ideal)) W main_v98 : Vec Ideal S1x1024x2048 .f32) (ix3 0 s o) = x s o + Cert.Spec.proj (Cert.Spec.merge a) w s o := by
  dsimp only [seg5]
  after_results
  refine (out_read _ _ _ s o).trans ?_
  rw [hx, show (fun hd s d => (W main_v94 : Vec Ideal S1x32x1024x64 .f32) (ix4 0 hd s d)) = a from
      funext fun hd => funext fun s => funext fun d => ha hd s d,
    show (fun o h => (W main_v27 : Vec Ideal S2048x2048 .f32) (ix2 o h)) = w from funext fun o => funext fun h => hw o h]

theorem ref_seg13_v200 (W : Valuation τ sig (Elt Ideal)) (x : Cert.Spec.Hid) (a : Cert.Spec.Heads 32) (w : Cert.Spec.Wt 2048 2048)
    (hx : ∀ s h, (W main_v117 : Vec Ideal S1x1024x2048 .f32) (ix3 0 s h) = x s h)
    (ha : ∀ hd s d, (W main_v196 : Vec Ideal S1x32x1024x64 .f32) (ix4 0 hd s d) = a hd s d)
    (hw : ∀ o h, (W main_v129 : Vec Ideal S2048x2048 .f32) (ix2 o h) = w o h) (s : Fin 1024) (o : Fin 2048) :
    (after (seg13 (F := Ideal)) W main_v200 : Vec Ideal S1x1024x2048 .f32) (ix3 0 s o) = x s o + Cert.Spec.proj (Cert.Spec.merge a) w s o := by
  dsimp only [seg13]
  after_results
  refine (out_read _ _ _ s o).trans ?_
  rw [hx, show (fun hd s d => (W main_v196 : Vec Ideal S1x32x1024x64 .f32) (ix4 0 hd s d)) = a from
      funext fun hd => funext fun s => funext fun d => ha hd s d,
    show (fun o h => (W main_v129 : Vec Ideal S2048x2048 .f32) (ix2 o h)) = w from funext fun o => funext fun h => hw o h]

end Cert.KV

end
-- ==== Proof.Ref.Stage6.lean ====
/-
  The reference's second normalisation of a layer read at an index (both layers: the same operations on other
  buffers): the squares summed along the hidden axis from zero, divided by the row length, the small constant added,
  the root taken and spread back over the row, the entry divided by it and multiplied by the gain. Each broadcast is
  read by naming the operand's index; the host's sum is the plain finite sum.
-/
import proofs.«167047_j26895085207995_2_alg».proof.Proof.Spec
import proofs.«167047_j26895085207995_2_alg».proof.Proof.Ref.Segs
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

noncomputable section

namespace Cert.KV

open scoped BigOperators
open Idealize.ShloMosaic Idealize.ShloMosaic.TcCoe Idealize.ShloMosaic.ValueIdx Idealize.ShloMosaic.StableHlo
open Cert.ReferenceIdeal Cert.ReferenceIdeal.Gen Cert.ReferenceIdeal.RunP

/-- A column of row values spread along the hidden axis reads the row's value. -/
private theorem bc_col_apply {α : Type} (y : S1x1024x1.Idx → α) (s : Fin 1024) (h : Fin 2048) :
    broadcastInDim S1x1024x2048 ![0, 1, 2] bcast_S1x1024x1_S1x1024x2048_0_1_2 y (ix3 0 s h) = y (ix3 0 s 0) :=
  broadcastInDim_apply _ bcast_S1x1024x1_S1x1024x2048_0_1_2 y (ix3 0 s h) (ix3 0 s 0) (fun a => match a with
    | ⟨0, _⟩ => by show 0 = if (1 : Nat) = 1 then 0 else 0; rw [if_pos rfl]
    | ⟨1, _⟩ => by show s.val = if (1024 : Nat) = 1 then 0 else s.val; rw [if_neg (by decide)]
    | ⟨2, _⟩ => by show 0 = if (1 : Nat) = 1 then 0 else h.val; rw [if_pos rfl])

/-- The row values with a trailing unit axis read the row's value. -/
private theorem bc_keep_apply {α : Type} (y : S1x1024.Idx → α) (s : Fin 1024) :
    broadcastInDim S1x1024x1 ![0, 1] bcast_S1x1024_S1x1024x1_0_1 y (ix3 0 s 0) = y (ix2 0 s) :=
  broadcastInDim_apply _ bcast_S1x1024_S1x1024x1_0_1 y (ix3 0 s 0) (ix2 0 s) (fun a => match a with
    | ⟨0, _⟩ => by show 0 = if (1 : Nat) = 1 then 0 else 0; rw [if_pos rfl]
    | ⟨1, _⟩ => by show s.val = if (1024 : Nat) = 1 then 0 else s.val; rw [if_neg (by decide)])

/-- The gain vector given two leading unit axes reads the gain. -/
private theorem bc_gain0_apply {α : Type} (y : S2048.Idx → α) (h : Fin 2048) :
    broadcastInDim S1x1x2048 ![2] bcast_S2048_S1x1x2048_2 y (ix3 0 0 h) = y (ix1 h) :=
  broadcastInDim_apply _ bcast_S2048_S1x1x2048_2 y (ix3 0 0 h) (ix1 h) (fun a => match a with
    | ⟨0, _⟩ => by show h.val = if (2048 : Nat) = 1 then 0 else h.val; rw [if_neg (by decide)])

/-- The gain row spread over the positions reads the gain of the column. -/
private theorem bc_gain1_apply {α : Type} (y : S1x1x2048.Idx → α) (s : Fin 1024) (h : Fin 2048) :
    broadcastInDim S1x1024x2048 ![0, 1, 2] bcast_S1x1x2048_S1x1024x2048_0_1_2 y (ix3 0 s h) = y (ix3 0 0 h) :=
  broadcastInDim_apply _ bcast_S1x1x2048_S1x1024x2048_0_1_2 y (ix3 0 s h) (ix3 0 0 h) (fun a => match a with
    | ⟨0, _⟩ => by show 0 = if (1 : Nat) = 1 then 0 else 0; rw [if_pos rfl]
    | ⟨1, _⟩ => by show 0 = if (1 : Nat) = 1 then 0 else s.val; rw [if_pos rfl]
    | ⟨2, _⟩ => by show h.val = if (2048 : Nat) = 1 then 0 else h.val; rw [if_neg (by decide)])

/-- The host's sum over the hidden axis, started at zero, is the plain sum of the row. -/
private theorem row_sum_apply (Y : FVec Ideal S1x1024x2048 .f32) (s : Fin 1024) :
    Host.reduceAdd Y (constant (F := Ideal) S_ .f32 0x00000000#32) reducesTo_S1x1024x2048_S1x1024_d2 h_S_ (ix2 0 s)
      = ∑ k : Fin 2048, Y (ix3 0 s k) := by
  rw [hostReduceAdd_apply, Ideal.hostReduceAdd_single reducesTo_S1x1024x2048_S1x1024_d2 (by decide)]
  rw [constant_apply, Ideal.ofBits_zero_f32, zero_add]
  refine Finset.sum_congr rfl fun k _ => ?_
  exact congrArg Y (funext fun a => Fin.ext (by match a with | ⟨0, _⟩ => rfl | ⟨1, _⟩ => rfl | ⟨2, _⟩ => rfl))

/-- The printed normalisation read at an index: the entry over the root of its row's mean square plus the small
    constant, times the gain. -/
private theorem rms_read (X : FVec Ideal S1x1024x2048 .f32) (G : FVec Ideal S2048 .f32) (s : Fin 1024) (h : Fin 2048) :
    (mulf (Host.divf X (broadcastInDim S1x1024x2048 ![0, 1, 2] bcast_S1x1024x1_S1x1024x2048_0_1_2
        (Host.sqrt (addf (Host.divf
          (broadcastInDim S1x1024x1 ![0, 1] bcast_S1x1024_S1x1024x1_0_1
            (Host.reduceAdd (mulf X X) (constant (F := Ideal) S_ .f32 0x00000000#32) reducesTo_S1x1024x2048_S1x1024_d2 h_S_))
          (broadcastInDim S1x1024x1 ![] bcast_S_S1x1024x1 (constant (F := Ideal) S_ .f32 0x45000000#32)))
        (broadcastInDim S1x1024x1 ![] bcast_S_S1x1024x1 (constant (F := Ideal) S_ .f32 0x3727C5AC#32))))))
      (broadcastInDim S1x1024x2048 ![0, 1, 2] bcast_S1x1x2048_S1x1024x2048_0_1_2
        (broadcastInDim S1x1x2048 ![2] bcast_S2048_S1x1x2048_2 G)) : FVec Ideal S1x1024x2048 .f32) (ix3 0 s h)
      = Cert.Spec.rms (fun s h => X (ix3 0 s h)) (fun h => G (ix1 h)) s h := by
  rw [mulf_apply, hostDivf_apply, bc_gain1_apply, bc_gain0_apply, bc_col_apply]
  show Ideal.div (X (ix3 0 s h)) (Ideal.sqrt (Ideal.div
      (broadcastInDim S1x1024x1 ![0, 1] bcast_S1x1024_S1x1024x1_0_1
        (Host.reduceAdd (mulf X X) (constant (F := Ideal) S_ .f32 0x00000000#32) reducesTo_S1x1024x2048_S1x1024_d2 h_S_) (ix3 0 s 0))
      (broadcastInDim S1x1024x1 ![] bcast_S_S1x1024x1 (constant (F := Ideal) S_ .f32 0x45000000#32) (ix3 0 s 0))
      + broadcastInDim S1x1024x1 ![] bcast_S_S1x1024x1 (constant (F := Ideal) S_ .f32 0x3727C5AC#32) (ix3 0 s 0))) * G (ix1 h) = _
  rw [bc_keep_apply, row_sum_apply, broadcastInDim_scalar_apply, broadcastInDim_scalar_apply]
  rfl

theorem ref_seg6_v111 (W : Valuation τ sig (Elt Ideal)) (x : Cert.Spec.Hid) (g : Fin 2048 → EReal)
    (hx : ∀ s h, (W main_v98 : Vec Ideal S1x1024x2048 .f32) (ix3 0 s h) = x s h)
    (hg : ∀ h, (W main_v19 : Vec Ideal S2048 .f32) (ix1 h) = g h) (s : Fin 1024) (h : Fin 2048) :
    (after (seg6 (F := Ideal)) W main_v111 : Vec Ideal S1x1024x2048 .f32) (ix3 0 s h) = Cert.Spec.rms x g s h := by
  dsimp only [seg6]
  after_results_simp
  refine (rms_read _ _ s h).trans ?_
  rw [show (fun s h => (W main_v98 : Vec Ideal S1x1024x2048 .f32) (ix3 0 s h)) = x from funext fun s => funext fun h => hx s h,
    show (fun h => (W main_v19 : Vec Ideal S2048 .f32) (ix1 h)) = g from funext hg]

theorem ref_seg14_v213 (W : Valuation τ sig (Elt Ideal)) (x : Cert.Spec.Hid) (g : Fin 2048 → EReal)
    (hx : ∀ s h, (W main_v200 : Vec Ideal S1x1024x2048 .f32) (ix3 0 s h) = x s h)
    (hg : ∀ h, (W main_v121 : Vec Ideal S2048 .f32) (ix1 h) = g h) (s : Fin 1024) (h : Fin 2048) :
    (after (seg14 (F := Ideal)) W main_v213 : Vec Ideal S1x1024x2048 .f32) (ix3 0 s h) = Cert.Spec.rms x g s h := by
  dsimp only [seg14]
  after_results_simp
  refine (rms_read _ _ s h).trans ?_
  rw [show (fun s h => (W main_v200 : Vec Ideal S1x1024x2048 .f32) (ix3 0 s h)) = x from funext fun s => funext fun h => hx s h,
    show (fun h => (W main_v121 : Vec Ideal S2048 .f32) (ix1 h)) = g from funext hg]

end Cert.KV

end
-- ==== Proof.Ref.Stage7.lean ====
/-
  The feed-forward stage of the reference read at an index: the gate and up projections as plain sums over the
  2048 inputs, the gate passed through x / (1 + e^{-x}) spelt as x times one over one plus the exponential of
  minus x, the product with the up projection, the down projection as a plain sum over the 8192 hidden
  columns, and the residual added.  Stated once for each layer over an abstract valuation of the buffers.
-/
import proofs.«167047_j26895085207995_2_alg».proof.Proof.Spec
import proofs.«167047_j26895085207995_2_alg».proof.Proof.Ref.Segs
import Idealize.ShloMosaic.Lib.StableHlo.Run
import Idealize.ShloMosaic.Lib.ValueIdx
import Idealize.ShloMosaic.Lib.Pipeline.Value
import Idealize.ShloMosaic.PureOps.Ideal.Laws

noncomputable section

namespace Cert.KV
open scoped BigOperators
open Idealize.ShloMosaic Idealize.ShloMosaic.TcCoe Idealize.ShloMosaic.ValueIdx Idealize.ShloMosaic.StableHlo
open Cert.ReferenceIdeal Cert.ReferenceIdeal.RunP

/-! ## The two contractions at an index -/

/-- The gate/up contraction keeps the output's two leading coordinates on the left operand. -/
theorem upL0 (i : S1x1024x8192.Idx) (q : dot_S1x1024x2048_S8192x2048_S1x1024x8192_2_1_01_0_n_n.contr.Idx) :
    (dot_S1x1024x2048_S8192x2048_S1x1024x8192_2_1_01_0_n_n.lhsIdx i q 0).val = (i 0).val := by
  unfold DotDims.lhsIdx
  rw [dif_neg (show ¬(0 : Fin S1x1024x2048.rank) ∈ dot_S1x1024x2048_S8192x2048_S1x1024x8192_2_1_01_0_n_n.lhsBatch by decide), dif_pos (show (0 : Fin S1x1024x2048.rank) ∈ dot_S1x1024x2048_S8192x2048_S1x1024x8192_2_1_01_0_n_n.lhsNonContracting by decide)]
  rfl
theorem upL1 (i : S1x1024x8192.Idx) (q : dot_S1x1024x2048_S8192x2048_S1x1024x8192_2_1_01_0_n_n.contr.Idx) :
    (dot_S1x1024x2048_S8192x2048_S1x1024x8192_2_1_01_0_n_n.lhsIdx i q 1).val = (i 1).val := by
  unfold DotDims.lhsIdx
  rw [dif_neg (show ¬(1 : Fin S1x1024x2048.rank) ∈ dot_S1x1024x2048_S8192x2048_S1x1024x8192_2_1_01_0_n_n.lhsBatch by decide), dif_pos (show (1 : Fin S1x1024x2048.rank) ∈ dot_S1x1024x2048_S8192x2048_S1x1024x8192_2_1_01_0_n_n.lhsNonContracting by decide)]
  rfl
/-- Its last left coordinate is the contracted one. -/
theorem upL2 (i : S1x1024x8192.Idx) (q : dot_S1x1024x2048_S8192x2048_S1x1024x8192_2_1_01_0_n_n.contr.Idx) :
    (dot_S1x1024x2048_S8192x2048_S1x1024x8192_2_1_01_0_n_n.lhsIdx i q 2).val = (q ⟨0, by decide⟩).val :=
  dot_S1x1024x2048_S8192x2048_S1x1024x8192_2_1_01_0_n_n.lhsIdx_val_of_single rfl i q
/-- The weight's row is the output's last coordinate, its column the contracted one. -/
theorem upR0 (i : S1x1024x8192.Idx) (q : dot_S1x1024x2048_S8192x2048_S1x1024x8192_2_1_01_0_n_n.contr.Idx) :
    (dot_S1x1024x2048_S8192x2048_S1x1024x8192_2_1_01_0_n_n.rhsIdx i q 0).val = (i 2).val := by
  unfold DotDims.rhsIdx
  rw [dif_neg (show ¬(0 : Fin S8192x2048.rank) ∈ dot_S1x1024x2048_S8192x2048_S1x1024x8192_2_1_01_0_n_n.rhsBatch by decide), dif_pos (show (0 : Fin S8192x2048.rank) ∈ dot_S1x1024x2048_S8192x2048_S1x1024x8192_2_1_01_0_n_n.rhsNonContracting by decide)]
  rfl
theorem upR1 (i : S1x1024x8192.Idx) (q : dot_S1x1024x2048_S8192x2048_S1x1024x8192_2_1_01_0_n_n.contr.Idx) :
    (dot_S1x1024x2048_S8192x2048_S1x1024x8192_2_1_01_0_n_n.rhsIdx i q 1).val = (q ⟨0, by decide⟩).val :=
  dot_S1x1024x2048_S8192x2048_S1x1024x8192_2_1_01_0_n_n.rhsIdx_val_of_single rfl i q

/-- A projection onto the 8192 hidden columns: row `s` of the input against row `i` of the weight. -/
theorem up_apply (l : FVec Ideal S1x1024x2048 .f32) (r : FVec Ideal S8192x2048 .f32) (s : Fin 1024) (i : Fin 8192) :
    Host.dotGeneral (F := Ideal) dot_S1x1024x2048_S8192x2048_S1x1024x8192_2_1_01_0_n_n none l r (ix3 0 s i)
      = ∑ k : Fin 2048, l (ix3 0 s k) * r (ix2 i k) := by
  simp only [Host.dotGeneral]
  rw [Ideal.dotGeneral_apply, ← Equiv.sum_comp (ValueIdx.contrEquiv1 dot_S1x1024x2048_S8192x2048_S1x1024x8192_2_1_01_0_n_n 2048 rfl rfl).symm]
  refine Finset.sum_congr rfl fun k _ => ?_
  have hk := ValueIdx.contrEquiv1_symm_val dot_S1x1024x2048_S8192x2048_S1x1024x8192_2_1_01_0_n_n 2048 rfl rfl k
  have el : dot_S1x1024x2048_S8192x2048_S1x1024x8192_2_1_01_0_n_n.lhsIdx (ix3 0 s i) ((ValueIdx.contrEquiv1 dot_S1x1024x2048_S8192x2048_S1x1024x8192_2_1_01_0_n_n 2048 rfl rfl).symm k) = ix3 0 s k := funext fun a => Fin.ext (by
    match a with
    | ⟨0, _⟩ => exact upL0 _ _
    | ⟨1, _⟩ => exact upL1 _ _
    | ⟨2, _⟩ => exact (upL2 _ _).trans hk)
  have er : dot_S1x1024x2048_S8192x2048_S1x1024x8192_2_1_01_0_n_n.rhsIdx (ix3 0 s i) ((ValueIdx.contrEquiv1 dot_S1x1024x2048_S8192x2048_S1x1024x8192_2_1_01_0_n_n 2048 rfl rfl).symm k) = ix2 i k := funext fun a => Fin.ext (by
    match a with
    | ⟨0, _⟩ => exact upR0 _ _
    | ⟨1, _⟩ => exact (upR1 _ _).trans hk)
  rw [el, er]

/-- The down contraction: the same arrangement with the 8192 hidden columns contracted. -/
theorem downL0 (i : S1x1024x2048.Idx) (q : dot_S1x1024x8192_S2048x8192_S1x1024x2048_2_1_01_0_n_n.contr.Idx) :
    (dot_S1x1024x8192_S2048x8192_S1x1024x2048_2_1_01_0_n_n.lhsIdx i q 0).val = (i 0).val := by
  unfold DotDims.lhsIdx
  rw [dif_neg (show ¬(0 : Fin S1x1024x8192.rank) ∈ dot_S1x1024x8192_S2048x8192_S1x1024x2048_2_1_01_0_n_n.lhsBatch by decide), dif_pos (show (0 : Fin S1x1024x8192.rank) ∈ dot_S1x1024x8192_S2048x8192_S1x1024x2048_2_1_01_0_n_n.lhsNonContracting by decide)]
  rfl
theorem downL1 (i : S1x1024x2048.Idx) (q : dot_S1x1024x8192_S2048x8192_S1x1024x2048_2_1_01_0_n_n.contr.Idx) :
    (dot_S1x1024x8192_S2048x8192_S1x1024x2048_2_1_01_0_n_n.lhsIdx i q 1).val = (i 1).val := by
  unfold DotDims.lhsIdx
  rw [dif_neg (show ¬(1 : Fin S1x1024x8192.rank) ∈ dot_S1x1024x8192_S2048x8192_S1x1024x2048_2_1_01_0_n_n.lhsBatch by decide), dif_pos (show (1 : Fin S1x1024x8192.rank) ∈ dot_S1x1024x8192_S2048x8192_S1x1024x2048_2_1_01_0_n_n.lhsNonContracting by decide)]
  rfl
theorem downL2 (i : S1x1024x2048.Idx) (q : dot_S1x1024x8192_S2048x8192_S1x1024x2048_2_1_01_0_n_n.contr.Idx) :
    (dot_S1x1024x8192_S2048x8192_S1x1024x2048_2_1_01_0_n_n.lhsIdx i q 2).val = (q ⟨0, by decide⟩).val :=
  dot_S1x1024x8192_S2048x8192_S1x1024x2048_2_1_01_0_n_n.lhsIdx_val_of_single rfl i q
theorem downR0 (i : S1x1024x2048.Idx) (q : dot_S1x1024x8192_S2048x8192_S1x1024x2048_2_1_01_0_n_n.contr.Idx) :
    (dot_S1x1024x8192_S2048x8192_S1x1024x2048_2_1_01_0_n_n.rhsIdx i q 0).val = (i 2).val := by
  unfold DotDims.rhsIdx
  rw [dif_neg (show ¬(0 : Fin S2048x8192.rank) ∈ dot_S1x1024x8192_S2048x8192_S1x1024x2048_2_1_01_0_n_n.rhsBatch by decide), dif_pos (show (0 : Fin S2048x8192.rank) ∈ dot_S1x1024x8192_S2048x8192_S1x1024x2048_2_1_01_0_n_n.rhsNonContracting by decide)]
  rfl
theorem downR1 (i : S1x1024x2048.Idx) (q : dot_S1x1024x8192_S2048x8192_S1x1024x2048_2_1_01_0_n_n.contr.Idx) :
    (dot_S1x1024x8192_S2048x8192_S1x1024x2048_2_1_01_0_n_n.rhsIdx i q 1).val = (q ⟨0, by decide⟩).val :=
  dot_S1x1024x8192_S2048x8192_S1x1024x2048_2_1_01_0_n_n.rhsIdx_val_of_single rfl i q

/-- The projection back onto the 2048 columns: row `s` of the hidden array against row `o` of the weight. -/
theorem down_apply (l : FVec Ideal S1x1024x8192 .f32) (r : FVec Ideal S2048x8192 .f32) (s : Fin 1024) (o : Fin 2048) :
    Host.dotGeneral (F := Ideal) dot_S1x1024x8192_S2048x8192_S1x1024x2048_2_1_01_0_n_n none l r (ix3 0 s o)
      = ∑ k : Fin 8192, l (ix3 0 s k) * r (ix2 o k) := by
  simp only [Host.dotGeneral]
  rw [Ideal.dotGeneral_apply, ← Equiv.sum_comp (ValueIdx.contrEquiv1 dot_S1x1024x8192_S2048x8192_S1x1024x2048_2_1_01_0_n_n 8192 rfl rfl).symm]
  refine Finset.sum_congr rfl fun k _ => ?_
  have hk := ValueIdx.contrEquiv1_symm_val dot_S1x1024x8192_S2048x8192_S1x1024x2048_2_1_01_0_n_n 8192 rfl rfl k
  have el : dot_S1x1024x8192_S2048x8192_S1x1024x2048_2_1_01_0_n_n.lhsIdx (ix3 0 s o) ((ValueIdx.contrEquiv1 dot_S1x1024x8192_S2048x8192_S1x1024x2048_2_1_01_0_n_n 8192 rfl rfl).symm k) = ix3 0 s k := funext fun a => Fin.ext (by
    match a with
    | ⟨0, _⟩ => exact downL0 _ _
    | ⟨1, _⟩ => exact downL1 _ _
    | ⟨2, _⟩ => exact (downL2 _ _).trans hk)
  have er : dot_S1x1024x8192_S2048x8192_S1x1024x2048_2_1_01_0_n_n.rhsIdx (ix3 0 s o) ((ValueIdx.contrEquiv1 dot_S1x1024x8192_S2048x8192_S1x1024x2048_2_1_01_0_n_n 8192 rfl rfl).symm k) = ix2 o k := funext fun a => Fin.ext (by
    match a with
    | ⟨0, _⟩ => exact downR0 _ _
    | ⟨1, _⟩ => exact (downR1 _ _).trans hk)
  rw [el, er]

/-! ## The stage as one term of its five inputs -/

/-- The unit spread over the hidden array. -/
def unitArr (hb : S_.BroadcastsInDim S1x1024x8192 (![] : Fin 0 → Fin S1x1024x8192.rank)) : FVec Ideal S1x1024x8192 .f32 :=
  broadcastInDim S1x1024x8192 ![] hb (constant (F := Ideal) S_ .f32 0x3F800000#32)

theorem unitArr_apply (hb : S_.BroadcastsInDim S1x1024x8192 (![] : Fin 0 → Fin S1x1024x8192.rank)) (j : S1x1024x8192.Idx) :
    unitArr hb j = Cert.Spec.one := by
  unfold unitArr
  exact (broadcastInDim_apply _ hb _ j (fun a => a.elim0) (fun a => a.elim0)).trans rfl

/-- What the stage writes, as a term of the residual input `x`, the normalised input `y` and the three weights:
    `x + ((g ⊙ 1 / (1 + e^{-g})) ⊙ u) · Wdᵀ` with `g = y · Wgᵀ` and `u = y · Wuᵀ`. -/
def ffnTerm (hb : S_.BroadcastsInDim S1x1024x8192 (![] : Fin 0 → Fin S1x1024x8192.rank))
    (x y : FVec Ideal S1x1024x2048 .f32) (g u : FVec Ideal S8192x2048 .f32) (d : FVec Ideal S2048x8192 .f32) :
    FVec Ideal S1x1024x2048 .f32 :=
  addf x
    (Host.dotGeneral dot_S1x1024x8192_S2048x8192_S1x1024x2048_2_1_01_0_n_n none
      (mulf
        (mulf (Host.dotGeneral dot_S1x1024x2048_S8192x2048_S1x1024x8192_2_1_01_0_n_n none y g)
          (Host.divf (unitArr hb)
            (addf (unitArr hb)
              (Host.exp (Host.negf (Host.dotGeneral dot_S1x1024x2048_S8192x2048_S1x1024x8192_2_1_01_0_n_n none y g))))))
        (Host.dotGeneral dot_S1x1024x2048_S8192x2048_S1x1024x8192_2_1_01_0_n_n none y u))
      d)

/-- The term at an index, over coordinate functions for its five inputs. -/
theorem ffnTerm_apply (hb : S_.BroadcastsInDim S1x1024x8192 (![] : Fin 0 → Fin S1x1024x8192.rank))
    (X Y : FVec Ideal S1x1024x2048 .f32) (G U : FVec Ideal S8192x2048 .f32) (D : FVec Ideal S2048x8192 .f32)
    (x y : Cert.Spec.Hid) (wg wu : Cert.Spec.Wt 8192 2048) (wd : Cert.Spec.Wt 2048 8192)
    (hx : ∀ s h, X (ix3 0 s h) = x s h) (hy : ∀ s h, Y (ix3 0 s h) = y s h)
    (hg : ∀ i h, G (ix2 i h) = wg i h) (hu : ∀ i h, U (ix2 i h) = wu i h) (hd : ∀ o i, D (ix2 o i) = wd o i)
    (s : Fin 1024) (o : Fin 2048) :
    ffnTerm hb X Y G U D (ix3 0 s o)
      = x s o + ∑ i : Fin 8192, (Cert.Spec.silu (Cert.Spec.proj y wg s i) * Cert.Spec.proj y wu s i) * wd o i := by
  unfold ffnTerm
  rw [addf_apply, hx, down_apply]
  refine congrArg (x s o + ·) (Finset.sum_congr rfl fun i _ => ?_)
  rw [hd, mulf_apply, mulf_apply, up_apply, up_apply]
  have eg : (∑ k : Fin 2048, Y (ix3 0 s k) * G (ix2 i k)) = Cert.Spec.proj y wg s i :=
    Finset.sum_congr rfl fun k _ => by rw [hy, hg]
  have eu : (∑ k : Fin 2048, Y (ix3 0 s k) * U (ix2 i k)) = Cert.Spec.proj y wu s i :=
    Finset.sum_congr rfl fun k _ => by rw [hy, hu]
  rw [eg, eu]
  show (Cert.Spec.proj y wg s i * Ideal.div (unitArr hb (ix3 0 s i))
      (unitArr hb (ix3 0 s i) + Ideal.exp (-(Host.dotGeneral (F := Ideal) dot_S1x1024x2048_S8192x2048_S1x1024x8192_2_1_01_0_n_n none Y G (ix3 0 s i)))))
      * Cert.Spec.proj y wu s i * wd o i = _
  rw [unitArr_apply, up_apply, eg]
  rfl

/-! ## The two layers' stages -/

theorem seg7_term (W : Valuation τ sig (Elt Ideal)) :
    (after (seg7 (F := Ideal)) W main_v117 : Vec Ideal S1x1024x2048 .f32)
      = ffnTerm Gen.bcast_S_S1x1024x8192 (W main_v98) (W main_v111) (W main_v29) (W main_v31) (W main_v33) := by
  dsimp only [seg7]
  after_results
  rfl

theorem ref_seg7_v117 (W : Valuation τ sig (Elt Ideal)) (x y : Cert.Spec.Hid) (wg wu : Cert.Spec.Wt 8192 2048) (wd : Cert.Spec.Wt 2048 8192)
    (hx : ∀ s h, (W main_v98 : Vec Ideal S1x1024x2048 .f32) (ix3 0 s h) = x s h)
    (hy : ∀ s h, (W main_v111 : Vec Ideal S1x1024x2048 .f32) (ix3 0 s h) = y s h)
    (hg : ∀ i h, (W main_v29 : Vec Ideal S8192x2048 .f32) (ix2 i h) = wg i h)
    (hu : ∀ i h, (W main_v31 : Vec Ideal S8192x2048 .f32) (ix2 i h) = wu i h)
    (hd : ∀ o i, (W main_v33 : Vec Ideal S2048x8192 .f32) (ix2 o i) = wd o i) (s : Fin 1024) (o : Fin 2048) :
    (after (seg7 (F := Ideal)) W main_v117 : Vec Ideal S1x1024x2048 .f32) (ix3 0 s o)
      = x s o + ∑ i : Fin 8192, (Cert.Spec.silu (Cert.Spec.proj y wg s i) * Cert.Spec.proj y wu s i) * wd o i := by
  rw [seg7_term]
  exact ffnTerm_apply _ _ _ _ _ _ x y wg wu wd hx hy hg hu hd s o

theorem seg15_term (W : Valuation τ sig (Elt Ideal)) :
    (after (seg15 (F := Ideal)) W main_v219 : Vec Ideal S1x1024x2048 .f32)
      = ffnTerm Gen.bcast_S_S1x1024x8192 (W main_v200) (W main_v213) (W main_v131) (W main_v133) (W main_v135) := by
  dsimp only [seg15]
  after_results
  rfl

theorem ref_seg15_v219 (W : Valuation τ sig (Elt Ideal)) (x y : Cert.Spec.Hid) (wg wu : Cert.Spec.Wt 8192 2048) (wd : Cert.Spec.Wt 2048 8192)
    (hx : ∀ s h, (W main_v200 : Vec Ideal S1x1024x2048 .f32) (ix3 0 s h) = x s h)
    (hy : ∀ s h, (W main_v213 : Vec Ideal S1x1024x2048 .f32) (ix3 0 s h) = y s h)
    (hg : ∀ i h, (W main_v131 : Vec Ideal S8192x2048 .f32) (ix2 i h) = wg i h)
    (hu : ∀ i h, (W main_v133 : Vec Ideal S8192x2048 .f32) (ix2 i h) = wu i h)
    (hd : ∀ o i, (W main_v135 : Vec Ideal S2048x8192 .f32) (ix2 o i) = wd o i) (s : Fin 1024) (o : Fin 2048) :
    (after (seg15 (F := Ideal)) W main_v219 : Vec Ideal S1x1024x2048 .f32) (ix3 0 s o)
      = x s o + ∑ i : Fin 8192, (Cert.Spec.silu (Cert.Spec.proj y wg s i) * Cert.Spec.proj y wu s i) * wd o i := by
  rw [seg15_term]
  exact ffnTerm_apply _ _ _ _ _ _ x y wg wu wd hx hy hg hu hd s o

end Cert.KV

end
-- ==== Proof.Ref.Chain1.lean ====
/-
  The reference's first layer at an index. The operation list runs as seventeen consecutive cuts; the valuation after
  each cut is named, every buffer a cut reads is traced back (through the cuts that do not write it) to the cut that
  wrote it, and the first eight cuts' readings chain into the specification's first layer applied to the argument arrays:
  the rotary tables at the positions, the first layer's new keys and new values, and the hidden states it hands on.
-/
import proofs.«167047_j26895085207995_2_alg».proof.Proof.Spec
import proofs.«167047_j26895085207995_2_alg».proof.Proof.Inputs
import proofs.«167047_j26895085207995_2_alg».proof.Proof.Val.Row
import proofs.«167047_j26895085207995_2_alg».proof.Proof.Ref.Run
import proofs.«167047_j26895085207995_2_alg».proof.Proof.Ref.Stage0
import proofs.«167047_j26895085207995_2_alg».proof.Proof.Ref.Stage0g
import proofs.«167047_j26895085207995_2_alg».proof.Proof.Ref.Stage1
import proofs.«167047_j26895085207995_2_alg».proof.Proof.Ref.Stage2
import proofs.«167047_j26895085207995_2_alg».proof.Proof.Ref.Stage3
import proofs.«167047_j26895085207995_2_alg».proof.Proof.Ref.Stage4
import proofs.«167047_j26895085207995_2_alg».proof.Proof.Ref.Stage5
import proofs.«167047_j26895085207995_2_alg».proof.Proof.Ref.Stage6
import proofs.«167047_j26895085207995_2_alg».proof.Proof.Ref.Stage7
import Idealize.ShloMosaic.Lib.ValueIdx

noncomputable section

namespace Cert.KV

open scoped BigOperators
open Idealize.ShloMosaic Idealize.ShloMosaic.TcCoe Idealize.ShloMosaic.ValueIdx Idealize.ShloMosaic.StableHlo
open Cert.ReferenceIdeal Cert.ReferenceIdeal.RunP

variable (V : Valuation τ sig (Elt Ideal))

/-- The fourteen argument arrays read off a valuation of the reference's buffers. -/
def refArgs : Args where
  x := (V main_arg0 : Vec Ideal S1x1024x2048 .f32)
  mask := (V main_arg1 : Vec Ideal S1x1x1024x1024 .f32)
  pos := (V main_arg2 : IVec S1x1024 32)
  cosc := (V main_arg3 : Vec Ideal S1024x64 .f32)
  sinc := (V main_arg4 : Vec Ideal S1024x64 .f32)
  ln1 := (V main_arg5 : Vec Ideal S2x2048 .f32)
  ln2 := (V main_arg6 : Vec Ideal S2x2048 .f32)
  Wq := (V main_arg7 : Vec Ideal S2x2048x2048 .f32)
  Wk := (V main_arg8 : Vec Ideal S2x512x2048 .f32)
  Wv := (V main_arg9 : Vec Ideal S2x512x2048 .f32)
  Wo := (V main_arg10 : Vec Ideal S2x2048x2048 .f32)
  Wg := (V main_arg11 : Vec Ideal S2x8192x2048 .f32)
  Wu := (V main_arg12 : Vec Ideal S2x8192x2048 .f32)
  Wd := (V main_arg13 : Vec Ideal S2x2048x8192 .f32)

/-! ## The valuation after each cut -/

abbrev W1 : Valuation τ sig (Elt Ideal) := after (seg0 (F := Ideal)) V
abbrev W2 : Valuation τ sig (Elt Ideal) := after (seg1 (F := Ideal)) (W1 V)
abbrev W3 : Valuation τ sig (Elt Ideal) := after (seg2 (F := Ideal)) (W2 V)
abbrev W4 : Valuation τ sig (Elt Ideal) := after (seg3 (F := Ideal)) (W3 V)
abbrev W5 : Valuation τ sig (Elt Ideal) := after (seg4 (F := Ideal)) (W4 V)
abbrev W6 : Valuation τ sig (Elt Ideal) := after (seg5 (F := Ideal)) (W5 V)
abbrev W7 : Valuation τ sig (Elt Ideal) := after (seg6 (F := Ideal)) (W6 V)
abbrev W8 : Valuation τ sig (Elt Ideal) := after (seg7 (F := Ideal)) (W7 V)
abbrev W9 : Valuation τ sig (Elt Ideal) := after (seg8 (F := Ideal)) (W8 V)
abbrev W10 : Valuation τ sig (Elt Ideal) := after (seg9 (F := Ideal)) (W9 V)
abbrev W11 : Valuation τ sig (Elt Ideal) := after (seg10 (F := Ideal)) (W10 V)
abbrev W12 : Valuation τ sig (Elt Ideal) := after (seg11 (F := Ideal)) (W11 V)
abbrev W13 : Valuation τ sig (Elt Ideal) := after (seg12 (F := Ideal)) (W12 V)
abbrev W14 : Valuation τ sig (Elt Ideal) := after (seg13 (F := Ideal)) (W13 V)
abbrev W15 : Valuation τ sig (Elt Ideal) := after (seg14 (F := Ideal)) (W14 V)
abbrev W16 : Valuation τ sig (Elt Ideal) := after (seg15 (F := Ideal)) (W15 V)
abbrev W17 : Valuation τ sig (Elt Ideal) := after (seg16 (F := Ideal)) (W16 V)

/-- The whole list's fold is the last of them. -/
theorem after_ops_eq : after (ops (F := Ideal)) V = W17 V := after_ops V

local notation "𝐚" => refArgs V
local notation "𝐜" => cosOf row (refArgs V)
local notation "𝐬" => sinOf row (refArgs V)
local notation "𝐦" => maskOf (refArgs V)
local notation "𝐱₀" => hid0 (refArgs V)
local notation "𝐱₁" => hid1 row (refArgs V)
local notation "𝐰₀" => weights (refArgs V) 0
local notation "𝐰₁" => weights (refArgs V) 1

/-! ## The tables and the first layer's weights -/

theorem r1_cos (s : Fin 1024) (d : Fin 64) : (W1 V main_v7 : Vec Ideal S1x1x1024x64 .f32) (ix4 0 0 s d) = 𝐜 s d := ref_seg0_v7 V s d
theorem r1_sin (s : Fin 1024) (d : Fin 64) : (W1 V main_v15 : Vec Ideal S1x1x1024x64 .f32) (ix4 0 0 s d) = 𝐬 s d := ref_seg0_v15 V s d
theorem r1_g1 (h : Fin 2048) : (W1 V main_v17 : Vec Ideal S2048 .f32) (ix1 h) = (𝐰₀).g1 h := ref_seg0_v17 V h
theorem r1_g2 (h : Fin 2048) : (W1 V main_v19 : Vec Ideal S2048 .f32) (ix1 h) = (𝐰₀).g2 h := ref_seg0_v19 V h
theorem r1_Wq (o h : Fin 2048) : (W1 V main_v21 : Vec Ideal S2048x2048 .f32) (ix2 o h) = (𝐰₀).Wq o h := ref_seg0_v21 V o h
theorem r1_Wk (o : Fin 512) (h : Fin 2048) : (W1 V main_v23 : Vec Ideal S512x2048 .f32) (ix2 o h) = (𝐰₀).Wk o h := ref_seg0_v23 V o h
theorem r1_Wv (o : Fin 512) (h : Fin 2048) : (W1 V main_v25 : Vec Ideal S512x2048 .f32) (ix2 o h) = (𝐰₀).Wv o h := ref_seg0_v25 V o h
theorem r1_Wo (o h : Fin 2048) : (W1 V main_v27 : Vec Ideal S2048x2048 .f32) (ix2 o h) = (𝐰₀).Wo o h := ref_seg0_v27 V o h
theorem r1_Wg (o : Fin 8192) (h : Fin 2048) : (W1 V main_v29 : Vec Ideal S8192x2048 .f32) (ix2 o h) = (𝐰₀).Wg o h := ref_seg0_v29 V o h
theorem r1_Wu (o : Fin 8192) (h : Fin 2048) : (W1 V main_v31 : Vec Ideal S8192x2048 .f32) (ix2 o h) = (𝐰₀).Wu o h := ref_seg0_v31 V o h
theorem r1_Wd (o : Fin 2048) (i : Fin 8192) : (W1 V main_v33 : Vec Ideal S2048x8192 .f32) (ix2 o i) = (𝐰₀).Wd o i := ref_seg0_v33 V o i

/-! ## The first layer -/

/-- The normalised input. -/
theorem r2_norm (s : Fin 1024) (h : Fin 2048) :
    (W2 V main_v46 : Vec Ideal S1x1024x2048 .f32) (ix3 0 s h) = Cert.Spec.rms 𝐱₀ (𝐰₀).g1 s h :=
  ref_seg1_v46 (W1 V) 𝐱₀ (𝐰₀).g1 (fun s h => (congrFun ((seg0_keep _ main_arg0 (by decide))) (ix3 0 s h))) (r1_g1 V) s h

/-- The query, key and value heads. -/
theorem r3_q (hd : Fin 32) (s : Fin 1024) (d : Fin 64) :
    (W3 V main_v49 : Vec Ideal S1x32x1024x64 .f32) (ix4 0 hd s d)
      = Cert.Spec.heads (n := 32) (Cert.Spec.proj (Cert.Spec.rms 𝐱₀ (𝐰₀).g1) (𝐰₀).Wq) hd s d :=
  ref_seg2_v49 (W2 V) _ _ (r2_norm V) (fun o h => (congrFun ((seg1_keep _ main_v21 (by decide))) (ix2 o h)).trans (r1_Wq V o h)) hd s d
theorem r3_k (kv : Fin 8) (s : Fin 1024) (d : Fin 64) :
    (W3 V main_v52 : Vec Ideal S1x8x1024x64 .f32) (ix4 0 kv s d)
      = Cert.Spec.heads (n := 8) (Cert.Spec.proj (Cert.Spec.rms 𝐱₀ (𝐰₀).g1) (𝐰₀).Wk) kv s d :=
  ref_seg2_v52 (W2 V) _ _ (r2_norm V) (fun o h => (congrFun ((seg1_keep _ main_v23 (by decide))) (ix2 o h)).trans (r1_Wk V o h)) kv s d
theorem r3_v (kv : Fin 8) (s : Fin 1024) (d : Fin 64) :
    (W3 V main_v55 : Vec Ideal S1x8x1024x64 .f32) (ix4 0 kv s d) = Cert.Spec.newV 𝐱₀ 𝐰₀ kv s d :=
  ref_seg2_v55 (W2 V) _ _ (r2_norm V) (fun o h => (congrFun ((seg1_keep _ main_v25 (by decide))) (ix2 o h)).trans (r1_Wv V o h)) kv s d

/-- The rotated query and key heads. -/
theorem r4_q (hd : Fin 32) (s : Fin 1024) (d : Fin 64) :
    (W4 V main_v64 : Vec Ideal S1x32x1024x64 .f32) (ix4 0 hd s d)
      = Cert.Spec.rope (Cert.Spec.heads (n := 32) (Cert.Spec.proj (Cert.Spec.rms 𝐱₀ (𝐰₀).g1) (𝐰₀).Wq)) 𝐜 𝐬 hd s d :=
  ref_seg3_v64 (W3 V) _ 𝐜 𝐬 (r3_q V) (fun s d => (congrFun ((seg2_keep _ main_v7 (by decide)).trans <| (seg1_keep _ main_v7 (by decide))) (ix4 0 0 s d)).trans (r1_cos V s d))
    (fun s d => (congrFun ((seg2_keep _ main_v15 (by decide)).trans <| (seg1_keep _ main_v15 (by decide))) (ix4 0 0 s d)).trans (r1_sin V s d)) hd s d
theorem r4_k (kv : Fin 8) (s : Fin 1024) (d : Fin 64) :
    (W4 V main_v73 : Vec Ideal S1x8x1024x64 .f32) (ix4 0 kv s d) = Cert.Spec.newK 𝐱₀ 𝐜 𝐬 𝐰₀ kv s d :=
  ref_seg3_v73 (W3 V) _ 𝐜 𝐬 (r3_k V) (fun s d => (congrFun ((seg2_keep _ main_v7 (by decide)).trans <| (seg1_keep _ main_v7 (by decide))) (ix4 0 0 s d)).trans (r1_cos V s d))
    (fun s d => (congrFun ((seg2_keep _ main_v15 (by decide)).trans <| (seg1_keep _ main_v15 (by decide))) (ix4 0 0 s d)).trans (r1_sin V s d)) kv s d

/-- The attention output, head by head. -/
theorem r5_attn (hd : Fin 32) (s : Fin 1024) (d : Fin 64) :
    (W5 V main_v94 : Vec Ideal S1x32x1024x64 .f32) (ix4 0 hd s d)
      = Cert.Spec.attn (Cert.Spec.rope (Cert.Spec.heads (n := 32) (Cert.Spec.proj (Cert.Spec.rms 𝐱₀ (𝐰₀).g1) (𝐰₀).Wq)) 𝐜 𝐬)
          (Cert.Spec.newK 𝐱₀ 𝐜 𝐬 𝐰₀) (Cert.Spec.newV 𝐱₀ 𝐰₀) 𝐦 hd s d :=
  ref_seg4_v94 (W4 V) _ _ _ 𝐦 (r4_q V) (r4_k V)
    (fun kv s d => (congrFun ((seg3_keep _ main_v55 (by decide))) (ix4 0 kv s d)).trans (r3_v V kv s d))
    (fun s t => (congrFun ((seg3_keep _ main_arg1 (by decide)).trans <| (seg2_keep _ main_arg1 (by decide)).trans <| (seg1_keep _ main_arg1 (by decide)).trans <| (seg0_keep _ main_arg1 (by decide))) (ix4 0 0 s t))) hd s d

/-- The hidden states after attention and its residual. -/
theorem r6_hid (s : Fin 1024) (o : Fin 2048) :
    (W6 V main_v98 : Vec Ideal S1x1024x2048 .f32) (ix3 0 s o) = Cert.Spec.afterAttn 𝐱₀ 𝐦 𝐜 𝐬 𝐰₀ s o :=
  ref_seg5_v98 (W5 V) 𝐱₀ _ (𝐰₀).Wo (fun s h => (congrFun ((seg4_keep _ main_arg0 (by decide)).trans <| (seg3_keep _ main_arg0 (by decide)).trans <| (seg2_keep _ main_arg0 (by decide)).trans <| (seg1_keep _ main_arg0 (by decide)).trans <| (seg0_keep _ main_arg0 (by decide))) (ix3 0 s h))) (r5_attn V)
    (fun o h => (congrFun ((seg4_keep _ main_v27 (by decide)).trans <| (seg3_keep _ main_v27 (by decide)).trans <| (seg2_keep _ main_v27 (by decide)).trans <| (seg1_keep _ main_v27 (by decide))) (ix2 o h)).trans (r1_Wo V o h)) s o

/-- Their normalisation. -/
theorem r7_norm (s : Fin 1024) (h : Fin 2048) :
    (W7 V main_v111 : Vec Ideal S1x1024x2048 .f32) (ix3 0 s h) = Cert.Spec.rms (Cert.Spec.afterAttn 𝐱₀ 𝐦 𝐜 𝐬 𝐰₀) (𝐰₀).g2 s h :=
  ref_seg6_v111 (W6 V) _ (𝐰₀).g2 (r6_hid V) (fun h => (congrFun ((seg5_keep _ main_v19 (by decide)).trans <| (seg4_keep _ main_v19 (by decide)).trans <| (seg3_keep _ main_v19 (by decide)).trans <| (seg2_keep _ main_v19 (by decide)).trans <| (seg1_keep _ main_v19 (by decide))) (ix1 h)).trans (r1_g2 V h)) s h

/-- The first layer's result: the hidden states the second layer starts from. -/
theorem r8_hid (s : Fin 1024) (o : Fin 2048) :
    (W8 V main_v117 : Vec Ideal S1x1024x2048 .f32) (ix3 0 s o) = 𝐱₁ s o :=
  ref_seg7_v117 (W7 V) (Cert.Spec.afterAttn 𝐱₀ 𝐦 𝐜 𝐬 𝐰₀) _ (𝐰₀).Wg (𝐰₀).Wu (𝐰₀).Wd
    (fun s h => (congrFun ((seg6_keep _ main_v98 (by decide))) (ix3 0 s h)).trans (r6_hid V s h)) (r7_norm V)
    (fun i h => (congrFun ((seg6_keep _ main_v29 (by decide)).trans <| (seg5_keep _ main_v29 (by decide)).trans <| (seg4_keep _ main_v29 (by decide)).trans <| (seg3_keep _ main_v29 (by decide)).trans <| (seg2_keep _ main_v29 (by decide)).trans <| (seg1_keep _ main_v29 (by decide))) (ix2 i h)).trans (r1_Wg V i h))
    (fun i h => (congrFun ((seg6_keep _ main_v31 (by decide)).trans <| (seg5_keep _ main_v31 (by decide)).trans <| (seg4_keep _ main_v31 (by decide)).trans <| (seg3_keep _ main_v31 (by decide)).trans <| (seg2_keep _ main_v31 (by decide)).trans <| (seg1_keep _ main_v31 (by decide))) (ix2 i h)).trans (r1_Wu V i h))
    (fun o i => (congrFun ((seg6_keep _ main_v33 (by decide)).trans <| (seg5_keep _ main_v33 (by decide)).trans <| (seg4_keep _ main_v33 (by decide)).trans <| (seg3_keep _ main_v33 (by decide)).trans <| (seg2_keep _ main_v33 (by decide)).trans <| (seg1_keep _ main_v33 (by decide))) (ix2 o i)).trans (r1_Wd V o i)) s o

end Cert.KV

end
-- ==== Proof.Ref.Stage8.lean ====
/-
  The reference's last stage read at an index: the two layers' new keys (and, by the same operations, the two layers'
  new values) are each given a leading unit axis and laid one after the other along it, so entry `l` of the stacked
  result is layer `l`'s array.
-/
import proofs.«167047_j26895085207995_2_alg».proof.Proof.Spec
import proofs.«167047_j26895085207995_2_alg».proof.Proof.Ref.Segs
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

noncomputable section

namespace Cert.KV

open scoped BigOperators
open Idealize.ShloMosaic Idealize.ShloMosaic.TcCoe Idealize.ShloMosaic.ValueIdx Idealize.ShloMosaic.StableHlo
open Cert.ReferenceIdeal Cert.ReferenceIdeal.Gen Cert.ReferenceIdeal.RunP

/-- A layer's array given a leading unit axis reads the array. -/
private theorem bc_lead_apply {α : Type} (y : S1x8x1024x64.Idx → α) (kv : Fin 8) (s : Fin 1024) (d : Fin 64) :
    broadcastInDim S1x1x8x1024x64 ![1, 2, 3, 4] bcast_S1x8x1024x64_S1x1x8x1024x64_1_2_3_4 y (ix5 0 0 kv s d) = y (ix4 0 kv s d) :=
  broadcastInDim_apply _ bcast_S1x8x1024x64_S1x1x8x1024x64_1_2_3_4 y (ix5 0 0 kv s d) (ix4 0 kv s d) (fun a => match a with
    | ⟨0, _⟩ => by show 0 = if (1 : Nat) = 1 then 0 else 0; rw [if_pos rfl]
    | ⟨1, _⟩ => by show kv.val = if (8 : Nat) = 1 then 0 else kv.val; rw [if_neg (by decide)]
    | ⟨2, _⟩ => by show s.val = if (1024 : Nat) = 1 then 0 else s.val; rw [if_neg (by decide)]
    | ⟨3, _⟩ => by show d.val = if (64 : Nat) = 1 then 0 else d.val; rw [if_neg (by decide)])

/-- Two arrays laid one after the other along a new leading axis: entry `l` of the stack is the `l`-th array. -/
private theorem stack_apply {α : Type} (x₁ x₂ : S1x1x8x1024x64.Idx → α) (l : Fin 2) (kv : Fin 8) (s : Fin 1024) (d : Fin 64) :
    concatenate S2x1x8x1024x64 0 [⟨S1x1x8x1024x64, x₁⟩, ⟨S1x1x8x1024x64, x₂⟩]
        concatenates_S1x1x8x1024x64_S1x1x8x1024x64_S2x1x8x1024x64_d0 (ix5 l 0 kv s d)
      = if l = 0 then x₁ (ix5 0 0 kv s d) else x₂ (ix5 0 0 kv s d) := by
  by_cases hl : l = 0
  · subst hl
    rw [if_pos rfl]
    exact concatenate_pair_apply_left 0 x₁ x₂ concatenates_S1x1x8x1024x64_S1x1x8x1024x64_S2x1x8x1024x64_d0
      (ix5 0 0 kv s d) rfl (ix5 0 0 kv s d) (fun b => match b with
      | ⟨0, _⟩ => rfl | ⟨1, _⟩ => rfl | ⟨2, _⟩ => rfl | ⟨3, _⟩ => rfl | ⟨4, _⟩ => rfl)
  · have h1 : l = 1 := Fin.ext (by
      have h2 := l.isLt
      have h0 : l.val ≠ 0 := fun e => hl (Fin.ext e)
      show l.val = 1
      omega)
    subst h1
    rw [if_neg hl]
    exact concatenate_pair_apply_right 0 x₁ x₂ concatenates_S1x1x8x1024x64_S1x1x8x1024x64_S2x1x8x1024x64_d0
      (ix5 1 0 kv s d) rfl rfl (ix5 0 0 kv s d) (fun b hb => match b, hb with
      | ⟨0, _⟩, hb => absurd rfl hb | ⟨1, _⟩, _ => rfl | ⟨2, _⟩, _ => rfl | ⟨3, _⟩, _ => rfl | ⟨4, _⟩, _ => rfl)
      (by show 0 + 1 = 1; rfl)

theorem ref_seg16_v222 (W : Valuation τ sig (Elt Ideal)) (k0 k1 : Cert.Spec.Heads 8)
    (h0 : ∀ kv s d, (W main_v73 : Vec Ideal S1x8x1024x64 .f32) (ix4 0 kv s d) = k0 kv s d)
    (h1 : ∀ kv s d, (W main_v175 : Vec Ideal S1x8x1024x64 .f32) (ix4 0 kv s d) = k1 kv s d) (l : Fin 2) (kv : Fin 8) (s : Fin 1024) (d : Fin 64) :
    (after (seg16 (F := Ideal)) W main_v222 : Vec Ideal S2x1x8x1024x64 .f32) (ix5 l 0 kv s d) = if l = 0 then k0 kv s d else k1 kv s d := by
  dsimp only [seg16]
  after_results
  rw [stack_apply, bc_lead_apply, bc_lead_apply, h0, h1]

theorem ref_seg16_v225 (W : Valuation τ sig (Elt Ideal)) (k0 k1 : Cert.Spec.Heads 8)
    (h0 : ∀ kv s d, (W main_v55 : Vec Ideal S1x8x1024x64 .f32) (ix4 0 kv s d) = k0 kv s d)
    (h1 : ∀ kv s d, (W main_v157 : Vec Ideal S1x8x1024x64 .f32) (ix4 0 kv s d) = k1 kv s d) (l : Fin 2) (kv : Fin 8) (s : Fin 1024) (d : Fin 64) :
    (after (seg16 (F := Ideal)) W main_v225 : Vec Ideal S2x1x8x1024x64 .f32) (ix5 l 0 kv s d) = if l = 0 then k0 kv s d else k1 kv s d := by
  dsimp only [seg16]
  after_results
  rw [stack_apply, bc_lead_apply, bc_lead_apply, h0, h1]

end Cert.KV

end
-- ==== Proof.Ref.Value.lean ====
/-
  The reference's three results at an index: the second layer chained from the first layer's readings, the two layers'
  new keys and new values stacked, and the argument arrays read off the launch memory.
-/
import proofs.«167047_j26895085207995_2_alg».proof.Proof.Ref.Chain1
import proofs.«167047_j26895085207995_2_alg».proof.Proof.Ref.Stage8
import proofs.«167047_j26895085207995_2_alg».proof.Proof.Val.ArgsOf

noncomputable section

namespace Cert.KV

open scoped BigOperators
open Idealize.ShloMosaic Idealize.ShloMosaic.TcCoe Idealize.ShloMosaic.ValueIdx Idealize.ShloMosaic.StableHlo
open Cert.ReferenceIdeal Cert.ReferenceIdeal.RunP

variable (V : Valuation τ sig (Elt Ideal))

local notation "𝐚" => refArgs V
local notation "𝐜" => cosOf row (refArgs V)
local notation "𝐬" => sinOf row (refArgs V)
local notation "𝐦" => maskOf (refArgs V)
local notation "𝐱₀" => hid0 (refArgs V)
local notation "𝐱₁" => hid1 row (refArgs V)
local notation "𝐰₀" => weights (refArgs V) 0
local notation "𝐰₁" => weights (refArgs V) 1

/-! ## The second layer's weights -/

theorem r9_g1 (h : Fin 2048) : (W9 V main_v119 : Vec Ideal S2048 .f32) (ix1 h) = (𝐰₁).g1 h :=
  (ref_seg8_v119 (W8 V) h).trans (congrFun ((seg7_keep _ main_arg5 (by decide)).trans <| (seg6_keep _ main_arg5 (by decide)).trans <| (seg5_keep _ main_arg5 (by decide)).trans <| (seg4_keep _ main_arg5 (by decide)).trans <| (seg3_keep _ main_arg5 (by decide)).trans <| (seg2_keep _ main_arg5 (by decide)).trans <| (seg1_keep _ main_arg5 (by decide)).trans <| (seg0_keep _ main_arg5 (by decide))) (ix2 1 h))
theorem r9_g2 (h : Fin 2048) : (W9 V main_v121 : Vec Ideal S2048 .f32) (ix1 h) = (𝐰₁).g2 h :=
  (ref_seg8_v121 (W8 V) h).trans (congrFun ((seg7_keep _ main_arg6 (by decide)).trans <| (seg6_keep _ main_arg6 (by decide)).trans <| (seg5_keep _ main_arg6 (by decide)).trans <| (seg4_keep _ main_arg6 (by decide)).trans <| (seg3_keep _ main_arg6 (by decide)).trans <| (seg2_keep _ main_arg6 (by decide)).trans <| (seg1_keep _ main_arg6 (by decide)).trans <| (seg0_keep _ main_arg6 (by decide))) (ix2 1 h))
theorem r9_Wq (o h : Fin 2048) : (W9 V main_v123 : Vec Ideal S2048x2048 .f32) (ix2 o h) = (𝐰₁).Wq o h :=
  (ref_seg8_v123 (W8 V) o h).trans (congrFun ((seg7_keep _ main_arg7 (by decide)).trans <| (seg6_keep _ main_arg7 (by decide)).trans <| (seg5_keep _ main_arg7 (by decide)).trans <| (seg4_keep _ main_arg7 (by decide)).trans <| (seg3_keep _ main_arg7 (by decide)).trans <| (seg2_keep _ main_arg7 (by decide)).trans <| (seg1_keep _ main_arg7 (by decide)).trans <| (seg0_keep _ main_arg7 (by decide))) (ix3 1 o h))
theorem r9_Wk (o : Fin 512) (h : Fin 2048) : (W9 V main_v125 : Vec Ideal S512x2048 .f32) (ix2 o h) = (𝐰₁).Wk o h :=
  (ref_seg8_v125 (W8 V) o h).trans (congrFun ((seg7_keep _ main_arg8 (by decide)).trans <| (seg6_keep _ main_arg8 (by decide)).trans <| (seg5_keep _ main_arg8 (by decide)).trans <| (seg4_keep _ main_arg8 (by decide)).trans <| (seg3_keep _ main_arg8 (by decide)).trans <| (seg2_keep _ main_arg8 (by decide)).trans <| (seg1_keep _ main_arg8 (by decide)).trans <| (seg0_keep _ main_arg8 (by decide))) (ix3 1 o h))
theorem r9_Wv (o : Fin 512) (h : Fin 2048) : (W9 V main_v127 : Vec Ideal S512x2048 .f32) (ix2 o h) = (𝐰₁).Wv o h :=
  (ref_seg8_v127 (W8 V) o h).trans (congrFun ((seg7_keep _ main_arg9 (by decide)).trans <| (seg6_keep _ main_arg9 (by decide)).trans <| (seg5_keep _ main_arg9 (by decide)).trans <| (seg4_keep _ main_arg9 (by decide)).trans <| (seg3_keep _ main_arg9 (by decide)).trans <| (seg2_keep _ main_arg9 (by decide)).trans <| (seg1_keep _ main_arg9 (by decide)).trans <| (seg0_keep _ main_arg9 (by decide))) (ix3 1 o h))
theorem r9_Wo (o h : Fin 2048) : (W9 V main_v129 : Vec Ideal S2048x2048 .f32) (ix2 o h) = (𝐰₁).Wo o h :=
  (ref_seg8_v129 (W8 V) o h).trans (congrFun ((seg7_keep _ main_arg10 (by decide)).trans <| (seg6_keep _ main_arg10 (by decide)).trans <| (seg5_keep _ main_arg10 (by decide)).trans <| (seg4_keep _ main_arg10 (by decide)).trans <| (seg3_keep _ main_arg10 (by decide)).trans <| (seg2_keep _ main_arg10 (by decide)).trans <| (seg1_keep _ main_arg10 (by decide)).trans <| (seg0_keep _ main_arg10 (by decide))) (ix3 1 o h))
theorem r9_Wg (o : Fin 8192) (h : Fin 2048) : (W9 V main_v131 : Vec Ideal S8192x2048 .f32) (ix2 o h) = (𝐰₁).Wg o h :=
  (ref_seg8_v131 (W8 V) o h).trans (congrFun ((seg7_keep _ main_arg11 (by decide)).trans <| (seg6_keep _ main_arg11 (by decide)).trans <| (seg5_keep _ main_arg11 (by decide)).trans <| (seg4_keep _ main_arg11 (by decide)).trans <| (seg3_keep _ main_arg11 (by decide)).trans <| (seg2_keep _ main_arg11 (by decide)).trans <| (seg1_keep _ main_arg11 (by decide)).trans <| (seg0_keep _ main_arg11 (by decide))) (ix3 1 o h))
theorem r9_Wu (o : Fin 8192) (h : Fin 2048) : (W9 V main_v133 : Vec Ideal S8192x2048 .f32) (ix2 o h) = (𝐰₁).Wu o h :=
  (ref_seg8_v133 (W8 V) o h).trans (congrFun ((seg7_keep _ main_arg12 (by decide)).trans <| (seg6_keep _ main_arg12 (by decide)).trans <| (seg5_keep _ main_arg12 (by decide)).trans <| (seg4_keep _ main_arg12 (by decide)).trans <| (seg3_keep _ main_arg12 (by decide)).trans <| (seg2_keep _ main_arg12 (by decide)).trans <| (seg1_keep _ main_arg12 (by decide)).trans <| (seg0_keep _ main_arg12 (by decide))) (ix3 1 o h))
theorem r9_Wd (o : Fin 2048) (i : Fin 8192) : (W9 V main_v135 : Vec Ideal S2048x8192 .f32) (ix2 o i) = (𝐰₁).Wd o i :=
  (ref_seg8_v135 (W8 V) o i).trans (congrFun ((seg7_keep _ main_arg13 (by decide)).trans <| (seg6_keep _ main_arg13 (by decide)).trans <| (seg5_keep _ main_arg13 (by decide)).trans <| (seg4_keep _ main_arg13 (by decide)).trans <| (seg3_keep _ main_arg13 (by decide)).trans <| (seg2_keep _ main_arg13 (by decide)).trans <| (seg1_keep _ main_arg13 (by decide)).trans <| (seg0_keep _ main_arg13 (by decide))) (ix3 1 o i))

/-! ## The second layer -/

theorem r10_norm (s : Fin 1024) (h : Fin 2048) :
    (W10 V main_v148 : Vec Ideal S1x1024x2048 .f32) (ix3 0 s h) = Cert.Spec.rms 𝐱₁ (𝐰₁).g1 s h :=
  ref_seg9_v148 (W9 V) 𝐱₁ (𝐰₁).g1 (fun s h => (congrFun ((seg8_keep _ main_v117 (by decide))) (ix3 0 s h)).trans (r8_hid V s h)) (r9_g1 V) s h

theorem r11_q (hd : Fin 32) (s : Fin 1024) (d : Fin 64) :
    (W11 V main_v151 : Vec Ideal S1x32x1024x64 .f32) (ix4 0 hd s d)
      = Cert.Spec.heads (n := 32) (Cert.Spec.proj (Cert.Spec.rms 𝐱₁ (𝐰₁).g1) (𝐰₁).Wq) hd s d :=
  ref_seg10_v151 (W10 V) _ _ (r10_norm V) (fun o h => (congrFun ((seg9_keep _ main_v123 (by decide))) (ix2 o h)).trans (r9_Wq V o h)) hd s d
theorem r11_k (kv : Fin 8) (s : Fin 1024) (d : Fin 64) :
    (W11 V main_v154 : Vec Ideal S1x8x1024x64 .f32) (ix4 0 kv s d)
      = Cert.Spec.heads (n := 8) (Cert.Spec.proj (Cert.Spec.rms 𝐱₁ (𝐰₁).g1) (𝐰₁).Wk) kv s d :=
  ref_seg10_v154 (W10 V) _ _ (r10_norm V) (fun o h => (congrFun ((seg9_keep _ main_v125 (by decide))) (ix2 o h)).trans (r9_Wk V o h)) kv s d
theorem r11_v (kv : Fin 8) (s : Fin 1024) (d : Fin 64) :
    (W11 V main_v157 : Vec Ideal S1x8x1024x64 .f32) (ix4 0 kv s d) = Cert.Spec.newV 𝐱₁ 𝐰₁ kv s d :=
  ref_seg10_v157 (W10 V) _ _ (r10_norm V) (fun o h => (congrFun ((seg9_keep _ main_v127 (by decide))) (ix2 o h)).trans (r9_Wv V o h)) kv s d

theorem r12_q (hd : Fin 32) (s : Fin 1024) (d : Fin 64) :
    (W12 V main_v166 : Vec Ideal S1x32x1024x64 .f32) (ix4 0 hd s d)
      = Cert.Spec.rope (Cert.Spec.heads (n := 32) (Cert.Spec.proj (Cert.Spec.rms 𝐱₁ (𝐰₁).g1) (𝐰₁).Wq)) 𝐜 𝐬 hd s d :=
  ref_seg11_v166 (W11 V) _ 𝐜 𝐬 (r11_q V) (fun s d => (congrFun ((seg10_keep _ main_v7 (by decide)).trans <| (seg9_keep _ main_v7 (by decide)).trans <| (seg8_keep _ main_v7 (by decide)).trans <| (seg7_keep _ main_v7 (by decide)).trans <| (seg6_keep _ main_v7 (by decide)).trans <| (seg5_keep _ main_v7 (by decide)).trans <| (seg4_keep _ main_v7 (by decide)).trans <| (seg3_keep _ main_v7 (by decide)).trans <| (seg2_keep _ main_v7 (by decide)).trans <| (seg1_keep _ main_v7 (by decide))) (ix4 0 0 s d)).trans (r1_cos V s d))
    (fun s d => (congrFun ((seg10_keep _ main_v15 (by decide)).trans <| (seg9_keep _ main_v15 (by decide)).trans <| (seg8_keep _ main_v15 (by decide)).trans <| (seg7_keep _ main_v15 (by decide)).trans <| (seg6_keep _ main_v15 (by decide)).trans <| (seg5_keep _ main_v15 (by decide)).trans <| (seg4_keep _ main_v15 (by decide)).trans <| (seg3_keep _ main_v15 (by decide)).trans <| (seg2_keep _ main_v15 (by decide)).trans <| (seg1_keep _ main_v15 (by decide))) (ix4 0 0 s d)).trans (r1_sin V s d)) hd s d
theorem r12_k (kv : Fin 8) (s : Fin 1024) (d : Fin 64) :
    (W12 V main_v175 : Vec Ideal S1x8x1024x64 .f32) (ix4 0 kv s d) = Cert.Spec.newK 𝐱₁ 𝐜 𝐬 𝐰₁ kv s d :=
  ref_seg11_v175 (W11 V) _ 𝐜 𝐬 (r11_k V) (fun s d => (congrFun ((seg10_keep _ main_v7 (by decide)).trans <| (seg9_keep _ main_v7 (by decide)).trans <| (seg8_keep _ main_v7 (by decide)).trans <| (seg7_keep _ main_v7 (by decide)).trans <| (seg6_keep _ main_v7 (by decide)).trans <| (seg5_keep _ main_v7 (by decide)).trans <| (seg4_keep _ main_v7 (by decide)).trans <| (seg3_keep _ main_v7 (by decide)).trans <| (seg2_keep _ main_v7 (by decide)).trans <| (seg1_keep _ main_v7 (by decide))) (ix4 0 0 s d)).trans (r1_cos V s d))
    (fun s d => (congrFun ((seg10_keep _ main_v15 (by decide)).trans <| (seg9_keep _ main_v15 (by decide)).trans <| (seg8_keep _ main_v15 (by decide)).trans <| (seg7_keep _ main_v15 (by decide)).trans <| (seg6_keep _ main_v15 (by decide)).trans <| (seg5_keep _ main_v15 (by decide)).trans <| (seg4_keep _ main_v15 (by decide)).trans <| (seg3_keep _ main_v15 (by decide)).trans <| (seg2_keep _ main_v15 (by decide)).trans <| (seg1_keep _ main_v15 (by decide))) (ix4 0 0 s d)).trans (r1_sin V s d)) kv s d

theorem r13_attn (hd : Fin 32) (s : Fin 1024) (d : Fin 64) :
    (W13 V main_v196 : Vec Ideal S1x32x1024x64 .f32) (ix4 0 hd s d)
      = Cert.Spec.attn (Cert.Spec.rope (Cert.Spec.heads (n := 32) (Cert.Spec.proj (Cert.Spec.rms 𝐱₁ (𝐰₁).g1) (𝐰₁).Wq)) 𝐜 𝐬)
          (Cert.Spec.newK 𝐱₁ 𝐜 𝐬 𝐰₁) (Cert.Spec.newV 𝐱₁ 𝐰₁) 𝐦 hd s d :=
  ref_seg12_v196 (W12 V) _ _ _ 𝐦 (r12_q V) (r12_k V)
    (fun kv s d => (congrFun ((seg11_keep _ main_v157 (by decide))) (ix4 0 kv s d)).trans (r11_v V kv s d))
    (fun s t => (congrFun ((seg11_keep _ main_arg1 (by decide)).trans <| (seg10_keep _ main_arg1 (by decide)).trans <| (seg9_keep _ main_arg1 (by decide)).trans <| (seg8_keep _ main_arg1 (by decide)).trans <| (seg7_keep _ main_arg1 (by decide)).trans <| (seg6_keep _ main_arg1 (by decide)).trans <| (seg5_keep _ main_arg1 (by decide)).trans <| (seg4_keep _ main_arg1 (by decide)).trans <| (seg3_keep _ main_arg1 (by decide)).trans <| (seg2_keep _ main_arg1 (by decide)).trans <| (seg1_keep _ main_arg1 (by decide)).trans <| (seg0_keep _ main_arg1 (by decide))) (ix4 0 0 s t))) hd s d

theorem r14_hid (s : Fin 1024) (o : Fin 2048) :
    (W14 V main_v200 : Vec Ideal S1x1024x2048 .f32) (ix3 0 s o) = Cert.Spec.afterAttn 𝐱₁ 𝐦 𝐜 𝐬 𝐰₁ s o :=
  ref_seg13_v200 (W13 V) 𝐱₁ _ (𝐰₁).Wo (fun s h => (congrFun ((seg12_keep _ main_v117 (by decide)).trans <| (seg11_keep _ main_v117 (by decide)).trans <| (seg10_keep _ main_v117 (by decide)).trans <| (seg9_keep _ main_v117 (by decide)).trans <| (seg8_keep _ main_v117 (by decide))) (ix3 0 s h)).trans (r8_hid V s h)) (r13_attn V)
    (fun o h => (congrFun ((seg12_keep _ main_v129 (by decide)).trans <| (seg11_keep _ main_v129 (by decide)).trans <| (seg10_keep _ main_v129 (by decide)).trans <| (seg9_keep _ main_v129 (by decide))) (ix2 o h)).trans (r9_Wo V o h)) s o

theorem r15_norm (s : Fin 1024) (h : Fin 2048) :
    (W15 V main_v213 : Vec Ideal S1x1024x2048 .f32) (ix3 0 s h) = Cert.Spec.rms (Cert.Spec.afterAttn 𝐱₁ 𝐦 𝐜 𝐬 𝐰₁) (𝐰₁).g2 s h :=
  ref_seg14_v213 (W14 V) _ (𝐰₁).g2 (r14_hid V) (fun h => (congrFun ((seg13_keep _ main_v121 (by decide)).trans <| (seg12_keep _ main_v121 (by decide)).trans <| (seg11_keep _ main_v121 (by decide)).trans <| (seg10_keep _ main_v121 (by decide)).trans <| (seg9_keep _ main_v121 (by decide))) (ix1 h)).trans (r9_g2 V h)) s h

theorem r16_hid (s : Fin 1024) (o : Fin 2048) :
    (W16 V main_v219 : Vec Ideal S1x1024x2048 .f32) (ix3 0 s o) = outHid row 𝐚 s o :=
  ref_seg15_v219 (W15 V) (Cert.Spec.afterAttn 𝐱₁ 𝐦 𝐜 𝐬 𝐰₁) _ (𝐰₁).Wg (𝐰₁).Wu (𝐰₁).Wd
    (fun s h => (congrFun ((seg14_keep _ main_v200 (by decide))) (ix3 0 s h)).trans (r14_hid V s h)) (r15_norm V)
    (fun i h => (congrFun ((seg14_keep _ main_v131 (by decide)).trans <| (seg13_keep _ main_v131 (by decide)).trans <| (seg12_keep _ main_v131 (by decide)).trans <| (seg11_keep _ main_v131 (by decide)).trans <| (seg10_keep _ main_v131 (by decide)).trans <| (seg9_keep _ main_v131 (by decide))) (ix2 i h)).trans (r9_Wg V i h))
    (fun i h => (congrFun ((seg14_keep _ main_v133 (by decide)).trans <| (seg13_keep _ main_v133 (by decide)).trans <| (seg12_keep _ main_v133 (by decide)).trans <| (seg11_keep _ main_v133 (by decide)).trans <| (seg10_keep _ main_v133 (by decide)).trans <| (seg9_keep _ main_v133 (by decide))) (ix2 i h)).trans (r9_Wu V i h))
    (fun o i => (congrFun ((seg14_keep _ main_v135 (by decide)).trans <| (seg13_keep _ main_v135 (by decide)).trans <| (seg12_keep _ main_v135 (by decide)).trans <| (seg11_keep _ main_v135 (by decide)).trans <| (seg10_keep _ main_v135 (by decide)).trans <| (seg9_keep _ main_v135 (by decide))) (ix2 o i)).trans (r9_Wd V o i)) s o

/-! ## The three results -/

/-- The reference's hidden-state result at `(0, s, h)`. -/
theorem ref_out_of (s : Fin 1024) (h : Fin 2048) :
    (after (ops (F := Ideal)) V main_v219 : Vec Ideal S1x1024x2048 .f32) (ix3 0 s h) = outHid row (refArgs V) s h := by
  rw [after_ops_eq]
  exact (congrFun ((seg16_keep _ main_v219 (by decide))) (ix3 0 s h)).trans (r16_hid V s h)

/-- The reference's stacked new keys at `(l, 0, kv, s, d)`. -/
theorem ref_k_of (l : Fin 2) (kv : Fin 8) (s : Fin 1024) (d : Fin 64) :
    (after (ops (F := Ideal)) V main_v222 : Vec Ideal S2x1x8x1024x64 .f32) (ix5 l 0 kv s d) = outK row (refArgs V) l kv s d := by
  rw [after_ops_eq]
  refine (ref_seg16_v222 (W16 V) (Cert.Spec.newK 𝐱₀ 𝐜 𝐬 𝐰₀) (Cert.Spec.newK 𝐱₁ 𝐜 𝐬 𝐰₁)
    (fun kv s d => (congrFun ((seg15_keep _ main_v73 (by decide)).trans <| (seg14_keep _ main_v73 (by decide)).trans <| (seg13_keep _ main_v73 (by decide)).trans <| (seg12_keep _ main_v73 (by decide)).trans <| (seg11_keep _ main_v73 (by decide)).trans <| (seg10_keep _ main_v73 (by decide)).trans <| (seg9_keep _ main_v73 (by decide)).trans <| (seg8_keep _ main_v73 (by decide)).trans <| (seg7_keep _ main_v73 (by decide)).trans <| (seg6_keep _ main_v73 (by decide)).trans <| (seg5_keep _ main_v73 (by decide)).trans <| (seg4_keep _ main_v73 (by decide))) (ix4 0 kv s d)).trans (r4_k V kv s d))
    (fun kv s d => (congrFun ((seg15_keep _ main_v175 (by decide)).trans <| (seg14_keep _ main_v175 (by decide)).trans <| (seg13_keep _ main_v175 (by decide)).trans <| (seg12_keep _ main_v175 (by decide))) (ix4 0 kv s d)).trans (r12_k V kv s d)) l kv s d).trans ?_
  unfold outK
  match l with
  | ⟨0, _⟩ => rfl
  | ⟨1, _⟩ => rfl

/-- The reference's stacked new values at `(l, 0, kv, s, d)`. -/
theorem ref_v_of (l : Fin 2) (kv : Fin 8) (s : Fin 1024) (d : Fin 64) :
    (after (ops (F := Ideal)) V main_v225 : Vec Ideal S2x1x8x1024x64 .f32) (ix5 l 0 kv s d) = outV row (refArgs V) l kv s d := by
  rw [after_ops_eq]
  refine (ref_seg16_v225 (W16 V) (Cert.Spec.newV 𝐱₀ 𝐰₀) (Cert.Spec.newV 𝐱₁ 𝐰₁)
    (fun kv s d => (congrFun ((seg15_keep _ main_v55 (by decide)).trans <| (seg14_keep _ main_v55 (by decide)).trans <| (seg13_keep _ main_v55 (by decide)).trans <| (seg12_keep _ main_v55 (by decide)).trans <| (seg11_keep _ main_v55 (by decide)).trans <| (seg10_keep _ main_v55 (by decide)).trans <| (seg9_keep _ main_v55 (by decide)).trans <| (seg8_keep _ main_v55 (by decide)).trans <| (seg7_keep _ main_v55 (by decide)).trans <| (seg6_keep _ main_v55 (by decide)).trans <| (seg5_keep _ main_v55 (by decide)).trans <| (seg4_keep _ main_v55 (by decide)).trans <| (seg3_keep _ main_v55 (by decide))) (ix4 0 kv s d)).trans (r3_v V kv s d))
    (fun kv s d => (congrFun ((seg15_keep _ main_v157 (by decide)).trans <| (seg14_keep _ main_v157 (by decide)).trans <| (seg13_keep _ main_v157 (by decide)).trans <| (seg12_keep _ main_v157 (by decide)).trans <| (seg11_keep _ main_v157 (by decide))) (ix4 0 kv s d)).trans (r11_v V kv s d)) l kv s d).trans ?_
  unfold outV
  match l with
  | ⟨0, _⟩ => rfl
  | ⟨1, _⟩ => rfl

/-! ## Over the launch memory -/

/-- The argument arrays read off the launch contents are the ones read off the memory. -/
theorem refArgs_launch (m' : (ℓ : Loc nD τ sig) → Buf (Elt Ideal) ℓ) (c : Dev nD) :
    refArgs (launchContents m' c) = refArgsOf m' c := rfl

theorem ref_out (m' : (ℓ : Loc nD τ sig) → Buf (Elt Ideal) ℓ) (c : Dev nD) (s : Fin 1024) (h : Fin 2048) :
    (StableHlo.after (ops (F := Ideal)) (launchContents m' c) (Proc.devRef .tc main_v219) : Vec Ideal S1x1024x2048 .f32) (ix3 0 s h)
      = Cert.KV.outHid Cert.KV.row (Cert.KV.refArgsOf m' c) s h :=
  (ref_out_of (launchContents m' c) s h).trans (by rw [refArgs_launch])

theorem ref_k (m' : (ℓ : Loc nD τ sig) → Buf (Elt Ideal) ℓ) (c : Dev nD) (l : Fin 2) (kv : Fin 8) (s : Fin 1024) (d : Fin 64) :
    (StableHlo.after (ops (F := Ideal)) (launchContents m' c) (Proc.devRef .tc main_v222) : Vec Ideal S2x1x8x1024x64 .f32) (ix5 l 0 kv s d)
      = Cert.KV.outK Cert.KV.row (Cert.KV.refArgsOf m' c) l kv s d :=
  (ref_k_of (launchContents m' c) l kv s d).trans (by rw [refArgs_launch])

theorem ref_v (m' : (ℓ : Loc nD τ sig) → Buf (Elt Ideal) ℓ) (c : Dev nD) (l : Fin 2) (kv : Fin 8) (s : Fin 1024) (d : Fin 64) :
    (StableHlo.after (ops (F := Ideal)) (launchContents m' c) (Proc.devRef .tc main_v225) : Vec Ideal S2x1x8x1024x64 .f32) (ix5 l 0 kv s d)
      = Cert.KV.outV Cert.KV.row (Cert.KV.refArgsOf m' c) l kv s d :=
  (ref_v_of (launchContents m' c) l kv s d).trans (by rw [refArgs_launch])

end Cert.KV

end
-- ==== Proof.Alg.lean ====
import proofs.«167047_j26895085207995_2_alg».proof.Defs
import proofs.«167047_j26895085207995_2_alg».proof.Proof.Gen.KernelIdeal
import proofs.«167047_j26895085207995_2_alg».proof.Proof.Gen.KernelIdeal.Regions
import proofs.«167047_j26895085207995_2_alg».proof.Proof.Gen.ReferenceIdeal
import proofs.«167047_j26895085207995_2_alg».proof.Proof.Gen.Pre_finite_inputs
import proofs.«167047_j26895085207995_2_alg».proof.Proof.KI.Run
import proofs.«167047_j26895085207995_2_alg».proof.Proof.Val.KValue
import proofs.«167047_j26895085207995_2_alg».proof.Proof.Ref.Run
import proofs.«167047_j26895085207995_2_alg».proof.Proof.Ref.Value
import proofs.«167047_j26895085207995_2_alg».proof.Proof.Val.ArgsOf
import Idealize.ShloMosaic.Lib.ValueIdx

/-! # The two programs end with equal results

From launch memories that agree on the fourteen argument arrays, the kernel program's run ends with its three result
arrays at the last boundary's contents and the reference program's run with its three result arrays at the fold of
its operations over the launch contents. Each of the six arrays, read entry by entry, is the specification's function
of that program's arguments — the second layer's hidden states, the two layers' new keys, the two layers' new values —
and the two programs' arguments are equal, so the arrays are equal entry by entry, hence equal. Neither run writes
an argument. The results' leading axes of extent one carry the one coordinate `0`. -/

noncomputable section

open Idealize.ShloMosaic Idealize.ShloMosaic.TcCoe Idealize.ShloMosaic.ValueIdx Idealize.SL.Sem

namespace Cert.Proof.Alg

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The three results: the kernel program's result arrays at its last boundary. -/
abbrev vHid (c : Dev Cert.KernelIdeal.nD) : Vec Ideal Cert.KernelIdeal.S1x1024x2048 .f32 :=
  Cert.KernelIdeal.Gen.B19 (F := Ideal) m c Cert.KernelIdeal.main_v102
abbrev vK (c : Dev Cert.KernelIdeal.nD) : Vec Ideal Cert.KernelIdeal.S2x1x8x1024x64 .f32 :=
  Cert.KernelIdeal.Gen.B19 (F := Ideal) m c Cert.KernelIdeal.main_v105
abbrev vV (c : Dev Cert.KernelIdeal.nD) : Vec Ideal Cert.KernelIdeal.S2x1x8x1024x64 .f32 :=
  Cert.KernelIdeal.Gen.B19 (F := Ideal) m c Cert.KernelIdeal.main_v108

/-- The reference program's three result arrays after its operations. -/
abbrev rHid (c : Dev Cert.ReferenceIdeal.nD) : Vec Ideal Cert.ReferenceIdeal.S1x1024x2048 .f32 :=
  StableHlo.after (Cert.ReferenceIdeal.RunP.ops (F := Ideal)) (StableHlo.launchContents m' c) (Proc.devRef .tc Cert.ReferenceIdeal.main_v219)
abbrev rK (c : Dev Cert.ReferenceIdeal.nD) : Vec Ideal Cert.ReferenceIdeal.S2x1x8x1024x64 .f32 :=
  StableHlo.after (Cert.ReferenceIdeal.RunP.ops (F := Ideal)) (StableHlo.launchContents m' c) (Proc.devRef .tc Cert.ReferenceIdeal.main_v222)
abbrev rV (c : Dev Cert.ReferenceIdeal.nD) : Vec Ideal Cert.ReferenceIdeal.S2x1x8x1024x64 .f32 :=
  StableHlo.after (Cert.ReferenceIdeal.RunP.ops (F := Ideal)) (StableHlo.launchContents m' c) (Proc.devRef .tc Cert.ReferenceIdeal.main_v225)

/-- The memories agree on the fourteen arguments, device by device. -/
abbrev Agree : Prop :=
  ∀ c : Dev Cert.KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12)
      ∧ m' ((c.tc : Thread ReferenceIdeal.nD ReferenceIdeal.τ).loc ReferenceIdeal.main_arg13) = m ((c.tc : Thread KernelIdeal.nD KernelIdeal.τ).loc KernelIdeal.main_arg13)

variable {m m'}

/-! ## From entries to arrays -/

/-- The hidden states: equal at every entry `(0, s, h)`, and every index is of that form. -/
theorem hid_eq (hagree : Agree m m') (c : Dev Cert.KernelIdeal.nD) : rHid m' c = vHid m c := by
  funext i
  obtain ⟨a, s, h, rfl⟩ : ∃ (a : Fin 1) (s : Fin 1024) (h : Fin 2048), i = ix3 a s h := ⟨i 0, i 1, i 2, eq_ix3 i⟩
  obtain rfl : a = 0 := Subsingleton.elim _ _
  refine (Cert.KV.ref_out m' c s h).trans ?_
  rw [Cert.KV.args_agree m m' hagree c]
  exact (Cert.KV.kernel_out m c s h).symm

/-- The new keys: equal at every entry `(l, 0, kv, s, d)`. -/
theorem k_eq (hagree : Agree m m') (c : Dev Cert.KernelIdeal.nD) : rK m' c = vK m c := by
  funext i
  obtain ⟨l, a, kv, s, d, rfl⟩ : ∃ (l : Fin 2) (a : Fin 1) (kv : Fin 8) (s : Fin 1024) (d : Fin 64), i = ix5 l a kv s d :=
    ⟨i 0, i 1, i 2, i 3, i 4, eq_ix5 i⟩
  obtain rfl : a = 0 := Subsingleton.elim _ _
  refine (Cert.KV.ref_k m' c l kv s d).trans ?_
  rw [Cert.KV.args_agree m m' hagree c]
  exact (Cert.KV.kernel_k m c l kv s d).symm

/-- The new values: the same. -/
theorem v_eq (hagree : Agree m m') (c : Dev Cert.KernelIdeal.nD) : rV m' c = vV m c := by
  funext i
  obtain ⟨l, a, kv, s, d, rfl⟩ : ∃ (l : Fin 2) (a : Fin 1) (kv : Fin 8) (s : Fin 1024) (d : Fin 64), i = ix5 l a kv s d :=
    ⟨i 0, i 1, i 2, i 3, i 4, eq_ix5 i⟩
  obtain rfl : a = 0 := Subsingleton.elim _ _
  refine (Cert.KV.ref_v m' c l kv s d).trans ?_
  rw [Cert.KV.args_agree m m' hagree c]
  exact (Cert.KV.kernel_v m c l kv s d).symm

variable (m m')

/-! ## The two runs -/

/-- The kernel program's run: the three results at the last boundary's contents, the arguments as launched. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread KernelIdeal.nD KernelIdeal.τ).loc KernelIdeal.main_v102) = vHid m c
      ∧ r.2.mem ((c.tc : Thread KernelIdeal.nD KernelIdeal.τ).loc KernelIdeal.main_v105) = vK m c
      ∧ r.2.mem ((c.tc : Thread KernelIdeal.nD KernelIdeal.τ).loc KernelIdeal.main_v108) = vV m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8)
      ∧ r.2.mem ((c.tc : Thread KernelIdeal.nD KernelIdeal.τ).loc KernelIdeal.main_arg9) = m ((c.tc : Thread KernelIdeal.nD KernelIdeal.τ).loc KernelIdeal.main_arg9)
      ∧ r.2.mem ((c.tc : Thread KernelIdeal.nD KernelIdeal.τ).loc KernelIdeal.main_arg10) = m ((c.tc : Thread KernelIdeal.nD KernelIdeal.τ).loc KernelIdeal.main_arg10)
      ∧ r.2.mem ((c.tc : Thread KernelIdeal.nD KernelIdeal.τ).loc KernelIdeal.main_arg11) = m ((c.tc : Thread KernelIdeal.nD KernelIdeal.τ).loc KernelIdeal.main_arg11)
      ∧ r.2.mem ((c.tc : Thread KernelIdeal.nD KernelIdeal.τ).loc KernelIdeal.main_arg12) = m ((c.tc : Thread KernelIdeal.nD KernelIdeal.τ).loc KernelIdeal.main_arg12)
      ∧ r.2.mem ((c.tc : Thread KernelIdeal.nD KernelIdeal.τ).loc KernelIdeal.main_arg13) = m ((c.tc : Thread KernelIdeal.nD KernelIdeal.τ).loc KernelIdeal.main_arg13)) :=
  (θ_run (Cert.KernelIdeal.defs (F := Ideal)) _ _).mono (fun r hr c => by
    have ha := fun (b : Ref KernelIdeal.sig .tc) (hb : ¬ (Proc.devRef .tc b : DevRef KernelIdeal.τ KernelIdeal.sig).isScoped) =>
      hr c _ (KernelIdeal.Gen.mem_uc b hb)
    have hb := fun (b : Ref KernelIdeal.sig .tc) (hb : ¬ (Proc.devRef .tc b : DevRef KernelIdeal.τ KernelIdeal.sig).isScoped) =>
      (ha b hb).trans (congrFun (KernelIdeal.Gen.V19_eq m c).symm _)
    exact ⟨ha KernelIdeal.main_v102 (by decide), ha KernelIdeal.main_v105 (by decide), ha KernelIdeal.main_v108 (by decide),
      (hb KernelIdeal.main_arg0 (by decide)).trans (KernelIdeal.Gen.V19_main_arg0 m (KernelIdeal.Gen.outsR m) c),
      (hb KernelIdeal.main_arg1 (by decide)).trans (KernelIdeal.Gen.V19_main_arg1 m (KernelIdeal.Gen.outsR m) c),
      (hb KernelIdeal.main_arg2 (by decide)).trans (KernelIdeal.Gen.V19_main_arg2 m (KernelIdeal.Gen.outsR m) c),
      (hb KernelIdeal.main_arg3 (by decide)).trans (KernelIdeal.Gen.V19_main_arg3 m (KernelIdeal.Gen.outsR m) c),
      (hb KernelIdeal.main_arg4 (by decide)).trans (KernelIdeal.Gen.V19_main_arg4 m (KernelIdeal.Gen.outsR m) c),
      (hb KernelIdeal.main_arg5 (by decide)).trans (KernelIdeal.Gen.V19_main_arg5 m (KernelIdeal.Gen.outsR m) c),
      (hb KernelIdeal.main_arg6 (by decide)).trans (KernelIdeal.Gen.V19_main_arg6 m (KernelIdeal.Gen.outsR m) c),
      (hb KernelIdeal.main_arg7 (by decide)).trans (KernelIdeal.Gen.V19_main_arg7 m (KernelIdeal.Gen.outsR m) c),
      (hb KernelIdeal.main_arg8 (by decide)).trans (KernelIdeal.Gen.V19_main_arg8 m (KernelIdeal.Gen.outsR m) c),
      (hb KernelIdeal.main_arg9 (by decide)).trans (KernelIdeal.Gen.V19_main_arg9 m (KernelIdeal.Gen.outsR m) c),
      (hb KernelIdeal.main_arg10 (by decide)).trans (KernelIdeal.Gen.V19_main_arg10 m (KernelIdeal.Gen.outsR m) c),
      (hb KernelIdeal.main_arg11 (by decide)).trans (KernelIdeal.Gen.V19_main_arg11 m (KernelIdeal.Gen.outsR m) c),
      (hb KernelIdeal.main_arg12 (by decide)).trans (KernelIdeal.Gen.V19_main_arg12 m (KernelIdeal.Gen.outsR m) c),
      (hb KernelIdeal.main_arg13 (by decide)).trans (KernelIdeal.Gen.V19_main_arg13 m (KernelIdeal.Gen.outsR m) c)⟩) (KernelIdeal.Gen.run m g)

/-- The reference program's run: its three results at the kernel program's, its arguments as launched. -/
theorem ref_run (hagree : Agree m m') (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread ReferenceIdeal.nD ReferenceIdeal.τ).loc ReferenceIdeal.main_v219) = vHid m c
      ∧ r.2.mem ((c.tc : Thread ReferenceIdeal.nD ReferenceIdeal.τ).loc ReferenceIdeal.main_v222) = vK m c
      ∧ r.2.mem ((c.tc : Thread ReferenceIdeal.nD ReferenceIdeal.τ).loc ReferenceIdeal.main_v225) = vV m c
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3)
      ∧ r.2.mem ((c.tc : Thread ReferenceIdeal.nD ReferenceIdeal.τ).loc ReferenceIdeal.main_arg4) = m' ((c.tc : Thread ReferenceIdeal.nD ReferenceIdeal.τ).loc ReferenceIdeal.main_arg4)
      ∧ r.2.mem ((c.tc : Thread ReferenceIdeal.nD ReferenceIdeal.τ).loc ReferenceIdeal.main_arg5) = m' ((c.tc : Thread ReferenceIdeal.nD ReferenceIdeal.τ).loc ReferenceIdeal.main_arg5)
      ∧ r.2.mem ((c.tc : Thread ReferenceIdeal.nD ReferenceIdeal.τ).loc ReferenceIdeal.main_arg6) = m' ((c.tc : Thread ReferenceIdeal.nD ReferenceIdeal.τ).loc ReferenceIdeal.main_arg6)
      ∧ r.2.mem ((c.tc : Thread ReferenceIdeal.nD ReferenceIdeal.τ).loc ReferenceIdeal.main_arg7) = m' ((c.tc : Thread ReferenceIdeal.nD ReferenceIdeal.τ).loc ReferenceIdeal.main_arg7)
      ∧ r.2.mem ((c.tc : Thread ReferenceIdeal.nD ReferenceIdeal.τ).loc ReferenceIdeal.main_arg8) = m' ((c.tc : Thread ReferenceIdeal.nD ReferenceIdeal.τ).loc ReferenceIdeal.main_arg8)
      ∧ r.2.mem ((c.tc : Thread ReferenceIdeal.nD ReferenceIdeal.τ).loc ReferenceIdeal.main_arg9) = m' ((c.tc : Thread ReferenceIdeal.nD ReferenceIdeal.τ).loc ReferenceIdeal.main_arg9)
      ∧ r.2.mem ((c.tc : Thread ReferenceIdeal.nD ReferenceIdeal.τ).loc ReferenceIdeal.main_arg10) = m' ((c.tc : Thread ReferenceIdeal.nD ReferenceIdeal.τ).loc ReferenceIdeal.main_arg10)
      ∧ r.2.mem ((c.tc : Thread ReferenceIdeal.nD ReferenceIdeal.τ).loc ReferenceIdeal.main_arg11) = m' ((c.tc : Thread ReferenceIdeal.nD ReferenceIdeal.τ).loc ReferenceIdeal.main_arg11)
      ∧ r.2.mem ((c.tc : Thread ReferenceIdeal.nD ReferenceIdeal.τ).loc ReferenceIdeal.main_arg12) = m' ((c.tc : Thread ReferenceIdeal.nD ReferenceIdeal.τ).loc ReferenceIdeal.main_arg12)
      ∧ r.2.mem ((c.tc : Thread ReferenceIdeal.nD ReferenceIdeal.τ).loc ReferenceIdeal.main_arg13) = m' ((c.tc : Thread ReferenceIdeal.nD ReferenceIdeal.τ).loc ReferenceIdeal.main_arg13)) :=
  (θ_run (Cert.ReferenceIdeal.defs (F := Ideal)) _ _).mono (fun r h c =>
    ⟨(h c ReferenceIdeal.main_v219).trans (hid_eq hagree c), (h c ReferenceIdeal.main_v222).trans (k_eq hagree c), (h c ReferenceIdeal.main_v225).trans (v_eq hagree c),
      (h c ReferenceIdeal.main_arg0).trans (ReferenceIdeal.RunP.after_main_arg0 (StableHlo.launchContents m' c)),
      (h c ReferenceIdeal.main_arg1).trans (ReferenceIdeal.RunP.after_main_arg1 (StableHlo.launchContents m' c)),
      (h c ReferenceIdeal.main_arg2).trans (ReferenceIdeal.RunP.after_main_arg2 (StableHlo.launchContents m' c)),
      (h c ReferenceIdeal.main_arg3).trans (ReferenceIdeal.RunP.after_main_arg3 (StableHlo.launchContents m' c)),
      (h c ReferenceIdeal.main_arg4).trans (ReferenceIdeal.RunP.after_main_arg4 (StableHlo.launchContents m' c)),
      (h c ReferenceIdeal.main_arg5).trans (ReferenceIdeal.RunP.after_main_arg5 (StableHlo.launchContents m' c)),
      (h c ReferenceIdeal.main_arg6).trans (ReferenceIdeal.RunP.after_main_arg6 (StableHlo.launchContents m' c)),
      (h c ReferenceIdeal.main_arg7).trans (ReferenceIdeal.RunP.after_main_arg7 (StableHlo.launchContents m' c)),
      (h c ReferenceIdeal.main_arg8).trans (ReferenceIdeal.RunP.after_main_arg8 (StableHlo.launchContents m' c)),
      (h c ReferenceIdeal.main_arg9).trans (ReferenceIdeal.RunP.after_main_arg9 (StableHlo.launchContents m' c)),
      (h c ReferenceIdeal.main_arg10).trans (ReferenceIdeal.RunP.after_main_arg10 (StableHlo.launchContents m' c)),
      (h c ReferenceIdeal.main_arg11).trans (ReferenceIdeal.RunP.after_main_arg11 (StableHlo.launchContents m' c)),
      (h c ReferenceIdeal.main_arg12).trans (ReferenceIdeal.RunP.after_main_arg12 (StableHlo.launchContents m' c)),
      (h c ReferenceIdeal.main_arg13).trans (ReferenceIdeal.RunP.after_main_arg13 (StableHlo.launchContents m' c))⟩) (ReferenceIdeal.RunP.run m' g')

/-- The algebraic conjunct. -/
theorem algebraic : Cert.algebraic_KernelIdeal_ReferenceIdeal := by
  intro m g m' g' _ hagree
  exact ⟨vHid m, vK m, vV m, kernel_run m g, ref_run m m' hagree g'⟩

end Cert.Proof.Alg

end
-- ==== Proof.lean ====
/-
  A two-layer decoder computed two ways: ten kernel launches among host plumbing, and the plain array program.
  Each kernel region is a grid of block computations; its output array after the last grid point is the specification's
  function of the arrays it found (RMS normalisation into the fused q/k/v projection; rotary embedding of the keys;
  rotary embedding of the queries with grouped-query softmax attention under an additive mask; the output projection
  with its residual; the gated feed-forward block accumulated over sixteen tiles of the inner axis with its residual).
  On the extended reals the two programs agree with no side condition: the mean square plus the small constant is
  strictly positive, so x · rsqrt v = x / sqrt v there; the kernel's logistic is 1 / (1 + e^{-x}) by definition;
  · 0.125 is / 8; a sum over 8192 is the sum of its sixteen tiles' sums; the row maximum from -∞ is the supremum.
  The frames: every launch stages, computes and writes back only its own output array, and no host operation
  writes an argument, so the arguments end as launched; the reference is a straight-line host program.
-/
import proofs.«167047_j26895085207995_2_alg».proof.Defs
import proofs.«167047_j26895085207995_2_alg».proof.Proof.Gen.Kernel
import proofs.«167047_j26895085207995_2_alg».proof.Proof.Gen.KernelIdeal
import proofs.«167047_j26895085207995_2_alg».proof.Proof.Gen.ReferenceIdeal
import proofs.«167047_j26895085207995_2_alg».proof.Proof.Gen.Pre_finite_inputs
import proofs.«167047_j26895085207995_2_alg».proof.Proof.KB.Run
import proofs.«167047_j26895085207995_2_alg».proof.Proof.KI.Run
import proofs.«167047_j26895085207995_2_alg».proof.Proof.Ref.Run
import proofs.«167047_j26895085207995_2_alg».proof.Proof.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.RunP.frame m ρ,
  trivial,
  Cert.Proof.Alg.algebraic⟩

end Cert.Proof

end
